-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S65536x512 : Shape := ⟨2, ![65536, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S65536x512 : S_.BroadcastsInDim S65536x512 (![] : Fin 0 → Fin S65536x512.rank)
  reducesTo_S65536x512_S_d0_1 : S65536x512.ReducesTo [0, 1] S_

variable [Facts]

def fn {F : FTy → Type} [FloatOps F] (main_arg0 : FVec F S512 .f32) (main_arg1 : FVec F S65536x512 .f32) : IVec S_ 1 :=
  let main_v0 : FVec F S512 .f32 := Host.absf main_arg0
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  main_v8
-- ==== Kernel.lean ====
abbrev S512 : Shape := ⟨1, ![512]⟩
abbrev S65536x512 : Shape := ⟨2, ![65536, 512]⟩
abbrev S6x32x512 : Shape := ⟨3, ![6, 32, 512]⟩
abbrev S8x512 : Shape := ⟨2, ![8, 512]⟩
abbrev S_ : Shape := ⟨0, ![]⟩
abbrev S1x32x512 : Shape := ⟨3, ![1, 32, 512]⟩
abbrev S32x512 : Shape := ⟨2, ![32, 512]⟩
abbrev S1x1x16 : Shape := ⟨3, ![1, 1, 16]⟩
abbrev S16 : Shape := ⟨1, ![16]⟩
abbrev S1x16 : Shape := ⟨2, ![1, 16]⟩

abbrev nBuf : Table → Nat
  | .hbm => 3
  | .local .scVector .vmem => 3
  | _ => 0

abbrev bufTy : (tb : Table) → Fin (nBuf tb) → BufTy
  | .hbm, ⟨0, _⟩ => ⟨S512, .f32⟩
  | .hbm, ⟨1, _⟩ => ⟨S65536x512, .f32⟩
  | .hbm, ⟨2, _⟩ => ⟨S65536x512, .f32⟩
  | .local .scVector .vmem, ⟨0, _⟩ => ⟨S6x32x512, .f32⟩
  | .local .scVector .vmem, ⟨1, _⟩ => ⟨S8x512, .f32⟩
  | .local .scVector .vmem, ⟨2, _⟩ => ⟨S512, .f32⟩
  | _, _ => ⟨S512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_1 : BitVec 32 := 31#32
  let v8 : BitVec 1 := Scalar.cmpi .slt v1 c31_i32_1
  let v9 : BitVec 32 := Scalar.extui v8
  let c0_i32_2 : BitVec 32 := 0#32
  let v10 : BitVec 1 := Scalar.cmpi .ne v9 c0_i32_2
  v10

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2048_i32_0 : BitVec 32 := 2048#32
  let v3 : BitVec 32 := Scalar.addi v2 c2048_i32_0
  let c65528_i32 : BitVec 32 := 65528#32
  let v4 : BitVec 32 := Scalar.minsi v3 c65528_i32
  let c0_i32_96 : BitVec 32 := 0#32
  ![v4.toNat, 0]
def k0_off2 (i : grid0.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v11 : BitVec 32 := Scalar.addi v2 c0_i32_3
  let c0_i32_7 : BitVec 32 := 0#32
  ![v11.toNat, 0]
@[reducible] def k0_t1_loop : Scf.Loop 32 :=
  let c0_i32_40 : BitVec 32 := 0#32
  let c64_i32_41 : BitVec 32 := 64#32
  let v45 : BitVec 32 := Scalar.addi c0_i32_40 c64_i32_41
  let c1_i32_42 : BitVec 32 := 1#32
  ⟨c0_i32_40, v45, c1_i32_42⟩
def k0_cond3 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c4_i32_100 : BitVec 32 := 4#32
  let v87 : BitVec 32 := Scalar.addi arg22 c4_i32_100
  let c64_i32_101 : BitVec 32 := 64#32
  let v88 : BitVec 1 := Scalar.cmpi .slt v87 c64_i32_101
  let v89 : BitVec 32 := Scalar.extui v88
  let c0_i32_102 : BitVec 32 := 0#32
  let v90 : BitVec 1 := Scalar.cmpi .ne v89 c0_i32_102
  v90

def k0_cond11 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c4_i32_98 : BitVec 32 := 4#32
  let v85 : BitVec 32 := Scalar.addi arg22 c4_i32_98
  let c6_i32_99 : BitVec 32 := 6#32
  let v86 : BitVec 32 := Scalar.remsi v85 c6_i32_99
  let c0_i32_987 : BitVec 32 := 0#32
  let v2143 : BitVec 1 := Scalar.cmpi .eq v86 c0_i32_987
  let v2144 : BitVec 32 := Scalar.extui v2143
  let c0_i32_988 : BitVec 32 := 0#32
  let v2145 : BitVec 1 := Scalar.cmpi .ne v2144 c0_i32_988
  v2145

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c4_i32_985 : BitVec 32 := 4#32
  let v2140 : BitVec 32 := Scalar.addi arg22 c4_i32_985
  let c32_i32_986 : BitVec 32 := 32#32
  let v2141 : BitVec 32 := Scalar.muli v2140 c32_i32_986
  let v2142 : BitVec 32 := Scalar.addi v2 v2141
  let c0_i32_1002 : BitVec 32 := 0#32
  ![v2142.toNat, 0]
def k0_cond12 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c4_i32_98 : BitVec 32 := 4#32
  let v85 : BitVec 32 := Scalar.addi arg22 c4_i32_98
  let c6_i32_99 : BitVec 32 := 6#32
  let v86 : BitVec 32 := Scalar.remsi v85 c6_i32_99
  let c1_i32_989 : BitVec 32 := 1#32
  let v2146 : BitVec 1 := Scalar.cmpi .eq v86 c1_i32_989
  let v2147 : BitVec 32 := Scalar.extui v2146
  let c0_i32_990 : BitVec 32 := 0#32
  let v2148 : BitVec 1 := Scalar.cmpi .ne v2147 c0_i32_990
  v2148

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c4_i32_985 : BitVec 32 := 4#32
  let v2140 : BitVec 32 := Scalar.addi arg22 c4_i32_985
  let c32_i32_986 : BitVec 32 := 32#32
  let v2141 : BitVec 32 := Scalar.muli v2140 c32_i32_986
  let v2142 : BitVec 32 := Scalar.addi v2 v2141
  let c0_i32_1002 : BitVec 32 := 0#32
  ![v2142.toNat, 0]
def k0_cond13 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c4_i32_98 : BitVec 32 := 4#32
  let v85 : BitVec 32 := Scalar.addi arg22 c4_i32_98
  let c6_i32_99 : BitVec 32 := 6#32
  let v86 : BitVec 32 := Scalar.remsi v85 c6_i32_99
  let c2_i32_991 : BitVec 32 := 2#32
  let v2149 : BitVec 1 := Scalar.cmpi .eq v86 c2_i32_991
  let v2150 : BitVec 32 := Scalar.extui v2149
  let c0_i32_992 : BitVec 32 := 0#32
  let v2151 : BitVec 1 := Scalar.cmpi .ne v2150 c0_i32_992
  v2151

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c4_i32_985 : BitVec 32 := 4#32
  let v2140 : BitVec 32 := Scalar.addi arg22 c4_i32_985
  let c32_i32_986 : BitVec 32 := 32#32
  let v2141 : BitVec 32 := Scalar.muli v2140 c32_i32_986
  let v2142 : BitVec 32 := Scalar.addi v2 v2141
  let c0_i32_1002 : BitVec 32 := 0#32
  ![v2142.toNat, 0]
def k0_cond14 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c4_i32_98 : BitVec 32 := 4#32
  let v85 : BitVec 32 := Scalar.addi arg22 c4_i32_98
  let c6_i32_99 : BitVec 32 := 6#32
  let v86 : BitVec 32 := Scalar.remsi v85 c6_i32_99
  let c3_i32_993 : BitVec 32 := 3#32
  let v2152 : BitVec 1 := Scalar.cmpi .eq v86 c3_i32_993
  let v2153 : BitVec 32 := Scalar.extui v2152
  let c0_i32_994 : BitVec 32 := 0#32
  let v2154 : BitVec 1 := Scalar.cmpi .ne v2153 c0_i32_994
  v2154

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c4_i32_985 : BitVec 32 := 4#32
  let v2140 : BitVec 32 := Scalar.addi arg22 c4_i32_985
  let c32_i32_986 : BitVec 32 := 32#32
  let v2141 : BitVec 32 := Scalar.muli v2140 c32_i32_986
  let v2142 : BitVec 32 := Scalar.addi v2 v2141
  let c0_i32_1002 : BitVec 32 := 0#32
  ![v2142.toNat, 0]
def k0_cond15 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c4_i32_98 : BitVec 32 := 4#32
  let v85 : BitVec 32 := Scalar.addi arg22 c4_i32_98
  let c6_i32_99 : BitVec 32 := 6#32
  let v86 : BitVec 32 := Scalar.remsi v85 c6_i32_99
  let c4_i32_995 : BitVec 32 := 4#32
  let v2155 : BitVec 1 := Scalar.cmpi .eq v86 c4_i32_995
  let v2156 : BitVec 32 := Scalar.extui v2155
  let c0_i32_996 : BitVec 32 := 0#32
  let v2157 : BitVec 1 := Scalar.cmpi .ne v2156 c0_i32_996
  v2157

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c4_i32_985 : BitVec 32 := 4#32
  let v2140 : BitVec 32 := Scalar.addi arg22 c4_i32_985
  let c32_i32_986 : BitVec 32 := 32#32
  let v2141 : BitVec 32 := Scalar.muli v2140 c32_i32_986
  let v2142 : BitVec 32 := Scalar.addi v2 v2141
  let c0_i32_1002 : BitVec 32 := 0#32
  ![v2142.toNat, 0]
def k0_cond16 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c4_i32_98 : BitVec 32 := 4#32
  let v85 : BitVec 32 := Scalar.addi arg22 c4_i32_98
  let c6_i32_99 : BitVec 32 := 6#32
  let v86 : BitVec 32 := Scalar.remsi v85 c6_i32_99
  let c5_i32_997 : BitVec 32 := 5#32
  let v2158 : BitVec 1 := Scalar.cmpi .eq v86 c5_i32_997
  let v2159 : BitVec 32 := Scalar.extui v2158
  let c0_i32_998 : BitVec 32 := 0#32
  let v2160 : BitVec 1 := Scalar.cmpi .ne v2159 c0_i32_998
  v2160

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c4_i32_985 : BitVec 32 := 4#32
  let v2140 : BitVec 32 := Scalar.addi arg22 c4_i32_985
  let c32_i32_986 : BitVec 32 := 32#32
  let v2141 : BitVec 32 := Scalar.muli v2140 c32_i32_986
  let v2142 : BitVec 32 := Scalar.addi v2 v2141
  let c0_i32_1002 : BitVec 32 := 0#32
  ![v2142.toNat, 0]
@[reducible] def k0_t2_loop : Scf.Loop 32 :=
  let c0_i32_105 : BitVec 32 := 0#32
  let c3_i32_106 : BitVec 32 := 3#32
  let v94 : BitVec 32 := Scalar.addi c0_i32_105 c3_i32_106
  let c1_i32_107 : BitVec 32 := 1#32
  ⟨c0_i32_105, v94, c1_i32_107⟩
def k0_off9 (k0_t1 : Fin k0_t1_loop.trips) (k0_t2 : Fin k0_t2_loop.trips) (c0_i32_983 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2140 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2138 : BitVec 32 := Scalar.addi v2137 c0_i32_983
  let c1_i32_984 : BitVec 32 := 1#32
  let v2139 : BitVec 32 := Scalar.addi v2138 c1_i32_984
  let v2141 : Index := Scalar.indexCast v2139
  let c0_985 : Index := 0#32
  ![v2140.toNat, v2141.toNat, 0]
def k0_off10 (k0_t1 : Fin k0_t1_loop.trips) (k0_t2 : Fin k0_t2_loop.trips) (c0_i32_986 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2145 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2144 : BitVec 32 := Scalar.addi v2137 c0_i32_986
  let v2146 : Index := Scalar.indexCast v2144
  let c0_987 : Index := 0#32
  ![v2145.toNat, v2146.toNat, 0]
def k0_off11 (k0_t1 : Fin k0_t1_loop.trips) (k0_t2 : Fin k0_t2_loop.trips) (c0_i32_988 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2152 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2150 : BitVec 32 := Scalar.addi v2137 c0_i32_988
  let c1_i32_989 : BitVec 32 := 1#32
  let v2151 : BitVec 32 := Scalar.addi v2150 c1_i32_989
  let v2153 : Index := Scalar.indexCast v2151
  let c16_990 : Index := 16#32
  ![v2152.toNat, v2153.toNat, 16]
def k0_off12 (k0_t1 : Fin k0_t1_loop.trips) (k0_t2 : Fin k0_t2_loop.trips) (c0_i32_991 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2157 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2156 : BitVec 32 := Scalar.addi v2137 c0_i32_991
  let v2158 : Index := Scalar.indexCast v2156
  let c16_992 : Index := 16#32
  ![v2157.toNat, v2158.toNat, 16]
def k0_off13 (k0_t1 : Fin k0_t1_loop.trips) (k0_t2 : Fin k0_t2_loop.trips) (c0_i32_993 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2164 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2162 : BitVec 32 := Scalar.addi v2137 c0_i32_993
  let c1_i32_994 : BitVec 32 := 1#32
  let v2163 : BitVec 32 := Scalar.addi v2162 c1_i32_994
  let v2165 : Index := Scalar.indexCast v2163
  let c32_995 : Index := 32#32
  ![v2164.toNat, v2165.toNat, 32]
def k0_off14 (k0_t1 : Fin k0_t1_loop.trips) (k0_t2 : Fin k0_t2_loop.trips) (c0_i32_996 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2169 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2168 : BitVec 32 := Scalar.addi v2137 c0_i32_996
  let v2170 : Index := Scalar.indexCast v2168
  let c32_997 : Index := 32#32
  ![v2169.toNat, v2170.toNat, 32]
def k0_off15 (k0_t1 : Fin k0_t1_loop.trips) (k0_t2 : Fin k0_t2_loop.trips) (c0_i32_998 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2176 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2174 : BitVec 32 := Scalar.addi v2137 c0_i32_998
  let c1_i32_999 : BitVec 32 := 1#32
  let v2175 : BitVec 32 := Scalar.addi v2174 c1_i32_999
  let v2177 : Index := Scalar.indexCast v2175
  let c48_1000 : Index := 48#32
  ![v2176.toNat, v2177.toNat, 48]
def k0_off16 (k0_t1 : Fin k0_t1_loop.trips) (k0_t2 : Fin k0_t2_loop.trips) (c0_i32_1001 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2181 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2180 : BitVec 32 := Scalar.addi v2137 c0_i32_1001
  let v2182 : Index := Scalar.indexCast v2180
  let c48_1002 : Index := 48#32
  ![v2181.toNat, v2182.toNat, 48]
def k0_off17 (k0_t1 : Fin k0_t1_loop.trips) (k0_t2 : Fin k0_t2_loop.trips) (c0_i32_1003 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2188 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2186 : BitVec 32 := Scalar.addi v2137 c0_i32_1003
  let c1_i32_1004 : BitVec 32 := 1#32
  let v2187 : BitVec 32 := Scalar.addi v2186 c1_i32_1004
  let v2189 : Index := Scalar.indexCast v2187
  let c64_1005 : Index := 64#32
  ![v2188.toNat, v2189.toNat, 64]
def k0_off18 (k0_t1 : Fin k0_t1_loop.trips) (k0_t2 : Fin k0_t2_loop.trips) (c0_i32_1006 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2193 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2192 : BitVec 32 := Scalar.addi v2137 c0_i32_1006
  let v2194 : Index := Scalar.indexCast v2192
  let c64_1007 : Index := 64#32
  ![v2193.toNat, v2194.toNat, 64]
def k0_off19 (k0_t1 : Fin k0_t1_loop.trips) (k0_t2 : Fin k0_t2_loop.trips) (c0_i32_1008 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2200 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2198 : BitVec 32 := Scalar.addi v2137 c0_i32_1008
  let c1_i32_1009 : BitVec 32 := 1#32
  let v2199 : BitVec 32 := Scalar.addi v2198 c1_i32_1009
  let v2201 : Index := Scalar.indexCast v2199
  let c80_1010 : Index := 80#32
  ![v2200.toNat, v2201.toNat, 80]
def k0_off20 (k0_t1 : Fin k0_t1_loop.trips) (k0_t2 : Fin k0_t2_loop.trips) (c0_i32_1011 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2205 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2204 : BitVec 32 := Scalar.addi v2137 c0_i32_1011
  let v2206 : Index := Scalar.indexCast v2204
  let c80_1012 : Index := 80#32
  ![v2205.toNat, v2206.toNat, 80]
def k0_off21 (k0_t1 : Fin k0_t1_loop.trips) (k0_t2 : Fin k0_t2_loop.trips) (c0_i32_1013 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2212 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2210 : BitVec 32 := Scalar.addi v2137 c0_i32_1013
  let c1_i32_1014 : BitVec 32 := 1#32
  let v2211 : BitVec 32 := Scalar.addi v2210 c1_i32_1014
  let v2213 : Index := Scalar.indexCast v2211
  let c96_1015 : Index := 96#32
  ![v2212.toNat, v2213.toNat, 96]
def k0_off22 (k0_t1 : Fin k0_t1_loop.trips) (k0_t2 : Fin k0_t2_loop.trips) (c0_i32_1016 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2217 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2216 : BitVec 32 := Scalar.addi v2137 c0_i32_1016
  let v2218 : Index := Scalar.indexCast v2216
  let c96_1017 : Index := 96#32
  ![v2217.toNat, v2218.toNat, 96]
def k0_off23 (k0_t1 : Fin k0_t1_loop.trips) (k0_t2 : Fin k0_t2_loop.trips) (c0_i32_1018 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2224 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2222 : BitVec 32 := Scalar.addi v2137 c0_i32_1018
  let c1_i32_1019 : BitVec 32 := 1#32
  let v2223 : BitVec 32 := Scalar.addi v2222 c1_i32_1019
  let v2225 : Index := Scalar.indexCast v2223
  let c112_1020 : Index := 112#32
  ![v2224.toNat, v2225.toNat, 112]
def k0_off24 (k0_t1 : Fin k0_t1_loop.trips) (k0_t2 : Fin k0_t2_loop.trips) (c0_i32_1021 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2229 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2228 : BitVec 32 := Scalar.addi v2137 c0_i32_1021
  let v2230 : Index := Scalar.indexCast v2228
  let c112_1022 : Index := 112#32
  ![v2229.toNat, v2230.toNat, 112]
def k0_off25 (k0_t1 : Fin k0_t1_loop.trips) (k0_t2 : Fin k0_t2_loop.trips) (c0_i32_1023 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2236 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2234 : BitVec 32 := Scalar.addi v2137 c0_i32_1023
  let c1_i32_1024 : BitVec 32 := 1#32
  let v2235 : BitVec 32 := Scalar.addi v2234 c1_i32_1024
  let v2237 : Index := Scalar.indexCast v2235
  let c128_1025 : Index := 128#32
  ![v2236.toNat, v2237.toNat, 128]
def k0_off26 (k0_t1 : Fin k0_t1_loop.trips) (k0_t2 : Fin k0_t2_loop.trips) (c0_i32_1026 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2241 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2240 : BitVec 32 := Scalar.addi v2137 c0_i32_1026
  let v2242 : Index := Scalar.indexCast v2240
  let c128_1027 : Index := 128#32
  ![v2241.toNat, v2242.toNat, 128]
def k0_off27 (k0_t1 : Fin k0_t1_loop.trips) (k0_t2 : Fin k0_t2_loop.trips) (c0_i32_1028 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2248 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2246 : BitVec 32 := Scalar.addi v2137 c0_i32_1028
  let c1_i32_1029 : BitVec 32 := 1#32
  let v2247 : BitVec 32 := Scalar.addi v2246 c1_i32_1029
  let v2249 : Index := Scalar.indexCast v2247
  let c144_1030 : Index := 144#32
  ![v2248.toNat, v2249.toNat, 144]
def k0_off28 (k0_t1 : Fin k0_t1_loop.trips) (k0_t2 : Fin k0_t2_loop.trips) (c0_i32_1031 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2253 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2252 : BitVec 32 := Scalar.addi v2137 c0_i32_1031
  let v2254 : Index := Scalar.indexCast v2252
  let c144_1032 : Index := 144#32
  ![v2253.toNat, v2254.toNat, 144]
def k0_off29 (k0_t1 : Fin k0_t1_loop.trips) (k0_t2 : Fin k0_t2_loop.trips) (c0_i32_1033 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2260 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2258 : BitVec 32 := Scalar.addi v2137 c0_i32_1033
  let c1_i32_1034 : BitVec 32 := 1#32
  let v2259 : BitVec 32 := Scalar.addi v2258 c1_i32_1034
  let v2261 : Index := Scalar.indexCast v2259
  let c160_1035 : Index := 160#32
  ![v2260.toNat, v2261.toNat, 160]
def k0_off30 (k0_t1 : Fin k0_t1_loop.trips) (k0_t2 : Fin k0_t2_loop.trips) (c0_i32_1036 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2265 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2264 : BitVec 32 := Scalar.addi v2137 c0_i32_1036
  let v2266 : Index := Scalar.indexCast v2264
  let c160_1037 : Index := 160#32
  ![v2265.toNat, v2266.toNat, 160]
def k0_off31 (k0_t1 : Fin k0_t1_loop.trips) (k0_t2 : Fin k0_t2_loop.trips) (c0_i32_1038 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2272 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2270 : BitVec 32 := Scalar.addi v2137 c0_i32_1038
  let c1_i32_1039 : BitVec 32 := 1#32
  let v2271 : BitVec 32 := Scalar.addi v2270 c1_i32_1039
  let v2273 : Index := Scalar.indexCast v2271
  let c176_1040 : Index := 176#32
  ![v2272.toNat, v2273.toNat, 176]
def k0_off32 (k0_t1 : Fin k0_t1_loop.trips) (k0_t2 : Fin k0_t2_loop.trips) (c0_i32_1041 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2277 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2276 : BitVec 32 := Scalar.addi v2137 c0_i32_1041
  let v2278 : Index := Scalar.indexCast v2276
  let c176_1042 : Index := 176#32
  ![v2277.toNat, v2278.toNat, 176]
def k0_off33 (k0_t1 : Fin k0_t1_loop.trips) (k0_t2 : Fin k0_t2_loop.trips) (c0_i32_1043 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2284 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2282 : BitVec 32 := Scalar.addi v2137 c0_i32_1043
  let c1_i32_1044 : BitVec 32 := 1#32
  let v2283 : BitVec 32 := Scalar.addi v2282 c1_i32_1044
  let v2285 : Index := Scalar.indexCast v2283
  let c192_1045 : Index := 192#32
  ![v2284.toNat, v2285.toNat, 192]
def k0_off34 (k0_t1 : Fin k0_t1_loop.trips) (k0_t2 : Fin k0_t2_loop.trips) (c0_i32_1046 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2289 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2288 : BitVec 32 := Scalar.addi v2137 c0_i32_1046
  let v2290 : Index := Scalar.indexCast v2288
  let c192_1047 : Index := 192#32
  ![v2289.toNat, v2290.toNat, 192]
def k0_off35 (k0_t1 : Fin k0_t1_loop.trips) (k0_t2 : Fin k0_t2_loop.trips) (c0_i32_1048 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2296 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2294 : BitVec 32 := Scalar.addi v2137 c0_i32_1048
  let c1_i32_1049 : BitVec 32 := 1#32
  let v2295 : BitVec 32 := Scalar.addi v2294 c1_i32_1049
  let v2297 : Index := Scalar.indexCast v2295
  let c208_1050 : Index := 208#32
  ![v2296.toNat, v2297.toNat, 208]
def k0_off36 (k0_t1 : Fin k0_t1_loop.trips) (k0_t2 : Fin k0_t2_loop.trips) (c0_i32_1051 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2301 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2300 : BitVec 32 := Scalar.addi v2137 c0_i32_1051
  let v2302 : Index := Scalar.indexCast v2300
  let c208_1052 : Index := 208#32
  ![v2301.toNat, v2302.toNat, 208]
def k0_off37 (k0_t1 : Fin k0_t1_loop.trips) (k0_t2 : Fin k0_t2_loop.trips) (c0_i32_1053 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2308 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2306 : BitVec 32 := Scalar.addi v2137 c0_i32_1053
  let c1_i32_1054 : BitVec 32 := 1#32
  let v2307 : BitVec 32 := Scalar.addi v2306 c1_i32_1054
  let v2309 : Index := Scalar.indexCast v2307
  let c224_1055 : Index := 224#32
  ![v2308.toNat, v2309.toNat, 224]
def k0_off38 (k0_t1 : Fin k0_t1_loop.trips) (k0_t2 : Fin k0_t2_loop.trips) (c0_i32_1056 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2313 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2312 : BitVec 32 := Scalar.addi v2137 c0_i32_1056
  let v2314 : Index := Scalar.indexCast v2312
  let c224_1057 : Index := 224#32
  ![v2313.toNat, v2314.toNat, 224]
def k0_off39 (k0_t1 : Fin k0_t1_loop.trips) (k0_t2 : Fin k0_t2_loop.trips) (c0_i32_1058 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2320 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2318 : BitVec 32 := Scalar.addi v2137 c0_i32_1058
  let c1_i32_1059 : BitVec 32 := 1#32
  let v2319 : BitVec 32 := Scalar.addi v2318 c1_i32_1059
  let v2321 : Index := Scalar.indexCast v2319
  let c240_1060 : Index := 240#32
  ![v2320.toNat, v2321.toNat, 240]
def k0_off40 (k0_t1 : Fin k0_t1_loop.trips) (k0_t2 : Fin k0_t2_loop.trips) (c0_i32_1061 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2325 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2324 : BitVec 32 := Scalar.addi v2137 c0_i32_1061
  let v2326 : Index := Scalar.indexCast v2324
  let c240_1062 : Index := 240#32
  ![v2325.toNat, v2326.toNat, 240]
def k0_off41 (k0_t1 : Fin k0_t1_loop.trips) (k0_t2 : Fin k0_t2_loop.trips) (c0_i32_1063 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2332 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2330 : BitVec 32 := Scalar.addi v2137 c0_i32_1063
  let c1_i32_1064 : BitVec 32 := 1#32
  let v2331 : BitVec 32 := Scalar.addi v2330 c1_i32_1064
  let v2333 : Index := Scalar.indexCast v2331
  let c256_1065 : Index := 256#32
  ![v2332.toNat, v2333.toNat, 256]
def k0_off42 (k0_t1 : Fin k0_t1_loop.trips) (k0_t2 : Fin k0_t2_loop.trips) (c0_i32_1066 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2337 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2336 : BitVec 32 := Scalar.addi v2137 c0_i32_1066
  let v2338 : Index := Scalar.indexCast v2336
  let c256_1067 : Index := 256#32
  ![v2337.toNat, v2338.toNat, 256]
def k0_off43 (k0_t1 : Fin k0_t1_loop.trips) (k0_t2 : Fin k0_t2_loop.trips) (c0_i32_1068 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2344 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2342 : BitVec 32 := Scalar.addi v2137 c0_i32_1068
  let c1_i32_1069 : BitVec 32 := 1#32
  let v2343 : BitVec 32 := Scalar.addi v2342 c1_i32_1069
  let v2345 : Index := Scalar.indexCast v2343
  let c272_1070 : Index := 272#32
  ![v2344.toNat, v2345.toNat, 272]
def k0_off44 (k0_t1 : Fin k0_t1_loop.trips) (k0_t2 : Fin k0_t2_loop.trips) (c0_i32_1071 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2349 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2348 : BitVec 32 := Scalar.addi v2137 c0_i32_1071
  let v2350 : Index := Scalar.indexCast v2348
  let c272_1072 : Index := 272#32
  ![v2349.toNat, v2350.toNat, 272]
def k0_off45 (k0_t1 : Fin k0_t1_loop.trips) (k0_t2 : Fin k0_t2_loop.trips) (c0_i32_1073 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2356 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2354 : BitVec 32 := Scalar.addi v2137 c0_i32_1073
  let c1_i32_1074 : BitVec 32 := 1#32
  let v2355 : BitVec 32 := Scalar.addi v2354 c1_i32_1074
  let v2357 : Index := Scalar.indexCast v2355
  let c288_1075 : Index := 288#32
  ![v2356.toNat, v2357.toNat, 288]
def k0_off46 (k0_t1 : Fin k0_t1_loop.trips) (k0_t2 : Fin k0_t2_loop.trips) (c0_i32_1076 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2361 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2360 : BitVec 32 := Scalar.addi v2137 c0_i32_1076
  let v2362 : Index := Scalar.indexCast v2360
  let c288_1077 : Index := 288#32
  ![v2361.toNat, v2362.toNat, 288]
def k0_off47 (k0_t1 : Fin k0_t1_loop.trips) (k0_t2 : Fin k0_t2_loop.trips) (c0_i32_1078 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2368 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2366 : BitVec 32 := Scalar.addi v2137 c0_i32_1078
  let c1_i32_1079 : BitVec 32 := 1#32
  let v2367 : BitVec 32 := Scalar.addi v2366 c1_i32_1079
  let v2369 : Index := Scalar.indexCast v2367
  let c304_1080 : Index := 304#32
  ![v2368.toNat, v2369.toNat, 304]
def k0_off48 (k0_t1 : Fin k0_t1_loop.trips) (k0_t2 : Fin k0_t2_loop.trips) (c0_i32_1081 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2373 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2372 : BitVec 32 := Scalar.addi v2137 c0_i32_1081
  let v2374 : Index := Scalar.indexCast v2372
  let c304_1082 : Index := 304#32
  ![v2373.toNat, v2374.toNat, 304]
def k0_off49 (k0_t1 : Fin k0_t1_loop.trips) (k0_t2 : Fin k0_t2_loop.trips) (c0_i32_1083 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2380 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2378 : BitVec 32 := Scalar.addi v2137 c0_i32_1083
  let c1_i32_1084 : BitVec 32 := 1#32
  let v2379 : BitVec 32 := Scalar.addi v2378 c1_i32_1084
  let v2381 : Index := Scalar.indexCast v2379
  let c320_1085 : Index := 320#32
  ![v2380.toNat, v2381.toNat, 320]
def k0_off50 (k0_t1 : Fin k0_t1_loop.trips) (k0_t2 : Fin k0_t2_loop.trips) (c0_i32_1086 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2385 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2384 : BitVec 32 := Scalar.addi v2137 c0_i32_1086
  let v2386 : Index := Scalar.indexCast v2384
  let c320_1087 : Index := 320#32
  ![v2385.toNat, v2386.toNat, 320]
def k0_off51 (k0_t1 : Fin k0_t1_loop.trips) (k0_t2 : Fin k0_t2_loop.trips) (c0_i32_1088 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2392 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2390 : BitVec 32 := Scalar.addi v2137 c0_i32_1088
  let c1_i32_1089 : BitVec 32 := 1#32
  let v2391 : BitVec 32 := Scalar.addi v2390 c1_i32_1089
  let v2393 : Index := Scalar.indexCast v2391
  let c336_1090 : Index := 336#32
  ![v2392.toNat, v2393.toNat, 336]
def k0_off52 (k0_t1 : Fin k0_t1_loop.trips) (k0_t2 : Fin k0_t2_loop.trips) (c0_i32_1091 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2397 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2396 : BitVec 32 := Scalar.addi v2137 c0_i32_1091
  let v2398 : Index := Scalar.indexCast v2396
  let c336_1092 : Index := 336#32
  ![v2397.toNat, v2398.toNat, 336]
def k0_off53 (k0_t1 : Fin k0_t1_loop.trips) (k0_t2 : Fin k0_t2_loop.trips) (c0_i32_1093 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2404 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2402 : BitVec 32 := Scalar.addi v2137 c0_i32_1093
  let c1_i32_1094 : BitVec 32 := 1#32
  let v2403 : BitVec 32 := Scalar.addi v2402 c1_i32_1094
  let v2405 : Index := Scalar.indexCast v2403
  let c352_1095 : Index := 352#32
  ![v2404.toNat, v2405.toNat, 352]
def k0_off54 (k0_t1 : Fin k0_t1_loop.trips) (k0_t2 : Fin k0_t2_loop.trips) (c0_i32_1096 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2409 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2408 : BitVec 32 := Scalar.addi v2137 c0_i32_1096
  let v2410 : Index := Scalar.indexCast v2408
  let c352_1097 : Index := 352#32
  ![v2409.toNat, v2410.toNat, 352]
def k0_off55 (k0_t1 : Fin k0_t1_loop.trips) (k0_t2 : Fin k0_t2_loop.trips) (c0_i32_1098 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2416 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2414 : BitVec 32 := Scalar.addi v2137 c0_i32_1098
  let c1_i32_1099 : BitVec 32 := 1#32
  let v2415 : BitVec 32 := Scalar.addi v2414 c1_i32_1099
  let v2417 : Index := Scalar.indexCast v2415
  let c368_1100 : Index := 368#32
  ![v2416.toNat, v2417.toNat, 368]
def k0_off56 (k0_t1 : Fin k0_t1_loop.trips) (k0_t2 : Fin k0_t2_loop.trips) (c0_i32_1101 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2421 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2420 : BitVec 32 := Scalar.addi v2137 c0_i32_1101
  let v2422 : Index := Scalar.indexCast v2420
  let c368_1102 : Index := 368#32
  ![v2421.toNat, v2422.toNat, 368]
def k0_off57 (k0_t1 : Fin k0_t1_loop.trips) (k0_t2 : Fin k0_t2_loop.trips) (c0_i32_1103 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2428 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2426 : BitVec 32 := Scalar.addi v2137 c0_i32_1103
  let c1_i32_1104 : BitVec 32 := 1#32
  let v2427 : BitVec 32 := Scalar.addi v2426 c1_i32_1104
  let v2429 : Index := Scalar.indexCast v2427
  let c384_1105 : Index := 384#32
  ![v2428.toNat, v2429.toNat, 384]
def k0_off58 (k0_t1 : Fin k0_t1_loop.trips) (k0_t2 : Fin k0_t2_loop.trips) (c0_i32_1106 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2433 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2432 : BitVec 32 := Scalar.addi v2137 c0_i32_1106
  let v2434 : Index := Scalar.indexCast v2432
  let c384_1107 : Index := 384#32
  ![v2433.toNat, v2434.toNat, 384]
def k0_off59 (k0_t1 : Fin k0_t1_loop.trips) (k0_t2 : Fin k0_t2_loop.trips) (c0_i32_1108 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2440 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2438 : BitVec 32 := Scalar.addi v2137 c0_i32_1108
  let c1_i32_1109 : BitVec 32 := 1#32
  let v2439 : BitVec 32 := Scalar.addi v2438 c1_i32_1109
  let v2441 : Index := Scalar.indexCast v2439
  let c400_1110 : Index := 400#32
  ![v2440.toNat, v2441.toNat, 400]
def k0_off60 (k0_t1 : Fin k0_t1_loop.trips) (k0_t2 : Fin k0_t2_loop.trips) (c0_i32_1111 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2445 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2444 : BitVec 32 := Scalar.addi v2137 c0_i32_1111
  let v2446 : Index := Scalar.indexCast v2444
  let c400_1112 : Index := 400#32
  ![v2445.toNat, v2446.toNat, 400]
def k0_off61 (k0_t1 : Fin k0_t1_loop.trips) (k0_t2 : Fin k0_t2_loop.trips) (c0_i32_1113 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2452 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2450 : BitVec 32 := Scalar.addi v2137 c0_i32_1113
  let c1_i32_1114 : BitVec 32 := 1#32
  let v2451 : BitVec 32 := Scalar.addi v2450 c1_i32_1114
  let v2453 : Index := Scalar.indexCast v2451
  let c416_1115 : Index := 416#32
  ![v2452.toNat, v2453.toNat, 416]
def k0_off62 (k0_t1 : Fin k0_t1_loop.trips) (k0_t2 : Fin k0_t2_loop.trips) (c0_i32_1116 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2457 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2456 : BitVec 32 := Scalar.addi v2137 c0_i32_1116
  let v2458 : Index := Scalar.indexCast v2456
  let c416_1117 : Index := 416#32
  ![v2457.toNat, v2458.toNat, 416]
def k0_off63 (k0_t1 : Fin k0_t1_loop.trips) (k0_t2 : Fin k0_t2_loop.trips) (c0_i32_1118 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2464 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2462 : BitVec 32 := Scalar.addi v2137 c0_i32_1118
  let c1_i32_1119 : BitVec 32 := 1#32
  let v2463 : BitVec 32 := Scalar.addi v2462 c1_i32_1119
  let v2465 : Index := Scalar.indexCast v2463
  let c432_1120 : Index := 432#32
  ![v2464.toNat, v2465.toNat, 432]
def k0_off64 (k0_t1 : Fin k0_t1_loop.trips) (k0_t2 : Fin k0_t2_loop.trips) (c0_i32_1121 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2469 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2468 : BitVec 32 := Scalar.addi v2137 c0_i32_1121
  let v2470 : Index := Scalar.indexCast v2468
  let c432_1122 : Index := 432#32
  ![v2469.toNat, v2470.toNat, 432]
def k0_off65 (k0_t1 : Fin k0_t1_loop.trips) (k0_t2 : Fin k0_t2_loop.trips) (c0_i32_1123 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2476 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2474 : BitVec 32 := Scalar.addi v2137 c0_i32_1123
  let c1_i32_1124 : BitVec 32 := 1#32
  let v2475 : BitVec 32 := Scalar.addi v2474 c1_i32_1124
  let v2477 : Index := Scalar.indexCast v2475
  let c448_1125 : Index := 448#32
  ![v2476.toNat, v2477.toNat, 448]
def k0_off66 (k0_t1 : Fin k0_t1_loop.trips) (k0_t2 : Fin k0_t2_loop.trips) (c0_i32_1126 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2481 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2480 : BitVec 32 := Scalar.addi v2137 c0_i32_1126
  let v2482 : Index := Scalar.indexCast v2480
  let c448_1127 : Index := 448#32
  ![v2481.toNat, v2482.toNat, 448]
def k0_off67 (k0_t1 : Fin k0_t1_loop.trips) (k0_t2 : Fin k0_t2_loop.trips) (c0_i32_1128 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2488 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2486 : BitVec 32 := Scalar.addi v2137 c0_i32_1128
  let c1_i32_1129 : BitVec 32 := 1#32
  let v2487 : BitVec 32 := Scalar.addi v2486 c1_i32_1129
  let v2489 : Index := Scalar.indexCast v2487
  let c464_1130 : Index := 464#32
  ![v2488.toNat, v2489.toNat, 464]
def k0_off68 (k0_t1 : Fin k0_t1_loop.trips) (k0_t2 : Fin k0_t2_loop.trips) (c0_i32_1131 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2493 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2492 : BitVec 32 := Scalar.addi v2137 c0_i32_1131
  let v2494 : Index := Scalar.indexCast v2492
  let c464_1132 : Index := 464#32
  ![v2493.toNat, v2494.toNat, 464]
def k0_off69 (k0_t1 : Fin k0_t1_loop.trips) (k0_t2 : Fin k0_t2_loop.trips) (c0_i32_1133 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2500 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2498 : BitVec 32 := Scalar.addi v2137 c0_i32_1133
  let c1_i32_1134 : BitVec 32 := 1#32
  let v2499 : BitVec 32 := Scalar.addi v2498 c1_i32_1134
  let v2501 : Index := Scalar.indexCast v2499
  let c480_1135 : Index := 480#32
  ![v2500.toNat, v2501.toNat, 480]
def k0_off70 (k0_t1 : Fin k0_t1_loop.trips) (k0_t2 : Fin k0_t2_loop.trips) (c0_i32_1136 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2505 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2504 : BitVec 32 := Scalar.addi v2137 c0_i32_1136
  let v2506 : Index := Scalar.indexCast v2504
  let c480_1137 : Index := 480#32
  ![v2505.toNat, v2506.toNat, 480]
def k0_off71 (k0_t1 : Fin k0_t1_loop.trips) (k0_t2 : Fin k0_t2_loop.trips) (c0_i32_1138 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2512 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2510 : BitVec 32 := Scalar.addi v2137 c0_i32_1138
  let c1_i32_1139 : BitVec 32 := 1#32
  let v2511 : BitVec 32 := Scalar.addi v2510 c1_i32_1139
  let v2513 : Index := Scalar.indexCast v2511
  let c496_1140 : Index := 496#32
  ![v2512.toNat, v2513.toNat, 496]
def k0_off72 (k0_t1 : Fin k0_t1_loop.trips) (k0_t2 : Fin k0_t2_loop.trips) (c0_i32_1141 : BitVec 32) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2517 : Index := Scalar.indexCast v82
  let c8_i32 : BitVec 32 := 8#32
  let c0_i32_105 : BitVec 32 := 0#32
  let c1_i32_107 : BitVec 32 := 1#32
  let arg23 : BitVec 32 := Scf.iv c0_i32_105 c1_i32_107 k0_t2
  let v2137 : BitVec 32 := Scalar.muli c8_i32 arg23
  let v2516 : BitVec 32 := Scalar.addi v2137 c0_i32_1141
  let v2518 : Index := Scalar.indexCast v2516
  let c496_1142 : Index := 496#32
  ![v2517.toNat, v2518.toNat, 496]
def k0_off73 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v95 : Index := Scalar.indexCast v82
  let c25_i32 : BitVec 32 := 25#32
  let v96 : Index := Scalar.indexCast c25_i32
  let c0 : Index := 0#32
  ![v95.toNat, 25, 0]
def k0_off74 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v99 : Index := Scalar.indexCast v82
  let c24_i32 : BitVec 32 := 24#32
  let v100 : Index := Scalar.indexCast c24_i32
  let c0_109 : Index := 0#32
  ![v99.toNat, 24, 0]
def k0_off75 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v104 : Index := Scalar.indexCast v82
  let c25_i32_110 : BitVec 32 := 25#32
  let v105 : Index := Scalar.indexCast c25_i32_110
  let c16 : Index := 16#32
  ![v104.toNat, 25, 16]
def k0_off76 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v108 : Index := Scalar.indexCast v82
  let c24_i32_111 : BitVec 32 := 24#32
  let v109 : Index := Scalar.indexCast c24_i32_111
  let c16_112 : Index := 16#32
  ![v108.toNat, 24, 16]
def k0_off77 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v113 : Index := Scalar.indexCast v82
  let c25_i32_113 : BitVec 32 := 25#32
  let v114 : Index := Scalar.indexCast c25_i32_113
  let c32 : Index := 32#32
  ![v113.toNat, 25, 32]
def k0_off78 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v117 : Index := Scalar.indexCast v82
  let c24_i32_114 : BitVec 32 := 24#32
  let v118 : Index := Scalar.indexCast c24_i32_114
  let c32_115 : Index := 32#32
  ![v117.toNat, 24, 32]
def k0_off79 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v122 : Index := Scalar.indexCast v82
  let c25_i32_116 : BitVec 32 := 25#32
  let v123 : Index := Scalar.indexCast c25_i32_116
  let c48 : Index := 48#32
  ![v122.toNat, 25, 48]
def k0_off80 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v126 : Index := Scalar.indexCast v82
  let c24_i32_117 : BitVec 32 := 24#32
  let v127 : Index := Scalar.indexCast c24_i32_117
  let c48_118 : Index := 48#32
  ![v126.toNat, 24, 48]
def k0_off81 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v131 : Index := Scalar.indexCast v82
  let c25_i32_119 : BitVec 32 := 25#32
  let v132 : Index := Scalar.indexCast c25_i32_119
  let c64 : Index := 64#32
  ![v131.toNat, 25, 64]
def k0_off82 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v135 : Index := Scalar.indexCast v82
  let c24_i32_120 : BitVec 32 := 24#32
  let v136 : Index := Scalar.indexCast c24_i32_120
  let c64_121 : Index := 64#32
  ![v135.toNat, 24, 64]
def k0_off83 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v140 : Index := Scalar.indexCast v82
  let c25_i32_122 : BitVec 32 := 25#32
  let v141 : Index := Scalar.indexCast c25_i32_122
  let c80 : Index := 80#32
  ![v140.toNat, 25, 80]
def k0_off84 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v144 : Index := Scalar.indexCast v82
  let c24_i32_123 : BitVec 32 := 24#32
  let v145 : Index := Scalar.indexCast c24_i32_123
  let c80_124 : Index := 80#32
  ![v144.toNat, 24, 80]
def k0_off85 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v149 : Index := Scalar.indexCast v82
  let c25_i32_125 : BitVec 32 := 25#32
  let v150 : Index := Scalar.indexCast c25_i32_125
  let c96 : Index := 96#32
  ![v149.toNat, 25, 96]
def k0_off86 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v153 : Index := Scalar.indexCast v82
  let c24_i32_126 : BitVec 32 := 24#32
  let v154 : Index := Scalar.indexCast c24_i32_126
  let c96_127 : Index := 96#32
  ![v153.toNat, 24, 96]
def k0_off87 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v158 : Index := Scalar.indexCast v82
  let c25_i32_128 : BitVec 32 := 25#32
  let v159 : Index := Scalar.indexCast c25_i32_128
  let c112 : Index := 112#32
  ![v158.toNat, 25, 112]
def k0_off88 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v162 : Index := Scalar.indexCast v82
  let c24_i32_129 : BitVec 32 := 24#32
  let v163 : Index := Scalar.indexCast c24_i32_129
  let c112_130 : Index := 112#32
  ![v162.toNat, 24, 112]
def k0_off89 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v167 : Index := Scalar.indexCast v82
  let c25_i32_131 : BitVec 32 := 25#32
  let v168 : Index := Scalar.indexCast c25_i32_131
  let c128 : Index := 128#32
  ![v167.toNat, 25, 128]
def k0_off90 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v171 : Index := Scalar.indexCast v82
  let c24_i32_132 : BitVec 32 := 24#32
  let v172 : Index := Scalar.indexCast c24_i32_132
  let c128_133 : Index := 128#32
  ![v171.toNat, 24, 128]
def k0_off91 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v176 : Index := Scalar.indexCast v82
  let c25_i32_134 : BitVec 32 := 25#32
  let v177 : Index := Scalar.indexCast c25_i32_134
  let c144 : Index := 144#32
  ![v176.toNat, 25, 144]
def k0_off92 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v180 : Index := Scalar.indexCast v82
  let c24_i32_135 : BitVec 32 := 24#32
  let v181 : Index := Scalar.indexCast c24_i32_135
  let c144_136 : Index := 144#32
  ![v180.toNat, 24, 144]
def k0_off93 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v185 : Index := Scalar.indexCast v82
  let c25_i32_137 : BitVec 32 := 25#32
  let v186 : Index := Scalar.indexCast c25_i32_137
  let c160 : Index := 160#32
  ![v185.toNat, 25, 160]
def k0_off94 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v189 : Index := Scalar.indexCast v82
  let c24_i32_138 : BitVec 32 := 24#32
  let v190 : Index := Scalar.indexCast c24_i32_138
  let c160_139 : Index := 160#32
  ![v189.toNat, 24, 160]
def k0_off95 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v194 : Index := Scalar.indexCast v82
  let c25_i32_140 : BitVec 32 := 25#32
  let v195 : Index := Scalar.indexCast c25_i32_140
  let c176 : Index := 176#32
  ![v194.toNat, 25, 176]
def k0_off96 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v198 : Index := Scalar.indexCast v82
  let c24_i32_141 : BitVec 32 := 24#32
  let v199 : Index := Scalar.indexCast c24_i32_141
  let c176_142 : Index := 176#32
  ![v198.toNat, 24, 176]
def k0_off97 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v203 : Index := Scalar.indexCast v82
  let c25_i32_143 : BitVec 32 := 25#32
  let v204 : Index := Scalar.indexCast c25_i32_143
  let c192 : Index := 192#32
  ![v203.toNat, 25, 192]
def k0_off98 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v207 : Index := Scalar.indexCast v82
  let c24_i32_144 : BitVec 32 := 24#32
  let v208 : Index := Scalar.indexCast c24_i32_144
  let c192_145 : Index := 192#32
  ![v207.toNat, 24, 192]
def k0_off99 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v212 : Index := Scalar.indexCast v82
  let c25_i32_146 : BitVec 32 := 25#32
  let v213 : Index := Scalar.indexCast c25_i32_146
  let c208 : Index := 208#32
  ![v212.toNat, 25, 208]
def k0_off100 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v216 : Index := Scalar.indexCast v82
  let c24_i32_147 : BitVec 32 := 24#32
  let v217 : Index := Scalar.indexCast c24_i32_147
  let c208_148 : Index := 208#32
  ![v216.toNat, 24, 208]
def k0_off101 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v221 : Index := Scalar.indexCast v82
  let c25_i32_149 : BitVec 32 := 25#32
  let v222 : Index := Scalar.indexCast c25_i32_149
  let c224 : Index := 224#32
  ![v221.toNat, 25, 224]
def k0_off102 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v225 : Index := Scalar.indexCast v82
  let c24_i32_150 : BitVec 32 := 24#32
  let v226 : Index := Scalar.indexCast c24_i32_150
  let c224_151 : Index := 224#32
  ![v225.toNat, 24, 224]
def k0_off103 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v230 : Index := Scalar.indexCast v82
  let c25_i32_152 : BitVec 32 := 25#32
  let v231 : Index := Scalar.indexCast c25_i32_152
  let c240 : Index := 240#32
  ![v230.toNat, 25, 240]
def k0_off104 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v234 : Index := Scalar.indexCast v82
  let c24_i32_153 : BitVec 32 := 24#32
  let v235 : Index := Scalar.indexCast c24_i32_153
  let c240_154 : Index := 240#32
  ![v234.toNat, 24, 240]
def k0_off105 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v239 : Index := Scalar.indexCast v82
  let c25_i32_155 : BitVec 32 := 25#32
  let v240 : Index := Scalar.indexCast c25_i32_155
  let c256 : Index := 256#32
  ![v239.toNat, 25, 256]
def k0_off106 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v243 : Index := Scalar.indexCast v82
  let c24_i32_156 : BitVec 32 := 24#32
  let v244 : Index := Scalar.indexCast c24_i32_156
  let c256_157 : Index := 256#32
  ![v243.toNat, 24, 256]
def k0_off107 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v248 : Index := Scalar.indexCast v82
  let c25_i32_158 : BitVec 32 := 25#32
  let v249 : Index := Scalar.indexCast c25_i32_158
  let c272 : Index := 272#32
  ![v248.toNat, 25, 272]
def k0_off108 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v252 : Index := Scalar.indexCast v82
  let c24_i32_159 : BitVec 32 := 24#32
  let v253 : Index := Scalar.indexCast c24_i32_159
  let c272_160 : Index := 272#32
  ![v252.toNat, 24, 272]
def k0_off109 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v257 : Index := Scalar.indexCast v82
  let c25_i32_161 : BitVec 32 := 25#32
  let v258 : Index := Scalar.indexCast c25_i32_161
  let c288 : Index := 288#32
  ![v257.toNat, 25, 288]
def k0_off110 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v261 : Index := Scalar.indexCast v82
  let c24_i32_162 : BitVec 32 := 24#32
  let v262 : Index := Scalar.indexCast c24_i32_162
  let c288_163 : Index := 288#32
  ![v261.toNat, 24, 288]
def k0_off111 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v266 : Index := Scalar.indexCast v82
  let c25_i32_164 : BitVec 32 := 25#32
  let v267 : Index := Scalar.indexCast c25_i32_164
  let c304 : Index := 304#32
  ![v266.toNat, 25, 304]
def k0_off112 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v270 : Index := Scalar.indexCast v82
  let c24_i32_165 : BitVec 32 := 24#32
  let v271 : Index := Scalar.indexCast c24_i32_165
  let c304_166 : Index := 304#32
  ![v270.toNat, 24, 304]
def k0_off113 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v275 : Index := Scalar.indexCast v82
  let c25_i32_167 : BitVec 32 := 25#32
  let v276 : Index := Scalar.indexCast c25_i32_167
  let c320 : Index := 320#32
  ![v275.toNat, 25, 320]
def k0_off114 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v279 : Index := Scalar.indexCast v82
  let c24_i32_168 : BitVec 32 := 24#32
  let v280 : Index := Scalar.indexCast c24_i32_168
  let c320_169 : Index := 320#32
  ![v279.toNat, 24, 320]
def k0_off115 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v284 : Index := Scalar.indexCast v82
  let c25_i32_170 : BitVec 32 := 25#32
  let v285 : Index := Scalar.indexCast c25_i32_170
  let c336 : Index := 336#32
  ![v284.toNat, 25, 336]
def k0_off116 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v288 : Index := Scalar.indexCast v82
  let c24_i32_171 : BitVec 32 := 24#32
  let v289 : Index := Scalar.indexCast c24_i32_171
  let c336_172 : Index := 336#32
  ![v288.toNat, 24, 336]
def k0_off117 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v293 : Index := Scalar.indexCast v82
  let c25_i32_173 : BitVec 32 := 25#32
  let v294 : Index := Scalar.indexCast c25_i32_173
  let c352 : Index := 352#32
  ![v293.toNat, 25, 352]
def k0_off118 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v297 : Index := Scalar.indexCast v82
  let c24_i32_174 : BitVec 32 := 24#32
  let v298 : Index := Scalar.indexCast c24_i32_174
  let c352_175 : Index := 352#32
  ![v297.toNat, 24, 352]
def k0_off119 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v302 : Index := Scalar.indexCast v82
  let c25_i32_176 : BitVec 32 := 25#32
  let v303 : Index := Scalar.indexCast c25_i32_176
  let c368 : Index := 368#32
  ![v302.toNat, 25, 368]
def k0_off120 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v306 : Index := Scalar.indexCast v82
  let c24_i32_177 : BitVec 32 := 24#32
  let v307 : Index := Scalar.indexCast c24_i32_177
  let c368_178 : Index := 368#32
  ![v306.toNat, 24, 368]
def k0_off121 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v311 : Index := Scalar.indexCast v82
  let c25_i32_179 : BitVec 32 := 25#32
  let v312 : Index := Scalar.indexCast c25_i32_179
  let c384 : Index := 384#32
  ![v311.toNat, 25, 384]
def k0_off122 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v315 : Index := Scalar.indexCast v82
  let c24_i32_180 : BitVec 32 := 24#32
  let v316 : Index := Scalar.indexCast c24_i32_180
  let c384_181 : Index := 384#32
  ![v315.toNat, 24, 384]
def k0_off123 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v320 : Index := Scalar.indexCast v82
  let c25_i32_182 : BitVec 32 := 25#32
  let v321 : Index := Scalar.indexCast c25_i32_182
  let c400 : Index := 400#32
  ![v320.toNat, 25, 400]
def k0_off124 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v324 : Index := Scalar.indexCast v82
  let c24_i32_183 : BitVec 32 := 24#32
  let v325 : Index := Scalar.indexCast c24_i32_183
  let c400_184 : Index := 400#32
  ![v324.toNat, 24, 400]
def k0_off125 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v329 : Index := Scalar.indexCast v82
  let c25_i32_185 : BitVec 32 := 25#32
  let v330 : Index := Scalar.indexCast c25_i32_185
  let c416 : Index := 416#32
  ![v329.toNat, 25, 416]
def k0_off126 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v333 : Index := Scalar.indexCast v82
  let c24_i32_186 : BitVec 32 := 24#32
  let v334 : Index := Scalar.indexCast c24_i32_186
  let c416_187 : Index := 416#32
  ![v333.toNat, 24, 416]
def k0_off127 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v338 : Index := Scalar.indexCast v82
  let c25_i32_188 : BitVec 32 := 25#32
  let v339 : Index := Scalar.indexCast c25_i32_188
  let c432 : Index := 432#32
  ![v338.toNat, 25, 432]
def k0_off128 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v342 : Index := Scalar.indexCast v82
  let c24_i32_189 : BitVec 32 := 24#32
  let v343 : Index := Scalar.indexCast c24_i32_189
  let c432_190 : Index := 432#32
  ![v342.toNat, 24, 432]
def k0_off129 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v347 : Index := Scalar.indexCast v82
  let c25_i32_191 : BitVec 32 := 25#32
  let v348 : Index := Scalar.indexCast c25_i32_191
  let c448 : Index := 448#32
  ![v347.toNat, 25, 448]
def k0_off130 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v351 : Index := Scalar.indexCast v82
  let c24_i32_192 : BitVec 32 := 24#32
  let v352 : Index := Scalar.indexCast c24_i32_192
  let c448_193 : Index := 448#32
  ![v351.toNat, 24, 448]
def k0_off131 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v356 : Index := Scalar.indexCast v82
  let c25_i32_194 : BitVec 32 := 25#32
  let v357 : Index := Scalar.indexCast c25_i32_194
  let c464 : Index := 464#32
  ![v356.toNat, 25, 464]
def k0_off132 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v360 : Index := Scalar.indexCast v82
  let c24_i32_195 : BitVec 32 := 24#32
  let v361 : Index := Scalar.indexCast c24_i32_195
  let c464_196 : Index := 464#32
  ![v360.toNat, 24, 464]
def k0_off133 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v365 : Index := Scalar.indexCast v82
  let c25_i32_197 : BitVec 32 := 25#32
  let v366 : Index := Scalar.indexCast c25_i32_197
  let c480 : Index := 480#32
  ![v365.toNat, 25, 480]
def k0_off134 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v369 : Index := Scalar.indexCast v82
  let c24_i32_198 : BitVec 32 := 24#32
  let v370 : Index := Scalar.indexCast c24_i32_198
  let c480_199 : Index := 480#32
  ![v369.toNat, 24, 480]
def k0_off135 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v374 : Index := Scalar.indexCast v82
  let c25_i32_200 : BitVec 32 := 25#32
  let v375 : Index := Scalar.indexCast c25_i32_200
  let c496 : Index := 496#32
  ![v374.toNat, 25, 496]
def k0_off136 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v378 : Index := Scalar.indexCast v82
  let c24_i32_201 : BitVec 32 := 24#32
  let v379 : Index := Scalar.indexCast c24_i32_201
  let c496_202 : Index := 496#32
  ![v378.toNat, 24, 496]
def k0_off137 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v383 : Index := Scalar.indexCast v82
  let c26_i32 : BitVec 32 := 26#32
  let v384 : Index := Scalar.indexCast c26_i32
  let c0_203 : Index := 0#32
  ![v383.toNat, 26, 0]
def k0_off138 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v392 : Index := Scalar.indexCast v82
  let c26_i32_206 : BitVec 32 := 26#32
  let v393 : Index := Scalar.indexCast c26_i32_206
  let c16_207 : Index := 16#32
  ![v392.toNat, 26, 16]
def k0_off139 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v401 : Index := Scalar.indexCast v82
  let c26_i32_210 : BitVec 32 := 26#32
  let v402 : Index := Scalar.indexCast c26_i32_210
  let c32_211 : Index := 32#32
  ![v401.toNat, 26, 32]
def k0_off140 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v410 : Index := Scalar.indexCast v82
  let c26_i32_214 : BitVec 32 := 26#32
  let v411 : Index := Scalar.indexCast c26_i32_214
  let c48_215 : Index := 48#32
  ![v410.toNat, 26, 48]
def k0_off141 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v419 : Index := Scalar.indexCast v82
  let c26_i32_218 : BitVec 32 := 26#32
  let v420 : Index := Scalar.indexCast c26_i32_218
  let c64_219 : Index := 64#32
  ![v419.toNat, 26, 64]
def k0_off142 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v428 : Index := Scalar.indexCast v82
  let c26_i32_222 : BitVec 32 := 26#32
  let v429 : Index := Scalar.indexCast c26_i32_222
  let c80_223 : Index := 80#32
  ![v428.toNat, 26, 80]
def k0_off143 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v437 : Index := Scalar.indexCast v82
  let c26_i32_226 : BitVec 32 := 26#32
  let v438 : Index := Scalar.indexCast c26_i32_226
  let c96_227 : Index := 96#32
  ![v437.toNat, 26, 96]
def k0_off144 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v446 : Index := Scalar.indexCast v82
  let c26_i32_230 : BitVec 32 := 26#32
  let v447 : Index := Scalar.indexCast c26_i32_230
  let c112_231 : Index := 112#32
  ![v446.toNat, 26, 112]
def k0_off145 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v455 : Index := Scalar.indexCast v82
  let c26_i32_234 : BitVec 32 := 26#32
  let v456 : Index := Scalar.indexCast c26_i32_234
  let c128_235 : Index := 128#32
  ![v455.toNat, 26, 128]
def k0_off146 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v464 : Index := Scalar.indexCast v82
  let c26_i32_238 : BitVec 32 := 26#32
  let v465 : Index := Scalar.indexCast c26_i32_238
  let c144_239 : Index := 144#32
  ![v464.toNat, 26, 144]
def k0_off147 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v473 : Index := Scalar.indexCast v82
  let c26_i32_242 : BitVec 32 := 26#32
  let v474 : Index := Scalar.indexCast c26_i32_242
  let c160_243 : Index := 160#32
  ![v473.toNat, 26, 160]
def k0_off148 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v482 : Index := Scalar.indexCast v82
  let c26_i32_246 : BitVec 32 := 26#32
  let v483 : Index := Scalar.indexCast c26_i32_246
  let c176_247 : Index := 176#32
  ![v482.toNat, 26, 176]
def k0_off149 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v491 : Index := Scalar.indexCast v82
  let c26_i32_250 : BitVec 32 := 26#32
  let v492 : Index := Scalar.indexCast c26_i32_250
  let c192_251 : Index := 192#32
  ![v491.toNat, 26, 192]
def k0_off150 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v500 : Index := Scalar.indexCast v82
  let c26_i32_254 : BitVec 32 := 26#32
  let v501 : Index := Scalar.indexCast c26_i32_254
  let c208_255 : Index := 208#32
  ![v500.toNat, 26, 208]
def k0_off151 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v509 : Index := Scalar.indexCast v82
  let c26_i32_258 : BitVec 32 := 26#32
  let v510 : Index := Scalar.indexCast c26_i32_258
  let c224_259 : Index := 224#32
  ![v509.toNat, 26, 224]
def k0_off152 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v518 : Index := Scalar.indexCast v82
  let c26_i32_262 : BitVec 32 := 26#32
  let v519 : Index := Scalar.indexCast c26_i32_262
  let c240_263 : Index := 240#32
  ![v518.toNat, 26, 240]
def k0_off153 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v527 : Index := Scalar.indexCast v82
  let c26_i32_266 : BitVec 32 := 26#32
  let v528 : Index := Scalar.indexCast c26_i32_266
  let c256_267 : Index := 256#32
  ![v527.toNat, 26, 256]
def k0_off154 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v536 : Index := Scalar.indexCast v82
  let c26_i32_270 : BitVec 32 := 26#32
  let v537 : Index := Scalar.indexCast c26_i32_270
  let c272_271 : Index := 272#32
  ![v536.toNat, 26, 272]
def k0_off155 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v545 : Index := Scalar.indexCast v82
  let c26_i32_274 : BitVec 32 := 26#32
  let v546 : Index := Scalar.indexCast c26_i32_274
  let c288_275 : Index := 288#32
  ![v545.toNat, 26, 288]
def k0_off156 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v554 : Index := Scalar.indexCast v82
  let c26_i32_278 : BitVec 32 := 26#32
  let v555 : Index := Scalar.indexCast c26_i32_278
  let c304_279 : Index := 304#32
  ![v554.toNat, 26, 304]
def k0_off157 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v563 : Index := Scalar.indexCast v82
  let c26_i32_282 : BitVec 32 := 26#32
  let v564 : Index := Scalar.indexCast c26_i32_282
  let c320_283 : Index := 320#32
  ![v563.toNat, 26, 320]
def k0_off158 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v572 : Index := Scalar.indexCast v82
  let c26_i32_286 : BitVec 32 := 26#32
  let v573 : Index := Scalar.indexCast c26_i32_286
  let c336_287 : Index := 336#32
  ![v572.toNat, 26, 336]
def k0_off159 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v581 : Index := Scalar.indexCast v82
  let c26_i32_290 : BitVec 32 := 26#32
  let v582 : Index := Scalar.indexCast c26_i32_290
  let c352_291 : Index := 352#32
  ![v581.toNat, 26, 352]
def k0_off160 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v590 : Index := Scalar.indexCast v82
  let c26_i32_294 : BitVec 32 := 26#32
  let v591 : Index := Scalar.indexCast c26_i32_294
  let c368_295 : Index := 368#32
  ![v590.toNat, 26, 368]
def k0_off161 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v599 : Index := Scalar.indexCast v82
  let c26_i32_298 : BitVec 32 := 26#32
  let v600 : Index := Scalar.indexCast c26_i32_298
  let c384_299 : Index := 384#32
  ![v599.toNat, 26, 384]
def k0_off162 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v608 : Index := Scalar.indexCast v82
  let c26_i32_302 : BitVec 32 := 26#32
  let v609 : Index := Scalar.indexCast c26_i32_302
  let c400_303 : Index := 400#32
  ![v608.toNat, 26, 400]
def k0_off163 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v617 : Index := Scalar.indexCast v82
  let c26_i32_306 : BitVec 32 := 26#32
  let v618 : Index := Scalar.indexCast c26_i32_306
  let c416_307 : Index := 416#32
  ![v617.toNat, 26, 416]
def k0_off164 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v626 : Index := Scalar.indexCast v82
  let c26_i32_310 : BitVec 32 := 26#32
  let v627 : Index := Scalar.indexCast c26_i32_310
  let c432_311 : Index := 432#32
  ![v626.toNat, 26, 432]
def k0_off165 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v635 : Index := Scalar.indexCast v82
  let c26_i32_314 : BitVec 32 := 26#32
  let v636 : Index := Scalar.indexCast c26_i32_314
  let c448_315 : Index := 448#32
  ![v635.toNat, 26, 448]
def k0_off166 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v644 : Index := Scalar.indexCast v82
  let c26_i32_318 : BitVec 32 := 26#32
  let v645 : Index := Scalar.indexCast c26_i32_318
  let c464_319 : Index := 464#32
  ![v644.toNat, 26, 464]
def k0_off167 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v653 : Index := Scalar.indexCast v82
  let c26_i32_322 : BitVec 32 := 26#32
  let v654 : Index := Scalar.indexCast c26_i32_322
  let c480_323 : Index := 480#32
  ![v653.toNat, 26, 480]
def k0_off168 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v662 : Index := Scalar.indexCast v82
  let c26_i32_326 : BitVec 32 := 26#32
  let v663 : Index := Scalar.indexCast c26_i32_326
  let c496_327 : Index := 496#32
  ![v662.toNat, 26, 496]
def k0_off169 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v671 : Index := Scalar.indexCast v82
  let c27_i32 : BitVec 32 := 27#32
  let v672 : Index := Scalar.indexCast c27_i32
  let c0_330 : Index := 0#32
  ![v671.toNat, 27, 0]
def k0_off170 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v680 : Index := Scalar.indexCast v82
  let c27_i32_333 : BitVec 32 := 27#32
  let v681 : Index := Scalar.indexCast c27_i32_333
  let c16_334 : Index := 16#32
  ![v680.toNat, 27, 16]
def k0_off171 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v689 : Index := Scalar.indexCast v82
  let c27_i32_337 : BitVec 32 := 27#32
  let v690 : Index := Scalar.indexCast c27_i32_337
  let c32_338 : Index := 32#32
  ![v689.toNat, 27, 32]
def k0_off172 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v698 : Index := Scalar.indexCast v82
  let c27_i32_341 : BitVec 32 := 27#32
  let v699 : Index := Scalar.indexCast c27_i32_341
  let c48_342 : Index := 48#32
  ![v698.toNat, 27, 48]
def k0_off173 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v707 : Index := Scalar.indexCast v82
  let c27_i32_345 : BitVec 32 := 27#32
  let v708 : Index := Scalar.indexCast c27_i32_345
  let c64_346 : Index := 64#32
  ![v707.toNat, 27, 64]
def k0_off174 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v716 : Index := Scalar.indexCast v82
  let c27_i32_349 : BitVec 32 := 27#32
  let v717 : Index := Scalar.indexCast c27_i32_349
  let c80_350 : Index := 80#32
  ![v716.toNat, 27, 80]
def k0_off175 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v725 : Index := Scalar.indexCast v82
  let c27_i32_353 : BitVec 32 := 27#32
  let v726 : Index := Scalar.indexCast c27_i32_353
  let c96_354 : Index := 96#32
  ![v725.toNat, 27, 96]
def k0_off176 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v734 : Index := Scalar.indexCast v82
  let c27_i32_357 : BitVec 32 := 27#32
  let v735 : Index := Scalar.indexCast c27_i32_357
  let c112_358 : Index := 112#32
  ![v734.toNat, 27, 112]
def k0_off177 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v743 : Index := Scalar.indexCast v82
  let c27_i32_361 : BitVec 32 := 27#32
  let v744 : Index := Scalar.indexCast c27_i32_361
  let c128_362 : Index := 128#32
  ![v743.toNat, 27, 128]
def k0_off178 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v752 : Index := Scalar.indexCast v82
  let c27_i32_365 : BitVec 32 := 27#32
  let v753 : Index := Scalar.indexCast c27_i32_365
  let c144_366 : Index := 144#32
  ![v752.toNat, 27, 144]
def k0_off179 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v761 : Index := Scalar.indexCast v82
  let c27_i32_369 : BitVec 32 := 27#32
  let v762 : Index := Scalar.indexCast c27_i32_369
  let c160_370 : Index := 160#32
  ![v761.toNat, 27, 160]
def k0_off180 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v770 : Index := Scalar.indexCast v82
  let c27_i32_373 : BitVec 32 := 27#32
  let v771 : Index := Scalar.indexCast c27_i32_373
  let c176_374 : Index := 176#32
  ![v770.toNat, 27, 176]
def k0_off181 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v779 : Index := Scalar.indexCast v82
  let c27_i32_377 : BitVec 32 := 27#32
  let v780 : Index := Scalar.indexCast c27_i32_377
  let c192_378 : Index := 192#32
  ![v779.toNat, 27, 192]
def k0_off182 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v788 : Index := Scalar.indexCast v82
  let c27_i32_381 : BitVec 32 := 27#32
  let v789 : Index := Scalar.indexCast c27_i32_381
  let c208_382 : Index := 208#32
  ![v788.toNat, 27, 208]
def k0_off183 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v797 : Index := Scalar.indexCast v82
  let c27_i32_385 : BitVec 32 := 27#32
  let v798 : Index := Scalar.indexCast c27_i32_385
  let c224_386 : Index := 224#32
  ![v797.toNat, 27, 224]
def k0_off184 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v806 : Index := Scalar.indexCast v82
  let c27_i32_389 : BitVec 32 := 27#32
  let v807 : Index := Scalar.indexCast c27_i32_389
  let c240_390 : Index := 240#32
  ![v806.toNat, 27, 240]
def k0_off185 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v815 : Index := Scalar.indexCast v82
  let c27_i32_393 : BitVec 32 := 27#32
  let v816 : Index := Scalar.indexCast c27_i32_393
  let c256_394 : Index := 256#32
  ![v815.toNat, 27, 256]
def k0_off186 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v824 : Index := Scalar.indexCast v82
  let c27_i32_397 : BitVec 32 := 27#32
  let v825 : Index := Scalar.indexCast c27_i32_397
  let c272_398 : Index := 272#32
  ![v824.toNat, 27, 272]
def k0_off187 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v833 : Index := Scalar.indexCast v82
  let c27_i32_401 : BitVec 32 := 27#32
  let v834 : Index := Scalar.indexCast c27_i32_401
  let c288_402 : Index := 288#32
  ![v833.toNat, 27, 288]
def k0_off188 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v842 : Index := Scalar.indexCast v82
  let c27_i32_405 : BitVec 32 := 27#32
  let v843 : Index := Scalar.indexCast c27_i32_405
  let c304_406 : Index := 304#32
  ![v842.toNat, 27, 304]
def k0_off189 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v851 : Index := Scalar.indexCast v82
  let c27_i32_409 : BitVec 32 := 27#32
  let v852 : Index := Scalar.indexCast c27_i32_409
  let c320_410 : Index := 320#32
  ![v851.toNat, 27, 320]
def k0_off190 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v860 : Index := Scalar.indexCast v82
  let c27_i32_413 : BitVec 32 := 27#32
  let v861 : Index := Scalar.indexCast c27_i32_413
  let c336_414 : Index := 336#32
  ![v860.toNat, 27, 336]
def k0_off191 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v869 : Index := Scalar.indexCast v82
  let c27_i32_417 : BitVec 32 := 27#32
  let v870 : Index := Scalar.indexCast c27_i32_417
  let c352_418 : Index := 352#32
  ![v869.toNat, 27, 352]
def k0_off192 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v878 : Index := Scalar.indexCast v82
  let c27_i32_421 : BitVec 32 := 27#32
  let v879 : Index := Scalar.indexCast c27_i32_421
  let c368_422 : Index := 368#32
  ![v878.toNat, 27, 368]
def k0_off193 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v887 : Index := Scalar.indexCast v82
  let c27_i32_425 : BitVec 32 := 27#32
  let v888 : Index := Scalar.indexCast c27_i32_425
  let c384_426 : Index := 384#32
  ![v887.toNat, 27, 384]
def k0_off194 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v896 : Index := Scalar.indexCast v82
  let c27_i32_429 : BitVec 32 := 27#32
  let v897 : Index := Scalar.indexCast c27_i32_429
  let c400_430 : Index := 400#32
  ![v896.toNat, 27, 400]
def k0_off195 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v905 : Index := Scalar.indexCast v82
  let c27_i32_433 : BitVec 32 := 27#32
  let v906 : Index := Scalar.indexCast c27_i32_433
  let c416_434 : Index := 416#32
  ![v905.toNat, 27, 416]
def k0_off196 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v914 : Index := Scalar.indexCast v82
  let c27_i32_437 : BitVec 32 := 27#32
  let v915 : Index := Scalar.indexCast c27_i32_437
  let c432_438 : Index := 432#32
  ![v914.toNat, 27, 432]
def k0_off197 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v923 : Index := Scalar.indexCast v82
  let c27_i32_441 : BitVec 32 := 27#32
  let v924 : Index := Scalar.indexCast c27_i32_441
  let c448_442 : Index := 448#32
  ![v923.toNat, 27, 448]
def k0_off198 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v932 : Index := Scalar.indexCast v82
  let c27_i32_445 : BitVec 32 := 27#32
  let v933 : Index := Scalar.indexCast c27_i32_445
  let c464_446 : Index := 464#32
  ![v932.toNat, 27, 464]
def k0_off199 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v941 : Index := Scalar.indexCast v82
  let c27_i32_449 : BitVec 32 := 27#32
  let v942 : Index := Scalar.indexCast c27_i32_449
  let c480_450 : Index := 480#32
  ![v941.toNat, 27, 480]
def k0_off200 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v950 : Index := Scalar.indexCast v82
  let c27_i32_453 : BitVec 32 := 27#32
  let v951 : Index := Scalar.indexCast c27_i32_453
  let c496_454 : Index := 496#32
  ![v950.toNat, 27, 496]
def k0_off201 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v959 : Index := Scalar.indexCast v82
  let c28_i32 : BitVec 32 := 28#32
  let v960 : Index := Scalar.indexCast c28_i32
  let c0_457 : Index := 0#32
  ![v959.toNat, 28, 0]
def k0_off202 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v968 : Index := Scalar.indexCast v82
  let c28_i32_460 : BitVec 32 := 28#32
  let v969 : Index := Scalar.indexCast c28_i32_460
  let c16_461 : Index := 16#32
  ![v968.toNat, 28, 16]
def k0_off203 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v977 : Index := Scalar.indexCast v82
  let c28_i32_464 : BitVec 32 := 28#32
  let v978 : Index := Scalar.indexCast c28_i32_464
  let c32_465 : Index := 32#32
  ![v977.toNat, 28, 32]
def k0_off204 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v986 : Index := Scalar.indexCast v82
  let c28_i32_468 : BitVec 32 := 28#32
  let v987 : Index := Scalar.indexCast c28_i32_468
  let c48_469 : Index := 48#32
  ![v986.toNat, 28, 48]
def k0_off205 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v995 : Index := Scalar.indexCast v82
  let c28_i32_472 : BitVec 32 := 28#32
  let v996 : Index := Scalar.indexCast c28_i32_472
  let c64_473 : Index := 64#32
  ![v995.toNat, 28, 64]
def k0_off206 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1004 : Index := Scalar.indexCast v82
  let c28_i32_476 : BitVec 32 := 28#32
  let v1005 : Index := Scalar.indexCast c28_i32_476
  let c80_477 : Index := 80#32
  ![v1004.toNat, 28, 80]
def k0_off207 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1013 : Index := Scalar.indexCast v82
  let c28_i32_480 : BitVec 32 := 28#32
  let v1014 : Index := Scalar.indexCast c28_i32_480
  let c96_481 : Index := 96#32
  ![v1013.toNat, 28, 96]
def k0_off208 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1022 : Index := Scalar.indexCast v82
  let c28_i32_484 : BitVec 32 := 28#32
  let v1023 : Index := Scalar.indexCast c28_i32_484
  let c112_485 : Index := 112#32
  ![v1022.toNat, 28, 112]
def k0_off209 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1031 : Index := Scalar.indexCast v82
  let c28_i32_488 : BitVec 32 := 28#32
  let v1032 : Index := Scalar.indexCast c28_i32_488
  let c128_489 : Index := 128#32
  ![v1031.toNat, 28, 128]
def k0_off210 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1040 : Index := Scalar.indexCast v82
  let c28_i32_492 : BitVec 32 := 28#32
  let v1041 : Index := Scalar.indexCast c28_i32_492
  let c144_493 : Index := 144#32
  ![v1040.toNat, 28, 144]
def k0_off211 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1049 : Index := Scalar.indexCast v82
  let c28_i32_496 : BitVec 32 := 28#32
  let v1050 : Index := Scalar.indexCast c28_i32_496
  let c160_497 : Index := 160#32
  ![v1049.toNat, 28, 160]
def k0_off212 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1058 : Index := Scalar.indexCast v82
  let c28_i32_500 : BitVec 32 := 28#32
  let v1059 : Index := Scalar.indexCast c28_i32_500
  let c176_501 : Index := 176#32
  ![v1058.toNat, 28, 176]
def k0_off213 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1067 : Index := Scalar.indexCast v82
  let c28_i32_504 : BitVec 32 := 28#32
  let v1068 : Index := Scalar.indexCast c28_i32_504
  let c192_505 : Index := 192#32
  ![v1067.toNat, 28, 192]
def k0_off214 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1076 : Index := Scalar.indexCast v82
  let c28_i32_508 : BitVec 32 := 28#32
  let v1077 : Index := Scalar.indexCast c28_i32_508
  let c208_509 : Index := 208#32
  ![v1076.toNat, 28, 208]
def k0_off215 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1085 : Index := Scalar.indexCast v82
  let c28_i32_512 : BitVec 32 := 28#32
  let v1086 : Index := Scalar.indexCast c28_i32_512
  let c224_513 : Index := 224#32
  ![v1085.toNat, 28, 224]
def k0_off216 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1094 : Index := Scalar.indexCast v82
  let c28_i32_516 : BitVec 32 := 28#32
  let v1095 : Index := Scalar.indexCast c28_i32_516
  let c240_517 : Index := 240#32
  ![v1094.toNat, 28, 240]
def k0_off217 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1103 : Index := Scalar.indexCast v82
  let c28_i32_520 : BitVec 32 := 28#32
  let v1104 : Index := Scalar.indexCast c28_i32_520
  let c256_521 : Index := 256#32
  ![v1103.toNat, 28, 256]
def k0_off218 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1112 : Index := Scalar.indexCast v82
  let c28_i32_524 : BitVec 32 := 28#32
  let v1113 : Index := Scalar.indexCast c28_i32_524
  let c272_525 : Index := 272#32
  ![v1112.toNat, 28, 272]
def k0_off219 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1121 : Index := Scalar.indexCast v82
  let c28_i32_528 : BitVec 32 := 28#32
  let v1122 : Index := Scalar.indexCast c28_i32_528
  let c288_529 : Index := 288#32
  ![v1121.toNat, 28, 288]
def k0_off220 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1130 : Index := Scalar.indexCast v82
  let c28_i32_532 : BitVec 32 := 28#32
  let v1131 : Index := Scalar.indexCast c28_i32_532
  let c304_533 : Index := 304#32
  ![v1130.toNat, 28, 304]
def k0_off221 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1139 : Index := Scalar.indexCast v82
  let c28_i32_536 : BitVec 32 := 28#32
  let v1140 : Index := Scalar.indexCast c28_i32_536
  let c320_537 : Index := 320#32
  ![v1139.toNat, 28, 320]
def k0_off222 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1148 : Index := Scalar.indexCast v82
  let c28_i32_540 : BitVec 32 := 28#32
  let v1149 : Index := Scalar.indexCast c28_i32_540
  let c336_541 : Index := 336#32
  ![v1148.toNat, 28, 336]
def k0_off223 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1157 : Index := Scalar.indexCast v82
  let c28_i32_544 : BitVec 32 := 28#32
  let v1158 : Index := Scalar.indexCast c28_i32_544
  let c352_545 : Index := 352#32
  ![v1157.toNat, 28, 352]
def k0_off224 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1166 : Index := Scalar.indexCast v82
  let c28_i32_548 : BitVec 32 := 28#32
  let v1167 : Index := Scalar.indexCast c28_i32_548
  let c368_549 : Index := 368#32
  ![v1166.toNat, 28, 368]
def k0_off225 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1175 : Index := Scalar.indexCast v82
  let c28_i32_552 : BitVec 32 := 28#32
  let v1176 : Index := Scalar.indexCast c28_i32_552
  let c384_553 : Index := 384#32
  ![v1175.toNat, 28, 384]
def k0_off226 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1184 : Index := Scalar.indexCast v82
  let c28_i32_556 : BitVec 32 := 28#32
  let v1185 : Index := Scalar.indexCast c28_i32_556
  let c400_557 : Index := 400#32
  ![v1184.toNat, 28, 400]
def k0_off227 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1193 : Index := Scalar.indexCast v82
  let c28_i32_560 : BitVec 32 := 28#32
  let v1194 : Index := Scalar.indexCast c28_i32_560
  let c416_561 : Index := 416#32
  ![v1193.toNat, 28, 416]
def k0_off228 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1202 : Index := Scalar.indexCast v82
  let c28_i32_564 : BitVec 32 := 28#32
  let v1203 : Index := Scalar.indexCast c28_i32_564
  let c432_565 : Index := 432#32
  ![v1202.toNat, 28, 432]
def k0_off229 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1211 : Index := Scalar.indexCast v82
  let c28_i32_568 : BitVec 32 := 28#32
  let v1212 : Index := Scalar.indexCast c28_i32_568
  let c448_569 : Index := 448#32
  ![v1211.toNat, 28, 448]
def k0_off230 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1220 : Index := Scalar.indexCast v82
  let c28_i32_572 : BitVec 32 := 28#32
  let v1221 : Index := Scalar.indexCast c28_i32_572
  let c464_573 : Index := 464#32
  ![v1220.toNat, 28, 464]
def k0_off231 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1229 : Index := Scalar.indexCast v82
  let c28_i32_576 : BitVec 32 := 28#32
  let v1230 : Index := Scalar.indexCast c28_i32_576
  let c480_577 : Index := 480#32
  ![v1229.toNat, 28, 480]
def k0_off232 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1238 : Index := Scalar.indexCast v82
  let c28_i32_580 : BitVec 32 := 28#32
  let v1239 : Index := Scalar.indexCast c28_i32_580
  let c496_581 : Index := 496#32
  ![v1238.toNat, 28, 496]
def k0_off233 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1247 : Index := Scalar.indexCast v82
  let c29_i32 : BitVec 32 := 29#32
  let v1248 : Index := Scalar.indexCast c29_i32
  let c0_584 : Index := 0#32
  ![v1247.toNat, 29, 0]
def k0_off234 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1256 : Index := Scalar.indexCast v82
  let c29_i32_587 : BitVec 32 := 29#32
  let v1257 : Index := Scalar.indexCast c29_i32_587
  let c16_588 : Index := 16#32
  ![v1256.toNat, 29, 16]
def k0_off235 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1265 : Index := Scalar.indexCast v82
  let c29_i32_591 : BitVec 32 := 29#32
  let v1266 : Index := Scalar.indexCast c29_i32_591
  let c32_592 : Index := 32#32
  ![v1265.toNat, 29, 32]
def k0_off236 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1274 : Index := Scalar.indexCast v82
  let c29_i32_595 : BitVec 32 := 29#32
  let v1275 : Index := Scalar.indexCast c29_i32_595
  let c48_596 : Index := 48#32
  ![v1274.toNat, 29, 48]
def k0_off237 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1283 : Index := Scalar.indexCast v82
  let c29_i32_599 : BitVec 32 := 29#32
  let v1284 : Index := Scalar.indexCast c29_i32_599
  let c64_600 : Index := 64#32
  ![v1283.toNat, 29, 64]
def k0_off238 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1292 : Index := Scalar.indexCast v82
  let c29_i32_603 : BitVec 32 := 29#32
  let v1293 : Index := Scalar.indexCast c29_i32_603
  let c80_604 : Index := 80#32
  ![v1292.toNat, 29, 80]
def k0_off239 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1301 : Index := Scalar.indexCast v82
  let c29_i32_607 : BitVec 32 := 29#32
  let v1302 : Index := Scalar.indexCast c29_i32_607
  let c96_608 : Index := 96#32
  ![v1301.toNat, 29, 96]
def k0_off240 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1310 : Index := Scalar.indexCast v82
  let c29_i32_611 : BitVec 32 := 29#32
  let v1311 : Index := Scalar.indexCast c29_i32_611
  let c112_612 : Index := 112#32
  ![v1310.toNat, 29, 112]
def k0_off241 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1319 : Index := Scalar.indexCast v82
  let c29_i32_615 : BitVec 32 := 29#32
  let v1320 : Index := Scalar.indexCast c29_i32_615
  let c128_616 : Index := 128#32
  ![v1319.toNat, 29, 128]
def k0_off242 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1328 : Index := Scalar.indexCast v82
  let c29_i32_619 : BitVec 32 := 29#32
  let v1329 : Index := Scalar.indexCast c29_i32_619
  let c144_620 : Index := 144#32
  ![v1328.toNat, 29, 144]
def k0_off243 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1337 : Index := Scalar.indexCast v82
  let c29_i32_623 : BitVec 32 := 29#32
  let v1338 : Index := Scalar.indexCast c29_i32_623
  let c160_624 : Index := 160#32
  ![v1337.toNat, 29, 160]
def k0_off244 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1346 : Index := Scalar.indexCast v82
  let c29_i32_627 : BitVec 32 := 29#32
  let v1347 : Index := Scalar.indexCast c29_i32_627
  let c176_628 : Index := 176#32
  ![v1346.toNat, 29, 176]
def k0_off245 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1355 : Index := Scalar.indexCast v82
  let c29_i32_631 : BitVec 32 := 29#32
  let v1356 : Index := Scalar.indexCast c29_i32_631
  let c192_632 : Index := 192#32
  ![v1355.toNat, 29, 192]
def k0_off246 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1364 : Index := Scalar.indexCast v82
  let c29_i32_635 : BitVec 32 := 29#32
  let v1365 : Index := Scalar.indexCast c29_i32_635
  let c208_636 : Index := 208#32
  ![v1364.toNat, 29, 208]
def k0_off247 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1373 : Index := Scalar.indexCast v82
  let c29_i32_639 : BitVec 32 := 29#32
  let v1374 : Index := Scalar.indexCast c29_i32_639
  let c224_640 : Index := 224#32
  ![v1373.toNat, 29, 224]
def k0_off248 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1382 : Index := Scalar.indexCast v82
  let c29_i32_643 : BitVec 32 := 29#32
  let v1383 : Index := Scalar.indexCast c29_i32_643
  let c240_644 : Index := 240#32
  ![v1382.toNat, 29, 240]
def k0_off249 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1391 : Index := Scalar.indexCast v82
  let c29_i32_647 : BitVec 32 := 29#32
  let v1392 : Index := Scalar.indexCast c29_i32_647
  let c256_648 : Index := 256#32
  ![v1391.toNat, 29, 256]
def k0_off250 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1400 : Index := Scalar.indexCast v82
  let c29_i32_651 : BitVec 32 := 29#32
  let v1401 : Index := Scalar.indexCast c29_i32_651
  let c272_652 : Index := 272#32
  ![v1400.toNat, 29, 272]
def k0_off251 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1409 : Index := Scalar.indexCast v82
  let c29_i32_655 : BitVec 32 := 29#32
  let v1410 : Index := Scalar.indexCast c29_i32_655
  let c288_656 : Index := 288#32
  ![v1409.toNat, 29, 288]
def k0_off252 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1418 : Index := Scalar.indexCast v82
  let c29_i32_659 : BitVec 32 := 29#32
  let v1419 : Index := Scalar.indexCast c29_i32_659
  let c304_660 : Index := 304#32
  ![v1418.toNat, 29, 304]
def k0_off253 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1427 : Index := Scalar.indexCast v82
  let c29_i32_663 : BitVec 32 := 29#32
  let v1428 : Index := Scalar.indexCast c29_i32_663
  let c320_664 : Index := 320#32
  ![v1427.toNat, 29, 320]
def k0_off254 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1436 : Index := Scalar.indexCast v82
  let c29_i32_667 : BitVec 32 := 29#32
  let v1437 : Index := Scalar.indexCast c29_i32_667
  let c336_668 : Index := 336#32
  ![v1436.toNat, 29, 336]
def k0_off255 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1445 : Index := Scalar.indexCast v82
  let c29_i32_671 : BitVec 32 := 29#32
  let v1446 : Index := Scalar.indexCast c29_i32_671
  let c352_672 : Index := 352#32
  ![v1445.toNat, 29, 352]
def k0_off256 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1454 : Index := Scalar.indexCast v82
  let c29_i32_675 : BitVec 32 := 29#32
  let v1455 : Index := Scalar.indexCast c29_i32_675
  let c368_676 : Index := 368#32
  ![v1454.toNat, 29, 368]
def k0_off257 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1463 : Index := Scalar.indexCast v82
  let c29_i32_679 : BitVec 32 := 29#32
  let v1464 : Index := Scalar.indexCast c29_i32_679
  let c384_680 : Index := 384#32
  ![v1463.toNat, 29, 384]
def k0_off258 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1472 : Index := Scalar.indexCast v82
  let c29_i32_683 : BitVec 32 := 29#32
  let v1473 : Index := Scalar.indexCast c29_i32_683
  let c400_684 : Index := 400#32
  ![v1472.toNat, 29, 400]
def k0_off259 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1481 : Index := Scalar.indexCast v82
  let c29_i32_687 : BitVec 32 := 29#32
  let v1482 : Index := Scalar.indexCast c29_i32_687
  let c416_688 : Index := 416#32
  ![v1481.toNat, 29, 416]
def k0_off260 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1490 : Index := Scalar.indexCast v82
  let c29_i32_691 : BitVec 32 := 29#32
  let v1491 : Index := Scalar.indexCast c29_i32_691
  let c432_692 : Index := 432#32
  ![v1490.toNat, 29, 432]
def k0_off261 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1499 : Index := Scalar.indexCast v82
  let c29_i32_695 : BitVec 32 := 29#32
  let v1500 : Index := Scalar.indexCast c29_i32_695
  let c448_696 : Index := 448#32
  ![v1499.toNat, 29, 448]
def k0_off262 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1508 : Index := Scalar.indexCast v82
  let c29_i32_699 : BitVec 32 := 29#32
  let v1509 : Index := Scalar.indexCast c29_i32_699
  let c464_700 : Index := 464#32
  ![v1508.toNat, 29, 464]
def k0_off263 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1517 : Index := Scalar.indexCast v82
  let c29_i32_703 : BitVec 32 := 29#32
  let v1518 : Index := Scalar.indexCast c29_i32_703
  let c480_704 : Index := 480#32
  ![v1517.toNat, 29, 480]
def k0_off264 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1526 : Index := Scalar.indexCast v82
  let c29_i32_707 : BitVec 32 := 29#32
  let v1527 : Index := Scalar.indexCast c29_i32_707
  let c496_708 : Index := 496#32
  ![v1526.toNat, 29, 496]
def k0_off265 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1535 : Index := Scalar.indexCast v82
  let c30_i32 : BitVec 32 := 30#32
  let v1536 : Index := Scalar.indexCast c30_i32
  let c0_711 : Index := 0#32
  ![v1535.toNat, 30, 0]
def k0_off266 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1544 : Index := Scalar.indexCast v82
  let c30_i32_714 : BitVec 32 := 30#32
  let v1545 : Index := Scalar.indexCast c30_i32_714
  let c16_715 : Index := 16#32
  ![v1544.toNat, 30, 16]
def k0_off267 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1553 : Index := Scalar.indexCast v82
  let c30_i32_718 : BitVec 32 := 30#32
  let v1554 : Index := Scalar.indexCast c30_i32_718
  let c32_719 : Index := 32#32
  ![v1553.toNat, 30, 32]
def k0_off268 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1562 : Index := Scalar.indexCast v82
  let c30_i32_722 : BitVec 32 := 30#32
  let v1563 : Index := Scalar.indexCast c30_i32_722
  let c48_723 : Index := 48#32
  ![v1562.toNat, 30, 48]
def k0_off269 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1571 : Index := Scalar.indexCast v82
  let c30_i32_726 : BitVec 32 := 30#32
  let v1572 : Index := Scalar.indexCast c30_i32_726
  let c64_727 : Index := 64#32
  ![v1571.toNat, 30, 64]
def k0_off270 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1580 : Index := Scalar.indexCast v82
  let c30_i32_730 : BitVec 32 := 30#32
  let v1581 : Index := Scalar.indexCast c30_i32_730
  let c80_731 : Index := 80#32
  ![v1580.toNat, 30, 80]
def k0_off271 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1589 : Index := Scalar.indexCast v82
  let c30_i32_734 : BitVec 32 := 30#32
  let v1590 : Index := Scalar.indexCast c30_i32_734
  let c96_735 : Index := 96#32
  ![v1589.toNat, 30, 96]
def k0_off272 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1598 : Index := Scalar.indexCast v82
  let c30_i32_738 : BitVec 32 := 30#32
  let v1599 : Index := Scalar.indexCast c30_i32_738
  let c112_739 : Index := 112#32
  ![v1598.toNat, 30, 112]
def k0_off273 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1607 : Index := Scalar.indexCast v82
  let c30_i32_742 : BitVec 32 := 30#32
  let v1608 : Index := Scalar.indexCast c30_i32_742
  let c128_743 : Index := 128#32
  ![v1607.toNat, 30, 128]
def k0_off274 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1616 : Index := Scalar.indexCast v82
  let c30_i32_746 : BitVec 32 := 30#32
  let v1617 : Index := Scalar.indexCast c30_i32_746
  let c144_747 : Index := 144#32
  ![v1616.toNat, 30, 144]
def k0_off275 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1625 : Index := Scalar.indexCast v82
  let c30_i32_750 : BitVec 32 := 30#32
  let v1626 : Index := Scalar.indexCast c30_i32_750
  let c160_751 : Index := 160#32
  ![v1625.toNat, 30, 160]
def k0_off276 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1634 : Index := Scalar.indexCast v82
  let c30_i32_754 : BitVec 32 := 30#32
  let v1635 : Index := Scalar.indexCast c30_i32_754
  let c176_755 : Index := 176#32
  ![v1634.toNat, 30, 176]
def k0_off277 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1643 : Index := Scalar.indexCast v82
  let c30_i32_758 : BitVec 32 := 30#32
  let v1644 : Index := Scalar.indexCast c30_i32_758
  let c192_759 : Index := 192#32
  ![v1643.toNat, 30, 192]
def k0_off278 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1652 : Index := Scalar.indexCast v82
  let c30_i32_762 : BitVec 32 := 30#32
  let v1653 : Index := Scalar.indexCast c30_i32_762
  let c208_763 : Index := 208#32
  ![v1652.toNat, 30, 208]
def k0_off279 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1661 : Index := Scalar.indexCast v82
  let c30_i32_766 : BitVec 32 := 30#32
  let v1662 : Index := Scalar.indexCast c30_i32_766
  let c224_767 : Index := 224#32
  ![v1661.toNat, 30, 224]
def k0_off280 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1670 : Index := Scalar.indexCast v82
  let c30_i32_770 : BitVec 32 := 30#32
  let v1671 : Index := Scalar.indexCast c30_i32_770
  let c240_771 : Index := 240#32
  ![v1670.toNat, 30, 240]
def k0_off281 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1679 : Index := Scalar.indexCast v82
  let c30_i32_774 : BitVec 32 := 30#32
  let v1680 : Index := Scalar.indexCast c30_i32_774
  let c256_775 : Index := 256#32
  ![v1679.toNat, 30, 256]
def k0_off282 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1688 : Index := Scalar.indexCast v82
  let c30_i32_778 : BitVec 32 := 30#32
  let v1689 : Index := Scalar.indexCast c30_i32_778
  let c272_779 : Index := 272#32
  ![v1688.toNat, 30, 272]
def k0_off283 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1697 : Index := Scalar.indexCast v82
  let c30_i32_782 : BitVec 32 := 30#32
  let v1698 : Index := Scalar.indexCast c30_i32_782
  let c288_783 : Index := 288#32
  ![v1697.toNat, 30, 288]
def k0_off284 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1706 : Index := Scalar.indexCast v82
  let c30_i32_786 : BitVec 32 := 30#32
  let v1707 : Index := Scalar.indexCast c30_i32_786
  let c304_787 : Index := 304#32
  ![v1706.toNat, 30, 304]
def k0_off285 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1715 : Index := Scalar.indexCast v82
  let c30_i32_790 : BitVec 32 := 30#32
  let v1716 : Index := Scalar.indexCast c30_i32_790
  let c320_791 : Index := 320#32
  ![v1715.toNat, 30, 320]
def k0_off286 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1724 : Index := Scalar.indexCast v82
  let c30_i32_794 : BitVec 32 := 30#32
  let v1725 : Index := Scalar.indexCast c30_i32_794
  let c336_795 : Index := 336#32
  ![v1724.toNat, 30, 336]
def k0_off287 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1733 : Index := Scalar.indexCast v82
  let c30_i32_798 : BitVec 32 := 30#32
  let v1734 : Index := Scalar.indexCast c30_i32_798
  let c352_799 : Index := 352#32
  ![v1733.toNat, 30, 352]
def k0_off288 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1742 : Index := Scalar.indexCast v82
  let c30_i32_802 : BitVec 32 := 30#32
  let v1743 : Index := Scalar.indexCast c30_i32_802
  let c368_803 : Index := 368#32
  ![v1742.toNat, 30, 368]
def k0_off289 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1751 : Index := Scalar.indexCast v82
  let c30_i32_806 : BitVec 32 := 30#32
  let v1752 : Index := Scalar.indexCast c30_i32_806
  let c384_807 : Index := 384#32
  ![v1751.toNat, 30, 384]
def k0_off290 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1760 : Index := Scalar.indexCast v82
  let c30_i32_810 : BitVec 32 := 30#32
  let v1761 : Index := Scalar.indexCast c30_i32_810
  let c400_811 : Index := 400#32
  ![v1760.toNat, 30, 400]
def k0_off291 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1769 : Index := Scalar.indexCast v82
  let c30_i32_814 : BitVec 32 := 30#32
  let v1770 : Index := Scalar.indexCast c30_i32_814
  let c416_815 : Index := 416#32
  ![v1769.toNat, 30, 416]
def k0_off292 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1778 : Index := Scalar.indexCast v82
  let c30_i32_818 : BitVec 32 := 30#32
  let v1779 : Index := Scalar.indexCast c30_i32_818
  let c432_819 : Index := 432#32
  ![v1778.toNat, 30, 432]
def k0_off293 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1787 : Index := Scalar.indexCast v82
  let c30_i32_822 : BitVec 32 := 30#32
  let v1788 : Index := Scalar.indexCast c30_i32_822
  let c448_823 : Index := 448#32
  ![v1787.toNat, 30, 448]
def k0_off294 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1796 : Index := Scalar.indexCast v82
  let c30_i32_826 : BitVec 32 := 30#32
  let v1797 : Index := Scalar.indexCast c30_i32_826
  let c464_827 : Index := 464#32
  ![v1796.toNat, 30, 464]
def k0_off295 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1805 : Index := Scalar.indexCast v82
  let c30_i32_830 : BitVec 32 := 30#32
  let v1806 : Index := Scalar.indexCast c30_i32_830
  let c480_831 : Index := 480#32
  ![v1805.toNat, 30, 480]
def k0_off296 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1814 : Index := Scalar.indexCast v82
  let c30_i32_834 : BitVec 32 := 30#32
  let v1815 : Index := Scalar.indexCast c30_i32_834
  let c496_835 : Index := 496#32
  ![v1814.toNat, 30, 496]
def k0_off297 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1823 : Index := Scalar.indexCast v82
  let c31_i32_838 : BitVec 32 := 31#32
  let v1824 : Index := Scalar.indexCast c31_i32_838
  let c0_839 : Index := 0#32
  ![v1823.toNat, 31, 0]
def k0_off298 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1832 : Index := Scalar.indexCast v82
  let c31_i32_842 : BitVec 32 := 31#32
  let v1833 : Index := Scalar.indexCast c31_i32_842
  let c16_843 : Index := 16#32
  ![v1832.toNat, 31, 16]
def k0_off299 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1841 : Index := Scalar.indexCast v82
  let c31_i32_846 : BitVec 32 := 31#32
  let v1842 : Index := Scalar.indexCast c31_i32_846
  let c32_847 : Index := 32#32
  ![v1841.toNat, 31, 32]
def k0_off300 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1850 : Index := Scalar.indexCast v82
  let c31_i32_850 : BitVec 32 := 31#32
  let v1851 : Index := Scalar.indexCast c31_i32_850
  let c48_851 : Index := 48#32
  ![v1850.toNat, 31, 48]
def k0_off301 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1859 : Index := Scalar.indexCast v82
  let c31_i32_854 : BitVec 32 := 31#32
  let v1860 : Index := Scalar.indexCast c31_i32_854
  let c64_855 : Index := 64#32
  ![v1859.toNat, 31, 64]
def k0_off302 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1868 : Index := Scalar.indexCast v82
  let c31_i32_858 : BitVec 32 := 31#32
  let v1869 : Index := Scalar.indexCast c31_i32_858
  let c80_859 : Index := 80#32
  ![v1868.toNat, 31, 80]
def k0_off303 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1877 : Index := Scalar.indexCast v82
  let c31_i32_862 : BitVec 32 := 31#32
  let v1878 : Index := Scalar.indexCast c31_i32_862
  let c96_863 : Index := 96#32
  ![v1877.toNat, 31, 96]
def k0_off304 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1886 : Index := Scalar.indexCast v82
  let c31_i32_866 : BitVec 32 := 31#32
  let v1887 : Index := Scalar.indexCast c31_i32_866
  let c112_867 : Index := 112#32
  ![v1886.toNat, 31, 112]
def k0_off305 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1895 : Index := Scalar.indexCast v82
  let c31_i32_870 : BitVec 32 := 31#32
  let v1896 : Index := Scalar.indexCast c31_i32_870
  let c128_871 : Index := 128#32
  ![v1895.toNat, 31, 128]
def k0_off306 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1904 : Index := Scalar.indexCast v82
  let c31_i32_874 : BitVec 32 := 31#32
  let v1905 : Index := Scalar.indexCast c31_i32_874
  let c144_875 : Index := 144#32
  ![v1904.toNat, 31, 144]
def k0_off307 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1913 : Index := Scalar.indexCast v82
  let c31_i32_878 : BitVec 32 := 31#32
  let v1914 : Index := Scalar.indexCast c31_i32_878
  let c160_879 : Index := 160#32
  ![v1913.toNat, 31, 160]
def k0_off308 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1922 : Index := Scalar.indexCast v82
  let c31_i32_882 : BitVec 32 := 31#32
  let v1923 : Index := Scalar.indexCast c31_i32_882
  let c176_883 : Index := 176#32
  ![v1922.toNat, 31, 176]
def k0_off309 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1931 : Index := Scalar.indexCast v82
  let c31_i32_886 : BitVec 32 := 31#32
  let v1932 : Index := Scalar.indexCast c31_i32_886
  let c192_887 : Index := 192#32
  ![v1931.toNat, 31, 192]
def k0_off310 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1940 : Index := Scalar.indexCast v82
  let c31_i32_890 : BitVec 32 := 31#32
  let v1941 : Index := Scalar.indexCast c31_i32_890
  let c208_891 : Index := 208#32
  ![v1940.toNat, 31, 208]
def k0_off311 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1949 : Index := Scalar.indexCast v82
  let c31_i32_894 : BitVec 32 := 31#32
  let v1950 : Index := Scalar.indexCast c31_i32_894
  let c224_895 : Index := 224#32
  ![v1949.toNat, 31, 224]
def k0_off312 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1958 : Index := Scalar.indexCast v82
  let c31_i32_898 : BitVec 32 := 31#32
  let v1959 : Index := Scalar.indexCast c31_i32_898
  let c240_899 : Index := 240#32
  ![v1958.toNat, 31, 240]
def k0_off313 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1967 : Index := Scalar.indexCast v82
  let c31_i32_902 : BitVec 32 := 31#32
  let v1968 : Index := Scalar.indexCast c31_i32_902
  let c256_903 : Index := 256#32
  ![v1967.toNat, 31, 256]
def k0_off314 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1976 : Index := Scalar.indexCast v82
  let c31_i32_906 : BitVec 32 := 31#32
  let v1977 : Index := Scalar.indexCast c31_i32_906
  let c272_907 : Index := 272#32
  ![v1976.toNat, 31, 272]
def k0_off315 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1985 : Index := Scalar.indexCast v82
  let c31_i32_910 : BitVec 32 := 31#32
  let v1986 : Index := Scalar.indexCast c31_i32_910
  let c288_911 : Index := 288#32
  ![v1985.toNat, 31, 288]
def k0_off316 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v1994 : Index := Scalar.indexCast v82
  let c31_i32_914 : BitVec 32 := 31#32
  let v1995 : Index := Scalar.indexCast c31_i32_914
  let c304_915 : Index := 304#32
  ![v1994.toNat, 31, 304]
def k0_off317 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2003 : Index := Scalar.indexCast v82
  let c31_i32_918 : BitVec 32 := 31#32
  let v2004 : Index := Scalar.indexCast c31_i32_918
  let c320_919 : Index := 320#32
  ![v2003.toNat, 31, 320]
def k0_off318 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2012 : Index := Scalar.indexCast v82
  let c31_i32_922 : BitVec 32 := 31#32
  let v2013 : Index := Scalar.indexCast c31_i32_922
  let c336_923 : Index := 336#32
  ![v2012.toNat, 31, 336]
def k0_off319 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2021 : Index := Scalar.indexCast v82
  let c31_i32_926 : BitVec 32 := 31#32
  let v2022 : Index := Scalar.indexCast c31_i32_926
  let c352_927 : Index := 352#32
  ![v2021.toNat, 31, 352]
def k0_off320 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2030 : Index := Scalar.indexCast v82
  let c31_i32_930 : BitVec 32 := 31#32
  let v2031 : Index := Scalar.indexCast c31_i32_930
  let c368_931 : Index := 368#32
  ![v2030.toNat, 31, 368]
def k0_off321 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2039 : Index := Scalar.indexCast v82
  let c31_i32_934 : BitVec 32 := 31#32
  let v2040 : Index := Scalar.indexCast c31_i32_934
  let c384_935 : Index := 384#32
  ![v2039.toNat, 31, 384]
def k0_off322 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2048 : Index := Scalar.indexCast v82
  let c31_i32_938 : BitVec 32 := 31#32
  let v2049 : Index := Scalar.indexCast c31_i32_938
  let c400_939 : Index := 400#32
  ![v2048.toNat, 31, 400]
def k0_off323 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2057 : Index := Scalar.indexCast v82
  let c31_i32_942 : BitVec 32 := 31#32
  let v2058 : Index := Scalar.indexCast c31_i32_942
  let c416_943 : Index := 416#32
  ![v2057.toNat, 31, 416]
def k0_off324 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2066 : Index := Scalar.indexCast v82
  let c31_i32_946 : BitVec 32 := 31#32
  let v2067 : Index := Scalar.indexCast c31_i32_946
  let c432_947 : Index := 432#32
  ![v2066.toNat, 31, 432]
def k0_off325 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2075 : Index := Scalar.indexCast v82
  let c31_i32_950 : BitVec 32 := 31#32
  let v2076 : Index := Scalar.indexCast c31_i32_950
  let c448_951 : Index := 448#32
  ![v2075.toNat, 31, 448]
def k0_off326 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2084 : Index := Scalar.indexCast v82
  let c31_i32_954 : BitVec 32 := 31#32
  let v2085 : Index := Scalar.indexCast c31_i32_954
  let c464_955 : Index := 464#32
  ![v2084.toNat, 31, 464]
def k0_off327 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2093 : Index := Scalar.indexCast v82
  let c31_i32_958 : BitVec 32 := 31#32
  let v2094 : Index := Scalar.indexCast c31_i32_958
  let c480_959 : Index := 480#32
  ![v2093.toNat, 31, 480]
def k0_off328 (k0_t1 : Fin k0_t1_loop.trips) : Fin 3 → Nat :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let v2102 : Index := Scalar.indexCast v82
  let c31_i32_962 : BitVec 32 := 31#32
  let v2103 : Index := Scalar.indexCast c31_i32_962
  let c496_963 : Index := 496#32
  ![v2102.toNat, 31, 496]
def k0_cond31 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c63_i32_968 : BitVec 32 := 63#32
  let v2114 : BitVec 1 := Scalar.cmpi .eq arg22 c63_i32_968
  let v2115 : BitVec 32 := Scalar.extui v2114
  let c0_i32_969 : BitVec 32 := 0#32
  let v2116 : BitVec 1 := Scalar.cmpi .ne v2115 c0_i32_969
  v2116

def k0_cond32 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_983 : BitVec 32 := 31#32
  let v2137 : BitVec 1 := Scalar.cmpi .slt v1 c31_i32_983
  let v2138 : BitVec 32 := Scalar.extui v2137
  let c0_i32_984 : BitVec 32 := 0#32
  let v2139 : BitVec 1 := Scalar.cmpi .ne v2138 c0_i32_984
  v2139

def k0_off329 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2048_i32_0 : BitVec 32 := 2048#32
  let v3 : BitVec 32 := Scalar.addi v2 c2048_i32_0
  let c65528_i32 : BitVec 32 := 65528#32
  let v4 : BitVec 32 := Scalar.minsi v3 c65528_i32
  let c0_i32_987 : BitVec 32 := 0#32
  ![v4.toNat, 0]
def k0_cond46 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let c0_i32_971 : BitVec 32 := 0#32
  let v2119 : BitVec 1 := Scalar.cmpi .eq v82 c0_i32_971
  let v2120 : BitVec 32 := Scalar.extui v2119
  let c0_i32_972 : BitVec 32 := 0#32
  let v2121 : BitVec 1 := Scalar.cmpi .ne v2120 c0_i32_972
  v2121

def k0_off330 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c32_i32_970 : BitVec 32 := 32#32
  let v2117 : BitVec 32 := Scalar.muli arg22 c32_i32_970
  let v2118 : BitVec 32 := Scalar.addi v2 v2117
  let c0_i32_986 : BitVec 32 := 0#32
  ![v2118.toNat, 0]
def k0_cond47 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let c1_i32_973 : BitVec 32 := 1#32
  let v2122 : BitVec 1 := Scalar.cmpi .eq v82 c1_i32_973
  let v2123 : BitVec 32 := Scalar.extui v2122
  let c0_i32_974 : BitVec 32 := 0#32
  let v2124 : BitVec 1 := Scalar.cmpi .ne v2123 c0_i32_974
  v2124

def k0_off331 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c32_i32_970 : BitVec 32 := 32#32
  let v2117 : BitVec 32 := Scalar.muli arg22 c32_i32_970
  let v2118 : BitVec 32 := Scalar.addi v2 v2117
  let c0_i32_986 : BitVec 32 := 0#32
  ![v2118.toNat, 0]
def k0_cond48 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let c2_i32_975 : BitVec 32 := 2#32
  let v2125 : BitVec 1 := Scalar.cmpi .eq v82 c2_i32_975
  let v2126 : BitVec 32 := Scalar.extui v2125
  let c0_i32_976 : BitVec 32 := 0#32
  let v2127 : BitVec 1 := Scalar.cmpi .ne v2126 c0_i32_976
  v2127

def k0_off332 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c32_i32_970 : BitVec 32 := 32#32
  let v2117 : BitVec 32 := Scalar.muli arg22 c32_i32_970
  let v2118 : BitVec 32 := Scalar.addi v2 v2117
  let c0_i32_986 : BitVec 32 := 0#32
  ![v2118.toNat, 0]
def k0_cond49 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let c3_i32_977 : BitVec 32 := 3#32
  let v2128 : BitVec 1 := Scalar.cmpi .eq v82 c3_i32_977
  let v2129 : BitVec 32 := Scalar.extui v2128
  let c0_i32_978 : BitVec 32 := 0#32
  let v2130 : BitVec 1 := Scalar.cmpi .ne v2129 c0_i32_978
  v2130

def k0_off333 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c32_i32_970 : BitVec 32 := 32#32
  let v2117 : BitVec 32 := Scalar.muli arg22 c32_i32_970
  let v2118 : BitVec 32 := Scalar.addi v2 v2117
  let c0_i32_986 : BitVec 32 := 0#32
  ![v2118.toNat, 0]
def k0_cond50 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let c4_i32_979 : BitVec 32 := 4#32
  let v2131 : BitVec 1 := Scalar.cmpi .eq v82 c4_i32_979
  let v2132 : BitVec 32 := Scalar.extui v2131
  let c0_i32_980 : BitVec 32 := 0#32
  let v2133 : BitVec 1 := Scalar.cmpi .ne v2132 c0_i32_980
  v2133

def k0_off334 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c32_i32_970 : BitVec 32 := 32#32
  let v2117 : BitVec 32 := Scalar.muli arg22 c32_i32_970
  let v2118 : BitVec 32 := Scalar.addi v2 v2117
  let c0_i32_986 : BitVec 32 := 0#32
  ![v2118.toNat, 0]
def k0_cond51 (k0_t1 : Fin k0_t1_loop.trips) : BitVec 1 :=
  let c0_i32_40 : BitVec 32 := 0#32
  let c1_i32_42 : BitVec 32 := 1#32
  let arg22 : BitVec 32 := Scf.iv c0_i32_40 c1_i32_42 k0_t1
  let c6_i32 : BitVec 32 := 6#32
  let v82 : BitVec 32 := Scalar.remsi arg22 c6_i32
  let c5_i32_981 : BitVec 32 := 5#32
  let v2134 : BitVec 1 := Scalar.cmpi .eq v82 c5_i32_981
  let v2135 : BitVec 32 := Scalar.extui v2134
  let c0_i32_982 : BitVec 32 := 0#32
  let v2136 : BitVec 1 := Scalar.cmpi .ne v2135 c0_i32_982
  v2136

def k0_off335 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_40 : BitVec 32 := 0#32
  let c1_i32_42 : BitVec 32 := 1#32
  let arg22 : BitVec 32 := Scf.iv c0_i32_40 c1_i32_42 k0_t1
  let c32_i32_970 : BitVec 32 := 32#32
  let v2117 : BitVec 32 := Scalar.muli arg22 c32_i32_970
  let v2118 : BitVec 32 := Scalar.addi v2 v2117
  let c0_i32_986 : BitVec 32 := 0#32
  ![v2118.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S6x32x512_S1x32x512_0_0_0 : ∀ a, (![0, 0, 0] : Fin 3 → Nat) a + S1x32x512.size a ≤ S6x32x512.size a
  squeezes_S1x32x512_S32x512 : S1x32x512.Squeezes S32x512
  inb_S6x32x512_S1x32x512_1_0_0 : ∀ a, (![1, 0, 0] : Fin 3 → Nat) a + S1x32x512.size a ≤ S6x32x512.size a
  inb_S6x32x512_S1x32x512_2_0_0 : ∀ a, (![2, 0, 0] : Fin 3 → Nat) a + S1x32x512.size a ≤ S6x32x512.size a
  inb_S6x32x512_S1x32x512_3_0_0 : ∀ a, (![3, 0, 0] : Fin 3 → Nat) a + S1x32x512.size a ≤ S6x32x512.size a
  inb_S65536x512_S32x512_0_0 : ∀ a, (![0, 0] : Fin 2 → Nat) a + S32x512.size a ≤ S65536x512.size a
  inb_S6x32x512_S1x32x512_4_0_0 : ∀ a, (![4, 0, 0] : Fin 3 → Nat) a + S1x32x512.size a ≤ S6x32x512.size a
  inb_S6x32x512_S1x32x512_5_0_0 : ∀ a, (![5, 0, 0] : Fin 3 → Nat) a + S1x32x512.size a ≤ S6x32x512.size a
  h_S1x1x16 : 0 < S1x1x16.numel
  shapeCasts_S1x1x16_S16 : S1x1x16.ShapeCasts S16
  shapeCasts_S16_S1x1x16 : S16.ShapeCasts S1x1x16
  inb_S6x32x512_S1x1x16_1_0_0 : ∀ a, (![1, 0, 0] : Fin 3 → Nat) a + S1x1x16.size a ≤ S6x32x512.size a
  inb_S6x32x512_S1x1x16_0_31_0 : ∀ a, (![0, 31, 0] : Fin 3 → Nat) a + S1x1x16.size a ≤ S6x32x512.size a
  inb_S6x32x512_S1x1x16_1_0_16 : ∀ a, (![1, 0, 16] : Fin 3 → Nat) a + S1x1x16.size a ≤ S6x32x512.size a
  inb_S6x32x512_S1x1x16_0_31_16 : ∀ a, (![0, 31, 16] : Fin 3 → Nat) a + S1x1x16.size a ≤ S6x32x512.size a
  inb_S6x32x512_S1x1x16_1_0_32 : ∀ a, (![1, 0, 32] : Fin 3 → Nat) a + S1x1x16.size a ≤ S6x32x512.size a
  inb_S6x32x512_S1x1x16_0_31_32 : ∀ a, (![0, 31, 32] : Fin 3 → Nat) a + S1x1x16.size a ≤ S6x32x512.size a
  inb_S6x32x512_S1x1x16_1_0_48 : ∀ a, (![1, 0, 48] : Fin 3 → Nat) a + S1x1x16.size a ≤ S6x32x512.size a
  inb_S6x32x512_S1x1x16_0_31_48 : ∀ a, (![0, 31, 48] : Fin 3 → Nat) a + S1x1x16.size a ≤ S6x32x512.size a
  inb_S6x32x512_S1x1x16_1_0_64 : ∀ a, (![1, 0, 64] : Fin 3 → Nat) a + S1x1x16.size a ≤ S6x32x512.size a
  inb_S6x32x512_S1x1x16_0_31_64 : ∀ a, (![0, 31, 64] : Fin 3 → Nat) a + S1x1x16.size a ≤ S6x32x512.size a
  inb_S6x32x512_S1x1x16_1_0_80 : ∀ a, (![1, 0, 80] : Fin 3 → Nat) a + S1x1x16.size a ≤ S6x32x512.size a
  inb_S6x32x512_S1x1x16_0_31_80 : ∀ a, (![0, 31, 80] : Fin 3 → Nat) a + S1x1x16.size a ≤ S6x32x512.size a
  inb_S6x32x512_S1x1x16_1_0_96 : ∀ a, (![1, 0, 96] : Fin 3 → Nat) a + S1x1x16.size a ≤ S6x32x512.size a
  inb_S6x32x512_S1x1x16_0_31_96 : ∀ a, (![0, 31, 96] : Fin 3 → Nat) a + S1x1x16.size a ≤ S6x32x512.size a
  inb_S6x32x512_S1x1x16_1_0_112 : ∀ a, (![1, 0, 112] : Fin 3 → Nat) a + S1x1x16.size a ≤ S6x32x512.size a
  inb_S6x32x512_S1x1x16_0_31_112 : ∀ a, (![0, 31, 112] : Fin 3 → Nat) a + S1x1x16.size a ≤ S6x32x512.size a
  inb_S6x32x512_S1x1x16_1_0_128 : ∀ a, (![1, 0, 128] : Fin 3 → Nat) a + S1x1x16.size a ≤ S6x32x512.size a
  inb_S6x32x512_S1x1x16_0_31_128 : ∀ a, (![0, 31, 128] : Fin 3 → Nat) a + S1x1x16.size a ≤ S6x32x512.size a
  inb_S6x32x512_S1x1x16_1_0_144 : ∀ a, (![1, 0, 144] : Fin 3 → Nat) a + S1x1x16.size a ≤ S6x32x512.size a
  inb_S6x32x512_S1x1x16_0_31_144 : ∀ a, (![0, 31, 144] : Fin 3 → Nat) a + S1x1x16.size a ≤ S6x32x512.size a
  inb_S6x32x512_S1x1x16_1_0_160 : ∀ a, (![1, 0, 160] : Fin 3 → Nat) a + S1x1x16.size a ≤ S6x32x512.size a
  inb_S6x32x512_S1x1x16_0_31_160 : ∀ a, (![0, 31, 160] : Fin 3 → Nat) a + S1x1x16.size a ≤ S6x32x512.size a
  inb_S6x32x512_S1x1x16_1_0_176 : ∀ a, (![1, 0, 176] : Fin 3 → Nat) a + S1x1x16.size a ≤ S6x32x512.size a
  inb_S6x32x512_S1x1x16_0_31_176 : ∀ a, (![0, 31, 176] : Fin 3 → Nat) a + S1x1x16.size a ≤ S6x32x512.size a
  inb_S6x32x512_S1x1x16_1_0_192 : ∀ a, (![1, 0, 192] : Fin 3 → Nat) a + S1x1x16.size a ≤ S6x32x512.size a
  inb_S6x32x512_S1x1x16_0_31_192 : ∀ a, (![0, 31, 192] : Fin 3 → Nat) a + S1x1x16.size a ≤ S6x32x512.size a
  inb_S6x32x512_S1x1x16_1_0_208 : ∀ a, (![1, 0, 208] : Fin 3 → Nat) a + S1x1x16.size a ≤ S6x32x512.size a
  inb_S6x32x512_S1x1x16_0_31_208 : ∀ a, (![0, 31, 208] : Fin 3 → Nat) a + S1x1x16.size a ≤ S6x32x512.size a
  inb_S6x32x512_S1x1x16_1_0_224 : ∀ a, (![1, 0, 224] : Fin 3 → Nat) a + S1x1x16.size a ≤ S6x32x512.size a
  inb_S6x32x512_S1x1x16_0_31_224 : ∀ a, (![0, 31, 224] : Fin 3 → Nat) a + S1x1x16.size a ≤ S6x32x512.size a
  inb_S6x32x512_S1x1x16_1_0_240 : ∀ a, (![1, 0, 240] : Fin 3 → Nat) a + S1x1x16.size a ≤ S6x32x512.size a
  inb_S6x32x512_S1x1x16_0_31_240 : ∀ a, (![0, 31, 240] : Fin 3 → Nat) a + S1x1x16.size a ≤ S6x32x512.size a
  inb_S6x32x512_S1x1x16_1_0_256 : ∀ a, (![1, 0, 256] : Fin 3 → Nat) a + S1x1x16.size a ≤ S6x32x512.size a
  inb_S6x32x512_S1x1x16_0_31_256 : ∀ a, (![0, 31, 256] : Fin 3 → Nat) a + S1x1x16.size a ≤ S6x32x512.size a
  inb_S6x32x512_S1x1x16_1_0_272 : ∀ a, (![1, 0, 272] : Fin 3 → Nat) a + S1x1x16.size a ≤ S6x32x512.size a
  inb_S6x32x512_S1x1x16_0_31_272 : ∀ a, (![0, 31, 272] : Fin 3 → Nat) a + S1x1x16.size a ≤ S6x32x512.size a
  inb_S6x32x512_S1x1x16_1_0_288 : ∀ a, (![1, 0, 288] : Fin 3 → Nat) a + S1x1x16.size a ≤ S6x32x512.size a
  inb_S6x32x512_S1x1x16_0_31_288 : ∀ a, (![0, 31, 288] : Fin 3 → Nat) a + S1x1x16.size a ≤ S6x32x512.size a
  inb_S6x32x512_S1x1x16_1_0_304 : ∀ a, (![1, 0, 304] : Fin 3 → Nat) a + S1x1x16.size a ≤ S6x32x512.size a
  inb_S6x32x512_S1x1x16_0_31_304 : ∀ a, (![0, 31, 304] : Fin 3 → Nat) a + S1x1x16.size a ≤ S6x32x512.size a
  inb_S6x32x512_S1x1x16_1_0_320 : ∀ a, (![1, 0, 320] : Fin 3 → Nat) a + S1x1x16.size a ≤ S6x32x512.size a
  inb_S6x32x512_S1x1x16_0_31_320 : ∀ a, (![0, 31, 320] : Fin 3 → Nat) a + S1x1x16.size a ≤ S6x32x512.size a
  inb_S6x32x512_S1x1x16_1_0_336 : ∀ a, (![1, 0, 336] : Fin 3 → Nat) a + S1x1x16.size a ≤ S6x32x512.size a
  inb_S6x32x512_S1x1x16_0_31_336 : ∀ a, (![0, 31, 336] : Fin 3 → Nat) a + S1x1x16.size a ≤ S6x32x512.size a
  inb_S6x32x512_S1x1x16_1_0_352 : ∀ a, (![1, 0, 352] : Fin 3 → Nat) a + S1x1x16.size a ≤ S6x32x512.size a
  inb_S6x32x512_S1x1x16_0_31_352 : ∀ a, (![0, 31, 352] : Fin 3 → Nat) a + S1x1x16.size a ≤ S6x32x512.size a
  inb_S6x32x512_S1x1x16_1_0_368 : ∀ a, (![1, 0, 368] : Fin 3 → Nat) a + S1x1x16.size a ≤ S6x32x512.size a
  inb_S6x32x512_S1x1x16_0_31_368 : ∀ a, (![0, 31, 368] : Fin 3 → Nat) a + S1x1x16.size a ≤ S6x32x512.size a
  inb_S6x32x512_S1x1x16_1_0_384 : ∀ a, (![1, 0, 384] : Fin 3 → Nat) a + S1x1x16.size a ≤ S6x32x512.size a
  inb_S6x32x512_S1x1x16_0_31_384 : ∀ a, (![0, 31, 384] : Fin 3 → Nat) a + S1x1x16.size a ≤ S6x32x512.size a
  inb_S6x32x512_S1x1x16_1_0_400 : ∀ a, (![1, 0, 400] : Fin 3 → Nat) a + S1x1x16.size a ≤ S6x32x512.size a
  inb_S6x32x512_S1x1x16_0_31_400 : ∀ a, (![0, 31, 400] : Fin 3 → Nat) a + S1x1x16.size a ≤ S6x32x512.size a
  inb_S6x32x512_S1x1x16_1_0_416 : ∀ a, (![1, 0, 416] : Fin 3 → Nat) a + S1x1x16.size a ≤ S6x32x512.size a
  inb_S6x32x512_S1x1x16_0_31_416 : ∀ a, (![0, 31, 416] : Fin 3 → Nat) a + S1x1x16.size a ≤ S6x32x512.size a
  inb_S6x32x512_S1x1x16_1_0_432 : ∀ a, (![1, 0, 432] : Fin 3 → Nat) a + S1x1x16.size a ≤ S6x32x512.size a
  inb_S6x32x512_S1x1x16_0_31_432 : ∀ a, (![0, 31, 432] : Fin 3 → Nat) a + S1x1x16.size a ≤ S6x32x512.size a
  inb_S6x32x512_S1x1x16_1_0_448 : ∀ a, (![1, 0, 448] : Fin 3 → Nat) a + S1x1x16.size a ≤ S6x32x512.size a
  inb_S6x32x512_S1x1x16_0_31_448 : ∀ a, (![0, 31, 448] : Fin 3 → Nat) a + S1x1x16.size a ≤ S6x32x512.size a
  inb_S6x32x512_S1x1x16_1_0_464 : ∀ a, (![1, 0, 464] : Fin 3 → Nat) a + S1x1x16.size a ≤ S6x32x512.size a
  inb_S6x32x512_S1x1x16_0_31_464 : ∀ a, (![0, 31, 464] : Fin 3 → Nat) a + S1x1x16.size a ≤ S6x32x512.size a
  inb_S6x32x512_S1x1x16_1_0_480 : ∀ a, (![1, 0, 480] : Fin 3 → Nat) a + S1x1x16.size a ≤ S6x32x512.size a
  inb_S6x32x512_S1x1x16_0_31_480 : ∀ a, (![0, 31, 480] : Fin 3 → Nat) a + S1x1x16.size a ≤ S6x32x512.size a
  inb_S6x32x512_S1x1x16_1_0_496 : ∀ a, (![1, 0, 496] : Fin 3 → Nat) a + S1x1x16.size a ≤ S6x32x512.size a
  inb_S6x32x512_S1x1x16_0_31_496 : ∀ a, (![0, 31, 496] : Fin 3 → Nat) a + S1x1x16.size a ≤ S6x32x512.size a
  inb_S6x32x512_S1x1x16_2_0_0 : ∀ a, (![2, 0, 0] : Fin 3 → Nat) a + S1x1x16.size a ≤ S6x32x512.size a
  inb_S6x32x512_S1x1x16_1_31_0 : ∀ a, (![1, 31, 0] : Fin 3 → Nat) a + S1x1x16.size a ≤ S6x32x512.size a
  inb_S6x32x512_S1x1x16_2_0_16 : ∀ a, (![2, 0, 16] : Fin 3 → Nat) a + S1x1x16.size a ≤ S6x32x512.size a
  inb_S6x32x512_S1x1x16_1_31_16 : ∀ a, (![1, 31, 16] : Fin 3 → Nat) a + S1x1x16.size a ≤ S6x32x512.size a
  inb_S6x32x512_S1x1x16_2_0_32 : ∀ a, (![2, 0, 32] : Fin 3 → Nat) a + S1x1x16.size a ≤ S6x32x512.size a
  inb_S6x32x512_S1x1x16_1_31_32 : ∀ a, (![1, 31, 32] : Fin 3 → Nat) a + S1x1x16.size a ≤ S6x32x512.size a
  inb_S6x32x512_S1x1x16_2_0_48 : ∀ a, (![2, 0, 48] : Fin 3 → Nat) a + S1x1x16.size a ≤ S6x32x512.size a
  inb_S6x32x512_S1x1x16_1_31_48 : ∀ a, (![1, 31, 48] : Fin 3 → Nat) a + S1x1x16.size a ≤ S6x32x512.size a
  inb_S6x32x512_S1x1x16_2_0_64 : ∀ a, (![2, 0, 64] : Fin 3 → Nat) a + S1x1x16.size a ≤ S6x32x512.size a
  inb_S6x32x512_S1x1x16_1_31_64 : ∀ a, (![1, 31, 64] : Fin 3 → Nat) a + S1x1x16.size a ≤ S6x32x512.size a
  inb_S6x32x512_S1x1x16_2_0_80 : ∀ a, (![2, 0, 80] : Fin 3 → Nat) a + S1x1x16.size a ≤ S6x32x512.size a
  inb_S6x32x512_S1x1x16_1_31_80 : ∀ a, (![1, 31, 80] : Fin 3 → Nat) a + S1x1x16.size a ≤ S6x32x512.size a
  inb_S6x32x512_S1x1x16_2_0_96 : ∀ a, (![2, 0, 96] : Fin 3 → Nat) a + S1x1x16.size a ≤ S6x32x512.size a
  inb_S6x32x512_S1x1x16_1_31_96 : ∀ a, (![1, 31, 96] : Fin 3 → Nat) a + S1x1x16.size a ≤ S6x32x512.size a
  inb_S6x32x512_S1x1x16_2_0_112 : ∀ a, (![2, 0, 112] : Fin 3 → Nat) a + S1x1x16.size a ≤ S6x32x512.size a
  inb_S6x32x512_S1x1x16_1_31_112 : ∀ a, (![1, 31, 112] : Fin 3 → Nat) a + S1x1x16.size a ≤ S6x32x512.size a
  inb_S6x32x512_S1x1x16_2_0_128 : ∀ a, (![2, 0, 128] : Fin 3 → Nat) a + S1x1x16.size a ≤ S6x32x512.size a
  inb_S6x32x512_S1x1x16_1_31_128 : ∀ a, (![1, 31, 128] : Fin 3 → Nat) a + S1x1x16.size a ≤ S6x32x512.size a
  inb_S6x32x512_S1x1x16_2_0_144 : ∀ a, (![2, 0, 144] : Fin 3 → Nat) a + S1x1x16.size a ≤ S6x32x512.size a
  inb_S6x32x512_S1x1x16_1_31_144 : ∀ a, (![1, 31, 144] : Fin 3 → Nat) a + S1x1x16.size a ≤ S6x32x512.size a
  inb_S6x32x512_S1x1x16_2_0_160 : ∀ a, (![2, 0, 160] : Fin 3 → Nat) a + S1x1x16.size a ≤ S6x32x512.size a
  inb_S6x32x512_S1x1x16_1_31_160 : ∀ a, (![1, 31, 160] : Fin 3 → Nat) a + S1x1x16.size a ≤ S6x32x512.size a
  inb_S6x32x512_S1x1x16_2_0_176 : ∀ a, (![2, 0, 176] : Fin 3 → Nat) a + S1x1x16.size a ≤ S6x32x512.size a
  inb_S6x32x512_S1x1x16_1_31_176 : ∀ a, (![1, 31, 176] : Fin 3 → Nat) a + S1x1x16.size a ≤ S6x32x512.size a
  inb_S6x32x512_S1x1x16_2_0_192 : ∀ a, (![2, 0, 192] : Fin 3 → Nat) a + S1x1x16.size a ≤ S6x32x512.size a
  inb_S6x32x512_S1x1x16_1_31_192 : ∀ a, (![1, 31, 192] : Fin 3 → Nat) a + S1x1x16.size a ≤ S6x32x512.size a
  inb_S6x32x512_S1x1x16_2_0_208 : ∀ a, (![2, 0, 208] : Fin 3 → Nat) a + S1x1x16.size a ≤ S6x32x512.size a
  inb_S6x32x512_S1x1x16_1_31_208 : ∀ a, (![1, 31, 208] : Fin 3 → Nat) a + S1x1x16.size a ≤ S6x32x512.size a
  inb_S6x32x512_S1x1x16_2_0_224 : ∀ a, (![2, 0, 224] : Fin 3 → Nat) a + S1x1x16.size a ≤ S6x32x512.size a
  inb_S6x32x512_S1x1x16_1_31_224 : ∀ a, (![1, 31, 224] : Fin 3 → Nat) a + S1x1x16.size a ≤ S6x32x512.size a
  inb_S6x32x512_S1x1x16_2_0_240 : ∀ a, (![2, 0, 240] : Fin 3 → Nat) a + S1x1x16.size a ≤ S6x32x512.size a
  inb_S6x32x512_S1x1x16_1_31_240 : ∀ a, (![1, 31, 240] : Fin 3 → Nat) a + S1x1x16.size a ≤ S6x32x512.size a
  inb_S6x32x512_S1x1x16_2_0_256 : ∀ a, (![2, 0, 256] : Fin 3 → Nat) a + S1x1x16.size a ≤ S6x32x512.size a
  inb_S6x32x512_S1x1x16_1_31_256 : ∀ a, (![1, 31, 256] : Fin 3 → Nat) a + S1x1x16.size a ≤ S6x32x512.size a
  inb_S6x32x512_S1x1x16_2_0_272 : ∀ a, (![2, 0, 272] : Fin 3 → Nat) a + S1x1x16.size a ≤ S6x32x512.size a
  inb_S6x32x512_S1x1x16_1_31_272 : ∀ a, (![1, 31, 272] : Fin 3 → Nat) a + S1x1x16.size a ≤ S6x32x512.size a
  inb_S6x32x512_S1x1x16_2_0_288 : ∀ a, (![2, 0, 288] : Fin 3 → Nat) a + S1x1x16.size a ≤ S6x32x512.size a
  inb_S6x32x512_S1x1x16_1_31_288 : ∀ a, (![1, 31, 288] : Fin 3 → Nat) a + S1x1x16.size a ≤ S6x32x512.size a
  inb_S6x32x512_S1x1x16_2_0_304 : ∀ a, (![2, 0, 304] : Fin 3 → Nat) a + S1x1x16.size a ≤ S6x32x512.size a
  inb_S6x32x512_S1x1x16_1_31_304 : ∀ a, (![1, 31, 304] : Fin 3 → Nat) a + S1x1x16.size a ≤ S6x32x512.size a
  inb_S6x32x512_S1x1x16_2_0_320 : ∀ a, (![2, 0, 320] : Fin 3 → Nat) a + S1x1x16.size a ≤ S6x32x512.size a
  inb_S6x32x512_S1x1x16_1_31_320 : ∀ a, (![1, 31, 320] : Fin 3 → Nat) a + S1x1x16.size a ≤ S6x32x512.size a
  inb_S6x32x512_S1x1x16_2_0_336 : ∀ a, (![2, 0, 336] : Fin 3 → Nat) a + S1x1x16.size a ≤ S6x32x512.size a
  inb_S6x32x512_S1x1x16_1_31_336 : ∀ a, (![1, 31, 336] : Fin 3 → Nat) a + S1x1x16.size a ≤ S6x32x512.size a
  inb_S6x32x512_S1x1x16_2_0_352 : ∀ a, (![2, 0, 352] : Fin 3 → Nat) a + S1x1x16.size a ≤ S6x32x512.size a
  inb_S6x32x512_S1x1x16_1_31_352 : ∀ a, (![1, 31, 352] : Fin 3 → Nat) a + S1x1x16.size a ≤ S6x32x512.size a
  inb_S6x32x512_S1x1x16_2_0_368 : ∀ a, (![2, 0, 368] : Fin 3 → Nat) a + S1x1x16.size a ≤ S6x32x512.size a
  inb_S6x32x512_S1x1x16_1_31_368 : ∀ a, (![1, 31, 368] : Fin 3 → Nat) a + S1x1x16.size a ≤ S6x32x512.size a
  inb_S6x32x512_S1x1x16_2_0_384 : ∀ a, (![2, 0, 384] : Fin 3 → Nat) a + S1x1x16.size a ≤ S6x32x512.size a
  inb_S6x32x512_S1x1x16_1_31_384 : ∀ a, (![1, 31, 384] : Fin 3 → Nat) a + S1x1x16.size a ≤ S6x32x512.size a
  inb_S6x32x512_S1x1x16_2_0_400 : ∀ a, (![2, 0, 400] : Fin 3 → Nat) a + S1x1x16.size a ≤ S6x32x512.size a
  inb_S6x32x512_S1x1x16_1_31_400 : ∀ a, (![1, 31, 400] : Fin 3 → Nat) a + S1x1x16.size a ≤ S6x32x512.size a
  inb_S6x32x512_S1x1x16_2_0_416 : ∀ a, (![2, 0, 416] : Fin 3 → Nat) a + S1x1x16.size a ≤ S6x32x512.size a
  inb_S6x32x512_S1x1x16_1_31_416 : ∀ a, (![1, 31, 416] : Fin 3 → Nat) a + S1x1x16.size a ≤ S6x32x512.size a
  inb_S6x32x512_S1x1x16_2_0_432 : ∀ a, (![2, 0, 432] : Fin 3 → Nat) a + S1x1x16.size a ≤ S6x32x512.size a
  inb_S6x32x512_S1x1x16_1_31_432 : ∀ a, (![1, 31, 432] : Fin 3 → Nat) a + S1x1x16.size a ≤ S6x32x512.size a
  inb_S6x32x512_S1x1x16_2_0_448 : ∀ a, (![2, 0, 448] : Fin 3 → Nat) a + S1x1x16.size a ≤ S6x32x512.size a
  inb_S6x32x512_S1x1x16_1_31_448 : ∀ a, (![1, 31, 448] : Fin 3 → Nat) a + S1x1x16.size a ≤ S6x32x512.size a
  inb_S6x32x512_S1x1x16_2_0_464 : ∀ a, (![2, 0, 464] : Fin 3 → Nat) a + S1x1x16.size a ≤ S6x32x512.size a
  inb_S6x32x512_S1x1x16_1_31_464 : ∀ a, (![1, 31, 464] : Fin 3 → Nat) a + S1x1x16.size a ≤ S6x32x512.size a
  inb_S6x32x512_S1x1x16_2_0_480 : ∀ a, (![2, 0, 480] : Fin 3 → Nat) a + S1x1x16.size a ≤ S6x32x512.size a
  inb_S6x32x512_S1x1x16_1_31_480 : ∀ a, (![1, 31, 480] : Fin 3 → Nat) a + S1x1x16.size a ≤ S6x32x512.size a
  inb_S6x32x512_S1x1x16_2_0_496 : ∀ a, (![2, 0, 496] : Fin 3 → Nat) a + S1x1x16.size a ≤ S6x32x512.size a
  inb_S6x32x512_S1x1x16_1_31_496 : ∀ a, (![1, 31, 496] : Fin 3 → Nat) a + S1x1x16.size a ≤ S6x32x512.size a
  inb_S6x32x512_S1x1x16_3_0_0 : ∀ a, (![3, 0, 0] : Fin 3 → Nat) a + S1x1x16.size a ≤ S6x32x512.size a
  inb_S6x32x512_S1x1x16_2_31_0 : ∀ a, (![2, 31, 0] : Fin 3 → Nat) a + S1x1x16.size a ≤ S6x32x512.size a
  inb_S6x32x512_S1x1x16_3_0_16 : ∀ a, (![3, 0, 16] : Fin 3 → Nat) a + S1x1x16.size a ≤ S6x32x512.size a
  inb_S6x32x512_S1x1x16_2_31_16 : ∀ a, (![2, 31, 16] : Fin 3 → Nat) a + S1x1x16.size a ≤ S6x32x512.size a
  inb_S6x32x512_S1x1x16_3_0_32 : ∀ a, (![3, 0, 32] : Fin 3 → Nat) a + S1x1x16.size a ≤ S6x32x512.size a
  inb_S6x32x512_S1x1x16_2_31_32 : ∀ a, (![2, 31, 32] : Fin 3 → Nat) a + S1x1x16.size a ≤ S6x32x512.size a
  inb_S6x32x512_S1x1x16_3_0_48 : ∀ a, (![3, 0, 48] : Fin 3 → Nat) a + S1x1x16.size a ≤ S6x32x512.size a
  inb_S6x32x512_S1x1x16_2_31_48 : ∀ a, (![2, 31, 48] : Fin 3 → Nat) a + S1x1x16.size a ≤ S6x32x512.size a
  inb_S6x32x512_S1x1x16_3_0_64 : ∀ a, (![3, 0, 64] : Fin 3 → Nat) a + S1x1x16.size a ≤ S6x32x512.size a
  inb_S6x32x512_S1x1x16_2_31_64 : ∀ a, (![2, 31, 64] : Fin 3 → Nat) a + S1x1x16.size a ≤ S6x32x512.size a
  inb_S6x32x512_S1x1x16_3_0_80 : ∀ a, (![3, 0, 80] : Fin 3 → Nat) a + S1x1x16.size a ≤ S6x32x512.size a
  inb_S6x32x512_S1x1x16_2_31_80 : ∀ a, (![2, 31, 80] : Fin 3 → Nat) a + S1x1x16.size a ≤ S6x32x512.size a
  inb_S6x32x512_S1x1x16_3_0_96 : ∀ a, (![3, 0, 96] : Fin 3 → Nat) a + S1x1x16.size a ≤ S6x32x512.size a
  inb_S6x32x512_S1x1x16_2_31_96 : ∀ a, (![2, 31, 96] : Fin 3 → Nat) a + S1x1x16.size a ≤ S6x32x512.size a
  inb_S6x32x512_S1x1x16_3_0_112 : ∀ a, (![3, 0, 112] : Fin 3 → Nat) a + S1x1x16.size a ≤ S6x32x512.size a
  inb_S6x32x512_S1x1x16_2_31_112 : ∀ a, (![2, 31, 112] : Fin 3 → Nat) a + S1x1x16.size a ≤ S6x32x512.size a
  inb_S6x32x512_S1x1x16_3_0_128 : ∀ a, (![3, 0, 128] : Fin 3 → Nat) a + S1x1x16.size a ≤ S6x32x512.size a
  inb_S6x32x512_S1x1x16_2_31_128 : ∀ a, (![2, 31, 128] : Fin 3 → Nat) a + S1x1x16.size a ≤ S6x32x512.size a
  inb_S6x32x512_S1x1x16_3_0_144 : ∀ a, (![3, 0, 144] : Fin 3 → Nat) a + S1x1x16.size a ≤ S6x32x512.size a
  inb_S6x32x512_S1x1x16_2_31_144 : ∀ a, (![2, 31, 144] : Fin 3 → Nat) a + S1x1x16.size a ≤ S6x32x512.size a
  inb_S6x32x512_S1x1x16_3_0_160 : ∀ a, (![3, 0, 160] : Fin 3 → Nat) a + S1x1x16.size a ≤ S6x32x512.size a
  inb_S6x32x512_S1x1x16_2_31_160 : ∀ a, (![2, 31, 160] : Fin 3 → Nat) a + S1x1x16.size a ≤ S6x32x512.size a
  inb_S6x32x512_S1x1x16_3_0_176 : ∀ a, (![3, 0, 176] : Fin 3 → Nat) a + S1x1x16.size a ≤ S6x32x512.size a
  inb_S6x32x512_S1x1x16_2_31_176 : ∀ a, (![2, 31, 176] : Fin 3 → Nat) a + S1x1x16.size a ≤ S6x32x512.size a
  inb_S6x32x512_S1x1x16_3_0_192 : ∀ a, (![3, 0, 192] : Fin 3 → Nat) a + S1x1x16.size a ≤ S6x32x512.size a
  inb_S6x32x512_S1x1x16_2_31_192 : ∀ a, (![2, 31, 192] : Fin 3 → Nat) a + S1x1x16.size a ≤ S6x32x512.size a
  inb_S6x32x512_S1x1x16_3_0_208 : ∀ a, (![3, 0, 208] : Fin 3 → Nat) a + S1x1x16.size a ≤ S6x32x512.size a
  inb_S6x32x512_S1x1x16_2_31_208 : ∀ a, (![2, 31, 208] : Fin 3 → Nat) a + S1x1x16.size a ≤ S6x32x512.size a
  inb_S6x32x512_S1x1x16_3_0_224 : ∀ a, (![3, 0, 224] : Fin 3 → Nat) a + S1x1x16.size a ≤ S6x32x512.size a
  inb_S6x32x512_S1x1x16_2_31_224 : ∀ a, (![2, 31, 224] : Fin 3 → Nat) a + S1x1x16.size a ≤ S6x32x512.size a
  inb_S6x32x512_S1x1x16_3_0_240 : ∀ a, (![3, 0, 240] : Fin 3 → Nat) a + S1x1x16.size a ≤ S6x32x512.size a
  inb_S6x32x512_S1x1x16_2_31_240 : ∀ a, (![2, 31, 240] : Fin 3 → Nat) a + S1x1x16.size a ≤ S6x32x512.size a
  inb_S6x32x512_S1x1x16_3_0_256 : ∀ a, (![3, 0, 256] : Fin 3 → Nat) a + S1x1x16.size a ≤ S6x32x512.size a
  inb_S6x32x512_S1x1x16_2_31_256 : ∀ a, (![2, 31, 256] : Fin 3 → Nat) a + S1x1x16.size a ≤ S6x32x512.size a
  inb_S6x32x512_S1x1x16_3_0_272 : ∀ a, (![3, 0, 272] : Fin 3 → Nat) a + S1x1x16.size a ≤ S6x32x512.size a
  inb_S6x32x512_S1x1x16_2_31_272 : ∀ a, (![2, 31, 272] : Fin 3 → Nat) a + S1x1x16.size a ≤ S6x32x512.size a
  inb_S6x32x512_S1x1x16_3_0_288 : ∀ a, (![3, 0, 288] : Fin 3 → Nat) a + S1x1x16.size a ≤ S6x32x512.size a
  inb_S6x32x512_S1x1x16_2_31_288 : ∀ a, (![2, 31, 288] : Fin 3 → Nat) a + S1x1x16.size a ≤ S6x32x512.size a
  inb_S6x32x512_S1x1x16_3_0_304 : ∀ a, (![3, 0, 304] : Fin 3 → Nat) a + S1x1x16.size a ≤ S6x32x512.size a
  inb_S6x32x512_S1x1x16_2_31_304 : ∀ a, (![2, 31, 304] : Fin 3 → Nat) a + S1x1x16.size a ≤ S6x32x512.size a
  inb_S6x32x512_S1x1x16_3_0_320 : ∀ a, (![3, 0, 320] : Fin 3 → Nat) a + S1x1x16.size a ≤ S6x32x512.size a
  inb_S6x32x512_S1x1x16_2_31_320 : ∀ a, (![2, 31, 320] : Fin 3 → Nat) a + S1x1x16.size a ≤ S6x32x512.size a
  inb_S6x32x512_S1x1x16_3_0_336 : ∀ a, (![3, 0, 336] : Fin 3 → Nat) a + S1x1x16.size a ≤ S6x32x512.size a
  inb_S6x32x512_S1x1x16_2_31_336 : ∀ a, (![2, 31, 336] : Fin 3 → Nat) a + S1x1x16.size a ≤ S6x32x512.size a
  inb_S6x32x512_S1x1x16_3_0_352 : ∀ a, (![3, 0, 352] : Fin 3 → Nat) a + S1x1x16.size a ≤ S6x32x512.size a
  inb_S6x32x512_S1x1x16_2_31_352 : ∀ a, (![2, 31, 352] : Fin 3 → Nat) a + S1x1x16.size a ≤ S6x32x512.size a
  inb_S6x32x512_S1x1x16_3_0_368 : ∀ a, (![3, 0, 368] : Fin 3 → Nat) a + S1x1x16.size a ≤ S6x32x512.size a
  inb_S6x32x512_S1x1x16_2_31_368 : ∀ a, (![2, 31, 368] : Fin 3 → Nat) a + S1x1x16.size a ≤ S6x32x512.size a
  inb_S6x32x512_S1x1x16_3_0_384 : ∀ a, (![3, 0, 384] : Fin 3 → Nat) a + S1x1x16.size a ≤ S6x32x512.size a
  inb_S6x32x512_S1x1x16_2_31_384 : ∀ a, (![2, 31, 384] : Fin 3 → Nat) a + S1x1x16.size a ≤ S6x32x512.size a
  inb_S6x32x512_S1x1x16_3_0_400 : ∀ a, (![3, 0, 400] : Fin 3 → Nat) a + S1x1x16.size a ≤ S6x32x512.size a
  inb_S6x32x512_S1x1x16_2_31_400 : ∀ a, (![2, 31, 400] : Fin 3 → Nat) a + S1x1x16.size a ≤ S6x32x512.size a
  inb_S6x32x512_S1x1x16_3_0_416 : ∀ a, (![3, 0, 416] : Fin 3 → Nat) a + S1x1x16.size a ≤ S6x32x512.size a
  inb_S6x32x512_S1x1x16_2_31_416 : ∀ a, (![2, 31, 416] : Fin 3 → Nat) a + S1x1x16.size a ≤ S6x32x512.size a
  inb_S6x32x512_S1x1x16_3_0_432 : ∀ a, (![3, 0, 432] : Fin 3 → Nat) a + S1x1x16.size a ≤ S6x32x512.size a
  inb_S6x32x512_S1x1x16_2_31_432 : ∀ a, (![2, 31, 432] : Fin 3 → Nat) a + S1x1x16.size a ≤ S6x32x512.size a
  inb_S6x32x512_S1x1x16_3_0_448 : ∀ a, (![3, 0, 448] : Fin 3 → Nat) a + S1x1x16.size a ≤ S6x32x512.size a
  inb_S6x32x512_S1x1x16_2_31_448 : ∀ a, (![2, 31, 448] : Fin 3 → Nat) a + S1x1x16.size a ≤ S6x32x512.size a
  inb_S6x32x512_S1x1x16_3_0_464 : ∀ a, (![3, 0, 464] : Fin 3 → Nat) a + S1x1x16.size a ≤ S6x32x512.size a
  inb_S6x32x512_S1x1x16_2_31_464 : ∀ a, (![2, 31, 464] : Fin 3 → Nat) a + S1x1x16.size a ≤ S6x32x512.size a
  inb_S6x32x512_S1x1x16_3_0_480 : ∀ a, (![3, 0, 480] : Fin 3 → Nat) a + S1x1x16.size a ≤ S6x32x512.size a
  inb_S6x32x512_S1x1x16_2_31_480 : ∀ a, (![2, 31, 480] : Fin 3 → Nat) a + S1x1x16.size a ≤ S6x32x512.size a
  inb_S6x32x512_S1x1x16_3_0_496 : ∀ a, (![3, 0, 496] : Fin 3 → Nat) a + S1x1x16.size a ≤ S6x32x512.size a
  inb_S6x32x512_S1x1x16_2_31_496 : ∀ a, (![2, 31, 496] : Fin 3 → Nat) a + S1x1x16.size a ≤ S6x32x512.size a
  inb_S6x32x512_S1x1x16_4_0_0 : ∀ a, (![4, 0, 0] : Fin 3 → Nat) a + S1x1x16.size a ≤ S6x32x512.size a
  inb_S6x32x512_S1x1x16_3_31_0 : ∀ a, (![3, 31, 0] : Fin 3 → Nat) a + S1x1x16.size a ≤ S6x32x512.size a
  inb_S6x32x512_S1x1x16_4_0_16 : ∀ a, (![4, 0, 16] : Fin 3 → Nat) a + S1x1x16.size a ≤ S6x32x512.size a
  inb_S6x32x512_S1x1x16_3_31_16 : ∀ a, (![3, 31, 16] : Fin 3 → Nat) a + S1x1x16.size a ≤ S6x32x512.size a
  inb_S6x32x512_S1x1x16_4_0_32 : ∀ a, (![4, 0, 32] : Fin 3 → Nat) a + S1x1x16.size a ≤ S6x32x512.size a
  inb_S6x32x512_S1x1x16_3_31_32 : ∀ a, (![3, 31, 32] : Fin 3 → Nat) a + S1x1x16.size a ≤ S6x32x512.size a
  inb_S6x32x512_S1x1x16_4_0_48 : ∀ a, (![4, 0, 48] : Fin 3 → Nat) a + S1x1x16.size a ≤ S6x32x512.size a
  inb_S6x32x512_S1x1x16_3_31_48 : ∀ a, (![3, 31, 48] : Fin 3 → Nat) a + S1x1x16.size a ≤ S6x32x512.size a
  inb_S6x32x512_S1x1x16_4_0_64 : ∀ a, (![4, 0, 64] : Fin 3 → Nat) a + S1x1x16.size a ≤ S6x32x512.size a
  inb_S6x32x512_S1x1x16_3_31_64 : ∀ a, (![3, 31, 64] : Fin 3 → Nat) a + S1x1x16.size a ≤ S6x32x512.size a
  inb_S6x32x512_S1x1x16_4_0_80 : ∀ a, (![4, 0, 80] : Fin 3 → Nat) a + S1x1x16.size a ≤ S6x32x512.size a
  inb_S6x32x512_S1x1x16_3_31_80 : ∀ a, (![3, 31, 80] : Fin 3 → Nat) a + S1x1x16.size a ≤ S6x32x512.size a
  inb_S6x32x512_S1x1x16_4_0_96 : ∀ a, (![4, 0, 96] : Fin 3 → Nat) a + S1x1x16.size a ≤ S6x32x512.size a
  inb_S6x32x512_S1x1x16_3_31_96 : ∀ a, (![3, 31, 96] : Fin 3 → Nat) a + S1x1x16.size a ≤ S6x32x512.size a
  inb_S6x32x512_S1x1x16_4_0_112 : ∀ a, (![4, 0, 112] : Fin 3 → Nat) a + S1x1x16.size a ≤ S6x32x512.size a
  inb_S6x32x512_S1x1x16_3_31_112 : ∀ a, (![3, 31, 112] : Fin 3 → Nat) a + S1x1x16.size a ≤ S6x32x512.size a
  inb_S6x32x512_S1x1x16_4_0_128 : ∀ a, (![4, 0, 128] : Fin 3 → Nat) a + S1x1x16.size a ≤ S6x32x512.size a
  inb_S6x32x512_S1x1x16_3_31_128 : ∀ a, (![3, 31, 128] : Fin 3 → Nat) a + S1x1x16.size a ≤ S6x32x512.size a
  inb_S6x32x512_S1x1x16_4_0_144 : ∀ a, (![4, 0, 144] : Fin 3 → Nat) a + S1x1x16.size a ≤ S6x32x512.size a
  inb_S6x32x512_S1x1x16_3_31_144 : ∀ a, (![3, 31, 144] : Fin 3 → Nat) a + S1x1x16.size a ≤ S6x32x512.size a
  inb_S6x32x512_S1x1x16_4_0_160 : ∀ a, (![4, 0, 160] : Fin 3 → Nat) a + S1x1x16.size a ≤ S6x32x512.size a
  inb_S6x32x512_S1x1x16_3_31_160 : ∀ a, (![3, 31, 160] : Fin 3 → Nat) a + S1x1x16.size a ≤ S6x32x512.size a
  inb_S6x32x512_S1x1x16_4_0_176 : ∀ a, (![4, 0, 176] : Fin 3 → Nat) a + S1x1x16.size a ≤ S6x32x512.size a
  inb_S6x32x512_S1x1x16_3_31_176 : ∀ a, (![3, 31, 176] : Fin 3 → Nat) a + S1x1x16.size a ≤ S6x32x512.size a
  inb_S6x32x512_S1x1x16_4_0_192 : ∀ a, (![4, 0, 192] : Fin 3 → Nat) a + S1x1x16.size a ≤ S6x32x512.size a
  inb_S6x32x512_S1x1x16_3_31_192 : ∀ a, (![3, 31, 192] : Fin 3 → Nat) a + S1x1x16.size a ≤ S6x32x512.size a
  inb_S6x32x512_S1x1x16_4_0_208 : ∀ a, (![4, 0, 208] : Fin 3 → Nat) a + S1x1x16.size a ≤ S6x32x512.size a
  inb_S6x32x512_S1x1x16_3_31_208 : ∀ a, (![3, 31, 208] : Fin 3 → Nat) a + S1x1x16.size a ≤ S6x32x512.size a
  inb_S6x32x512_S1x1x16_4_0_224 : ∀ a, (![4, 0, 224] : Fin 3 → Nat) a + S1x1x16.size a ≤ S6x32x512.size a
  inb_S6x32x512_S1x1x16_3_31_224 : ∀ a, (![3, 31, 224] : Fin 3 → Nat) a + S1x1x16.size a ≤ S6x32x512.size a
  inb_S6x32x512_S1x1x16_4_0_240 : ∀ a, (![4, 0, 240] : Fin 3 → Nat) a + S1x1x16.size a ≤ S6x32x512.size a
  inb_S6x32x512_S1x1x16_3_31_240 : ∀ a, (![3, 31, 240] : Fin 3 → Nat) a + S1x1x16.size a ≤ S6x32x512.size a
  inb_S6x32x512_S1x1x16_4_0_256 : ∀ a, (![4, 0, 256] : Fin 3 → Nat) a + S1x1x16.size a ≤ S6x32x512.size a
  inb_S6x32x512_S1x1x16_3_31_256 : ∀ a, (![3, 31, 256] : Fin 3 → Nat) a + S1x1x16.size a ≤ S6x32x512.size a
  inb_S6x32x512_S1x1x16_4_0_272 : ∀ a, (![4, 0, 272] : Fin 3 → Nat) a + S1x1x16.size a ≤ S6x32x512.size a
  inb_S6x32x512_S1x1x16_3_31_272 : ∀ a, (![3, 31, 272] : Fin 3 → Nat) a + S1x1x16.size a ≤ S6x32x512.size a
  inb_S6x32x512_S1x1x16_4_0_288 : ∀ a, (![4, 0, 288] : Fin 3 → Nat) a + S1x1x16.size a ≤ S6x32x512.size a
  inb_S6x32x512_S1x1x16_3_31_288 : ∀ a, (![3, 31, 288] : Fin 3 → Nat) a + S1x1x16.size a ≤ S6x32x512.size a
  inb_S6x32x512_S1x1x16_4_0_304 : ∀ a, (![4, 0, 304] : Fin 3 → Nat) a + S1x1x16.size a ≤ S6x32x512.size a
  inb_S6x32x512_S1x1x16_3_31_304 : ∀ a, (![3, 31, 304] : Fin 3 → Nat) a + S1x1x16.size a ≤ S6x32x512.size a
  inb_S6x32x512_S1x1x16_4_0_320 : ∀ a, (![4, 0, 320] : Fin 3 → Nat) a + S1x1x16.size a ≤ S6x32x512.size a
  inb_S6x32x512_S1x1x16_3_31_320 : ∀ a, (![3, 31, 320] : Fin 3 → Nat) a + S1x1x16.size a ≤ S6x32x512.size a
  inb_S6x32x512_S1x1x16_4_0_336 : ∀ a, (![4, 0, 336] : Fin 3 → Nat) a + S1x1x16.size a ≤ S6x32x512.size a
  inb_S6x32x512_S1x1x16_3_31_336 : ∀ a, (![3, 31, 336] : Fin 3 → Nat) a + S1x1x16.size a ≤ S6x32x512.size a
  inb_S6x32x512_S1x1x16_4_0_352 : ∀ a, (![4, 0, 352] : Fin 3 → Nat) a + S1x1x16.size a ≤ S6x32x512.size a
  inb_S6x32x512_S1x1x16_3_31_352 : ∀ a, (![3, 31, 352] : Fin 3 → Nat) a + S1x1x16.size a ≤ S6x32x512.size a
  inb_S6x32x512_S1x1x16_4_0_368 : ∀ a, (![4, 0, 368] : Fin 3 → Nat) a + S1x1x16.size a ≤ S6x32x512.size a
  inb_S6x32x512_S1x1x16_3_31_368 : ∀ a, (![3, 31, 368] : Fin 3 → Nat) a + S1x1x16.size a ≤ S6x32x512.size a
  inb_S6x32x512_S1x1x16_4_0_384 : ∀ a, (![4, 0, 384] : Fin 3 → Nat) a + S1x1x16.size a ≤ S6x32x512.size a
  inb_S6x32x512_S1x1x16_3_31_384 : ∀ a, (![3, 31, 384] : Fin 3 → Nat) a + S1x1x16.size a ≤ S6x32x512.size a
  inb_S6x32x512_S1x1x16_4_0_400 : ∀ a, (![4, 0, 400] : Fin 3 → Nat) a + S1x1x16.size a ≤ S6x32x512.size a
  inb_S6x32x512_S1x1x16_3_31_400 : ∀ a, (![3, 31, 400] : Fin 3 → Nat) a + S1x1x16.size a ≤ S6x32x512.size a
  inb_S6x32x512_S1x1x16_4_0_416 : ∀ a, (![4, 0, 416] : Fin 3 → Nat) a + S1x1x16.size a ≤ S6x32x512.size a
  inb_S6x32x512_S1x1x16_3_31_416 : ∀ a, (![3, 31, 416] : Fin 3 → Nat) a + S1x1x16.size a ≤ S6x32x512.size a
  inb_S6x32x512_S1x1x16_4_0_432 : ∀ a, (![4, 0, 432] : Fin 3 → Nat) a + S1x1x16.size a ≤ S6x32x512.size a
  inb_S6x32x512_S1x1x16_3_31_432 : ∀ a, (![3, 31, 432] : Fin 3 → Nat) a + S1x1x16.size a ≤ S6x32x512.size a
  inb_S6x32x512_S1x1x16_4_0_448 : ∀ a, (![4, 0, 448] : Fin 3 → Nat) a + S1x1x16.size a ≤ S6x32x512.size a
  inb_S6x32x512_S1x1x16_3_31_448 : ∀ a, (![3, 31, 448] : Fin 3 → Nat) a + S1x1x16.size a ≤ S6x32x512.size a
  inb_S6x32x512_S1x1x16_4_0_464 : ∀ a, (![4, 0, 464] : Fin 3 → Nat) a + S1x1x16.size a ≤ S6x32x512.size a
  inb_S6x32x512_S1x1x16_3_31_464 : ∀ a, (![3, 31, 464] : Fin 3 → Nat) a + S1x1x16.size a ≤ S6x32x512.size a
  inb_S6x32x512_S1x1x16_4_0_480 : ∀ a, (![4, 0, 480] : Fin 3 → Nat) a + S1x1x16.size a ≤ S6x32x512.size a
  inb_S6x32x512_S1x1x16_3_31_480 : ∀ a, (![3, 31, 480] : Fin 3 → Nat) a + S1x1x16.size a ≤ S6x32x512.size a
  inb_S6x32x512_S1x1x16_4_0_496 : ∀ a, (![4, 0, 496] : Fin 3 → Nat) a + S1x1x16.size a ≤ S6x32x512.size a
  inb_S6x32x512_S1x1x16_3_31_496 : ∀ a, (![3, 31, 496] : Fin 3 → Nat) a + S1x1x16.size a ≤ S6x32x512.size a
  inb_S6x32x512_S1x1x16_5_0_0 : ∀ a, (![5, 0, 0] : Fin 3 → Nat) a + S1x1x16.size a ≤ S6x32x512.size a
  inb_S6x32x512_S1x1x16_4_31_0 : ∀ a, (![4, 31, 0] : Fin 3 → Nat) a + S1x1x16.size a ≤ S6x32x512.size a
  inb_S6x32x512_S1x1x16_5_0_16 : ∀ a, (![5, 0, 16] : Fin 3 → Nat) a + S1x1x16.size a ≤ S6x32x512.size a
  inb_S6x32x512_S1x1x16_4_31_16 : ∀ a, (![4, 31, 16] : Fin 3 → Nat) a + S1x1x16.size a ≤ S6x32x512.size a
  inb_S6x32x512_S1x1x16_5_0_32 : ∀ a, (![5, 0, 32] : Fin 3 → Nat) a + S1x1x16.size a ≤ S6x32x512.size a
  inb_S6x32x512_S1x1x16_4_31_32 : ∀ a, (![4, 31, 32] : Fin 3 → Nat) a + S1x1x16.size a ≤ S6x32x512.size a
  inb_S6x32x512_S1x1x16_5_0_48 : ∀ a, (![5, 0, 48] : Fin 3 → Nat) a + S1x1x16.size a ≤ S6x32x512.size a
  inb_S6x32x512_S1x1x16_4_31_48 : ∀ a, (![4, 31, 48] : Fin 3 → Nat) a + S1x1x16.size a ≤ S6x32x512.size a
  inb_S6x32x512_S1x1x16_5_0_64 : ∀ a, (![5, 0, 64] : Fin 3 → Nat) a + S1x1x16.size a ≤ S6x32x512.size a
  inb_S6x32x512_S1x1x16_4_31_64 : ∀ a, (![4, 31, 64] : Fin 3 → Nat) a + S1x1x16.size a ≤ S6x32x512.size a
  inb_S6x32x512_S1x1x16_5_0_80 : ∀ a, (![5, 0, 80] : Fin 3 → Nat) a + S1x1x16.size a ≤ S6x32x512.size a
  inb_S6x32x512_S1x1x16_4_31_80 : ∀ a, (![4, 31, 80] : Fin 3 → Nat) a + S1x1x16.size a ≤ S6x32x512.size a
  inb_S6x32x512_S1x1x16_5_0_96 : ∀ a, (![5, 0, 96] : Fin 3 → Nat) a + S1x1x16.size a ≤ S6x32x512.size a
  inb_S6x32x512_S1x1x16_4_31_96 : ∀ a, (![4, 31, 96] : Fin 3 → Nat) a + S1x1x16.size a ≤ S6x32x512.size a
  inb_S6x32x512_S1x1x16_5_0_112 : ∀ a, (![5, 0, 112] : Fin 3 → Nat) a + S1x1x16.size a ≤ S6x32x512.size a
  inb_S6x32x512_S1x1x16_4_31_112 : ∀ a, (![4, 31, 112] : Fin 3 → Nat) a + S1x1x16.size a ≤ S6x32x512.size a
  inb_S6x32x512_S1x1x16_5_0_128 : ∀ a, (![5, 0, 128] : Fin 3 → Nat) a + S1x1x16.size a ≤ S6x32x512.size a
  inb_S6x32x512_S1x1x16_4_31_128 : ∀ a, (![4, 31, 128] : Fin 3 → Nat) a + S1x1x16.size a ≤ S6x32x512.size a
  inb_S6x32x512_S1x1x16_5_0_144 : ∀ a, (![5, 0, 144] : Fin 3 → Nat) a + S1x1x16.size a ≤ S6x32x512.size a
  inb_S6x32x512_S1x1x16_4_31_144 : ∀ a, (![4, 31, 144] : Fin 3 → Nat) a + S1x1x16.size a ≤ S6x32x512.size a
  inb_S6x32x512_S1x1x16_5_0_160 : ∀ a, (![5, 0, 160] : Fin 3 → Nat) a + S1x1x16.size a ≤ S6x32x512.size a
  inb_S6x32x512_S1x1x16_4_31_160 : ∀ a, (![4, 31, 160] : Fin 3 → Nat) a + S1x1x16.size a ≤ S6x32x512.size a
  inb_S6x32x512_S1x1x16_5_0_176 : ∀ a, (![5, 0, 176] : Fin 3 → Nat) a + S1x1x16.size a ≤ S6x32x512.size a
  inb_S6x32x512_S1x1x16_4_31_176 : ∀ a, (![4, 31, 176] : Fin 3 → Nat) a + S1x1x16.size a ≤ S6x32x512.size a
  inb_S6x32x512_S1x1x16_5_0_192 : ∀ a, (![5, 0, 192] : Fin 3 → Nat) a + S1x1x16.size a ≤ S6x32x512.size a
  inb_S6x32x512_S1x1x16_4_31_192 : ∀ a, (![4, 31, 192] : Fin 3 → Nat) a + S1x1x16.size a ≤ S6x32x512.size a
  inb_S6x32x512_S1x1x16_5_0_208 : ∀ a, (![5, 0, 208] : Fin 3 → Nat) a + S1x1x16.size a ≤ S6x32x512.size a
  inb_S6x32x512_S1x1x16_4_31_208 : ∀ a, (![4, 31, 208] : Fin 3 → Nat) a + S1x1x16.size a ≤ S6x32x512.size a
  inb_S6x32x512_S1x1x16_5_0_224 : ∀ a, (![5, 0, 224] : Fin 3 → Nat) a + S1x1x16.size a ≤ S6x32x512.size a
  inb_S6x32x512_S1x1x16_4_31_224 : ∀ a, (![4, 31, 224] : Fin 3 → Nat) a + S1x1x16.size a ≤ S6x32x512.size a
  inb_S6x32x512_S1x1x16_5_0_240 : ∀ a, (![5, 0, 240] : Fin 3 → Nat) a + S1x1x16.size a ≤ S6x32x512.size a
  inb_S6x32x512_S1x1x16_4_31_240 : ∀ a, (![4, 31, 240] : Fin 3 → Nat) a + S1x1x16.size a ≤ S6x32x512.size a
  inb_S6x32x512_S1x1x16_5_0_256 : ∀ a, (![5, 0, 256] : Fin 3 → Nat) a + S1x1x16.size a ≤ S6x32x512.size a
  inb_S6x32x512_S1x1x16_4_31_256 : ∀ a, (![4, 31, 256] : Fin 3 → Nat) a + S1x1x16.size a ≤ S6x32x512.size a
  inb_S6x32x512_S1x1x16_5_0_272 : ∀ a, (![5, 0, 272] : Fin 3 → Nat) a + S1x1x16.size a ≤ S6x32x512.size a
  inb_S6x32x512_S1x1x16_4_31_272 : ∀ a, (![4, 31, 272] : Fin 3 → Nat) a + S1x1x16.size a ≤ S6x32x512.size a
  inb_S6x32x512_S1x1x16_5_0_288 : ∀ a, (![5, 0, 288] : Fin 3 → Nat) a + S1x1x16.size a ≤ S6x32x512.size a
  inb_S6x32x512_S1x1x16_4_31_288 : ∀ a, (![4, 31, 288] : Fin 3 → Nat) a + S1x1x16.size a ≤ S6x32x512.size a
  inb_S6x32x512_S1x1x16_5_0_304 : ∀ a, (![5, 0, 304] : Fin 3 → Nat) a + S1x1x16.size a ≤ S6x32x512.size a
  inb_S6x32x512_S1x1x16_4_31_304 : ∀ a, (![4, 31, 304] : Fin 3 → Nat) a + S1x1x16.size a ≤ S6x32x512.size a
  inb_S6x32x512_S1x1x16_5_0_320 : ∀ a, (![5, 0, 320] : Fin 3 → Nat) a + S1x1x16.size a ≤ S6x32x512.size a
  inb_S6x32x512_S1x1x16_4_31_320 : ∀ a, (![4, 31, 320] : Fin 3 → Nat) a + S1x1x16.size a ≤ S6x32x512.size a
  inb_S6x32x512_S1x1x16_5_0_336 : ∀ a, (![5, 0, 336] : Fin 3 → Nat) a + S1x1x16.size a ≤ S6x32x512.size a
  inb_S6x32x512_S1x1x16_4_31_336 : ∀ a, (![4, 31, 336] : Fin 3 → Nat) a + S1x1x16.size a ≤ S6x32x512.size a
  inb_S6x32x512_S1x1x16_5_0_352 : ∀ a, (![5, 0, 352] : Fin 3 → Nat) a + S1x1x16.size a ≤ S6x32x512.size a
  inb_S6x32x512_S1x1x16_4_31_352 : ∀ a, (![4, 31, 352] : Fin 3 → Nat) a + S1x1x16.size a ≤ S6x32x512.size a
  inb_S6x32x512_S1x1x16_5_0_368 : ∀ a, (![5, 0, 368] : Fin 3 → Nat) a + S1x1x16.size a ≤ S6x32x512.size a
  inb_S6x32x512_S1x1x16_4_31_368 : ∀ a, (![4, 31, 368] : Fin 3 → Nat) a + S1x1x16.size a ≤ S6x32x512.size a
  inb_S6x32x512_S1x1x16_5_0_384 : ∀ a, (![5, 0, 384] : Fin 3 → Nat) a + S1x1x16.size a ≤ S6x32x512.size a
  inb_S6x32x512_S1x1x16_4_31_384 : ∀ a, (![4, 31, 384] : Fin 3 → Nat) a + S1x1x16.size a ≤ S6x32x512.size a
  inb_S6x32x512_S1x1x16_5_0_400 : ∀ a, (![5, 0, 400] : Fin 3 → Nat) a + S1x1x16.size a ≤ S6x32x512.size a
  inb_S6x32x512_S1x1x16_4_31_400 : ∀ a, (![4, 31, 400] : Fin 3 → Nat) a + S1x1x16.size a ≤ S6x32x512.size a
  inb_S6x32x512_S1x1x16_5_0_416 : ∀ a, (![5, 0, 416] : Fin 3 → Nat) a + S1x1x16.size a ≤ S6x32x512.size a
  inb_S6x32x512_S1x1x16_4_31_416 : ∀ a, (![4, 31, 416] : Fin 3 → Nat) a + S1x1x16.size a ≤ S6x32x512.size a
  inb_S6x32x512_S1x1x16_5_0_432 : ∀ a, (![5, 0, 432] : Fin 3 → Nat) a + S1x1x16.size a ≤ S6x32x512.size a
  inb_S6x32x512_S1x1x16_4_31_432 : ∀ a, (![4, 31, 432] : Fin 3 → Nat) a + S1x1x16.size a ≤ S6x32x512.size a
  inb_S6x32x512_S1x1x16_5_0_448 : ∀ a, (![5, 0, 448] : Fin 3 → Nat) a + S1x1x16.size a ≤ S6x32x512.size a
  inb_S6x32x512_S1x1x16_4_31_448 : ∀ a, (![4, 31, 448] : Fin 3 → Nat) a + S1x1x16.size a ≤ S6x32x512.size a
  inb_S6x32x512_S1x1x16_5_0_464 : ∀ a, (![5, 0, 464] : Fin 3 → Nat) a + S1x1x16.size a ≤ S6x32x512.size a
  inb_S6x32x512_S1x1x16_4_31_464 : ∀ a, (![4, 31, 464] : Fin 3 → Nat) a + S1x1x16.size a ≤ S6x32x512.size a
  inb_S6x32x512_S1x1x16_5_0_480 : ∀ a, (![5, 0, 480] : Fin 3 → Nat) a + S1x1x16.size a ≤ S6x32x512.size a
  inb_S6x32x512_S1x1x16_4_31_480 : ∀ a, (![4, 31, 480] : Fin 3 → Nat) a + S1x1x16.size a ≤ S6x32x512.size a
  inb_S6x32x512_S1x1x16_5_0_496 : ∀ a, (![5, 0, 496] : Fin 3 → Nat) a + S1x1x16.size a ≤ S6x32x512.size a
  inb_S6x32x512_S1x1x16_4_31_496 : ∀ a, (![4, 31, 496] : Fin 3 → Nat) a + S1x1x16.size a ≤ S6x32x512.size a
  inb_S6x32x512_S1x1x16_0_0_0 : ∀ a, (![0, 0, 0] : Fin 3 → Nat) a + S1x1x16.size a ≤ S6x32x512.size a
  inb_S6x32x512_S1x1x16_5_31_0 : ∀ a, (![5, 31, 0] : Fin 3 → Nat) a + S1x1x16.size a ≤ S6x32x512.size a
  inb_S6x32x512_S1x1x16_0_0_16 : ∀ a, (![0, 0, 16] : Fin 3 → Nat) a + S1x1x16.size a ≤ S6x32x512.size a
  inb_S6x32x512_S1x1x16_5_31_16 : ∀ a, (![5, 31, 16] : Fin 3 → Nat) a + S1x1x16.size a ≤ S6x32x512.size a
  inb_S6x32x512_S1x1x16_0_0_32 : ∀ a, (![0, 0, 32] : Fin 3 → Nat) a + S1x1x16.size a ≤ S6x32x512.size a
  inb_S6x32x512_S1x1x16_5_31_32 : ∀ a, (![5, 31, 32] : Fin 3 → Nat) a + S1x1x16.size a ≤ S6x32x512.size a
  inb_S6x32x512_S1x1x16_0_0_48 : ∀ a, (![0, 0, 48] : Fin 3 → Nat) a + S1x1x16.size a ≤ S6x32x512.size a
  inb_S6x32x512_S1x1x16_5_31_48 : ∀ a, (![5, 31, 48] : Fin 3 → Nat) a + S1x1x16.size a ≤ S6x32x512.size a
  inb_S6x32x512_S1x1x16_0_0_64 : ∀ a, (![0, 0, 64] : Fin 3 → Nat) a + S1x1x16.size a ≤ S6x32x512.size a
  inb_S6x32x512_S1x1x16_5_31_64 : ∀ a, (![5, 31, 64] : Fin 3 → Nat) a + S1x1x16.size a ≤ S6x32x512.size a
  inb_S6x32x512_S1x1x16_0_0_80 : ∀ a, (![0, 0, 80] : Fin 3 → Nat) a + S1x1x16.size a ≤ S6x32x512.size a
  inb_S6x32x512_S1x1x16_5_31_80 : ∀ a, (![5, 31, 80] : Fin 3 → Nat) a + S1x1x16.size a ≤ S6x32x512.size a
  inb_S6x32x512_S1x1x16_0_0_96 : ∀ a, (![0, 0, 96] : Fin 3 → Nat) a + S1x1x16.size a ≤ S6x32x512.size a
  inb_S6x32x512_S1x1x16_5_31_96 : ∀ a, (![5, 31, 96] : Fin 3 → Nat) a + S1x1x16.size a ≤ S6x32x512.size a
  inb_S6x32x512_S1x1x16_0_0_112 : ∀ a, (![0, 0, 112] : Fin 3 → Nat) a + S1x1x16.size a ≤ S6x32x512.size a
  inb_S6x32x512_S1x1x16_5_31_112 : ∀ a, (![5, 31, 112] : Fin 3 → Nat) a + S1x1x16.size a ≤ S6x32x512.size a
  inb_S6x32x512_S1x1x16_0_0_128 : ∀ a, (![0, 0, 128] : Fin 3 → Nat) a + S1x1x16.size a ≤ S6x32x512.size a
  inb_S6x32x512_S1x1x16_5_31_128 : ∀ a, (![5, 31, 128] : Fin 3 → Nat) a + S1x1x16.size a ≤ S6x32x512.size a
  inb_S6x32x512_S1x1x16_0_0_144 : ∀ a, (![0, 0, 144] : Fin 3 → Nat) a + S1x1x16.size a ≤ S6x32x512.size a
  inb_S6x32x512_S1x1x16_5_31_144 : ∀ a, (![5, 31, 144] : Fin 3 → Nat) a + S1x1x16.size a ≤ S6x32x512.size a
  inb_S6x32x512_S1x1x16_0_0_160 : ∀ a, (![0, 0, 160] : Fin 3 → Nat) a + S1x1x16.size a ≤ S6x32x512.size a
  inb_S6x32x512_S1x1x16_5_31_160 : ∀ a, (![5, 31, 160] : Fin 3 → Nat) a + S1x1x16.size a ≤ S6x32x512.size a
  inb_S6x32x512_S1x1x16_0_0_176 : ∀ a, (![0, 0, 176] : Fin 3 → Nat) a + S1x1x16.size a ≤ S6x32x512.size a
  inb_S6x32x512_S1x1x16_5_31_176 : ∀ a, (![5, 31, 176] : Fin 3 → Nat) a + S1x1x16.size a ≤ S6x32x512.size a
  inb_S6x32x512_S1x1x16_0_0_192 : ∀ a, (![0, 0, 192] : Fin 3 → Nat) a + S1x1x16.size a ≤ S6x32x512.size a
  inb_S6x32x512_S1x1x16_5_31_192 : ∀ a, (![5, 31, 192] : Fin 3 → Nat) a + S1x1x16.size a ≤ S6x32x512.size a
  inb_S6x32x512_S1x1x16_0_0_208 : ∀ a, (![0, 0, 208] : Fin 3 → Nat) a + S1x1x16.size a ≤ S6x32x512.size a
  inb_S6x32x512_S1x1x16_5_31_208 : ∀ a, (![5, 31, 208] : Fin 3 → Nat) a + S1x1x16.size a ≤ S6x32x512.size a
  inb_S6x32x512_S1x1x16_0_0_224 : ∀ a, (![0, 0, 224] : Fin 3 → Nat) a + S1x1x16.size a ≤ S6x32x512.size a
  inb_S6x32x512_S1x1x16_5_31_224 : ∀ a, (![5, 31, 224] : Fin 3 → Nat) a + S1x1x16.size a ≤ S6x32x512.size a
  inb_S6x32x512_S1x1x16_0_0_240 : ∀ a, (![0, 0, 240] : Fin 3 → Nat) a + S1x1x16.size a ≤ S6x32x512.size a
  inb_S6x32x512_S1x1x16_5_31_240 : ∀ a, (![5, 31, 240] : Fin 3 → Nat) a + S1x1x16.size a ≤ S6x32x512.size a
  inb_S6x32x512_S1x1x16_0_0_256 : ∀ a, (![0, 0, 256] : Fin 3 → Nat) a + S1x1x16.size a ≤ S6x32x512.size a
  inb_S6x32x512_S1x1x16_5_31_256 : ∀ a, (![5, 31, 256] : Fin 3 → Nat) a + S1x1x16.size a ≤ S6x32x512.size a
  inb_S6x32x512_S1x1x16_0_0_272 : ∀ a, (![0, 0, 272] : Fin 3 → Nat) a + S1x1x16.size a ≤ S6x32x512.size a
  inb_S6x32x512_S1x1x16_5_31_272 : ∀ a, (![5, 31, 272] : Fin 3 → Nat) a + S1x1x16.size a ≤ S6x32x512.size a
  inb_S6x32x512_S1x1x16_0_0_288 : ∀ a, (![0, 0, 288] : Fin 3 → Nat) a + S1x1x16.size a ≤ S6x32x512.size a
  inb_S6x32x512_S1x1x16_5_31_288 : ∀ a, (![5, 31, 288] : Fin 3 → Nat) a + S1x1x16.size a ≤ S6x32x512.size a
  inb_S6x32x512_S1x1x16_0_0_304 : ∀ a, (![0, 0, 304] : Fin 3 → Nat) a + S1x1x16.size a ≤ S6x32x512.size a
  inb_S6x32x512_S1x1x16_5_31_304 : ∀ a, (![5, 31, 304] : Fin 3 → Nat) a + S1x1x16.size a ≤ S6x32x512.size a
  inb_S6x32x512_S1x1x16_0_0_320 : ∀ a, (![0, 0, 320] : Fin 3 → Nat) a + S1x1x16.size a ≤ S6x32x512.size a
  inb_S6x32x512_S1x1x16_5_31_320 : ∀ a, (![5, 31, 320] : Fin 3 → Nat) a + S1x1x16.size a ≤ S6x32x512.size a
  inb_S6x32x512_S1x1x16_0_0_336 : ∀ a, (![0, 0, 336] : Fin 3 → Nat) a + S1x1x16.size a ≤ S6x32x512.size a
  inb_S6x32x512_S1x1x16_5_31_336 : ∀ a, (![5, 31, 336] : Fin 3 → Nat) a + S1x1x16.size a ≤ S6x32x512.size a
  inb_S6x32x512_S1x1x16_0_0_352 : ∀ a, (![0, 0, 352] : Fin 3 → Nat) a + S1x1x16.size a ≤ S6x32x512.size a
  inb_S6x32x512_S1x1x16_5_31_352 : ∀ a, (![5, 31, 352] : Fin 3 → Nat) a + S1x1x16.size a ≤ S6x32x512.size a
  inb_S6x32x512_S1x1x16_0_0_368 : ∀ a, (![0, 0, 368] : Fin 3 → Nat) a + S1x1x16.size a ≤ S6x32x512.size a
  inb_S6x32x512_S1x1x16_5_31_368 : ∀ a, (![5, 31, 368] : Fin 3 → Nat) a + S1x1x16.size a ≤ S6x32x512.size a
  inb_S6x32x512_S1x1x16_0_0_384 : ∀ a, (![0, 0, 384] : Fin 3 → Nat) a + S1x1x16.size a ≤ S6x32x512.size a
  inb_S6x32x512_S1x1x16_5_31_384 : ∀ a, (![5, 31, 384] : Fin 3 → Nat) a + S1x1x16.size a ≤ S6x32x512.size a
  inb_S6x32x512_S1x1x16_0_0_400 : ∀ a, (![0, 0, 400] : Fin 3 → Nat) a + S1x1x16.size a ≤ S6x32x512.size a
  inb_S6x32x512_S1x1x16_5_31_400 : ∀ a, (![5, 31, 400] : Fin 3 → Nat) a + S1x1x16.size a ≤ S6x32x512.size a
  inb_S6x32x512_S1x1x16_0_0_416 : ∀ a, (![0, 0, 416] : Fin 3 → Nat) a + S1x1x16.size a ≤ S6x32x512.size a
  inb_S6x32x512_S1x1x16_5_31_416 : ∀ a, (![5, 31, 416] : Fin 3 → Nat) a + S1x1x16.size a ≤ S6x32x512.size a
  inb_S6x32x512_S1x1x16_0_0_432 : ∀ a, (![0, 0, 432] : Fin 3 → Nat) a + S1x1x16.size a ≤ S6x32x512.size a
  inb_S6x32x512_S1x1x16_5_31_432 : ∀ a, (![5, 31, 432] : Fin 3 → Nat) a + S1x1x16.size a ≤ S6x32x512.size a
  inb_S6x32x512_S1x1x16_0_0_448 : ∀ a, (![0, 0, 448] : Fin 3 → Nat) a + S1x1x16.size a ≤ S6x32x512.size a
  inb_S6x32x512_S1x1x16_5_31_448 : ∀ a, (![5, 31, 448] : Fin 3 → Nat) a + S1x1x16.size a ≤ S6x32x512.size a
  inb_S6x32x512_S1x1x16_0_0_464 : ∀ a, (![0, 0, 464] : Fin 3 → Nat) a + S1x1x16.size a ≤ S6x32x512.size a
  inb_S6x32x512_S1x1x16_5_31_464 : ∀ a, (![5, 31, 464] : Fin 3 → Nat) a + S1x1x16.size a ≤ S6x32x512.size a
  inb_S6x32x512_S1x1x16_0_0_480 : ∀ a, (![0, 0, 480] : Fin 3 → Nat) a + S1x1x16.size a ≤ S6x32x512.size a
  inb_S6x32x512_S1x1x16_5_31_480 : ∀ a, (![5, 31, 480] : Fin 3 → Nat) a + S1x1x16.size a ≤ S6x32x512.size a
  inb_S6x32x512_S1x1x16_0_0_496 : ∀ a, (![0, 0, 496] : Fin 3 → Nat) a + S1x1x16.size a ≤ S6x32x512.size a
  inb_S6x32x512_S1x1x16_5_31_496 : ∀ a, (![5, 31, 496] : Fin 3 → Nat) a + S1x1x16.size a ≤ S6x32x512.size a
  inb_S8x512_S1x16_0_0 : ∀ a, (![0, 0] : Fin 2 → Nat) a + S1x16.size a ≤ S8x512.size a
  h_S1x16 : 0 < S1x16.numel
  shapeCasts_S1x16_S16 : S1x16.ShapeCasts S16
  inb_S8x512_S1x16_0_16 : ∀ a, (![0, 16] : Fin 2 → Nat) a + S1x16.size a ≤ S8x512.size a
  inb_S8x512_S1x16_0_32 : ∀ a, (![0, 32] : Fin 2 → Nat) a + S1x16.size a ≤ S8x512.size a
  inb_S8x512_S1x16_0_48 : ∀ a, (![0, 48] : Fin 2 → Nat) a + S1x16.size a ≤ S8x512.size a
  inb_S8x512_S1x16_0_64 : ∀ a, (![0, 64] : Fin 2 → Nat) a + S1x16.size a ≤ S8x512.size a
  inb_S8x512_S1x16_0_80 : ∀ a, (![0, 80] : Fin 2 → Nat) a + S1x16.size a ≤ S8x512.size a
  inb_S8x512_S1x16_0_96 : ∀ a, (![0, 96] : Fin 2 → Nat) a + S1x16.size a ≤ S8x512.size a
  inb_S8x512_S1x16_0_112 : ∀ a, (![0, 112] : Fin 2 → Nat) a + S1x16.size a ≤ S8x512.size a
  inb_S8x512_S1x16_0_128 : ∀ a, (![0, 128] : Fin 2 → Nat) a + S1x16.size a ≤ S8x512.size a
  inb_S8x512_S1x16_0_144 : ∀ a, (![0, 144] : Fin 2 → Nat) a + S1x16.size a ≤ S8x512.size a
  inb_S8x512_S1x16_0_160 : ∀ a, (![0, 160] : Fin 2 → Nat) a + S1x16.size a ≤ S8x512.size a
  inb_S8x512_S1x16_0_176 : ∀ a, (![0, 176] : Fin 2 → Nat) a + S1x16.size a ≤ S8x512.size a
  inb_S8x512_S1x16_0_192 : ∀ a, (![0, 192] : Fin 2 → Nat) a + S1x16.size a ≤ S8x512.size a
  inb_S8x512_S1x16_0_208 : ∀ a, (![0, 208] : Fin 2 → Nat) a + S1x16.size a ≤ S8x512.size a
  inb_S8x512_S1x16_0_224 : ∀ a, (![0, 224] : Fin 2 → Nat) a + S1x16.size a ≤ S8x512.size a
  inb_S8x512_S1x16_0_240 : ∀ a, (![0, 240] : Fin 2 → Nat) a + S1x16.size a ≤ S8x512.size a
  inb_S8x512_S1x16_0_256 : ∀ a, (![0, 256] : Fin 2 → Nat) a + S1x16.size a ≤ S8x512.size a
  inb_S8x512_S1x16_0_272 : ∀ a, (![0, 272] : Fin 2 → Nat) a + S1x16.size a ≤ S8x512.size a
  inb_S8x512_S1x16_0_288 : ∀ a, (![0, 288] : Fin 2 → Nat) a + S1x16.size a ≤ S8x512.size a
  inb_S8x512_S1x16_0_304 : ∀ a, (![0, 304] : Fin 2 → Nat) a + S1x16.size a ≤ S8x512.size a
  inb_S8x512_S1x16_0_320 : ∀ a, (![0, 320] : Fin 2 → Nat) a + S1x16.size a ≤ S8x512.size a
  inb_S8x512_S1x16_0_336 : ∀ a, (![0, 336] : Fin 2 → Nat) a + S1x16.size a ≤ S8x512.size a
  inb_S8x512_S1x16_0_352 : ∀ a, (![0, 352] : Fin 2 → Nat) a + S1x16.size a ≤ S8x512.size a
  inb_S8x512_S1x16_0_368 : ∀ a, (![0, 368] : Fin 2 → Nat) a + S1x16.size a ≤ S8x512.size a
  inb_S8x512_S1x16_0_384 : ∀ a, (![0, 384] : Fin 2 → Nat) a + S1x16.size a ≤ S8x512.size a
  inb_S8x512_S1x16_0_400 : ∀ a, (![0, 400] : Fin 2 → Nat) a + S1x16.size a ≤ S8x512.size a
  inb_S8x512_S1x16_0_416 : ∀ a, (![0, 416] : Fin 2 → Nat) a + S1x16.size a ≤ S8x512.size a
  inb_S8x512_S1x16_0_432 : ∀ a, (![0, 432] : Fin 2 → Nat) a + S1x16.size a ≤ S8x512.size a
  inb_S8x512_S1x16_0_448 : ∀ a, (![0, 448] : Fin 2 → Nat) a + S1x16.size a ≤ S8x512.size a
  inb_S8x512_S1x16_0_464 : ∀ a, (![0, 464] : Fin 2 → Nat) a + S1x16.size a ≤ S8x512.size a
  inb_S8x512_S1x16_0_480 : ∀ a, (![0, 480] : Fin 2 → Nat) a + S1x16.size a ≤ S8x512.size a
  inb_S8x512_S1x16_0_496 : ∀ a, (![0, 496] : Fin 2 → Nat) a + S1x16.size a ≤ S8x512.size a
  inb_S512_S16_0 : ∀ a, (![0] : Fin 1 → Nat) a + S16.size a ≤ S512.size a
  h_S16 : 0 < S16.numel
  shapeCasts_S16_S16 : S16.ShapeCasts S16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  hcc0_scratch3 : 0 + S_.numel ≤ 14
  hcc0_scratch4 : 1 + S_.numel ≤ 14
  hcc0_scratch5 : 2 + S_.numel ≤ 14
  hcc0_scratch6 : 3 + S_.numel ≤ 14
  hcc0_scratch7 : 4 + S_.numel ≤ 14
  hcc0_scratch8 : 5 + S_.numel ≤ 14
  hcc0_scratch9 : 6 + S_.numel ≤ 14
  hcc0_scratch10 : 7 + S_.numel ≤ 14
  hcc0_scratch11 : 8 + S_.numel ≤ 14
  hcc0_scratch12 : 9 + S_.numel ≤ 14
  hcc0_scratch13 : 10 + S_.numel ≤ 14
  hcc0_scratch14 : 11 + S_.numel ≤ 14
  hcc0_scratch15 : 12 + S_.numel ≤ 14
  hcc0_scratch16 : 13 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h2 : k0_cond2 i = 1#1), ∀ a, (k0_off1 i) a + S8x512.size a ≤ S65536x512.size a
  k0_off2_inb : ∀ i : grid0.Coords, ∀ (r : Fin 4), ∀ a, (k0_off2 i (BitVec.ofNat 32 (32 * r.val))) a + S32x512.size a ≤ S65536x512.size a
  k0_t1_ok : k0_t1_loop.OK
  k0_off3_inb : ∀ (i : grid0.Coords) (k0_t1 : Fin k0_t1_loop.trips), ∀ (k0_h3 : k0_cond3 k0_t1 = 1#1), ∀ (k0_h11 : k0_cond11 k0_t1 = 1#1), ∀ a, (k0_off3 i k0_t1) a + S32x512.size a ≤ S65536x512.size a
  k0_off4_inb : ∀ (i : grid0.Coords) (k0_t1 : Fin k0_t1_loop.trips), ∀ (k0_h3 : k0_cond3 k0_t1 = 1#1), ∀ (k0_h12 : k0_cond12 k0_t1 = 1#1), ∀ a, (k0_off4 i k0_t1) a + S32x512.size a ≤ S65536x512.size a
  k0_off5_inb : ∀ (i : grid0.Coords) (k0_t1 : Fin k0_t1_loop.trips), ∀ (k0_h3 : k0_cond3 k0_t1 = 1#1), ∀ (k0_h13 : k0_cond13 k0_t1 = 1#1), ∀ a, (k0_off5 i k0_t1) a + S32x512.size a ≤ S65536x512.size a
  k0_off6_inb : ∀ (i : grid0.Coords) (k0_t1 : Fin k0_t1_loop.trips), ∀ (k0_h3 : k0_cond3 k0_t1 = 1#1), ∀ (k0_h14 : k0_cond14 k0_t1 = 1#1), ∀ a, (k0_off6 i k0_t1) a + S32x512.size a ≤ S65536x512.size a
  k0_off7_inb : ∀ (i : grid0.Coords) (k0_t1 : Fin k0_t1_loop.trips), ∀ (k0_h3 : k0_cond3 k0_t1 = 1#1), ∀ (k0_h15 : k0_cond15 k0_t1 = 1#1), ∀ a, (k0_off7 i k0_t1) a + S32x512.size a ≤ S65536x512.size a
  k0_off8_inb : ∀ (i : grid0.Coords) (k0_t1 : Fin k0_t1_loop.trips), ∀ (k0_h3 : k0_cond3 k0_t1 = 1#1), ∀ (k0_h16 : k0_cond16 k0_t1 = 1#1), ∀ a, (k0_off8 i k0_t1) a + S32x512.size a ≤ S65536x512.size a
  k0_t2_ok : k0_t2_loop.OK
  k0_off9_inb : ∀ (k0_t1 : Fin k0_t1_loop.trips) (k0_t2 : Fin k0_t2_loop.trips), ∀ (r : Fin 8), ∀ a, (k0_off9 k0_t1 k0_t2 (BitVec.ofNat 32 r.val)) a + S1x1x16.size a ≤ S6x32x512.size a
  k0_off10_inb : ∀ (k0_t1 : Fin k0_t1_loop.trips) (k0_t2 : Fin k0_t2_loop.trips), ∀ (r : Fin 8), ∀ a, (k0_off10 k0_t1 k0_t2 (BitVec.ofNat 32 r.val)) a + S1x1x16.size a ≤ S6x32x512.size a
  k0_off11_inb : ∀ (k0_t1 : Fin k0_t1_loop.trips) (k0_t2 : Fin k0_t2_loop.trips), ∀ (r : Fin 8), ∀ a, (k0_off11 k0_t1 k0_t2 (BitVec.ofNat 32 r.val)) a + S1x1x16.size a ≤ S6x32x512.size a
  k0_off12_inb : ∀ (k0_t1 : Fin k0_t1_loop.trips) (k0_t2 : Fin k0_t2_loop.trips), ∀ (r : Fin 8), ∀ a, (k0_off12 k0_t1 k0_t2 (BitVec.ofNat 32 r.val)) a + S1x1x16.size a ≤ S6x32x512.size a
  k0_off13_inb : ∀ (k0_t1 : Fin k0_t1_loop.trips) (k0_t2 : Fin k0_t2_loop.trips), ∀ (r : Fin 8), ∀ a, (k0_off13 k0_t1 k0_t2 (BitVec.ofNat 32 r.val)) a + S1x1x16.size a ≤ S6x32x512.size a
  k0_off14_inb : ∀ (k0_t1 : Fin k0_t1_loop.trips) (k0_t2 : Fin k0_t2_loop.trips), ∀ (r : Fin 8), ∀ a, (k0_off14 k0_t1 k0_t2 (BitVec.ofNat 32 r.val)) a + S1x1x16.size a ≤ S6x32x512.size a
  k0_off15_inb : ∀ (k0_t1 : Fin k0_t1_loop.trips) (k0_t2 : Fin k0_t2_loop.trips), ∀ (r : Fin 8), ∀ a, (k0_off15 k0_t1 k0_t2 (BitVec.ofNat 32 r.val)) a + S1x1x16.size a ≤ S6x32x512.size a
  k0_off16_inb : ∀ (k0_t1 : Fin k0_t1_loop.trips) (k0_t2 : Fin k0_t2_loop.trips), ∀ (r : Fin 8), ∀ a, (k0_off16 k0_t1 k0_t2 (BitVec.ofNat 32 r.val)) a + S1x1x16.size a ≤ S6x32x512.size a
  k0_off17_inb : ∀ (k0_t1 : Fin k0_t1_loop.trips) (k0_t2 : Fin k0_t2_loop.trips), ∀ (r : Fin 8), ∀ a, (k0_off17 k0_t1 k0_t2 (BitVec.ofNat 32 r.val)) a + S1x1x16.size a ≤ S6x32x512.size a
  k0_off18_inb : ∀ (k0_t1 : Fin k0_t1_loop.trips) (k0_t2 : Fin k0_t2_loop.trips), ∀ (r : Fin 8), ∀ a, (k0_off18 k0_t1 k0_t2 (BitVec.ofNat 32 r.val)) a + S1x1x16.size a ≤ S6x32x512.size a
  k0_off19_inb : ∀ (k0_t1 : Fin k0_t1_loop.trips) (k0_t2 : Fin k0_t2_loop.trips), ∀ (r : Fin 8), ∀ a, (k0_off19 k0_t1 k0_t2 (BitVec.ofNat 32 r.val)) a + S1x1x16.size a ≤ S6x32x512.size a
  k0_off20_inb : ∀ (k0_t1 : Fin k0_t1_loop.trips) (k0_t2 : Fin k0_t2_loop.trips), ∀ (r : Fin 8), ∀ a, (k0_off20 k0_t1 k0_t2 (BitVec.ofNat 32 r.val)) a + S1x1x16.size a ≤ S6x32x512.size a
  k0_off21_inb : ∀ (k0_t1 : Fin k0_t1_loop.trips) (k0_t2 : Fin k0_t2_loop.trips), ∀ (r : Fin 8), ∀ a, (k0_off21 k0_t1 k0_t2 (BitVec.ofNat 32 r.val)) a + S1x1x16.size a ≤ S6x32x512.size a
  k0_off22_inb : ∀ (k0_t1 : Fin k0_t1_loop.trips) (k0_t2 : Fin k0_t2_loop.trips), ∀ (r : Fin 8), ∀ a, (k0_off22 k0_t1 k0_t2 (BitVec.ofNat 32 r.val)) a + S1x1x16.size a ≤ S6x32x512.size a
  k0_off23_inb : ∀ (k0_t1 : Fin k0_t1_loop.trips) (k0_t2 : Fin k0_t2_loop.trips), ∀ (r : Fin 8), ∀ a, (k0_off23 k0_t1 k0_t2 (BitVec.ofNat 32 r.val)) a + S1x1x16.size a ≤ S6x32x512.size a
  k0_off24_inb : ∀ (k0_t1 : Fin k0_t1_loop.trips) (k0_t2 : Fin k0_t2_loop.trips), ∀ (r : Fin 8), ∀ a, (k0_off24 k0_t1 k0_t2 (BitVec.ofNat 32 r.val)) a + S1x1x16.size a ≤ S6x32x512.size a
  k0_off25_inb : ∀ (k0_t1 : Fin k0_t1_loop.trips) (k0_t2 : Fin k0_t2_loop.trips), ∀ (r : Fin 8), ∀ a, (k0_off25 k0_t1 k0_t2 (BitVec.ofNat 32 r.val)) a + S1x1x16.size a ≤ S6x32x512.size a
  k0_off26_inb : ∀ (k0_t1 : Fin k0_t1_loop.trips) (k0_t2 : Fin k0_t2_loop.trips), ∀ (r : Fin 8), ∀ a, (k0_off26 k0_t1 k0_t2 (BitVec.ofNat 32 r.val)) a + S1x1x16.size a ≤ S6x32x512.size a
  k0_off27_inb : ∀ (k0_t1 : Fin k0_t1_loop.trips) (k0_t2 : Fin k0_t2_loop.trips), ∀ (r : Fin 8), ∀ a, (k0_off27 k0_t1 k0_t2 (BitVec.ofNat 32 r.val)) a + S1x1x16.size a ≤ S6x32x512.size a
  k0_off28_inb : ∀ (k0_t1 : Fin k0_t1_loop.trips) (k0_t2 : Fin k0_t2_loop.trips), ∀ (r : Fin 8), ∀ a, (k0_off28 k0_t1 k0_t2 (BitVec.ofNat 32 r.val)) a + S1x1x16.size a ≤ S6x32x512.size a
  k0_off29_inb : ∀ (k0_t1 : Fin k0_t1_loop.trips) (k0_t2 : Fin k0_t2_loop.trips), ∀ (r : Fin 8), ∀ a, (k0_off29 k0_t1 k0_t2 (BitVec.ofNat 32 r.val)) a + S1x1x16.size a ≤ S6x32x512.size a
  k0_off30_inb : ∀ (k0_t1 : Fin k0_t1_loop.trips) (k0_t2 : Fin k0_t2_loop.trips), ∀ (r : Fin 8), ∀ a, (k0_off30 k0_t1 k0_t2 (BitVec.ofNat 32 r.val)) a + S1x1x16.size a ≤ S6x32x512.size a
  k0_off31_inb : ∀ (k0_t1 : Fin k0_t1_loop.trips) (k0_t2 : Fin k0_t2_loop.trips), ∀ (r : Fin 8), ∀ a, (k0_off31 k0_t1 k0_t2 (BitVec.ofNat 32 r.val)) a + S1x1x16.size a ≤ S6x32x512.size a
  k0_off32_inb : ∀ (k0_t1 : Fin k0_t1_loop.trips) (k0_t2 : Fin k0_t2_loop.trips), ∀ (r : Fin 8), ∀ a, (k0_off32 k0_t1 k0_t2 (BitVec.ofNat 32 r.val)) a + S1x1x16.size a ≤ S6x32x512.size a
  k0_off33_inb : ∀ (k0_t1 : Fin k0_t1_loop.trips) (k0_t2 : Fin k0_t2_loop.trips), ∀ (r : Fin 8), ∀ a, (k0_off33 k0_t1 k0_t2 (BitVec.ofNat 32 r.val)) a + S1x1x16.size a ≤ S6x32x512.size a
  k0_off34_inb : ∀ (k0_t1 : Fin k0_t1_loop.trips) (k0_t2 : Fin k0_t2_loop.trips), ∀ (r : Fin 8), ∀ a, (k0_off34 k0_t1 k0_t2 (BitVec.ofNat 32 r.val)) a + S1x1x16.size a ≤ S6x32x512.size a
  k0_off35_inb : ∀ (k0_t1 : Fin k0_t1_loop.trips) (k0_t2 : Fin k0_t2_loop.trips), ∀ (r : Fin 8), ∀ a, (k0_off35 k0_t1 k0_t2 (BitVec.ofNat 32 r.val)) a + S1x1x16.size a ≤ S6x32x512.size a
  k0_off36_inb : ∀ (k0_t1 : Fin k0_t1_loop.trips) (k0_t2 : Fin k0_t2_loop.trips), ∀ (r : Fin 8), ∀ a, (k0_off36 k0_t1 k0_t2 (BitVec.ofNat 32 r.val)) a + S1x1x16.size a ≤ S6x32x512.size a
  k0_off37_inb : ∀ (k0_t1 : Fin k0_t1_loop.trips) (k0_t2 : Fin k0_t2_loop.trips), ∀ (r : Fin 8), ∀ a, (k0_off37 k0_t1 k0_t2 (BitVec.ofNat 32 r.val)) a + S1x1x16.size a ≤ S6x32x512.size a
  k0_off38_inb : ∀ (k0_t1 : Fin k0_t1_loop.trips) (k0_t2 : Fin k0_t2_loop.trips), ∀ (r : Fin 8), ∀ a, (k0_off38 k0_t1 k0_t2 (BitVec.ofNat 32 r.val)) a + S1x1x16.size a ≤ S6x32x512.size a
  k0_off39_inb : ∀ (k0_t1 : Fin k0_t1_loop.trips) (k0_t2 : Fin k0_t2_loop.trips), ∀ (r : Fin 8), ∀ a, (k0_off39 k0_t1 k0_t2 (BitVec.ofNat 32 r.val)) a + S1x1x16.size a ≤ S6x32x512.size a
  k0_off40_inb : ∀ (k0_t1 : Fin k0_t1_loop.trips) (k0_t2 : Fin k0_t2_loop.trips), ∀ (r : Fin 8), ∀ a, (k0_off40 k0_t1 k0_t2 (BitVec.ofNat 32 r.val)) a + S1x1x16.size a ≤ S6x32x512.size a
  k0_off41_inb : ∀ (k0_t1 : Fin k0_t1_loop.trips) (k0_t2 : Fin k0_t2_loop.trips), ∀ (r : Fin 8), ∀ a, (k0_off41 k0_t1 k0_t2 (BitVec.ofNat 32 r.val)) a + S1x1x16.size a ≤ S6x32x512.size a
  k0_off42_inb : ∀ (k0_t1 : Fin k0_t1_loop.trips) (k0_t2 : Fin k0_t2_loop.trips), ∀ (r : Fin 8), ∀ a, (k0_off42 k0_t1 k0_t2 (BitVec.ofNat 32 r.val)) a + S1x1x16.size a ≤ S6x32x512.size a
  k0_off43_inb : ∀ (k0_t1 : Fin k0_t1_loop.trips) (k0_t2 : Fin k0_t2_loop.trips), ∀ (r : Fin 8), ∀ a, (k0_off43 k0_t1 k0_t2 (BitVec.ofNat 32 r.val)) a + S1x1x16.size a ≤ S6x32x512.size a
  k0_off44_inb : ∀ (k0_t1 : Fin k0_t1_loop.trips) (k0_t2 : Fin k0_t2_loop.trips), ∀ (r : Fin 8), ∀ a, (k0_off44 k0_t1 k0_t2 (BitVec.ofNat 32 r.val)) a + S1x1x16.size a ≤ S6x32x512.size a
  k0_off45_inb : ∀ (k0_t1 : Fin k0_t1_loop.trips) (k0_t2 : Fin k0_t2_loop.trips), ∀ (r : Fin 8), ∀ a, (k0_off45 k0_t1 k0_t2 (BitVec.ofNat 32 r.val)) a + S1x1x16.size a ≤ S6x32x512.size a
  k0_off46_inb : ∀ (k0_t1 : Fin k0_t1_loop.trips) (k0_t2 : Fin k0_t2_loop.trips), ∀ (r : Fin 8), ∀ a, (k0_off46 k0_t1 k0_t2 (BitVec.ofNat 32 r.val)) a + S1x1x16.size a ≤ S6x32x512.size a
  k0_off47_inb : ∀ (k0_t1 : Fin k0_t1_loop.trips) (k0_t2 : Fin k0_t2_loop.trips), ∀ (r : Fin 8), ∀ a, (k0_off47 k0_t1 k0_t2 (BitVec.ofNat 32 r.val)) a + S1x1x16.size a ≤ S6x32x512.size a
  k0_off48_inb : ∀ (k0_t1 : Fin k0_t1_loop.trips) (k0_t2 : Fin k0_t2_loop.trips), ∀ (r : Fin 8), ∀ a, (k0_off48 k0_t1 k0_t2 (BitVec.ofNat 32 r.val)) a + S1x1x16.size a ≤ S6x32x512.size a
  k0_off49_inb : ∀ (k0_t1 : Fin k0_t1_loop.trips) (k0_t2 : Fin k0_t2_loop.trips), ∀ (r : Fin 8), ∀ a, (k0_off49 k0_t1 k0_t2 (BitVec.ofNat 32 r.val)) a + S1x1x16.size a ≤ S6x32x512.size a
  k0_off50_inb : ∀ (k0_t1 : Fin k0_t1_loop.trips) (k0_t2 : Fin k0_t2_loop.trips), ∀ (r : Fin 8), ∀ a, (k0_off50 k0_t1 k0_t2 (BitVec.ofNat 32 r.val)) a + S1x1x16.size a ≤ S6x32x512.size a
  k0_off51_inb : ∀ (k0_t1 : Fin k0_t1_loop.trips) (k0_t2 : Fin k0_t2_loop.trips), ∀ (r : Fin 8), ∀ a, (k0_off51 k0_t1 k0_t2 (BitVec.ofNat 32 r.val)) a + S1x1x16.size a ≤ S6x32x512.size a
  k0_off52_inb : ∀ (k0_t1 : Fin k0_t1_loop.trips) (k0_t2 : Fin k0_t2_loop.trips), ∀ (r : Fin 8), ∀ a, (k0_off52 k0_t1 k0_t2 (BitVec.ofNat 32 r.val)) a + S1x1x16.size a ≤ S6x32x512.size a
  k0_off53_inb : ∀ (k0_t1 : Fin k0_t1_loop.trips) (k0_t2 : Fin k0_t2_loop.trips), ∀ (r : Fin 8), ∀ a, (k0_off53 k0_t1 k0_t2 (BitVec.ofNat 32 r.val)) a + S1x1x16.size a ≤ S6x32x512.size a
  k0_off54_inb : ∀ (k0_t1 : Fin k0_t1_loop.trips) (k0_t2 : Fin k0_t2_loop.trips), ∀ (r : Fin 8), ∀ a, (k0_off54 k0_t1 k0_t2 (BitVec.ofNat 32 r.val)) a + S1x1x16.size a ≤ S6x32x512.size a
  k0_off55_inb : ∀ (k0_t1 : Fin k0_t1_loop.trips) (k0_t2 : Fin k0_t2_loop.trips), ∀ (r : Fin 8), ∀ a, (k0_off55 k0_t1 k0_t2 (BitVec.ofNat 32 r.val)) a + S1x1x16.size a ≤ S6x32x512.size a
  k0_off56_inb : ∀ (k0_t1 : Fin k0_t1_loop.trips) (k0_t2 : Fin k0_t2_loop.trips), ∀ (r : Fin 8), ∀ a, (k0_off56 k0_t1 k0_t2 (BitVec.ofNat 32 r.val)) a + S1x1x16.size a ≤ S6x32x512.size a
  k0_off57_inb : ∀ (k0_t1 : Fin k0_t1_loop.trips) (k0_t2 : Fin k0_t2_loop.trips), ∀ (r : Fin 8), ∀ a, (k0_off57 k0_t1 k0_t2 (BitVec.ofNat 32 r.val)) a + S1x1x16.size a ≤ S6x32x512.size a
  k0_off58_inb : ∀ (k0_t1 : Fin k0_t1_loop.trips) (k0_t2 : Fin k0_t2_loop.trips), ∀ (r : Fin 8), ∀ a, (k0_off58 k0_t1 k0_t2 (BitVec.ofNat 32 r.val)) a + S1x1x16.size a ≤ S6x32x512.size a
  k0_off59_inb : ∀ (k0_t1 : Fin k0_t1_loop.trips) (k0_t2 : Fin k0_t2_loop.trips), ∀ (r : Fin 8), ∀ a, (k0_off59 k0_t1 k0_t2 (BitVec.ofNat 32 r.val)) a + S1x1x16.size a ≤ S6x32x512.size a
  k0_off60_inb : ∀ (k0_t1 : Fin k0_t1_loop.trips) (k0_t2 : Fin k0_t2_loop.trips), ∀ (r : Fin 8), ∀ a, (k0_off60 k0_t1 k0_t2 (BitVec.ofNat 32 r.val)) a + S1x1x16.size a ≤ S6x32x512.size a
  k0_off61_inb : ∀ (k0_t1 : Fin k0_t1_loop.trips) (k0_t2 : Fin k0_t2_loop.trips), ∀ (r : Fin 8), ∀ a, (k0_off61 k0_t1 k0_t2 (BitVec.ofNat 32 r.val)) a + S1x1x16.size a ≤ S6x32x512.size a
  k0_off62_inb : ∀ (k0_t1 : Fin k0_t1_loop.trips) (k0_t2 : Fin k0_t2_loop.trips), ∀ (r : Fin 8), ∀ a, (k0_off62 k0_t1 k0_t2 (BitVec.ofNat 32 r.val)) a + S1x1x16.size a ≤ S6x32x512.size a
  k0_off63_inb : ∀ (k0_t1 : Fin k0_t1_loop.trips) (k0_t2 : Fin k0_t2_loop.trips), ∀ (r : Fin 8), ∀ a, (k0_off63 k0_t1 k0_t2 (BitVec.ofNat 32 r.val)) a + S1x1x16.size a ≤ S6x32x512.size a
  k0_off64_inb : ∀ (k0_t1 : Fin k0_t1_loop.trips) (k0_t2 : Fin k0_t2_loop.trips), ∀ (r : Fin 8), ∀ a, (k0_off64 k0_t1 k0_t2 (BitVec.ofNat 32 r.val)) a + S1x1x16.size a ≤ S6x32x512.size a
  k0_off65_inb : ∀ (k0_t1 : Fin k0_t1_loop.trips) (k0_t2 : Fin k0_t2_loop.trips), ∀ (r : Fin 8), ∀ a, (k0_off65 k0_t1 k0_t2 (BitVec.ofNat 32 r.val)) a + S1x1x16.size a ≤ S6x32x512.size a
  k0_off66_inb : ∀ (k0_t1 : Fin k0_t1_loop.trips) (k0_t2 : Fin k0_t2_loop.trips), ∀ (r : Fin 8), ∀ a, (k0_off66 k0_t1 k0_t2 (BitVec.ofNat 32 r.val)) a + S1x1x16.size a ≤ S6x32x512.size a
  k0_off67_inb : ∀ (k0_t1 : Fin k0_t1_loop.trips) (k0_t2 : Fin k0_t2_loop.trips), ∀ (r : Fin 8), ∀ a, (k0_off67 k0_t1 k0_t2 (BitVec.ofNat 32 r.val)) a + S1x1x16.size a ≤ S6x32x512.size a
  k0_off68_inb : ∀ (k0_t1 : Fin k0_t1_loop.trips) (k0_t2 : Fin k0_t2_loop.trips), ∀ (r : Fin 8), ∀ a, (k0_off68 k0_t1 k0_t2 (BitVec.ofNat 32 r.val)) a + S1x1x16.size a ≤ S6x32x512.size a
  k0_off69_inb : ∀ (k0_t1 : Fin k0_t1_loop.trips) (k0_t2 : Fin k0_t2_loop.trips), ∀ (r : Fin 8), ∀ a, (k0_off69 k0_t1 k0_t2 (BitVec.ofNat 32 r.val)) a + S1x1x16.size a ≤ S6x32x512.size a
  k0_off70_inb : ∀ (k0_t1 : Fin k0_t1_loop.trips) (k0_t2 : Fin k0_t2_loop.trips), ∀ (r : Fin 8), ∀ a, (k0_off70 k0_t1 k0_t2 (BitVec.ofNat 32 r.val)) a + S1x1x16.size a ≤ S6x32x512.size a
  k0_off71_inb : ∀ (k0_t1 : Fin k0_t1_loop.trips) (k0_t2 : Fin k0_t2_loop.trips), ∀ (r : Fin 8), ∀ a, (k0_off71 k0_t1 k0_t2 (BitVec.ofNat 32 r.val)) a + S1x1x16.size a ≤ S6x32x512.size a
  k0_off72_inb : ∀ (k0_t1 : Fin k0_t1_loop.trips) (k0_t2 : Fin k0_t2_loop.trips), ∀ (r : Fin 8), ∀ a, (k0_off72 k0_t1 k0_t2 (BitVec.ofNat 32 r.val)) a + S1x1x16.size a ≤ S6x32x512.size a
  k0_off73_inb : ∀ k0_t1 : Fin k0_t1_loop.trips, ∀ a, (k0_off73 k0_t1) a + S1x1x16.size a ≤ S6x32x512.size a
  k0_off74_inb : ∀ k0_t1 : Fin k0_t1_loop.trips, ∀ a, (k0_off74 k0_t1) a + S1x1x16.size a ≤ S6x32x512.size a
  k0_off75_inb : ∀ k0_t1 : Fin k0_t1_loop.trips, ∀ a, (k0_off75 k0_t1) a + S1x1x16.size a ≤ S6x32x512.size a
  k0_off76_inb : ∀ k0_t1 : Fin k0_t1_loop.trips, ∀ a, (k0_off76 k0_t1) a + S1x1x16.size a ≤ S6x32x512.size a
  k0_off77_inb : ∀ k0_t1 : Fin k0_t1_loop.trips, ∀ a, (k0_off77 k0_t1) a + S1x1x16.size a ≤ S6x32x512.size a
  k0_off78_inb : ∀ k0_t1 : Fin k0_t1_loop.trips, ∀ a, (k0_off78 k0_t1) a + S1x1x16.size a ≤ S6x32x512.size a
  k0_off79_inb : ∀ k0_t1 : Fin k0_t1_loop.trips, ∀ a, (k0_off79 k0_t1) a + S1x1x16.size a ≤ S6x32x512.size a
  k0_off80_inb : ∀ k0_t1 : Fin k0_t1_loop.trips, ∀ a, (k0_off80 k0_t1) a + S1x1x16.size a ≤ S6x32x512.size a
  k0_off81_inb : ∀ k0_t1 : Fin k0_t1_loop.trips, ∀ a, (k0_off81 k0_t1) a + S1x1x16.size a ≤ S6x32x512.size a
  k0_off82_inb : ∀ k0_t1 : Fin k0_t1_loop.trips, ∀ a, (k0_off82 k0_t1) a + S1x1x16.size a ≤ S6x32x512.size a
  k0_off83_inb : ∀ k0_t1 : Fin k0_t1_loop.trips, ∀ a, (k0_off83 k0_t1) a + S1x1x16.size a ≤ S6x32x512.size a
  k0_off84_inb : ∀ k0_t1 : Fin k0_t1_loop.trips, ∀ a, (k0_off84 k0_t1) a + S1x1x16.size a ≤ S6x32x512.size a
  k0_off85_inb : ∀ k0_t1 : Fin k0_t1_loop.trips, ∀ a, (k0_off85 k0_t1) a + S1x1x16.size a ≤ S6x32x512.size a
  k0_off86_inb : ∀ k0_t1 : Fin k0_t1_loop.trips, ∀ a, (k0_off86 k0_t1) a + S1x1x16.size a ≤ S6x32x512.size a
  k0_off87_inb : ∀ k0_t1 : Fin k0_t1_loop.trips, ∀ a, (k0_off87 k0_t1) a + S1x1x16.size a ≤ S6x32x512.size a
  k0_off88_inb : ∀ k0_t1 : Fin k0_t1_loop.trips, ∀ a, (k0_off88 k0_t1) a + S1x1x16.size a ≤ S6x32x512.size a
  k0_off89_inb : ∀ k0_t1 : Fin k0_t1_loop.trips, ∀ a, (k0_off89 k0_t1) a + S1x1x16.size a ≤ S6x32x512.size a
  k0_off90_inb : ∀ k0_t1 : Fin k0_t1_loop.trips, ∀ a, (k0_off90 k0_t1) a + S1x1x16.size a ≤ S6x32x512.size a
  k0_off91_inb : ∀ k0_t1 : Fin k0_t1_loop.trips, ∀ a, (k0_off91 k0_t1) a + S1x1x16.size a ≤ S6x32x512.size a
  k0_off92_inb : ∀ k0_t1 : Fin k0_t1_loop.trips, ∀ a, (k0_off92 k0_t1) a + S1x1x16.size a ≤ S6x32x512.size a
  k0_off93_inb : ∀ k0_t1 : Fin k0_t1_loop.trips, ∀ a, (k0_off93 k0_t1) a + S1x1x16.size a ≤ S6x32x512.size a
  k0_off94_inb : ∀ k0_t1 : Fin k0_t1_loop.trips, ∀ a, (k0_off94 k0_t1) a + S1x1x16.size a ≤ S6x32x512.size a
  k0_off95_inb : ∀ k0_t1 : Fin k0_t1_loop.trips, ∀ a, (k0_off95 k0_t1) a + S1x1x16.size a ≤ S6x32x512.size a
  k0_off96_inb : ∀ k0_t1 : Fin k0_t1_loop.trips, ∀ a, (k0_off96 k0_t1) a + S1x1x16.size a ≤ S6x32x512.size a
  k0_off97_inb : ∀ k0_t1 : Fin k0_t1_loop.trips, ∀ a, (k0_off97 k0_t1) a + S1x1x16.size a ≤ S6x32x512.size a
  k0_off98_inb : ∀ k0_t1 : Fin k0_t1_loop.trips, ∀ a, (k0_off98 k0_t1) a + S1x1x16.size a ≤ S6x32x512.size a
  k0_off99_inb : ∀ k0_t1 : Fin k0_t1_loop.trips, ∀ a, (k0_off99 k0_t1) a + S1x1x16.size a ≤ S6x32x512.size a
  k0_off100_inb : ∀ k0_t1 : Fin k0_t1_loop.trips, ∀ a, (k0_off100 k0_t1) a + S1x1x16.size a ≤ S6x32x512.size a
  k0_off101_inb : ∀ k0_t1 : Fin k0_t1_loop.trips, ∀ a, (k0_off101 k0_t1) a + S1x1x16.size a ≤ S6x32x512.size a
  k0_off102_inb : ∀ k0_t1 : Fin k0_t1_loop.trips, ∀ a, (k0_off102 k0_t1) a + S1x1x16.size a ≤ S6x32x512.size a
  k0_off103_inb : ∀ k0_t1 : Fin k0_t1_loop.trips, ∀ a, (k0_off103 k0_t1) a + S1x1x16.size a ≤ S6x32x512.size a
  k0_off104_inb : ∀ k0_t1 : Fin k0_t1_loop.trips, ∀ a, (k0_off104 k0_t1) a + S1x1x16.size a ≤ S6x32x512.size a
  k0_off105_inb : ∀ k0_t1 : Fin k0_t1_loop.trips, ∀ a, (k0_off105 k0_t1) a + S1x1x16.size a ≤ S6x32x512.size a
  k0_off106_inb : ∀ k0_t1 : Fin k0_t1_loop.trips, ∀ a, (k0_off106 k0_t1) a + S1x1x16.size a ≤ S6x32x512.size a
  k0_off107_inb : ∀ k0_t1 : Fin k0_t1_loop.trips, ∀ a, (k0_off107 k0_t1) a + S1x1x16.size a ≤ S6x32x512.size a
  k0_off108_inb : ∀ k0_t1 : Fin k0_t1_loop.trips, ∀ a, (k0_off108 k0_t1) a + S1x1x16.size a ≤ S6x32x512.size a
  k0_off109_inb : ∀ k0_t1 : Fin k0_t1_loop.trips, ∀ a, (k0_off109 k0_t1) a + S1x1x16.size a ≤ S6x32x512.size a
  k0_off110_inb : ∀ k0_t1 : Fin k0_t1_loop.trips, ∀ a, (k0_off110 k0_t1) a + S1x1x16.size a ≤ S6x32x512.size a
  k0_off111_inb : ∀ k0_t1 : Fin k0_t1_loop.trips, ∀ a, (k0_off111 k0_t1) a + S1x1x16.size a ≤ S6x32x512.size a
  k0_off112_inb : ∀ k0_t1 : Fin k0_t1_loop.trips, ∀ a, (k0_off112 k0_t1) a + S1x1x16.size a ≤ S6x32x512.size a
  k0_off113_inb : ∀ k0_t1 : Fin k0_t1_loop.trips, ∀ a, (k0_off113 k0_t1) a + S1x1x16.size a ≤ S6x32x512.size a
  k0_off114_inb : ∀ k0_t1 : Fin k0_t1_loop.trips, ∀ a, (k0_off114 k0_t1) a + S1x1x16.size a ≤ S6x32x512.size a
  k0_off115_inb : ∀ k0_t1 : Fin k0_t1_loop.trips, ∀ a, (k0_off115 k0_t1) a + S1x1x16.size a ≤ S6x32x512.size a
  k0_off116_inb : ∀ k0_t1 : Fin k0_t1_loop.trips, ∀ a, (k0_off116 k0_t1) a + S1x1x16.size a ≤ S6x32x512.size a
  k0_off117_inb : ∀ k0_t1 : Fin k0_t1_loop.trips, ∀ a, (k0_off117 k0_t1) a + S1x1x16.size a ≤ S6x32x512.size a
  k0_off118_inb : ∀ k0_t1 : Fin k0_t1_loop.trips, ∀ a, (k0_off118 k0_t1) a + S1x1x16.size a ≤ S6x32x512.size a
  k0_off119_inb : ∀ k0_t1 : Fin k0_t1_loop.trips, ∀ a, (k0_off119 k0_t1) a + S1x1x16.size a ≤ S6x32x512.size a
  k0_off120_inb : ∀ k0_t1 : Fin k0_t1_loop.trips, ∀ a, (k0_off120 k0_t1) a + S1x1x16.size a ≤ S6x32x512.size a
  k0_off121_inb : ∀ k0_t1 : Fin k0_t1_loop.trips, ∀ a, (k0_off121 k0_t1) a + S1x1x16.size a ≤ S6x32x512.size a
  k0_off122_inb : ∀ k0_t1 : Fin k0_t1_loop.trips, ∀ a, (k0_off122 k0_t1) a + S1x1x16.size a ≤ S6x32x512.size a
  k0_off123_inb : ∀ k0_t1 : Fin k0_t1_loop.trips, ∀ a, (k0_off123 k0_t1) a + S1x1x16.size a ≤ S6x32x512.size a
  k0_off124_inb : ∀ k0_t1 : Fin k0_t1_loop.trips, ∀ a, (k0_off124 k0_t1) a + S1x1x16.size a ≤ S6x32x512.size a
  k0_off125_inb : ∀ k0_t1 : Fin k0_t1_loop.trips, ∀ a, (k0_off125 k0_t1) a + S1x1x16.size a ≤ S6x32x512.size a
  k0_off126_inb : ∀ k0_t1 : Fin k0_t1_loop.trips, ∀ a, (k0_off126 k0_t1) a + S1x1x16.size a ≤ S6x32x512.size a
  k0_off127_inb : ∀ k0_t1 : Fin k0_t1_loop.trips, ∀ a, (k0_off127 k0_t1) a + S1x1x16.size a ≤ S6x32x512.size a
  k0_off128_inb : ∀ k0_t1 : Fin k0_t1_loop.trips, ∀ a, (k0_off128 k0_t1) a + S1x1x16.size a ≤ S6x32x512.size a
  k0_off129_inb : ∀ k0_t1 : Fin k0_t1_loop.trips, ∀ a, (k0_off129 k0_t1) a + S1x1x16.size a ≤ S6x32x512.size a
  k0_off130_inb : ∀ k0_t1 : Fin k0_t1_loop.trips, ∀ a, (k0_off130 k0_t1) a + S1x1x16.size a ≤ S6x32x512.size a
  k0_off131_inb : ∀ k0_t1 : Fin k0_t1_loop.trips, ∀ a, (k0_off131 k0_t1) a + S1x1x16.size a ≤ S6x32x512.size a
  k0_off132_inb : ∀ k0_t1 : Fin k0_t1_loop.trips, ∀ a, (k0_off132 k0_t1) a + S1x1x16.size a ≤ S6x32x512.size a
  k0_off133_inb : ∀ k0_t1 : Fin k0_t1_loop.trips, ∀ a, (k0_off133 k0_t1) a + S1x1x16.size a ≤ S6x32x512.size a
  k0_off134_inb : ∀ k0_t1 : Fin k0_t1_loop.trips, ∀ a, (k0_off134 k0_t1) a + S1x1x16.size a ≤ S6x32x512.size a
  k0_off135_inb : ∀ k0_t1 : Fin k0_t1_loop.trips, ∀ a, (k0_off135 k0_t1) a + S1x1x16.size a ≤ S6x32x512.size a
  k0_off136_inb : ∀ k0_t1 : Fin k0_t1_loop.trips, ∀ a, (k0_off136 k0_t1) a + S1x1x16.size a ≤ S6x32x512.size a
  k0_off137_inb : ∀ k0_t1 : Fin k0_t1_loop.trips, ∀ a, (k0_off137 k0_t1) a + S1x1x16.size a ≤ S6x32x512.size a
  k0_off138_inb : ∀ k0_t1 : Fin k0_t1_loop.trips, ∀ a, (k0_off138 k0_t1) a + S1x1x16.size a ≤ S6x32x512.size a
  k0_off139_inb : ∀ k0_t1 : Fin k0_t1_loop.trips, ∀ a, (k0_off139 k0_t1) a + S1x1x16.size a ≤ S6x32x512.size a
  k0_off140_inb : ∀ k0_t1 : Fin k0_t1_loop.trips, ∀ a, (k0_off140 k0_t1) a + S1x1x16.size a ≤ S6x32x512.size a
  k0_off141_inb : ∀ k0_t1 : Fin k0_t1_loop.trips, ∀ a, (k0_off141 k0_t1) a + S1x1x16.size a ≤ S6x32x512.size a
  k0_off142_inb : ∀ k0_t1 : Fin k0_t1_loop.trips, ∀ a, (k0_off142 k0_t1) a + S1x1x16.size a ≤ S6x32x512.size a
  k0_off143_inb : ∀ k0_t1 : Fin k0_t1_loop.trips, ∀ a, (k0_off143 k0_t1) a + S1x1x16.size a ≤ S6x32x512.size a
  k0_off144_inb : ∀ k0_t1 : Fin k0_t1_loop.trips, ∀ a, (k0_off144 k0_t1) a + S1x1x16.size a ≤ S6x32x512.size a
  k0_off145_inb : ∀ k0_t1 : Fin k0_t1_loop.trips, ∀ a, (k0_off145 k0_t1) a + S1x1x16.size a ≤ S6x32x512.size a
  k0_off146_inb : ∀ k0_t1 : Fin k0_t1_loop.trips, ∀ a, (k0_off146 k0_t1) a + S1x1x16.size a ≤ S6x32x512.size a
  k0_off147_inb : ∀ k0_t1 : Fin k0_t1_loop.trips, ∀ a, (k0_off147 k0_t1) a + S1x1x16.size a ≤ S6x32x512.size a
  k0_off148_inb : ∀ k0_t1 : Fin k0_t1_loop.trips, ∀ a, (k0_off148 k0_t1) a + S1x1x16.size a ≤ S6x32x512.size a
  k0_off149_inb : ∀ k0_t1 : Fin k0_t1_loop.trips, ∀ a, (k0_off149 k0_t1) a + S1x1x16.size a ≤ S6x32x512.size a
  k0_off150_inb : ∀ k0_t1 : Fin k0_t1_loop.trips, ∀ a, (k0_off150 k0_t1) a + S1x1x16.size a ≤ S6x32x512.size a
  k0_off151_inb : ∀ k0_t1 : Fin k0_t1_loop.trips, ∀ a, (k0_off151 k0_t1) a + S1x1x16.size a ≤ S6x32x512.size a
  k0_off152_inb : ∀ k0_t1 : Fin k0_t1_loop.trips, ∀ a, (k0_off152 k0_t1) a + S1x1x16.size a ≤ S6x32x512.size a
  k0_off153_inb : ∀ k0_t1 : Fin k0_t1_loop.trips, ∀ a, (k0_off153 k0_t1) a + S1x1x16.size a ≤ S6x32x512.size a
  k0_off154_inb : ∀ k0_t1 : Fin k0_t1_loop.trips, ∀ a, (k0_off154 k0_t1) a + S1x1x16.size a ≤ S6x32x512.size a
  k0_off155_inb : ∀ k0_t1 : Fin k0_t1_loop.trips, ∀ a, (k0_off155 k0_t1) a + S1x1x16.size a ≤ S6x32x512.size a
  k0_off156_inb : ∀ k0_t1 : Fin k0_t1_loop.trips, ∀ a, (k0_off156 k0_t1) a + S1x1x16.size a ≤ S6x32x512.size a
  k0_off157_inb : ∀ k0_t1 : Fin k0_t1_loop.trips, ∀ a, (k0_off157 k0_t1) a + S1x1x16.size a ≤ S6x32x512.size a
  k0_off158_inb : ∀ k0_t1 : Fin k0_t1_loop.trips, ∀ a, (k0_off158 k0_t1) a + S1x1x16.size a ≤ S6x32x512.size a
  k0_off159_inb : ∀ k0_t1 : Fin k0_t1_loop.trips, ∀ a, (k0_off159 k0_t1) a + S1x1x16.size a ≤ S6x32x512.size a
  k0_off160_inb : ∀ k0_t1 : Fin k0_t1_loop.trips, ∀ a, (k0_off160 k0_t1) a + S1x1x16.size a ≤ S6x32x512.size a
  k0_off161_inb : ∀ k0_t1 : Fin k0_t1_loop.trips, ∀ a, (k0_off161 k0_t1) a + S1x1x16.size a ≤ S6x32x512.size a
  k0_off162_inb : ∀ k0_t1 : Fin k0_t1_loop.trips, ∀ a, (k0_off162 k0_t1) a + S1x1x16.size a ≤ S6x32x512.size a
  k0_off163_inb : ∀ k0_t1 : Fin k0_t1_loop.trips, ∀ a, (k0_off163 k0_t1) a + S1x1x16.size a ≤ S6x32x512.size a
  k0_off164_inb : ∀ k0_t1 : Fin k0_t1_loop.trips, ∀ a, (k0_off164 k0_t1) a + S1x1x16.size a ≤ S6x32x512.size a
  k0_off165_inb : ∀ k0_t1 : Fin k0_t1_loop.trips, ∀ a, (k0_off165 k0_t1) a + S1x1x16.size a ≤ S6x32x512.size a
  k0_off166_inb : ∀ k0_t1 : Fin k0_t1_loop.trips, ∀ a, (k0_off166 k0_t1) a + S1x1x16.size a ≤ S6x32x512.size a
  k0_off167_inb : ∀ k0_t1 : Fin k0_t1_loop.trips, ∀ a, (k0_off167 k0_t1) a + S1x1x16.size a ≤ S6x32x512.size a
  k0_off168_inb : ∀ k0_t1 : Fin k0_t1_loop.trips, ∀ a, (k0_off168 k0_t1) a + S1x1x16.size a ≤ S6x32x512.size a
  k0_off169_inb : ∀ k0_t1 : Fin k0_t1_loop.trips, ∀ a, (k0_off169 k0_t1) a + S1x1x16.size a ≤ S6x32x512.size a
  k0_off170_inb : ∀ k0_t1 : Fin k0_t1_loop.trips, ∀ a, (k0_off170 k0_t1) a + S1x1x16.size a ≤ S6x32x512.size a
  k0_off171_inb : ∀ k0_t1 : Fin k0_t1_loop.trips, ∀ a, (k0_off171 k0_t1) a + S1x1x16.size a ≤ S6x32x512.size a
  k0_off172_inb : ∀ k0_t1 : Fin k0_t1_loop.trips, ∀ a, (k0_off172 k0_t1) a + S1x1x16.size a ≤ S6x32x512.size a
  k0_off173_inb : ∀ k0_t1 : Fin k0_t1_loop.trips, ∀ a, (k0_off173 k0_t1) a + S1x1x16.size a ≤ S6x32x512.size a
  k0_off174_inb : ∀ k0_t1 : Fin k0_t1_loop.trips, ∀ a, (k0_off174 k0_t1) a + S1x1x16.size a ≤ S6x32x512.size a
  k0_off175_inb : ∀ k0_t1 : Fin k0_t1_loop.trips, ∀ a, (k0_off175 k0_t1) a + S1x1x16.size a ≤ S6x32x512.size a
  k0_off176_inb : ∀ k0_t1 : Fin k0_t1_loop.trips, ∀ a, (k0_off176 k0_t1) a + S1x1x16.size a ≤ S6x32x512.size a
  k0_off177_inb : ∀ k0_t1 : Fin k0_t1_loop.trips, ∀ a, (k0_off177 k0_t1) a + S1x1x16.size a ≤ S6x32x512.size a
  k0_off178_inb : ∀ k0_t1 : Fin k0_t1_loop.trips, ∀ a, (k0_off178 k0_t1) a + S1x1x16.size a ≤ S6x32x512.size a
  k0_off179_inb : ∀ k0_t1 : Fin k0_t1_loop.trips, ∀ a, (k0_off179 k0_t1) a + S1x1x16.size a ≤ S6x32x512.size a
  k0_off180_inb : ∀ k0_t1 : Fin k0_t1_loop.trips, ∀ a, (k0_off180 k0_t1) a + S1x1x16.size a ≤ S6x32x512.size a
  k0_off181_inb : ∀ k0_t1 : Fin k0_t1_loop.trips, ∀ a, (k0_off181 k0_t1) a + S1x1x16.size a ≤ S6x32x512.size a
  k0_off182_inb : ∀ k0_t1 : Fin k0_t1_loop.trips, ∀ a, (k0_off182 k0_t1) a + S1x1x16.size a ≤ S6x32x512.size a
  k0_off183_inb : ∀ k0_t1 : Fin k0_t1_loop.trips, ∀ a, (k0_off183 k0_t1) a + S1x1x16.size a ≤ S6x32x512.size a
  k0_off184_inb : ∀ k0_t1 : Fin k0_t1_loop.trips, ∀ a, (k0_off184 k0_t1) a + S1x1x16.size a ≤ S6x32x512.size a
  k0_off185_inb : ∀ k0_t1 : Fin k0_t1_loop.trips, ∀ a, (k0_off185 k0_t1) a + S1x1x16.size a ≤ S6x32x512.size a
  k0_off186_inb : ∀ k0_t1 : Fin k0_t1_loop.trips, ∀ a, (k0_off186 k0_t1) a + S1x1x16.size a ≤ S6x32x512.size a
  k0_off187_inb : ∀ k0_t1 : Fin k0_t1_loop.trips, ∀ a, (k0_off187 k0_t1) a + S1x1x16.size a ≤ S6x32x512.size a
  k0_off188_inb : ∀ k0_t1 : Fin k0_t1_loop.trips, ∀ a, (k0_off188 k0_t1) a + S1x1x16.size a ≤ S6x32x512.size a
  k0_off189_inb : ∀ k0_t1 : Fin k0_t1_loop.trips, ∀ a, (k0_off189 k0_t1) a + S1x1x16.size a ≤ S6x32x512.size a
  k0_off190_inb : ∀ k0_t1 : Fin k0_t1_loop.trips, ∀ a, (k0_off190 k0_t1) a + S1x1x16.size a ≤ S6x32x512.size a
  k0_off191_inb : ∀ k0_t1 : Fin k0_t1_loop.trips, ∀ a, (k0_off191 k0_t1) a + S1x1x16.size a ≤ S6x32x512.size a
  k0_off192_inb : ∀ k0_t1 : Fin k0_t1_loop.trips, ∀ a, (k0_off192 k0_t1) a + S1x1x16.size a ≤ S6x32x512.size a
  k0_off193_inb : ∀ k0_t1 : Fin k0_t1_loop.trips, ∀ a, (k0_off193 k0_t1) a + S1x1x16.size a ≤ S6x32x512.size a
  k0_off194_inb : ∀ k0_t1 : Fin k0_t1_loop.trips, ∀ a, (k0_off194 k0_t1) a + S1x1x16.size a ≤ S6x32x512.size a
  k0_off195_inb : ∀ k0_t1 : Fin k0_t1_loop.trips, ∀ a, (k0_off195 k0_t1) a + S1x1x16.size a ≤ S6x32x512.size a
  k0_off196_inb : ∀ k0_t1 : Fin k0_t1_loop.trips, ∀ a, (k0_off196 k0_t1) a + S1x1x16.size a ≤ S6x32x512.size a
  k0_off197_inb : ∀ k0_t1 : Fin k0_t1_loop.trips, ∀ a, (k0_off197 k0_t1) a + S1x1x16.size a ≤ S6x32x512.size a
  k0_off198_inb : ∀ k0_t1 : Fin k0_t1_loop.trips, ∀ a, (k0_off198 k0_t1) a + S1x1x16.size a ≤ S6x32x512.size a
  k0_off199_inb : ∀ k0_t1 : Fin k0_t1_loop.trips, ∀ a, (k0_off199 k0_t1) a + S1x1x16.size a ≤ S6x32x512.size a
  k0_off200_inb : ∀ k0_t1 : Fin k0_t1_loop.trips, ∀ a, (k0_off200 k0_t1) a + S1x1x16.size a ≤ S6x32x512.size a
  k0_off201_inb : ∀ k0_t1 : Fin k0_t1_loop.trips, ∀ a, (k0_off201 k0_t1) a + S1x1x16.size a ≤ S6x32x512.size a
  k0_off202_inb : ∀ k0_t1 : Fin k0_t1_loop.trips, ∀ a, (k0_off202 k0_t1) a + S1x1x16.size a ≤ S6x32x512.size a
  k0_off203_inb : ∀ k0_t1 : Fin k0_t1_loop.trips, ∀ a, (k0_off203 k0_t1) a + S1x1x16.size a ≤ S6x32x512.size a
  k0_off204_inb : ∀ k0_t1 : Fin k0_t1_loop.trips, ∀ a, (k0_off204 k0_t1) a + S1x1x16.size a ≤ S6x32x512.size a
  k0_off205_inb : ∀ k0_t1 : Fin k0_t1_loop.trips, ∀ a, (k0_off205 k0_t1) a + S1x1x16.size a ≤ S6x32x512.size a
  k0_off206_inb : ∀ k0_t1 : Fin k0_t1_loop.trips, ∀ a, (k0_off206 k0_t1) a + S1x1x16.size a ≤ S6x32x512.size a
  k0_off207_inb : ∀ k0_t1 : Fin k0_t1_loop.trips, ∀ a, (k0_off207 k0_t1) a + S1x1x16.size a ≤ S6x32x512.size a
  k0_off208_inb : ∀ k0_t1 : Fin k0_t1_loop.trips, ∀ a, (k0_off208 k0_t1) a + S1x1x16.size a ≤ S6x32x512.size a
  k0_off209_inb : ∀ k0_t1 : Fin k0_t1_loop.trips, ∀ a, (k0_off209 k0_t1) a + S1x1x16.size a ≤ S6x32x512.size a
  k0_off210_inb : ∀ k0_t1 : Fin k0_t1_loop.trips, ∀ a, (k0_off210 k0_t1) a + S1x1x16.size a ≤ S6x32x512.size a
  k0_off211_inb : ∀ k0_t1 : Fin k0_t1_loop.trips, ∀ a, (k0_off211 k0_t1) a + S1x1x16.size a ≤ S6x32x512.size a
  k0_off212_inb : ∀ k0_t1 : Fin k0_t1_loop.trips, ∀ a, (k0_off212 k0_t1) a + S1x1x16.size a ≤ S6x32x512.size a
  k0_off213_inb : ∀ k0_t1 : Fin k0_t1_loop.trips, ∀ a, (k0_off213 k0_t1) a + S1x1x16.size a ≤ S6x32x512.size a
  k0_off214_inb : ∀ k0_t1 : Fin k0_t1_loop.trips, ∀ a, (k0_off214 k0_t1) a + S1x1x16.size a ≤ S6x32x512.size a
  k0_off215_inb : ∀ k0_t1 : Fin k0_t1_loop.trips, ∀ a, (k0_off215 k0_t1) a + S1x1x16.size a ≤ S6x32x512.size a
  k0_off216_inb : ∀ k0_t1 : Fin k0_t1_loop.trips, ∀ a, (k0_off216 k0_t1) a + S1x1x16.size a ≤ S6x32x512.size a
  k0_off217_inb : ∀ k0_t1 : Fin k0_t1_loop.trips, ∀ a, (k0_off217 k0_t1) a + S1x1x16.size a ≤ S6x32x512.size a
  k0_off218_inb : ∀ k0_t1 : Fin k0_t1_loop.trips, ∀ a, (k0_off218 k0_t1) a + S1x1x16.size a ≤ S6x32x512.size a
  k0_off219_inb : ∀ k0_t1 : Fin k0_t1_loop.trips, ∀ a, (k0_off219 k0_t1) a + S1x1x16.size a ≤ S6x32x512.size a
  k0_off220_inb : ∀ k0_t1 : Fin k0_t1_loop.trips, ∀ a, (k0_off220 k0_t1) a + S1x1x16.size a ≤ S6x32x512.size a
  k0_off221_inb : ∀ k0_t1 : Fin k0_t1_loop.trips, ∀ a, (k0_off221 k0_t1) a + S1x1x16.size a ≤ S6x32x512.size a
  k0_off222_inb : ∀ k0_t1 : Fin k0_t1_loop.trips, ∀ a, (k0_off222 k0_t1) a + S1x1x16.size a ≤ S6x32x512.size a
  k0_off223_inb : ∀ k0_t1 : Fin k0_t1_loop.trips, ∀ a, (k0_off223 k0_t1) a + S1x1x16.size a ≤ S6x32x512.size a
  k0_off224_inb : ∀ k0_t1 : Fin k0_t1_loop.trips, ∀ a, (k0_off224 k0_t1) a + S1x1x16.size a ≤ S6x32x512.size a
  k0_off225_inb : ∀ k0_t1 : Fin k0_t1_loop.trips, ∀ a, (k0_off225 k0_t1) a + S1x1x16.size a ≤ S6x32x512.size a
  k0_off226_inb : ∀ k0_t1 : Fin k0_t1_loop.trips, ∀ a, (k0_off226 k0_t1) a + S1x1x16.size a ≤ S6x32x512.size a
  k0_off227_inb : ∀ k0_t1 : Fin k0_t1_loop.trips, ∀ a, (k0_off227 k0_t1) a + S1x1x16.size a ≤ S6x32x512.size a
  k0_off228_inb : ∀ k0_t1 : Fin k0_t1_loop.trips, ∀ a, (k0_off228 k0_t1) a + S1x1x16.size a ≤ S6x32x512.size a
  k0_off229_inb : ∀ k0_t1 : Fin k0_t1_loop.trips, ∀ a, (k0_off229 k0_t1) a + S1x1x16.size a ≤ S6x32x512.size a
  k0_off230_inb : ∀ k0_t1 : Fin k0_t1_loop.trips, ∀ a, (k0_off230 k0_t1) a + S1x1x16.size a ≤ S6x32x512.size a
  k0_off231_inb : ∀ k0_t1 : Fin k0_t1_loop.trips, ∀ a, (k0_off231 k0_t1) a + S1x1x16.size a ≤ S6x32x512.size a
  k0_off232_inb : ∀ k0_t1 : Fin k0_t1_loop.trips, ∀ a, (k0_off232 k0_t1) a + S1x1x16.size a ≤ S6x32x512.size a
  k0_off233_inb : ∀ k0_t1 : Fin k0_t1_loop.trips, ∀ a, (k0_off233 k0_t1) a + S1x1x16.size a ≤ S6x32x512.size a
  k0_off234_inb : ∀ k0_t1 : Fin k0_t1_loop.trips, ∀ a, (k0_off234 k0_t1) a + S1x1x16.size a ≤ S6x32x512.size a
  k0_off235_inb : ∀ k0_t1 : Fin k0_t1_loop.trips, ∀ a, (k0_off235 k0_t1) a + S1x1x16.size a ≤ S6x32x512.size a
  k0_off236_inb : ∀ k0_t1 : Fin k0_t1_loop.trips, ∀ a, (k0_off236 k0_t1) a + S1x1x16.size a ≤ S6x32x512.size a
  k0_off237_inb : ∀ k0_t1 : Fin k0_t1_loop.trips, ∀ a, (k0_off237 k0_t1) a + S1x1x16.size a ≤ S6x32x512.size a
  k0_off238_inb : ∀ k0_t1 : Fin k0_t1_loop.trips, ∀ a, (k0_off238 k0_t1) a + S1x1x16.size a ≤ S6x32x512.size a
  k0_off239_inb : ∀ k0_t1 : Fin k0_t1_loop.trips, ∀ a, (k0_off239 k0_t1) a + S1x1x16.size a ≤ S6x32x512.size a
  k0_off240_inb : ∀ k0_t1 : Fin k0_t1_loop.trips, ∀ a, (k0_off240 k0_t1) a + S1x1x16.size a ≤ S6x32x512.size a
  k0_off241_inb : ∀ k0_t1 : Fin k0_t1_loop.trips, ∀ a, (k0_off241 k0_t1) a + S1x1x16.size a ≤ S6x32x512.size a
  k0_off242_inb : ∀ k0_t1 : Fin k0_t1_loop.trips, ∀ a, (k0_off242 k0_t1) a + S1x1x16.size a ≤ S6x32x512.size a
  k0_off243_inb : ∀ k0_t1 : Fin k0_t1_loop.trips, ∀ a, (k0_off243 k0_t1) a + S1x1x16.size a ≤ S6x32x512.size a
  k0_off244_inb : ∀ k0_t1 : Fin k0_t1_loop.trips, ∀ a, (k0_off244 k0_t1) a + S1x1x16.size a ≤ S6x32x512.size a
  k0_off245_inb : ∀ k0_t1 : Fin k0_t1_loop.trips, ∀ a, (k0_off245 k0_t1) a + S1x1x16.size a ≤ S6x32x512.size a
  k0_off246_inb : ∀ k0_t1 : Fin k0_t1_loop.trips, ∀ a, (k0_off246 k0_t1) a + S1x1x16.size a ≤ S6x32x512.size a
  k0_off247_inb : ∀ k0_t1 : Fin k0_t1_loop.trips, ∀ a, (k0_off247 k0_t1) a + S1x1x16.size a ≤ S6x32x512.size a
  k0_off248_inb : ∀ k0_t1 : Fin k0_t1_loop.trips, ∀ a, (k0_off248 k0_t1) a + S1x1x16.size a ≤ S6x32x512.size a
  k0_off249_inb : ∀ k0_t1 : Fin k0_t1_loop.trips, ∀ a, (k0_off249 k0_t1) a + S1x1x16.size a ≤ S6x32x512.size a
  k0_off250_inb : ∀ k0_t1 : Fin k0_t1_loop.trips, ∀ a, (k0_off250 k0_t1) a + S1x1x16.size a ≤ S6x32x512.size a
  k0_off251_inb : ∀ k0_t1 : Fin k0_t1_loop.trips, ∀ a, (k0_off251 k0_t1) a + S1x1x16.size a ≤ S6x32x512.size a
  k0_off252_inb : ∀ k0_t1 : Fin k0_t1_loop.trips, ∀ a, (k0_off252 k0_t1) a + S1x1x16.size a ≤ S6x32x512.size a
  k0_off253_inb : ∀ k0_t1 : Fin k0_t1_loop.trips, ∀ a, (k0_off253 k0_t1) a + S1x1x16.size a ≤ S6x32x512.size a
  k0_off254_inb : ∀ k0_t1 : Fin k0_t1_loop.trips, ∀ a, (k0_off254 k0_t1) a + S1x1x16.size a ≤ S6x32x512.size a
  k0_off255_inb : ∀ k0_t1 : Fin k0_t1_loop.trips, ∀ a, (k0_off255 k0_t1) a + S1x1x16.size a ≤ S6x32x512.size a
  k0_off256_inb : ∀ k0_t1 : Fin k0_t1_loop.trips, ∀ a, (k0_off256 k0_t1) a + S1x1x16.size a ≤ S6x32x512.size a
  k0_off257_inb : ∀ k0_t1 : Fin k0_t1_loop.trips, ∀ a, (k0_off257 k0_t1) a + S1x1x16.size a ≤ S6x32x512.size a
  k0_off258_inb : ∀ k0_t1 : Fin k0_t1_loop.trips, ∀ a, (k0_off258 k0_t1) a + S1x1x16.size a ≤ S6x32x512.size a
  k0_off259_inb : ∀ k0_t1 : Fin k0_t1_loop.trips, ∀ a, (k0_off259 k0_t1) a + S1x1x16.size a ≤ S6x32x512.size a
  k0_off260_inb : ∀ k0_t1 : Fin k0_t1_loop.trips, ∀ a, (k0_off260 k0_t1) a + S1x1x16.size a ≤ S6x32x512.size a
  k0_off261_inb : ∀ k0_t1 : Fin k0_t1_loop.trips, ∀ a, (k0_off261 k0_t1) a + S1x1x16.size a ≤ S6x32x512.size a
  k0_off262_inb : ∀ k0_t1 : Fin k0_t1_loop.trips, ∀ a, (k0_off262 k0_t1) a + S1x1x16.size a ≤ S6x32x512.size a
  k0_off263_inb : ∀ k0_t1 : Fin k0_t1_loop.trips, ∀ a, (k0_off263 k0_t1) a + S1x1x16.size a ≤ S6x32x512.size a
  k0_off264_inb : ∀ k0_t1 : Fin k0_t1_loop.trips, ∀ a, (k0_off264 k0_t1) a + S1x1x16.size a ≤ S6x32x512.size a
  k0_off265_inb : ∀ k0_t1 : Fin k0_t1_loop.trips, ∀ a, (k0_off265 k0_t1) a + S1x1x16.size a ≤ S6x32x512.size a
  k0_off266_inb : ∀ k0_t1 : Fin k0_t1_loop.trips, ∀ a, (k0_off266 k0_t1) a + S1x1x16.size a ≤ S6x32x512.size a
  k0_off267_inb : ∀ k0_t1 : Fin k0_t1_loop.trips, ∀ a, (k0_off267 k0_t1) a + S1x1x16.size a ≤ S6x32x512.size a
  k0_off268_inb : ∀ k0_t1 : Fin k0_t1_loop.trips, ∀ a, (k0_off268 k0_t1) a + S1x1x16.size a ≤ S6x32x512.size a
  k0_off269_inb : ∀ k0_t1 : Fin k0_t1_loop.trips, ∀ a, (k0_off269 k0_t1) a + S1x1x16.size a ≤ S6x32x512.size a
  k0_off270_inb : ∀ k0_t1 : Fin k0_t1_loop.trips, ∀ a, (k0_off270 k0_t1) a + S1x1x16.size a ≤ S6x32x512.size a
  k0_off271_inb : ∀ k0_t1 : Fin k0_t1_loop.trips, ∀ a, (k0_off271 k0_t1) a + S1x1x16.size a ≤ S6x32x512.size a
  k0_off272_inb : ∀ k0_t1 : Fin k0_t1_loop.trips, ∀ a, (k0_off272 k0_t1) a + S1x1x16.size a ≤ S6x32x512.size a
  k0_off273_inb : ∀ k0_t1 : Fin k0_t1_loop.trips, ∀ a, (k0_off273 k0_t1) a + S1x1x16.size a ≤ S6x32x512.size a
  k0_off274_inb : ∀ k0_t1 : Fin k0_t1_loop.trips, ∀ a, (k0_off274 k0_t1) a + S1x1x16.size a ≤ S6x32x512.size a
  k0_off275_inb : ∀ k0_t1 : Fin k0_t1_loop.trips, ∀ a, (k0_off275 k0_t1) a + S1x1x16.size a ≤ S6x32x512.size a
  k0_off276_inb : ∀ k0_t1 : Fin k0_t1_loop.trips, ∀ a, (k0_off276 k0_t1) a + S1x1x16.size a ≤ S6x32x512.size a
  k0_off277_inb : ∀ k0_t1 : Fin k0_t1_loop.trips, ∀ a, (k0_off277 k0_t1) a + S1x1x16.size a ≤ S6x32x512.size a
  k0_off278_inb : ∀ k0_t1 : Fin k0_t1_loop.trips, ∀ a, (k0_off278 k0_t1) a + S1x1x16.size a ≤ S6x32x512.size a
  k0_off279_inb : ∀ k0_t1 : Fin k0_t1_loop.trips, ∀ a, (k0_off279 k0_t1) a + S1x1x16.size a ≤ S6x32x512.size a
  k0_off280_inb : ∀ k0_t1 : Fin k0_t1_loop.trips, ∀ a, (k0_off280 k0_t1) a + S1x1x16.size a ≤ S6x32x512.size a
  k0_off281_inb : ∀ k0_t1 : Fin k0_t1_loop.trips, ∀ a, (k0_off281 k0_t1) a + S1x1x16.size a ≤ S6x32x512.size a
  k0_off282_inb : ∀ k0_t1 : Fin k0_t1_loop.trips, ∀ a, (k0_off282 k0_t1) a + S1x1x16.size a ≤ S6x32x512.size a
  k0_off283_inb : ∀ k0_t1 : Fin k0_t1_loop.trips, ∀ a, (k0_off283 k0_t1) a + S1x1x16.size a ≤ S6x32x512.size a
  k0_off284_inb : ∀ k0_t1 : Fin k0_t1_loop.trips, ∀ a, (k0_off284 k0_t1) a + S1x1x16.size a ≤ S6x32x512.size a
  k0_off285_inb : ∀ k0_t1 : Fin k0_t1_loop.trips, ∀ a, (k0_off285 k0_t1) a + S1x1x16.size a ≤ S6x32x512.size a
  k0_off286_inb : ∀ k0_t1 : Fin k0_t1_loop.trips, ∀ a, (k0_off286 k0_t1) a + S1x1x16.size a ≤ S6x32x512.size a
  k0_off287_inb : ∀ k0_t1 : Fin k0_t1_loop.trips, ∀ a, (k0_off287 k0_t1) a + S1x1x16.size a ≤ S6x32x512.size a
  k0_off288_inb : ∀ k0_t1 : Fin k0_t1_loop.trips, ∀ a, (k0_off288 k0_t1) a + S1x1x16.size a ≤ S6x32x512.size a
  k0_off289_inb : ∀ k0_t1 : Fin k0_t1_loop.trips, ∀ a, (k0_off289 k0_t1) a + S1x1x16.size a ≤ S6x32x512.size a
  k0_off290_inb : ∀ k0_t1 : Fin k0_t1_loop.trips, ∀ a, (k0_off290 k0_t1) a + S1x1x16.size a ≤ S6x32x512.size a
  k0_off291_inb : ∀ k0_t1 : Fin k0_t1_loop.trips, ∀ a, (k0_off291 k0_t1) a + S1x1x16.size a ≤ S6x32x512.size a
  k0_off292_inb : ∀ k0_t1 : Fin k0_t1_loop.trips, ∀ a, (k0_off292 k0_t1) a + S1x1x16.size a ≤ S6x32x512.size a
  k0_off293_inb : ∀ k0_t1 : Fin k0_t1_loop.trips, ∀ a, (k0_off293 k0_t1) a + S1x1x16.size a ≤ S6x32x512.size a
  k0_off294_inb : ∀ k0_t1 : Fin k0_t1_loop.trips, ∀ a, (k0_off294 k0_t1) a + S1x1x16.size a ≤ S6x32x512.size a
  k0_off295_inb : ∀ k0_t1 : Fin k0_t1_loop.trips, ∀ a, (k0_off295 k0_t1) a + S1x1x16.size a ≤ S6x32x512.size a
  k0_off296_inb : ∀ k0_t1 : Fin k0_t1_loop.trips, ∀ a, (k0_off296 k0_t1) a + S1x1x16.size a ≤ S6x32x512.size a
  k0_off297_inb : ∀ k0_t1 : Fin k0_t1_loop.trips, ∀ a, (k0_off297 k0_t1) a + S1x1x16.size a ≤ S6x32x512.size a
  k0_off298_inb : ∀ k0_t1 : Fin k0_t1_loop.trips, ∀ a, (k0_off298 k0_t1) a + S1x1x16.size a ≤ S6x32x512.size a
  k0_off299_inb : ∀ k0_t1 : Fin k0_t1_loop.trips, ∀ a, (k0_off299 k0_t1) a + S1x1x16.size a ≤ S6x32x512.size a
  k0_off300_inb : ∀ k0_t1 : Fin k0_t1_loop.trips, ∀ a, (k0_off300 k0_t1) a + S1x1x16.size a ≤ S6x32x512.size a
  k0_off301_inb : ∀ k0_t1 : Fin k0_t1_loop.trips, ∀ a, (k0_off301 k0_t1) a + S1x1x16.size a ≤ S6x32x512.size a
  k0_off302_inb : ∀ k0_t1 : Fin k0_t1_loop.trips, ∀ a, (k0_off302 k0_t1) a + S1x1x16.size a ≤ S6x32x512.size a
  k0_off303_inb : ∀ k0_t1 : Fin k0_t1_loop.trips, ∀ a, (k0_off303 k0_t1) a + S1x1x16.size a ≤ S6x32x512.size a
  k0_off304_inb : ∀ k0_t1 : Fin k0_t1_loop.trips, ∀ a, (k0_off304 k0_t1) a + S1x1x16.size a ≤ S6x32x512.size a
  k0_off305_inb : ∀ k0_t1 : Fin k0_t1_loop.trips, ∀ a, (k0_off305 k0_t1) a + S1x1x16.size a ≤ S6x32x512.size a
  k0_off306_inb : ∀ k0_t1 : Fin k0_t1_loop.trips, ∀ a, (k0_off306 k0_t1) a + S1x1x16.size a ≤ S6x32x512.size a
  k0_off307_inb : ∀ k0_t1 : Fin k0_t1_loop.trips, ∀ a, (k0_off307 k0_t1) a + S1x1x16.size a ≤ S6x32x512.size a
  k0_off308_inb : ∀ k0_t1 : Fin k0_t1_loop.trips, ∀ a, (k0_off308 k0_t1) a + S1x1x16.size a ≤ S6x32x512.size a
  k0_off309_inb : ∀ k0_t1 : Fin k0_t1_loop.trips, ∀ a, (k0_off309 k0_t1) a + S1x1x16.size a ≤ S6x32x512.size a
  k0_off310_inb : ∀ k0_t1 : Fin k0_t1_loop.trips, ∀ a, (k0_off310 k0_t1) a + S1x1x16.size a ≤ S6x32x512.size a
  k0_off311_inb : ∀ k0_t1 : Fin k0_t1_loop.trips, ∀ a, (k0_off311 k0_t1) a + S1x1x16.size a ≤ S6x32x512.size a
  k0_off312_inb : ∀ k0_t1 : Fin k0_t1_loop.trips, ∀ a, (k0_off312 k0_t1) a + S1x1x16.size a ≤ S6x32x512.size a
  k0_off313_inb : ∀ k0_t1 : Fin k0_t1_loop.trips, ∀ a, (k0_off313 k0_t1) a + S1x1x16.size a ≤ S6x32x512.size a
  k0_off314_inb : ∀ k0_t1 : Fin k0_t1_loop.trips, ∀ a, (k0_off314 k0_t1) a + S1x1x16.size a ≤ S6x32x512.size a
  k0_off315_inb : ∀ k0_t1 : Fin k0_t1_loop.trips, ∀ a, (k0_off315 k0_t1) a + S1x1x16.size a ≤ S6x32x512.size a
  k0_off316_inb : ∀ k0_t1 : Fin k0_t1_loop.trips, ∀ a, (k0_off316 k0_t1) a + S1x1x16.size a ≤ S6x32x512.size a
  k0_off317_inb : ∀ k0_t1 : Fin k0_t1_loop.trips, ∀ a, (k0_off317 k0_t1) a + S1x1x16.size a ≤ S6x32x512.size a
  k0_off318_inb : ∀ k0_t1 : Fin k0_t1_loop.trips, ∀ a, (k0_off318 k0_t1) a + S1x1x16.size a ≤ S6x32x512.size a
  k0_off319_inb : ∀ k0_t1 : Fin k0_t1_loop.trips, ∀ a, (k0_off319 k0_t1) a + S1x1x16.size a ≤ S6x32x512.size a
  k0_off320_inb : ∀ k0_t1 : Fin k0_t1_loop.trips, ∀ a, (k0_off320 k0_t1) a + S1x1x16.size a ≤ S6x32x512.size a
  k0_off321_inb : ∀ k0_t1 : Fin k0_t1_loop.trips, ∀ a, (k0_off321 k0_t1) a + S1x1x16.size a ≤ S6x32x512.size a
  k0_off322_inb : ∀ k0_t1 : Fin k0_t1_loop.trips, ∀ a, (k0_off322 k0_t1) a + S1x1x16.size a ≤ S6x32x512.size a
  k0_off323_inb : ∀ k0_t1 : Fin k0_t1_loop.trips, ∀ a, (k0_off323 k0_t1) a + S1x1x16.size a ≤ S6x32x512.size a
  k0_off324_inb : ∀ k0_t1 : Fin k0_t1_loop.trips, ∀ a, (k0_off324 k0_t1) a + S1x1x16.size a ≤ S6x32x512.size a
  k0_off325_inb : ∀ k0_t1 : Fin k0_t1_loop.trips, ∀ a, (k0_off325 k0_t1) a + S1x1x16.size a ≤ S6x32x512.size a
  k0_off326_inb : ∀ k0_t1 : Fin k0_t1_loop.trips, ∀ a, (k0_off326 k0_t1) a + S1x1x16.size a ≤ S6x32x512.size a
  k0_off327_inb : ∀ k0_t1 : Fin k0_t1_loop.trips, ∀ a, (k0_off327 k0_t1) a + S1x1x16.size a ≤ S6x32x512.size a
  k0_off328_inb : ∀ k0_t1 : Fin k0_t1_loop.trips, ∀ a, (k0_off328 k0_t1) a + S1x1x16.size a ≤ S6x32x512.size a
  k0_off329_inb : ∀ (i : grid0.Coords) (k0_t1 : Fin k0_t1_loop.trips), ∀ (k0_h31 : k0_cond31 k0_t1 = 1#1), ∀ (k0_h32 : k0_cond32 i = 1#1), ∀ a, (k0_off329 i) a + S8x512.size a ≤ S65536x512.size a
  k0_off330_inb : ∀ (i : grid0.Coords) (k0_t1 : Fin k0_t1_loop.trips), ∀ (k0_h46 : k0_cond46 k0_t1 = 1#1), ∀ a, (k0_off330 i k0_t1) a + S32x512.size a ≤ S65536x512.size a
  k0_off331_inb : ∀ (i : grid0.Coords) (k0_t1 : Fin k0_t1_loop.trips), ∀ (k0_h47 : k0_cond47 k0_t1 = 1#1), ∀ a, (k0_off331 i k0_t1) a + S32x512.size a ≤ S65536x512.size a
  k0_off332_inb : ∀ (i : grid0.Coords) (k0_t1 : Fin k0_t1_loop.trips), ∀ (k0_h48 : k0_cond48 k0_t1 = 1#1), ∀ a, (k0_off332 i k0_t1) a + S32x512.size a ≤ S65536x512.size a
  k0_off333_inb : ∀ (i : grid0.Coords) (k0_t1 : Fin k0_t1_loop.trips), ∀ (k0_h49 : k0_cond49 k0_t1 = 1#1), ∀ a, (k0_off333 i k0_t1) a + S32x512.size a ≤ S65536x512.size a
  k0_off334_inb : ∀ (i : grid0.Coords) (k0_t1 : Fin k0_t1_loop.trips), ∀ (k0_h50 : k0_cond50 k0_t1 = 1#1), ∀ a, (k0_off334 i k0_t1) a + S32x512.size a ≤ S65536x512.size a
  k0_off335_inb : ∀ (i : grid0.Coords) (k0_t1 : Fin k0_t1_loop.trips), ∀ (k0_h51 : k0_cond51 k0_t1 = 1#1), ∀ a, (k0_off335 i k0_t1) a + S32x512.size a ≤ S65536x512.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scratch12 : DmaSems sig S_ := SemArray.consecutive 9 S_ hcc0_scratch12
abbrev cc0_scratch13 : DmaSems sig S_ := SemArray.consecutive 10 S_ hcc0_scratch13
abbrev cc0_scratch14 : DmaSems sig S_ := SemArray.consecutive 11 S_ hcc0_scratch14
abbrev cc0_scratch15 : DmaSems sig S_ := SemArray.consecutive 12 S_ hcc0_scratch15
abbrev cc0_scratch16 : DmaSems sig S_ := SemArray.consecutive 13 S_ hcc0_scratch16

class Facts : Prop extends Facts₀ where

variable [Facts]
-- ==== ReferenceIdeal.lean ====
abbrev S512 : Shape := ⟨1, ![512]⟩
abbrev S65536x512 : Shape := ⟨2, ![65536, 512]⟩
abbrev S65535x512 : Shape := ⟨2, ![65535, 512]⟩
abbrev S_ : Shape := ⟨0, ![]⟩
abbrev S1 : Shape := ⟨1, ![1]⟩

abbrev nBuf : Space → Nat
  | .hbm => 9
  | .vmem => 0
  | .smem => 0
  | _ => 0

abbrev bufTy : (tb : Table) → Fin (tcTables nBuf tb) → BufTy
  | .hbm, ⟨0, _⟩ => ⟨S512, .f32⟩
  | .hbm, ⟨1, _⟩ => ⟨S65536x512, .f32⟩
  | .hbm, ⟨2, _⟩ => ⟨S65535x512, .f32⟩
  | .hbm, ⟨3, _⟩ => ⟨S_, .i32⟩
  | .hbm, ⟨4, _⟩ => ⟨S1, .i32⟩
  | .hbm, ⟨5, _⟩ => ⟨S65536x512, .f32⟩
  | .hbm, ⟨6, _⟩ => ⟨S_, .i32⟩
  | .hbm, ⟨7, _⟩ => ⟨S1, .i32⟩
  | .hbm, ⟨8, _⟩ => ⟨S65536x512, .f32⟩
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  slices_S65536x512_S65535x512_1_0 : S65536x512.Slices ![1, 0] S65535x512
  bcast_S_S1 : S_.BroadcastsInDim S1 (![] : Fin 0 → Fin S1.rank)
  scatter_S65536x512_S1_S65535x512_01_n_0_0_wf : ScatterDims.WF S65536x512 S1 S65535x512 [0, 1] [] [0] 0
  scatter_S65536x512_S1_S512_0_0_0_0_wf : ScatterDims.WF S65536x512 S1 S512 [0] [0] [0] 0

variable [Facts₀]

def scatter_S65536x512_S1_S65535x512_01_n_0_0 : ScatterDims S65536x512 S1 S65535x512 where
  updateWindowDims := [0, 1]
  insertedWindowDims := []
  scatterDimsToOperandDims := [0]
  indexVectorDim := 0
  wf := scatter_S65536x512_S1_S65535x512_01_n_0_0_wf
def scatter_S65536x512_S1_S512_0_0_0_0 : ScatterDims S65536x512 S1 S512 where
  updateWindowDims := [0]
  insertedWindowDims := [0]
  scatterDimsToOperandDims := [0]
  indexVectorDim := 0
  wf := scatter_S65536x512_S1_S512_0_0_0_0_wf

class Facts : Prop extends Facts₀ where

variable [Facts]
-- ==== Proof.Spec.lean ====
/-
  The function both programs compute. The result array has 65536 rows of 512 lanes: row `r` of the result is row `r + 1`
  of `mem` for every row but the last, and the last row is the vector `new`. Stated once, over any element type, so that
  the kernel's side (rows moved through scratch memory) and the reference's side (two dynamic-update-slices) are both
  proved equal to it, index by index.
-/
import Idealize.ShloMosaic.Lib.ValueIdx

namespace Cert.Spec

open Idealize.ShloMosaic Idealize.ShloMosaic.ValueIdx

abbrev SVec : Shape := ⟨1, ![512]⟩
abbrev SMat : Shape := ⟨2, ![65536, 512]⟩

/-- Row `r` of the result is row `r + 1` of `mem`; the last row is `new`. -/
def shiftRows {α : Type} (new : SVec.Idx → α) (mem : SMat.Idx → α) : SMat.Idx → α := fun i =>
  if h : (i 0).val + 1 < 65536 then mem (ix2 (⟨(i 0).val + 1, h⟩ : Fin 65536) (i 1)) else new (ix1 (i 1))

theorem shiftRows_of_lt {α : Type} (new : SVec.Idx → α) (mem : SMat.Idx → α) (i : SMat.Idx) (h : (i 0).val + 1 < 65536) :
    shiftRows new mem i = mem (ix2 (⟨(i 0).val + 1, h⟩ : Fin 65536) (i 1)) := dif_pos h

theorem shiftRows_last {α : Type} (new : SVec.Idx → α) (mem : SMat.Idx → α) (i : SMat.Idx) (h : ¬ (i 0).val + 1 < 65536) :
    shiftRows new mem i = new (ix1 (i 1)) := dif_neg h

end Cert.Spec
-- ==== Proof.RefValue.lean ====
/-
  The reference side of the value claim. The reference program takes a vector `new` of 512 lanes and an array `mem`
  of 65536 rows of 512 lanes, and writes twice into `mem`: rows 1 .. 65535 over rows 0 .. 65534 (a scatter of the
  65535-row slice at row 0), then `new` over the last row (a scatter of one row at row 65535). Read index by index,
  the result is `Cert.Spec.shiftRows new mem`: row `r` is row `r + 1` of `mem` for every row but the last, and the
  last row is `new`.

  A scatter is a left fold of pointwise overwrites over the update's indices. Read at ONE index `i` the fold is decided
  by the update indices that land on `i`: when all of them carry one value `v`, and either one of them exists or the
  operand already holds `v` at `i`, the result at `i` is `v` (`foldl_set_apply`, `scatter_set_apply`). An update
  index lands on `i` exactly when, axis by axis, its window's start plus its window coordinate is `i`'s coordinate
  (`resultIdx?_eq_some_iff`); for the two scatters here that is "the same row and lane" (`lands_rows`) and "row 65535,
  the same lane" (`lands_last`).
-/
import proofs.«213455_g39170101740086_cont_8to1_b_302_25_alg».proof.Proof.Gen.ReferenceIdeal.Run
import proofs.«213455_g39170101740086_cont_8to1_b_302_25_alg».proof.Proof.Gen.ReferenceIdeal.Read
import proofs.«213455_g39170101740086_cont_8to1_b_302_25_alg».proof.Proof.Spec
import Idealize.ShloMosaic.PureOps
import Idealize.ShloMosaic.Lib.ValueIdx

noncomputable section

namespace Cert.RefValue

open Idealize.ShloMosaic Idealize.ShloMosaic.ValueIdx Idealize.ShloMosaic.TcCoe Idealize.SL.Sem
open Cert.ReferenceIdeal Cert.ReferenceIdeal.Gen

/-! ## A scatter that overwrites, read at one index -/

section Fold
variable {α : Type} {s si u : Shape} {w : Nat}

/-- The left fold of pointwise overwrites, read at one index `i`: every update that lands on `i` carries the value `v`,
    and either some update lands on `i` or the array already holds `v` there. -/
theorem foldl_set_apply (g : Fin u.numel → Option s.Idx) (upd : Fin u.numel → α) (i : s.Idx) (v : α) :
    ∀ (l : List (Fin u.numel)) (r : s.Idx → α), (∀ n ∈ l, g n = some i → upd n = v) → ((∃ n ∈ l, g n = some i) ∨ r i = v) →
      (l.foldl (fun r n => match g n with
        | some k => fun i' => if i' = k then (fun _ b => b) (r k) (upd n) else r i'
        | none => r) r) i = v := by
  intro l
  induction l with
  | nil =>
    intro r _ h
    rcases h with ⟨n, hn, _⟩ | h
    · cases hn
    · exact h
  | cons a t ih =>
    intro r hv h
    rw [List.foldl_cons]
    apply ih
    · intro n hn; exact hv n (List.mem_cons_of_mem _ hn)
    · cases hga : g a with
      | none =>
        rcases h with ⟨n, hn, hgn⟩ | h
        · rcases List.mem_cons.1 hn with rfl | hn
          · rw [hga] at hgn; cases hgn
          · exact Or.inl ⟨n, hn, hgn⟩
        · exact Or.inr h
      | some k =>
        by_cases hk : i = k
        · right
          subst hk
          show (if i = i then upd a else r i) = v
          rw [if_pos rfl]
          exact hv a (List.mem_cons_self ..) hga
        · rcases h with ⟨n, hn, hgn⟩ | h
          · rcases List.mem_cons.1 hn with rfl | hn
            · rw [hga] at hgn; exact absurd (Option.some.inj hgn).symm hk
            · exact Or.inl ⟨n, hn, hgn⟩
          · right
            show (if i = k then upd a else r i) = v
            rw [if_neg hk]; exact h

/-- A scatter whose body returns the update, read at one index `i`: every update index landing on `i` carries `v`,
    and either one does land there or the operand holds `v` at `i`. -/
theorem scatter_set_apply (d : ScatterDims s si u) (x : s.Idx → α) (idx : IVec si w) (upd : u.Idx → α) (i : s.Idx) (v : α)
    (hv : ∀ j, d.resultIdx? j idx = some i → upd j = v)
    (h : (∃ j, d.resultIdx? j idx = some i) ∨ x i = v) :
    Host.scatter d (fun _ b => b) x idx upd i = v := by
  unfold Host.scatter
  refine foldl_set_apply (fun n => d.resultIdx? (u.rowMajor.symm n) idx) (fun n => upd (u.rowMajor.symm n)) i v _ x
    (fun n _ hn => hv _ hn) (h.imp (fun ⟨j, hj⟩ => ⟨u.rowMajor j, List.mem_finRange _, ?_⟩) id)
  show d.resultIdx? (u.rowMajor.symm (u.rowMajor j)) idx = some i
  rw [Equiv.symm_apply_apply]; exact hj

/-- An update index lands on `i` exactly when, on every axis, its window's start plus its window coordinate is `i`'s
    coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := Option.some.inj e
      subst e'
      show _ = ((Int.toNat _ : Nat) : Int)
      rw [Int.toNat_of_nonneg (h a).1]
    · intro H
      congr 1
      funext a
      apply Fin.ext
      show Int.toNat _ = (i a).val
      rw [H a]; exact Int.toNat_natCast _
  · rename_i h
    constructor
    · intro e; cases e
    · intro H
      exfalso; apply h; intro a
      rw [H a]
      exact ⟨Int.natCast_nonneg _, by exact_mod_cast (i a).isLt⟩

end Fold

/-! ## Where the two scatters' updates land -/

/-- Every update index of the first scatter (65535 rows written from row 0 on) lands on its own row and lane. -/
theorem lands_rows (j : S65535x512.Idx) (idx : IVec S1 32) (h0 : ∀ k, idx k = 0#32) (i : S65536x512.Idx) :
    (scatter_S65536x512_S1_S65535x512_01_n_0_0).resultIdx? j idx = some i ↔ (i 0).val = (j 0).val ∧ (i 1).val = (j 1).val := by
  rw [resultIdx?_eq_some_iff]
  have s0 : (scatter_S65536x512_S1_S65535x512_01_n_0_0).start j idx 0 = 0 := by
    unfold ScatterDims.start; simp [scatter_S65536x512_S1_S65535x512_01_n_0_0, h0]
  have s1 : (scatter_S65536x512_S1_S65535x512_01_n_0_0).start j idx 1 = 0 := by
    unfold ScatterDims.start; simp [scatter_S65536x512_S1_S65535x512_01_n_0_0]
  have w0 : (scatter_S65536x512_S1_S65535x512_01_n_0_0).window j 0 = (j 0).val := rfl
  have w1 : (scatter_S65536x512_S1_S65535x512_01_n_0_0).window j 1 = (j 1).val := rfl
  constructor
  · intro H
    have H0 := H 0; have H1 := H 1
    rw [s0, w0] at H0; rw [s1, w1] at H1
    constructor <;> omega
  · intro ⟨H0, H1⟩ a
    match a with
    | ⟨0, _⟩ =>
      show (scatter_S65536x512_S1_S65535x512_01_n_0_0).start j idx 0 + ((scatter_S65536x512_S1_S65535x512_01_n_0_0).window j 0 : Int) = ((i 0).val : Int)
      rw [s0, w0]; omega
    | ⟨1, _⟩ =>
      show (scatter_S65536x512_S1_S65535x512_01_n_0_0).start j idx 1 + ((scatter_S65536x512_S1_S65535x512_01_n_0_0).window j 1 : Int) = ((i 1).val : Int)
      rw [s1, w1]; omega

/-- Every update index of the second scatter (one row written at row 65535) lands on row 65535 at its own lane. -/
theorem lands_last (j : S512.Idx) (idx : IVec S1 32) (h0 : ∀ k, idx k = 65535#32) (i : S65536x512.Idx) :
    (scatter_S65536x512_S1_S512_0_0_0_0).resultIdx? j idx = some i ↔ (i 0).val = 65535 ∧ (i 1).val = (j 0).val := by
  rw [resultIdx?_eq_some_iff]
  have s0 : (scatter_S65536x512_S1_S512_0_0_0_0).start j idx 0 = 65535 := by
    unfold ScatterDims.start; simp [scatter_S65536x512_S1_S512_0_0_0_0, h0]
  have s1 : (scatter_S65536x512_S1_S512_0_0_0_0).start j idx 1 = 0 := by
    unfold ScatterDims.start; simp [scatter_S65536x512_S1_S512_0_0_0_0]
  have w0 : (scatter_S65536x512_S1_S512_0_0_0_0).window j 0 = 0 := rfl
  have w1 : (scatter_S65536x512_S1_S512_0_0_0_0).window j 1 = (j 0).val := rfl
  constructor
  · intro H
    have H0 := H 0; have H1 := H 1
    rw [s0, w0] at H0; rw [s1, w1] at H1
    constructor <;> omega
  · intro ⟨H0, H1⟩ a
    match a with
    | ⟨0, _⟩ =>
      show (scatter_S65536x512_S1_S512_0_0_0_0).start j idx 0 + ((scatter_S65536x512_S1_S512_0_0_0_0).window j 0 : Int) = ((i 0).val : Int)
      rw [s0, w0]; omega
    | ⟨1, _⟩ =>
      show (scatter_S65536x512_S1_S512_0_0_0_0).start j idx 1 + ((scatter_S65536x512_S1_S512_0_0_0_0).window j 1 : Int) = ((i 1).val : Int)
      rw [s1, w1]; omega

/-! ## The two scatters at an index -/

/-- The first scatter read at an index: a row below 65535 holds the update's row, the last row the operand's. -/
theorem scatter_rows_apply {α : Type} (x : S65536x512.Idx → α) (idx : IVec S1 32) (h0 : ∀ k, idx k = 0#32)
    (upd : S65535x512.Idx → α) (i : S65536x512.Idx) :
    Host.scatter scatter_S65536x512_S1_S65535x512_01_n_0_0 (fun _ b => b) x idx upd i
      = if h : (i 0).val < 65535 then upd (ix2 (⟨(i 0).val, h⟩ : Fin 65535) (i 1)) else x i := by
  apply scatter_set_apply
  · intro j hj
    rw [lands_rows j idx h0 i] at hj
    have hlt : (i 0).val < 65535 := by rw [hj.1]; exact idx2_lt0 j
    rw [dif_pos hlt]
    refine congrArg upd (funext fun a => ?_)
    match a with
    | ⟨0, _⟩ => exact Fin.ext hj.1.symm
    | ⟨1, _⟩ => exact Fin.ext hj.2.symm
  · by_cases h : (i 0).val < 65535
    · left
      exact ⟨ix2 (⟨(i 0).val, h⟩ : Fin 65535) (i 1), (lands_rows _ idx h0 i).2 ⟨rfl, rfl⟩⟩
    · right; rw [dif_neg h]

/-- The second scatter read at an index: row 65535 holds the update, every other row the operand's. -/
theorem scatter_last_apply {α : Type} (x : S65536x512.Idx → α) (idx : IVec S1 32) (h0 : ∀ k, idx k = 65535#32)
    (upd : S512.Idx → α) (i : S65536x512.Idx) :
    Host.scatter scatter_S65536x512_S1_S512_0_0_0_0 (fun _ b => b) x idx upd i
      = if (i 0).val = 65535 then upd (ix1 (i 1)) else x i := by
  apply scatter_set_apply
  · intro j hj
    rw [lands_last j idx h0 i] at hj
    rw [if_pos hj.1]
    refine congrArg upd (funext fun a => ?_)
    match a with
    | ⟨0, _⟩ => exact Fin.ext hj.2.symm
  · by_cases h : (i 0).val = 65535
    · left
      exact ⟨ix1 (i 1), (lands_last _ idx h0 i).2 ⟨h, rfl⟩⟩
    · right; rw [if_neg h]

/-! ## The reference's result -/

variable {F : FTy → Type} [FloatOps F]

/-- The reference's result term is the specification. -/
theorem ref_term_eq (new : (⟨S512, .f32⟩ : BufTy).Contents (Elt F)) (mem : (⟨S65536x512, .f32⟩ : BufTy).Contents (Elt F)) :
    Host.scatter scatter_S65536x512_S1_S512_0_0_0_0 (fun _ b => b) (Host.scatter scatter_S65536x512_S1_S65535x512_01_n_0_0 (fun _ b => b) (mem) (broadcastInDim S1 ![] bcast_S_S1 (constantI S_ 32 0#32)) (extractStridedSlice S65535x512 ![1, 0] (mem) slices_S65536x512_S65535x512_1_0)) (broadcastInDim S1 ![] bcast_S_S1 (constantI S_ 32 65535#32)) (new)
      = Cert.Spec.shiftRows new mem := by
  funext i
  rw [scatter_last_apply _ (broadcastInDim S1 ![] bcast_S_S1 (constantI S_ 32 65535#32)) (fun _ => rfl),
    scatter_rows_apply _ (broadcastInDim S1 ![] bcast_S_S1 (constantI S_ 32 0#32)) (fun _ => rfl)]
  have hi : (i 0).val < 65536 := idx2_lt0 i
  by_cases h : (i 0).val + 1 < 65536
  · rw [Cert.Spec.shiftRows_of_lt _ _ _ h, if_neg (by omega), dif_pos (by omega)]
    unfold extractStridedSlice
    refine congrArg mem (funext fun a => ?_)
    match a with
    | ⟨0, _⟩ => exact Fin.ext (by show 1 + (i 0).val = (i 0).val + 1; omega)
    | ⟨1, _⟩ => exact Fin.ext (by show 0 + (i 1).val = (i 1).val; omega)
  · rw [Cert.Spec.shiftRows_last _ _ _ h, if_pos (by omega)]

/-- The reference's run: every weakly fair execution terminates with the result at `shiftRows` of the arguments, the
    arguments unchanged. -/
theorem ref_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v4) = Cert.Spec.shiftRows (m ((c.tc : Thread _ _).loc Cert.ReferenceIdeal.main_arg0)) (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run Cert.ReferenceIdeal.defs _ _).mono (fun _ h c => ⟨(h c).1.trans (ref_term_eq _ _), (h c).2⟩)
    (Cert.ReferenceIdeal.Value.run (F := Ideal) m g)

end Cert.RefValue

end
-- ==== Proof.IdealCommon.lean ====
/-
  Shared vocabulary for the certificate of the row-shifting kernel. Thirty-two vector subcores (two SparseCores of sixteen)
  each own a band of 2048 consecutive rows of the 65536-row result: subcore `s` of SparseCore `c` is worker `2 s + c` and
  owns rows `2048 (2 s + c) … 2048 (2 s + c) + 2047`. A worker reads its own band of `mem`, the first row of the next
  band (or `new`, for the last worker), and writes its band of the result. Here: the program as the launch theorem
  sees it, the resource algebra (the handshakes' rounds beside transfer counters), the arrays' locations, the bands, the
  read shares of the two inputs (one per worker), what the call hands each worker and takes back, and the statement of
  one worker's task, which the launch consumes and the body proves.
-/
import proofs.«213455_g39170101740086_cont_8to1_b_302_25_alg».proof.KernelIdeal
import proofs.«213455_g39170101740086_cont_8to1_b_302_25_alg».proof.Proof.Gen.KernelIdeal
import proofs.«213455_g39170101740086_cont_8to1_b_302_25_alg».proof.Proof.Spec
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Proof.IdealK

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, the bands, the shares -/

variable (m : (ℓ : Loc nD τ sig) → Buf (Elt F) ℓ)

/-- `new` and `mem` (the arguments) and the result, as locations of device `d`. -/
abbrev nLoc (d : Dev nD) : Loc nD τ sig := (SparseCore.T d).loc main_arg0
abbrev mLoc (d : Dev nD) : Loc nD τ sig := (SparseCore.T d).loc main_arg1
abbrev oLoc (d : Dev nD) : Loc nD τ sig := (SparseCore.T d).loc main_v0

/-- Worker number of subcore `s` of SparseCore `c`. -/
def widOf (c : Fin 2) (s : Fin 16) : Fin 32 := ⟨2 * s.val + c.val, by omega⟩

theorem hdiv32 : 32 ∣ S65536x512.size 0 := ⟨2048, rfl⟩
/-- Worker `w`'s band of rows. -/
abbrev band (w : Fin 32) : Rect S65536x512 := Rect.part (s := S65536x512) (a₀ := 0) hdiv32 w
abbrev bandSet (w : Fin 32) : Finset S65536x512.Idx :=
  ((Memref.whole main_v0_scv : Memref sig .scVector .hbm S65536x512 .f32).view.slice (band w)).set

/-- Worker `w`'s read share of an input array: the `w`-th of thirty-two tokens of the full share. -/
abbrev qW (w : Fin 32) : PosShare TreeShare := Transfers.shareTok fullShare 32 w

/-- The result both programs compute, from the launch contents of the two arguments. -/
def Gout (d : Dev nD) : Buf (Elt F) (oLoc d) := Cert.Spec.shiftRows (m (nLoc d)) (m (mLoc d))

/-- What worker `w` holds: a read share of each input at its launch contents, and its band of the result at `f`. -/
def tilePay (d : Dev nD) (w : Fin 32) (f : Buf (Elt F) (oLoc d)) : sProp 𝕄 :=
  iprop((nLoc d ↦{qW w} m (nLoc d)) ∗ (mLoc d ↦{qW w} m (mLoc d)) ∗ oLoc d ↦[bandSet w]{fullShare} f)

/-- The call hands SparseCore `c` the sixteen workers' holdings (the result at its launch contents) and takes them back with
    the result at `Gout`; each subcore's task gets and returns its own. -/
def P : (K (F := F)).Pay (nD := nD) (Val := Elt F) (Name := ℕ) (U := UU) where
  st := fun q d c => match q with
    | 0 => bigSep Finset.univ fun s : Fin 16 => tilePay m d (widOf (Fin.cast nCore_zero c) s) (m (oLoc d))
  dn := fun q d c => match q with
    | 0 => bigSep Finset.univ fun s : Fin 16 => tilePay m d (widOf (Fin.cast nCore_zero c) s) (Gout m d)
  go := fun q d c i => match q with
    | 0 => tilePay m d (widOf (Fin.cast nCore_zero c) (Fin.cast nSub_zero i)) (m (oLoc d))
  td := fun q d c i => match q with
    | 0 => tilePay m d (widOf (Fin.cast nCore_zero c) (Fin.cast nSub_zero i)) (Gout m d)
  x := fun _ _ => iprop(emp)

instance P_storable : (P (F := F) m).IsStorable where
  st q d c := match q with
    | 0 => by unfold P tilePay; dsimp only; infer_instance
  dn q d c := match q with
    | 0 => by unfold P tilePay; dsimp only; infer_instance
  go q d c i := match q with
    | 0 => by unfold P tilePay; dsimp only; infer_instance
  td q d c i := match q with
    | 0 => by unfold P tilePay; dsimp only; infer_instance

/-! ## One worker's task -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number at grid coordinates `L`. -/
def wL (L : grid0.Coords) : Fin 32 := widOf (Fin.cast bound_zero (L 0)) (Fin.cast bound_one (L 1))

-- the kernel's memrefs, spelt as the body table passes them
abbrev nW : Memref sig .scVector .hbm S512 .f32 := Memref.whole main_arg0_scv
abbrev mW : Memref sig .scVector .hbm S65536x512 .f32 := Memref.whole main_arg1_scv
abbrev oW : Memref sig .scVector .hbm S65536x512 .f32 := Memref.whole main_v0_scv
abbrev bufW : Memref sig .scVector .vmem S6x32x512 .f32 := Memref.whole cc0_scratch0
abbrev bbW : Memref sig .scVector .vmem S8x512 .f32 := Memref.whole cc0_scratch1
abbrev nbW : Memref sig .scVector .vmem S512 .f32 := Memref.whole cc0_scratch2

variable [FloatOps F]

/-- The kernel function at grid coordinates `L`, on the arrays and scratch the body table passes it. -/
abbrev bodyAt (L : grid0.Coords) :=
  cc0__shift_body (F := F) L nW (Memref.isWhole_whole _) mW (Memref.isWhole_whole _) oW (Memref.isWhole_whole _)
    bufW (Memref.isWhole_whole _) bbW (Memref.isWhole_whole _) nbW (Memref.isWhole_whole _)
    cc0_scratch3 cc0_scratch4 cc0_scratch5 cc0_scratch6 cc0_scratch7 cc0_scratch8 cc0_scratch9 cc0_scratch10 cc0_scratch11
    cc0_scratch12 cc0_scratch13 cc0_scratch14 cc0_scratch15 cc0_scratch16

/-- One worker's task: from its holdings, its scratch and its semaphores at zero, whatever it owes the launch, the kernel
    function runs to its end and leaves the worker's band of the result at `Gout`, the read shares as they were, the scratch
    at some contents and the semaphores at zero again. -/
def TileBody : Prop :=
  ∀ (d : Dev nD) (L : grid0.Coords) (_ : (K (F := F)).Facts) (O : CellTallies nD τ sig (HIx 1)) (W : Waits sig (HIx 1)) (_ : ∀ g, O g none = 0),
    iprop(levAts (K (F := F)).L (K (F := F)).lev ∗ emp ∗ tilePay m d (wL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyAt (F := F) L)
          fun _ => iprop(tilePay m d (wL L) (Gout m d) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.IdealK

end
-- ==== Proof.IdealLaunch.lean ====
/-
  The launch of the row-shifting kernel, for any float instance. The program's @main is one SparseCore call and a
  return. From the three arrays the TensorCore holds whole at the launch — the two inputs and the result — the call is fed:
  each input's full share is cut into thirty-two read tokens (and a remainder, which stays with the TensorCore across the
  call), the result into its thirty-two bands of 2048 rows; the thirty-two workers' holdings are regrouped as two
  SparseCores of sixteen subcores along worker = 2 * subcore + core, which is a bijection. Each subcore's task is the one
  task statement at its grid point. When the call returns every band is held at the one function Gout, so the bands join
  into the result whole at Gout (an equation), the read tokens join into the inputs whole at their launch contents, and the
  final memory is read off: the result is Gout and the inputs are unchanged, on every device.
-/
import proofs.«213455_g39170101740086_cont_8to1_b_302_25_alg».proof.Proof.IdealCommon

noncomputable section

namespace Cert.Proof.IdealK

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## Workers as pairs (SparseCore, subcore) -/

/-- Worker numbers are the pairs (SparseCore, subcore), each exactly once: `w = 2 s + c` with `c = w mod 2`, `s = w div 2`. -/
def widEquiv : Fin 2 × Fin 16 ≃ Fin 32 where
  toFun p := widOf p.1 p.2
  invFun w := (⟨w.val % 2, Nat.mod_lt _ (by decide)⟩, ⟨w.val / 2, by have := w.isLt; omega⟩)
  left_inv := by
    rintro ⟨c, s⟩
    have hc := c.isLt
    have hs := s.isLt
    refine Prod.ext (Fin.ext ?_) (Fin.ext ?_)
    · show (2 * s.val + c.val) % 2 = c.val
      omega
    · show (2 * s.val + c.val) / 2 = s.val
      omega
  right_inv := by
    intro w
    refine Fin.ext ?_
    show 2 * (w.val / 2) + w.val % 2 = w.val
    omega

/-- A product over the thirty-two workers is one over the two SparseCores of one over the sixteen subcores. -/
theorem bigSep_workers (Φ : Fin 32 → sProp 𝕄) :
    bigSep Finset.univ Φ = bigSep Finset.univ fun c : Fin 2 => bigSep Finset.univ fun s : Fin 16 => Φ (widOf c s) :=
  (bigSep_univ_equiv widEquiv Φ).trans (bigSep_univ_prod fun p : Fin 2 × Fin 16 => Φ (widEquiv p))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## What the handshakes carry, as equations -/

theorem P_st (d : Dev nD) (c : Fin ((K (F := F)).nCore 0)) :
    (P m).st 0 d c = bigSep Finset.univ fun s : Fin 16 => tilePay m d (widOf (Fin.cast nCore_zero c) s) (m (oLoc d)) := rfl
theorem P_dn (d : Dev nD) (c : Fin ((K (F := F)).nCore 0)) :
    (P m).dn 0 d c = bigSep Finset.univ fun s : Fin 16 => tilePay m d (widOf (Fin.cast nCore_zero c) s) (Gout m d) := rfl
theorem P_go (d : Dev nD) (c : Fin ((K (F := F)).nCore 0)) (i : Fin ((K (F := F)).nSub 0)) :
    (P m).go 0 d c i = tilePay m d (widOf (Fin.cast nCore_zero c) (Fin.cast nSub_zero i)) (m (oLoc d)) := rfl
theorem P_td (d : Dev nD) (c : Fin ((K (F := F)).nCore 0)) (i : Fin ((K (F := F)).nSub 0)) :
    (P m).td 0 d c i = tilePay m d (widOf (Fin.cast nCore_zero c) (Fin.cast nSub_zero i)) (Gout m d) := rfl
theorem P_x (q : Fin 1) (thr : Thread nD τ) : (P m).x q thr = iprop(emp) := rfl

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of subcore `i` of SparseCore `c`: the one task statement at the grid point `(c, i)`, whose worker number is
    the one the call's payloads name. -/
theorem tileObl (hbody : TileBody (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) facts O W hO).trans (wp_mono frame _ _ fun _ => obl_post)

/-- A SparseCore's holdings are by definition its sixteen subcores' holdings: the split is the identity. -/
theorem vecSplit : (K (F := F)).VecSplit' (P m) 0 := by
  intro d c
  rw [P_st, P_dn]
  simp only [P_go, P_td]
  rw [bigSep_tasks (F := F) (fun s => tilePay m d (widOf (Fin.cast nCore_zero c) s) (m (oLoc d))),
    bigSep_tasks (F := F) (fun s => tilePay m d (widOf (Fin.cast nCore_zero c) s) (Gout m d))]
  iintro H; imodintro
  isplitl [H]; · iexact H
  iintro H; iexact H

/-! ## The launch element: the handshakes' rounds; the transfers' counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays whole, and the thirty-two workers' holdings -/

omit [FloatOps F] in
theorem unscopedBufs_eq (d : Dev nD) (W : (b : Ref sig .tc) → Buf (Elt F) ((d.tc : Thread nD τ).loc b)) :
    (unscopedBufs d W : sProp 𝕄) = iprop((nLoc d ↦{fullShare} W main_arg0) ∗ (mLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
theorem bandSet_eq (w : Fin 32) : bandSet w = (band w).set := by
  show ((View.whole (main_v0_scv : Ref sig .scVector)).slice (band w)).set = _
  rw [View.set_slice]; exact Finset.map_refl
omit [FloatOps F] in
/-- The bands are pairwise disjoint -/
theorem bands_disjoint : ∀ i ∈ (Finset.univ : Finset (Fin 32)), ∀ j ∈ (Finset.univ : Finset (Fin 32)), i ≠ j → Disjoint (bandSet i) (bandSet j) :=
  fun i _ j _ h => by rw [bandSet_eq, bandSet_eq]; exact Rect.part_disjoint hdiv32 h
omit [FloatOps F] in
/-- and cover the result. -/
theorem bands_cover : (Finset.univ : Finset (Fin 32)).biUnion bandSet = Finset.univ :=
  (Finset.biUnion_congr rfl fun i _ => bandSet_eq i).trans (Rect.biUnion_part hdiv32)

omit [FloatOps F] in
/-- The result whole at `f` is its thirty-two bands at `f`. -/
theorem oPts_bands (d : Dev nD) (f : Buf (Elt F) (oLoc d)) :
    (oLoc d ↦{fullShare} f : sProp 𝕄) = bigSep Finset.univ fun w : Fin 32 => oLoc d ↦[bandSet w]{fullShare} f := by
  rw [← pointsTo_biUnion Finset.univ (ℓ := oLoc d) bandSet bands_disjoint, bands_cover]; try rfl

omit [FloatOps F] in
/-- The thirty-two workers' holdings with the result at `f`: the read tokens of the two inputs and the result whole at `f`. -/
theorem workers_eq (d : Dev nD) (f : Buf (Elt F) (oLoc d)) :
    (bigSep Finset.univ fun w : Fin 32 => tilePay m d w f)
      = iprop((bigSep Finset.univ fun w : Fin 32 => nLoc d ↦{qW w} m (nLoc d)) ∗ (bigSep Finset.univ fun w : Fin 32 => mLoc d ↦{qW w} m (mLoc d))
          ∗ oLoc d ↦{fullShare} f) := by
  unfold tilePay
  rw [bigSep_sep', bigSep_sep', ← oPts_bands d f]

/-- What stays with the TensorCore across the call: what remains of the two inputs' full shares after thirty-two tokens. -/
abbrev rem (d : Dev nD) : sProp 𝕄 :=
  iprop((nLoc d ↦{Transfers.shareDrop fullShare 32} m (nLoc d)) ∗ mLoc d ↦{Transfers.shareDrop fullShare 32} m (mLoc d))

omit [FloatOps F] in
/-- The three arrays whole, the result at `f`, deal every subcore of every SparseCore its holdings; the remainders stay. -/
theorem deal_out (d : Dev nD) (f : Buf (Elt F) (oLoc d)) :
    iprop((nLoc d ↦{fullShare} m (nLoc d)) ∗ (mLoc d ↦{fullShare} m (mLoc d)) ∗ oLoc d ↦{fullShare} f)
      ⊢ iprop(rem m d ∗ bigSep Finset.univ fun c : Fin 2 => bigSep Finset.univ fun s : Fin 16 => tilePay m d (widOf c s) f) := by
  rw [← bigSep_workers (fun w => tilePay m d w f), workers_eq]
  iintro ⟨Hn, Hm, Ho⟩
  ihave Hn' := (Transfers.pointsTo_toks_split fullShare 32) $$ Hn
  ihave Hm' := (Transfers.pointsTo_toks_split fullShare 32) $$ Hm
  icases Hn' with ⟨Hnd, Hnt⟩
  icases Hm' with ⟨Hmd, Hmt⟩
  isplitl [Hnd Hmd]
  · isplitl [Hnd]; · iexact Hnd
    iexact Hmd
  isplitl [Hnt]; · iexact Hnt
  isplitl [Hmt]; · iexact Hmt
  iexact Ho

omit [FloatOps F] in
/-- With the remainders, every subcore's holdings, the result at the one function `f`, are the three arrays whole. -/
theorem deal_in (d : Dev nD) (f : Buf (Elt F) (oLoc d)) :
    iprop(rem m d ∗ bigSep Finset.univ fun c : Fin 2 => bigSep Finset.univ fun s : Fin 16 => tilePay m d (widOf c s) f)
      ⊢ iprop((nLoc d ↦{fullShare} m (nLoc d)) ∗ (mLoc d ↦{fullShare} m (mLoc d)) ∗ oLoc d ↦{fullShare} f) := by
  rw [← bigSep_workers (fun w => tilePay m d w f), workers_eq]
  iintro ⟨⟨Hnd, Hmd⟩, Hnt, Hmt, Ho⟩
  isplitl [Hnd Hnt]
  · iapply (Transfers.pointsTo_toks_join fullShare 32)
    isplitl [Hnd]; · iexact Hnd
    iexact Hnt
  isplitl [Hmd Hmt]
  · iapply (Transfers.pointsTo_toks_join fullShare 32)
    isplitl [Hmd]; · iexact Hmd
    iexact Hmt
  iexact Ho

omit [FloatOps F] in
theorem st0_eq (d : Dev nD) :
    (bigSep Finset.univ fun c : Fin ((K (F := F)).nCore 0) => (P m).st 0 d c)
      = bigSep Finset.univ fun c : Fin 2 => bigSep Finset.univ fun s : Fin 16 => tilePay m d (widOf c s) (m (oLoc d)) := by
  simp only [P_st]
  exact bigSep_cores (F := F) (fun c => bigSep Finset.univ fun s : Fin 16 => tilePay m d (widOf c s) (m (oLoc d)))
omit [FloatOps F] in
theorem dn0_eq (d : Dev nD) :
    (bigSep Finset.univ fun c : Fin ((K (F := F)).nCore 0) => (P m).dn 0 d c)
      = bigSep Finset.univ fun c : Fin 2 => bigSep Finset.univ fun s : Fin 16 => tilePay m d (widOf c s) (Gout m d) := by
  simp only [P_dn]
  exact bigSep_cores (F := F) (fun c => bigSep Finset.univ fun s : Fin 16 => tilePay m d (widOf c s) (Gout m d))

/-! ## @main on the TensorCore -/

/-- What @main leaves the claim: the result whole at `Gout`, the two inputs whole at their launch contents. -/
abbrev FIN (d : Dev nD) : sProp 𝕄 :=
  iprop((oLoc d ↦{fullShare} Gout m d) ∗ (nLoc d ↦{fullShare} m (nLoc d)) ∗ mLoc d ↦{fullShare} m (mLoc d))

/-- @main on device `d`'s TensorCore: the one call, fed from the three arrays, which come back whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Harr, -, -⟩, -⟩
  ihave Hd := (deal_out m d (m (oLoc d))) $$ Harr
  icases Hd with ⟨Hrem, Hw⟩
  iapply ((K (F := F)).wp_run (D (F := F)) 𝒱 (EH := EH) (P := P m) κ d 0) $$ [Hst Hw Hrem]
  isplitr; · iexact Hctx
  isplitl [Hst]; · iexact Hst
  isplitl [Hw]
  · rw [st0_eq]; iexact Hw
  iintro ⟨Hst, Hdn⟩
  ihave Hdn' := (Entails.of_eq (dn0_eq m d)) $$ Hdn
  ihave Hall := (deal_in m d (Gout m d)) $$ [Hrem Hdn']
  · isplitl [Hrem]; · iexact Hrem
    iexact Hdn'
  icases Hall with ⟨Hn, Hm, Ho⟩
  imodintro
  isplitl [Hst]; · iexact Hst
  isplitl [Ho]; · iexact Ho
  isplitl [Hn]; · iexact Hn
  iexact Hm

def fq (d : Dev nD) (s' : Phys nD τ sig (Elt F)) : Prop :=
  s'.mem.mem (oLoc d) = Gout m d ∧ s'.mem.mem (nLoc d) = m (nLoc d) ∧ s'.mem.mem (mLoc d) = m (mLoc d)

theorem hfin (d : Dev nD) (s' : Phys nD τ sig (Elt F)) : iprop(FIN m d ∗ SI s') ⊢ (⌜fq m d s'⌝ : sProp 𝕄) := by
  iintro ⟨⟨Ho, Hn, Hm⟩, HSI⟩
  ihave H := (persistent_entails_right (SI_pointsTo_agree (st := s') (ℓ := oLoc d) (I := Finset.univ) (q := fullShare) (f := Gout m d))) $$ [HSI Ho]
  · isplitl [HSI] <;> iassumption
  icases H with ⟨%h0, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h1, HSI, -⟩
  ihave H := (SI_pointsTo_agree (st := s') (ℓ := mLoc d) (I := Finset.univ) (q := fullShare) (f := m (mLoc d))) $$ [HSI Hm]
  · isplitl [HSI] <;> iassumption
  icases H with %h2
  ipureintro
  exact ⟨funext fun i => h0 i (Finset.mem_univ i), funext fun i => h1 i (Finset.mem_univ i), funext fun i => h2 i (Finset.mem_univ i)⟩

/-! ## The program's run -/

def QC : PUnit × MemSt nD τ sig (Elt F) → Prop := fun r => ∀ c : Dev nD, r.2.mem (oLoc c) = Gout m c ∧ r.2.mem (nLoc c) = m (nLoc c) ∧ r.2.mem (mLoc c) = m (mLoc c)

theorem run_main [∀ e, Nonempty (Elt F e)] (hbody : TileBody (F := F) m) : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.IdealK

end
-- ==== Proof.IdealOwn.lean ====
/-
  A vector subcore's own semaphores and scratch buffers, taken apart: the fourteen DMA semaphores of the kernel (six for
  the row blocks coming in, six for the row blocks going out, one for the boundary rows, one for the new row), each at
  zero, and the three scratch buffers (the six-slot ring of 32-row blocks, the eight boundary rows, the new row), each at
  some contents; and whatever else the subcore owns, kept folded.
-/
import proofs.«213455_g39170101740086_cont_8to1_b_302_25_alg».proof.Proof.IdealCommon

noncomputable section

namespace Cert.Proof.IdealK

open Cert.KernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-- What the subcore owns beyond the kernel's fourteen semaphores. -/
abbrev restCells : Finset (GSem nD τ sig) := (((((((((((((((ownCells (V d (cV L) (jV L))).erase ((V d (cV L) (jV L), .dma cc0_scratch3.sem) : GSem nD τ sig)).erase ((V d (cV L) (jV L), .dma cc0_scratch4.sem) : GSem nD τ sig)).erase ((V d (cV L) (jV L), .dma cc0_scratch5.sem) : GSem nD τ sig)).erase ((V d (cV L) (jV L), .dma cc0_scratch6.sem) : GSem nD τ sig)).erase ((V d (cV L) (jV L), .dma cc0_scratch7.sem) : GSem nD τ sig)).erase ((V d (cV L) (jV L), .dma cc0_scratch8.sem) : GSem nD τ sig)).erase ((V d (cV L) (jV L), .dma cc0_scratch9.sem) : GSem nD τ sig)).erase ((V d (cV L) (jV L), .dma cc0_scratch10.sem) : GSem nD τ sig)).erase ((V d (cV L) (jV L), .dma cc0_scratch11.sem) : GSem nD τ sig)).erase ((V d (cV L) (jV L), .dma cc0_scratch12.sem) : GSem nD τ sig)).erase ((V d (cV L) (jV L), .dma cc0_scratch13.sem) : GSem nD τ sig)).erase ((V d (cV L) (jV L), .dma cc0_scratch14.sem) : GSem nD τ sig)).erase ((V d (cV L) (jV L), .dma cc0_scratch15.sem) : GSem nD τ sig)).erase ((V d (cV L) (jV L), .dma cc0_scratch16.sem) : GSem nD τ sig))

/-- The subcore's own semaphores at zero are the kernel's fourteen, each at zero, and the rest. -/
theorem ownSems0_V :
    (ownSems0 (V d (cV L) (jV L)) : sProp 𝕄)
      = iprop(semVal ((V d (cV L) (jV L), .dma cc0_scratch3.sem) : GSem nD τ sig) 0
          ∗ semVal ((V d (cV L) (jV L), .dma cc0_scratch4.sem) : GSem nD τ sig) 0
          ∗ semVal ((V d (cV L) (jV L), .dma cc0_scratch5.sem) : GSem nD τ sig) 0
          ∗ semVal ((V d (cV L) (jV L), .dma cc0_scratch6.sem) : GSem nD τ sig) 0
          ∗ semVal ((V d (cV L) (jV L), .dma cc0_scratch7.sem) : GSem nD τ sig) 0
          ∗ semVal ((V d (cV L) (jV L), .dma cc0_scratch8.sem) : GSem nD τ sig) 0
          ∗ semVal ((V d (cV L) (jV L), .dma cc0_scratch9.sem) : GSem nD τ sig) 0
          ∗ semVal ((V d (cV L) (jV L), .dma cc0_scratch10.sem) : GSem nD τ sig) 0
          ∗ semVal ((V d (cV L) (jV L), .dma cc0_scratch11.sem) : GSem nD τ sig) 0
          ∗ semVal ((V d (cV L) (jV L), .dma cc0_scratch12.sem) : GSem nD τ sig) 0
          ∗ semVal ((V d (cV L) (jV L), .dma cc0_scratch13.sem) : GSem nD τ sig) 0
          ∗ semVal ((V d (cV L) (jV L), .dma cc0_scratch14.sem) : GSem nD τ sig) 0
          ∗ semVal ((V d (cV L) (jV L), .dma cc0_scratch15.sem) : GSem nD τ sig) 0
          ∗ semVal ((V d (cV L) (jV L), .dma cc0_scratch16.sem) : GSem nD τ sig) 0
          ∗ bigSep (restCells d L) fun g => semVal g 0) := by
  unfold SparseCore.Cfg.ownSems0 restCells
  rw [SparseCore.bigSep_erase' ((mem_ownCells (g := ((V d (cV L) (jV L), .dma cc0_scratch3.sem) : GSem nD τ sig))).mpr ⟨rfl, by show (SemLoc.dma cc0_scratch3.sem : SemLoc sig).isScoped .scVector = true; decide⟩),
    SparseCore.bigSep_erase' (Finset.mem_erase.mpr ⟨fun e => absurd (Prod.mk.inj e).2 (by decide), (mem_ownCells (g := ((V d (cV L) (jV L), .dma cc0_scratch4.sem) : GSem nD τ sig))).mpr ⟨rfl, by show (SemLoc.dma cc0_scratch4.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := ((V d (cV L) (jV L), .dma cc0_scratch5.sem) : GSem nD τ sig))).mpr ⟨rfl, by show (SemLoc.dma cc0_scratch5.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch6.sem) : GSem nD τ sig))).mpr ⟨rfl, by show (SemLoc.dma cc0_scratch6.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch7.sem) : GSem nD τ sig))).mpr ⟨rfl, by show (SemLoc.dma cc0_scratch7.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch8.sem) : GSem nD τ sig))).mpr ⟨rfl, by show (SemLoc.dma cc0_scratch8.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch9.sem) : GSem nD τ sig))).mpr ⟨rfl, by show (SemLoc.dma cc0_scratch9.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch10.sem) : GSem nD τ sig))).mpr ⟨rfl, by show (SemLoc.dma cc0_scratch10.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch11.sem) : GSem nD τ sig))).mpr ⟨rfl, by show (SemLoc.dma cc0_scratch11.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch12.sem) : GSem nD τ sig))).mpr ⟨rfl, by show (SemLoc.dma cc0_scratch12.sem : SemLoc sig).isScoped .scVector = true; decide⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch13.sem) : GSem nD τ sig))).mpr ⟨rfl, by show (SemLoc.dma cc0_scratch13.sem : SemLoc sig).isScoped .scVector = true; decide⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch14.sem) : GSem nD τ sig))).mpr ⟨rfl, by show (SemLoc.dma cc0_scratch14.sem : SemLoc sig).isScoped .scVector = true; decide⟩⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch15.sem) : GSem nD τ sig))).mpr ⟨rfl, by show (SemLoc.dma cc0_scratch15.sem : SemLoc sig).isScoped .scVector = true; decide⟩⟩⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch16.sem) : GSem nD τ sig))).mpr ⟨rfl, by show (SemLoc.dma cc0_scratch16.sem : SemLoc sig).isScoped .scVector = true; decide⟩⟩⟩⟩⟩⟩⟩⟩⟩⟩⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Cert.Proof.IdealK

end
-- ==== Proof.IdealChunks.lean ====
/-
  A worker's band of rows, chunk by chunk. Worker `w = 2 s + c` (subcore `s` of SparseCore `c`) owns rows
  `2048 w … 2048 w + 2047` of the 65536-row result and moves them in sixty-four chunks of 32 rows: chunk `k` is the
  unit-stride box at row `4096 s + 2048 c + 32 k = 2048 w + 32 k`, all 512 lanes. Here: the chunk as a rectangle and as a
  slice of the result and of `mem`; the band held at some contents is its sixty-four chunks held one by one (the chunks are
  pairwise disjoint and cover the band); where entry `(r, l)` of a chunk sits in the array; and the six rectangles by which
  the kernel names the outgoing chunk (one per ring slot, their offsets computed on 32-bit words) are this one.
-/
import proofs.«213455_g39170101740086_cont_8to1_b_302_25_alg».proof.Proof.IdealOwn
import proofs.«213455_g39170101740086_cont_8to1_b_302_25_alg».proof.Proof.Gen.KernelIdeal

noncomputable section

namespace Cert.Proof.IdealK

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The chunks -/

/-- The vector subcore at grid coordinates `L`, as a thread of device `d`. -/
abbrev thr (d : Dev nD) (L : grid0.Coords) : Thread nD τ := V d (cV L) (jV L)

/-- Where chunk `c` of the worker at `L` begins: row `4096 s + 2048 c₀ + 32 c`, lane 0. -/
abbrev chOff (L : grid0.Coords) (c : ℕ) : Fin 2 → ℕ := ![4096 * (L 1).val + 2048 * (L 0).val + 32 * c, 0]

theorem L0_lt (L : grid0.Coords) : (L 0).val < 2 := (L 0).isLt
theorem L1_lt (L : grid0.Coords) : (L 1).val < 16 := (L 1).isLt

/-- The sixty-four chunks lie inside the array. -/
theorem chOff_inb (L : grid0.Coords) (c : Fin 64) : ∀ a, chOff L c.val a + S32x512.size a ≤ S65536x512.size a := by
  have h0 := L0_lt L; have h1 := L1_lt L; have hc := c.isLt
  exact Rect.inb₂ (by show 4096 * (L 1).val + 2048 * (L 0).val + 32 * c.val + 32 ≤ 65536; omega)
    (by show 0 + 512 ≤ 512; omega)

/-- Chunk `c` as a rectangle of the array, -/
abbrev chRect (L : grid0.Coords) (c : Fin 64) : Rect S65536x512 :=
  Rect.unit (s := S65536x512) (chOff L c.val) S32x512.size (chOff_inb L c)
/-- as a slice of the result, -/
abbrev oChunk (L : grid0.Coords) (c : Fin 64) : Memref sig .scVector .hbm S32x512 .f32 := oW.slice (chRect L c) (fun _ => rfl)
/-- and as a slice of `mem`. -/
abbrev mChunk (L : grid0.Coords) (c : Fin 64) : Memref sig .scVector .hbm S32x512 .f32 := mW.slice (chRect L c) (fun _ => rfl)

/-- The worker's number at `L`, as a natural number. -/
theorem wL_val (L : grid0.Coords) : (wL L).val = 2 * (L 1).val + (L 0).val := rfl

/-! ## The band is its chunks -/

/-- The elements under chunk `c` of the result are the chunk's rectangle. -/
theorem oChunk_set (L : grid0.Coords) (c : Fin 64) : (oChunk L c).view.set = (chRect L c).set := by
  show ((View.whole (main_v0_scv : Ref sig .scVector)).slice (chRect L c)).set = _
  rw [View.set_slice]; exact Finset.map_refl

/-- An element lies in a band when its row does. -/
theorem mem_bandSet (w : Fin 32) (i : S65536x512.Idx) : i ∈ bandSet w ↔ 2048 * w.val ≤ (i 0).val ∧ (i 0).val < 2048 * w.val + 2048 := by
  have e : bandSet w = (band w).set := by
    show ((View.whole (main_v0_scv : Ref sig .scVector)).slice (band w)).set = _
    rw [View.set_slice]; exact Finset.map_refl
  rw [e, Rect.mem_set_unit, Fin.forall_fin_two]
  have hi1 : (i 1).val < 512 := (i 1).isLt
  simp only [Shape.partIx, Shape.partSize]
  show (w.val * (65536 / 32) ≤ (i 0).val ∧ (i 0).val < w.val * (65536 / 32) + 65536 / 32) ∧ (0 * 512 ≤ (i 1).val ∧ (i 1).val < 0 * 512 + 512) ↔ _
  omega

/-- An element lies in chunk `c` when its row is one of the chunk's thirty-two. -/
theorem mem_chRect (L : grid0.Coords) (c : Fin 64) (i : S65536x512.Idx) :
    i ∈ (chRect L c).set ↔ 4096 * (L 1).val + 2048 * (L 0).val + 32 * c.val ≤ (i 0).val ∧ (i 0).val < 4096 * (L 1).val + 2048 * (L 0).val + 32 * c.val + 32 := by
  rw [Rect.mem_set_unit, Fin.forall_fin_two]
  have hi1 : (i 1).val < 512 := (i 1).isLt
  show (4096 * (L 1).val + 2048 * (L 0).val + 32 * c.val ≤ (i 0).val ∧ (i 0).val < 4096 * (L 1).val + 2048 * (L 0).val + 32 * c.val + 32) ∧ (0 ≤ (i 1).val ∧ (i 1).val < 0 + 512) ↔ _
  omega

/-- The chunks of one worker are pairwise disjoint -/
theorem chunks_disjoint (L : grid0.Coords) : ∀ i ∈ (Finset.univ : Finset (Fin 64)), ∀ j ∈ (Finset.univ : Finset (Fin 64)), i ≠ j →
    Disjoint (oChunk L i).view.set (oChunk L j).view.set := by
  intro i _ j _ hij
  rw [oChunk_set, oChunk_set, Finset.disjoint_left]
  intro x hx hy
  rw [mem_chRect] at hx hy
  exact hij (Fin.ext (by omega))

/-- and cover its band. -/
theorem chunks_cover (L : grid0.Coords) : (Finset.univ : Finset (Fin 64)).biUnion (fun c => (oChunk L c).view.set) = bandSet (wL L) := by
  ext x
  rw [Finset.mem_biUnion, mem_bandSet, wL_val]
  constructor
  · rintro ⟨c, _, hx⟩
    rw [oChunk_set, mem_chRect] at hx
    have := c.isLt
    omega
  · intro hx
    refine ⟨⟨((x 0).val - (4096 * (L 1).val + 2048 * (L 0).val)) / 32, by omega⟩, Finset.mem_univ _, ?_⟩
    rw [oChunk_set, mem_chRect]
    show 4096 * (L 1).val + 2048 * (L 0).val + 32 * (((x 0).val - (4096 * (L 1).val + 2048 * (L 0).val)) / 32) ≤ (x 0).val ∧ (x 0).val < 4096 * (L 1).val + 2048 * (L 0).val + 32 * (((x 0).val - (4096 * (L 1).val + 2048 * (L 0).val)) / 32) + 32
    omega

/-- The band held at `f` is its sixty-four chunks held one by one at `f`, each by its own slice's elements. -/
theorem band_chunks (d : Dev nD) (L : grid0.Coords) (f : Buf (Elt F) (oLoc d)) :
    (oLoc d ↦[bandSet (wL L)]{fullShare} f : sProp 𝕄)
      = bigSep Finset.univ fun c : Fin 64 => ((oChunk L c).view.loc (thr d L) ↦[(oChunk L c).view.set]{fullShare} f) := by
  show _ = bigSep Finset.univ fun c : Fin 64 => (oLoc d ↦[(oChunk L c).view.set]{fullShare} f)
  rw [← pointsTo_biUnion Finset.univ (ℓ := oLoc d) (fun c : Fin 64 => (oChunk L c).view.set) (chunks_disjoint L), chunks_cover]

/-! ## Where a chunk's entries sit -/

/-- Entry `(r, l)` of chunk `c` of the result sits at row `4096 s + 2048 c₀ + 32 c + r`, lane `l`. -/
theorem oChunk_emb (L : grid0.Coords) (c : Fin 64) (y : S32x512.Idx) :
    ((oChunk L c).view.emb y : S65536x512.Idx)
      = ValueIdx.ix2 (⟨4096 * (L 1).val + 2048 * (L 0).val + 32 * c.val + (y 0).val, by
            have h0 := L0_lt L; have h1 := L1_lt L; have hc := c.isLt; have hy : (y 0).val < 32 := (y 0).isLt; omega⟩ : Fin 65536)
          (⟨(y 1).val, (y 1).isLt⟩ : Fin 512) := by
  funext a
  match a with
  | ⟨0, _⟩ => exact Fin.ext (by show 4096 * (L 1).val + 2048 * (L 0).val + 32 * c.val + 1 * (y 0).val = 4096 * (L 1).val + 2048 * (L 0).val + 32 * c.val + (y 0).val; omega)
  | ⟨1, _⟩ => exact Fin.ext (by show 0 + 1 * (y 1).val = (y 1).val; omega)

/-- The same of chunk `c` of `mem`. -/
theorem mChunk_emb (L : grid0.Coords) (c : Fin 64) (y : S32x512.Idx) :
    ((mChunk L c).view.emb y : S65536x512.Idx)
      = ValueIdx.ix2 (⟨4096 * (L 1).val + 2048 * (L 0).val + 32 * c.val + (y 0).val, by
            have h0 := L0_lt L; have h1 := L1_lt L; have hc := c.isLt; have hy : (y 0).val < 32 := (y 0).isLt; omega⟩ : Fin 65536)
          (⟨(y 1).val, (y 1).isLt⟩ : Fin 512) := by
  funext a
  match a with
  | ⟨0, _⟩ => exact Fin.ext (by show 4096 * (L 1).val + 2048 * (L 0).val + 32 * c.val + 1 * (y 0).val = 4096 * (L 1).val + 2048 * (L 0).val + 32 * c.val + (y 0).val; omega)
  | ⟨1, _⟩ => exact Fin.ext (by show 0 + 1 * (y 1).val = (y 1).val; omega)

/-! ## The kernel's six spellings of the outgoing chunk -/

/-- The loop's trip number as a chunk number. -/
abbrev kCh (k : Fin k0_t1_loop.trips) : Fin 64 := ⟨k.val, Nat.lt_of_lt_of_le k.isLt k0_t1_abs.2.1⟩

/-- Two unit-stride slices of one memref at equal offsets and the same sizes are one memref. -/
theorem slice_unit_congr {κ : Kind} {sp : Space} {s : Shape} {e : EltTy} (mr : Memref sig κ sp s e) {off off' size : Fin s.rank → ℕ}
    (h : off = off') (inb : ∀ a, off a + size a ≤ s.size a) (inb' : ∀ a, off' a + size a ≤ s.size a) :
    (mr.slice (Rect.unit (s := s) off size inb) (fun _ => rfl) : Memref sig κ sp ⟨s.rank, size⟩ e)
      = mr.slice (Rect.unit (s := s) off' size inb') (fun _ => rfl) := by
  subst h; rfl

/-- … and lie over the same elements of the buffer. -/
theorem slice_unit_set_congr {κ : Kind} {sp : Space} {s : Shape} {e : EltTy} (mr : Memref sig κ sp s e) {off off' size : Fin s.rank → ℕ}
    (h : off = off') (inb : ∀ a, off a + size a ≤ s.size a) (inb' : ∀ a, off' a + size a ≤ s.size a) :
    (mr.slice (Rect.unit (s := s) off size inb) (fun _ => rfl)).view.set
      = (mr.slice (Rect.unit (s := s) off' size inb') (fun _ => rfl)).view.set := by
  subst h; rfl

/-- The outgoing chunk as ring slot 0's branch names it. -/
theorem oSlice330 (L : grid0.Coords) (k : Fin k0_t1_loop.trips) (inb : ∀ a, k0_off330 L k a + S32x512.size a ≤ S65536x512.size a) :
    (oW.slice (Rect.unit (s := S65536x512) (k0_off330 L k) S32x512.size inb) (fun _ => rfl) : Memref sig .scVector .hbm S32x512 .f32)
      = oChunk L (kCh k) :=
  slice_unit_congr oW (k0_off330_eq L k) inb (chOff_inb L (kCh k))
theorem oSlice330_set (L : grid0.Coords) (k : Fin k0_t1_loop.trips) (inb : ∀ a, k0_off330 L k a + S32x512.size a ≤ S65536x512.size a) :
    (oW.slice (Rect.unit (s := S65536x512) (k0_off330 L k) S32x512.size inb) (fun _ => rfl)).view.set = (oChunk L (kCh k)).view.set :=
  slice_unit_set_congr oW (k0_off330_eq L k) inb (chOff_inb L (kCh k))
/-- The outgoing chunk as ring slot 1's branch names it. -/
theorem oSlice331 (L : grid0.Coords) (k : Fin k0_t1_loop.trips) (inb : ∀ a, k0_off331 L k a + S32x512.size a ≤ S65536x512.size a) :
    (oW.slice (Rect.unit (s := S65536x512) (k0_off331 L k) S32x512.size inb) (fun _ => rfl) : Memref sig .scVector .hbm S32x512 .f32)
      = oChunk L (kCh k) :=
  slice_unit_congr oW (k0_off331_eq L k) inb (chOff_inb L (kCh k))
theorem oSlice331_set (L : grid0.Coords) (k : Fin k0_t1_loop.trips) (inb : ∀ a, k0_off331 L k a + S32x512.size a ≤ S65536x512.size a) :
    (oW.slice (Rect.unit (s := S65536x512) (k0_off331 L k) S32x512.size inb) (fun _ => rfl)).view.set = (oChunk L (kCh k)).view.set :=
  slice_unit_set_congr oW (k0_off331_eq L k) inb (chOff_inb L (kCh k))
/-- The outgoing chunk as ring slot 2's branch names it. -/
theorem oSlice332 (L : grid0.Coords) (k : Fin k0_t1_loop.trips) (inb : ∀ a, k0_off332 L k a + S32x512.size a ≤ S65536x512.size a) :
    (oW.slice (Rect.unit (s := S65536x512) (k0_off332 L k) S32x512.size inb) (fun _ => rfl) : Memref sig .scVector .hbm S32x512 .f32)
      = oChunk L (kCh k) :=
  slice_unit_congr oW (k0_off332_eq L k) inb (chOff_inb L (kCh k))
theorem oSlice332_set (L : grid0.Coords) (k : Fin k0_t1_loop.trips) (inb : ∀ a, k0_off332 L k a + S32x512.size a ≤ S65536x512.size a) :
    (oW.slice (Rect.unit (s := S65536x512) (k0_off332 L k) S32x512.size inb) (fun _ => rfl)).view.set = (oChunk L (kCh k)).view.set :=
  slice_unit_set_congr oW (k0_off332_eq L k) inb (chOff_inb L (kCh k))
/-- The outgoing chunk as ring slot 3's branch names it. -/
theorem oSlice333 (L : grid0.Coords) (k : Fin k0_t1_loop.trips) (inb : ∀ a, k0_off333 L k a + S32x512.size a ≤ S65536x512.size a) :
    (oW.slice (Rect.unit (s := S65536x512) (k0_off333 L k) S32x512.size inb) (fun _ => rfl) : Memref sig .scVector .hbm S32x512 .f32)
      = oChunk L (kCh k) :=
  slice_unit_congr oW (k0_off333_eq L k) inb (chOff_inb L (kCh k))
theorem oSlice333_set (L : grid0.Coords) (k : Fin k0_t1_loop.trips) (inb : ∀ a, k0_off333 L k a + S32x512.size a ≤ S65536x512.size a) :
    (oW.slice (Rect.unit (s := S65536x512) (k0_off333 L k) S32x512.size inb) (fun _ => rfl)).view.set = (oChunk L (kCh k)).view.set :=
  slice_unit_set_congr oW (k0_off333_eq L k) inb (chOff_inb L (kCh k))
/-- The outgoing chunk as ring slot 4's branch names it. -/
theorem oSlice334 (L : grid0.Coords) (k : Fin k0_t1_loop.trips) (inb : ∀ a, k0_off334 L k a + S32x512.size a ≤ S65536x512.size a) :
    (oW.slice (Rect.unit (s := S65536x512) (k0_off334 L k) S32x512.size inb) (fun _ => rfl) : Memref sig .scVector .hbm S32x512 .f32)
      = oChunk L (kCh k) :=
  slice_unit_congr oW (k0_off334_eq L k) inb (chOff_inb L (kCh k))
theorem oSlice334_set (L : grid0.Coords) (k : Fin k0_t1_loop.trips) (inb : ∀ a, k0_off334 L k a + S32x512.size a ≤ S65536x512.size a) :
    (oW.slice (Rect.unit (s := S65536x512) (k0_off334 L k) S32x512.size inb) (fun _ => rfl)).view.set = (oChunk L (kCh k)).view.set :=
  slice_unit_set_congr oW (k0_off334_eq L k) inb (chOff_inb L (kCh k))
/-- The outgoing chunk as ring slot 5's branch names it. -/
theorem oSlice335 (L : grid0.Coords) (k : Fin k0_t1_loop.trips) (inb : ∀ a, k0_off335 L k a + S32x512.size a ≤ S65536x512.size a) :
    (oW.slice (Rect.unit (s := S65536x512) (k0_off335 L k) S32x512.size inb) (fun _ => rfl) : Memref sig .scVector .hbm S32x512 .f32)
      = oChunk L (kCh k) :=
  slice_unit_congr oW (k0_off335_eq L k) inb (chOff_inb L (kCh k))
theorem oSlice335_set (L : grid0.Coords) (k : Fin k0_t1_loop.trips) (inb : ∀ a, k0_off335 L k a + S32x512.size a ≤ S65536x512.size a) :
    (oW.slice (Rect.unit (s := S65536x512) (k0_off335 L k) S32x512.size inb) (fun _ => rfl)).view.set = (oChunk L (kCh k)).view.set :=
  slice_unit_set_congr oW (k0_off335_eq L k) inb (chOff_inb L (kCh k))

/-! ## The kernel's spellings of the incoming chunks -/

/-- Before the loop the first four chunks of `mem` are fetched, their offsets computed from the word `32 r`. -/
theorem mSlicePro (L : grid0.Coords) (r : Fin 4) (inb : ∀ a, k0_off2 L (BitVec.ofNat 32 (32 * r.val)) a + S32x512.size a ≤ S65536x512.size a) :
    (mW.slice (Rect.unit (s := S65536x512) (k0_off2 L (BitVec.ofNat 32 (32 * r.val))) S32x512.size inb) (fun _ => rfl) : Memref sig .scVector .hbm S32x512 .f32)
      = mChunk L ⟨r.val, Nat.lt_trans r.isLt (by decide)⟩ :=
  slice_unit_congr mW (k0_off2_eq L r) inb (chOff_inb L ⟨r.val, Nat.lt_trans r.isLt (by decide)⟩)
/-- The same with the word spelt `0#32`, as the kernel passes it: chunk 0. -/
theorem mSlicePro0 (L : grid0.Coords) (inb : ∀ a, k0_off2 L 0#32 a + S32x512.size a ≤ S65536x512.size a) :
    (mW.slice (Rect.unit (s := S65536x512) (k0_off2 L 0#32) S32x512.size inb) (fun _ => rfl) : Memref sig .scVector .hbm S32x512 .f32)
      = mChunk L 0 :=
  mSlicePro L 0 inb
/-- The same with the word spelt `32#32`, as the kernel passes it: chunk 1. -/
theorem mSlicePro1 (L : grid0.Coords) (inb : ∀ a, k0_off2 L 32#32 a + S32x512.size a ≤ S65536x512.size a) :
    (mW.slice (Rect.unit (s := S65536x512) (k0_off2 L 32#32) S32x512.size inb) (fun _ => rfl) : Memref sig .scVector .hbm S32x512 .f32)
      = mChunk L 1 :=
  mSlicePro L 1 inb
/-- The same with the word spelt `64#32`, as the kernel passes it: chunk 2. -/
theorem mSlicePro2 (L : grid0.Coords) (inb : ∀ a, k0_off2 L 64#32 a + S32x512.size a ≤ S65536x512.size a) :
    (mW.slice (Rect.unit (s := S65536x512) (k0_off2 L 64#32) S32x512.size inb) (fun _ => rfl) : Memref sig .scVector .hbm S32x512 .f32)
      = mChunk L 2 :=
  mSlicePro L 2 inb
/-- The same with the word spelt `96#32`, as the kernel passes it: chunk 3. -/
theorem mSlicePro3 (L : grid0.Coords) (inb : ∀ a, k0_off2 L 96#32 a + S32x512.size a ≤ S65536x512.size a) :
    (mW.slice (Rect.unit (s := S65536x512) (k0_off2 L 96#32) S32x512.size inb) (fun _ => rfl) : Memref sig .scVector .hbm S32x512 .f32)
      = mChunk L 3 :=
  mSlicePro L 3 inb

/-- Chunk `k + 4` begins 128 rows after chunk `k`. -/
theorem chOff_add4 (L : grid0.Coords) (k : ℕ) :
    (![4096 * (L 1).val + 2048 * (L 0).val + 32 * k + 128, 0] : Fin 2 → ℕ) = chOff L (k + 4) :=
  congrArg (fun x : ℕ => (![x, 0] : Fin 2 → ℕ)) (by omega)

/-- In trip `k` of the loop chunk `k + 4` of `mem` is fetched; ring slot 0's branch names it so. -/
theorem mSlice3 (L : grid0.Coords) (k : Fin k0_t1_loop.trips) (h4 : k.val + 4 < 64) (inb : ∀ a, k0_off3 L k a + S32x512.size a ≤ S65536x512.size a) :
    (mW.slice (Rect.unit (s := S65536x512) (k0_off3 L k) S32x512.size inb) (fun _ => rfl) : Memref sig .scVector .hbm S32x512 .f32)
      = mChunk L ⟨k.val + 4, h4⟩ :=
  slice_unit_congr mW ((k0_off3_eq L k).trans (chOff_add4 L k.val)) inb (chOff_inb L ⟨k.val + 4, h4⟩)
/-- In trip `k` of the loop chunk `k + 4` of `mem` is fetched; ring slot 1's branch names it so. -/
theorem mSlice4 (L : grid0.Coords) (k : Fin k0_t1_loop.trips) (h4 : k.val + 4 < 64) (inb : ∀ a, k0_off4 L k a + S32x512.size a ≤ S65536x512.size a) :
    (mW.slice (Rect.unit (s := S65536x512) (k0_off4 L k) S32x512.size inb) (fun _ => rfl) : Memref sig .scVector .hbm S32x512 .f32)
      = mChunk L ⟨k.val + 4, h4⟩ :=
  slice_unit_congr mW ((k0_off4_eq L k).trans (chOff_add4 L k.val)) inb (chOff_inb L ⟨k.val + 4, h4⟩)
/-- In trip `k` of the loop chunk `k + 4` of `mem` is fetched; ring slot 2's branch names it so. -/
theorem mSlice5 (L : grid0.Coords) (k : Fin k0_t1_loop.trips) (h4 : k.val + 4 < 64) (inb : ∀ a, k0_off5 L k a + S32x512.size a ≤ S65536x512.size a) :
    (mW.slice (Rect.unit (s := S65536x512) (k0_off5 L k) S32x512.size inb) (fun _ => rfl) : Memref sig .scVector .hbm S32x512 .f32)
      = mChunk L ⟨k.val + 4, h4⟩ :=
  slice_unit_congr mW ((k0_off5_eq L k).trans (chOff_add4 L k.val)) inb (chOff_inb L ⟨k.val + 4, h4⟩)
/-- In trip `k` of the loop chunk `k + 4` of `mem` is fetched; ring slot 3's branch names it so. -/
theorem mSlice6 (L : grid0.Coords) (k : Fin k0_t1_loop.trips) (h4 : k.val + 4 < 64) (inb : ∀ a, k0_off6 L k a + S32x512.size a ≤ S65536x512.size a) :
    (mW.slice (Rect.unit (s := S65536x512) (k0_off6 L k) S32x512.size inb) (fun _ => rfl) : Memref sig .scVector .hbm S32x512 .f32)
      = mChunk L ⟨k.val + 4, h4⟩ :=
  slice_unit_congr mW ((k0_off6_eq L k).trans (chOff_add4 L k.val)) inb (chOff_inb L ⟨k.val + 4, h4⟩)
/-- In trip `k` of the loop chunk `k + 4` of `mem` is fetched; ring slot 4's branch names it so. -/
theorem mSlice7 (L : grid0.Coords) (k : Fin k0_t1_loop.trips) (h4 : k.val + 4 < 64) (inb : ∀ a, k0_off7 L k a + S32x512.size a ≤ S65536x512.size a) :
    (mW.slice (Rect.unit (s := S65536x512) (k0_off7 L k) S32x512.size inb) (fun _ => rfl) : Memref sig .scVector .hbm S32x512 .f32)
      = mChunk L ⟨k.val + 4, h4⟩ :=
  slice_unit_congr mW ((k0_off7_eq L k).trans (chOff_add4 L k.val)) inb (chOff_inb L ⟨k.val + 4, h4⟩)
/-- In trip `k` of the loop chunk `k + 4` of `mem` is fetched; ring slot 5's branch names it so. -/
theorem mSlice8 (L : grid0.Coords) (k : Fin k0_t1_loop.trips) (h4 : k.val + 4 < 64) (inb : ∀ a, k0_off8 L k a + S32x512.size a ≤ S65536x512.size a) :
    (mW.slice (Rect.unit (s := S65536x512) (k0_off8 L k) S32x512.size inb) (fun _ => rfl) : Memref sig .scVector .hbm S32x512 .f32)
      = mChunk L ⟨k.val + 4, h4⟩ :=
  slice_unit_congr mW ((k0_off8_eq L k).trans (chOff_add4 L k.val)) inb (chOff_inb L ⟨k.val + 4, h4⟩)

/-! ## The boundary rows -/

/-- The eight rows of `mem` fetched for the band's last row: they begin at row `min (2048 (w + 1)) 65528`. -/
abbrev bRows (L : grid0.Coords) (inb : ∀ a, k0_off1 L a + S8x512.size a ≤ S65536x512.size a) : Memref sig .scVector .hbm S8x512 .f32 :=
  mW.slice (Rect.unit (s := S65536x512) (k0_off1 L) S8x512.size inb) (fun _ => rfl)

/-- Where entry `y` of a unit-stride slice of `mem` at offsets `off` sits: coordinate by coordinate, the offset plus `y`'s. -/
theorem mSliceUnit_emb_val (off size : Fin 2 → ℕ) (inb : ∀ a, off a + size a ≤ S65536x512.size a) (y : (⟨2, size⟩ : Shape).Idx) (a : Fin 2) :
    (((mW.slice (Rect.unit (s := S65536x512) off size inb) (fun _ => rfl)).view.emb y : S65536x512.Idx) a).val = off a + (y a).val := by
  show off a + 1 * (y a).val = _
  omega

/-- For every worker but the last the eight rows begin at the next worker's band: entry `(r, l)` sits at row
    `2048 (w + 1) + r`, lane `l`; row 0 is the first row of the next band. -/
theorem bRows_emb (L : grid0.Coords) (inb : ∀ a, k0_off1 L a + S8x512.size a ≤ S65536x512.size a) (hw : (wL L).val < 31) (y : S8x512.Idx) :
    ((bRows L inb).view.emb y : S65536x512.Idx)
      = ValueIdx.ix2 (⟨2048 * ((wL L).val + 1) + (y 0).val, by have hy : (y 0).val < 8 := (y 0).isLt; omega⟩ : Fin 65536)
          (⟨(y 1).val, (y 1).isLt⟩ : Fin 512) := by
  have e0 : k0_off1 L 0 = min (4096 * (L 1).val + 2048 * (L 0).val + 2048) 65528 := congrFun (k0_off1_eq L) 0
  have e1 : k0_off1 L 1 = 0 := congrFun (k0_off1_eq L) 1
  have hwv := wL_val L
  funext a
  match a with
  | ⟨0, _⟩ =>
    refine Fin.ext ((mSliceUnit_emb_val (k0_off1 L) S8x512.size inb y 0).trans ?_)
    rw [e0]
    show min (4096 * (L 1).val + 2048 * (L 0).val + 2048) 65528 + (y 0).val = 2048 * ((wL L).val + 1) + (y 0).val
    omega
  | ⟨1, _⟩ =>
    refine Fin.ext ((mSliceUnit_emb_val (k0_off1 L) S8x512.size inb y 1).trans ?_)
    rw [e1]
    show 0 + (y 1).val = (y 1).val
    omega

end Cert.Proof.IdealK

end
-- ==== Proof.IdealSlots.lean ====
/-
  The scratch ring of six 32-row blocks, slot by slot: the 6 x 32 x 512 scratch buffer held whole is the same as its six
  slots held one by one, each slot being the unit-stride box of one index along the first axis (rows and lanes whole),
  squeezed to 32 x 512. The slots are spelt as the kernel slices them.
-/
import proofs.«213455_g39170101740086_cont_8to1_b_302_25_alg».proof.Proof.IdealOwn

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev slotM0 : Memref sig .scVector .vmem S32x512 .f32 :=
  (bufW.slice (Rect.unit (s := S6x32x512) ![0, 0, 0] S1x32x512.size inb_S6x32x512_S1x32x512_0_0_0) (fun _ => rfl)).squeeze S32x512 squeezes_S1x32x512_S32x512
abbrev slotM1 : Memref sig .scVector .vmem S32x512 .f32 :=
  (bufW.slice (Rect.unit (s := S6x32x512) ![1, 0, 0] S1x32x512.size inb_S6x32x512_S1x32x512_1_0_0) (fun _ => rfl)).squeeze S32x512 squeezes_S1x32x512_S32x512
abbrev slotM2 : Memref sig .scVector .vmem S32x512 .f32 :=
  (bufW.slice (Rect.unit (s := S6x32x512) ![2, 0, 0] S1x32x512.size inb_S6x32x512_S1x32x512_2_0_0) (fun _ => rfl)).squeeze S32x512 squeezes_S1x32x512_S32x512
abbrev slotM3 : Memref sig .scVector .vmem S32x512 .f32 :=
  (bufW.slice (Rect.unit (s := S6x32x512) ![3, 0, 0] S1x32x512.size inb_S6x32x512_S1x32x512_3_0_0) (fun _ => rfl)).squeeze S32x512 squeezes_S1x32x512_S32x512
abbrev slotM4 : Memref sig .scVector .vmem S32x512 .f32 :=
  (bufW.slice (Rect.unit (s := S6x32x512) ![4, 0, 0] S1x32x512.size inb_S6x32x512_S1x32x512_4_0_0) (fun _ => rfl)).squeeze S32x512 squeezes_S1x32x512_S32x512
abbrev slotM5 : Memref sig .scVector .vmem S32x512 .f32 :=
  (bufW.slice (Rect.unit (s := S6x32x512) ![5, 0, 0] S1x32x512.size inb_S6x32x512_S1x32x512_5_0_0) (fun _ => rfl)).squeeze S32x512 squeezes_S1x32x512_S32x512

/-! ## The six slots are the six parts of the first axis -/

theorem hdiv6 : 6 ∣ S6x32x512.size 0 := ⟨1, rfl⟩
/-- Part `i` of the scratch ring along its first axis: index `i`, all rows, all lanes. -/
abbrev slotPart (i : Fin 6) : Rect S6x32x512 := Rect.part (s := S6x32x512) (a₀ := 0) hdiv6 i

/-- A part's offsets are `(i, 0, 0)` and its sizes `(1, 32, 512)`. -/
theorem part_off : ∀ (i : Fin 6) (a : Fin 3), S6x32x512.partIx 0 i.val a * S6x32x512.partSize 0 6 a = (![i.val, 0, 0] : Fin 3 → Nat) a := by decide
theorem part_size : ∀ a : Fin 3, S6x32x512.partSize 0 6 a = S1x32x512.size a := by decide

/-- Unit-stride boxes with equal offsets and equal sizes are equal. -/
theorem unit_congr {s : Shape} {off off' size size' : Fin s.rank → Nat} (ho : off = off') (hs : size = size')
    (inb : ∀ a, off a + size a ≤ s.size a) (inb' : ∀ a, off' a + size' a ≤ s.size a) : Rect.unit off size inb = Rect.unit off' size' inb' := by
  subst ho; subst hs; rfl

theorem slotRect_eq (i : Fin 6) (inb : ∀ a, (![i.val, 0, 0] : Fin 3 → Nat) a + S1x32x512.size a ≤ S6x32x512.size a) :
    Rect.unit (s := S6x32x512) ![i.val, 0, 0] S1x32x512.size inb = slotPart i := by
  have ho : (![i.val, 0, 0] : Fin 3 → Nat) = fun a => S6x32x512.partIx 0 i.val a * S6x32x512.partSize 0 6 a := funext fun a => (part_off i a).symm
  have hs : S1x32x512.size = S6x32x512.partSize 0 6 := funext fun a => (part_size a).symm
  show Rect.unit (s := S6x32x512) ![i.val, 0, 0] S1x32x512.size inb
    = Rect.unit (s := S6x32x512) (fun a => S6x32x512.partIx 0 i.val a * S6x32x512.partSize 0 6 a) (S6x32x512.partSize 0 6) _
  exact unit_congr (s := S6x32x512) ho hs inb _

/-- The elements a slot's memref names are those of its part. -/
theorem slot_set (i : Fin 6) (inb : ∀ a, (![i.val, 0, 0] : Fin 3 → Nat) a + S1x32x512.size a ≤ S6x32x512.size a) :
    ((bufW.slice (Rect.unit (s := S6x32x512) ![i.val, 0, 0] S1x32x512.size inb) (fun _ => rfl)).squeeze S32x512 squeezes_S1x32x512_S32x512).view.set
      = (slotPart i).set := by
  have h1 : ((bufW.slice (Rect.unit (s := S6x32x512) ![i.val, 0, 0] S1x32x512.size inb) (fun _ => rfl)).squeeze S32x512 squeezes_S1x32x512_S32x512).view.set
      = ((View.whole (cc0_scratch0 : Ref sig .scVector)).slice (Rect.unit (s := S6x32x512) ![i.val, 0, 0] S1x32x512.size inb)).set :=
    View.set_reshape _ _
  rw [h1, View.set_slice_whole]
  exact congrArg (fun r : Rect S6x32x512 => r.set) (slotRect_eq i inb)

variable (d : Dev nD) (L : grid0.Coords)

/-- The whole scratch ring at contents `f` is its six parts, each at `f`. -/
theorem buf_parts (f : Buf (Elt F) ((V d (cV L) (jV L)).loc cc0_scratch0)) :
    ((V d (cV L) (jV L)).loc cc0_scratch0 ↦{fullShare} f : sProp 𝕄)
      = bigSep Finset.univ fun i : Fin 6 => (V d (cV L) (jV L)).loc cc0_scratch0 ↦[(slotPart i).set]{fullShare} f := by
  rw [← pointsTo_biUnion Finset.univ (ℓ := (V d (cV L) (jV L)).loc cc0_scratch0) (fun i : Fin 6 => (slotPart i).set)
    (fun i _ j _ h => Rect.part_disjoint hdiv6 h), Rect.biUnion_part hdiv6]

/-- The whole scratch ring at contents `f` is its six slots, each at `f`. -/
theorem buf_slots (f : Buf (Elt F) ((V d (cV L) (jV L)).loc cc0_scratch0)) :
    ((V d (cV L) (jV L)).loc cc0_scratch0 ↦{fullShare} f : sProp 𝕄)
      = iprop((slotM0.view.loc (V d (cV L) (jV L)) ↦[slotM0.view.set]{fullShare} f)
          ∗ (slotM1.view.loc (V d (cV L) (jV L)) ↦[slotM1.view.set]{fullShare} f)
          ∗ (slotM2.view.loc (V d (cV L) (jV L)) ↦[slotM2.view.set]{fullShare} f)
          ∗ (slotM3.view.loc (V d (cV L) (jV L)) ↦[slotM3.view.set]{fullShare} f)
          ∗ (slotM4.view.loc (V d (cV L) (jV L)) ↦[slotM4.view.set]{fullShare} f)
          ∗ (slotM5.view.loc (V d (cV L) (jV L)) ↦[slotM5.view.set]{fullShare} f)) := by
  have e0 : slotM0.view.set = (slotPart 0).set := slot_set 0 inb_S6x32x512_S1x32x512_0_0_0
  have e1 : slotM1.view.set = (slotPart 1).set := slot_set 1 inb_S6x32x512_S1x32x512_1_0_0
  have e2 : slotM2.view.set = (slotPart 2).set := slot_set 2 inb_S6x32x512_S1x32x512_2_0_0
  have e3 : slotM3.view.set = (slotPart 3).set := slot_set 3 inb_S6x32x512_S1x32x512_3_0_0
  have e4 : slotM4.view.set = (slotPart 4).set := slot_set 4 inb_S6x32x512_S1x32x512_4_0_0
  have e5 : slotM5.view.set = (slotPart 5).set := slot_set 5 inb_S6x32x512_S1x32x512_5_0_0
  rw [e0, e1, e2, e3, e4, e5, buf_parts d L f, show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]

/-! ## A sixteen-lane box outside a slot -/

/-- A one-row, sixteen-lane box of the scratch ring whose first coordinate is not `i` shares no element with slot `i`:
    the box sits at its own first coordinate, the slot at `i`. -/
theorem box_disj_slot (i : Fin 6) (inbi : ∀ a, (![i.val, 0, 0] : Fin 3 → Nat) a + S1x32x512.size a ≤ S6x32x512.size a)
    (off : Fin 3 → ℕ) (inb : ∀ a, off a + S1x1x16.size a ≤ S6x32x512.size a) (h : off 0 ≠ i.val) :
    Disjoint (bufW.view.setOn (Rect.unit (s := S6x32x512) off S1x1x16.size inb).set)
      ((bufW.slice (Rect.unit (s := S6x32x512) ![i.val, 0, 0] S1x32x512.size inbi) (fun _ => rfl)).squeeze S32x512 squeezes_S1x32x512_S32x512).view.set := by
  have e : bufW.view.setOn (Rect.unit (s := S6x32x512) off S1x1x16.size inb).set = (Rect.unit (s := S6x32x512) off S1x1x16.size inb).set :=
    Finset.map_refl
  rw [e, slot_set i inbi, ← slotRect_eq i inbi]
  refine Rect.unit_disjoint (0 : Fin 3) ?_
  show off 0 + 1 ≤ i.val ∨ i.val + 1 ≤ off 0
  omega

theorem box_disj_slot0 (off : Fin 3 → ℕ) (inb : ∀ a, off a + S1x1x16.size a ≤ S6x32x512.size a) (h : off 0 ≠ 0) :
    Disjoint (bufW.view.setOn (Rect.unit (s := S6x32x512) off S1x1x16.size inb).set) slotM0.view.set :=
  box_disj_slot 0 inb_S6x32x512_S1x32x512_0_0_0 off inb h
theorem box_disj_slot1 (off : Fin 3 → ℕ) (inb : ∀ a, off a + S1x1x16.size a ≤ S6x32x512.size a) (h : off 0 ≠ 1) :
    Disjoint (bufW.view.setOn (Rect.unit (s := S6x32x512) off S1x1x16.size inb).set) slotM1.view.set :=
  box_disj_slot 1 inb_S6x32x512_S1x32x512_1_0_0 off inb h
theorem box_disj_slot2 (off : Fin 3 → ℕ) (inb : ∀ a, off a + S1x1x16.size a ≤ S6x32x512.size a) (h : off 0 ≠ 2) :
    Disjoint (bufW.view.setOn (Rect.unit (s := S6x32x512) off S1x1x16.size inb).set) slotM2.view.set :=
  box_disj_slot 2 inb_S6x32x512_S1x32x512_2_0_0 off inb h
theorem box_disj_slot3 (off : Fin 3 → ℕ) (inb : ∀ a, off a + S1x1x16.size a ≤ S6x32x512.size a) (h : off 0 ≠ 3) :
    Disjoint (bufW.view.setOn (Rect.unit (s := S6x32x512) off S1x1x16.size inb).set) slotM3.view.set :=
  box_disj_slot 3 inb_S6x32x512_S1x32x512_3_0_0 off inb h
theorem box_disj_slot4 (off : Fin 3 → ℕ) (inb : ∀ a, off a + S1x1x16.size a ≤ S6x32x512.size a) (h : off 0 ≠ 4) :
    Disjoint (bufW.view.setOn (Rect.unit (s := S6x32x512) off S1x1x16.size inb).set) slotM4.view.set :=
  box_disj_slot 4 inb_S6x32x512_S1x32x512_4_0_0 off inb h
theorem box_disj_slot5 (off : Fin 3 → ℕ) (inb : ∀ a, off a + S1x1x16.size a ≤ S6x32x512.size a) (h : off 0 ≠ 5) :
    Disjoint (bufW.view.setOn (Rect.unit (s := S6x32x512) off S1x1x16.size inb).set) slotM5.view.set :=
  box_disj_slot 5 inb_S6x32x512_S1x32x512_5_0_0 off inb h

/-- A first coordinate read off a closed form of the offsets. -/
theorem off0_of_closed {off form : Fin 3 → ℕ} (h : off = form) (i : ℕ) (hne : form 0 ≠ i) : off 0 ≠ i := h ▸ hne

end Cert.Proof.IdealK

end
-- ==== Proof.IdealVals.lean ====
/-
  The values the kernel moves, as pure facts about indices. A fetch of chunk `c` delivers the chunk of `mem` read through
  its slice; a ring slot that such a fetch has landed in holds chunk `c` of `mem`, entry by entry. The result `Gout` (row `r`
  is row `r + 1` of `mem`, the last row is `new`), read inside chunk `c` of a worker's band: row `r < 31` of the chunk is
  row `r + 1` of chunk `c` of `mem`; row 31 is row 0 of chunk `c + 1` of `mem` when the band has one, and at the band's last
  chunk it is row 0 of the next worker's band (the first of the eight boundary rows) or, for the last worker, the vector
  `new`. And an outgoing chunk whose contents agree with `Gout` on the chunk is the chunk held at `Gout`.
-/
import proofs.«213455_g39170101740086_cont_8to1_b_302_25_alg».proof.Proof.IdealChunks
import proofs.«213455_g39170101740086_cont_8to1_b_302_25_alg».proof.Proof.IdealSlots

noncomputable section

namespace Cert.Proof.IdealK

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (d : Dev nD) (L : grid0.Coords)

/-! ## What a fetch delivers, and what a landed slot holds -/

/-- What a fetch of chunk `c` delivers: the chunk of `mem` read through its slice. -/
def gpay (c : Fin 64) : S32x512.Idx → Elt F .f32 :=
  ReadAs.same.apply ((mChunk L c).view.read (Elt F) (m (mLoc d)))

/-- Entry `y` of it is `mem` where the chunk's entry `y` sits. -/
theorem gpay_apply (c : Fin 64) (y : S32x512.Idx) : gpay m d L c y = m (mLoc d) ((mChunk L c).view.emb y) := rfl

/-- A 32-row buffer (a slot of the scratch ring) holds chunk `c` of `mem`. -/
def Holds (sM : Memref sig .scVector .vmem S32x512 .f32) (c : Fin 64) (f : sM.view.ty.Contents (Elt F)) : Prop :=
  ∀ y : S32x512.Idx, sM.view.read (Elt F) f y = m (mLoc d) ((mChunk L c).view.emb y)

/-- After a fetch of chunk `c` has landed whole in it, it does, whatever it held before. -/
theorem holds_landed (sM : Memref sig .scVector .vmem S32x512 .f32) (c : Fin 64) (f₀ : sM.view.ty.Contents (Elt F)) :
    Holds m d L sM c (sM.view.writes (Elt F) f₀ [⟨Rect.whole S32x512, gpay m d L c⟩]) := by
  intro y
  have h := View.read_writes_cons_emb (Val := Elt F) sM.view f₀ (Rect.whole S32x512) (gpay m d L c) [] y
  have e : (Rect.whole S32x512).emb y = y := Rect.emb_whole_apply S32x512 y
  rw [e] at h
  exact h.trans (gpay_apply m d L c y)

/-! ## The result inside a chunk -/

/-- The result at row `r`, lane `l`, when row `r + 1` exists: `mem` at row `r + 1`, lane `l`. -/
theorem Gout_at_lt (r : ℕ) (hr : r + 1 < 65536) (l : Fin 512) :
    Gout m d (ValueIdx.ix2 (⟨r, Nat.lt_of_succ_lt hr⟩ : Fin 65536) l) = m (mLoc d) (ValueIdx.ix2 (⟨r + 1, hr⟩ : Fin 65536) l) := by
  unfold Gout
  exact Cert.Spec.shiftRows_of_lt _ _ _ hr

/-- The result at the last row, lane `l`: `new` at lane `l`. -/
theorem Gout_at_last (l : Fin 512) :
    Gout m d (ValueIdx.ix2 (⟨65535, by decide⟩ : Fin 65536) l) = m (nLoc d) (ValueIdx.ix1 l) := by
  unfold Gout
  exact Cert.Spec.shiftRows_last _ _ _ (by show ¬ (65535 + 1 < 65536); omega)

/-- Row `r < 31` of chunk `c` of the result is row `r + 1` of chunk `c` of `mem`. -/
theorem Gout_chunk_lt (c : Fin 64) (y : S32x512.Idx) (h : (y 0).val < 31) :
    Gout m d ((oChunk L c).view.emb y)
      = m (mLoc d) ((mChunk L c).view.emb (ValueIdx.ix2 (⟨(y 0).val + 1, by omega⟩ : Fin 32) (y 1))) := by
  have h0 := L0_lt L; have h1 := L1_lt L; have hc := c.isLt
  rw [oChunk_emb, mChunk_emb]
  refine (Gout_at_lt m d _ (by omega) _).trans (congrArg (m (mLoc d)) (funext fun a => ?_))
  match a with
  | ⟨0, _⟩ => exact Fin.ext (by show 4096 * (L 1).val + 2048 * (L 0).val + 32 * c.val + (y 0).val + 1 = 4096 * (L 1).val + 2048 * (L 0).val + 32 * c.val + ((y 0).val + 1); omega)
  | ⟨1, _⟩ => rfl

/-- Row 31 of chunk `c` of the result is row 0 of chunk `c + 1` of `mem`, when the band has a chunk `c + 1`. -/
theorem Gout_chunk_next (c : Fin 64) (hc : c.val + 1 < 64) (y : S32x512.Idx) (h : (y 0).val = 31) :
    Gout m d ((oChunk L c).view.emb y)
      = m (mLoc d) ((mChunk L ⟨c.val + 1, hc⟩).view.emb (ValueIdx.ix2 (⟨0, by decide⟩ : Fin 32) (y 1))) := by
  have h0 := L0_lt L; have h1 := L1_lt L
  rw [oChunk_emb, mChunk_emb]
  refine (Gout_at_lt m d _ (by omega) _).trans (congrArg (m (mLoc d)) (funext fun a => ?_))
  match a with
  | ⟨0, _⟩ => exact Fin.ext (by show 4096 * (L 1).val + 2048 * (L 0).val + 32 * c.val + (y 0).val + 1 = 4096 * (L 1).val + 2048 * (L 0).val + 32 * (c.val + 1) + 0; omega)
  | ⟨1, _⟩ => rfl

/-- Row 31 of the band's last chunk, for a worker that is not the last: row 0 of the next worker's band, the first of the
    eight boundary rows. -/
theorem Gout_chunk_last_band (c : Fin 64) (hc : c.val = 63) (hw : (wL L).val < 31)
    (inb : ∀ a, k0_off1 L a + S8x512.size a ≤ S65536x512.size a) (y : S32x512.Idx) (h : (y 0).val = 31) :
    Gout m d ((oChunk L c).view.emb y)
      = m (mLoc d) ((bRows L inb).view.emb (ValueIdx.ix2 (⟨0, by decide⟩ : Fin 8) (y 1))) := by
  have h0 := L0_lt L; have h1 := L1_lt L; have hwv := wL_val L
  rw [oChunk_emb, bRows_emb L inb hw]
  refine (Gout_at_lt m d _ (by omega) _).trans (congrArg (m (mLoc d)) (funext fun a => ?_))
  match a with
  | ⟨0, _⟩ => exact Fin.ext (by show 4096 * (L 1).val + 2048 * (L 0).val + 32 * c.val + (y 0).val + 1 = 2048 * ((wL L).val + 1) + 0; omega)
  | ⟨1, _⟩ => rfl

/-- Row 31 of the last worker's last chunk is the last row of the result: the vector `new`. -/
theorem Gout_chunk_last_new (c : Fin 64) (hc : c.val = 63) (hw : (wL L).val = 31) (y : S32x512.Idx) (h : (y 0).val = 31) :
    Gout m d ((oChunk L c).view.emb y) = m (nLoc d) (ValueIdx.ix1 (y 1)) := by
  have h0 := L0_lt L; have h1 := L1_lt L; have hwv := wL_val L
  rw [oChunk_emb]
  refine Eq.trans (congrArg (Gout m d) (funext fun a => ?_)) (Gout_at_last m d (⟨(y 1).val, (y 1).isLt⟩ : Fin 512))
  match a with
  | ⟨0, _⟩ => exact Fin.ext (by show 4096 * (L 1).val + 2048 * (L 0).val + 32 * c.val + (y 0).val = 65535; omega)
  | ⟨1, _⟩ => rfl

/-! ## An outgoing chunk at the result -/

/-- An outgoing chunk whose contents agree with `Gout` on the chunk is the chunk held at `Gout`. -/
theorem out_chunk_congr (c : Fin 64) (g : Buf (Elt F) (oLoc d))
    (h : ∀ y : S32x512.Idx, g ((oChunk L c).view.emb y) = Gout m d ((oChunk L c).view.emb y)) :
    ((oChunk L c).view.loc (thr d L) ↦[(oChunk L c).view.set]{fullShare} g : sProp 𝕄)
      = ((oChunk L c).view.loc (thr d L) ↦[(oChunk L c).view.set]{fullShare} Gout m d) := by
  refine pointsTo_congr fun i hi => ?_
  obtain ⟨y, -, rfl⟩ := Finset.mem_map.1 (show i ∈ Finset.univ.map (oChunk L c).view.emb from hi)
  exact h y

end Cert.Proof.IdealK

end
-- ==== Proof.IdealInv.lean ====
/-
  The main loop's invariant. Chunk c of a worker's 64 chunks lives in slot c mod 6 of the scratch ring. At the start of
  trip k: chunk k has landed in its slot (the slot holds chunk k of mem); the gathers of chunks k+1, k+2, k+3 are in
  flight (each delivering its slot filled with that chunk, and the lent part of its read token of mem); the stores of the
  two chunks before k (and, once the look-ahead has stopped, of every chunk from 58 on) are in flight, each delivering its
  chunk of the result at the result's value and its slot back; the remaining slots are free. The result's chunks: those
  whose store has been waited for are at the result's value, those in flight are away, the rest are untouched.
  Stated once over the six slots in ROTATED order (position i is the slot of chunk k + i), then by the residue of k.
-/
import proofs.«213455_g39170101740086_cont_8to1_b_302_25_alg».proof.Proof.IdealVals

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-- The worker's read token of mem for the transfers completing on DMA semaphore number t. -/
abbrev tokM (t : ℕ) : PosShare TreeShare := Transfers.shareTokN (qW (wL L)) t
/-- That token, whole. -/
def tokWhole (t : ℕ) : sProp 𝕄 := mW.view.loc (thr d L) ↦{tokM L t} m (mLoc d)

section Slot
variable (sM : Memref sig .scVector .vmem S32x512 .f32) (is os : DmaSems sig S_) (t : ℕ)

/-- The slot holds chunk c of mem; both its semaphores at zero, its token whole. -/
def held (c : Fin 64) : sProp 𝕄 :=
  iprop(semVal (thr d L, SemLoc.dma is.sem) 0 ∗ semVal (thr d L, SemLoc.dma os.sem) 0 ∗ tokWhole m d L t
    ∗ ∃ f, ⌜Holds m d L sM c f⌝ ∗ sM.view.loc (thr d L) ↦[sM.view.set]{fullShare} f)
/-- The slot is free. -/
def free : sProp 𝕄 :=
  iprop(semVal (thr d L, SemLoc.dma is.sem) 0 ∗ semVal (thr d L, SemLoc.dma os.sem) 0 ∗ tokWhole m d L t
    ∗ ∃ f, sM.view.loc (thr d L) ↦[sM.view.set]{fullShare} f)
/-- The gather of chunk c into the slot is in flight. -/
def gfl (c : Fin 64) : sProp 𝕄 :=
  iprop(semVal (thr d L, SemLoc.dma os.sem) 0
    ∗ (∃ f₀, Transfers.Flight countersEmb (thr d L) (SemLoc.dma is.sem) (default : HIx 1) 524288
        iprop((sM.view.loc (thr d L) ↦[sM.view.set]{fullShare} sM.view.writes (Elt F) f₀ [⟨Rect.whole S32x512, gpay m d L c⟩])
          ∗ mW.view.loc (thr d L) ↦[(mChunk L c).view.set]{tokM L t} m (mLoc d)))
    ∗ mW.view.loc (thr d L) ↦[Finset.univ \ (mChunk L c).view.set]{tokM L t} m (mLoc d))
/-- The store of chunk c out of the slot is in flight: it delivers the chunk of the result at the result's value and the slot. -/
def sfl (c : Fin 64) : sProp 𝕄 :=
  iprop(semVal (thr d L, SemLoc.dma is.sem) 0 ∗ tokWhole m d L t
    ∗ ∃ f, Transfers.Flight countersEmb (thr d L) (SemLoc.dma os.sem) (default : HIx 1) 524288
        iprop(((oChunk L c).view.loc (thr d L) ↦[(oChunk L c).view.set]{fullShare} Gout m d)
          ∗ sM.view.loc (thr d L) ↦[sM.view.set]{fullShare} f))

/-- Position 0 at trip k: chunk k landed, or (after the loop) the store of chunk k - 6 in flight. -/
def pos0 (k : ℕ) : sProp 𝕄 :=
  if h : k < 64 then held m d L sM is os t ⟨k, h⟩ else if h' : k - 6 < 64 then sfl m d L sM is os t ⟨k - 6, h'⟩ else iprop(False)
/-- Positions 1, 2, 3 at trip k: the gather of chunk k + i in flight, or, past the last chunk, the store of chunk k + i - 6. -/
def posG (k i : ℕ) : sProp 𝕄 :=
  if h : k + i < 64 then gfl m d L sM is os t ⟨k + i, h⟩ else if h' : k + i - 6 < 64 then sfl m d L sM is os t ⟨k + i - 6, h'⟩ else iprop(False)
/-- Positions 4, 5 at trip k (b = 2, 1): the store of chunk k - b in flight, or free before there is one. -/
def posS (k b : ℕ) : sProp 𝕄 :=
  if b ≤ k then (if h : k - b < 64 then sfl m d L sM is os t ⟨k - b, h⟩ else iprop(False)) else free m d L sM is os t
end Slot

/-- The chunks of the result at trip k. -/
def outs (k : ℕ) : sProp 𝕄 :=
  bigSep Finset.univ fun c : Fin 64 =>
    if c.val + 2 < k ∧ c.val < 58 then ((oChunk L c).view.loc (thr d L) ↦[(oChunk L c).view.set]{fullShare} Gout m d)
    else if c.val < k then iprop(emp)
    else ((oChunk L c).view.loc (thr d L) ↦[(oChunk L c).view.set]{fullShare} m (oLoc d))

/-- The invariant over the slots in rotated order. -/
def InvGen (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) : sProp 𝕄 :=
  iprop((∃ W', ⌜∀ p ∈ W', p ∈ W ∨ p.2 = none⌝ ∗ owes (thr d L) O W')
    ∗ pos0 m d L a0 i0 o0 t0 k ∗ posG m d L a1 i1 o1 t1 k 1 ∗ posG m d L a2 i2 o2 t2 k 2 ∗ posG m d L a3 i3 o3 t3 k 3
    ∗ posS m d L a4 i4 o4 t4 k 2 ∗ posS m d L a5 i5 o5 t5 k 1 ∗ outs m d L k)

/-- The invariant at trip k: the rotation is k mod 6. -/
def Inv (O : CellTallies nD τ sig (HIx 1)) (W : Waits sig (HIx 1)) (k : ℕ) : sProp 𝕄 :=
  match k % 6 with
  | 0 => InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k
  | 1 => InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k
  | 2 => InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k
  | 3 => InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k
  | 4 => InvGen m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W k
  | _ => InvGen m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W k

theorem Inv_mod0 (O : CellTallies nD τ sig (HIx 1)) (W : Waits sig (HIx 1)) (k : ℕ) (hk : k % 6 = 0) :
    Inv m d L O W k = InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k := by
  unfold Inv; rw [hk] <;> rfl
theorem Inv_mod1 (O : CellTallies nD τ sig (HIx 1)) (W : Waits sig (HIx 1)) (k : ℕ) (hk : k % 6 = 1) :
    Inv m d L O W k = InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k := by
  unfold Inv; rw [hk] <;> rfl
theorem Inv_mod2 (O : CellTallies nD τ sig (HIx 1)) (W : Waits sig (HIx 1)) (k : ℕ) (hk : k % 6 = 2) :
    Inv m d L O W k = InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k := by
  unfold Inv; rw [hk] <;> rfl
theorem Inv_mod3 (O : CellTallies nD τ sig (HIx 1)) (W : Waits sig (HIx 1)) (k : ℕ) (hk : k % 6 = 3) :
    Inv m d L O W k = InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k := by
  unfold Inv; rw [hk] <;> rfl
theorem Inv_mod4 (O : CellTallies nD τ sig (HIx 1)) (W : Waits sig (HIx 1)) (k : ℕ) (hk : k % 6 = 4) :
    Inv m d L O W k = InvGen m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W k := by
  unfold Inv; rw [hk] <;> rfl
theorem Inv_mod5 (O : CellTallies nD τ sig (HIx 1)) (W : Waits sig (HIx 1)) (k : ℕ) (hk : k % 6 = 5) :
    Inv m d L O W k = InvGen m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W k := by
  unfold Inv; rw [hk] <;> rfl

end Cert.Proof.IdealK

end
-- ==== Proof.IdealOuts.lean ====
/-
  The bookkeeping of the result's sixty-four chunks across the main loop. At the start of trip `k` chunk `c` of the
  worker's band is in one of three states: its store has been waited for and it is held at the result's value (`c + 2 < k`
  and `c < 58`: the look-ahead of trip `k' = c + 2` waited for it, and the look-ahead stops at trip 60); its store is in
  flight and it is away (the other `c < k`); or it is untouched, held at its launch contents (`k ≤ c`). Trip `k` takes chunk
  `k` out of the family to send it, and, for `2 ≤ k < 60`, gets chunk `k - 2` back at the result's value; so the family at
  trip `k` less chunk `k`, with chunk `k - 2` put back where a chunk returns, is the family at trip `k + 1`. After the loop
  the six chunks still away (58 … 63) come back, and the sixty-four chunks at the result's value are the band.
-/
import proofs.«213455_g39170101740086_cont_8to1_b_302_25_alg».proof.Proof.IdealInv

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
variable (m : (ℓ : Loc nD τ sig) → Buf (Elt F) ℓ) (d : Dev nD) (L : grid0.Coords)

/-! ## One chunk's state at trip `k` -/

/-- Chunk `c` of the result at the start of trip `k`: at the result's value, away, or untouched. -/
def outAt (k : ℕ) (c : Fin 64) : sProp 𝕄 :=
  if c.val + 2 < k ∧ c.val < 58 then ((oChunk L c).view.loc (thr d L) ↦[(oChunk L c).view.set]{fullShare} Gout m d)
  else if c.val < k then iprop(emp)
  else ((oChunk L c).view.loc (thr d L) ↦[(oChunk L c).view.set]{fullShare} m (oLoc d))

/-- The family at trip `k` is the sixty-four states. -/
theorem outs_eq (k : ℕ) : outs m d L k = bigSep Finset.univ (outAt m d L k) := rfl

theorem outAt_done (k : ℕ) (c : Fin 64) (h : c.val + 2 < k) (h58 : c.val < 58) :
    outAt m d L k c = ((oChunk L c).view.loc (thr d L) ↦[(oChunk L c).view.set]{fullShare} Gout m d) := by
  unfold outAt; rw [if_pos ⟨h, h58⟩]
theorem outAt_away (k : ℕ) (c : Fin 64) (h : ¬ (c.val + 2 < k ∧ c.val < 58)) (hk : c.val < k) :
    outAt m d L k c = (iprop(emp) : sProp 𝕄) := by
  unfold outAt; rw [if_neg h, if_pos hk]
theorem outAt_todo (k : ℕ) (c : Fin 64) (hk : k ≤ c.val) :
    outAt m d L k c = ((oChunk L c).view.loc (thr d L) ↦[(oChunk L c).view.set]{fullShare} m (oLoc d)) := by
  unfold outAt; rw [if_neg (by omega), if_neg (by omega)]

/-- A state other than chunk `k`'s and chunk `k - 2`'s does not change from trip `k` to trip `k + 1`. -/
theorem outAt_succ (k : ℕ) (c : Fin 64) (hk : c.val ≠ k) (h2 : c.val + 2 ≠ k ∨ 58 ≤ c.val) :
    outAt m d L (k + 1) c = outAt m d L k c := by
  unfold outAt
  by_cases h1 : c.val + 2 < k ∧ c.val < 58
  · rw [if_pos h1, if_pos ⟨by omega, h1.2⟩]
  · rw [if_neg h1, if_neg (by omega)]
    by_cases h3 : c.val < k
    · rw [if_pos h3, if_pos (by omega)]
    · rw [if_neg h3, if_neg (by omega)]

/-! ## Taking chunk `k` out -/

/-- The family at trip `k` less chunk `k`. -/
def outsRest (k : ℕ) : sProp 𝕄 := bigSep (Finset.univ.filter fun c : Fin 64 => c.val ≠ k) (outAt m d L k)

theorem erase_eq_filter (k : ℕ) (hk : k < 64) :
    (Finset.univ : Finset (Fin 64)).erase ⟨k, hk⟩ = Finset.univ.filter fun c : Fin 64 => c.val ≠ k := by
  ext c
  simp only [Finset.mem_erase, Finset.mem_univ, and_true, Finset.mem_filter, true_and, ne_eq, Fin.ext_iff]

/-- An `emp` member of a family may be dropped. -/
theorem bigSep_erase_emp {I : Type} [DecidableEq I] {s : Finset I} {i : I} (hi : i ∈ s) {Φ : I → sProp 𝕄} (h : Φ i = (iprop(emp) : sProp 𝕄)) :
    bigSep s Φ = bigSep (s.erase i) Φ := by
  rw [SparseCore.bigSep_erase' hi, h]
  exact equiv_iff.mp emp_sep

/-- At trip `k < 64` the family is chunk `k`, untouched, and the rest. -/
theorem outs_take (k : ℕ) (hk : k < 64) :
    outs m d L k = iprop(((oChunk L ⟨k, hk⟩).view.loc (thr d L) ↦[(oChunk L ⟨k, hk⟩).view.set]{fullShare} m (oLoc d)) ∗ outsRest m d L k) := by
  rw [outs_eq, SparseCore.bigSep_erase' (Finset.mem_univ (⟨k, hk⟩ : Fin 64)), outAt_todo m d L k ⟨k, hk⟩ (le_refl k), erase_eq_filter k hk]
  rfl

/-! ## One trip on -/

/-- Where no chunk returns (before trip 2, and from trip 60 on) the family at trip `k + 1` is the family at trip `k` less
    chunk `k`. -/
theorem outs_step_none (k : ℕ) (hk : k < 64) (h : k < 2 ∨ 60 ≤ k) : outsRest m d L k = outs m d L (k + 1) := by
  rw [outs_eq, bigSep_erase_emp (Finset.mem_univ (⟨k, hk⟩ : Fin 64))
    (outAt_away m d L (k + 1) ⟨k, hk⟩ (by show ¬ (k + 2 < k + 1 ∧ k < 58); omega) (by show k < k + 1; omega)),
    erase_eq_filter k hk]
  unfold outsRest
  refine (bigSep_congr fun c hc => ?_).symm
  have hck : c.val ≠ k := (Finset.mem_filter.1 hc).2
  exact outAt_succ m d L k c hck (by omega)

/-- In a trip `2 ≤ k < 60` chunk `k - 2` returns at the result's value: with it, the family at trip `k` less chunk `k` is the
    family at trip `k + 1`. -/
theorem outs_step_steady (k : ℕ) (hk : k < 64) (h2 : 2 ≤ k) (h60 : k < 60) (c2 : Fin 64) (hc2 : c2.val = k - 2) :
    iprop(((oChunk L c2).view.loc (thr d L) ↦[(oChunk L c2).view.set]{fullShare} Gout m d) ∗ outsRest m d L k)
      = outs m d L (k + 1) := by
  have hmem : c2 ∈ (Finset.univ.filter fun c : Fin 64 => c.val ≠ k) := Finset.mem_filter.2 ⟨Finset.mem_univ _, by omega⟩
  rw [outs_eq, bigSep_erase_emp (Finset.mem_univ (⟨k, hk⟩ : Fin 64))
    (outAt_away m d L (k + 1) ⟨k, hk⟩ (by show ¬ (k + 2 < k + 1 ∧ k < 58); omega) (by show k < k + 1; omega)),
    erase_eq_filter k hk, SparseCore.bigSep_erase' hmem, outAt_done m d L (k + 1) c2 (by omega) (by omega)]
  unfold outsRest
  rw [bigSep_erase_emp hmem (outAt_away m d L k c2 (by omega) (by omega))]
  congr 1
  refine (bigSep_congr fun c hc => ?_).symm
  have hc' := Finset.mem_erase.1 hc
  have hck : c.val ≠ k := (Finset.mem_filter.1 hc'.2).2
  have hc2' : c.val ≠ c2.val := fun e => hc'.1 (Fin.ext e)
  exact outAt_succ m d L k c hck (by omega)

/-! ## After the loop -/

/-- After the loop the chunks below 58 are at the result's value and the last six are away. -/
theorem outAt_final (c : Fin 64) :
    outAt m d L 64 c = if c.val < 58 then ((oChunk L c).view.loc (thr d L) ↦[(oChunk L c).view.set]{fullShare} Gout m d) else (iprop(emp) : sProp 𝕄) := by
  by_cases h : c.val < 58
  · rw [if_pos h]; exact outAt_done m d L 64 c (by omega) h
  · rw [if_neg h]; exact outAt_away m d L 64 c (by omega) c.isLt

/-- The six chunks that come back after the loop, with the family after the loop, are all sixty-four chunks at the
    result's value. -/
theorem outs_final (c0 c1 c2 c3 c4 c5 : Fin 64) (h0 : c0.val = 58) (h1 : c1.val = 59) (h2 : c2.val = 60) (h3 : c3.val = 61)
    (h4 : c4.val = 62) (h5 : c5.val = 63) :
    iprop(((oChunk L c0).view.loc (thr d L) ↦[(oChunk L c0).view.set]{fullShare} Gout m d)
        ∗ ((oChunk L c1).view.loc (thr d L) ↦[(oChunk L c1).view.set]{fullShare} Gout m d)
        ∗ ((oChunk L c2).view.loc (thr d L) ↦[(oChunk L c2).view.set]{fullShare} Gout m d)
        ∗ ((oChunk L c3).view.loc (thr d L) ↦[(oChunk L c3).view.set]{fullShare} Gout m d)
        ∗ ((oChunk L c4).view.loc (thr d L) ↦[(oChunk L c4).view.set]{fullShare} Gout m d)
        ∗ ((oChunk L c5).view.loc (thr d L) ↦[(oChunk L c5).view.set]{fullShare} Gout m d)
        ∗ outs m d L 64)
      = bigSep Finset.univ fun c : Fin 64 => ((oChunk L c).view.loc (thr d L) ↦[(oChunk L c).view.set]{fullShare} Gout m d) := by
  have ne (a b : Fin 64) (h : a.val ≠ b.val) : a ≠ b := fun e => h (congrArg Fin.val e)
  have m0 : c0 ∈ (Finset.univ : Finset (Fin 64)) := Finset.mem_univ _
  have m1 : c1 ∈ (Finset.univ : Finset (Fin 64)).erase c0 := Finset.mem_erase.2 ⟨ne _ _ (by omega), Finset.mem_univ _⟩
  have m2 : c2 ∈ ((Finset.univ : Finset (Fin 64)).erase c0).erase c1 :=
    Finset.mem_erase.2 ⟨ne _ _ (by omega), Finset.mem_erase.2 ⟨ne _ _ (by omega), Finset.mem_univ _⟩⟩
  have m3 : c3 ∈ (((Finset.univ : Finset (Fin 64)).erase c0).erase c1).erase c2 :=
    Finset.mem_erase.2 ⟨ne _ _ (by omega), Finset.mem_erase.2 ⟨ne _ _ (by omega), Finset.mem_erase.2 ⟨ne _ _ (by omega), Finset.mem_univ _⟩⟩⟩
  have m4 : c4 ∈ ((((Finset.univ : Finset (Fin 64)).erase c0).erase c1).erase c2).erase c3 :=
    Finset.mem_erase.2 ⟨ne _ _ (by omega), Finset.mem_erase.2 ⟨ne _ _ (by omega), Finset.mem_erase.2 ⟨ne _ _ (by omega),
      Finset.mem_erase.2 ⟨ne _ _ (by omega), Finset.mem_univ _⟩⟩⟩⟩
  have m5 : c5 ∈ (((((Finset.univ : Finset (Fin 64)).erase c0).erase c1).erase c2).erase c3).erase c4 :=
    Finset.mem_erase.2 ⟨ne _ _ (by omega), Finset.mem_erase.2 ⟨ne _ _ (by omega), Finset.mem_erase.2 ⟨ne _ _ (by omega),
      Finset.mem_erase.2 ⟨ne _ _ (by omega), Finset.mem_erase.2 ⟨ne _ _ (by omega), Finset.mem_univ _⟩⟩⟩⟩⟩
  have away (c : Fin 64) (h : 58 ≤ c.val) : outAt m d L 64 c = (iprop(emp) : sProp 𝕄) := outAt_away m d L 64 c (by omega) c.isLt
  rw [SparseCore.bigSep_erase' m0, SparseCore.bigSep_erase' m1, SparseCore.bigSep_erase' m2, SparseCore.bigSep_erase' m3,
    SparseCore.bigSep_erase' m4, SparseCore.bigSep_erase' m5,
    outs_eq, bigSep_erase_emp m0 (away c0 (by omega)), bigSep_erase_emp m1 (away c1 (by omega)), bigSep_erase_emp m2 (away c2 (by omega)),
    bigSep_erase_emp m3 (away c3 (by omega)), bigSep_erase_emp m4 (away c4 (by omega)), bigSep_erase_emp m5 (away c5 (by omega))]
  congr 6
  refine bigSep_congr fun c hc => ?_
  have e5 := Finset.mem_erase.1 hc
  have e4 := Finset.mem_erase.1 e5.2
  have e3 := Finset.mem_erase.1 e4.2
  have e2 := Finset.mem_erase.1 e3.2
  have e1 := Finset.mem_erase.1 e2.2
  have e0 := Finset.mem_erase.1 e1.2
  have v (a : Fin 64) (h : c ≠ a) : c.val ≠ a.val := fun e => h (Fin.ext e)
  have := v _ e5.1; have := v _ e4.1; have := v _ e3.1; have := v _ e2.1; have := v _ e1.1; have := v _ e0.1
  have hc := c.isLt
  exact outAt_done m d L 64 c (by omega) (by omega)

/-- … and those are the worker's band at the result's value. -/
theorem outs_final_band (c0 c1 c2 c3 c4 c5 : Fin 64) (h0 : c0.val = 58) (h1 : c1.val = 59) (h2 : c2.val = 60) (h3 : c3.val = 61)
    (h4 : c4.val = 62) (h5 : c5.val = 63) :
    iprop(((oChunk L c0).view.loc (thr d L) ↦[(oChunk L c0).view.set]{fullShare} Gout m d)
        ∗ ((oChunk L c1).view.loc (thr d L) ↦[(oChunk L c1).view.set]{fullShare} Gout m d)
        ∗ ((oChunk L c2).view.loc (thr d L) ↦[(oChunk L c2).view.set]{fullShare} Gout m d)
        ∗ ((oChunk L c3).view.loc (thr d L) ↦[(oChunk L c3).view.set]{fullShare} Gout m d)
        ∗ ((oChunk L c4).view.loc (thr d L) ↦[(oChunk L c4).view.set]{fullShare} Gout m d)
        ∗ ((oChunk L c5).view.loc (thr d L) ↦[(oChunk L c5).view.set]{fullShare} Gout m d)
        ∗ outs m d L 64)
      = (oLoc d ↦[bandSet (wL L)]{fullShare} Gout m d : sProp 𝕄) := by
  rw [outs_final m d L c0 c1 c2 c3 c4 c5 h0 h1 h2 h3 h4 h5, band_chunks d L (Gout m d)]

end Cert.Proof.IdealK

end
-- ==== Proof.IdealBody.lean ====
/-
  One worker's whole task, assembled. Before the loop the worker issues, under a condition on its number, the fetch of the
  eight boundary rows (every worker but the last) or of the vector `new` (the last worker), then the fetches of its first
  four chunks, and waits for the first. The sixty-four trips of the loop are taken one by one from the loop's invariant;
  what the guarded fetch left behind (the tail: the fetch in flight and the part of the read share it borrowed) rides along
  untouched until the last trip waits for it and copies its first row into the last row of the last chunk. After the loop
  the stores of the last six chunks are waited for, and what the worker was handed is given back: its band of the result at
  the result's value, the read shares whole again, the scratch at some contents and the semaphores at zero.
  The trips themselves enter as hypotheses, stated over the invariant; a second theorem derives those from one statement
  per rotation of the ring.
-/
import proofs.«213455_g39170101740086_cont_8to1_b_302_25_alg».proof.Proof.IdealInv
import proofs.«213455_g39170101740086_cont_8to1_b_302_25_alg».proof.Proof.IdealOuts
import proofs.«213455_g39170101740086_cont_8to1_b_302_25_alg».proof.Proof.Gen.KernelIdeal
import proofs.«213455_g39170101740086_cont_8to1_b_302_25_alg».proof.Proof.Gen.KernelIdeal.Skeleton

set_option maxHeartbeats 4000000
set_option maxRecDepth 65536

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-! ## Small facts -/

/-- A family over the first fourteen numbers, written out. -/
theorem range14 (Φ : ℕ → sProp 𝕄) :
    bigSep (Finset.range 14) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show Finset.range 14 = {0, 1, 2, 3, 4, 5, 6, 7, 8, 9, 10, 11, 12, 13} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The two inputs, named as the launch names them and as the kernel's memrefs name them: one location each. -/
theorem respell_m (q : PosShare TreeShare) (f : Buf (Elt F) (mLoc d)) :
    (mLoc d ↦{q} f : sProp 𝕄) = (mW.view.loc (thr d L) ↦{q} f) := rfl
theorem respell_n (q : PosShare TreeShare) (f : Buf (Elt F) (nLoc d)) :
    (nLoc d ↦{q} f : sProp 𝕄) = (nW.view.loc (thr d L) ↦{q} f) := rfl

/-- The loop has sixty-four trips. -/
theorem trips_eq : k0_t1_loop.trips = 64 := by decide +kernel

/-- The worker's number, and the first row of its band, as the 32-bit words the kernel computes before the loop. -/
abbrev wWord (L : grid0.Coords) : BitVec 32 := Scalar.addi (Scalar.muli (BitVec.ofNat 32 (L 1).val) 2#32) (BitVec.ofNat 32 (L 0).val)
abbrev bWord (L : grid0.Coords) : BitVec 32 := Scalar.muli (wWord L) 2048#32

/-! ## The positions of the invariant, at the trips where each reads one way -/

section Slot
variable (sM : Memref sig .scVector .vmem S32x512 .f32) (is os : DmaSems sig S_) (t : ℕ)

theorem pos0_lt (k : ℕ) (h : k < 64) : pos0 m d L sM is os t k = held m d L sM is os t ⟨k, h⟩ := by
  unfold pos0; rw [dif_pos h]
theorem pos0_ge (k : ℕ) (h : ¬ k < 64) (h' : k - 6 < 64) : pos0 m d L sM is os t k = sfl m d L sM is os t ⟨k - 6, h'⟩ := by
  unfold pos0; rw [dif_neg h, dif_pos h']
theorem posG_lt (k i : ℕ) (h : k + i < 64) : posG m d L sM is os t k i = gfl m d L sM is os t ⟨k + i, h⟩ := by
  unfold posG; rw [dif_pos h]
theorem posG_ge (k i : ℕ) (h : ¬ k + i < 64) (h' : k + i - 6 < 64) : posG m d L sM is os t k i = sfl m d L sM is os t ⟨k + i - 6, h'⟩ := by
  unfold posG; rw [dif_neg h, dif_pos h']
theorem posS_free (k b : ℕ) (h : ¬ b ≤ k) : posS m d L sM is os t k b = free m d L sM is os t := by
  unfold posS; rw [if_neg h]
theorem posS_sfl (k b : ℕ) (hb : b ≤ k) (h : k - b < 64) : posS m d L sM is os t k b = sfl m d L sM is os t ⟨k - b, h⟩ := by
  unfold posS; rw [if_pos hb, dif_pos h]

/-- A slot that a fetch of chunk `c` has landed in, with its semaphores at zero and its token whole, is `held`. -/
theorem held_of (c : Fin 64) (f : sM.view.ty.Contents (Elt F)) (hf : Holds m d L sM c f) :
    iprop(semVal (thr d L, SemLoc.dma is.sem) 0 ∗ semVal (thr d L, SemLoc.dma os.sem) 0 ∗ (mW.view.loc (thr d L) ↦{tokM L t} m (mLoc d))
      ∗ sM.view.loc (thr d L) ↦[sM.view.set]{fullShare} f) ⊢ held m d L sM is os t c := by
  unfold held tokWhole
  iintro ⟨H1, H2, H3, H4⟩
  isplitl [H1]
  · iexact H1
  isplitl [H2]
  · iexact H2
  isplitl [H3]
  · iexact H3
  iexists f
  isplitr
  · ipureintro; exact hf
  · iexact H4

/-- A fetch in flight whose window of `mem` and whose payload are chunk `c`'s, however they are spelt, is `gfl`. -/
theorem gfl_of (c : Fin 64) (f₀ : sM.view.ty.Contents (Elt F)) (Sx : Finset S65536x512.Idx) (g : S32x512.Idx → Elt F .f32)
    (hS : Sx = (mChunk L c).view.set) (hg : g = gpay m d L c) :
    iprop(semVal (thr d L, SemLoc.dma os.sem) 0
      ∗ Transfers.Flight countersEmb (thr d L) (SemLoc.dma is.sem) (default : HIx 1) 524288
          iprop((sM.view.loc (thr d L) ↦[sM.view.set]{fullShare} sM.view.writes (Elt F) f₀ [⟨Rect.whole S32x512, g⟩])
            ∗ mW.view.loc (thr d L) ↦[Sx]{tokM L t} m (mLoc d))
      ∗ mW.view.loc (thr d L) ↦[Finset.univ \ Sx]{tokM L t} m (mLoc d)) ⊢ gfl m d L sM is os t c := by
  subst hS; subst hg
  unfold gfl
  iintro ⟨H1, H2, H3⟩
  isplitl [H1]
  · iexact H1
  isplitl [H2]
  · iexists f₀; iexact H2
  · iexact H3

/-- A free slot. -/
theorem free_of (f : sM.view.ty.Contents (Elt F)) :
    iprop(semVal (thr d L, SemLoc.dma is.sem) 0 ∗ semVal (thr d L, SemLoc.dma os.sem) 0 ∗ (mW.view.loc (thr d L) ↦{tokM L t} m (mLoc d))
      ∗ sM.view.loc (thr d L) ↦[sM.view.set]{fullShare} f) ⊢ free m d L sM is os t := by
  unfold free tokWhole
  iintro ⟨H1, H2, H3, H4⟩
  isplitl [H1]
  · iexact H1
  isplitl [H2]
  · iexact H2
  isplitl [H3]
  · iexact H3
  iexists f
  iexact H4
end Slot

/-- What a fetch of a 32-row window of `mem` delivers depends only on where the window begins. -/
theorem pay_congr {off off' : Fin 2 → ℕ} (h : off = off') (inb : ∀ a, off a + S32x512.size a ≤ S65536x512.size a)
    (inb' : ∀ a, off' a + S32x512.size a ≤ S65536x512.size a) :
    (ReadAs.same.apply (View.read (Elt F) (mW.slice (Rect.unit (s := S65536x512) off S32x512.size inb) (fun _ => rfl)).view (m (mLoc d))) : S32x512.Idx → Elt F .f32)
      = ReadAs.same.apply (View.read (Elt F) (mW.slice (Rect.unit (s := S65536x512) off' S32x512.size inb') (fun _ => rfl)).view (m (mLoc d))) := by
  subst h; rfl

/-- Before the first trip nothing of the band has been written. -/
theorem outs_zero : outs m d L 0 = (oLoc d ↦[bandSet (wL L)]{fullShare} m (oLoc d)) := by
  rw [band_chunks, outs_eq]
  exact bigSep_congr fun c _ => outAt_todo m d L 0 c (Nat.zero_le _)

/-- The invariant before the first trip: chunk 0 landed in slot 0, chunks 1, 2, 3 on their way into slots 1, 2, 3, slots
    4 and 5 free, nothing written. -/
theorem Inv_zero (O : CellTallies nD τ sig (HIx 1)) (W : Waits sig (HIx 1)) :
    Inv m d L O W 0 = iprop((∃ W', ⌜∀ p ∈ W', p ∈ W ∨ p.2 = none⌝ ∗ owes (thr d L) O W')
      ∗ held m d L slotM0 cc0_scratch3 cc0_scratch9 0 ⟨0, by decide⟩
      ∗ gfl m d L slotM1 cc0_scratch4 cc0_scratch10 1 ⟨1, by decide⟩
      ∗ gfl m d L slotM2 cc0_scratch5 cc0_scratch11 2 ⟨2, by decide⟩
      ∗ gfl m d L slotM3 cc0_scratch6 cc0_scratch12 3 ⟨3, by decide⟩
      ∗ free m d L slotM4 cc0_scratch7 cc0_scratch13 4
      ∗ free m d L slotM5 cc0_scratch8 cc0_scratch14 5
      ∗ outs m d L 0) := by
  rw [Inv_mod0 m d L O W 0 rfl]
  unfold InvGen
  rw [pos0_lt m d L slotM0 cc0_scratch3 cc0_scratch9 0 0 (by decide), posG_lt m d L slotM1 cc0_scratch4 cc0_scratch10 1 0 1 (by decide),
    posG_lt m d L slotM2 cc0_scratch5 cc0_scratch11 2 0 2 (by decide), posG_lt m d L slotM3 cc0_scratch6 cc0_scratch12 3 0 3 (by decide),
    posS_free m d L slotM4 cc0_scratch7 cc0_scratch13 4 0 2 (by decide), posS_free m d L slotM5 cc0_scratch8 cc0_scratch14 5 0 1 (by decide)]

/-- The invariant after the last trip: the stores of chunks 58 … 63 in flight out of slots 4, 5, 0, 1, 2, 3. -/
theorem Inv_end (O : CellTallies nD τ sig (HIx 1)) (W : Waits sig (HIx 1)) :
    Inv m d L O W 64 = iprop((∃ W', ⌜∀ p ∈ W', p ∈ W ∨ p.2 = none⌝ ∗ owes (thr d L) O W')
      ∗ sfl m d L slotM4 cc0_scratch7 cc0_scratch13 4 ⟨58, by decide⟩
      ∗ sfl m d L slotM5 cc0_scratch8 cc0_scratch14 5 ⟨59, by decide⟩
      ∗ sfl m d L slotM0 cc0_scratch3 cc0_scratch9 0 ⟨60, by decide⟩
      ∗ sfl m d L slotM1 cc0_scratch4 cc0_scratch10 1 ⟨61, by decide⟩
      ∗ sfl m d L slotM2 cc0_scratch5 cc0_scratch11 2 ⟨62, by decide⟩
      ∗ sfl m d L slotM3 cc0_scratch6 cc0_scratch12 3 ⟨63, by decide⟩
      ∗ outs m d L 64) := by
  rw [Inv_mod4 m d L O W 64 rfl]
  unfold InvGen
  rw [pos0_ge m d L slotM4 cc0_scratch7 cc0_scratch13 4 64 (by decide) (by decide), posG_ge m d L slotM5 cc0_scratch8 cc0_scratch14 5 64 1 (by decide) (by decide),
    posG_ge m d L slotM0 cc0_scratch3 cc0_scratch9 0 64 2 (by decide) (by decide), posG_ge m d L slotM1 cc0_scratch4 cc0_scratch10 1 64 3 (by decide) (by decide),
    posS_sfl m d L slotM2 cc0_scratch5 cc0_scratch11 2 64 2 (by decide) (by decide), posS_sfl m d L slotM3 cc0_scratch6 cc0_scratch12 3 64 1 (by decide) (by decide)]

/-! ## A hole under a decided condition -/

/-- A buffer held at everything but a hole under a condition that fails is held there whole; -/
theorem pointsTo_gset_neg {ℓ : Loc nD τ sig} {X : Finset (Idx ℓ)} {C : Prop} [Decidable C] {R : C → Finset (Idx ℓ)}
    {q : PosShare TreeShare} {f : Buf (Elt F) ℓ} (h : ¬ C) : (ℓ ↦[X \ gset C R]{q} f : sProp 𝕄) ⊢ ℓ ↦[X]{q} f := by
  rw [gset.neg h, Finset.sdiff_empty]
/-- under a condition that holds, at everything but the hole. -/
theorem pointsTo_gset_pos {ℓ : Loc nD τ sig} {X : Finset (Idx ℓ)} {C : Prop} [Decidable C] {R : C → Finset (Idx ℓ)}
    {q : PosShare TreeShare} {f : Buf (Elt F) ℓ} (h : C) : (ℓ ↦[X \ gset C R]{q} f : sProp 𝕄) ⊢ ℓ ↦[X \ R h]{q} f := by
  rw [gset.pos h]

section Slot2
variable (sM : Memref sig .scVector .vmem S32x512 .f32) (is os : DmaSems sig S_) (t : ℕ)
/-- A store in flight, opened. -/
theorem sfl_open (c : Fin 64) : sfl m d L sM is os t c ⊢ iprop(semVal (thr d L, SemLoc.dma is.sem) 0 ∗ (mLoc d ↦{Transfers.shareTokN (qW (wL L)) t} m (mLoc d))
    ∗ ∃ f, Transfers.Flight countersEmb (thr d L) (SemLoc.dma os.sem) (default : HIx 1) 524288
        iprop(((oChunk L c).view.loc (thr d L) ↦[(oChunk L c).view.set]{fullShare} Gout m d)
          ∗ sM.view.loc (thr d L) ↦[sM.view.set]{fullShare} f)) := by
  unfold sfl tokWhole; exact Entails.of_eq rfl
end Slot2

/-! ## The scratch ring back in one piece -/

/-- The six slots, each at contents of its own, are the whole scratch ring at some contents: the contents that agree with
    each slot's on that slot (the slots are pairwise disjoint and cover the ring). -/
theorem slots_join (f0 f1 f2 f3 f4 f5 : Buf (Elt F) ((thr d L).loc cc0_scratch0)) :
    iprop((slotM0.view.loc (thr d L) ↦[slotM0.view.set]{fullShare} f0)
        ∗ (slotM1.view.loc (thr d L) ↦[slotM1.view.set]{fullShare} f1)
        ∗ (slotM2.view.loc (thr d L) ↦[slotM2.view.set]{fullShare} f2)
        ∗ (slotM3.view.loc (thr d L) ↦[slotM3.view.set]{fullShare} f3)
        ∗ (slotM4.view.loc (thr d L) ↦[slotM4.view.set]{fullShare} f4)
        ∗ (slotM5.view.loc (thr d L) ↦[slotM5.view.set]{fullShare} f5))
      ⊢ (iprop(∃ f, (thr d L).loc cc0_scratch0 ↦{fullShare} f) : sProp 𝕄) := by
  classical
  have e0 : slotM0.view.set = (slotPart 0).set := slot_set 0 inb_S6x32x512_S1x32x512_0_0_0
  have e1 : slotM1.view.set = (slotPart 1).set := slot_set 1 inb_S6x32x512_S1x32x512_1_0_0
  have e2 : slotM2.view.set = (slotPart 2).set := slot_set 2 inb_S6x32x512_S1x32x512_2_0_0
  have e3 : slotM3.view.set = (slotPart 3).set := slot_set 3 inb_S6x32x512_S1x32x512_3_0_0
  have e4 : slotM4.view.set = (slotPart 4).set := slot_set 4 inb_S6x32x512_S1x32x512_4_0_0
  have e5 : slotM5.view.set = (slotPart 5).set := slot_set 5 inb_S6x32x512_S1x32x512_5_0_0
  have key : ∀ (i : Fin 6) (x : S6x32x512.Idx), x ∈ (slotPart i).set → ∀ j : Fin 6, j ≠ i → x ∉ (slotPart j).set :=
    fun i x hx j hji hxj => Finset.disjoint_left.1 (Rect.part_disjoint hdiv6 hji) hxj hx
  let g : Buf (Elt F) ((thr d L).loc cc0_scratch0) := fun x =>
    if x ∈ (slotPart 0).set then f0 x else if x ∈ (slotPart 1).set then f1 x else if x ∈ (slotPart 2).set then f2 x
    else if x ∈ (slotPart 3).set then f3 x else if x ∈ (slotPart 4).set then f4 x else f5 x
  have c0 : (slotM0.view.loc (thr d L) ↦[slotM0.view.set]{fullShare} f0 : sProp 𝕄) = (slotM0.view.loc (thr d L) ↦[slotM0.view.set]{fullShare} g) := by
    refine pointsTo_congr fun x hx => ?_
    rw [e0] at hx
    show f0 x = g x
    simp only [g]; rw [if_pos hx]
  have c1 : (slotM1.view.loc (thr d L) ↦[slotM1.view.set]{fullShare} f1 : sProp 𝕄) = (slotM1.view.loc (thr d L) ↦[slotM1.view.set]{fullShare} g) := by
    refine pointsTo_congr fun x hx => ?_
    rw [e1] at hx
    show f1 x = g x
    simp only [g]; rw [if_neg (key 1 x hx 0 (by decide)), if_pos hx]
  have c2 : (slotM2.view.loc (thr d L) ↦[slotM2.view.set]{fullShare} f2 : sProp 𝕄) = (slotM2.view.loc (thr d L) ↦[slotM2.view.set]{fullShare} g) := by
    refine pointsTo_congr fun x hx => ?_
    rw [e2] at hx
    show f2 x = g x
    simp only [g]; rw [if_neg (key 2 x hx 0 (by decide)), if_neg (key 2 x hx 1 (by decide)), if_pos hx]
  have c3 : (slotM3.view.loc (thr d L) ↦[slotM3.view.set]{fullShare} f3 : sProp 𝕄) = (slotM3.view.loc (thr d L) ↦[slotM3.view.set]{fullShare} g) := by
    refine pointsTo_congr fun x hx => ?_
    rw [e3] at hx
    show f3 x = g x
    simp only [g]; rw [if_neg (key 3 x hx 0 (by decide)), if_neg (key 3 x hx 1 (by decide)), if_neg (key 3 x hx 2 (by decide)), if_pos hx]
  have c4 : (slotM4.view.loc (thr d L) ↦[slotM4.view.set]{fullShare} f4 : sProp 𝕄) = (slotM4.view.loc (thr d L) ↦[slotM4.view.set]{fullShare} g) := by
    refine pointsTo_congr fun x hx => ?_
    rw [e4] at hx
    show f4 x = g x
    simp only [g]; rw [if_neg (key 4 x hx 0 (by decide)), if_neg (key 4 x hx 1 (by decide)), if_neg (key 4 x hx 2 (by decide)), if_neg (key 4 x hx 3 (by decide)), if_pos hx]
  have c5 : (slotM5.view.loc (thr d L) ↦[slotM5.view.set]{fullShare} f5 : sProp 𝕄) = (slotM5.view.loc (thr d L) ↦[slotM5.view.set]{fullShare} g) := by
    refine pointsTo_congr fun x hx => ?_
    rw [e5] at hx
    show f5 x = g x
    simp only [g]; rw [if_neg (key 5 x hx 0 (by decide)), if_neg (key 5 x hx 1 (by decide)), if_neg (key 5 x hx 2 (by decide)), if_neg (key 5 x hx 3 (by decide)), if_neg (key 5 x hx 4 (by decide))]
  rw [c0, c1, c2, c3, c4, c5, ← buf_slots d L g]
  iintro H
  iexists g
  iexact H

/-! ## The tail: what the guarded fetch before the loop leaves for the last trip -/

/-- What the fetch of the eight boundary rows delivers: those rows of `mem`, read through their slice. -/
def bpay (inb : ∀ a, k0_off1 L a + S8x512.size a ≤ S65536x512.size a) : S8x512.Idx → Elt F .f32 :=
  ReadAs.same.apply ((bRows L inb).view.read (Elt F) (m (mLoc d)))
/-- What the fetch of `new` delivers: the vector, read whole. -/
def npay : S512.Idx → Elt F .f32 := ReadAs.same.apply (nW.view.read (Elt F) (m (nLoc d)))

/-- A worker that is not the last, before its last trip: the fetch of the boundary rows is in flight, delivering the
    boundary scratch filled with them and the window of the read token it borrowed; the rest of that token is held. -/
def tailA0 (inb : ∀ a, k0_off1 L a + S8x512.size a ≤ S65536x512.size a) (fbb : Buf (Elt F) ((thr d L).loc cc0_scratch1)) : sProp 𝕄 :=
  iprop((mW.view.loc (thr d L) ↦[Finset.univ \ (bRows L inb).view.set]{tokM L 12} m (mLoc d))
    ∗ Transfers.Flight countersEmb (thr d L) (SemLoc.dma cc0_scratch15.sem) (default : HIx 1) 131072
        iprop((bbW.view.loc (thr d L) ↦{fullShare} View.write (Elt F) bbW.view fbb (bpay m d L inb) Finset.univ)
          ∗ mW.view.loc (thr d L) ↦[(bRows L inb).view.set]{tokM L 12} m (mLoc d)))
/-- After its last trip: the semaphore at zero, the token whole, the boundary scratch at some contents. -/
def tailA1 : sProp 𝕄 :=
  iprop(semVal (thr d L, SemLoc.dma cc0_scratch15.sem) 0 ∗ tokWhole m d L 12 ∗ ∃ f, bbW.view.loc (thr d L) ↦{fullShare} f)
def tailA (inb : ∀ a, k0_off1 L a + S8x512.size a ≤ S65536x512.size a) (fbb : Buf (Elt F) ((thr d L).loc cc0_scratch1)) (k : ℕ) : sProp 𝕄 :=
  if k < 64 then tailA0 m d L inb fbb else tailA1 m d L
theorem tailA_lt (inb : ∀ a, k0_off1 L a + S8x512.size a ≤ S65536x512.size a) (fbb : Buf (Elt F) ((thr d L).loc cc0_scratch1)) (k : ℕ) (h : k < 64) :
    tailA m d L inb fbb k = tailA0 m d L inb fbb := by unfold tailA; rw [if_pos h]
theorem tailA_ge (inb : ∀ a, k0_off1 L a + S8x512.size a ≤ S65536x512.size a) (fbb : Buf (Elt F) ((thr d L).loc cc0_scratch1)) (k : ℕ) (h : ¬ k < 64) :
    tailA m d L inb fbb k = tailA1 m d L := by unfold tailA; rw [if_neg h]

/-- The last worker, before its last trip: the fetch of `new` is in flight, delivering the scratch vector filled with it and
    the read share of `new` it borrowed. -/
def tailB0 (fnb : Buf (Elt F) ((thr d L).loc cc0_scratch2)) : sProp 𝕄 :=
  iprop((nW.view.loc (thr d L) ↦[Finset.univ \ nW.view.set]{qW (wL L)} m (nLoc d))
    ∗ Transfers.Flight countersEmb (thr d L) (SemLoc.dma cc0_scratch16.sem) (default : HIx 1) 16384
        iprop((nbW.view.loc (thr d L) ↦{fullShare} View.write (Elt F) nbW.view fnb (npay m d) Finset.univ)
          ∗ nW.view.loc (thr d L) ↦[nW.view.set]{qW (wL L)} m (nLoc d)))
/-- After its last trip: the semaphore at zero, the read share whole, the scratch vector at some contents. -/
def tailB1 : sProp 𝕄 :=
  iprop(semVal (thr d L, SemLoc.dma cc0_scratch16.sem) 0 ∗ (nW.view.loc (thr d L) ↦{qW (wL L)} m (nLoc d)) ∗ ∃ f, nbW.view.loc (thr d L) ↦{fullShare} f)
def tailB (fnb : Buf (Elt F) ((thr d L).loc cc0_scratch2)) (k : ℕ) : sProp 𝕄 :=
  if k < 64 then tailB0 m d L fnb else tailB1 m d L
theorem tailB_lt (fnb : Buf (Elt F) ((thr d L).loc cc0_scratch2)) (k : ℕ) (h : k < 64) : tailB m d L fnb k = tailB0 m d L fnb := by
  unfold tailB; rw [if_pos h]
theorem tailB_ge (fnb : Buf (Elt F) ((thr d L).loc cc0_scratch2)) (k : ℕ) (h : ¬ k < 64) : tailB m d L fnb k = tailB1 m d L := by
  unfold tailB; rw [if_neg h]

/-! ## The trips, as hypotheses -/

variable [FloatOps F]

/-- Trip `k` of the loop takes `pre` to `post`. The region is the loop's, on the arrays and scratch the body table passes
    and the two words computed before the loop. -/
def TripStmt (k : Fin k0_t1_loop.trips) (pre post : sProp 𝕄) : Prop :=
  pre ⊢ wp frame (wpE (defs₀ (F := F)) 𝒱₀ (thr d L) none) Set.univ
      (k0_t1_body (F := F) L nW (Memref.isWhole_whole _) mW (Memref.isWhole_whole _) oW (Memref.isWhole_whole _) bufW (Memref.isWhole_whole _) bbW (Memref.isWhole_whole _) nbW (Memref.isWhole_whole _)
        cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        (wWord L) (bWord L) k ()) fun _ => post

/-- The trips of the loop, over the invariant: every trip but the last carries any frame; the last consumes the tail. -/
structure Trips : Prop where
  step : ∀ (d : Dev nD) (L : grid0.Coords) (k : Fin k0_t1_loop.trips), k.val < 63 →
    ∀ (O : CellTallies nD τ sig (HIx 1)) (W : Waits sig (HIx 1)) (R : sProp 𝕄),
      TripStmt (F := F) d L k iprop(Transfers.MayWaits (thr d L) (none : HIx 1) O ∗ R ∗ Inv m d L O W k.val)
        iprop(Transfers.MayWaits (thr d L) (none : HIx 1) O ∗ R ∗ Inv m d L O W (k.val + 1))
  lastA : ∀ (d : Dev nD) (L : grid0.Coords) (k : Fin k0_t1_loop.trips), k.val = 63 → (wL L).val < 31 →
    ∀ (inb : ∀ a, k0_off1 L a + S8x512.size a ≤ S65536x512.size a) (fbb : Buf (Elt F) ((thr d L).loc cc0_scratch1))
      (O : CellTallies nD τ sig (HIx 1)) (W : Waits sig (HIx 1)),
      TripStmt (F := F) d L k iprop(Transfers.MayWaits (thr d L) (none : HIx 1) O ∗ tailA0 m d L inb fbb ∗ Inv m d L O W k.val)
        iprop(Transfers.MayWaits (thr d L) (none : HIx 1) O ∗ tailA1 m d L ∗ Inv m d L O W (k.val + 1))
  lastB : ∀ (d : Dev nD) (L : grid0.Coords) (k : Fin k0_t1_loop.trips), k.val = 63 → (wL L).val = 31 →
    ∀ (fnb : Buf (Elt F) ((thr d L).loc cc0_scratch2)) (O : CellTallies nD τ sig (HIx 1)) (W : Waits sig (HIx 1)),
      TripStmt (F := F) d L k iprop(Transfers.MayWaits (thr d L) (none : HIx 1) O ∗ tailB0 m d L fnb ∗ Inv m d L O W k.val)
        iprop(Transfers.MayWaits (thr d L) (none : HIx 1) O ∗ tailB1 m d L ∗ Inv m d L O W (k.val + 1))

omit [FloatOps F] in
theorem tailA1_open : tailA1 m d L ⊢ iprop(semVal (thr d L, SemLoc.dma cc0_scratch15.sem) 0 ∗ (mLoc d ↦{Transfers.shareTokN (qW (wL L)) 12} m (mLoc d)) ∗ ∃ f, (thr d L).loc cc0_scratch1 ↦{fullShare} f) := by
  unfold tailA1 tokWhole; exact Entails.of_eq rfl
omit [FloatOps F] in
theorem tailB1_open : tailB1 m d L ⊢ iprop(semVal (thr d L, SemLoc.dma cc0_scratch16.sem) 0 ∗ (nLoc d ↦{qW (wL L)} m (nLoc d)) ∗ ∃ f, (thr d L).loc cc0_scratch2 ↦{fullShare} f) := by
  unfold tailB1; exact Entails.of_eq rfl

/-! ## The invariant carried to the end of the loop -/

omit [FloatOps F] in
/-- After the sixty-fourth trip, a worker that is not the last holds its tail consumed and the invariant at 64. -/
theorem endA (inb : ∀ a, k0_off1 L a + S8x512.size a ≤ S65536x512.size a) (fbb : Buf (Elt F) ((thr d L).loc cc0_scratch1))
    (O : CellTallies nD τ sig (HIx 1)) (W : Waits sig (HIx 1)) (n : ℕ) (hn : n = 64) :
    iprop(Transfers.MayWaits (thr d L) (none : HIx 1) O ∗ tailA m d L inb fbb n ∗ Inv m d L O W n)
      ⊢ iprop(tailA1 m d L ∗ Inv m d L O W 64) := by
  subst hn
  rw [tailA_ge m d L inb fbb 64 (by decide)]
  iintro ⟨-, H⟩
  iexact H

omit [FloatOps F] in
/-- The same for the last worker. -/
theorem endB (fnb : Buf (Elt F) ((thr d L).loc cc0_scratch2))
    (O : CellTallies nD τ sig (HIx 1)) (W : Waits sig (HIx 1)) (n : ℕ) (hn : n = 64) :
    iprop(Transfers.MayWaits (thr d L) (none : HIx 1) O ∗ tailB m d L fnb n ∗ Inv m d L O W n)
      ⊢ iprop(tailB1 m d L ∗ Inv m d L O W 64) := by
  subst hn
  rw [tailB_ge m d L fnb 64 (by decide)]
  iintro ⟨-, H⟩
  iexact H

/-! ## The task -/

/-- One worker's task, from the trips of its loop. -/
theorem tile_body (T : Trips (F := F) m) : TileBody (F := F) m := by
  intro d L hF O W hO
  unfold bodyAt
  simp only [cc0__shift_body_eq_skeleton]; unfold cc0__shift_body_skel
  rw [(K (F := F)).scopedBufs_V hF d (cV L) (jV L), SparseCore.Cfg.scopedSems0_V (Val := Elt F) d (cV L) (jV L), ownSems0_V, ownBufs_V]
  unfold tilePay
  iintro ⟨#Hlv, -, ⟨Hn, Hm, Ho⟩, ⟨⟨%fb, Hbuf⟩, ⟨%fbb, Hbb⟩, ⟨%fnb, Hnb⟩, Hbufs⟩, ⟨Hi0, Hi1, Hi2, Hi3, Hi4, Hi5, Ho0, Ho1, Ho2, Ho3, Ho4, Ho5, Hbs, Hns, Hsems⟩, HO⟩
  ihave Hmw := ((K (F := F)).mayWaits_none (thr := V d (cV L) (jV L)) hO) $$ Hlv
  ihave Hm' := ((Transfers.pointsTo_toks_range (qW (wL L)) 14).1) $$ Hm
  rw [range14]
  icases Hm' with ⟨Hmd, Hm0, Hm1, Hm2, Hm3, Hm4, Hm5, Hm6, Hm7, Hm8, Hm9, Hm10, Hm11, Hm12, Hm13⟩
  ihave Hm0 := (Entails.of_eq (respell_m (F := F) d L _ _)) $$ Hm0
  ihave Hm1 := (Entails.of_eq (respell_m (F := F) d L _ _)) $$ Hm1
  ihave Hm2 := (Entails.of_eq (respell_m (F := F) d L _ _)) $$ Hm2
  ihave Hm3 := (Entails.of_eq (respell_m (F := F) d L _ _)) $$ Hm3
  ihave Hm4 := (Entails.of_eq (respell_m (F := F) d L _ _)) $$ Hm4
  ihave Hm5 := (Entails.of_eq (respell_m (F := F) d L _ _)) $$ Hm5
  ihave Hm12 := (Entails.of_eq (respell_m (F := F) d L _ _)) $$ Hm12
  ihave Hn := (Entails.of_eq (respell_n (F := F) d L _ _)) $$ Hn
  ihave Hbb := (Entails.of_eq (show ((V d (cV L) (jV L)).loc cc0_scratch1 ↦{fullShare} fbb : sProp 𝕄) = (bbW.view.loc (V d (cV L) (jV L)) ↦{fullShare} fbb) from rfl)) $$ Hbb
  ihave Hnb := (Entails.of_eq (show ((V d (cV L) (jV L)).loc cc0_scratch2 ↦{fullShare} fnb : sProp 𝕄) = (nbW.view.loc (V d (cV L) (jV L)) ↦{fullShare} fnb) from rfl)) $$ Hnb
  ihave Hbuf' := (Entails.of_eq (buf_slots (F := F) d L fb)) $$ Hbuf
  icases Hbuf' with ⟨Hs0, Hs1, Hs2, Hs3, Hs4, Hs5⟩
  sl_exec_parts
  have hex : ∀ L : grid0.Coords, (tile_body.sl.v7 L = 1#1 ∧ ¬ k0_cond2 L = 1#1) ∨ (¬ tile_body.sl.v7 L = 1#1 ∧ k0_cond2 L = 1#1) := by decide +kernel
  have hwA : ∀ L : grid0.Coords, k0_cond2 L = 1#1 → (wL L).val < 31 := by decide +kernel
  have hwB : ∀ L : grid0.Coords, ¬ k0_cond2 L = 1#1 → (wL L).val = 31 := by decide +kernel
  have h0 : (0 : ℕ) < 64 := by decide
  have h1 : (1 : ℕ) < 64 := by decide
  have h2 : (2 : ℕ) < 64 := by decide
  have h3 : (3 : ℕ) < 64 := by decide
  have h58 : (58 : ℕ) < 64 := by decide
  have h59 : (59 : ℕ) < 64 := by decide
  have h60 : (60 : ℕ) < 64 := by decide
  have h61 : (61 : ℕ) < 64 := by decide
  have h62 : (62 : ℕ) < 64 := by decide
  have h63 : (63 : ℕ) < 64 := by decide
  have e2 : tile_body.sl.dma0_2 m d L = gpay m d L ⟨0, h0⟩ := by
    unfold tile_body.sl.dma0_2 gpay
    exact pay_congr m d (k0_off2_eq L 0) _ _
  have e3 : tile_body.sl.dma0_3 m d L = gpay m d L ⟨1, h1⟩ := by
    unfold tile_body.sl.dma0_3 gpay
    exact pay_congr m d (k0_off2_eq L 1) _ _
  have e4 : tile_body.sl.dma0_4 m d L = gpay m d L ⟨2, h2⟩ := by
    unfold tile_body.sl.dma0_4 gpay
    exact pay_congr m d (k0_off2_eq L 2) _ _
  have e5 : tile_body.sl.dma0_5 m d L = gpay m d L ⟨3, h3⟩ := by
    unfold tile_body.sl.dma0_5 gpay
    exact pay_congr m d (k0_off2_eq L 3) _ _
  have s1 : ((mW.slice (Rect.unit (s := S65536x512) (k0_off2 L 32#32) S32x512.size (k0_off2_inb L 1)) (fun _ => rfl)).view.set : Finset S65536x512.Idx) = (mChunk L ⟨1, h1⟩).view.set :=
    slice_unit_set_congr mW (k0_off2_eq L 1) _ _
  have s2 : ((mW.slice (Rect.unit (s := S65536x512) (k0_off2 L 64#32) S32x512.size (k0_off2_inb L 2)) (fun _ => rfl)).view.set : Finset S65536x512.Idx) = (mChunk L ⟨2, h2⟩).view.set :=
    slice_unit_set_congr mW (k0_off2_eq L 2) _ _
  have s3 : ((mW.slice (Rect.unit (s := S65536x512) (k0_off2 L 96#32) S32x512.size (k0_off2_inb L 3)) (fun _ => rfl)).view.set : Finset S65536x512.Idx) = (mChunk L ⟨3, h3⟩).view.set :=
    slice_unit_set_congr mW (k0_off2_eq L 3) _ _
  have hh0 : Holds m d L slotM0 ⟨0, h0⟩ (slotM0.view.writes (Elt F) slotM0.view.junk [⟨Rect.whole S32x512, tile_body.sl.dma0_2 m d L⟩]) := by
    rw [e2]; exact holds_landed m d L slotM0 ⟨0, h0⟩ _
  rcases hex L with ⟨hc0, hc1⟩ | ⟨hc0, hc1⟩
  · -- the last worker: `new` is on its way, no boundary rows are fetched
    ihave if1 := (Guarded.elim_pos hc0) $$ if1
    ihave if2 := (Guarded.elim_neg hc1) $$ if2
    icases if2 with ⟨Hbs, Hbb⟩
    ihave Hn := (pointsTo_gset_pos hc0) $$ Hn
    ihave Hm12 := (pointsTo_gset_neg hc1) $$ Hm12
    sl_for (fun (k : Nat) (_ : PUnit) => iprop(Transfers.MayWaits (thr d L) (none : HIx 1) O ∗ tailB m d L fnb k ∗ Inv m d L O W k))
      $$ [Hn if1 HO Hi0 Ho0 Hm0 Hs0 Ho1 Hi1 Hm1 Ho2 Hi2 Hm2 Ho3 Hi3 Hm3 Hi4 Ho4 Hm4 Hs4 Hi5 Ho5 Hm5 Hs5 Ho]
    case region =>
      intro k acc
      by_cases hk : k.val < 63
      · have h := T.step d L k hk O W (tailB0 m d L fnb)
        rw [tailB_lt m d L fnb k.val (by omega), tailB_lt m d L fnb (k.val + 1) (by omega)]
        exact h
      · have hk63 : k.val = 63 := by have := Nat.lt_of_lt_of_le k.isLt k0_t1_abs.2.1; omega
        have h := T.lastB d L k hk63 (hwB L hc1) fnb O W
        rw [tailB_lt m d L fnb k.val (by omega), tailB_ge m d L fnb (k.val + 1) (by omega)]
        exact h
    · -- the invariant before the first trip
      irw [tailB_lt m d L fnb 0 (by decide), Inv_zero m d L O W, outs_zero m d L, tailB0]
      isplitr
      · iexact Hmw
      isplitl [Hn if1]
      · isplitl [Hn]
        · iexact Hn
        · iexact if1
      isplitl [HO]
      · iexists _
        isplitr
        pick_goal 2
        · iexact HO
        · ipureintro
          intro p hp
          rcases Finset.mem_insert.1 hp with hp | hp
          · exact Or.inr (by subst hp; rfl)
          · exact Or.inl hp
      isplitl [Hi0 Ho0 Hm0 Hs0]
      · iapply (held_of m d L slotM0 cc0_scratch3 cc0_scratch9 0 ⟨0, h0⟩ _ hh0)
        isplitl [Hi0]
        · iexact Hi0
        isplitl [Ho0]
        · iexact Ho0
        isplitl [Hm0]
        · iexact Hm0
        · iexact Hs0
      isplitl [Ho1 Hi1 Hm1]
      · iapply (gfl_of m d L slotM1 cc0_scratch4 cc0_scratch10 1 ⟨1, h1⟩ fb _ _ s1 e3)
        isplitl [Ho1]
        · iexact Ho1
        isplitl [Hi1]
        · iexact Hi1
        · iexact Hm1
      isplitl [Ho2 Hi2 Hm2]
      · iapply (gfl_of m d L slotM2 cc0_scratch5 cc0_scratch11 2 ⟨2, h2⟩ fb _ _ s2 e4)
        isplitl [Ho2]
        · iexact Ho2
        isplitl [Hi2]
        · iexact Hi2
        · iexact Hm2
      isplitl [Ho3 Hi3 Hm3]
      · iapply (gfl_of m d L slotM3 cc0_scratch6 cc0_scratch12 3 ⟨3, h3⟩ fb _ _ s3 e5)
        isplitl [Ho3]
        · iexact Ho3
        isplitl [Hi3]
        · iexact Hi3
        · iexact Hm3
      isplitl [Hi4 Ho4 Hm4 Hs4]
      · iapply (free_of m d L slotM4 cc0_scratch7 cc0_scratch13 4 fb)
        isplitl [Hi4]
        · iexact Hi4
        isplitl [Ho4]
        · iexact Ho4
        isplitl [Hm4]
        · iexact Hm4
        · iexact Hs4
      isplitl [Hi5 Ho5 Hm5 Hs5]
      · iapply (free_of m d L slotM5 cc0_scratch8 cc0_scratch14 5 fb)
        isplitl [Hi5]
        · iexact Hi5
        isplitl [Ho5]
        · iexact Ho5
        isplitl [Hm5]
        · iexact Hm5
        · iexact Hs5
      · iexact Ho
    · -- after the loop: the stores of the last six chunks are waited for
      iintro %acc HI
      ihave HI := (endB m d L fnb O W _ trips_eq) $$ HI
      icases HI with ⟨HT, HInv⟩
      ihave HT := (tailB1_open m d L) $$ HT
      icases HT with ⟨Hns, Hn, ⟨%fnb', Hnb⟩⟩
      ihave HInv := (Entails.of_eq (Inv_end m d L O W)) $$ HInv
      icases HInv with ⟨⟨%W', %hW', HO⟩, P4, P5, P0, P1, P2, P3, Houts⟩
      ihave P4 := (sfl_open m d L slotM4 cc0_scratch7 cc0_scratch13 4 ⟨58, h58⟩) $$ P4
      icases P4 with ⟨Hi4, Hm4, ⟨%g4, Fl4⟩⟩
      ihave P5 := (sfl_open m d L slotM5 cc0_scratch8 cc0_scratch14 5 ⟨59, h59⟩) $$ P5
      icases P5 with ⟨Hi5, Hm5, ⟨%g5, Fl5⟩⟩
      ihave P0 := (sfl_open m d L slotM0 cc0_scratch3 cc0_scratch9 0 ⟨60, h60⟩) $$ P0
      icases P0 with ⟨Hi0, Hm0, ⟨%g0, Fl0⟩⟩
      ihave P1 := (sfl_open m d L slotM1 cc0_scratch4 cc0_scratch10 1 ⟨61, h61⟩) $$ P1
      icases P1 with ⟨Hi1, Hm1, ⟨%g1, Fl1⟩⟩
      ihave P2 := (sfl_open m d L slotM2 cc0_scratch5 cc0_scratch11 2 ⟨62, h62⟩) $$ P2
      icases P2 with ⟨Hi2, Hm2, ⟨%g2, Fl2⟩⟩
      ihave P3 := (sfl_open m d L slotM3 cc0_scratch6 cc0_scratch12 3 ⟨63, h63⟩) $$ P3
      icases P3 with ⟨Hi3, Hm3, ⟨%g3, Fl3⟩⟩
      sl_exec_parts
      sl_step
      ihave Hm12 := (Entails.of_eq (respell_m (F := F) d L _ _).symm) $$ Hm12
      ihave Hbb := (Entails.of_eq (show (bbW.view.loc (V d (cV L) (jV L)) ↦{fullShare} fbb : sProp 𝕄) = ((V d (cV L) (jV L)).loc cc0_scratch1 ↦{fullShare} fbb) from rfl)) $$ Hbb
      isplitl [Hn Hmd Hm0 Hm1 Hm2 Hm3 Hm4 Hm5 Hm6 Hm7 Hm8 Hm9 Hm10 Hm11 Hm12 Hm13 Houts Fl4_dst Fl5_dst Fl0_dst Fl1_dst Fl2_dst Fl3_dst]
      · -- the read shares whole again, the band at the result's value
        isplitl [Hn]
        · iexact Hn
        isplitl [Hmd Hm0 Hm1 Hm2 Hm3 Hm4 Hm5 Hm6 Hm7 Hm8 Hm9 Hm10 Hm11 Hm12 Hm13]
        · iapply (Transfers.pointsTo_toks_range (qW (wL L)) 14).2
          irw [range14]
          isplitl [Hmd]
          · iexact Hmd
          isplitl [Hm0]
          · iexact Hm0
          isplitl [Hm1]
          · iexact Hm1
          isplitl [Hm2]
          · iexact Hm2
          isplitl [Hm3]
          · iexact Hm3
          isplitl [Hm4]
          · iexact Hm4
          isplitl [Hm5]
          · iexact Hm5
          isplitl [Hm6]
          · iexact Hm6
          isplitl [Hm7]
          · iexact Hm7
          isplitl [Hm8]
          · iexact Hm8
          isplitl [Hm9]
          · iexact Hm9
          isplitl [Hm10]
          · iexact Hm10
          isplitl [Hm11]
          · iexact Hm11
          isplitl [Hm12]
          · iexact Hm12
          · iexact Hm13
        · iapply (Entails.of_eq (outs_final_band m d L ⟨58, h58⟩ ⟨59, h59⟩ ⟨60, h60⟩ ⟨61, h61⟩ ⟨62, h62⟩ ⟨63, h63⟩ rfl rfl rfl rfl rfl rfl))
          isplitl [Fl4_dst]
          · iexact Fl4_dst
          isplitl [Fl5_dst]
          · iexact Fl5_dst
          isplitl [Fl0_dst]
          · iexact Fl0_dst
          isplitl [Fl1_dst]
          · iexact Fl1_dst
          isplitl [Fl2_dst]
          · iexact Fl2_dst
          isplitl [Fl3_dst]
          · iexact Fl3_dst
          · iexact Houts
      isplitl [Fl0_src Fl1_src Fl2_src Fl3_src Fl4_src Fl5_src Hbb Hnb Hbufs]
      · -- the scratch back, at some contents
        isplitl [Fl0_src Fl1_src Fl2_src Fl3_src Fl4_src Fl5_src]
        · iapply (slots_join d L g0 g1 g2 g3 g4 g5)
          isplitl [Fl0_src]
          · iexact Fl0_src
          isplitl [Fl1_src]
          · iexact Fl1_src
          isplitl [Fl2_src]
          · iexact Fl2_src
          isplitl [Fl3_src]
          · iexact Fl3_src
          isplitl [Fl4_src]
          · iexact Fl4_src
          · iexact Fl5_src
        isplitl [Hbb]
        · iexists _
          iexact Hbb
        isplitl [Hnb]
        · iexists _
          iexact Hnb
        · iexact Hbufs
      isplitl [Hi0 Hi1 Hi2 Hi3 Hi4 Hi5 Fl0 Fl1 Fl2 Fl3 Fl4 Fl5 Hbs Hns Hsems]
      · -- the semaphores at zero
        isplitl [Hi0]
        · iexact Hi0
        isplitl [Hi1]
        · iexact Hi1
        isplitl [Hi2]
        · iexact Hi2
        isplitl [Hi3]
        · iexact Hi3
        isplitl [Hi4]
        · iexact Hi4
        isplitl [Hi5]
        · iexact Hi5
        isplitl [Fl0]
        · iexact Fl0
        isplitl [Fl1]
        · iexact Fl1
        isplitl [Fl2]
        · iexact Fl2
        isplitl [Fl3]
        · iexact Fl3
        isplitl [Fl4]
        · iexact Fl4
        isplitl [Fl5]
        · iexact Fl5
        isplitl [Hbs]
        · iexact Hbs
        isplitl [Hns]
        · iexact Hns
        · iexact Hsems
      iexists _
      isplitr
      pick_goal 2
      · iexact HO
      · ipureintro
        intro p hp
        simp only [Finset.mem_insert] at hp
        rcases hp with hp | hp | hp | hp | hp | hp | hp
        · exact Or.inr (by subst hp; rfl)
        · exact Or.inr (by subst hp; rfl)
        · exact Or.inr (by subst hp; rfl)
        · exact Or.inr (by subst hp; rfl)
        · exact Or.inr (by subst hp; rfl)
        · exact Or.inr (by subst hp; rfl)
        · exact hW' p hp
  · -- every worker but the last: the boundary rows are on their way, `new` is not fetched
    ihave if1 := (Guarded.elim_neg hc0) $$ if1
    icases if1 with ⟨Hns, Hnb⟩
    ihave if2 := (Guarded.elim_pos hc1) $$ if2
    ihave Hn := (pointsTo_gset_neg hc0) $$ Hn
    ihave Hm12 := (pointsTo_gset_pos hc1) $$ Hm12
    sl_for (fun (k : Nat) (_ : PUnit) => iprop(Transfers.MayWaits (thr d L) (none : HIx 1) O ∗ tailA m d L (k0_off1_inb L hc1) fbb k ∗ Inv m d L O W k))
      $$ [Hm12 if2 HO Hi0 Ho0 Hm0 Hs0 Ho1 Hi1 Hm1 Ho2 Hi2 Hm2 Ho3 Hi3 Hm3 Hi4 Ho4 Hm4 Hs4 Hi5 Ho5 Hm5 Hs5 Ho]
    case region =>
      intro k acc
      by_cases hk : k.val < 63
      · have h := T.step d L k hk O W (tailA0 m d L (k0_off1_inb L hc1) fbb)
        rw [tailA_lt m d L (k0_off1_inb L hc1) fbb k.val (by omega), tailA_lt m d L (k0_off1_inb L hc1) fbb (k.val + 1) (by omega)]
        exact h
      · have hk63 : k.val = 63 := by have := Nat.lt_of_lt_of_le k.isLt k0_t1_abs.2.1; omega
        have h := T.lastA d L k hk63 (hwA L hc1) (k0_off1_inb L hc1) fbb O W
        rw [tailA_lt m d L (k0_off1_inb L hc1) fbb k.val (by omega), tailA_ge m d L (k0_off1_inb L hc1) fbb (k.val + 1) (by omega)]
        exact h
    · -- the invariant before the first trip
      irw [tailA_lt m d L (k0_off1_inb L hc1) fbb 0 (by decide), Inv_zero m d L O W, outs_zero m d L, tailA0]
      isplitr
      · iexact Hmw
      isplitl [Hm12 if2]
      · isplitl [Hm12]
        · iexact Hm12
        · iexact if2
      isplitl [HO]
      · iexists _
        isplitr
        pick_goal 2
        · iexact HO
        · ipureintro
          intro p hp
          rcases Finset.mem_insert.1 hp with hp | hp
          · exact Or.inr (by subst hp; rfl)
          · exact Or.inl hp
      isplitl [Hi0 Ho0 Hm0 Hs0]
      · iapply (held_of m d L slotM0 cc0_scratch3 cc0_scratch9 0 ⟨0, h0⟩ _ hh0)
        isplitl [Hi0]
        · iexact Hi0
        isplitl [Ho0]
        · iexact Ho0
        isplitl [Hm0]
        · iexact Hm0
        · iexact Hs0
      isplitl [Ho1 Hi1 Hm1]
      · iapply (gfl_of m d L slotM1 cc0_scratch4 cc0_scratch10 1 ⟨1, h1⟩ fb _ _ s1 e3)
        isplitl [Ho1]
        · iexact Ho1
        isplitl [Hi1]
        · iexact Hi1
        · iexact Hm1
      isplitl [Ho2 Hi2 Hm2]
      · iapply (gfl_of m d L slotM2 cc0_scratch5 cc0_scratch11 2 ⟨2, h2⟩ fb _ _ s2 e4)
        isplitl [Ho2]
        · iexact Ho2
        isplitl [Hi2]
        · iexact Hi2
        · iexact Hm2
      isplitl [Ho3 Hi3 Hm3]
      · iapply (gfl_of m d L slotM3 cc0_scratch6 cc0_scratch12 3 ⟨3, h3⟩ fb _ _ s3 e5)
        isplitl [Ho3]
        · iexact Ho3
        isplitl [Hi3]
        · iexact Hi3
        · iexact Hm3
      isplitl [Hi4 Ho4 Hm4 Hs4]
      · iapply (free_of m d L slotM4 cc0_scratch7 cc0_scratch13 4 fb)
        isplitl [Hi4]
        · iexact Hi4
        isplitl [Ho4]
        · iexact Ho4
        isplitl [Hm4]
        · iexact Hm4
        · iexact Hs4
      isplitl [Hi5 Ho5 Hm5 Hs5]
      · iapply (free_of m d L slotM5 cc0_scratch8 cc0_scratch14 5 fb)
        isplitl [Hi5]
        · iexact Hi5
        isplitl [Ho5]
        · iexact Ho5
        isplitl [Hm5]
        · iexact Hm5
        · iexact Hs5
      · iexact Ho
    · -- after the loop: the stores of the last six chunks are waited for
      iintro %acc HI
      ihave HI := (endA m d L (k0_off1_inb L hc1) fbb O W _ trips_eq) $$ HI
      icases HI with ⟨HT, HInv⟩
      ihave HT := (tailA1_open m d L) $$ HT
      icases HT with ⟨Hbs, Hm12, ⟨%fbb', Hbb⟩⟩
      ihave HInv := (Entails.of_eq (Inv_end m d L O W)) $$ HInv
      icases HInv with ⟨⟨%W', %hW', HO⟩, P4, P5, P0, P1, P2, P3, Houts⟩
      ihave P4 := (sfl_open m d L slotM4 cc0_scratch7 cc0_scratch13 4 ⟨58, h58⟩) $$ P4
      icases P4 with ⟨Hi4, Hm4, ⟨%g4, Fl4⟩⟩
      ihave P5 := (sfl_open m d L slotM5 cc0_scratch8 cc0_scratch14 5 ⟨59, h59⟩) $$ P5
      icases P5 with ⟨Hi5, Hm5, ⟨%g5, Fl5⟩⟩
      ihave P0 := (sfl_open m d L slotM0 cc0_scratch3 cc0_scratch9 0 ⟨60, h60⟩) $$ P0
      icases P0 with ⟨Hi0, Hm0, ⟨%g0, Fl0⟩⟩
      ihave P1 := (sfl_open m d L slotM1 cc0_scratch4 cc0_scratch10 1 ⟨61, h61⟩) $$ P1
      icases P1 with ⟨Hi1, Hm1, ⟨%g1, Fl1⟩⟩
      ihave P2 := (sfl_open m d L slotM2 cc0_scratch5 cc0_scratch11 2 ⟨62, h62⟩) $$ P2
      icases P2 with ⟨Hi2, Hm2, ⟨%g2, Fl2⟩⟩
      ihave P3 := (sfl_open m d L slotM3 cc0_scratch6 cc0_scratch12 3 ⟨63, h63⟩) $$ P3
      icases P3 with ⟨Hi3, Hm3, ⟨%g3, Fl3⟩⟩
      sl_exec_parts
      sl_step
      ihave Hn := (Entails.of_eq (respell_n (F := F) d L _ _).symm) $$ Hn
      ihave Hnb := (Entails.of_eq (show (nbW.view.loc (V d (cV L) (jV L)) ↦{fullShare} fnb : sProp 𝕄) = ((V d (cV L) (jV L)).loc cc0_scratch2 ↦{fullShare} fnb) from rfl)) $$ Hnb
      isplitl [Hn Hmd Hm0 Hm1 Hm2 Hm3 Hm4 Hm5 Hm6 Hm7 Hm8 Hm9 Hm10 Hm11 Hm12 Hm13 Houts Fl4_dst Fl5_dst Fl0_dst Fl1_dst Fl2_dst Fl3_dst]
      · -- the read shares whole again, the band at the result's value
        isplitl [Hn]
        · iexact Hn
        isplitl [Hmd Hm0 Hm1 Hm2 Hm3 Hm4 Hm5 Hm6 Hm7 Hm8 Hm9 Hm10 Hm11 Hm12 Hm13]
        · iapply (Transfers.pointsTo_toks_range (qW (wL L)) 14).2
          irw [range14]
          isplitl [Hmd]
          · iexact Hmd
          isplitl [Hm0]
          · iexact Hm0
          isplitl [Hm1]
          · iexact Hm1
          isplitl [Hm2]
          · iexact Hm2
          isplitl [Hm3]
          · iexact Hm3
          isplitl [Hm4]
          · iexact Hm4
          isplitl [Hm5]
          · iexact Hm5
          isplitl [Hm6]
          · iexact Hm6
          isplitl [Hm7]
          · iexact Hm7
          isplitl [Hm8]
          · iexact Hm8
          isplitl [Hm9]
          · iexact Hm9
          isplitl [Hm10]
          · iexact Hm10
          isplitl [Hm11]
          · iexact Hm11
          isplitl [Hm12]
          · iexact Hm12
          · iexact Hm13
        · iapply (Entails.of_eq (outs_final_band m d L ⟨58, h58⟩ ⟨59, h59⟩ ⟨60, h60⟩ ⟨61, h61⟩ ⟨62, h62⟩ ⟨63, h63⟩ rfl rfl rfl rfl rfl rfl))
          isplitl [Fl4_dst]
          · iexact Fl4_dst
          isplitl [Fl5_dst]
          · iexact Fl5_dst
          isplitl [Fl0_dst]
          · iexact Fl0_dst
          isplitl [Fl1_dst]
          · iexact Fl1_dst
          isplitl [Fl2_dst]
          · iexact Fl2_dst
          isplitl [Fl3_dst]
          · iexact Fl3_dst
          · iexact Houts
      isplitl [Fl0_src Fl1_src Fl2_src Fl3_src Fl4_src Fl5_src Hbb Hnb Hbufs]
      · -- the scratch back, at some contents
        isplitl [Fl0_src Fl1_src Fl2_src Fl3_src Fl4_src Fl5_src]
        · iapply (slots_join d L g0 g1 g2 g3 g4 g5)
          isplitl [Fl0_src]
          · iexact Fl0_src
          isplitl [Fl1_src]
          · iexact Fl1_src
          isplitl [Fl2_src]
          · iexact Fl2_src
          isplitl [Fl3_src]
          · iexact Fl3_src
          isplitl [Fl4_src]
          · iexact Fl4_src
          · iexact Fl5_src
        isplitl [Hbb]
        · iexists _
          iexact Hbb
        isplitl [Hnb]
        · iexists _
          iexact Hnb
        · iexact Hbufs
      isplitl [Hi0 Hi1 Hi2 Hi3 Hi4 Hi5 Fl0 Fl1 Fl2 Fl3 Fl4 Fl5 Hbs Hns Hsems]
      · -- the semaphores at zero
        isplitl [Hi0]
        · iexact Hi0
        isplitl [Hi1]
        · iexact Hi1
        isplitl [Hi2]
        · iexact Hi2
        isplitl [Hi3]
        · iexact Hi3
        isplitl [Hi4]
        · iexact Hi4
        isplitl [Hi5]
        · iexact Hi5
        isplitl [Fl0]
        · iexact Fl0
        isplitl [Fl1]
        · iexact Fl1
        isplitl [Fl2]
        · iexact Fl2
        isplitl [Fl3]
        · iexact Fl3
        isplitl [Fl4]
        · iexact Fl4
        isplitl [Fl5]
        · iexact Fl5
        isplitl [Hbs]
        · iexact Hbs
        isplitl [Hns]
        · iexact Hns
        · iexact Hsems
      iexists _
      isplitr
      pick_goal 2
      · iexact HO
      · ipureintro
        intro p hp
        simp only [Finset.mem_insert] at hp
        rcases hp with hp | hp | hp | hp | hp | hp | hp
        · exact Or.inr (by subst hp; rfl)
        · exact Or.inr (by subst hp; rfl)
        · exact Or.inr (by subst hp; rfl)
        · exact Or.inr (by subst hp; rfl)
        · exact Or.inr (by subst hp; rfl)
        · exact Or.inr (by subst hp; rfl)
        · exact hW' p hp

/-! ## The trips, rotation by rotation -/

/-- The invariant with the ring read from slot 0 on: the form it takes at the trips congruent to 0 modulo 6. -/
abbrev InvR0 (O : CellTallies nD τ sig (HIx 1)) (W : Waits sig (HIx 1)) (k : ℕ) : sProp 𝕄 :=
  InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k
/-- The invariant with the ring read from slot 1 on: the form it takes at the trips congruent to 1 modulo 6. -/
abbrev InvR1 (O : CellTallies nD τ sig (HIx 1)) (W : Waits sig (HIx 1)) (k : ℕ) : sProp 𝕄 :=
  InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k
/-- The invariant with the ring read from slot 2 on: the form it takes at the trips congruent to 2 modulo 6. -/
abbrev InvR2 (O : CellTallies nD τ sig (HIx 1)) (W : Waits sig (HIx 1)) (k : ℕ) : sProp 𝕄 :=
  InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k
/-- The invariant with the ring read from slot 3 on: the form it takes at the trips congruent to 3 modulo 6. -/
abbrev InvR3 (O : CellTallies nD τ sig (HIx 1)) (W : Waits sig (HIx 1)) (k : ℕ) : sProp 𝕄 :=
  InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k
/-- The invariant with the ring read from slot 4 on: the form it takes at the trips congruent to 4 modulo 6. -/
abbrev InvR4 (O : CellTallies nD τ sig (HIx 1)) (W : Waits sig (HIx 1)) (k : ℕ) : sProp 𝕄 :=
  InvGen m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W k
/-- The invariant with the ring read from slot 5 on: the form it takes at the trips congruent to 5 modulo 6. -/
abbrev InvR5 (O : CellTallies nD τ sig (HIx 1)) (W : Waits sig (HIx 1)) (k : ℕ) : sProp 𝕄 :=
  InvGen m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W k

/-- The trips stated per rotation of the ring and per range of the trip number (before the first store is waited for; the
    steady range; after the look-ahead has stopped; the last trip, for the two kinds of worker). -/
structure RotTrips : Prop where
  early0 : ∀ (d : Dev nD) (L : grid0.Coords) (k : Fin k0_t1_loop.trips), k.val % 6 = 0 → k.val < 2 → ∀ (O : CellTallies nD τ sig (HIx 1)) (W : Waits sig (HIx 1)) (R : sProp 𝕄),
    TripStmt (F := F) d L k iprop(Transfers.MayWaits (thr d L) (none : HIx 1) O ∗ R ∗ InvR0 m d L O W k.val) iprop(Transfers.MayWaits (thr d L) (none : HIx 1) O ∗ R ∗ InvR1 m d L O W (k.val + 1))
  early1 : ∀ (d : Dev nD) (L : grid0.Coords) (k : Fin k0_t1_loop.trips), k.val % 6 = 1 → k.val < 2 → ∀ (O : CellTallies nD τ sig (HIx 1)) (W : Waits sig (HIx 1)) (R : sProp 𝕄),
    TripStmt (F := F) d L k iprop(Transfers.MayWaits (thr d L) (none : HIx 1) O ∗ R ∗ InvR1 m d L O W k.val) iprop(Transfers.MayWaits (thr d L) (none : HIx 1) O ∗ R ∗ InvR2 m d L O W (k.val + 1))
  steady0 : ∀ (d : Dev nD) (L : grid0.Coords) (k : Fin k0_t1_loop.trips), k.val % 6 = 0 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR0 m d L O W k.val) iprop(Transfers.MayWaits (thr d L) (none : HIx 1) O ∗ R ∗ InvR1 m d L O W (k.val + 1))
  steady1 : ∀ (d : Dev nD) (L : grid0.Coords) (k : Fin k0_t1_loop.trips), k.val % 6 = 1 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR1 m d L O W k.val) iprop(Transfers.MayWaits (thr d L) (none : HIx 1) O ∗ R ∗ InvR2 m d L O W (k.val + 1))
  steady2 : ∀ (d : Dev nD) (L : grid0.Coords) (k : Fin k0_t1_loop.trips), k.val % 6 = 2 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR2 m d L O W k.val) iprop(Transfers.MayWaits (thr d L) (none : HIx 1) O ∗ R ∗ InvR3 m d L O W (k.val + 1))
  steady3 : ∀ (d : Dev nD) (L : grid0.Coords) (k : Fin k0_t1_loop.trips), k.val % 6 = 3 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR3 m d L O W k.val) iprop(Transfers.MayWaits (thr d L) (none : HIx 1) O ∗ R ∗ InvR4 m d L O W (k.val + 1))
  steady4 : ∀ (d : Dev nD) (L : grid0.Coords) (k : Fin k0_t1_loop.trips), k.val % 6 = 4 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR4 m d L O W k.val) iprop(Transfers.MayWaits (thr d L) (none : HIx 1) O ∗ R ∗ InvR5 m d L O W (k.val + 1))
  steady5 : ∀ (d : Dev nD) (L : grid0.Coords) (k : Fin k0_t1_loop.trips), k.val % 6 = 5 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR5 m d L O W k.val) iprop(Transfers.MayWaits (thr d L) (none : HIx 1) O ∗ R ∗ InvR0 m d L O W (k.val + 1))
  late0 : ∀ (d : Dev nD) (L : grid0.Coords) (k : Fin k0_t1_loop.trips), k.val % 6 = 0 → 60 ≤ k.val → k.val < 63 → ∀ (O : CellTallies nD τ sig (HIx 1)) (W : Waits sig (HIx 1)) (R : sProp 𝕄),
    TripStmt (F := F) d L k iprop(Transfers.MayWaits (thr d L) (none : HIx 1) O ∗ R ∗ InvR0 m d L O W k.val) iprop(Transfers.MayWaits (thr d L) (none : HIx 1) O ∗ R ∗ InvR1 m d L O W (k.val + 1))
  late1 : ∀ (d : Dev nD) (L : grid0.Coords) (k : Fin k0_t1_loop.trips), k.val % 6 = 1 → 60 ≤ k.val → k.val < 63 → ∀ (O : CellTallies nD τ sig (HIx 1)) (W : Waits sig (HIx 1)) (R : sProp 𝕄),
    TripStmt (F := F) d L k iprop(Transfers.MayWaits (thr d L) (none : HIx 1) O ∗ R ∗ InvR1 m d L O W k.val) iprop(Transfers.MayWaits (thr d L) (none : HIx 1) O ∗ R ∗ InvR2 m d L O W (k.val + 1))
  late2 : ∀ (d : Dev nD) (L : grid0.Coords) (k : Fin k0_t1_loop.trips), k.val % 6 = 2 → 60 ≤ k.val → k.val < 63 → ∀ (O : CellTallies nD τ sig (HIx 1)) (W : Waits sig (HIx 1)) (R : sProp 𝕄),
    TripStmt (F := F) d L k iprop(Transfers.MayWaits (thr d L) (none : HIx 1) O ∗ R ∗ InvR2 m d L O W k.val) iprop(Transfers.MayWaits (thr d L) (none : HIx 1) O ∗ R ∗ InvR3 m d L O W (k.val + 1))
  lastA : ∀ (d : Dev nD) (L : grid0.Coords) (k : Fin k0_t1_loop.trips), k.val = 63 → (wL L).val < 31 →
    ∀ (inb : ∀ a, k0_off1 L a + S8x512.size a ≤ S65536x512.size a) (fbb : Buf (Elt F) ((thr d L).loc cc0_scratch1))
      (O : CellTallies nD τ sig (HIx 1)) (W : Waits sig (HIx 1)),
      TripStmt (F := F) d L k iprop(Transfers.MayWaits (thr d L) (none : HIx 1) O ∗ tailA0 m d L inb fbb ∗ InvR3 m d L O W k.val) iprop(Transfers.MayWaits (thr d L) (none : HIx 1) O ∗ tailA1 m d L ∗ InvR4 m d L O W (k.val + 1))
  lastB : ∀ (d : Dev nD) (L : grid0.Coords) (k : Fin k0_t1_loop.trips), k.val = 63 → (wL L).val = 31 →
    ∀ (fnb : Buf (Elt F) ((thr d L).loc cc0_scratch2)) (O : CellTallies nD τ sig (HIx 1)) (W : Waits sig (HIx 1)),
      TripStmt (F := F) d L k iprop(Transfers.MayWaits (thr d L) (none : HIx 1) O ∗ tailB0 m d L fnb ∗ InvR3 m d L O W k.val) iprop(Transfers.MayWaits (thr d L) (none : HIx 1) O ∗ tailB1 m d L ∗ InvR4 m d L O W (k.val + 1))

/-- The trips over the invariant, from the trips per rotation: the invariant at trip `k` is the rotation `k mod 6`. -/
theorem trips_of_rot (h : RotTrips (F := F) m) : Trips (F := F) m where
  step := by
    intro d L k hk O W R
    rcases (by omega : k.val % 6 = 0 ∨ k.val % 6 = 1 ∨ k.val % 6 = 2 ∨ k.val % 6 = 3 ∨ k.val % 6 = 4 ∨ k.val % 6 = 5) with h6 | h6 | h6 | h6 | h6 | h6
    · rw [Inv_mod0 m d L O W k.val h6, Inv_mod1 m d L O W (k.val + 1) (by omega)]
      rcases (by omega : k.val < 2 ∨ (2 ≤ k.val ∧ k.val < 60) ∨ 60 ≤ k.val) with a | ⟨a, b⟩ | a
      · exact h.early0 d L k h6 a O W R
      · exact h.steady0 d L k h6 a b O W R
      · exact h.late0 d L k h6 a hk O W R
    · rw [Inv_mod1 m d L O W k.val h6, Inv_mod2 m d L O W (k.val + 1) (by omega)]
      rcases (by omega : k.val < 2 ∨ (2 ≤ k.val ∧ k.val < 60) ∨ 60 ≤ k.val) with a | ⟨a, b⟩ | a
      · exact h.early1 d L k h6 a O W R
      · exact h.steady1 d L k h6 a b O W R
      · exact h.late1 d L k h6 a hk O W R
    · rw [Inv_mod2 m d L O W k.val h6, Inv_mod3 m d L O W (k.val + 1) (by omega)]
      rcases (by omega : k.val < 2 ∨ (2 ≤ k.val ∧ k.val < 60) ∨ 60 ≤ k.val) with a | ⟨a, b⟩ | a
      · omega
      · exact h.steady2 d L k h6 a b O W R
      · exact h.late2 d L k h6 a hk O W R
    · rw [Inv_mod3 m d L O W k.val h6, Inv_mod4 m d L O W (k.val + 1) (by omega)]
      rcases (by omega : k.val < 2 ∨ (2 ≤ k.val ∧ k.val < 60) ∨ 60 ≤ k.val) with a | ⟨a, b⟩ | a
      · omega
      · exact h.steady3 d L k h6 a b O W R
      · omega
    · rw [Inv_mod4 m d L O W k.val h6, Inv_mod5 m d L O W (k.val + 1) (by omega)]
      rcases (by omega : k.val < 2 ∨ (2 ≤ k.val ∧ k.val < 60) ∨ 60 ≤ k.val) with a | ⟨a, b⟩ | a
      · omega
      · exact h.steady4 d L k h6 a b O W R
      · omega
    · rw [Inv_mod5 m d L O W k.val h6, Inv_mod0 m d L O W (k.val + 1) (by omega)]
      rcases (by omega : k.val < 2 ∨ (2 ≤ k.val ∧ k.val < 60) ∨ 60 ≤ k.val) with a | ⟨a, b⟩ | a
      · omega
      · exact h.steady5 d L k h6 a b O W R
      · omega
  lastA := by
    intro d L k hk hw inb fbb O W
    rw [Inv_mod3 m d L O W k.val (by omega), Inv_mod4 m d L O W (k.val + 1) (by omega)]
    exact h.lastA d L k hk hw inb fbb O W
  lastB := by
    intro d L k hk hw fnb O W
    rw [Inv_mod3 m d L O W k.val (by omega), Inv_mod4 m d L O W (k.val + 1) (by omega)]
    exact h.lastB d L k hk hw fnb O W

end Cert.Proof.IdealK

end
-- ==== Proof.IdealRot.lean ====
/-
  The row rotation of one slot of the scratch ring, as pure mathematics. The ring is a 6 x 32 x 512 array. One step copies
  sixteen lanes of one row onto the same lanes of another row: the box of one row and sixteen lanes at `src` is read and
  written through the box at `dst`. Rotating slot `b` up by one row is 992 such steps, pair number `n = 32 r + c` moving lanes
  `16 c … 16 c + 15` of row `r + 1` to row `r`, in increasing order of `n`: after `n` steps exactly the pairs below `n` hold
  the row above them. Then row 31 of the slot is filled, sixteen lanes at a time, from row 0 of another slot. Read through
  the slot's own 32 x 512 view, the result is: row `r` is the old row `r + 1` for `r < 31`, and row 31 is row 0 of the other slot.
-/
import proofs.«213455_g39170101740086_cont_8to1_b_302_25_alg».proof.Proof.IdealSlots
import Idealize.ShloMosaic.Lib.Pipeline.Value
import Idealize.ShloMosaic.Lib.ValueIdx

noncomputable section

namespace Cert.Proof.IdealK
open Cert.KernelIdeal Cert.KernelIdeal.Gen

open Idealize.ShloMosaic

variable {F : FTy → Type}

/-! ## Contents and indices of the ring -/

/-- The contents of the scratch ring: a value at every index of the 6 x 32 x 512 array. -/
abbrev Ring (F : FTy → Type) : Type := (bufW : Memref sig .scVector .vmem S6x32x512 .f32).view.ty.Contents (Elt F)

/-- The index `(a, b, c)` of the ring, each coordinate clamped into its range. -/
def ixC (a b c : ℕ) : S6x32x512.Idx :=
  ValueIdx.ix3 (⟨min a 5, by omega⟩ : Fin 6) (⟨min b 31, by omega⟩ : Fin 32) (⟨min c 511, by omega⟩ : Fin 512)

theorem ixC_0 (a b c : ℕ) : (ixC a b c 0).val = min a 5 := rfl
theorem ixC_1 (a b c : ℕ) : (ixC a b c 1).val = min b 31 := rfl
theorem ixC_2 (a b c : ℕ) : (ixC a b c 2).val = min c 511 := rfl

/-- Two indices of the ring with equal coordinates are equal. -/
theorem ext3 {x y : S6x32x512.Idx} (h0 : (x 0).val = (y 0).val) (h1 : (x 1).val = (y 1).val) (h2 : (x 2).val = (y 2).val) : x = y :=
  funext fun a => Fin.ext (match a with | ⟨0, _⟩ => h0 | ⟨1, _⟩ => h1 | ⟨2, _⟩ => h2)

theorem idx0_lt (x : S6x32x512.Idx) : (x 0).val < 6 := (x 0).isLt
theorem idx1_lt (x : S6x32x512.Idx) : (x 1).val < 32 := (x 1).isLt
theorem idx2_lt (x : S6x32x512.Idx) : (x 2).val < 512 := (x 2).isLt

/-! ## One step: sixteen lanes of one row onto another -/

/-- The ring after the sixteen lanes at `src` are read and stored through the sixteen lanes at `dst`. -/
def cp16 (f : Ring F) (dst src : Fin 3 → ℕ) (hd : ∀ a, dst a + S1x1x16.size a ≤ S6x32x512.size a)
    (hs : ∀ a, src a + S1x1x16.size a ≤ S6x32x512.size a) : Ring F :=
  View.write (Elt F) (bufW.access (Rect.unit (s := S6x32x512) dst S1x1x16.size hd)) f
    (shapeCast S1x1x16 (shapeCast S16 (bufW.view.readAt (Elt F) (Rect.unit (s := S6x32x512) src S1x1x16.size hs).toLoadRect f) shapeCasts_S1x1x16_S16)
      shapeCasts_S16_S1x1x16) Finset.univ

/-- The sixteen-lane box at `off`: row `(off 0, off 1)`, lanes `off 2 … off 2 + 15`. -/
def inBox (off : Fin 3 → ℕ) (idx : S6x32x512.Idx) : Prop :=
  (idx 0).val = off 0 ∧ (idx 1).val = off 1 ∧ off 2 ≤ (idx 2).val ∧ (idx 2).val < off 2 + 16

instance (off : Fin 3 → ℕ) (idx : S6x32x512.Idx) : Decidable (inBox off idx) := by unfold inBox; infer_instance

theorem mem_box (off : Fin 3 → ℕ) (inb : ∀ a, off a + S1x1x16.size a ≤ S6x32x512.size a) (idx : S6x32x512.Idx) :
    idx ∈ (Rect.unit (s := S6x32x512) off S1x1x16.size inb).set ↔ inBox off idx := by
  rw [Rect.mem_set_unit]
  constructor
  · intro h
    have h0 : off 0 ≤ (idx 0).val ∧ (idx 0).val < off 0 + 1 := h 0
    have h1 : off 1 ≤ (idx 1).val ∧ (idx 1).val < off 1 + 1 := h 1
    have h2 : off 2 ≤ (idx 2).val ∧ (idx 2).val < off 2 + 16 := h 2
    exact ⟨by omega, by omega, h2.1, h2.2⟩
  · rintro ⟨e0, e1, l2, u2⟩ a
    match a with
    | ⟨0, _⟩ => exact (show off 0 ≤ (idx 0).val ∧ (idx 0).val < off 0 + 1 from by omega)
    | ⟨1, _⟩ => exact (show off 1 ≤ (idx 1).val ∧ (idx 1).val < off 1 + 1 from by omega)
    | ⟨2, _⟩ => exact (show off 2 ≤ (idx 2).val ∧ (idx 2).val < off 2 + 16 from ⟨l2, u2⟩)

/-- Casting sixteen lanes to a vector and back changes nothing. -/
theorem cast16 {α : Type} (v : S1x1x16.Idx → α) (x : S1x1x16.Idx) :
    shapeCast S1x1x16 (shapeCast S16 v shapeCasts_S1x1x16_S16) shapeCasts_S16_S1x1x16 x = v x :=
  congrFun (shapeCast_shapeCast v _ _) x

/-- One step, index by index: inside the destination box the ring takes the source box's value at the same lane offset;
    elsewhere it is unchanged. -/
theorem cp16_apply (f : Ring F) (dst src : Fin 3 → ℕ) (hd : ∀ a, dst a + S1x1x16.size a ≤ S6x32x512.size a)
    (hs : ∀ a, src a + S1x1x16.size a ≤ S6x32x512.size a) (idx : S6x32x512.Idx) :
    cp16 f dst src hd hs idx = if inBox dst idx then f (ixC (src 0) (src 1) (src 2 + ((idx 2).val - dst 2))) else f idx := by
  unfold cp16
  by_cases hin : inBox dst idx
  · rw [if_pos hin]
    obtain ⟨e0, e1, l2, u2⟩ := hin
    have hs0 : src 0 + 1 ≤ 6 := hs 0
    have hs1 : src 1 + 1 ≤ 32 := hs 1
    have hs2 : src 2 + 16 ≤ 512 := hs 2
    let x : S1x1x16.Idx := ValueIdx.ix3 (⟨0, by decide⟩ : Fin 1) (⟨0, by decide⟩ : Fin 1) (⟨(idx 2).val - dst 2, by omega⟩ : Fin 16)
    have hx : idx = (bufW.access (Rect.unit (s := S6x32x512) dst S1x1x16.size hd)).emb x :=
      ext3 (by show (idx 0).val = dst 0 + 1 * 0; omega) (by show (idx 1).val = dst 1 + 1 * 0; omega)
        (by show (idx 2).val = dst 2 + 1 * ((idx 2).val - dst 2); omega)
    refine (congrArg (View.write (Elt F) (bufW.access (Rect.unit (s := S6x32x512) dst S1x1x16.size hd)) f _ Finset.univ) hx).trans ?_
    rw [View.write_emb_of_mem _ _ (Finset.mem_univ x), cast_eq]
    refine (cast16 _ x).trans ?_
    rw [View.readAt_apply, View.read_apply, cast_eq]
    refine congrArg f (ext3 ?_ ?_ ?_)
    · show src 0 + 1 * 0 = min (src 0) 5; omega
    · show src 1 + 1 * 0 = min (src 1) 31; omega
    · show src 2 + 1 * ((idx 2).val - dst 2) = min (src 2 + ((idx 2).val - dst 2)) 511; omega
  · rw [if_neg hin]
    refine View.write_of_not_mem _ _ _ fun hmem => hin ((mem_box dst hd idx).mp ?_)
    have e : (bufW.access (Rect.unit (s := S6x32x512) dst S1x1x16.size hd)).setOn Finset.univ = (Rect.unit (s := S6x32x512) dst S1x1x16.size hd).set :=
      View.set_slice_whole _ _
    exact e ▸ hmem

/-! ## The rotation, step by step -/

/-- After `n` steps of rotating slot `b`: the pairs (row, lane block) numbered below `n` hold the row above; all else is as before. -/
def Rot (b n : ℕ) (f g : Ring F) : Prop :=
  ∀ idx : S6x32x512.Idx, g idx = if (idx 0).val = b ∧ 32 * (idx 1).val + (idx 2).val / 16 < n then f (ixC (idx 0).val ((idx 1).val + 1) (idx 2).val) else f idx

theorem rot_zero (b : ℕ) (f : Ring F) : Rot b 0 f f := fun idx => by
  rw [if_neg (fun h => Nat.not_lt_zero _ h.2)]

/-- Step `n`: lanes `16 (n mod 32) …` of row `n div 32 + 1` onto row `n div 32`. -/
theorem rot_step {b n : ℕ} {f g : Ring F} (h : Rot b n f g) (hn : n < 992) {dst src : Fin 3 → ℕ}
    (hd : ∀ a, dst a + S1x1x16.size a ≤ S6x32x512.size a) (hs : ∀ a, src a + S1x1x16.size a ≤ S6x32x512.size a)
    (hdst : dst = ![b, n / 32, 16 * (n % 32)]) (hsrc : src = ![b, n / 32 + 1, 16 * (n % 32)]) (hb : b < 6) :
    Rot b (n + 1) f (cp16 g dst src hd hs) := by
  intro idx
  have i0 := idx0_lt idx; have i1 := idx1_lt idx; have i2 := idx2_lt idx
  have d0 : dst 0 = b := by rw [hdst]; rfl
  have d1 : dst 1 = n / 32 := by rw [hdst]; rfl
  have d2 : dst 2 = 16 * (n % 32) := by rw [hdst]; rfl
  have s0 : src 0 = b := by rw [hsrc]; rfl
  have s1 : src 1 = n / 32 + 1 := by rw [hsrc]; rfl
  have s2 : src 2 = 16 * (n % 32) := by rw [hsrc]; rfl
  rw [cp16_apply]
  by_cases hin : inBox dst idx
  · rw [if_pos hin]
    obtain ⟨e0, e1, l2, u2⟩ := hin
    rw [d0] at e0; rw [d1] at e1; rw [d2] at l2 u2
    rw [if_pos ⟨e0, by omega⟩, h, s0, s1, s2, d2]
    rw [if_neg (by rw [ixC_0, ixC_1, ixC_2]; omega)]
    refine congrArg f (ext3 ?_ ?_ ?_)
    · rw [ixC_0, ixC_0]; omega
    · rw [ixC_1, ixC_1]; omega
    · rw [ixC_2, ixC_2]; omega
  · rw [if_neg hin, h]
    have hiff : ((idx 0).val = b ∧ 32 * (idx 1).val + (idx 2).val / 16 < n) ↔ ((idx 0).val = b ∧ 32 * (idx 1).val + (idx 2).val / 16 < n + 1) := by
      unfold inBox at hin
      rw [d0, d1, d2] at hin
      constructor
      · rintro ⟨a, c⟩; exact ⟨a, by omega⟩
      · rintro ⟨a, c⟩
        refine ⟨a, ?_⟩
        by_contra hc
        exact hin ⟨a, by omega, by omega, by omega⟩
    by_cases hc : (idx 0).val = b ∧ 32 * (idx 1).val + (idx 2).val / 16 < n
    · rw [if_pos hc, if_pos (hiff.mp hc)]
    · rw [if_neg hc, if_neg (fun h' => hc (hiff.mpr h'))]

/-! ## Filling the last row from the next slot -/

/-- Slot `b` fully rotated, and the first `16 m` lanes of its row 31 holding row 0 of slot `b'`. -/
def Fill (b b' m : ℕ) (f g : Ring F) : Prop :=
  ∀ idx : S6x32x512.Idx, g idx =
    if (idx 0).val = b then
      if (idx 1).val < 31 then f (ixC (idx 0).val ((idx 1).val + 1) (idx 2).val)
      else if (idx 2).val < 16 * m then f (ixC b' 0 (idx 2).val) else f idx
    else f idx

theorem fill_zero {b : ℕ} (b' : ℕ) {f g : Ring F} (h : Rot b 992 f g) : Fill b b' 0 f g := by
  intro idx
  have i1 := idx1_lt idx; have i2 := idx2_lt idx
  rw [h]
  by_cases h0 : (idx 0).val = b
  · rw [if_pos h0]
    by_cases h1 : (idx 1).val < 31
    · rw [if_pos h1, if_pos ⟨h0, by omega⟩]
    · rw [if_neg h1, if_neg (by omega), if_neg (fun hc => h1 (by omega))]
  · rw [if_neg h0, if_neg (fun hc => h0 hc.1)]

/-- Step `m` of the fill: lanes `16 m …` of row 0 of slot `b'` onto row 31 of slot `b`. -/
theorem fill_step {b b' m : ℕ} {f g : Ring F} (h : Fill b b' m f g) (hm : m < 32) (hbb : b ≠ b') (hb' : b' < 6) {dst src : Fin 3 → ℕ}
    (hd : ∀ a, dst a + S1x1x16.size a ≤ S6x32x512.size a) (hs : ∀ a, src a + S1x1x16.size a ≤ S6x32x512.size a)
    (hdst : dst = ![b, 31, 16 * m]) (hsrc : src = ![b', 0, 16 * m]) :
    Fill b b' (m + 1) f (cp16 g dst src hd hs) := by
  intro idx
  have i0 := idx0_lt idx; have i1 := idx1_lt idx; have i2 := idx2_lt idx
  have d0 : dst 0 = b := by rw [hdst]; rfl
  have d1 : dst 1 = 31 := by rw [hdst]; rfl
  have d2 : dst 2 = 16 * m := by rw [hdst]; rfl
  have s0 : src 0 = b' := by rw [hsrc]; rfl
  have s1 : src 1 = 0 := by rw [hsrc]; rfl
  have s2 : src 2 = 16 * m := by rw [hsrc]; rfl
  rw [cp16_apply]
  by_cases hin : inBox dst idx
  · rw [if_pos hin]
    obtain ⟨e0, e1, l2, u2⟩ := hin
    rw [d0] at e0; rw [d1] at e1; rw [d2] at l2 u2
    rw [if_pos e0, if_neg (by omega), if_pos (by omega), h, s0, s1, s2, d2]
    rw [if_neg (by rw [ixC_0]; omega)]
    refine congrArg f (ext3 ?_ ?_ ?_)
    · rw [ixC_0, ixC_0]
    · rw [ixC_1, ixC_1]
    · rw [ixC_2, ixC_2]; omega
  · rw [if_neg hin, h]
    unfold inBox at hin
    rw [d0, d1, d2] at hin
    by_cases h0 : (idx 0).val = b
    · rw [if_pos h0, if_pos h0]
      by_cases h1 : (idx 1).val < 31
      · rw [if_pos h1, if_pos h1]
      · rw [if_neg h1, if_neg h1]
        by_cases h2 : (idx 2).val < 16 * m
        · rw [if_pos h2, if_pos (by omega)]
        · rw [if_neg h2, if_neg (fun hc => hin ⟨h0, by omega, by omega, by omega⟩)]
    · rw [if_neg h0, if_neg h0]

/-! ## The same across two contents: the last row comes from another slot's own contents -/

/-- One step across two contents: the sixteen lanes at `src` of `f1` stored through the sixteen lanes at `dst` of `g`. -/
def cp16x (g f1 : Ring F) (dst src : Fin 3 → ℕ) (hd : ∀ a, dst a + S1x1x16.size a ≤ S6x32x512.size a)
    (hs : ∀ a, src a + S1x1x16.size a ≤ S6x32x512.size a) : Ring F :=
  View.write (Elt F) (bufW.access (Rect.unit (s := S6x32x512) dst S1x1x16.size hd)) g
    (shapeCast S1x1x16 (shapeCast S16 (bufW.view.readAt (Elt F) (Rect.unit (s := S6x32x512) src S1x1x16.size hs).toLoadRect f1) shapeCasts_S1x1x16_S16)
      shapeCasts_S16_S1x1x16) Finset.univ

theorem cp16_eq_cp16x (f : Ring F) (dst src : Fin 3 → ℕ) (hd : ∀ a, dst a + S1x1x16.size a ≤ S6x32x512.size a)
    (hs : ∀ a, src a + S1x1x16.size a ≤ S6x32x512.size a) : cp16 f dst src hd hs = cp16x f f dst src hd hs := rfl

theorem cp16x_apply (g f1 : Ring F) (dst src : Fin 3 → ℕ) (hd : ∀ a, dst a + S1x1x16.size a ≤ S6x32x512.size a)
    (hs : ∀ a, src a + S1x1x16.size a ≤ S6x32x512.size a) (idx : S6x32x512.Idx) :
    cp16x g f1 dst src hd hs idx = if inBox dst idx then f1 (ixC (src 0) (src 1) (src 2 + ((idx 2).val - dst 2))) else g idx := by
  unfold cp16x
  by_cases hin : inBox dst idx
  · rw [if_pos hin]
    obtain ⟨e0, e1, l2, u2⟩ := hin
    have hs0 : src 0 + 1 ≤ 6 := hs 0
    have hs1 : src 1 + 1 ≤ 32 := hs 1
    have hs2 : src 2 + 16 ≤ 512 := hs 2
    let x : S1x1x16.Idx := ValueIdx.ix3 (⟨0, by decide⟩ : Fin 1) (⟨0, by decide⟩ : Fin 1) (⟨(idx 2).val - dst 2, by omega⟩ : Fin 16)
    have hx : idx = (bufW.access (Rect.unit (s := S6x32x512) dst S1x1x16.size hd)).emb x :=
      ext3 (by show (idx 0).val = dst 0 + 1 * 0; omega) (by show (idx 1).val = dst 1 + 1 * 0; omega)
        (by show (idx 2).val = dst 2 + 1 * ((idx 2).val - dst 2); omega)
    refine (congrArg (View.write (Elt F) (bufW.access (Rect.unit (s := S6x32x512) dst S1x1x16.size hd)) g _ Finset.univ) hx).trans ?_
    rw [View.write_emb_of_mem _ _ (Finset.mem_univ x), cast_eq]
    refine (cast16 _ x).trans ?_
    rw [View.readAt_apply, View.read_apply, cast_eq]
    refine congrArg f1 (ext3 ?_ ?_ ?_)
    · show src 0 + 1 * 0 = min (src 0) 5; omega
    · show src 1 + 1 * 0 = min (src 1) 31; omega
    · show src 2 + 1 * ((idx 2).val - dst 2) = min (src 2 + ((idx 2).val - dst 2)) 511; omega
  · rw [if_neg hin]
    refine View.write_of_not_mem _ _ _ fun hmem => hin ((mem_box dst hd idx).mp ?_)
    have e : (bufW.access (Rect.unit (s := S6x32x512) dst S1x1x16.size hd)).setOn Finset.univ = (Rect.unit (s := S6x32x512) dst S1x1x16.size hd).set :=
      View.set_slice_whole _ _
    exact e ▸ hmem

/-- Slot `b` of `f` fully rotated, and the first `16 m` lanes of its row 31 holding row 0 of slot `b'` of `f1`. -/
def Fill2 (b b' m : ℕ) (f f1 g : Ring F) : Prop :=
  ∀ idx : S6x32x512.Idx, g idx =
    if (idx 0).val = b then
      if (idx 1).val < 31 then f (ixC (idx 0).val ((idx 1).val + 1) (idx 2).val)
      else if (idx 2).val < 16 * m then f1 (ixC b' 0 (idx 2).val) else f idx
    else f idx

theorem fill2_zero {b : ℕ} (b' : ℕ) {f g : Ring F} (f1 : Ring F) (h : Rot b 992 f g) : Fill2 b b' 0 f f1 g := by
  intro idx
  have i1 := idx1_lt idx; have i2 := idx2_lt idx
  rw [h]
  by_cases h0 : (idx 0).val = b
  · rw [if_pos h0]
    by_cases h1 : (idx 1).val < 31
    · rw [if_pos h1, if_pos ⟨h0, by omega⟩]
    · rw [if_neg h1, if_neg (by omega), if_neg (fun hc => h1 (by omega))]
  · rw [if_neg h0, if_neg (fun hc => h0 hc.1)]

theorem fill2_step {b b' m : ℕ} {f f1 g : Ring F} (h : Fill2 b b' m f f1 g) (hm : m < 32) (hb' : b' < 6) {dst src : Fin 3 → ℕ}
    (hd : ∀ a, dst a + S1x1x16.size a ≤ S6x32x512.size a) (hs : ∀ a, src a + S1x1x16.size a ≤ S6x32x512.size a)
    (hdst : dst = ![b, 31, 16 * m]) (hsrc : src = ![b', 0, 16 * m]) :
    Fill2 b b' (m + 1) f f1 (cp16x g f1 dst src hd hs) := by
  intro idx
  have i0 := idx0_lt idx; have i1 := idx1_lt idx; have i2 := idx2_lt idx
  have d0 : dst 0 = b := by rw [hdst]; rfl
  have d1 : dst 1 = 31 := by rw [hdst]; rfl
  have d2 : dst 2 = 16 * m := by rw [hdst]; rfl
  have s0 : src 0 = b' := by rw [hsrc]; rfl
  have s1 : src 1 = 0 := by rw [hsrc]; rfl
  have s2 : src 2 = 16 * m := by rw [hsrc]; rfl
  rw [cp16x_apply]
  by_cases hin : inBox dst idx
  · rw [if_pos hin]
    obtain ⟨e0, e1, l2, u2⟩ := hin
    rw [d0] at e0; rw [d1] at e1; rw [d2] at l2 u2
    rw [if_pos e0, if_neg (by omega), if_pos (by omega), s0, s1, s2, d2]
    refine congrArg f1 (ext3 ?_ ?_ ?_)
    · rw [ixC_0, ixC_0]
    · rw [ixC_1, ixC_1]
    · rw [ixC_2, ixC_2] <;> omega
  · rw [if_neg hin, h]
    unfold inBox at hin
    rw [d0, d1, d2] at hin
    by_cases h0 : (idx 0).val = b
    · rw [if_pos h0, if_pos h0]
      by_cases h1 : (idx 1).val < 31
      · rw [if_pos h1, if_pos h1]
      · rw [if_neg h1, if_neg h1]
        by_cases h2 : (idx 2).val < 16 * m
        · rw [if_pos h2, if_pos (by omega)]
        · rw [if_neg h2, if_neg (fun hc => hin ⟨h0, by omega, by omega, by omega⟩)]
    · rw [if_neg h0, if_neg h0]

/-! ## Read through a slot's own 32 x 512 view -/

theorem inb_slot (i : Fin 6) : ∀ a, (![i.val, 0, 0] : Fin 3 → ℕ) a + S1x32x512.size a ≤ S6x32x512.size a := by
  have := i.isLt
  intro a
  match a with
  | ⟨0, _⟩ => show i.val + 1 ≤ 6; omega
  | ⟨1, _⟩ => show 0 + 32 ≤ 32; omega
  | ⟨2, _⟩ => show 0 + 512 ≤ 512; omega

/-- Slot `i` of the ring as a 32 x 512 memref: index `i` of the first axis, squeezed. -/
abbrev slotMi (i : Fin 6) : Memref sig .scVector .vmem S32x512 .f32 :=
  (bufW.slice (Rect.unit (s := S6x32x512) ![i.val, 0, 0] S1x32x512.size (inb_slot i)) (fun _ => rfl)).squeeze S32x512 squeezes_S1x32x512_S32x512

theorem slotM0_eq : slotM0 = slotMi 0 := rfl
theorem slotM1_eq : slotM1 = slotMi 1 := rfl
theorem slotM2_eq : slotM2 = slotMi 2 := rfl
theorem slotM3_eq : slotM3 = slotMi 3 := rfl
theorem slotM4_eq : slotM4 = slotMi 4 := rfl
theorem slotM5_eq : slotM5 = slotMi 5 := rfl

/-- The index `(r, l)` of a slot, each coordinate clamped into its range. -/
def rcC (r l : ℕ) : S32x512.Idx := ValueIdx.ix2 (⟨min r 31, by omega⟩ : Fin 32) (⟨min l 511, by omega⟩ : Fin 512)
theorem rcC_0 (r l : ℕ) : (rcC r l 0).val = min r 31 := rfl
theorem rcC_1 (r l : ℕ) : (rcC r l 1).val = min l 511 := rfl

/-- Entry `(r, l)` of slot `i` sits at `(i, r, l)` in the ring. -/
theorem slot_emb (i : Fin 6) (y : S32x512.Idx) : (slotMi i).view.emb y = ixC i.val (y 0).val (y 1).val := by
  have hy0 : (y 0).val < 32 := (y 0).isLt
  have hy1 : (y 1).val < 512 := (y 1).isLt
  have hi := i.isLt
  have e : (slotMi i).view.emb y = (Rect.unit (s := S6x32x512) ![i.val, 0, 0] S1x32x512.size (inb_slot i)).emb (Fin.cons ⟨0, Nat.one_pos⟩ y) := by
    show (Rect.unit (s := S6x32x512) ![i.val, 0, 0] S1x32x512.size (inb_slot i)).emb (Shape.reshapeEquiv _ y) = _
    rw [Shape.reshapeEquiv_cons_one]
  rw [e]
  refine ext3 ?_ ?_ ?_
  · show i.val + 1 * 0 = min i.val 5; omega
  · show 0 + 1 * (y 0).val = min (y 0).val 31; omega
  · show 0 + 1 * (y 1).val = min (y 1).val 511; omega

theorem slot_read (i : Fin 6) (f : Ring F) (y : S32x512.Idx) : (slotMi i).view.read (Elt F) f y = f (ixC i.val (y 0).val (y 1).val) := by
  rw [View.read_apply, cast_eq, slot_emb]

/-- Slot `b` after the rotation and the fill, read through its own view: row `r < 31` is the old row `r + 1`, row 31 is
    the old row 0 of slot `b'`. -/
theorem rot_fill_read {b b' : Fin 6} {f g : Ring F} (h : Fill b.val b'.val 32 f g) (y : S32x512.Idx) :
    (slotMi b).view.read (Elt F) g y
      = if (y 0).val < 31 then (slotMi b).view.read (Elt F) f (rcC ((y 0).val + 1) (y 1).val) else (slotMi b').view.read (Elt F) f (rcC 0 (y 1).val) := by
  have hy0 : (y 0).val < 32 := (y 0).isLt
  have hy1 : (y 1).val < 512 := (y 1).isLt
  have hb := b.isLt
  have hb' := b'.isLt
  rw [slot_read, slot_read, slot_read, h, if_pos (by rw [ixC_0]; omega)]
  by_cases h1 : (y 0).val < 31
  · rw [if_pos h1, if_pos (by rw [ixC_1]; omega)]
    refine congrArg f (ext3 ?_ ?_ ?_)
    · rw [ixC_0, ixC_0, ixC_0] <;> omega
    · rw [ixC_1, ixC_1, ixC_1, rcC_0] <;> omega
    · rw [ixC_2, ixC_2, ixC_2, rcC_1] <;> omega
  · rw [if_neg h1, if_neg (by rw [ixC_1]; omega), if_pos (by rw [ixC_2]; omega)]
    refine congrArg f (ext3 ?_ ?_ ?_)
    · rw [ixC_0, ixC_0] <;> omega
    · rw [ixC_1, ixC_1, rcC_0] <;> omega
    · rw [ixC_2, ixC_2, ixC_2, rcC_1] <;> omega

/-- The same when row 31 was filled from slot `b'` of other contents `f1`. -/
theorem rot_fill_read2 {b b' : Fin 6} {f f1 g : Ring F} (h : Fill2 b.val b'.val 32 f f1 g) (y : S32x512.Idx) :
    (slotMi b).view.read (Elt F) g y
      = if (y 0).val < 31 then (slotMi b).view.read (Elt F) f (rcC ((y 0).val + 1) (y 1).val) else (slotMi b').view.read (Elt F) f1 (rcC 0 (y 1).val) := by
  have hy0 : (y 0).val < 32 := (y 0).isLt
  have hy1 : (y 1).val < 512 := (y 1).isLt
  have hb := b.isLt
  have hb' := b'.isLt
  rw [slot_read, slot_read, slot_read, h, if_pos (by rw [ixC_0]; omega)]
  by_cases h1 : (y 0).val < 31
  · rw [if_pos h1, if_pos (by rw [ixC_1]; omega)]
    refine congrArg f (ext3 ?_ ?_ ?_)
    · rw [ixC_0, ixC_0, ixC_0] <;> omega
    · rw [ixC_1, ixC_1, ixC_1, rcC_0] <;> omega
    · rw [ixC_2, ixC_2, ixC_2, rcC_1] <;> omega
  · rw [if_neg h1, if_neg (by rw [ixC_1]; omega), if_pos (by rw [ixC_2]; omega)]
    refine congrArg f1 (ext3 ?_ ?_ ?_)
    · rw [ixC_0, ixC_0] <;> omega
    · rw [ixC_1, ixC_1, rcC_0] <;> omega
    · rw [ixC_2, ixC_2, ixC_2, rcC_1] <;> omega

end Cert.Proof.IdealK

end
-- ==== Proof.IdealTripDefs.lean ====
/-
  What the proofs of the main loop's trips share. The worker's number and its band's first row as the 32-bit words the
  kernel computes them; the loop invariant of a steady trip written out (chunk k landed, the fetches of chunks k+1, k+2,
  k+3 and the stores of chunks k-2, k-1 in flight); the step lemmas of the row rotation restated so that the pair's number
  is read off the goal; and how a pair's offsets, given in closed form, are the rotation's (three coordinates compared).
-/
import proofs.«213455_g39170101740086_cont_8to1_b_302_25_alg».proof.Proof.IdealInv
import proofs.«213455_g39170101740086_cont_8to1_b_302_25_alg».proof.Proof.IdealOuts
import proofs.«213455_g39170101740086_cont_8to1_b_302_25_alg».proof.Proof.IdealRot
import Idealize.ShloMosaic.Lib.Tactic

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-- The worker's number `2 s + c` and its band's first row `2048 (2 s + c)`, as 32-bit words. -/
def widW (L : grid0.Coords) : BitVec 32 := Scalar.addi (Scalar.muli (BitVec.ofNat 32 (L 1).val) 2#32) (BitVec.ofNat 32 (L 0).val)
def baseW (L : grid0.Coords) : BitVec 32 := Scalar.muli (widW L) 2048#32

/-- A condition on one-bit words is decided over all trips; anything else is linear arithmetic. -/
macro "cond_disch" : tactic => `(tactic| first
  | (guard_target = (_ : BitVec 1) = _; decide +kernel +revert)
  | (guard_target = ¬ ((_ : BitVec 1) = _); decide +kernel +revert)
  | omega)

/-! ## The invariant of a steady trip, written out -/

/-- At a trip `k` with `2 ≤ k` and `k + 3 < 64`: chunk `k` has landed, chunks `k + 1, k + 2, k + 3` are being fetched, chunks
    `k - 2, k - 1` are being stored. The six chunk numbers are arguments, so that one trip's numbers are the next trip's. -/
theorem InvGen_steady (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ)
    (c0 c1 c2 c3 cm2 cm1 : Fin 64) (e0 : c0.val = k) (e1 : c1.val = k + 1) (e2 : c2.val = k + 2) (e3 : c3.val = k + 3)
    (em2 : cm2.val + 2 = k) (em1 : cm1.val + 1 = k) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ gfl m d L a1 i1 o1 t1 c1 ∗ gfl m d L a2 i2 o2 t2 c2 ∗ gfl m d L a3 i3 o3 t3 c3
          ∗ sfl m d L a4 i4 o4 t4 cm2 ∗ sfl m d L a5 i5 o5 t5 cm1 ∗ outs m d L k) := by
  have hk3 : k + 3 < 64 := by have := c3.isLt; omega
  have hk2 : 2 ≤ k := by omega
  have q0 : k < 64 := by omega
  have q1 : k + 1 < 64 := by omega
  have q2 : k + 2 < 64 := by omega
  have qm2 : k - 2 < 64 := by omega
  have qm1 : k - 1 < 64 := by omega
  have em2' : cm2.val = k - 2 := by omega
  have em1' : cm1.val = k - 1 := by omega
  obtain rfl : c0 = ⟨k, q0⟩ := Fin.ext e0
  obtain rfl : c1 = ⟨k + 1, q1⟩ := Fin.ext e1
  obtain rfl : c2 = ⟨k + 2, q2⟩ := Fin.ext e2
  obtain rfl : c3 = ⟨k + 3, hk3⟩ := Fin.ext e3
  obtain rfl : cm2 = ⟨k - 2, qm2⟩ := Fin.ext em2'
  obtain rfl : cm1 = ⟨k - 1, qm1⟩ := Fin.ext em1'
  unfold InvGen pos0 posG posS
  rw [dif_pos (by omega : k < 64), dif_pos (by omega : k + 1 < 64), dif_pos (by omega : k + 2 < 64), dif_pos (by omega : k + 3 < 64),
    if_pos (by omega : 2 ≤ k), dif_pos (by omega : k - 2 < 64), if_pos (by omega : 1 ≤ k), dif_pos (by omega : k - 1 < 64)]

/-! ## The rotation's steps, the pair's number read off the goal -/

theorem rot_step' {b n n' : ℕ} {f g : Ring F} (h : Rot b n f g) (hn' : n' = n + 1) (hn : n < 992) {dst src : Fin 3 → ℕ}
    (hd : ∀ a, dst a + S1x1x16.size a ≤ S6x32x512.size a) (hs : ∀ a, src a + S1x1x16.size a ≤ S6x32x512.size a)
    (hdst : dst = ![b, n / 32, 16 * (n % 32)]) (hsrc : src = ![b, n / 32 + 1, 16 * (n % 32)]) (hb : b < 6) :
    Rot b n' f (cp16 g dst src hd hs) := hn' ▸ rot_step h hn hd hs hdst hsrc hb

theorem fill2_step' {b b' m' mm : ℕ} {f f1 g : Ring F} (h : Fill2 b b' mm f f1 g) (hm' : m' = mm + 1) (hm : mm < 32) (hb' : b' < 6)
    {dst src : Fin 3 → ℕ} (hd : ∀ a, dst a + S1x1x16.size a ≤ S6x32x512.size a) (hs : ∀ a, src a + S1x1x16.size a ≤ S6x32x512.size a)
    (hdst : dst = ![b, 31, 16 * mm]) (hsrc : src = ![b', 0, 16 * mm]) :
    Fill2 b b' m' f f1 (cp16x g f1 dst src hd hs) := hm' ▸ fill2_step h hm hb' hd hs hdst hsrc

theorem rot_cast {b n n' : ℕ} {f g : Ring F} (h : Rot b n f g) (hn : n' = n) : Rot b n' f g := hn ▸ h

/-- Offsets given in closed form are a vector once the closed form is. -/
theorem off_closed {off : Fin 3 → ℕ} [c : ClosedOff off] {v : Fin 3 → ℕ} (h : c.form = v) : off = v := c.eq.trans h
theorem vec3_eq {a b c a' b' c' : ℕ} (h0 : a = a') (h1 : b = b') (h2 : c = c') : (![a, b, c] : Fin 3 → ℕ) = ![a', b', c'] := by
  subst h0; subst h1; subst h2; rfl

/-- Offsets are a given vector: through their closed form, or as the vector they are written as. -/
macro "off_vec" : tactic => `(tactic| first
  | exact off_closed (vec3_eq (by omega) (by omega) (by omega))
  | exact vec3_eq (by omega) (by omega) (by omega))

open Lean Elab Tactic in
/-- `rot_chain b base from hi to lo`: the rotation's steps for the pairs `base + hi - 1` down to `base + lo`, last first. -/
elab "rot_chain " b:term:max base:term:max " from " hi:num " to " lo:num : tactic => do
  let hi := hi.getNat
  let lo := lo.getNat
  for i in [0:hi - lo] do
    let j := hi - 1 - i
    let jt := Syntax.mkNumLit (toString j)
    evalTactic (← `(tactic| refine rot_step' (b := $b) (n := $base + $jt) ?_ (by omega) (by omega) _ _ (by off_vec) (by off_vec) (by omega)))

open Lean Elab Tactic in
/-- `fill_chain b b' from hi to lo`: the fill's steps for the lane blocks `hi - 1` down to `lo`, last first. -/
elab "fill_chain " b:term:max b':term:max " from " hi:num " to " lo:num : tactic => do
  let hi := hi.getNat
  let lo := lo.getNat
  for i in [0:hi - lo] do
    let j := hi - 1 - i
    let jt := Syntax.mkNumLit (toString j)
    evalTactic (← `(tactic| refine fill2_step' (b := $b) (b' := $b') (mm := $jt) ?_ (by omega) (by omega) (by omega) _ _ (by off_vec) (by off_vec)))

/-! ## The kernel's spellings of a chunk, and what a slot sends -/

/-- A chunk of the result held at `f`, spelt as a slice of the result at offsets equal to the chunk's. -/
theorem chunk_respell (c : Fin 64) {off : Fin 2 → ℕ} (h : off = chOff L c.val) (inb : ∀ a, off a + S32x512.size a ≤ S65536x512.size a)
    (f : Buf (Elt F) (oLoc d)) :
    ((oChunk L c).view.loc (thr d L) ↦[(oChunk L c).view.set]{fullShare} f : sProp 𝕄)
      = ((oW.slice (Rect.unit (s := S65536x512) off S32x512.size inb) (fun _ => rfl)).view.loc (thr d L)
          ↦[(oW.slice (Rect.unit (s := S65536x512) off S32x512.size inb) (fun _ => rfl)).view.set]{fullShare} f) := by
  subst h; rfl

/-- The elements of mem under a slice at offsets equal to a chunk's are the chunk's. -/
theorem mset_respell (c : Fin 64) {off : Fin 2 → ℕ} (h : off = chOff L c.val) (inb : ∀ a, off a + S32x512.size a ≤ S65536x512.size a) :
    (mW.slice (Rect.unit (s := S65536x512) off S32x512.size inb) (fun _ => rfl)).view.set = (mChunk L c).view.set := by
  subst h; rfl

/-- What a fetch through such a slice delivers is what the fetch of the chunk delivers. -/
theorem gpay_respell (c : Fin 64) {off : Fin 2 → ℕ} (h : off = chOff L c.val) (inb : ∀ a, off a + S32x512.size a ≤ S65536x512.size a) :
    ReadAs.same.apply ((mW.slice (Rect.unit (s := S65536x512) off S32x512.size inb) (fun _ => rfl)).view.read (Elt F) (m (mLoc d)))
      = gpay m d L c := by
  subst h; rfl

/-- What slot `b` sends after the rotation and the fill is chunk `c` of the result: rows `1 … 31` of chunk `c` of mem and
    row 0 of chunk `c + 1`. -/
theorem sent_is_Gout {b b' : Fin 6} (c : Fin 64) (hc : c.val + 1 < 64) {f0 f1 g : Ring F}
    (h0 : Holds m d L (slotMi b) c f0) (h1 : Holds m d L (slotMi b') ⟨c.val + 1, hc⟩ f1) (hfill : Fill2 b.val b'.val 32 f0 f1 g)
    (fo : Buf (Elt F) (oLoc d)) :
    ((oChunk L c).view.loc (thr d L) ↦[(oChunk L c).view.set]{fullShare}
        (oChunk L c).view.writes (Elt F) fo [⟨Rect.whole S32x512, ReadAs.same.apply ((slotMi b).view.read (Elt F) g)⟩] : sProp 𝕄)
      = ((oChunk L c).view.loc (thr d L) ↦[(oChunk L c).view.set]{fullShare} Gout m d) := by
  refine out_chunk_congr m d L c _ fun y => ?_
  have hy0 : (y 0).val < 32 := (y 0).isLt
  have hy1 : (y 1).val < 512 := (y 1).isLt
  have hw := View.read_writes_cons_emb (Val := Elt F) (oChunk L c).view fo (Rect.whole S32x512)
    (ReadAs.same.apply ((slotMi b).view.read (Elt F) g)) [] y
  rw [Rect.emb_whole_apply S32x512 y, View.read_apply, cast_eq] at hw
  refine hw.trans ?_
  show (slotMi b).view.read (Elt F) g y = _
  rw [rot_fill_read2 hfill y]
  by_cases hr : (y 0).val < 31
  · rw [if_pos hr, h0, Gout_chunk_lt m d L c y hr]
    refine congrArg (m (mLoc d)) (congrArg _ (funext fun a => ?_))
    match a with
    | ⟨0, _⟩ => exact Fin.ext (by show min ((y 0).val + 1) 31 = (y 0).val + 1; omega)
    | ⟨1, _⟩ => exact Fin.ext (by show min (y 1).val 511 = (y 1).val; omega)
  · rw [if_neg hr, h1, Gout_chunk_next m d L c hc y (by omega)]
    refine congrArg (m (mLoc d)) (congrArg _ (funext fun a => ?_))
    match a with
    | ⟨0, _⟩ => exact Fin.ext (by show min 0 31 = 0; omega)
    | ⟨1, _⟩ => exact Fin.ext (by show min (y 1).val 511 = (y 1).val; omega)

end Cert.Proof.IdealK

end
-- ==== Proof.IdealTripClose.lean ====
/-
  From what a trip's run leaves to the invariant's words. A slot in which the fetch of chunk `c` has landed holds chunk `c`; a
  fetch issued through a slice of `mem` at offsets equal to chunk `c`'s is the fetch of chunk `c` in flight; a slot that held
  chunk `c`, rotated and filled from the slot holding chunk `c + 1`, and sent through a slice of the result at offsets equal
  to chunk `c`'s, is the store of chunk `c` in flight, delivering that chunk of the result at the result's value.
-/
import proofs.«213455_g39170101740086_cont_8to1_b_302_25_alg».proof.Proof.IdealTripDefs

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-- Offsets equal to a chunk's lie inside the array. -/
theorem inb_of_eq {off : Fin 2 → ℕ} (c : Fin 64) (h : off = chOff L c.val) : ∀ a, off a + S32x512.size a ≤ S65536x512.size a :=
  h ▸ chOff_inb L c

/-- The invariant's words for one slot, written out. -/
theorem held_eq (sM : Memref sig .scVector .vmem S32x512 .f32) (is os : DmaSems sig S_) (t : ℕ) (c : Fin 64) :
    held m d L sM is os t c
      = iprop(semVal (thr d L, SemLoc.dma is.sem) 0 ∗ semVal (thr d L, SemLoc.dma os.sem) 0 ∗ (mW.view.loc (thr d L) ↦{tokM L t} m (mLoc d))
          ∗ ∃ f, ⌜Holds m d L sM c f⌝ ∗ sM.view.loc (thr d L) ↦[sM.view.set]{fullShare} f) := rfl
theorem free_eq (sM : Memref sig .scVector .vmem S32x512 .f32) (is os : DmaSems sig S_) (t : ℕ) :
    free m d L sM is os t
      = iprop(semVal (thr d L, SemLoc.dma is.sem) 0 ∗ semVal (thr d L, SemLoc.dma os.sem) 0 ∗ (mW.view.loc (thr d L) ↦{tokM L t} m (mLoc d))
          ∗ ∃ f, sM.view.loc (thr d L) ↦[sM.view.set]{fullShare} f) := rfl
theorem gfl_eq (sM : Memref sig .scVector .vmem S32x512 .f32) (is os : DmaSems sig S_) (t : ℕ) (c : Fin 64) :
    gfl m d L sM is os t c
      = iprop(semVal (thr d L, SemLoc.dma os.sem) 0
          ∗ (∃ f₀, Transfers.Flight countersEmb (thr d L) (SemLoc.dma is.sem) (default : HIx 1) 524288
              iprop((sM.view.loc (thr d L) ↦[sM.view.set]{fullShare} sM.view.writes (Elt F) f₀ [⟨Rect.whole S32x512, gpay m d L c⟩])
                ∗ mW.view.loc (thr d L) ↦[(mChunk L c).view.set]{tokM L t} m (mLoc d)))
          ∗ mW.view.loc (thr d L) ↦[Finset.univ \ (mChunk L c).view.set]{tokM L t} m (mLoc d)) := rfl

/-- A slot in which the fetch of chunk `c` has landed, its semaphores at zero and its token whole, holds chunk `c`. -/
theorem held_of_landed (sM : Memref sig .scVector .vmem S32x512 .f32) (is os : DmaSems sig S_) (t : ℕ) (c : Fin 64)
    (f₀ : sM.view.ty.Contents (Elt F)) :
    (iprop(semVal (thr d L, SemLoc.dma is.sem) 0 ∗ semVal (thr d L, SemLoc.dma os.sem) 0 ∗ (mW.view.loc (thr d L) ↦{tokM L t} m (mLoc d))
        ∗ sM.view.loc (thr d L) ↦[sM.view.set]{fullShare} sM.view.writes (Elt F) f₀ [⟨Rect.whole S32x512, gpay m d L c⟩]) : sProp 𝕄)
      ⊢ held m d L sM is os t c := by
  unfold held tokWhole
  iintro ⟨H1, H2, H3, H4⟩
  isplitl [H1]; · iexact H1
  isplitl [H2]; · iexact H2
  isplitl [H3]; · iexact H3
  iexists _
  isplitr
  · ipureintro; exact holds_landed m d L sM c f₀
  · iexact H4

/-- A fetch issued through a slice of `mem` at offsets equal to chunk `c`'s, with the rest of its token, is the fetch of chunk
    `c` in flight. -/
theorem gfl_of_run (sM : Memref sig .scVector .vmem S32x512 .f32) (is os : DmaSems sig S_) (t : ℕ) (c : Fin 64)
    {off : Fin 2 → ℕ} (h : off = chOff L c.val) (inb : ∀ a, off a + S32x512.size a ≤ S65536x512.size a)
    (f₀ : sM.view.ty.Contents (Elt F)) (pay : S32x512.Idx → Elt F .f32)
    (hp : pay = ReadAs.same.apply ((mW.slice (Rect.unit (s := S65536x512) off S32x512.size inb) (fun _ => rfl)).view.read (Elt F) (m (mLoc d)))) :
    (iprop(semVal (thr d L, SemLoc.dma os.sem) 0
        ∗ Transfers.Flight countersEmb (thr d L) (SemLoc.dma is.sem) (default : HIx 1) 524288
            iprop((sM.view.loc (thr d L) ↦[sM.view.set]{fullShare} sM.view.writes (Elt F) f₀ [⟨Rect.whole S32x512, pay⟩])
              ∗ mW.view.loc (thr d L) ↦[(mW.slice (Rect.unit (s := S65536x512) off S32x512.size inb) (fun _ => rfl)).view.set]{tokM L t} m (mLoc d))
        ∗ mW.view.loc (thr d L) ↦[Finset.univ \ (mW.slice (Rect.unit (s := S65536x512) off S32x512.size inb) (fun _ => rfl)).view.set]{tokM L t} m (mLoc d)) : sProp 𝕄)
      ⊢ gfl m d L sM is os t c := by
  subst h; subst hp
  unfold gfl
  iintro ⟨H1, H2, H3⟩
  isplitl [H1]; · iexact H1
  isplitl [H2]
  · iexists f₀; iexact H2
  · iexact H3

/-- A slot that held chunk `c`, rotated and filled from the slot holding chunk `c + 1`, sent through a slice of the result at
    offsets equal to chunk `c`'s: the store of chunk `c` in flight. -/
theorem sfl_of_sent (b b' : Fin 6) (is os : DmaSems sig S_) (t : ℕ) (c : Fin 64) (hc : c.val + 1 < 64) {f0 f1 g : Ring F}
    (h0 : Holds m d L (slotMi b) c f0) (h1 : Holds m d L (slotMi b') ⟨c.val + 1, hc⟩ f1) (hfill : Fill2 b.val b'.val 32 f0 f1 g)
    {off : Fin 2 → ℕ} (h : off = chOff L c.val) (inb : ∀ a, off a + S32x512.size a ≤ S65536x512.size a)
    (fo : Buf (Elt F) (oLoc d)) (pay : S32x512.Idx → Elt F .f32) (hp : pay = ReadAs.same.apply ((slotMi b).view.read (Elt F) g)) :
    (iprop(semVal (thr d L, SemLoc.dma is.sem) 0 ∗ (mW.view.loc (thr d L) ↦{tokM L t} m (mLoc d))
        ∗ Transfers.Flight countersEmb (thr d L) (SemLoc.dma os.sem) (default : HIx 1) 524288
            iprop(((oW.slice (Rect.unit (s := S65536x512) off S32x512.size inb) (fun _ => rfl)).view.loc (thr d L)
                  ↦[(oW.slice (Rect.unit (s := S65536x512) off S32x512.size inb) (fun _ => rfl)).view.set]{fullShare}
                    (oW.slice (Rect.unit (s := S65536x512) off S32x512.size inb) (fun _ => rfl)).view.writes (Elt F) fo [⟨Rect.whole S32x512, pay⟩])
              ∗ (slotMi b).view.loc (thr d L) ↦[(slotMi b).view.set]{fullShare} g)) : sProp 𝕄)
      ⊢ sfl m d L (slotMi b) is os t c := by
  subst h; subst hp
  unfold sfl tokWhole
  iintro ⟨H1, H2, H3⟩
  isplitl [H1]; · iexact H1
  isplitl [H2]; · iexact H2
  iexists g
  iapply (Transfers.Flight_mono countersEmb (thr d L) (Entails.of_eq (congrArg (fun X : sProp 𝕄 => iprop(X ∗ (slotMi b).view.loc (thr d L) ↦[(slotMi b).view.set]{fullShare} g))
    (sent_is_Gout m d L c hc h0 h1 hfill fo)))) $$ H3

end Cert.Proof.IdealK

end
-- ==== Proof.IdealTripE0.lean ====
/-
  The first trip of the main loop (trip 0, chunk 0 in slot 0 of the scratch ring). Nothing has been sent yet, so no store is
  waited for: the trip fetches chunk 4 into the free slot 4, waits for the fetch of chunk 1 into slot 1, rotates slot 0 up by
  one row, fills its last row from the first row of slot 1, and sends slot 0 out as chunk 0 of the result. What it sends is the
  result's chunk 0: rows 1 … 31 of chunk 0 of `mem` and row 0 of chunk 1. The invariant at trip 0 gives the invariant at trip 1
  with the slots' roles moved on by one. The trip number is kept as a variable with the facts that pin it (a multiple of six
  below 2), so that the statement and its text are those of every trip.
-/
import proofs.«213455_g39170101740086_cont_8to1_b_302_25_alg».proof.Proof.IdealTripClose
import proofs.«213455_g39170101740086_cont_8to1_b_302_25_alg».proof.Proof.Gen.KernelIdeal
import proofs.«213455_g39170101740086_cont_8to1_b_302_25_alg».proof.Proof.Gen.KernelIdeal.Skeleton

set_option maxHeartbeats 4000000
-- a condition decided under the trip's facts takes a `Decidable` instance one implication deeper per fact
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-! ## The invariant of the two first trips, written out -/

/-- At trip 0: chunk 0 has landed, chunks 1, 2, 3 are being fetched, the last two slots are free. -/
theorem InvGen_early0 (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k < 1)
    (c0 c1 c2 c3 : Fin 64) (e0 : c0.val = k) (e1 : c1.val = k + 1) (e2 : c2.val = k + 2) (e3 : c3.val = k + 3) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ gfl m d L a1 i1 o1 t1 c1 ∗ gfl m d L a2 i2 o2 t2 c2 ∗ gfl m d L a3 i3 o3 t3 c3
          ∗ free m d L a4 i4 o4 t4 ∗ free m d L a5 i5 o5 t5 ∗ outs m d L k) := by
  have q0 : k < 64 := by omega
  have q1 : k + 1 < 64 := by omega
  have q2 : k + 2 < 64 := by omega
  have q3 : k + 3 < 64 := by omega
  obtain rfl : c0 = ⟨k, q0⟩ := Fin.ext e0
  obtain rfl : c1 = ⟨k + 1, q1⟩ := Fin.ext e1
  obtain rfl : c2 = ⟨k + 2, q2⟩ := Fin.ext e2
  obtain rfl : c3 = ⟨k + 3, q3⟩ := Fin.ext e3
  unfold InvGen pos0 posG posS
  rw [dif_pos q0, dif_pos q1, dif_pos q2, dif_pos q3, if_neg (by omega : ¬ 2 ≤ k), if_neg (by omega : ¬ 1 ≤ k)]

/-- At trip 1: chunk 1 has landed, chunks 2, 3, 4 are being fetched, one slot is free, chunk 0 is being stored. -/
theorem InvGen_early1 (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k = 1)
    (c0 c1 c2 c3 cm1 : Fin 64) (e0 : c0.val = k) (e1 : c1.val = k + 1) (e2 : c2.val = k + 2) (e3 : c3.val = k + 3) (em1 : cm1.val + 1 = k) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ gfl m d L a1 i1 o1 t1 c1 ∗ gfl m d L a2 i2 o2 t2 c2 ∗ gfl m d L a3 i3 o3 t3 c3
          ∗ free m d L a4 i4 o4 t4 ∗ sfl m d L a5 i5 o5 t5 cm1 ∗ outs m d L k) := by
  have q0 : k < 64 := by omega
  have q1 : k + 1 < 64 := by omega
  have q2 : k + 2 < 64 := by omega
  have q3 : k + 3 < 64 := by omega
  have qm1 : k - 1 < 64 := by omega
  have em1' : cm1.val = k - 1 := by omega
  obtain rfl : c0 = ⟨k, q0⟩ := Fin.ext e0
  obtain rfl : c1 = ⟨k + 1, q1⟩ := Fin.ext e1
  obtain rfl : c2 = ⟨k + 2, q2⟩ := Fin.ext e2
  obtain rfl : c3 = ⟨k + 3, q3⟩ := Fin.ext e3
  obtain rfl : cm1 = ⟨k - 1, qm1⟩ := Fin.ext em1'
  unfold InvGen pos0 posG posS
  rw [dif_pos q0, dif_pos q1, dif_pos q2, dif_pos q3, if_neg (by omega : ¬ 2 ≤ k), if_pos (by omega : 1 ≤ k), dif_pos qm1]

/-- The outgoing chunk's slice, as ring slot 0's branch names it, lies inside the result. -/
theorem inbO330 (k : Fin k0_t1_loop.trips) : ∀ a, k0_off330 L k a + S32x512.size a ≤ S65536x512.size a := by
  intro a; rw [k0_off330_eq L k]; exact chOff_inb L (kCh k) a

variable [FloatOps F]

theorem tripE0 (k : Fin k0_t1_loop.trips) (hk : k.val % 6 = 0) (hhi : k.val < 2)
    (O : CellTallies nD τ sig (HIx 1)) (W : Waits sig (HIx 1)) (R : sProp 𝕄) :
    iprop(Transfers.MayWaits (thr d L) (none : HIx 1) O ∗ R
        ∗ InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _) bbW (Memref.isWhole_whole _) nbW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W (k.val + 1)) := by
  have q0 : k.val < 64 := by omega
  have q1 : k.val + 1 < 64 := by omega
  have q2 : k.val + 2 < 64 := by omega
  have q3 : k.val + 3 < 64 := by omega
  have q4 : k.val + 4 < 64 := by omega
  rw [InvGen_early0 m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val (by omega)
      ⟨k.val, q0⟩ ⟨k.val + 1, q1⟩ ⟨k.val + 2, q2⟩ ⟨k.val + 3, q3⟩ rfl rfl rfl rfl,
    InvGen_early1 m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W (k.val + 1) (by omega)
      ⟨k.val + 1, q1⟩ ⟨k.val + 2, q2⟩ ⟨k.val + 3, q3⟩ ⟨k.val + 4, q4⟩ ⟨k.val, q0⟩ rfl rfl rfl rfl rfl,
    outs_take m d L k.val q0,
    held_eq m d L slotM0 cc0_scratch3 cc0_scratch9 0 ⟨k.val, q0⟩, gfl_eq m d L slotM1 cc0_scratch4 cc0_scratch10 1 ⟨k.val + 1, q1⟩,
    free_eq m d L slotM4 cc0_scratch7 cc0_scratch13 4,
    chunk_respell d L ⟨k.val, q0⟩ (k0_off330_eq L k) (inbO330 L k) (m (oLoc d)),
    ← outs_step_none m d L k.val q0 (Or.inl hhi)]
  -- the read tokens spelt out: an issue takes the token its semaphore's number names
  unfold tokM
  iintro ⟨#Hmw, HR, ⟨%W0, HW0, HO⟩, ⟨Hi0, Ho0, Hm0, %f0, Hhf0, Hs0⟩, ⟨Ho1, ⟨%g1, Hf1⟩, Hm1⟩, Hg2, Hg3,
    ⟨Hi4, Ho4, Hm4, %f4, Hs4⟩, H5, Hoc, Hrest⟩
  unfold k0_t1_body
  sl_exec_parts (disch := cond_disch)
  sl_for (fun (j : Nat) (_ : PUnit) => (iprop(∃ g : Ring F, ⌜Rot 0 (256 * j) f0 g⌝ ∗ slotM0.view.loc (thr d L) ↦[slotM0.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 0 (256 * g.val) from 256 to 0
      exact rot_cast hf (by omega)
  · iexists f0
    isplitr
    · ipureintro; exact rot_zero 0 f0
    · iexact Hs0
  iintro %_ HI
  icases HI with ⟨%f2, Hhf2, Hs0⟩
  sl_exec_parts (disch := cond_disch)
  sl_step
  icases HW0 with %hW0
  icases Hhf0 with %hf0
  icases Hhf2 with %hf2
  have hf2' : Rot 0 768 f0 f2 := rot_cast hf2 (by decide +kernel)
  have hfill : Fill2 0 1 32 f0
      (slotM1.view.writes (Elt F) (slotM1.view.junk (Val := Elt F)) [⟨Rect.whole S32x512, gpay m d L ⟨k.val + 1, q1⟩⟩] : Ring F)
      (tripE0.sl.Hs0_w256 m d L k q1 f2) := by
    fill_chain 0 1 from 32 to 0
    refine fill2_zero 1 _ ?_
    rot_chain 0 768 from 224 to 0
    exact rot_cast hf2' (by omega)
  isplitl []; · iexact Hmw
  isplitl [HR]; · iexact HR
  isplitl [HO]
  · iexists _
    isplitr
    rotate_left
    · iexact HO
    · ipureintro
      intro p hp
      rcases Finset.mem_insert.1 hp with rfl | hp
      · exact Or.inr rfl
      · exact hW0 p hp
  isplitl [Hf1 Ho1 Hm1 Hf1_dst]
  · iapply (held_of_landed m d L slotM1 cc0_scratch4 cc0_scratch10 1 ⟨k.val + 1, q1⟩ (slotM1.view.junk (Val := Elt F)))
    isplitl [Hf1]; · iexact Hf1
    isplitl [Ho1]; · iexact Ho1
    isplitl [Hm1]; · iexact Hm1
    iexact Hf1_dst
  isplitl [Hg2]; · iexact Hg2
  isplitl [Hg3]; · iexact Hg3
  isplitl [Ho4 Hi4 Hm4]
  · iapply (gfl_of_run m d L slotM4 cc0_scratch7 cc0_scratch13 4 ⟨k.val + 4, q4⟩ ((k0_off7_eq L k).trans (chOff_add4 L k.val))
      (inb_of_eq L ⟨k.val + 4, q4⟩ ((k0_off7_eq L k).trans (chOff_add4 L k.val))) f4 _ rfl)
    isplitl [Ho4]; · iexact Ho4
    isplitl [Hi4]; · iexact Hi4
    iexact Hm4
  isplitl [H5]; · iexact H5
  isplitl [Hi0 Hm0 Ho0]
  · iapply (sfl_of_sent m d L 0 1 cc0_scratch3 cc0_scratch9 0 ⟨k.val, q0⟩ q1 hf0 (holds_landed m d L slotM1 ⟨k.val + 1, q1⟩ (slotM1.view.junk (Val := Elt F))) hfill
      (k0_off330_eq L k) (inbO330 L k) (m (oLoc d)) _ rfl)
    isplitl [Hi0]; · iexact Hi0
    isplitl [Hm0]; · iexact Hm0
    iexact Ho0
  iexact Hrest

end Cert.Proof.IdealK

end
-- ==== Proof.IdealTripE1.lean ====
/-
  The second trip of the main loop (trip 1, chunk 1 in slot 1 of the scratch ring). Chunk 0 is on its way out of slot 0 and is
  not waited for yet: the trip fetches chunk 5 into the free slot 5, waits for the fetch of chunk 2 into slot 2, rotates slot 1 up
  by one row, fills its last row from the first row of slot 2, and sends slot 1 out as chunk 1 of the result: rows 1 … 31 of chunk
  1 of `mem` and row 0 of chunk 2. The invariant at trip 1 gives the invariant at trip 2, the first steady one, with the slots'
  roles moved on by one. The trip number is kept as a variable with the facts that pin it (one more than a multiple of six, below 2).
-/
import proofs.«213455_g39170101740086_cont_8to1_b_302_25_alg».proof.Proof.IdealTripE0

set_option maxHeartbeats 4000000
-- a condition decided under the trip's facts takes a `Decidable` instance one implication deeper per fact
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-- The outgoing chunk's slice, as ring slot 1's branch names it, lies inside the result. -/
theorem inbO331 (k : Fin k0_t1_loop.trips) : ∀ a, k0_off331 L k a + S32x512.size a ≤ S65536x512.size a := by
  intro a; rw [k0_off331_eq L k]; exact chOff_inb L (kCh k) a

variable [FloatOps F]

theorem tripE1 (k : Fin k0_t1_loop.trips) (hk : k.val % 6 = 1) (hhi : k.val < 2)
    (O : CellTallies nD τ sig (HIx 1)) (W : Waits sig (HIx 1)) (R : sProp 𝕄) :
    iprop(Transfers.MayWaits (thr d L) (none : HIx 1) O ∗ R
        ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _) bbW (Memref.isWhole_whole _) nbW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm1 : k.val - 1 < 64 := by omega
  rw [InvGen_early1 m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val (by omega)
      ⟨k.val, q0⟩ ⟨k.val + 1, q1⟩ ⟨k.val + 2, q2⟩ ⟨k.val + 3, q3⟩ ⟨k.val - 1, qm1⟩ rfl rfl rfl rfl (by show k.val - 1 + 1 = k.val; omega),
    InvGen_steady m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0,
    held_eq m d L slotM1 cc0_scratch4 cc0_scratch10 1 ⟨k.val, q0⟩, gfl_eq m d L slotM2 cc0_scratch5 cc0_scratch11 2 ⟨k.val + 1, q1⟩,
    free_eq m d L slotM5 cc0_scratch8 cc0_scratch14 5,
    chunk_respell d L ⟨k.val, q0⟩ (k0_off331_eq L k) (inbO331 L k) (m (oLoc d)),
    ← outs_step_none m d L k.val q0 (Or.inl hhi)]
  -- the read tokens spelt out: an issue takes the token its semaphore's number names
  unfold tokM
  iintro ⟨#Hmw, HR, ⟨%W0, HW0, HO⟩, ⟨Hi1, Ho1, Hm1, %f0, Hhf0, Hs1⟩, ⟨Ho2, ⟨%g2, Hf2⟩, Hm2⟩, Hg3, Hg4,
    ⟨Hi5, Ho5, Hm5, %f5, Hs5⟩, Hst0, Hoc, Hrest⟩
  unfold k0_t1_body
  sl_exec_parts (disch := cond_disch)
  sl_for (fun (j : Nat) (_ : PUnit) => (iprop(∃ g : Ring F, ⌜Rot 1 (256 * j) f0 g⌝ ∗ slotM1.view.loc (thr d L) ↦[slotM1.view.set]{fullShare} g) : sProp 𝕄)) $$ [Hs1]
  case region =>
    intro g _
    have hg : g.val < 3 := g.isLt
    iintro ⟨%f, %hf, Hs⟩
    sl_exec_parts (disch := omega)
    sl_step
    iexists _
    isplitr
    rotate_left
    · iexact Hs
    · ipureintro
      rot_chain 1 (256 * g.val) from 256 to 0
      exact rot_cast hf (by omega)
  · iexists f0
    isplitr
    · ipureintro; exact rot_zero 1 f0
    · iexact Hs1
  iintro %_ HI
  icases HI with ⟨%f2, Hhf2, Hs1⟩
  sl_exec_parts (disch := cond_disch)
  sl_step
  icases HW0 with %hW0
  icases Hhf0 with %hf0
  icases Hhf2 with %hf2
  have hf2' : Rot 1 768 f0 f2 := rot_cast hf2 (by decide +kernel)
  have hfill : Fill2 1 2 32 f0
      (slotM2.view.writes (Elt F) (slotM2.view.junk (Val := Elt F)) [⟨Rect.whole S32x512, gpay m d L ⟨k.val + 1, q1⟩⟩] : Ring F)
      (tripE1.sl.Hs1_w256 m d L k q1 f2) := by
    fill_chain 1 2 from 32 to 0
    refine fill2_zero 2 _ ?_
    rot_chain 1 768 from 224 to 0
    exact rot_cast hf2' (by omega)
  isplitl []; · iexact Hmw
  isplitl [HR]; · iexact HR
  isplitl [HO]
  · iexists _
    isplitr
    rotate_left
    · iexact HO
    · ipureintro
      intro p hp
      rcases Finset.mem_insert.1 hp with rfl | hp
      · exact Or.inr rfl
      · exact hW0 p hp
  isplitl [Hf2 Ho2 Hm2 Hf2_dst]
  · iapply (held_of_landed m d L slotM2 cc0_scratch5 cc0_scratch11 2 ⟨k.val + 1, q1⟩ (slotM2.view.junk (Val := Elt F)))
    isplitl [Hf2]; · iexact Hf2
    isplitl [Ho2]; · iexact Ho2
    isplitl [Hm2]; · iexact Hm2
    iexact Hf2_dst
  isplitl [Hg3]; · iexact Hg3
  isplitl [Hg4]; · iexact Hg4
  isplitl [Ho5 Hi5 Hm5]
  · iapply (gfl_of_run m d L slotM5 cc0_scratch8 cc0_scratch14 5 ⟨k.val + 4, q4⟩ ((k0_off8_eq L k).trans (chOff_add4 L k.val))
      (inb_of_eq L ⟨k.val + 4, q4⟩ ((k0_off8_eq L k).trans (chOff_add4 L k.val))) f5 _ rfl)
    isplitl [Ho5]; · iexact Ho5
    isplitl [Hi5]; · iexact Hi5
    iexact Hm5
  isplitl [Hst0]; · iexact Hst0
  isplitl [Hi1 Hm1 Ho1]
  · iapply (sfl_of_sent m d L 1 2 cc0_scratch4 cc0_scratch10 1 ⟨k.val, q0⟩ q1 hf0 (holds_landed m d L slotM2 ⟨k.val + 1, q1⟩ (slotM2.view.junk (Val := Elt F))) hfill
      (k0_off331_eq L k) (inbO331 L k) (m (oLoc d)) _ rfl)
    isplitl [Hi1]; · iexact Hi1
    isplitl [Hm1]; · iexact Hm1
    iexact Ho1
  iexact Hrest

end Cert.Proof.IdealK

end
-- ==== Proof.IdealTripS0.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 0: positions 0, 1, 2, 3, 4, 5 of the invariant are slots 0, 1, 2, 3, 4, 5.
-/
import proofs.«213455_g39170101740086_cont_8to1_b_302_25_alg».proof.Proof.IdealTripDefs
import proofs.«213455_g39170101740086_cont_8to1_b_302_25_alg».proof.Proof.IdealTripClose
import proofs.«213455_g39170101740086_cont_8to1_b_302_25_alg».proof.Proof.Gen.KernelIdeal
import proofs.«213455_g39170101740086_cont_8to1_b_302_25_alg».proof.Proof.Gen.KernelIdeal.Skeleton

set_option maxHeartbeats 4000000
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO330 (L : grid0.Coords) (k : Fin k0_t1_loop.trips) : ∀ a, k0_off330 L k a + S32x512.size a ≤ S65536x512.size a := by
  intro a; rw [k0_off330_eq L k]; exact chOff_inb L (kCh k) a
omit [FloatOps F] in
theorem inbM7 (L : grid0.Coords) (k : Fin k0_t1_loop.trips) (h4 : k.val + 4 < 64) : ∀ a, k0_off7 L k a + S32x512.size a ≤ S65536x512.size a := by
  intro a; rw [(k0_off7_eq L k).trans (chOff_add4 L k.val)]; exact chOff_inb L ⟨k.val + 4, h4⟩ a

theorem tripS0 (k : Fin k0_t1_loop.trips) (hk : k.val % 6 = 0) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off330_eq L k) (inbO330 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 0 (256 * j) f0 g⌝ ∗ slotM0.view.loc (thr d L) ↦[slotM0.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 0 (256 * g.val) from 256 to 0
      exact rot_cast hf (by omega)
  · iexists f0
    isplitr
    · ipureintro; exact rot_zero 0 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM1 ⟨k.val + 1, q1⟩
      (slotM1.view.writes (Elt F) slotM1.view.junk [⟨Rect.whole S32x512, gpay m d L ⟨k.val + 1, q1⟩⟩]) :=
    holds_landed m d L slotM1 ⟨k.val + 1, q1⟩ _
  have hfill : Fill2 0 1 32 f0 (slotM1.view.writes (Elt F) slotM1.view.junk [⟨Rect.whole S32x512, gpay m d L ⟨k.val + 1, q1⟩⟩])
      (tripS0.sl.Hs0_w256 m d L k q1 f2) := by
    fill_chain 0 1 from 32 to 0
    refine fill2_zero 1 _ ?_
    rot_chain 0 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM1 cc0_scratch4 cc0_scratch10 1 ⟨k.val + 1, q1⟩ slotM1.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM4 cc0_scratch7 cc0_scratch13 4 ⟨k.val + 4, q4⟩ ((k0_off7_eq L k).trans (chOff_add4 L k.val)) (inbM7 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM0 cc0_scratch3 cc0_scratch9 0 ⟨k.val, q0⟩ : sProp 𝕄) from
        sfl_of_sent m d L 0 1 cc0_scratch3 cc0_scratch9 0 ⟨k.val, q0⟩ q1 hf0 hf1 hfill (k0_off330_eq L k) (inbO330 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.IdealK

end
-- ==== Proof.IdealTripS1.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 1: positions 0, 1, 2, 3, 4, 5 of the invariant are slots 1, 2, 3, 4, 5, 0.
-/
import proofs.«213455_g39170101740086_cont_8to1_b_302_25_alg».proof.Proof.IdealTripDefs
import proofs.«213455_g39170101740086_cont_8to1_b_302_25_alg».proof.Proof.IdealTripClose
import proofs.«213455_g39170101740086_cont_8to1_b_302_25_alg».proof.Proof.Gen.KernelIdeal
import proofs.«213455_g39170101740086_cont_8to1_b_302_25_alg».proof.Proof.Gen.KernelIdeal.Skeleton

set_option maxHeartbeats 4000000
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO331 (L : grid0.Coords) (k : Fin k0_t1_loop.trips) : ∀ a, k0_off331 L k a + S32x512.size a ≤ S65536x512.size a := by
  intro a; rw [k0_off331_eq L k]; exact chOff_inb L (kCh k) a
omit [FloatOps F] in
theorem inbM8 (L : grid0.Coords) (k : Fin k0_t1_loop.trips) (h4 : k.val + 4 < 64) : ∀ a, k0_off8 L k a + S32x512.size a ≤ S65536x512.size a := by
  intro a; rw [(k0_off8_eq L k).trans (chOff_add4 L k.val)]; exact chOff_inb L ⟨k.val + 4, h4⟩ a

theorem tripS1 (k : Fin k0_t1_loop.trips) (hk : k.val % 6 = 1) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off331_eq L k) (inbO331 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 1 (256 * j) f0 g⌝ ∗ slotM1.view.loc (thr d L) ↦[slotM1.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 1 (256 * g.val) from 256 to 0
      exact rot_cast hf (by omega)
  · iexists f0
    isplitr
    · ipureintro; exact rot_zero 1 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM2 ⟨k.val + 1, q1⟩
      (slotM2.view.writes (Elt F) slotM2.view.junk [⟨Rect.whole S32x512, gpay m d L ⟨k.val + 1, q1⟩⟩]) :=
    holds_landed m d L slotM2 ⟨k.val + 1, q1⟩ _
  have hfill : Fill2 1 2 32 f0 (slotM2.view.writes (Elt F) slotM2.view.junk [⟨Rect.whole S32x512, gpay m d L ⟨k.val + 1, q1⟩⟩])
      (tripS1.sl.Hs0_w256 m d L k q1 f2) := by
    fill_chain 1 2 from 32 to 0
    refine fill2_zero 2 _ ?_
    rot_chain 1 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM2 cc0_scratch5 cc0_scratch11 2 ⟨k.val + 1, q1⟩ slotM2.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM5 cc0_scratch8 cc0_scratch14 5 ⟨k.val + 4, q4⟩ ((k0_off8_eq L k).trans (chOff_add4 L k.val)) (inbM8 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM1 cc0_scratch4 cc0_scratch10 1 ⟨k.val, q0⟩ : sProp 𝕄) from
        sfl_of_sent m d L 1 2 cc0_scratch4 cc0_scratch10 1 ⟨k.val, q0⟩ q1 hf0 hf1 hfill (k0_off331_eq L k) (inbO331 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.IdealK

end
-- ==== Proof.IdealTripS2.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 2: positions 0, 1, 2, 3, 4, 5 of the invariant are slots 2, 3, 4, 5, 0, 1.
-/
import proofs.«213455_g39170101740086_cont_8to1_b_302_25_alg».proof.Proof.IdealTripDefs
import proofs.«213455_g39170101740086_cont_8to1_b_302_25_alg».proof.Proof.IdealTripClose
import proofs.«213455_g39170101740086_cont_8to1_b_302_25_alg».proof.Proof.Gen.KernelIdeal
import proofs.«213455_g39170101740086_cont_8to1_b_302_25_alg».proof.Proof.Gen.KernelIdeal.Skeleton

set_option maxHeartbeats 4000000
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO332 (L : grid0.Coords) (k : Fin k0_t1_loop.trips) : ∀ a, k0_off332 L k a + S32x512.size a ≤ S65536x512.size a := by
  intro a; rw [k0_off332_eq L k]; exact chOff_inb L (kCh k) a
omit [FloatOps F] in
theorem inbM3 (L : grid0.Coords) (k : Fin k0_t1_loop.trips) (h4 : k.val + 4 < 64) : ∀ a, k0_off3 L k a + S32x512.size a ≤ S65536x512.size a := by
  intro a; rw [(k0_off3_eq L k).trans (chOff_add4 L k.val)]; exact chOff_inb L ⟨k.val + 4, h4⟩ a

theorem tripS2 (k : Fin k0_t1_loop.trips) (hk : k.val % 6 = 2) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off332_eq L k) (inbO332 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 2 (256 * j) f0 g⌝ ∗ slotM2.view.loc (thr d L) ↦[slotM2.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 2 (256 * g.val) from 256 to 0
      exact rot_cast hf (by omega)
  · iexists f0
    isplitr
    · ipureintro; exact rot_zero 2 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM3 ⟨k.val + 1, q1⟩
      (slotM3.view.writes (Elt F) slotM3.view.junk [⟨Rect.whole S32x512, gpay m d L ⟨k.val + 1, q1⟩⟩]) :=
    holds_landed m d L slotM3 ⟨k.val + 1, q1⟩ _
  have hfill : Fill2 2 3 32 f0 (slotM3.view.writes (Elt F) slotM3.view.junk [⟨Rect.whole S32x512, gpay m d L ⟨k.val + 1, q1⟩⟩])
      (tripS2.sl.Hs0_w256 m d L k q1 f2) := by
    fill_chain 2 3 from 32 to 0
    refine fill2_zero 3 _ ?_
    rot_chain 2 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM3 cc0_scratch6 cc0_scratch12 3 ⟨k.val + 1, q1⟩ slotM3.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM0 cc0_scratch3 cc0_scratch9 0 ⟨k.val + 4, q4⟩ ((k0_off3_eq L k).trans (chOff_add4 L k.val)) (inbM3 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM2 cc0_scratch5 cc0_scratch11 2 ⟨k.val, q0⟩ : sProp 𝕄) from
        sfl_of_sent m d L 2 3 cc0_scratch5 cc0_scratch11 2 ⟨k.val, q0⟩ q1 hf0 hf1 hfill (k0_off332_eq L k) (inbO332 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.IdealK

end
-- ==== Proof.IdealTripS3.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 3: positions 0, 1, 2, 3, 4, 5 of the invariant are slots 3, 4, 5, 0, 1, 2.
-/
import proofs.«213455_g39170101740086_cont_8to1_b_302_25_alg».proof.Proof.IdealTripDefs
import proofs.«213455_g39170101740086_cont_8to1_b_302_25_alg».proof.Proof.IdealTripClose
import proofs.«213455_g39170101740086_cont_8to1_b_302_25_alg».proof.Proof.Gen.KernelIdeal
import proofs.«213455_g39170101740086_cont_8to1_b_302_25_alg».proof.Proof.Gen.KernelIdeal.Skeleton

set_option maxHeartbeats 4000000
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO333 (L : grid0.Coords) (k : Fin k0_t1_loop.trips) : ∀ a, k0_off333 L k a + S32x512.size a ≤ S65536x512.size a := by
  intro a; rw [k0_off333_eq L k]; exact chOff_inb L (kCh k) a
omit [FloatOps F] in
theorem inbM4 (L : grid0.Coords) (k : Fin k0_t1_loop.trips) (h4 : k.val + 4 < 64) : ∀ a, k0_off4 L k a + S32x512.size a ≤ S65536x512.size a := by
  intro a; rw [(k0_off4_eq L k).trans (chOff_add4 L k.val)]; exact chOff_inb L ⟨k.val + 4, h4⟩ a

theorem tripS3 (k : Fin k0_t1_loop.trips) (hk : k.val % 6 = 3) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off333_eq L k) (inbO333 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 3 (256 * j) f0 g⌝ ∗ slotM3.view.loc (thr d L) ↦[slotM3.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 3 (256 * g.val) from 256 to 0
      exact rot_cast hf (by omega)
  · iexists f0
    isplitr
    · ipureintro; exact rot_zero 3 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM4 ⟨k.val + 1, q1⟩
      (slotM4.view.writes (Elt F) slotM4.view.junk [⟨Rect.whole S32x512, gpay m d L ⟨k.val + 1, q1⟩⟩]) :=
    holds_landed m d L slotM4 ⟨k.val + 1, q1⟩ _
  have hfill : Fill2 3 4 32 f0 (slotM4.view.writes (Elt F) slotM4.view.junk [⟨Rect.whole S32x512, gpay m d L ⟨k.val + 1, q1⟩⟩])
      (tripS3.sl.Hs0_w256 m d L k q1 f2) := by
    fill_chain 3 4 from 32 to 0
    refine fill2_zero 4 _ ?_
    rot_chain 3 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM4 cc0_scratch7 cc0_scratch13 4 ⟨k.val + 1, q1⟩ slotM4.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM1 cc0_scratch4 cc0_scratch10 1 ⟨k.val + 4, q4⟩ ((k0_off4_eq L k).trans (chOff_add4 L k.val)) (inbM4 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM3 cc0_scratch6 cc0_scratch12 3 ⟨k.val, q0⟩ : sProp 𝕄) from
        sfl_of_sent m d L 3 4 cc0_scratch6 cc0_scratch12 3 ⟨k.val, q0⟩ q1 hf0 hf1 hfill (k0_off333_eq L k) (inbO333 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.IdealK

end
-- ==== Proof.IdealTripS4.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 4: positions 0, 1, 2, 3, 4, 5 of the invariant are slots 4, 5, 0, 1, 2, 3.
-/
import proofs.«213455_g39170101740086_cont_8to1_b_302_25_alg».proof.Proof.IdealTripDefs
import proofs.«213455_g39170101740086_cont_8to1_b_302_25_alg».proof.Proof.IdealTripClose
import proofs.«213455_g39170101740086_cont_8to1_b_302_25_alg».proof.Proof.Gen.KernelIdeal
import proofs.«213455_g39170101740086_cont_8to1_b_302_25_alg».proof.Proof.Gen.KernelIdeal.Skeleton

set_option maxHeartbeats 4000000
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO334 (L : grid0.Coords) (k : Fin k0_t1_loop.trips) : ∀ a, k0_off334 L k a + S32x512.size a ≤ S65536x512.size a := by
  intro a; rw [k0_off334_eq L k]; exact chOff_inb L (kCh k) a
omit [FloatOps F] in
theorem inbM5 (L : grid0.Coords) (k : Fin k0_t1_loop.trips) (h4 : k.val + 4 < 64) : ∀ a, k0_off5 L k a + S32x512.size a ≤ S65536x512.size a := by
  intro a; rw [(k0_off5_eq L k).trans (chOff_add4 L k.val)]; exact chOff_inb L ⟨k.val + 4, h4⟩ a

theorem tripS4 (k : Fin k0_t1_loop.trips) (hk : k.val % 6 = 4) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off334_eq L k) (inbO334 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 4 (256 * j) f0 g⌝ ∗ slotM4.view.loc (thr d L) ↦[slotM4.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 4 (256 * g.val) from 256 to 0
      exact rot_cast hf (by omega)
  · iexists f0
    isplitr
    · ipureintro; exact rot_zero 4 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM5 ⟨k.val + 1, q1⟩
      (slotM5.view.writes (Elt F) slotM5.view.junk [⟨Rect.whole S32x512, gpay m d L ⟨k.val + 1, q1⟩⟩]) :=
    holds_landed m d L slotM5 ⟨k.val + 1, q1⟩ _
  have hfill : Fill2 4 5 32 f0 (slotM5.view.writes (Elt F) slotM5.view.junk [⟨Rect.whole S32x512, gpay m d L ⟨k.val + 1, q1⟩⟩])
      (tripS4.sl.Hs0_w256 m d L k q1 f2) := by
    fill_chain 4 5 from 32 to 0
    refine fill2_zero 5 _ ?_
    rot_chain 4 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM5 cc0_scratch8 cc0_scratch14 5 ⟨k.val + 1, q1⟩ slotM5.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM2 cc0_scratch5 cc0_scratch11 2 ⟨k.val + 4, q4⟩ ((k0_off5_eq L k).trans (chOff_add4 L k.val)) (inbM5 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM4 cc0_scratch7 cc0_scratch13 4 ⟨k.val, q0⟩ : sProp 𝕄) from
        sfl_of_sent m d L 4 5 cc0_scratch7 cc0_scratch13 4 ⟨k.val, q0⟩ q1 hf0 hf1 hfill (k0_off334_eq L k) (inbO334 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.IdealK

end
-- ==== Proof.IdealTripS5.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 5: positions 0, 1, 2, 3, 4, 5 of the invariant are slots 5, 0, 1, 2, 3, 4.
-/
import proofs.«213455_g39170101740086_cont_8to1_b_302_25_alg».proof.Proof.IdealTripDefs
import proofs.«213455_g39170101740086_cont_8to1_b_302_25_alg».proof.Proof.IdealTripClose
import proofs.«213455_g39170101740086_cont_8to1_b_302_25_alg».proof.Proof.Gen.KernelIdeal
import proofs.«213455_g39170101740086_cont_8to1_b_302_25_alg».proof.Proof.Gen.KernelIdeal.Skeleton

set_option maxHeartbeats 4000000
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO335 (L : grid0.Coords) (k : Fin k0_t1_loop.trips) : ∀ a, k0_off335 L k a + S32x512.size a ≤ S65536x512.size a := by
  intro a; rw [k0_off335_eq L k]; exact chOff_inb L (kCh k) a
omit [FloatOps F] in
theorem inbM6 (L : grid0.Coords) (k : Fin k0_t1_loop.trips) (h4 : k.val + 4 < 64) : ∀ a, k0_off6 L k a + S32x512.size a ≤ S65536x512.size a := by
  intro a; rw [(k0_off6_eq L k).trans (chOff_add4 L k.val)]; exact chOff_inb L ⟨k.val + 4, h4⟩ a

theorem tripS5 (k : Fin k0_t1_loop.trips) (hk : k.val % 6 = 5) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off335_eq L k) (inbO335 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 5 (256 * j) f0 g⌝ ∗ slotM5.view.loc (thr d L) ↦[slotM5.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 5 (256 * g.val) from 256 to 0
      exact rot_cast hf (by omega)
  · iexists f0
    isplitr
    · ipureintro; exact rot_zero 5 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM0 ⟨k.val + 1, q1⟩
      (slotM0.view.writes (Elt F) slotM0.view.junk [⟨Rect.whole S32x512, gpay m d L ⟨k.val + 1, q1⟩⟩]) :=
    holds_landed m d L slotM0 ⟨k.val + 1, q1⟩ _
  have hfill : Fill2 5 0 32 f0 (slotM0.view.writes (Elt F) slotM0.view.junk [⟨Rect.whole S32x512, gpay m d L ⟨k.val + 1, q1⟩⟩])
      (tripS5.sl.Hs0_w256 m d L k q1 f2) := by
    fill_chain 5 0 from 32 to 0
    refine fill2_zero 0 _ ?_
    rot_chain 5 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM0 cc0_scratch3 cc0_scratch9 0 ⟨k.val + 1, q1⟩ slotM0.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM3 cc0_scratch6 cc0_scratch12 3 ⟨k.val + 4, q4⟩ ((k0_off6_eq L k).trans (chOff_add4 L k.val)) (inbM6 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM5 cc0_scratch8 cc0_scratch14 5 ⟨k.val, q0⟩ : sProp 𝕄) from
        sfl_of_sent m d L 5 0 cc0_scratch8 cc0_scratch14 5 ⟨k.val, q0⟩ q1 hf0 hf1 hfill (k0_off335_eq L k) (inbO335 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.IdealK

end
-- ==== Proof.IdealTripL0.lean ====
/-
  The last trips of the main loop, for a trip number that is a multiple of six (trip 60): chunk k sits in slot 0 of the
  scratch ring. From trip 60 on nothing is fetched any more and no store is waited for: the trip waits for the fetch of chunk
  k+1 into slot 1, rotates slot 0 up by one row, fills its last row from the first row of slot 1, and sends slot 0 out as chunk k
  of the result. The invariant at trip k gives the invariant at trip k+1 with the slots' roles moved on by one: the slot of chunk
  k+1 now holds it, the new store is in flight, and every other slot is in the state it was in, its chunk number respelt (past
  chunk 63 a position that would be a fetch is the store of the chunk six before).
-/
import proofs.«213455_g39170101740086_cont_8to1_b_302_25_alg».proof.Proof.IdealTripClose
import proofs.«213455_g39170101740086_cont_8to1_b_302_25_alg».proof.Proof.Gen.KernelIdeal
import proofs.«213455_g39170101740086_cont_8to1_b_302_25_alg».proof.Proof.Gen.KernelIdeal.Skeleton

set_option maxHeartbeats 4000000
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-! ## The invariant of a late trip, position by position -/

section Pos
variable (sM : Memref sig .scVector .vmem S32x512 .f32) (is os : DmaSems sig S_) (t : ℕ)

/-- Position 0 at a trip below 64 is the landed chunk. -/
theorem pos0_held (k : ℕ) (c : Fin 64) (e : c.val = k) : pos0 m d L sM is os t k = held m d L sM is os t c := by
  have q : k < 64 := by have := c.isLt; omega
  obtain rfl : c = ⟨k, q⟩ := Fin.ext e
  unfold pos0; rw [dif_pos q]
/-- A fetching position whose chunk exists is that chunk's fetch in flight. -/
theorem posG_gfl (k i : ℕ) (c : Fin 64) (e : c.val = k + i) : posG m d L sM is os t k i = gfl m d L sM is os t c := by
  have q : k + i < 64 := by have := c.isLt; omega
  obtain rfl : c = ⟨k + i, q⟩ := Fin.ext e
  unfold posG; rw [dif_pos q]
/-- A fetching position one trip on is the next fetching position now. -/
theorem posG_succ (k i j : ℕ) (hj : j = i + 1) : posG m d L sM is os t (k + 1) i = posG m d L sM is os t k j := by
  subst hj
  unfold posG
  rw [show k + 1 + i = k + (i + 1) from by omega]
/-- From trip 60 on the third fetching position one trip on is the store two before now. -/
theorem posG_of_posS (k : ℕ) (hlo : 60 ≤ k) : posG m d L sM is os t (k + 1) 3 = posS m d L sM is os t k 2 := by
  unfold posG posS
  rw [dif_neg (by omega : ¬ k + 1 + 3 < 64), if_pos (by omega : 2 ≤ k), show k + 1 + 3 - 6 = k - 2 from by omega]
/-- The store two before, one trip on, is the store one before now. -/
theorem posS_succ (k : ℕ) (h1 : 1 ≤ k) : posS m d L sM is os t (k + 1) 2 = posS m d L sM is os t k 1 := by
  unfold posS
  rw [if_pos (by omega : 2 ≤ k + 1), if_pos h1, show k + 1 - 2 = k - 1 from by omega]
/-- The store one before, one trip on, is the store of this trip's chunk. -/
theorem posS_new (k : ℕ) (c : Fin 64) (e : c.val = k) : posS m d L sM is os t (k + 1) 1 = sfl m d L sM is os t c := by
  have q : k < 64 := by have := c.isLt; omega
  obtain rfl : c = ⟨k, q⟩ := Fin.ext e
  unfold posS
  rw [if_pos (by omega : 1 ≤ k + 1), show k + 1 - 1 = k from by omega, dif_pos q]
end Pos

/-- At a trip k with 60 ≤ k < 63: chunk k has landed, chunk k + 1 is being fetched; the other four positions as they stand. -/
theorem InvGen_late (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ)
    (c0 c1 : Fin 64) (e0 : c0.val = k) (e1 : c1.val = k + 1) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ gfl m d L a1 i1 o1 t1 c1 ∗ posG m d L a2 i2 o2 t2 k 2 ∗ posG m d L a3 i3 o3 t3 k 3
          ∗ posS m d L a4 i4 o4 t4 k 2 ∗ posS m d L a5 i5 o5 t5 k 1 ∗ outs m d L k) := by
  unfold InvGen
  rw [pos0_held m d L a0 i0 o0 t0 k c0 e0, posG_gfl m d L a1 i1 o1 t1 k 1 c1 e1]

/-- One trip on, with the slots' roles moved on by one (60 ≤ k < 63): chunk k + 1 has landed, the four positions that were not
    touched are what they were, and chunk k is being stored. -/
theorem InvGen_late_next (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hlo : 60 ≤ k)
    (c0 c1 : Fin 64) (e0 : c0.val = k) (e1 : c1.val = k + 1) :
    InvGen m d L a1 a2 a3 a4 a5 a0 i1 i2 i3 i4 i5 i0 o1 o2 o3 o4 o5 o0 t1 t2 t3 t4 t5 t0 O W (k + 1)
      = iprop((∃ W', ⌜∀ p ∈ W', p ∈ W ∨ p.2 = none⌝ ∗ owes (thr d L) O W')
          ∗ held m d L a1 i1 o1 t1 c1 ∗ posG m d L a2 i2 o2 t2 k 2 ∗ posG m d L a3 i3 o3 t3 k 3
          ∗ posS m d L a4 i4 o4 t4 k 2 ∗ posS m d L a5 i5 o5 t5 k 1 ∗ sfl m d L a0 i0 o0 t0 c0 ∗ outs m d L (k + 1)) := by
  unfold InvGen
  rw [pos0_held m d L a1 i1 o1 t1 (k + 1) c1 e1, posG_succ m d L a2 i2 o2 t2 k 1 2 rfl, posG_succ m d L a3 i3 o3 t3 k 2 3 rfl,
    posG_of_posS m d L a4 i4 o4 t4 k hlo, posS_succ m d L a5 i5 o5 t5 k (by omega), posS_new m d L a0 i0 o0 t0 k c0 e0]

variable [FloatOps F]

theorem tripL0 (k : Fin k0_t1_loop.trips) (hk : k.val % 6 = 0) (hlo : 60 ≤ k.val) (hhi : k.val < 63)
    (O : CellTallies nD τ sig (HIx 1)) (W : Waits sig (HIx 1)) (R : sProp 𝕄) :
    iprop(Transfers.MayWaits (thr d L) (none : HIx 1) O ∗ R
        ∗ InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W (k.val + 1)) := by
  have q0 : k.val < 64 := by omega
  have q1 : k.val + 1 < 64 := by omega
  rw [InvGen_late m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val ⟨k.val, q0⟩ ⟨k.val + 1, q1⟩ rfl rfl,
    InvGen_late_next m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val hlo ⟨k.val, q0⟩ ⟨k.val + 1, q1⟩ rfl rfl,
    ← outs_step_none m d L k.val q0 (Or.inr hlo), outs_take m d L k.val q0,
    held_eq m d L slotM0 cc0_scratch3 cc0_scratch9 0 ⟨k.val, q0⟩, gfl_eq m d L slotM1 cc0_scratch4 cc0_scratch10 1 ⟨k.val + 1, q1⟩,
    chunk_respell d L ⟨k.val, q0⟩ (k0_off330_eq L k) (inb_of_eq L ⟨k.val, q0⟩ (k0_off330_eq L k)) (m (oLoc d))]
  iintro ⟨#Hmw, HR, ⟨%W0, HW0, HO⟩, ⟨Hi0, Ho0, Hm0, %f0, Hhf0, Hs0⟩, ⟨Ho1, ⟨%g1, Hf1⟩, Hm1⟩, Hg2, Hg3, H4, H5, Hoc, Hrest⟩
  unfold k0_t1_body
  sl_exec_parts (disch := cond_disch)
  sl_for (fun (j : Nat) (_ : PUnit) => (iprop(∃ g : Ring F, ⌜Rot 0 (256 * j) f0 g⌝ ∗ slotM0.view.loc (thr d L) ↦[slotM0.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 0 (256 * g.val) from 256 to 0
      exact rot_cast hf (by omega)
  · iexists f0
    isplitr
    · ipureintro; exact rot_zero 0 f0
    · iexact Hs0
  iintro %_ HI
  icases HI with ⟨%f2, Hhf2, Hs0⟩
  sl_exec_parts (disch := cond_disch)
  rw [wp_ret]; imodintro
  icases HW0 with %hW0
  icases Hhf0 with %hf0
  icases Hhf2 with %hf2
  have ht : Scf.trips k0_t2_loop.lb k0_t2_loop.ub k0_t2_loop.st = 3 := rfl
  rw [ht] at hf2
  have hf1 : Holds m d L slotM1 ⟨k.val + 1, q1⟩ (slotM1.view.writes (Elt F) slotM1.view.junk [⟨Rect.whole S32x512, gpay m d L ⟨k.val + 1, q1⟩⟩]) :=
    holds_landed m d L slotM1 ⟨k.val + 1, q1⟩ _
  have hrot : Rot 0 992 f0 (tripL0.sl.Hs0_w224 k f2) := by
    rot_chain 0 768 from 224 to 0
    exact rot_cast hf2 (by omega)
  have hfill : Fill2 0 1 32 f0 (slotM1.view.writes (Elt F) slotM1.view.junk [⟨Rect.whole S32x512, gpay m d L ⟨k.val + 1, q1⟩⟩]) (tripL0.sl.Hs0_w256 m d L k q1 f2) := by
    fill_chain 0 1 from 32 to 0
    exact fill2_zero 1 _ hrot
  isplitr
  · iexact Hmw
  isplitl [HR]
  · iexact HR
  isplitl [HO]
  · iexists _
    isplitr
    rotate_left
    · iexact HO
    · ipureintro
      intro p hp
      rcases Finset.mem_insert.1 hp with rfl | h
      · exact Or.inr rfl
      · exact hW0 p h
  isplitl [Hf1 Ho1 Hm1 Hf1_dst]
  · iapply (held_of_landed m d L slotM1 cc0_scratch4 cc0_scratch10 1 ⟨k.val + 1, q1⟩ slotM1.view.junk)
    isplitl [Hf1]
    · iexact Hf1
    isplitl [Ho1]
    · iexact Ho1
    isplitl [Hm1]
    · iexact Hm1
    · iexact Hf1_dst
  isplitl [Hg2]
  · iexact Hg2
  isplitl [Hg3]
  · iexact Hg3
  isplitl [H4]
  · iexact H4
  isplitl [H5]
  · iexact H5
  isplitl [Hi0 Hm0 Ho0]
  · iapply (sfl_of_sent m d L 0 1 cc0_scratch3 cc0_scratch9 0 ⟨k.val, q0⟩ q1 hf0 hf1 hfill (k0_off330_eq L k)
      (inb_of_eq L ⟨k.val, q0⟩ (k0_off330_eq L k)) (m (oLoc d)) _ rfl)
    isplitl [Hi0]
    · iexact Hi0
    isplitl [Hm0]
    · iexact Hm0
    · iexact Ho0
  · iexact Hrest

end Cert.Proof.IdealK

end
-- ==== Proof.IdealTripL1.lean ====
/-
  The last trips of the main loop, for a trip number that leaves 1 on division by six (trip 61): chunk k sits in slot 1 of the
  scratch ring. Nothing is fetched any more and no store is waited for: the trip waits for the fetch of chunk k+1 into slot 2,
  rotates slot 1 up by one row, fills its last row from the first row of slot 2, and sends slot 1 out as chunk k of the
  result. The invariant at trip k gives the invariant at trip k+1 with the slots' roles moved on by one, exactly as for a
  multiple of six: only the slots, their semaphores and their read tokens are the next ones round the ring.
-/
import proofs.«213455_g39170101740086_cont_8to1_b_302_25_alg».proof.Proof.IdealTripClose
import proofs.«213455_g39170101740086_cont_8to1_b_302_25_alg».proof.Proof.IdealTripL0
import proofs.«213455_g39170101740086_cont_8to1_b_302_25_alg».proof.Proof.Gen.KernelIdeal
import proofs.«213455_g39170101740086_cont_8to1_b_302_25_alg».proof.Proof.Gen.KernelIdeal.Skeleton

set_option maxHeartbeats 4000000
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

variable [FloatOps F]

theorem tripL1 (k : Fin k0_t1_loop.trips) (hk : k.val % 6 = 1) (hlo : 60 ≤ k.val) (hhi : k.val < 63)
    (O : CellTallies nD τ sig (HIx 1)) (W : Waits sig (HIx 1)) (R : sProp 𝕄) :
    iprop(Transfers.MayWaits (thr d L) (none : HIx 1) O ∗ R
        ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W (k.val + 1)) := by
  have q0 : k.val < 64 := by omega
  have q1 : k.val + 1 < 64 := by omega
  rw [InvGen_late m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val ⟨k.val, q0⟩ ⟨k.val + 1, q1⟩ rfl rfl,
    InvGen_late_next m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val hlo ⟨k.val, q0⟩ ⟨k.val + 1, q1⟩ rfl rfl,
    ← outs_step_none m d L k.val q0 (Or.inr hlo), outs_take m d L k.val q0,
    held_eq m d L slotM1 cc0_scratch4 cc0_scratch10 1 ⟨k.val, q0⟩, gfl_eq m d L slotM2 cc0_scratch5 cc0_scratch11 2 ⟨k.val + 1, q1⟩,
    chunk_respell d L ⟨k.val, q0⟩ (k0_off331_eq L k) (inb_of_eq L ⟨k.val, q0⟩ (k0_off331_eq L k)) (m (oLoc d))]
  iintro ⟨#Hmw, HR, ⟨%W0, HW0, HO⟩, ⟨Hi0, Ho0, Hm0, %f0, Hhf0, Hs0⟩, ⟨Ho1, ⟨%g1, Hf1⟩, Hm1⟩, Hg2, Hg3, H4, H5, Hoc, Hrest⟩
  unfold k0_t1_body
  sl_exec_parts (disch := cond_disch)
  sl_for (fun (j : Nat) (_ : PUnit) => (iprop(∃ g : Ring F, ⌜Rot 1 (256 * j) f0 g⌝ ∗ slotM1.view.loc (thr d L) ↦[slotM1.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 1 (256 * g.val) from 256 to 0
      exact rot_cast hf (by omega)
  · iexists f0
    isplitr
    · ipureintro; exact rot_zero 1 f0
    · iexact Hs0
  iintro %_ HI
  icases HI with ⟨%f2, Hhf2, Hs0⟩
  sl_exec_parts (disch := cond_disch)
  rw [wp_ret]; imodintro
  icases HW0 with %hW0
  icases Hhf0 with %hf0
  icases Hhf2 with %hf2
  have ht : Scf.trips k0_t2_loop.lb k0_t2_loop.ub k0_t2_loop.st = 3 := rfl
  rw [ht] at hf2
  have hf1 : Holds m d L slotM2 ⟨k.val + 1, q1⟩ (slotM2.view.writes (Elt F) slotM2.view.junk [⟨Rect.whole S32x512, gpay m d L ⟨k.val + 1, q1⟩⟩]) :=
    holds_landed m d L slotM2 ⟨k.val + 1, q1⟩ _
  have hrot : Rot 1 992 f0 (tripL1.sl.Hs0_w224 k f2) := by
    rot_chain 1 768 from 224 to 0
    exact rot_cast hf2 (by omega)
  have hfill : Fill2 1 2 32 f0 (slotM2.view.writes (Elt F) slotM2.view.junk [⟨Rect.whole S32x512, gpay m d L ⟨k.val + 1, q1⟩⟩]) (tripL1.sl.Hs0_w256 m d L k q1 f2) := by
    fill_chain 1 2 from 32 to 0
    exact fill2_zero 2 _ hrot
  isplitr
  · iexact Hmw
  isplitl [HR]
  · iexact HR
  isplitl [HO]
  · iexists _
    isplitr
    rotate_left
    · iexact HO
    · ipureintro
      intro p hp
      rcases Finset.mem_insert.1 hp with rfl | h
      · exact Or.inr rfl
      · exact hW0 p h
  isplitl [Hf1 Ho1 Hm1 Hf1_dst]
  · iapply (held_of_landed m d L slotM2 cc0_scratch5 cc0_scratch11 2 ⟨k.val + 1, q1⟩ slotM2.view.junk)
    isplitl [Hf1]
    · iexact Hf1
    isplitl [Ho1]
    · iexact Ho1
    isplitl [Hm1]
    · iexact Hm1
    · iexact Hf1_dst
  isplitl [Hg2]
  · iexact Hg2
  isplitl [Hg3]
  · iexact Hg3
  isplitl [H4]
  · iexact H4
  isplitl [H5]
  · iexact H5
  isplitl [Hi0 Hm0 Ho0]
  · iapply (sfl_of_sent m d L 1 2 cc0_scratch4 cc0_scratch10 1 ⟨k.val, q0⟩ q1 hf0 hf1 hfill (k0_off331_eq L k)
      (inb_of_eq L ⟨k.val, q0⟩ (k0_off331_eq L k)) (m (oLoc d)) _ rfl)
    isplitl [Hi0]
    · iexact Hi0
    isplitl [Hm0]
    · iexact Hm0
    · iexact Ho0
  · iexact Hrest

end Cert.Proof.IdealK

end
-- ==== Proof.IdealTripL2.lean ====
/-
  The last trips of the main loop, for a trip number that leaves 2 on division by six (trip 62): chunk k sits in slot 2 of the
  scratch ring. Nothing is fetched any more and no store is waited for: the trip waits for the fetch of chunk k+1 into slot 3,
  rotates slot 2 up by one row, fills its last row from the first row of slot 3, and sends slot 2 out as chunk k of the
  result. The invariant at trip k gives the invariant at trip k+1 with the slots' roles moved on by one, exactly as for a
  multiple of six: only the slots, their semaphores and their read tokens are the next ones round the ring.
-/
import proofs.«213455_g39170101740086_cont_8to1_b_302_25_alg».proof.Proof.IdealTripClose
import proofs.«213455_g39170101740086_cont_8to1_b_302_25_alg».proof.Proof.IdealTripL0
import proofs.«213455_g39170101740086_cont_8to1_b_302_25_alg».proof.Proof.Gen.KernelIdeal
import proofs.«213455_g39170101740086_cont_8to1_b_302_25_alg».proof.Proof.Gen.KernelIdeal.Skeleton

set_option maxHeartbeats 4000000
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

variable [FloatOps F]

theorem tripL2 (k : Fin k0_t1_loop.trips) (hk : k.val % 6 = 2) (hlo : 60 ≤ k.val) (hhi : k.val < 63)
    (O : CellTallies nD τ sig (HIx 1)) (W : Waits sig (HIx 1)) (R : sProp 𝕄) :
    iprop(Transfers.MayWaits (thr d L) (none : HIx 1) O ∗ R
        ∗ InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W (k.val + 1)) := by
  have q0 : k.val < 64 := by omega
  have q1 : k.val + 1 < 64 := by omega
  rw [InvGen_late m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k.val ⟨k.val, q0⟩ ⟨k.val + 1, q1⟩ rfl rfl,
    InvGen_late_next m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k.val hlo ⟨k.val, q0⟩ ⟨k.val + 1, q1⟩ rfl rfl,
    ← outs_step_none m d L k.val q0 (Or.inr hlo), outs_take m d L k.val q0,
    held_eq m d L slotM2 cc0_scratch5 cc0_scratch11 2 ⟨k.val, q0⟩, gfl_eq m d L slotM3 cc0_scratch6 cc0_scratch12 3 ⟨k.val + 1, q1⟩,
    chunk_respell d L ⟨k.val, q0⟩ (k0_off332_eq L k) (inb_of_eq L ⟨k.val, q0⟩ (k0_off332_eq L k)) (m (oLoc d))]
  iintro ⟨#Hmw, HR, ⟨%W0, HW0, HO⟩, ⟨Hi0, Ho0, Hm0, %f0, Hhf0, Hs0⟩, ⟨Ho1, ⟨%g1, Hf1⟩, Hm1⟩, Hg2, Hg3, H4, H5, Hoc, Hrest⟩
  unfold k0_t1_body
  sl_exec_parts (disch := cond_disch)
  sl_for (fun (j : Nat) (_ : PUnit) => (iprop(∃ g : Ring F, ⌜Rot 2 (256 * j) f0 g⌝ ∗ slotM2.view.loc (thr d L) ↦[slotM2.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 2 (256 * g.val) from 256 to 0
      exact rot_cast hf (by omega)
  · iexists f0
    isplitr
    · ipureintro; exact rot_zero 2 f0
    · iexact Hs0
  iintro %_ HI
  icases HI with ⟨%f2, Hhf2, Hs0⟩
  sl_exec_parts (disch := cond_disch)
  rw [wp_ret]; imodintro
  icases HW0 with %hW0
  icases Hhf0 with %hf0
  icases Hhf2 with %hf2
  have ht : Scf.trips k0_t2_loop.lb k0_t2_loop.ub k0_t2_loop.st = 3 := rfl
  rw [ht] at hf2
  have hf1 : Holds m d L slotM3 ⟨k.val + 1, q1⟩ (slotM3.view.writes (Elt F) slotM3.view.junk [⟨Rect.whole S32x512, gpay m d L ⟨k.val + 1, q1⟩⟩]) :=
    holds_landed m d L slotM3 ⟨k.val + 1, q1⟩ _
  have hrot : Rot 2 992 f0 (tripL2.sl.Hs0_w224 k f2) := by
    rot_chain 2 768 from 224 to 0
    exact rot_cast hf2 (by omega)
  have hfill : Fill2 2 3 32 f0 (slotM3.view.writes (Elt F) slotM3.view.junk [⟨Rect.whole S32x512, gpay m d L ⟨k.val + 1, q1⟩⟩]) (tripL2.sl.Hs0_w256 m d L k q1 f2) := by
    fill_chain 2 3 from 32 to 0
    exact fill2_zero 3 _ hrot
  isplitr
  · iexact Hmw
  isplitl [HR]
  · iexact HR
  isplitl [HO]
  · iexists _
    isplitr
    rotate_left
    · iexact HO
    · ipureintro
      intro p hp
      rcases Finset.mem_insert.1 hp with rfl | h
      · exact Or.inr rfl
      · exact hW0 p h
  isplitl [Hf1 Ho1 Hm1 Hf1_dst]
  · iapply (held_of_landed m d L slotM3 cc0_scratch6 cc0_scratch12 3 ⟨k.val + 1, q1⟩ slotM3.view.junk)
    isplitl [Hf1]
    · iexact Hf1
    isplitl [Ho1]
    · iexact Ho1
    isplitl [Hm1]
    · iexact Hm1
    · iexact Hf1_dst
  isplitl [Hg2]
  · iexact Hg2
  isplitl [Hg3]
  · iexact Hg3
  isplitl [H4]
  · iexact H4
  isplitl [H5]
  · iexact H5
  isplitl [Hi0 Hm0 Ho0]
  · iapply (sfl_of_sent m d L 2 3 cc0_scratch5 cc0_scratch11 2 ⟨k.val, q0⟩ q1 hf0 hf1 hfill (k0_off332_eq L k)
      (inb_of_eq L ⟨k.val, q0⟩ (k0_off332_eq L k)) (m (oLoc d)) _ rfl)
    isplitl [Hi0]
    · iexact Hi0
    isplitl [Hm0]
    · iexact Hm0
    · iexact Ho0
  · iexact Hrest

end Cert.Proof.IdealK

end
-- ==== Proof.IdealRotTail.lean ====
/-
  The last row of a worker's last chunk. In the band's last trip row 31 of the slot is not filled from the next slot of
  the ring but from a scratch outside it: for every worker but the last, from row 0 of the eight boundary rows (the first row
  of the next worker's band); for the last worker, from the new row. One step reads sixteen lanes of that scratch and stores
  them through sixteen lanes of row 31 of the slot. After the slot's rotation and the thirty-two steps, read through the slot's
  own 32 x 512 view: row `r < 31` is the old row `r + 1`, and row 31 is row 0 of the boundary rows, or the new row.
-/
import proofs.«213455_g39170101740086_cont_8to1_b_302_25_alg».proof.Proof.IdealRot

noncomputable section

namespace Cert.Proof.IdealK
open Cert.KernelIdeal Cert.KernelIdeal.Gen

open Idealize.ShloMosaic

variable {F : FTy → Type}

/-! ## The two scratches outside the ring -/

/-- The contents of the eight boundary rows, an 8 x 512 array, -/
abbrev BRows (F : FTy → Type) : Type := (bbW : Memref sig .scVector .vmem S8x512 .f32).view.ty.Contents (Elt F)
/-- and of the new row, 512 lanes. -/
abbrev NRow (F : FTy → Type) : Type := (nbW : Memref sig .scVector .vmem S512 .f32).view.ty.Contents (Elt F)

/-- The index `(r, l)` of the boundary rows, each coordinate clamped into its range. -/
def bbC (r l : ℕ) : S8x512.Idx := ValueIdx.ix2 (⟨min r 7, by omega⟩ : Fin 8) (⟨min l 511, by omega⟩ : Fin 512)
theorem bbC_0 (r l : ℕ) : (bbC r l 0).val = min r 7 := rfl
theorem bbC_1 (r l : ℕ) : (bbC r l 1).val = min l 511 := rfl
/-- The index `l` of the new row, clamped into its range. -/
def nbC (l : ℕ) : S512.Idx := ValueIdx.ix1 (⟨min l 511, by omega⟩ : Fin 512)
theorem nbC_0 (l : ℕ) : (nbC l 0).val = min l 511 := rfl

theorem ext2b {x y : S8x512.Idx} (h0 : (x 0).val = (y 0).val) (h1 : (x 1).val = (y 1).val) : x = y :=
  funext fun a => Fin.ext (match a with | ⟨0, _⟩ => h0 | ⟨1, _⟩ => h1)
theorem ext1n {x y : S512.Idx} (h0 : (x 0).val = (y 0).val) : x = y :=
  funext fun a => Fin.ext (match a with | ⟨0, _⟩ => h0)

/-! ## Sixteen lanes through the casts -/

theorem x0_zero (x : S1x1x16.Idx) : (x 0).val = 0 := by have h : (x 0).val < 1 := (x 0).isLt; omega
theorem x1_zero (x : S1x1x16.Idx) : (x 1).val = 0 := by have h : (x 1).val < 1 := (x 1).isLt; omega

/-- One row of sixteen lanes cast to a vector and on to a 1 x 1 x 16 block: lane `l` of the block is lane `l` of the row. -/
theorem castB16 {α : Type} (v : S1x16.Idx → α) (x : S1x1x16.Idx) :
    shapeCast S1x1x16 (shapeCast S16 v shapeCasts_S1x16_S16) shapeCasts_S16_S1x1x16 x
      = v (ValueIdx.ix2 (⟨0, by decide⟩ : Fin 1) (⟨(x 2).val, (x 2).isLt⟩ : Fin 16)) := by
  have h0 := x0_zero x; have h1 := x1_zero x
  refine (shapeCast_apply _ shapeCasts_S16_S1x1x16 x (ValueIdx.ix1 (⟨(x 2).val, (x 2).isLt⟩ : Fin 16)) ?_).trans
    (shapeCast_apply _ shapeCasts_S1x16_S16 _ (ValueIdx.ix2 (⟨0, by decide⟩ : Fin 1) (⟨(x 2).val, (x 2).isLt⟩ : Fin 16)) ?_)
  · rw [Shape.rowMajor_val_one, Shape.rowMajor_val_three]
    show (x 2).val = ((x 0).val * 1 + (x 1).val) * 16 + (x 2).val
    rw [h0, h1]; omega
  · rw [Shape.rowMajor_val_two, Shape.rowMajor_val_one]
    show 0 * 16 + (x 2).val = (x 2).val
    omega

/-- A vector of sixteen lanes cast to itself and on to a 1 x 1 x 16 block: lane `l` of the block is lane `l` of the vector. -/
theorem castN16 {α : Type} (v : S16.Idx → α) (x : S1x1x16.Idx) :
    shapeCast S1x1x16 (shapeCast S16 v shapeCasts_S16_S16) shapeCasts_S16_S1x1x16 x
      = v (ValueIdx.ix1 (⟨(x 2).val, (x 2).isLt⟩ : Fin 16)) := by
  have h0 := x0_zero x; have h1 := x1_zero x
  rw [shapeCast_self v shapeCasts_S16_S16]
  refine shapeCast_apply _ shapeCasts_S16_S1x1x16 x (ValueIdx.ix1 (⟨(x 2).val, (x 2).isLt⟩ : Fin 16)) ?_
  rw [Shape.rowMajor_val_one, Shape.rowMajor_val_three]
  show (x 2).val = ((x 0).val * 1 + (x 1).val) * 16 + (x 2).val
  rw [h0, h1]; omega

/-! ## One step from the boundary rows -/

/-- The ring after the sixteen lanes at `srcB` of the boundary rows are read and stored through the sixteen lanes at `dst`. -/
def cpB16 (g : Ring F) (fb : BRows F) (dst : Fin 3 → ℕ) (srcB : Fin 2 → ℕ) (hd : ∀ a, dst a + S1x1x16.size a ≤ S6x32x512.size a)
    (hs : ∀ a, srcB a + S1x16.size a ≤ S8x512.size a) : Ring F :=
  View.write (Elt F) (bufW.access (Rect.unit (s := S6x32x512) dst S1x1x16.size hd)) g
    (shapeCast S1x1x16 (shapeCast S16 (bbW.view.readAt (Elt F) (Rect.unit (s := S8x512) srcB S1x16.size hs).toLoadRect fb) shapeCasts_S1x16_S16)
      shapeCasts_S16_S1x1x16) Finset.univ

/-- Index by index: inside the destination box the ring takes the boundary rows' value at the same lane offset; elsewhere
    it is unchanged. -/
theorem cpB16_apply (g : Ring F) (fb : BRows F) (dst : Fin 3 → ℕ) (srcB : Fin 2 → ℕ) (hd : ∀ a, dst a + S1x1x16.size a ≤ S6x32x512.size a)
    (hs : ∀ a, srcB a + S1x16.size a ≤ S8x512.size a) (idx : S6x32x512.Idx) :
    cpB16 g fb dst srcB hd hs idx = if inBox dst idx then fb (bbC (srcB 0) (srcB 1 + ((idx 2).val - dst 2))) else g idx := by
  unfold cpB16
  by_cases hin : inBox dst idx
  · rw [if_pos hin]
    obtain ⟨e0, e1, l2, u2⟩ := hin
    have hs0 : srcB 0 + 1 ≤ 8 := hs 0
    have hs1 : srcB 1 + 16 ≤ 512 := hs 1
    let x : S1x1x16.Idx := ValueIdx.ix3 (⟨0, by decide⟩ : Fin 1) (⟨0, by decide⟩ : Fin 1) (⟨(idx 2).val - dst 2, by omega⟩ : Fin 16)
    have hx : idx = (bufW.access (Rect.unit (s := S6x32x512) dst S1x1x16.size hd)).emb x :=
      ext3 (by show (idx 0).val = dst 0 + 1 * 0; omega) (by show (idx 1).val = dst 1 + 1 * 0; omega)
        (by show (idx 2).val = dst 2 + 1 * ((idx 2).val - dst 2); omega)
    refine (congrArg (View.write (Elt F) (bufW.access (Rect.unit (s := S6x32x512) dst S1x1x16.size hd)) g _ Finset.univ) hx).trans ?_
    rw [View.write_emb_of_mem _ _ (Finset.mem_univ x), cast_eq]
    refine (castB16 _ x).trans ?_
    rw [View.readAt_apply, View.read_apply, cast_eq]
    refine congrArg fb (ext2b ?_ ?_)
    · show srcB 0 + 1 * 0 = min (srcB 0) 7; omega
    · show srcB 1 + 1 * ((idx 2).val - dst 2) = min (srcB 1 + ((idx 2).val - dst 2)) 511; omega
  · rw [if_neg hin]
    refine View.write_of_not_mem _ _ _ fun hmem => hin ((mem_box dst hd idx).mp ?_)
    have e : (bufW.access (Rect.unit (s := S6x32x512) dst S1x1x16.size hd)).setOn Finset.univ = (Rect.unit (s := S6x32x512) dst S1x1x16.size hd).set :=
      View.set_slice_whole _ _
    exact e ▸ hmem

/-- Slot `b` fully rotated, and the first `16 m` lanes of its row 31 holding row 0 of the boundary rows. -/
def FillB (b m : ℕ) (f : Ring F) (fb : BRows F) (g : Ring F) : Prop :=
  ∀ idx : S6x32x512.Idx, g idx =
    if (idx 0).val = b then
      if (idx 1).val < 31 then f (ixC (idx 0).val ((idx 1).val + 1) (idx 2).val)
      else if (idx 2).val < 16 * m then fb (bbC 0 (idx 2).val) else f idx
    else f idx

theorem fillB_zero {b : ℕ} {f g : Ring F} (fb : BRows F) (h : Rot b 992 f g) : FillB b 0 f fb g := by
  intro idx
  have i1 := idx1_lt idx; have i2 := idx2_lt idx
  rw [h]
  by_cases h0 : (idx 0).val = b
  · rw [if_pos h0]
    by_cases h1 : (idx 1).val < 31
    · rw [if_pos h1, if_pos ⟨h0, by omega⟩]
    · rw [if_neg h1, if_neg (by omega), if_neg (fun hc => h1 (by omega))]
  · rw [if_neg h0, if_neg (fun hc => h0 hc.1)]

/-- Step `m` of the fill: lanes `16 m …` of row 0 of the boundary rows onto row 31 of slot `b`. -/
theorem fillB_step {b m : ℕ} {f g : Ring F} {fb : BRows F} (h : FillB b m f fb g) (hm : m < 32) {dst : Fin 3 → ℕ} {srcB : Fin 2 → ℕ}
    (hd : ∀ a, dst a + S1x1x16.size a ≤ S6x32x512.size a) (hs : ∀ a, srcB a + S1x16.size a ≤ S8x512.size a)
    (hdst : dst = ![b, 31, 16 * m]) (hsrc : srcB = ![0, 16 * m]) :
    FillB b (m + 1) f fb (cpB16 g fb dst srcB hd hs) := by
  intro idx
  have i0 := idx0_lt idx; have i1 := idx1_lt idx; have i2 := idx2_lt idx
  have d0 : dst 0 = b := by rw [hdst]; rfl
  have d1 : dst 1 = 31 := by rw [hdst]; rfl
  have d2 : dst 2 = 16 * m := by rw [hdst]; rfl
  have s0 : srcB 0 = 0 := by rw [hsrc]; rfl
  have s1 : srcB 1 = 16 * m := by rw [hsrc]; rfl
  rw [cpB16_apply]
  by_cases hin : inBox dst idx
  · rw [if_pos hin]
    obtain ⟨e0, e1, l2, u2⟩ := hin
    rw [d0] at e0; rw [d1] at e1; rw [d2] at l2 u2
    rw [if_pos e0, if_neg (by omega), if_pos (by omega), s0, s1, d2]
    refine congrArg fb (ext2b ?_ ?_)
    · rw [bbC_0, bbC_0]
    · rw [bbC_1, bbC_1]; omega
  · rw [if_neg hin, h]
    unfold inBox at hin
    rw [d0, d1, d2] at hin
    by_cases h0 : (idx 0).val = b
    · rw [if_pos h0, if_pos h0]
      by_cases h1 : (idx 1).val < 31
      · rw [if_pos h1, if_pos h1]
      · rw [if_neg h1, if_neg h1]
        by_cases h2 : (idx 2).val < 16 * m
        · rw [if_pos h2, if_pos (by omega)]
        · rw [if_neg h2, if_neg (fun hc => hin ⟨h0, by omega, by omega, by omega⟩)]
    · rw [if_neg h0, if_neg h0]

/-- Slot `b` after the rotation and the fill from the boundary rows, read through its own view: row `r < 31` is the old
    row `r + 1`, row 31 is row 0 of the boundary rows. -/
theorem rot_fillB_read {b : Fin 6} {f g : Ring F} {fb : BRows F} (h : FillB b.val 32 f fb g) (y : S32x512.Idx) :
    (slotMi b).view.read (Elt F) g y
      = if (y 0).val < 31 then (slotMi b).view.read (Elt F) f (rcC ((y 0).val + 1) (y 1).val)
        else fb (ValueIdx.ix2 (⟨0, by decide⟩ : Fin 8) (⟨(y 1).val, (y 1).isLt⟩ : Fin 512)) := by
  have hy0 : (y 0).val < 32 := (y 0).isLt
  have hy1 : (y 1).val < 512 := (y 1).isLt
  have hb := b.isLt
  rw [slot_read, slot_read, h, if_pos (by rw [ixC_0]; omega)]
  by_cases h1 : (y 0).val < 31
  · rw [if_pos h1, if_pos (by rw [ixC_1]; omega)]
    refine congrArg f (ext3 ?_ ?_ ?_)
    · rw [ixC_0, ixC_0, ixC_0] <;> omega
    · rw [ixC_1, ixC_1, ixC_1, rcC_0] <;> omega
    · rw [ixC_2, ixC_2, ixC_2, rcC_1] <;> omega
  · rw [if_neg h1, if_neg (by rw [ixC_1]; omega), if_pos (by rw [ixC_2]; omega)]
    refine congrArg fb (ext2b ?_ ?_)
    · rw [bbC_0]; rfl
    · rw [bbC_1, ixC_2]; show min (min (y 1).val 511) 511 = (y 1).val; omega

/-! ## One step from the new row -/

/-- The ring after the sixteen lanes at `srcN` of the new row are read and stored through the sixteen lanes at `dst`. -/
def cpN16 (g : Ring F) (fn : NRow F) (dst : Fin 3 → ℕ) (srcN : Fin 1 → ℕ) (hd : ∀ a, dst a + S1x1x16.size a ≤ S6x32x512.size a)
    (hs : ∀ a, srcN a + S16.size a ≤ S512.size a) : Ring F :=
  View.write (Elt F) (bufW.access (Rect.unit (s := S6x32x512) dst S1x1x16.size hd)) g
    (shapeCast S1x1x16 (shapeCast S16 (nbW.view.readAt (Elt F) (Rect.unit (s := S512) srcN S16.size hs).toLoadRect fn) shapeCasts_S16_S16)
      shapeCasts_S16_S1x1x16) Finset.univ

/-- Index by index: inside the destination box the ring takes the new row's value at the same lane offset; elsewhere it is
    unchanged. -/
theorem cpN16_apply (g : Ring F) (fn : NRow F) (dst : Fin 3 → ℕ) (srcN : Fin 1 → ℕ) (hd : ∀ a, dst a + S1x1x16.size a ≤ S6x32x512.size a)
    (hs : ∀ a, srcN a + S16.size a ≤ S512.size a) (idx : S6x32x512.Idx) :
    cpN16 g fn dst srcN hd hs idx = if inBox dst idx then fn (nbC (srcN 0 + ((idx 2).val - dst 2))) else g idx := by
  unfold cpN16
  by_cases hin : inBox dst idx
  · rw [if_pos hin]
    obtain ⟨e0, e1, l2, u2⟩ := hin
    have hs0 : srcN 0 + 16 ≤ 512 := hs 0
    let x : S1x1x16.Idx := ValueIdx.ix3 (⟨0, by decide⟩ : Fin 1) (⟨0, by decide⟩ : Fin 1) (⟨(idx 2).val - dst 2, by omega⟩ : Fin 16)
    have hx : idx = (bufW.access (Rect.unit (s := S6x32x512) dst S1x1x16.size hd)).emb x :=
      ext3 (by show (idx 0).val = dst 0 + 1 * 0; omega) (by show (idx 1).val = dst 1 + 1 * 0; omega)
        (by show (idx 2).val = dst 2 + 1 * ((idx 2).val - dst 2); omega)
    refine (congrArg (View.write (Elt F) (bufW.access (Rect.unit (s := S6x32x512) dst S1x1x16.size hd)) g _ Finset.univ) hx).trans ?_
    rw [View.write_emb_of_mem _ _ (Finset.mem_univ x), cast_eq]
    refine (castN16 _ x).trans ?_
    rw [View.readAt_apply, View.read_apply, cast_eq]
    refine congrArg fn (ext1n ?_)
    show srcN 0 + 1 * ((idx 2).val - dst 2) = min (srcN 0 + ((idx 2).val - dst 2)) 511; omega
  · rw [if_neg hin]
    refine View.write_of_not_mem _ _ _ fun hmem => hin ((mem_box dst hd idx).mp ?_)
    have e : (bufW.access (Rect.unit (s := S6x32x512) dst S1x1x16.size hd)).setOn Finset.univ = (Rect.unit (s := S6x32x512) dst S1x1x16.size hd).set :=
      View.set_slice_whole _ _
    exact e ▸ hmem

/-- Slot `b` fully rotated, and the first `16 m` lanes of its row 31 holding the new row. -/
def FillN (b m : ℕ) (f : Ring F) (fn : NRow F) (g : Ring F) : Prop :=
  ∀ idx : S6x32x512.Idx, g idx =
    if (idx 0).val = b then
      if (idx 1).val < 31 then f (ixC (idx 0).val ((idx 1).val + 1) (idx 2).val)
      else if (idx 2).val < 16 * m then fn (nbC (idx 2).val) else f idx
    else f idx

theorem fillN_zero {b : ℕ} {f g : Ring F} (fn : NRow F) (h : Rot b 992 f g) : FillN b 0 f fn g := by
  intro idx
  have i1 := idx1_lt idx; have i2 := idx2_lt idx
  rw [h]
  by_cases h0 : (idx 0).val = b
  · rw [if_pos h0]
    by_cases h1 : (idx 1).val < 31
    · rw [if_pos h1, if_pos ⟨h0, by omega⟩]
    · rw [if_neg h1, if_neg (by omega), if_neg (fun hc => h1 (by omega))]
  · rw [if_neg h0, if_neg (fun hc => h0 hc.1)]

/-- Step `m` of the fill: lanes `16 m …` of the new row onto row 31 of slot `b`. -/
theorem fillN_step {b m : ℕ} {f g : Ring F} {fn : NRow F} (h : FillN b m f fn g) (hm : m < 32) {dst : Fin 3 → ℕ} {srcN : Fin 1 → ℕ}
    (hd : ∀ a, dst a + S1x1x16.size a ≤ S6x32x512.size a) (hs : ∀ a, srcN a + S16.size a ≤ S512.size a)
    (hdst : dst = ![b, 31, 16 * m]) (hsrc : srcN = ![16 * m]) :
    FillN b (m + 1) f fn (cpN16 g fn dst srcN hd hs) := by
  intro idx
  have i0 := idx0_lt idx; have i1 := idx1_lt idx; have i2 := idx2_lt idx
  have d0 : dst 0 = b := by rw [hdst]; rfl
  have d1 : dst 1 = 31 := by rw [hdst]; rfl
  have d2 : dst 2 = 16 * m := by rw [hdst]; rfl
  have s0 : srcN 0 = 16 * m := by rw [hsrc]; rfl
  rw [cpN16_apply]
  by_cases hin : inBox dst idx
  · rw [if_pos hin]
    obtain ⟨e0, e1, l2, u2⟩ := hin
    rw [d0] at e0; rw [d1] at e1; rw [d2] at l2 u2
    rw [if_pos e0, if_neg (by omega), if_pos (by omega), s0, d2]
    refine congrArg fn (ext1n ?_)
    rw [nbC_0, nbC_0]; omega
  · rw [if_neg hin, h]
    unfold inBox at hin
    rw [d0, d1, d2] at hin
    by_cases h0 : (idx 0).val = b
    · rw [if_pos h0, if_pos h0]
      by_cases h1 : (idx 1).val < 31
      · rw [if_pos h1, if_pos h1]
      · rw [if_neg h1, if_neg h1]
        by_cases h2 : (idx 2).val < 16 * m
        · rw [if_pos h2, if_pos (by omega)]
        · rw [if_neg h2, if_neg (fun hc => hin ⟨h0, by omega, by omega, by omega⟩)]
    · rw [if_neg h0, if_neg h0]

/-- Slot `b` after the rotation and the fill from the new row, read through its own view: row `r < 31` is the old row
    `r + 1`, row 31 is the new row. -/
theorem rot_fillN_read {b : Fin 6} {f g : Ring F} {fn : NRow F} (h : FillN b.val 32 f fn g) (y : S32x512.Idx) :
    (slotMi b).view.read (Elt F) g y
      = if (y 0).val < 31 then (slotMi b).view.read (Elt F) f (rcC ((y 0).val + 1) (y 1).val)
        else fn (ValueIdx.ix1 (⟨(y 1).val, (y 1).isLt⟩ : Fin 512)) := by
  have hy0 : (y 0).val < 32 := (y 0).isLt
  have hy1 : (y 1).val < 512 := (y 1).isLt
  have hb := b.isLt
  rw [slot_read, slot_read, h, if_pos (by rw [ixC_0]; omega)]
  by_cases h1 : (y 0).val < 31
  · rw [if_pos h1, if_pos (by rw [ixC_1]; omega)]
    refine congrArg f (ext3 ?_ ?_ ?_)
    · rw [ixC_0, ixC_0, ixC_0] <;> omega
    · rw [ixC_1, ixC_1, ixC_1, rcC_0] <;> omega
    · rw [ixC_2, ixC_2, ixC_2, rcC_1] <;> omega
  · rw [if_neg h1, if_neg (by rw [ixC_1]; omega), if_pos (by rw [ixC_2]; omega)]
    refine congrArg fn (ext1n ?_)
    rw [nbC_0, ixC_2]; show min (min (y 1).val 511) 511 = (y 1).val; omega

end Cert.Proof.IdealK

end
-- ==== Proof.IdealTripLastA.lean ====
/-
  The last trip of the main loop (trip 63) for a worker that is not the last. Chunk 63 sits in slot 3 of the scratch ring;
  the other five slots hold the stores of chunks 58 … 62 in flight and are not touched. Nothing is fetched and no fetch is
  waited for: the trip rotates slot 3 up by one row, waits for the fetch of the eight boundary rows issued before the loop,
  fills row 31 of the slot from row 0 of those rows (the first row of the next worker's band), and sends the slot out as chunk
  63 of the result. The invariant at trip 63 with the tail in flight gives the invariant at 64 with the tail consumed: the
  semaphore at zero, the read token whole again, the boundary scratch at what landed.
-/
import proofs.«213455_g39170101740086_cont_8to1_b_302_25_alg».proof.Proof.IdealBody
import proofs.«213455_g39170101740086_cont_8to1_b_302_25_alg».proof.Proof.IdealTripClose
import proofs.«213455_g39170101740086_cont_8to1_b_302_25_alg».proof.Proof.IdealRotTail

set_option maxHeartbeats 4000000
set_option maxRecDepth 65536
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

/-! ## The invariant at the last trip, position by position -/

omit [FloatOps F] in
/-- At trip 63: chunk 63 has landed; the other five positions are the stores of chunks 58 … 62 in flight. -/
theorem InvGen_last (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k = 63) (c0 : Fin 64) (e0 : c0.val = k) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ sfl m d L a1 i1 o1 t1 ⟨58, by decide⟩ ∗ sfl m d L a2 i2 o2 t2 ⟨59, by decide⟩ ∗ sfl m d L a3 i3 o3 t3 ⟨60, by decide⟩
          ∗ sfl m d L a4 i4 o4 t4 ⟨61, by decide⟩ ∗ sfl m d L a5 i5 o5 t5 ⟨62, by decide⟩ ∗ outs m d L k) := by
  subst hk
  obtain rfl : c0 = ⟨63, by decide⟩ := Fin.ext e0
  unfold InvGen
  rw [pos0_lt m d L a0 i0 o0 t0 63 (by decide), posG_ge m d L a1 i1 o1 t1 63 1 (by decide) (by decide), posG_ge m d L a2 i2 o2 t2 63 2 (by decide) (by decide),
    posG_ge m d L a3 i3 o3 t3 63 3 (by decide) (by decide), posS_sfl m d L a4 i4 o4 t4 63 2 (by decide) (by decide), posS_sfl m d L a5 i5 o5 t5 63 1 (by decide) (by decide)]

omit [FloatOps F] in
/-- After trip 63, with the slots' roles moved on by one: the same five stores, and the store of chunk 63. -/
theorem InvGen_last_next (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k = 63) (c0 : Fin 64) (e0 : c0.val = k) :
    InvGen m d L a1 a2 a3 a4 a5 a0 i1 i2 i3 i4 i5 i0 o1 o2 o3 o4 o5 o0 t1 t2 t3 t4 t5 t0 O W (k + 1)
      = iprop((∃ W', ⌜∀ p ∈ W', p ∈ W ∨ p.2 = none⌝ ∗ owes (thr d L) O W')
          ∗ sfl m d L a1 i1 o1 t1 ⟨58, by decide⟩ ∗ sfl m d L a2 i2 o2 t2 ⟨59, by decide⟩ ∗ sfl m d L a3 i3 o3 t3 ⟨60, by decide⟩
          ∗ sfl m d L a4 i4 o4 t4 ⟨61, by decide⟩ ∗ sfl m d L a5 i5 o5 t5 ⟨62, by decide⟩ ∗ sfl m d L a0 i0 o0 t0 c0 ∗ outs m d L (k + 1)) := by
  subst hk
  obtain rfl : c0 = ⟨63, by decide⟩ := Fin.ext e0
  unfold InvGen
  rw [pos0_ge m d L a1 i1 o1 t1 (63 + 1) (by decide) (by decide), posG_ge m d L a2 i2 o2 t2 (63 + 1) 1 (by decide) (by decide),
    posG_ge m d L a3 i3 o3 t3 (63 + 1) 2 (by decide) (by decide), posG_ge m d L a4 i4 o4 t4 (63 + 1) 3 (by decide) (by decide),
    posS_sfl m d L a5 i5 o5 t5 (63 + 1) 2 (by decide) (by decide), posS_sfl m d L a0 i0 o0 t0 (63 + 1) 1 (by decide) (by decide)]

/-- For a worker that is not the last the loop's test of it holds. -/
theorem cond32_of_lt (L : grid0.Coords) (hw : (wL L).val < 31) : k0_cond32 L = 1#1 := by
  revert L; decide +kernel

/-- The loop's test "the worker is the last", on the word the kernel computes, fails for every other worker. -/
theorem condEq_of_lt (L : grid0.Coords) (hw : (wL L).val < 31) :
    ¬ (Scalar.cmpi .ne (Scalar.extui (Scalar.cmpi .eq (wWord L) 31#32) : BitVec 32) 0#32 = 1#1) := by
  revert L; decide +kernel

/-! ## What the landed scratch holds, and what the slot sends in the last trip -/

omit [FloatOps F] in
/-- The boundary scratch after the fetch of the eight boundary rows has landed whole holds those rows of `mem`. -/
theorem bb_landed (inb : ∀ a, k0_off1 L a + S8x512.size a ≤ S65536x512.size a) (fbb : BRows F) (y : S8x512.Idx) :
    View.write (Elt F) bbW.view fbb (bpay m d L inb) Finset.univ y = m (mLoc d) ((bRows L inb).view.emb y) := by
  have h := View.write_emb_of_mem (Val := Elt F) (v := bbW.view) fbb (bpay m d L inb) (Finset.mem_univ y)
  rw [cast_eq] at h
  exact h

omit [FloatOps F] in
/-- What slot `b` sends after the rotation and the fill from the landed boundary rows is the band's last chunk of the result,
    for a worker that is not the last: rows 1 … 31 of chunk 63 of `mem` and the first row of the next band. -/
theorem sent_is_GoutB {b : Fin 6} (c : Fin 64) (hc : c.val = 63) (hw : (wL L).val < 31)
    (inb : ∀ a, k0_off1 L a + S8x512.size a ≤ S65536x512.size a) {f0 g : Ring F} (fbb : BRows F)
    (h0 : Holds m d L (slotMi b) c f0)
    (hfill : FillB b.val 32 f0 (View.write (Elt F) bbW.view fbb (bpay m d L inb) Finset.univ) g) (fo : Buf (Elt F) (oLoc d)) :
    ((oChunk L c).view.loc (thr d L) ↦[(oChunk L c).view.set]{fullShare}
        (oChunk L c).view.writes (Elt F) fo [⟨Rect.whole S32x512, ReadAs.same.apply ((slotMi b).view.read (Elt F) g)⟩] : sProp 𝕄)
      = ((oChunk L c).view.loc (thr d L) ↦[(oChunk L c).view.set]{fullShare} Gout m d) := by
  refine out_chunk_congr m d L c _ fun y => ?_
  have hy0 : (y 0).val < 32 := (y 0).isLt
  have hy1 : (y 1).val < 512 := (y 1).isLt
  have hwr := View.read_writes_cons_emb (Val := Elt F) (oChunk L c).view fo (Rect.whole S32x512)
    (ReadAs.same.apply ((slotMi b).view.read (Elt F) g)) [] y
  rw [Rect.emb_whole_apply S32x512 y, View.read_apply, cast_eq] at hwr
  refine hwr.trans ?_
  show (slotMi b).view.read (Elt F) g y = _
  rw [rot_fillB_read hfill y]
  by_cases hr : (y 0).val < 31
  · rw [if_pos hr, h0, Gout_chunk_lt m d L c y hr]
    refine congrArg (m (mLoc d)) (congrArg _ (funext fun a => ?_))
    match a with
    | ⟨0, _⟩ => exact Fin.ext (by show min ((y 0).val + 1) 31 = (y 0).val + 1; omega)
    | ⟨1, _⟩ => exact Fin.ext (by show min (y 1).val 511 = (y 1).val; omega)
  · rw [if_neg hr, bb_landed m d L inb fbb, Gout_chunk_last_band m d L c hc hw inb y (by omega)]
    rfl

omit [FloatOps F] in
/-- The slot that held chunk 63, rotated and filled from the landed boundary rows, sent through a slice of the result at
    offsets equal to the chunk's: the store of chunk 63 in flight. -/
theorem sfl_of_sentB (b : Fin 6) (is os : DmaSems sig S_) (t : ℕ) (c : Fin 64) (hc : c.val = 63) (hw : (wL L).val < 31)
    (inbB : ∀ a, k0_off1 L a + S8x512.size a ≤ S65536x512.size a) {f0 g : Ring F} (fbb : BRows F)
    (h0 : Holds m d L (slotMi b) c f0)
    (hfill : FillB b.val 32 f0 (View.write (Elt F) bbW.view fbb (bpay m d L inbB) Finset.univ) g)
    {off : Fin 2 → ℕ} (h : off = chOff L c.val) (inb : ∀ a, off a + S32x512.size a ≤ S65536x512.size a)
    (fo : Buf (Elt F) (oLoc d)) (pay : S32x512.Idx → Elt F .f32) (hp : pay = ReadAs.same.apply ((slotMi b).view.read (Elt F) g)) :
    (iprop(semVal (thr d L, SemLoc.dma is.sem) 0 ∗ (mW.view.loc (thr d L) ↦{tokM L t} m (mLoc d))
        ∗ Transfers.Flight countersEmb (thr d L) (SemLoc.dma os.sem) (default : HIx 1) 524288
            iprop(((oW.slice (Rect.unit (s := S65536x512) off S32x512.size inb) (fun _ => rfl)).view.loc (thr d L)
                  ↦[(oW.slice (Rect.unit (s := S65536x512) off S32x512.size inb) (fun _ => rfl)).view.set]{fullShare}
                    (oW.slice (Rect.unit (s := S65536x512) off S32x512.size inb) (fun _ => rfl)).view.writes (Elt F) fo [⟨Rect.whole S32x512, pay⟩])
              ∗ (slotMi b).view.loc (thr d L) ↦[(slotMi b).view.set]{fullShare} g)) : sProp 𝕄)
      ⊢ sfl m d L (slotMi b) is os t c := by
  subst h; subst hp
  unfold sfl tokWhole
  iintro ⟨H1, H2, H3⟩
  isplitl [H1]
  · iexact H1
  isplitl [H2]
  · iexact H2
  iexists g
  iapply (Transfers.Flight_mono countersEmb (thr d L) (Entails.of_eq (congrArg (fun X : sProp 𝕄 => iprop(X ∗ (slotMi b).view.loc (thr d L) ↦[(slotMi b).view.set]{fullShare} g))
    (sent_is_GoutB m d L c hc hw inbB fbb h0 hfill fo)))) $$ H3

/-! ## The fill's steps, the lane block's number read off the goal -/

omit [FloatOps F] in
theorem fillB_step' {b m' mm : ℕ} {f g : Ring F} {fb : BRows F} (h : FillB b mm f fb g) (hm' : m' = mm + 1) (hm : mm < 32)
    {dst : Fin 3 → ℕ} {srcB : Fin 2 → ℕ} (hd : ∀ a, dst a + S1x1x16.size a ≤ S6x32x512.size a) (hs : ∀ a, srcB a + S1x16.size a ≤ S8x512.size a)
    (hdst : dst = ![b, 31, 16 * mm]) (hsrc : srcB = ![0, 16 * mm]) :
    FillB b m' f fb (cpB16 g fb dst srcB hd hs) := hm' ▸ fillB_step h hm hd hs hdst hsrc

open Lean Elab Tactic in
/-- `fillB_chain b from hi to lo`: the fill's steps from the boundary rows for the lane blocks `hi - 1` down to `lo`, last first. -/
elab "fillB_chain " b:term:max " from " hi:num " to " lo:num : tactic => do
  let hi := hi.getNat
  let lo := lo.getNat
  for i in [0:hi - lo] do
    let j := hi - 1 - i
    let jt := Syntax.mkNumLit (toString j)
    evalTactic (← `(tactic| refine fillB_step' (b := $b) (mm := $jt) ?_ (by omega) (by omega) _ _ (by off_vec) rfl))

/-! ## The trip -/

theorem tripLastA (k : Fin k0_t1_loop.trips) (hk : k.val = 63) (hw : (wL L).val < 31)
    (inb : ∀ a, k0_off1 L a + S8x512.size a ≤ S65536x512.size a) (fbb : Buf (Elt F) ((thr d L).loc cc0_scratch1))
    (O : CellTallies nD τ sig (HIx 1)) (W : Waits sig (HIx 1)) :
    TripStmt (F := F) d L k iprop(Transfers.MayWaits (thr d L) (none : HIx 1) O ∗ tailA0 m d L inb fbb ∗ InvR3 m d L O W k.val)
      iprop(Transfers.MayWaits (thr d L) (none : HIx 1) O ∗ tailA1 m d L ∗ InvR4 m d L O W (k.val + 1)) := by
  have q0 : k.val < 64 := by omega
  have hc32 : k0_cond32 L = 1#1 := cond32_of_lt L hw
  have hcEq := condEq_of_lt L hw
  unfold TripStmt InvR3 InvR4
  rw [InvGen_last m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val hk ⟨k.val, q0⟩ rfl,
    InvGen_last_next m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val hk ⟨k.val, q0⟩ rfl,
    ← outs_step_none m d L k.val q0 (Or.inr (by omega)), outs_take m d L k.val q0,
    held_eq m d L slotM3 cc0_scratch6 cc0_scratch12 3 ⟨k.val, q0⟩,
    chunk_respell d L ⟨k.val, q0⟩ (k0_off333_eq L k) (inb_of_eq L ⟨k.val, q0⟩ (k0_off333_eq L k)) (m (oLoc d))]
  unfold tailA0 tailA1 tokWhole tokM
  iintro ⟨#Hmw, ⟨Hm12r, Fl12⟩, ⟨%W0, HW0, HO⟩, ⟨Hi3, Ho3, Hm3, %f0, Hhf0, Hs3⟩, X1, X2, X3, X4, X5, Hoc, Hrest⟩
  unfold k0_t1_body
  sl_exec_parts (disch := first | sl_exact hc32 | sl_exact hcEq | cond_disch)
  sl_for (fun (j : Nat) (_ : PUnit) => (iprop(∃ g : Ring F, ⌜Rot 3 (256 * j) f0 g⌝ ∗ slotM3.view.loc (thr d L) ↦[slotM3.view.set]{fullShare} g) : sProp 𝕄)) $$ [Hs3]
  case region =>
    intro g _
    have hg : g.val < 3 := g.isLt
    iintro ⟨%f, %hf, Hs⟩
    sl_exec_parts (disch := omega)
    sl_step
    iexists _
    isplitr
    rotate_left
    · iexact Hs
    · ipureintro
      rot_chain 3 (256 * g.val) from 256 to 0
      exact rot_cast hf (by omega)
  · iexists f0
    isplitr
    · ipureintro; exact rot_zero 3 f0
    · iexact Hs3
  iintro %_ HI
  icases HI with ⟨%f2, Hhf2, Hs3⟩
  sl_exec_parts (disch := first | sl_exact hc32 | sl_exact hcEq | cond_disch)
  rw [wp_ret]; imodintro
  icases HW0 with %hW0
  icases Hhf0 with %hf0
  icases Hhf2 with %hf2
  have ht : Scf.trips k0_t2_loop.lb k0_t2_loop.ub k0_t2_loop.st = 3 := rfl
  rw [ht] at hf2
  have hrot : Rot 3 992 f0 (tripLastA.sl.Hs3_w224 k f2) := by
    rot_chain 3 768 from 224 to 0
    exact rot_cast hf2 (by omega)
  have hfill : FillB 3 32 f0 (View.write (Elt F) bbW.view fbb (bpay m d L inb) Finset.univ) (tripLastA.sl.Hs3_w256 m d L k inb fbb f2) := by
    fillB_chain 3 from 32 to 0
    exact fillB_zero _ hrot
  isplitr
  · iexact Hmw
  isplitl [Fl12 Hm12r Fl12_dst]
  · isplitl [Fl12]
    · iexact Fl12
    isplitl [Hm12r]
    · iexact Hm12r
    · iexists _
      iexact Fl12_dst
  isplitl [HO]
  · iexists _
    isplitr
    pick_goal 2
    · iexact HO
    · ipureintro
      intro p hp
      rcases Finset.mem_insert.1 hp with hp | hp
      · exact Or.inr (by subst hp; rfl)
      · exact hW0 p hp
  isplitl [X1]
  · iexact X1
  isplitl [X2]
  · iexact X2
  isplitl [X3]
  · iexact X3
  isplitl [X4]
  · iexact X4
  isplitl [X5]
  · iexact X5
  isplitl [Hi3 Hm3 Ho3]
  · iapply (sfl_of_sentB m d L 3 cc0_scratch6 cc0_scratch12 3 ⟨k.val, q0⟩ hk hw inb fbb hf0 hfill (k0_off333_eq L k)
      (inb_of_eq L ⟨k.val, q0⟩ (k0_off333_eq L k)) (m (oLoc d)) _ rfl)
    isplitl [Hi3]
    · iexact Hi3
    isplitl [Hm3]
    · iexact Hm3
    · iexact Ho3
  · iexact Hrest

end Cert.Proof.IdealK

end
-- ==== Proof.IdealTripLastB.lean ====
/-
  The last trip of the main loop (trip 63) for the last worker. Chunk 63 sits in slot 3 of the scratch ring; the other five
  slots hold the stores of chunks 58 … 62 in flight and are not touched. Nothing is fetched and no fetch is waited for: the
  trip rotates slot 3 up by one row, waits for the fetch of the vector `new` issued before the loop, fills row 31 of the slot
  from it (the last row of the result), and sends the slot out as chunk 63 of the result. The invariant at trip 63 with the
  tail in flight gives the invariant at 64 with the tail consumed: the semaphore at zero, the read share of `new` whole again,
  the scratch vector at what landed.
-/
import proofs.«213455_g39170101740086_cont_8to1_b_302_25_alg».proof.Proof.IdealBody
import proofs.«213455_g39170101740086_cont_8to1_b_302_25_alg».proof.Proof.IdealTripClose
import proofs.«213455_g39170101740086_cont_8to1_b_302_25_alg».proof.Proof.IdealRotTail

set_option maxHeartbeats 4000000
set_option maxRecDepth 65536
set_option synthInstance.maxSize 4096

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

/-! ## The invariant at the last trip, position by position -/

omit [FloatOps F] in
/-- At trip 63: chunk 63 has landed; the other five positions are the stores of chunks 58 … 62 in flight. -/
theorem InvGen_lastN (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k = 63) (c0 : Fin 64) (e0 : c0.val = k) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ sfl m d L a1 i1 o1 t1 ⟨58, by decide⟩ ∗ sfl m d L a2 i2 o2 t2 ⟨59, by decide⟩ ∗ sfl m d L a3 i3 o3 t3 ⟨60, by decide⟩
          ∗ sfl m d L a4 i4 o4 t4 ⟨61, by decide⟩ ∗ sfl m d L a5 i5 o5 t5 ⟨62, by decide⟩ ∗ outs m d L k) := by
  subst hk
  obtain rfl : c0 = ⟨63, by decide⟩ := Fin.ext e0
  unfold InvGen
  rw [pos0_lt m d L a0 i0 o0 t0 63 (by decide), posG_ge m d L a1 i1 o1 t1 63 1 (by decide) (by decide), posG_ge m d L a2 i2 o2 t2 63 2 (by decide) (by decide),
    posG_ge m d L a3 i3 o3 t3 63 3 (by decide) (by decide), posS_sfl m d L a4 i4 o4 t4 63 2 (by decide) (by decide), posS_sfl m d L a5 i5 o5 t5 63 1 (by decide) (by decide)]

omit [FloatOps F] in
/-- After trip 63, with the slots' roles moved on by one: the same five stores, and the store of chunk 63. -/
theorem InvGen_lastN_next (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k = 63) (c0 : Fin 64) (e0 : c0.val = k) :
    InvGen m d L a1 a2 a3 a4 a5 a0 i1 i2 i3 i4 i5 i0 o1 o2 o3 o4 o5 o0 t1 t2 t3 t4 t5 t0 O W (k + 1)
      = iprop((∃ W', ⌜∀ p ∈ W', p ∈ W ∨ p.2 = none⌝ ∗ owes (thr d L) O W')
          ∗ sfl m d L a1 i1 o1 t1 ⟨58, by decide⟩ ∗ sfl m d L a2 i2 o2 t2 ⟨59, by decide⟩ ∗ sfl m d L a3 i3 o3 t3 ⟨60, by decide⟩
          ∗ sfl m d L a4 i4 o4 t4 ⟨61, by decide⟩ ∗ sfl m d L a5 i5 o5 t5 ⟨62, by decide⟩ ∗ sfl m d L a0 i0 o0 t0 c0 ∗ outs m d L (k + 1)) := by
  subst hk
  obtain rfl : c0 = ⟨63, by decide⟩ := Fin.ext e0
  unfold InvGen
  rw [pos0_ge m d L a1 i1 o1 t1 (63 + 1) (by decide) (by decide), posG_ge m d L a2 i2 o2 t2 (63 + 1) 1 (by decide) (by decide),
    posG_ge m d L a3 i3 o3 t3 (63 + 1) 2 (by decide) (by decide), posG_ge m d L a4 i4 o4 t4 (63 + 1) 3 (by decide) (by decide),
    posS_sfl m d L a5 i5 o5 t5 (63 + 1) 2 (by decide) (by decide), posS_sfl m d L a0 i0 o0 t0 (63 + 1) 1 (by decide) (by decide)]

/-- For the last worker the loop's test "not the last" fails. -/
theorem cond32_of_eq (L : grid0.Coords) (hw : (wL L).val = 31) : ¬ k0_cond32 L = 1#1 := by
  revert L; decide +kernel

/-- The loop's test "the worker is the last", on the word the kernel computes, holds for the last worker. -/
theorem condEq_of_eq (L : grid0.Coords) (hw : (wL L).val = 31) :
    Scalar.cmpi .ne (Scalar.extui (Scalar.cmpi .eq (wWord L) 31#32) : BitVec 32) 0#32 = 1#1 := by
  revert L; decide +kernel

/-! ## What the landed scratch holds, and what the slot sends in the last trip -/

omit [FloatOps F] in
/-- The scratch vector after the fetch of `new` has landed whole holds `new`. -/
theorem nb_landed (fnb : NRow F) (y : S512.Idx) :
    View.write (Elt F) nbW.view fnb (npay m d) Finset.univ y = m (nLoc d) y := by
  have h := View.write_emb_of_mem (Val := Elt F) (v := nbW.view) fnb (npay m d) (Finset.mem_univ y)
  rw [cast_eq] at h
  exact h

omit [FloatOps F] in
/-- What slot `b` sends after the rotation and the fill from the landed `new` is the band's last chunk of the result, for the
    last worker: rows 1 … 31 of chunk 63 of `mem` and the vector `new`. -/
theorem sent_is_GoutN {b : Fin 6} (c : Fin 64) (hc : c.val = 63) (hw : (wL L).val = 31) {f0 g : Ring F} (fnb : NRow F)
    (h0 : Holds m d L (slotMi b) c f0)
    (hfill : FillN b.val 32 f0 (View.write (Elt F) nbW.view fnb (npay m d) Finset.univ) g) (fo : Buf (Elt F) (oLoc d)) :
    ((oChunk L c).view.loc (thr d L) ↦[(oChunk L c).view.set]{fullShare}
        (oChunk L c).view.writes (Elt F) fo [⟨Rect.whole S32x512, ReadAs.same.apply ((slotMi b).view.read (Elt F) g)⟩] : sProp 𝕄)
      = ((oChunk L c).view.loc (thr d L) ↦[(oChunk L c).view.set]{fullShare} Gout m d) := by
  refine out_chunk_congr m d L c _ fun y => ?_
  have hy0 : (y 0).val < 32 := (y 0).isLt
  have hy1 : (y 1).val < 512 := (y 1).isLt
  have hwr := View.read_writes_cons_emb (Val := Elt F) (oChunk L c).view fo (Rect.whole S32x512)
    (ReadAs.same.apply ((slotMi b).view.read (Elt F) g)) [] y
  rw [Rect.emb_whole_apply S32x512 y, View.read_apply, cast_eq] at hwr
  refine hwr.trans ?_
  show (slotMi b).view.read (Elt F) g y = _
  rw [rot_fillN_read hfill y]
  by_cases hr : (y 0).val < 31
  · rw [if_pos hr, h0, Gout_chunk_lt m d L c y hr]
    refine congrArg (m (mLoc d)) (congrArg _ (funext fun a => ?_))
    match a with
    | ⟨0, _⟩ => exact Fin.ext (by show min ((y 0).val + 1) 31 = (y 0).val + 1; omega)
    | ⟨1, _⟩ => exact Fin.ext (by show min (y 1).val 511 = (y 1).val; omega)
  · rw [if_neg hr, nb_landed m d fnb, Gout_chunk_last_new m d L c hc hw y (by omega)]
    rfl

omit [FloatOps F] in
/-- The slot that held chunk 63, rotated and filled from the landed `new`, sent through a slice of the result at offsets equal
    to the chunk's: the store of chunk 63 in flight. -/
theorem sfl_of_sentN (b : Fin 6) (is os : DmaSems sig S_) (t : ℕ) (c : Fin 64) (hc : c.val = 63) (hw : (wL L).val = 31)
    {f0 g : Ring F} (fnb : NRow F) (h0 : Holds m d L (slotMi b) c f0)
    (hfill : FillN b.val 32 f0 (View.write (Elt F) nbW.view fnb (npay m d) Finset.univ) g)
    {off : Fin 2 → ℕ} (h : off = chOff L c.val) (inb : ∀ a, off a + S32x512.size a ≤ S65536x512.size a)
    (fo : Buf (Elt F) (oLoc d)) (pay : S32x512.Idx → Elt F .f32) (hp : pay = ReadAs.same.apply ((slotMi b).view.read (Elt F) g)) :
    (iprop(semVal (thr d L, SemLoc.dma is.sem) 0 ∗ (mW.view.loc (thr d L) ↦{tokM L t} m (mLoc d))
        ∗ Transfers.Flight countersEmb (thr d L) (SemLoc.dma os.sem) (default : HIx 1) 524288
            iprop(((oW.slice (Rect.unit (s := S65536x512) off S32x512.size inb) (fun _ => rfl)).view.loc (thr d L)
                  ↦[(oW.slice (Rect.unit (s := S65536x512) off S32x512.size inb) (fun _ => rfl)).view.set]{fullShare}
                    (oW.slice (Rect.unit (s := S65536x512) off S32x512.size inb) (fun _ => rfl)).view.writes (Elt F) fo [⟨Rect.whole S32x512, pay⟩])
              ∗ (slotMi b).view.loc (thr d L) ↦[(slotMi b).view.set]{fullShare} g)) : sProp 𝕄)
      ⊢ sfl m d L (slotMi b) is os t c := by
  subst h; subst hp
  unfold sfl tokWhole
  iintro ⟨H1, H2, H3⟩
  isplitl [H1]
  · iexact H1
  isplitl [H2]
  · iexact H2
  iexists g
  iapply (Transfers.Flight_mono countersEmb (thr d L) (Entails.of_eq (congrArg (fun X : sProp 𝕄 => iprop(X ∗ (slotMi b).view.loc (thr d L) ↦[(slotMi b).view.set]{fullShare} g))
    (sent_is_GoutN m d L c hc hw fnb h0 hfill fo)))) $$ H3

/-! ## The fill's steps, the lane block's number read off the goal -/

omit [FloatOps F] in
theorem fillN_step' {b m' mm : ℕ} {f g : Ring F} {fn : NRow F} (h : FillN b mm f fn g) (hm' : m' = mm + 1) (hm : mm < 32)
    {dst : Fin 3 → ℕ} {srcN : Fin 1 → ℕ} (hd : ∀ a, dst a + S1x1x16.size a ≤ S6x32x512.size a) (hs : ∀ a, srcN a + S16.size a ≤ S512.size a)
    (hdst : dst = ![b, 31, 16 * mm]) (hsrc : srcN = ![16 * mm]) :
    FillN b m' f fn (cpN16 g fn dst srcN hd hs) := hm' ▸ fillN_step h hm hd hs hdst hsrc

open Lean Elab Tactic in
/-- `fillN_chain b from hi to lo`: the fill's steps from the new row for the lane blocks `hi - 1` down to `lo`, last first. -/
elab "fillN_chain " b:term:max " from " hi:num " to " lo:num : tactic => do
  let hi := hi.getNat
  let lo := lo.getNat
  for i in [0:hi - lo] do
    let j := hi - 1 - i
    let jt := Syntax.mkNumLit (toString j)
    evalTactic (← `(tactic| refine fillN_step' (b := $b) (mm := $jt) ?_ (by omega) (by omega) _ _ (by off_vec) rfl))

/-! ## The trip -/

theorem tripLastB (k : Fin k0_t1_loop.trips) (hk : k.val = 63) (hw : (wL L).val = 31)
    (fnb : Buf (Elt F) ((thr d L).loc cc0_scratch2)) (O : CellTallies nD τ sig (HIx 1)) (W : Waits sig (HIx 1)) :
    TripStmt (F := F) d L k iprop(Transfers.MayWaits (thr d L) (none : HIx 1) O ∗ tailB0 m d L fnb ∗ InvR3 m d L O W k.val)
      iprop(Transfers.MayWaits (thr d L) (none : HIx 1) O ∗ tailB1 m d L ∗ InvR4 m d L O W (k.val + 1)) := by
  have q0 : k.val < 64 := by omega
  have hc32 : ¬ k0_cond32 L = 1#1 := cond32_of_eq L hw
  have hcEq := condEq_of_eq L hw
  unfold TripStmt InvR3 InvR4
  rw [InvGen_lastN m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val hk ⟨k.val, q0⟩ rfl,
    InvGen_lastN_next m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val hk ⟨k.val, q0⟩ rfl,
    ← outs_step_none m d L k.val q0 (Or.inr (by omega)), outs_take m d L k.val q0,
    held_eq m d L slotM3 cc0_scratch6 cc0_scratch12 3 ⟨k.val, q0⟩,
    chunk_respell d L ⟨k.val, q0⟩ (k0_off333_eq L k) (inb_of_eq L ⟨k.val, q0⟩ (k0_off333_eq L k)) (m (oLoc d))]
  unfold tailB0 tailB1 tokM
  iintro ⟨#Hmw, ⟨Hnr, Fl13⟩, ⟨%W0, HW0, HO⟩, ⟨Hi3, Ho3, Hm3, %f0, Hhf0, Hs3⟩, X1, X2, X3, X4, X5, Hoc, Hrest⟩
  unfold k0_t1_body
  sl_exec_parts (disch := first | sl_exact hc32 | sl_exact hcEq | cond_disch)
  sl_for (fun (j : Nat) (_ : PUnit) => (iprop(∃ g : Ring F, ⌜Rot 3 (256 * j) f0 g⌝ ∗ slotM3.view.loc (thr d L) ↦[slotM3.view.set]{fullShare} g) : sProp 𝕄)) $$ [Hs3]
  case region =>
    intro g _
    have hg : g.val < 3 := g.isLt
    iintro ⟨%f, %hf, Hs⟩
    sl_exec_parts (disch := omega)
    sl_step
    iexists _
    isplitr
    rotate_left
    · iexact Hs
    · ipureintro
      rot_chain 3 (256 * g.val) from 256 to 0
      exact rot_cast hf (by omega)
  · iexists f0
    isplitr
    · ipureintro; exact rot_zero 3 f0
    · iexact Hs3
  iintro %_ HI
  icases HI with ⟨%f2, Hhf2, Hs3⟩
  sl_exec_parts (disch := first | sl_exact hc32 | sl_exact hcEq | cond_disch)
  rw [wp_ret]; imodintro
  icases HW0 with %hW0
  icases Hhf0 with %hf0
  icases Hhf2 with %hf2
  have ht : Scf.trips k0_t2_loop.lb k0_t2_loop.ub k0_t2_loop.st = 3 := rfl
  rw [ht] at hf2
  have hrot : Rot 3 992 f0 (tripLastB.sl.Hs3_w224 k f2) := by
    rot_chain 3 768 from 224 to 0
    exact rot_cast hf2 (by omega)
  have hfill : FillN 3 32 f0 (View.write (Elt F) nbW.view fnb (npay m d) Finset.univ) (tripLastB.sl.Hs3_w256 m d L k fnb f2) := by
    fillN_chain 3 from 32 to 0
    exact fillN_zero _ hrot
  isplitr
  · iexact Hmw
  isplitl [Fl13 Hnr Fl13_dst]
  · isplitl [Fl13]
    · iexact Fl13
    isplitl [Hnr]
    · iexact Hnr
    · iexists _
      iexact Fl13_dst
  isplitl [HO]
  · iexists _
    isplitr
    pick_goal 2
    · iexact HO
    · ipureintro
      intro p hp
      rcases Finset.mem_insert.1 hp with hp | hp
      · exact Or.inr (by subst hp; rfl)
      · exact hW0 p hp
  isplitl [X1]
  · iexact X1
  isplitl [X2]
  · iexact X2
  isplitl [X3]
  · iexact X3
  isplitl [X4]
  · iexact X4
  isplitl [X5]
  · iexact X5
  isplitl [Hi3 Hm3 Ho3]
  · iapply (sfl_of_sentN m d L 3 cc0_scratch6 cc0_scratch12 3 ⟨k.val, q0⟩ hk hw fnb hf0 hfill (k0_off333_eq L k)
      (inb_of_eq L ⟨k.val, q0⟩ (k0_off333_eq L k)) (m (oLoc d)) _ rfl)
    isplitl [Hi3]
    · iexact Hi3
    isplitl [Hm3]
    · iexact Hm3
    · iexact Ho3
  · iexact Hrest

end Cert.Proof.IdealK

end
-- ==== Proof.IdealAll.lean ====
/-
  One worker's whole task, with every trip of its main loop supplied. The loop's sixty-four trips fall into ranges by what
  the look-ahead does (before any store is waited for: trips 0 and 1; the steady range 2 … 59; after the look-ahead has
  stopped: trips 60 … 62; the last trip, which takes its last row from outside the ring, for the two kinds of worker) and,
  within a range, by the rotation of the six-slot ring (the trip number modulo 6). Each is proved in its own module over the
  invariant written for its rotation; here they are gathered into the one statement the worker's task takes.
-/
import proofs.«213455_g39170101740086_cont_8to1_b_302_25_alg».proof.Proof.IdealBody
import proofs.«213455_g39170101740086_cont_8to1_b_302_25_alg».proof.Proof.IdealTripE0
import proofs.«213455_g39170101740086_cont_8to1_b_302_25_alg».proof.Proof.IdealTripE1
import proofs.«213455_g39170101740086_cont_8to1_b_302_25_alg».proof.Proof.IdealTripS0
import proofs.«213455_g39170101740086_cont_8to1_b_302_25_alg».proof.Proof.IdealTripS1
import proofs.«213455_g39170101740086_cont_8to1_b_302_25_alg».proof.Proof.IdealTripS2
import proofs.«213455_g39170101740086_cont_8to1_b_302_25_alg».proof.Proof.IdealTripS3
import proofs.«213455_g39170101740086_cont_8to1_b_302_25_alg».proof.Proof.IdealTripS4
import proofs.«213455_g39170101740086_cont_8to1_b_302_25_alg».proof.Proof.IdealTripS5
import proofs.«213455_g39170101740086_cont_8to1_b_302_25_alg».proof.Proof.IdealTripL0
import proofs.«213455_g39170101740086_cont_8to1_b_302_25_alg».proof.Proof.IdealTripL1
import proofs.«213455_g39170101740086_cont_8to1_b_302_25_alg».proof.Proof.IdealTripL2
import proofs.«213455_g39170101740086_cont_8to1_b_302_25_alg».proof.Proof.IdealTripLastA
import proofs.«213455_g39170101740086_cont_8to1_b_302_25_alg».proof.Proof.IdealTripLastB

-- each trip's statement is matched against the task's statement of it by unfolding both
set_option maxHeartbeats 4000000
set_option maxRecDepth 65536

noncomputable section

namespace Cert.Proof.IdealK
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
variable (m : (ℓ : Loc nD τ sig) → Buf (Elt F) ℓ)
variable [FloatOps F]

/-- Every trip of the loop, by range and rotation. -/
theorem rot_trips : RotTrips (F := F) m where
  early0 := fun d L k hk hhi O W R => tripE0 m d L k hk hhi O W R
  early1 := fun d L k hk hhi O W R => tripE1 m d L k hk hhi O W R
  steady0 := fun d L k hk hlo hhi O W R => tripS0 m d L k hk hlo hhi O W R
  steady1 := fun d L k hk hlo hhi O W R => tripS1 m d L k hk hlo hhi O W R
  steady2 := fun d L k hk hlo hhi O W R => tripS2 m d L k hk hlo hhi O W R
  steady3 := fun d L k hk hlo hhi O W R => tripS3 m d L k hk hlo hhi O W R
  steady4 := fun d L k hk hlo hhi O W R => tripS4 m d L k hk hlo hhi O W R
  steady5 := fun d L k hk hlo hhi O W R => tripS5 m d L k hk hlo hhi O W R
  late0 := fun d L k hk hlo hhi O W R => tripL0 m d L k hk hlo hhi O W R
  late1 := fun d L k hk hlo hhi O W R => tripL1 m d L k hk hlo hhi O W R
  late2 := fun d L k hk hlo hhi O W R => tripL2 m d L k hk hlo hhi O W R
  lastA := fun d L k hk hw inb fbb O W => tripLastA m d L k hk hw inb fbb O W
  lastB := fun d L k hk hw fnb O W => tripLastB m d L k hk hw fnb O W

/-- One worker's task: from its holdings the kernel function runs to its end and leaves the worker's band of the result at
    the result's value. -/
theorem tile_all : TileBody (F := F) m := tile_body m (trips_of_rot m (rot_trips m))

end Cert.Proof.IdealK

end
-- ==== Proof.BitsCommon.lean ====
/-
  Shared vocabulary for the certificate of the row-shifting kernel. Thirty-two vector subcores (two SparseCores of sixteen)
  each own a band of 2048 consecutive rows of the 65536-row result: subcore `s` of SparseCore `c` is worker `2 s + c` and
  owns rows `2048 (2 s + c) … 2048 (2 s + c) + 2047`. A worker reads its own band of `mem`, the first row of the next
  band (or `new`, for the last worker), and writes its band of the result. Here: the program as the launch theorem
  sees it, the resource algebra (the handshakes' rounds beside transfer counters), the arrays' locations, the bands, the
  read shares of the two inputs (one per worker), what the call hands each worker and takes back, and the statement of
  one worker's task, which the launch consumes and the body proves.
-/
import proofs.«213455_g39170101740086_cont_8to1_b_302_25_alg».proof.Kernel
import proofs.«213455_g39170101740086_cont_8to1_b_302_25_alg».proof.Proof.Gen.Kernel
import proofs.«213455_g39170101740086_cont_8to1_b_302_25_alg».proof.Proof.Spec
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Proof.BitsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, the bands, the shares -/

variable (m : (ℓ : Loc nD τ sig) → Buf (Elt F) ℓ)

/-- `new` and `mem` (the arguments) and the result, as locations of device `d`. -/
abbrev nLoc (d : Dev nD) : Loc nD τ sig := (SparseCore.T d).loc main_arg0
abbrev mLoc (d : Dev nD) : Loc nD τ sig := (SparseCore.T d).loc main_arg1
abbrev oLoc (d : Dev nD) : Loc nD τ sig := (SparseCore.T d).loc main_v0

/-- Worker number of subcore `s` of SparseCore `c`. -/
def widOf (c : Fin 2) (s : Fin 16) : Fin 32 := ⟨2 * s.val + c.val, by omega⟩

theorem hdiv32 : 32 ∣ S65536x512.size 0 := ⟨2048, rfl⟩
/-- Worker `w`'s band of rows. -/
abbrev band (w : Fin 32) : Rect S65536x512 := Rect.part (s := S65536x512) (a₀ := 0) hdiv32 w
abbrev bandSet (w : Fin 32) : Finset S65536x512.Idx :=
  ((Memref.whole main_v0_scv : Memref sig .scVector .hbm S65536x512 .f32).view.slice (band w)).set

/-- Worker `w`'s read share of an input array: the `w`-th of thirty-two tokens of the full share. -/
abbrev qW (w : Fin 32) : PosShare TreeShare := Transfers.shareTok fullShare 32 w

/-- The result both programs compute, from the launch contents of the two arguments. -/
def Gout (d : Dev nD) : Buf (Elt F) (oLoc d) := Cert.Spec.shiftRows (m (nLoc d)) (m (mLoc d))

/-- What worker `w` holds: a read share of each input at its launch contents, and its band of the result at `f`. -/
def tilePay (d : Dev nD) (w : Fin 32) (f : Buf (Elt F) (oLoc d)) : sProp 𝕄 :=
  iprop((nLoc d ↦{qW w} m (nLoc d)) ∗ (mLoc d ↦{qW w} m (mLoc d)) ∗ oLoc d ↦[bandSet w]{fullShare} f)

/-- The call hands SparseCore `c` the sixteen workers' holdings (the result at its launch contents) and takes them back with
    the result at `Gout`; each subcore's task gets and returns its own. -/
def P : (K (F := F)).Pay (nD := nD) (Val := Elt F) (Name := ℕ) (U := UU) where
  st := fun q d c => match q with
    | 0 => bigSep Finset.univ fun s : Fin 16 => tilePay m d (widOf (Fin.cast nCore_zero c) s) (m (oLoc d))
  dn := fun q d c => match q with
    | 0 => bigSep Finset.univ fun s : Fin 16 => tilePay m d (widOf (Fin.cast nCore_zero c) s) (Gout m d)
  go := fun q d c i => match q with
    | 0 => tilePay m d (widOf (Fin.cast nCore_zero c) (Fin.cast nSub_zero i)) (m (oLoc d))
  td := fun q d c i => match q with
    | 0 => tilePay m d (widOf (Fin.cast nCore_zero c) (Fin.cast nSub_zero i)) (Gout m d)
  x := fun _ _ => iprop(emp)

instance P_storable : (P (F := F) m).IsStorable where
  st q d c := match q with
    | 0 => by unfold P tilePay; dsimp only; infer_instance
  dn q d c := match q with
    | 0 => by unfold P tilePay; dsimp only; infer_instance
  go q d c i := match q with
    | 0 => by unfold P tilePay; dsimp only; infer_instance
  td q d c i := match q with
    | 0 => by unfold P tilePay; dsimp only; infer_instance

/-! ## One worker's task -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number at grid coordinates `L`. -/
def wL (L : grid0.Coords) : Fin 32 := widOf (Fin.cast bound_zero (L 0)) (Fin.cast bound_one (L 1))

-- the kernel's memrefs, spelt as the body table passes them
abbrev nW : Memref sig .scVector .hbm S512 .f32 := Memref.whole main_arg0_scv
abbrev mW : Memref sig .scVector .hbm S65536x512 .f32 := Memref.whole main_arg1_scv
abbrev oW : Memref sig .scVector .hbm S65536x512 .f32 := Memref.whole main_v0_scv
abbrev bufW : Memref sig .scVector .vmem S6x32x512 .f32 := Memref.whole cc0_scratch0
abbrev bbW : Memref sig .scVector .vmem S8x512 .f32 := Memref.whole cc0_scratch1
abbrev nbW : Memref sig .scVector .vmem S512 .f32 := Memref.whole cc0_scratch2

variable [FloatOps F]

/-- The kernel function at grid coordinates `L`, on the arrays and scratch the body table passes it. -/
abbrev bodyAt (L : grid0.Coords) :=
  cc0__shift_body (F := F) L nW (Memref.isWhole_whole _) mW (Memref.isWhole_whole _) oW (Memref.isWhole_whole _)
    bufW (Memref.isWhole_whole _) bbW (Memref.isWhole_whole _) nbW (Memref.isWhole_whole _)
    cc0_scratch3 cc0_scratch4 cc0_scratch5 cc0_scratch6 cc0_scratch7 cc0_scratch8 cc0_scratch9 cc0_scratch10 cc0_scratch11
    cc0_scratch12 cc0_scratch13 cc0_scratch14 cc0_scratch15 cc0_scratch16

/-- One worker's task: from its holdings, its scratch and its semaphores at zero, whatever it owes the launch, the kernel
    function runs to its end and leaves the worker's band of the result at `Gout`, the read shares as they were, the scratch
    at some contents and the semaphores at zero again. -/
def TileBody : Prop :=
  ∀ (d : Dev nD) (L : grid0.Coords) (_ : (K (F := F)).Facts) (O : CellTallies nD τ sig (HIx 1)) (W : Waits sig (HIx 1)) (_ : ∀ g, O g none = 0),
    iprop(levAts (K (F := F)).L (K (F := F)).lev ∗ emp ∗ tilePay m d (wL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyAt (F := F) L)
          fun _ => iprop(tilePay m d (wL L) (Gout m d) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.BitsK

end
-- ==== Proof.BitsLaunch.lean ====
/-
  The launch of the row-shifting kernel, for any float instance. The program's @main is one SparseCore call and a
  return. From the three arrays the TensorCore holds whole at the launch — the two inputs and the result — the call is fed:
  each input's full share is cut into thirty-two read tokens (and a remainder, which stays with the TensorCore across the
  call), the result into its thirty-two bands of 2048 rows; the thirty-two workers' holdings are regrouped as two
  SparseCores of sixteen subcores along worker = 2 * subcore + core, which is a bijection. Each subcore's task is the one
  task statement at its grid point. When the call returns every band is held at the one function Gout, so the bands join
  into the result whole at Gout (an equation), the read tokens join into the inputs whole at their launch contents, and the
  final memory is read off: the result is Gout and the inputs are unchanged, on every device.
-/
import proofs.«213455_g39170101740086_cont_8to1_b_302_25_alg».proof.Proof.BitsCommon

noncomputable section

namespace Cert.Proof.BitsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## Workers as pairs (SparseCore, subcore) -/

/-- Worker numbers are the pairs (SparseCore, subcore), each exactly once: `w = 2 s + c` with `c = w mod 2`, `s = w div 2`. -/
def widEquiv : Fin 2 × Fin 16 ≃ Fin 32 where
  toFun p := widOf p.1 p.2
  invFun w := (⟨w.val % 2, Nat.mod_lt _ (by decide)⟩, ⟨w.val / 2, by have := w.isLt; omega⟩)
  left_inv := by
    rintro ⟨c, s⟩
    have hc := c.isLt
    have hs := s.isLt
    refine Prod.ext (Fin.ext ?_) (Fin.ext ?_)
    · show (2 * s.val + c.val) % 2 = c.val
      omega
    · show (2 * s.val + c.val) / 2 = s.val
      omega
  right_inv := by
    intro w
    refine Fin.ext ?_
    show 2 * (w.val / 2) + w.val % 2 = w.val
    omega

/-- A product over the thirty-two workers is one over the two SparseCores of one over the sixteen subcores. -/
theorem bigSep_workers (Φ : Fin 32 → sProp 𝕄) :
    bigSep Finset.univ Φ = bigSep Finset.univ fun c : Fin 2 => bigSep Finset.univ fun s : Fin 16 => Φ (widOf c s) :=
  (bigSep_univ_equiv widEquiv Φ).trans (bigSep_univ_prod fun p : Fin 2 × Fin 16 => Φ (widEquiv p))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## What the handshakes carry, as equations -/

theorem P_st (d : Dev nD) (c : Fin ((K (F := F)).nCore 0)) :
    (P m).st 0 d c = bigSep Finset.univ fun s : Fin 16 => tilePay m d (widOf (Fin.cast nCore_zero c) s) (m (oLoc d)) := rfl
theorem P_dn (d : Dev nD) (c : Fin ((K (F := F)).nCore 0)) :
    (P m).dn 0 d c = bigSep Finset.univ fun s : Fin 16 => tilePay m d (widOf (Fin.cast nCore_zero c) s) (Gout m d) := rfl
theorem P_go (d : Dev nD) (c : Fin ((K (F := F)).nCore 0)) (i : Fin ((K (F := F)).nSub 0)) :
    (P m).go 0 d c i = tilePay m d (widOf (Fin.cast nCore_zero c) (Fin.cast nSub_zero i)) (m (oLoc d)) := rfl
theorem P_td (d : Dev nD) (c : Fin ((K (F := F)).nCore 0)) (i : Fin ((K (F := F)).nSub 0)) :
    (P m).td 0 d c i = tilePay m d (widOf (Fin.cast nCore_zero c) (Fin.cast nSub_zero i)) (Gout m d) := rfl
theorem P_x (q : Fin 1) (thr : Thread nD τ) : (P m).x q thr = iprop(emp) := rfl

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of subcore `i` of SparseCore `c`: the one task statement at the grid point `(c, i)`, whose worker number is
    the one the call's payloads name. -/
theorem tileObl (hbody : TileBody (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) facts O W hO).trans (wp_mono frame _ _ fun _ => obl_post)

/-- A SparseCore's holdings are by definition its sixteen subcores' holdings: the split is the identity. -/
theorem vecSplit : (K (F := F)).VecSplit' (P m) 0 := by
  intro d c
  rw [P_st, P_dn]
  simp only [P_go, P_td]
  rw [bigSep_tasks (F := F) (fun s => tilePay m d (widOf (Fin.cast nCore_zero c) s) (m (oLoc d))),
    bigSep_tasks (F := F) (fun s => tilePay m d (widOf (Fin.cast nCore_zero c) s) (Gout m d))]
  iintro H; imodintro
  isplitl [H]; · iexact H
  iintro H; iexact H

/-! ## The launch element: the handshakes' rounds; the transfers' counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays whole, and the thirty-two workers' holdings -/

omit [FloatOps F] in
theorem unscopedBufs_eq (d : Dev nD) (W : (b : Ref sig .tc) → Buf (Elt F) ((d.tc : Thread nD τ).loc b)) :
    (unscopedBufs d W : sProp 𝕄) = iprop((nLoc d ↦{fullShare} W main_arg0) ∗ (mLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
theorem bandSet_eq (w : Fin 32) : bandSet w = (band w).set := by
  show ((View.whole (main_v0_scv : Ref sig .scVector)).slice (band w)).set = _
  rw [View.set_slice]; exact Finset.map_refl
omit [FloatOps F] in
/-- The bands are pairwise disjoint -/
theorem bands_disjoint : ∀ i ∈ (Finset.univ : Finset (Fin 32)), ∀ j ∈ (Finset.univ : Finset (Fin 32)), i ≠ j → Disjoint (bandSet i) (bandSet j) :=
  fun i _ j _ h => by rw [bandSet_eq, bandSet_eq]; exact Rect.part_disjoint hdiv32 h
omit [FloatOps F] in
/-- and cover the result. -/
theorem bands_cover : (Finset.univ : Finset (Fin 32)).biUnion bandSet = Finset.univ :=
  (Finset.biUnion_congr rfl fun i _ => bandSet_eq i).trans (Rect.biUnion_part hdiv32)

omit [FloatOps F] in
/-- The result whole at `f` is its thirty-two bands at `f`. -/
theorem oPts_bands (d : Dev nD) (f : Buf (Elt F) (oLoc d)) :
    (oLoc d ↦{fullShare} f : sProp 𝕄) = bigSep Finset.univ fun w : Fin 32 => oLoc d ↦[bandSet w]{fullShare} f := by
  rw [← pointsTo_biUnion Finset.univ (ℓ := oLoc d) bandSet bands_disjoint, bands_cover]; try rfl

omit [FloatOps F] in
/-- The thirty-two workers' holdings with the result at `f`: the read tokens of the two inputs and the result whole at `f`. -/
theorem workers_eq (d : Dev nD) (f : Buf (Elt F) (oLoc d)) :
    (bigSep Finset.univ fun w : Fin 32 => tilePay m d w f)
      = iprop((bigSep Finset.univ fun w : Fin 32 => nLoc d ↦{qW w} m (nLoc d)) ∗ (bigSep Finset.univ fun w : Fin 32 => mLoc d ↦{qW w} m (mLoc d))
          ∗ oLoc d ↦{fullShare} f) := by
  unfold tilePay
  rw [bigSep_sep', bigSep_sep', ← oPts_bands d f]

/-- What stays with the TensorCore across the call: what remains of the two inputs' full shares after thirty-two tokens. -/
abbrev rem (d : Dev nD) : sProp 𝕄 :=
  iprop((nLoc d ↦{Transfers.shareDrop fullShare 32} m (nLoc d)) ∗ mLoc d ↦{Transfers.shareDrop fullShare 32} m (mLoc d))

omit [FloatOps F] in
/-- The three arrays whole, the result at `f`, deal every subcore of every SparseCore its holdings; the remainders stay. -/
theorem deal_out (d : Dev nD) (f : Buf (Elt F) (oLoc d)) :
    iprop((nLoc d ↦{fullShare} m (nLoc d)) ∗ (mLoc d ↦{fullShare} m (mLoc d)) ∗ oLoc d ↦{fullShare} f)
      ⊢ iprop(rem m d ∗ bigSep Finset.univ fun c : Fin 2 => bigSep Finset.univ fun s : Fin 16 => tilePay m d (widOf c s) f) := by
  rw [← bigSep_workers (fun w => tilePay m d w f), workers_eq]
  iintro ⟨Hn, Hm, Ho⟩
  ihave Hn' := (Transfers.pointsTo_toks_split fullShare 32) $$ Hn
  ihave Hm' := (Transfers.pointsTo_toks_split fullShare 32) $$ Hm
  icases Hn' with ⟨Hnd, Hnt⟩
  icases Hm' with ⟨Hmd, Hmt⟩
  isplitl [Hnd Hmd]
  · isplitl [Hnd]; · iexact Hnd
    iexact Hmd
  isplitl [Hnt]; · iexact Hnt
  isplitl [Hmt]; · iexact Hmt
  iexact Ho

omit [FloatOps F] in
/-- With the remainders, every subcore's holdings, the result at the one function `f`, are the three arrays whole. -/
theorem deal_in (d : Dev nD) (f : Buf (Elt F) (oLoc d)) :
    iprop(rem m d ∗ bigSep Finset.univ fun c : Fin 2 => bigSep Finset.univ fun s : Fin 16 => tilePay m d (widOf c s) f)
      ⊢ iprop((nLoc d ↦{fullShare} m (nLoc d)) ∗ (mLoc d ↦{fullShare} m (mLoc d)) ∗ oLoc d ↦{fullShare} f) := by
  rw [← bigSep_workers (fun w => tilePay m d w f), workers_eq]
  iintro ⟨⟨Hnd, Hmd⟩, Hnt, Hmt, Ho⟩
  isplitl [Hnd Hnt]
  · iapply (Transfers.pointsTo_toks_join fullShare 32)
    isplitl [Hnd]; · iexact Hnd
    iexact Hnt
  isplitl [Hmd Hmt]
  · iapply (Transfers.pointsTo_toks_join fullShare 32)
    isplitl [Hmd]; · iexact Hmd
    iexact Hmt
  iexact Ho

omit [FloatOps F] in
theorem st0_eq (d : Dev nD) :
    (bigSep Finset.univ fun c : Fin ((K (F := F)).nCore 0) => (P m).st 0 d c)
      = bigSep Finset.univ fun c : Fin 2 => bigSep Finset.univ fun s : Fin 16 => tilePay m d (widOf c s) (m (oLoc d)) := by
  simp only [P_st]
  exact bigSep_cores (F := F) (fun c => bigSep Finset.univ fun s : Fin 16 => tilePay m d (widOf c s) (m (oLoc d)))
omit [FloatOps F] in
theorem dn0_eq (d : Dev nD) :
    (bigSep Finset.univ fun c : Fin ((K (F := F)).nCore 0) => (P m).dn 0 d c)
      = bigSep Finset.univ fun c : Fin 2 => bigSep Finset.univ fun s : Fin 16 => tilePay m d (widOf c s) (Gout m d) := by
  simp only [P_dn]
  exact bigSep_cores (F := F) (fun c => bigSep Finset.univ fun s : Fin 16 => tilePay m d (widOf c s) (Gout m d))

/-! ## @main on the TensorCore -/

/-- What @main leaves the claim: the result whole at `Gout`, the two inputs whole at their launch contents. -/
abbrev FIN (d : Dev nD) : sProp 𝕄 :=
  iprop((oLoc d ↦{fullShare} Gout m d) ∗ (nLoc d ↦{fullShare} m (nLoc d)) ∗ mLoc d ↦{fullShare} m (mLoc d))

/-- @main on device `d`'s TensorCore: the one call, fed from the three arrays, which come back whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Harr, -, -⟩, -⟩
  ihave Hd := (deal_out m d (m (oLoc d))) $$ Harr
  icases Hd with ⟨Hrem, Hw⟩
  iapply ((K (F := F)).wp_run (D (F := F)) 𝒱 (EH := EH) (P := P m) κ d 0) $$ [Hst Hw Hrem]
  isplitr; · iexact Hctx
  isplitl [Hst]; · iexact Hst
  isplitl [Hw]
  · rw [st0_eq]; iexact Hw
  iintro ⟨Hst, Hdn⟩
  ihave Hdn' := (Entails.of_eq (dn0_eq m d)) $$ Hdn
  ihave Hall := (deal_in m d (Gout m d)) $$ [Hrem Hdn']
  · isplitl [Hrem]; · iexact Hrem
    iexact Hdn'
  icases Hall with ⟨Hn, Hm, Ho⟩
  imodintro
  isplitl [Hst]; · iexact Hst
  isplitl [Ho]; · iexact Ho
  isplitl [Hn]; · iexact Hn
  iexact Hm

def fq (d : Dev nD) (s' : Phys nD τ sig (Elt F)) : Prop :=
  s'.mem.mem (oLoc d) = Gout m d ∧ s'.mem.mem (nLoc d) = m (nLoc d) ∧ s'.mem.mem (mLoc d) = m (mLoc d)

theorem hfin (d : Dev nD) (s' : Phys nD τ sig (Elt F)) : iprop(FIN m d ∗ SI s') ⊢ (⌜fq m d s'⌝ : sProp 𝕄) := by
  iintro ⟨⟨Ho, Hn, Hm⟩, HSI⟩
  ihave H := (persistent_entails_right (SI_pointsTo_agree (st := s') (ℓ := oLoc d) (I := Finset.univ) (q := fullShare) (f := Gout m d))) $$ [HSI Ho]
  · isplitl [HSI] <;> iassumption
  icases H with ⟨%h0, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h1, HSI, -⟩
  ihave H := (SI_pointsTo_agree (st := s') (ℓ := mLoc d) (I := Finset.univ) (q := fullShare) (f := m (mLoc d))) $$ [HSI Hm]
  · isplitl [HSI] <;> iassumption
  icases H with %h2
  ipureintro
  exact ⟨funext fun i => h0 i (Finset.mem_univ i), funext fun i => h1 i (Finset.mem_univ i), funext fun i => h2 i (Finset.mem_univ i)⟩

/-! ## The program's run -/

def QC : PUnit × MemSt nD τ sig (Elt F) → Prop := fun r => ∀ c : Dev nD, r.2.mem (oLoc c) = Gout m c ∧ r.2.mem (nLoc c) = m (nLoc c) ∧ r.2.mem (mLoc c) = m (mLoc c)

theorem run_main [∀ e, Nonempty (Elt F e)] (hbody : TileBody (F := F) m) : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.BitsK

end
-- ==== Proof.BitsOwn.lean ====
/-
  A vector subcore's own semaphores and scratch buffers, taken apart: the fourteen DMA semaphores of the kernel (six for
  the row blocks coming in, six for the row blocks going out, one for the boundary rows, one for the new row), each at
  zero, and the three scratch buffers (the six-slot ring of 32-row blocks, the eight boundary rows, the new row), each at
  some contents; and whatever else the subcore owns, kept folded.
-/
import proofs.«213455_g39170101740086_cont_8to1_b_302_25_alg».proof.Proof.BitsCommon

noncomputable section

namespace Cert.Proof.BitsK

open Cert.Kernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-- What the subcore owns beyond the kernel's fourteen semaphores. -/
abbrev restCells : Finset (GSem nD τ sig) := (((((((((((((((ownCells (V d (cV L) (jV L))).erase ((V d (cV L) (jV L), .dma cc0_scratch3.sem) : GSem nD τ sig)).erase ((V d (cV L) (jV L), .dma cc0_scratch4.sem) : GSem nD τ sig)).erase ((V d (cV L) (jV L), .dma cc0_scratch5.sem) : GSem nD τ sig)).erase ((V d (cV L) (jV L), .dma cc0_scratch6.sem) : GSem nD τ sig)).erase ((V d (cV L) (jV L), .dma cc0_scratch7.sem) : GSem nD τ sig)).erase ((V d (cV L) (jV L), .dma cc0_scratch8.sem) : GSem nD τ sig)).erase ((V d (cV L) (jV L), .dma cc0_scratch9.sem) : GSem nD τ sig)).erase ((V d (cV L) (jV L), .dma cc0_scratch10.sem) : GSem nD τ sig)).erase ((V d (cV L) (jV L), .dma cc0_scratch11.sem) : GSem nD τ sig)).erase ((V d (cV L) (jV L), .dma cc0_scratch12.sem) : GSem nD τ sig)).erase ((V d (cV L) (jV L), .dma cc0_scratch13.sem) : GSem nD τ sig)).erase ((V d (cV L) (jV L), .dma cc0_scratch14.sem) : GSem nD τ sig)).erase ((V d (cV L) (jV L), .dma cc0_scratch15.sem) : GSem nD τ sig)).erase ((V d (cV L) (jV L), .dma cc0_scratch16.sem) : GSem nD τ sig))

/-- The subcore's own semaphores at zero are the kernel's fourteen, each at zero, and the rest. -/
theorem ownSems0_V :
    (ownSems0 (V d (cV L) (jV L)) : sProp 𝕄)
      = iprop(semVal ((V d (cV L) (jV L), .dma cc0_scratch3.sem) : GSem nD τ sig) 0
          ∗ semVal ((V d (cV L) (jV L), .dma cc0_scratch4.sem) : GSem nD τ sig) 0
          ∗ semVal ((V d (cV L) (jV L), .dma cc0_scratch5.sem) : GSem nD τ sig) 0
          ∗ semVal ((V d (cV L) (jV L), .dma cc0_scratch6.sem) : GSem nD τ sig) 0
          ∗ semVal ((V d (cV L) (jV L), .dma cc0_scratch7.sem) : GSem nD τ sig) 0
          ∗ semVal ((V d (cV L) (jV L), .dma cc0_scratch8.sem) : GSem nD τ sig) 0
          ∗ semVal ((V d (cV L) (jV L), .dma cc0_scratch9.sem) : GSem nD τ sig) 0
          ∗ semVal ((V d (cV L) (jV L), .dma cc0_scratch10.sem) : GSem nD τ sig) 0
          ∗ semVal ((V d (cV L) (jV L), .dma cc0_scratch11.sem) : GSem nD τ sig) 0
          ∗ semVal ((V d (cV L) (jV L), .dma cc0_scratch12.sem) : GSem nD τ sig) 0
          ∗ semVal ((V d (cV L) (jV L), .dma cc0_scratch13.sem) : GSem nD τ sig) 0
          ∗ semVal ((V d (cV L) (jV L), .dma cc0_scratch14.sem) : GSem nD τ sig) 0
          ∗ semVal ((V d (cV L) (jV L), .dma cc0_scratch15.sem) : GSem nD τ sig) 0
          ∗ semVal ((V d (cV L) (jV L), .dma cc0_scratch16.sem) : GSem nD τ sig) 0
          ∗ bigSep (restCells d L) fun g => semVal g 0) := by
  unfold SparseCore.Cfg.ownSems0 restCells
  rw [SparseCore.bigSep_erase' ((mem_ownCells (g := ((V d (cV L) (jV L), .dma cc0_scratch3.sem) : GSem nD τ sig))).mpr ⟨rfl, by show (SemLoc.dma cc0_scratch3.sem : SemLoc sig).isScoped .scVector = true; decide⟩),
    SparseCore.bigSep_erase' (Finset.mem_erase.mpr ⟨fun e => absurd (Prod.mk.inj e).2 (by decide), (mem_ownCells (g := ((V d (cV L) (jV L), .dma cc0_scratch4.sem) : GSem nD τ sig))).mpr ⟨rfl, by show (SemLoc.dma cc0_scratch4.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := ((V d (cV L) (jV L), .dma cc0_scratch5.sem) : GSem nD τ sig))).mpr ⟨rfl, by show (SemLoc.dma cc0_scratch5.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch6.sem) : GSem nD τ sig))).mpr ⟨rfl, by show (SemLoc.dma cc0_scratch6.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch7.sem) : GSem nD τ sig))).mpr ⟨rfl, by show (SemLoc.dma cc0_scratch7.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch8.sem) : GSem nD τ sig))).mpr ⟨rfl, by show (SemLoc.dma cc0_scratch8.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch9.sem) : GSem nD τ sig))).mpr ⟨rfl, by show (SemLoc.dma cc0_scratch9.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch10.sem) : GSem nD τ sig))).mpr ⟨rfl, by show (SemLoc.dma cc0_scratch10.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch11.sem) : GSem nD τ sig))).mpr ⟨rfl, by show (SemLoc.dma cc0_scratch11.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch12.sem) : GSem nD τ sig))).mpr ⟨rfl, by show (SemLoc.dma cc0_scratch12.sem : SemLoc sig).isScoped .scVector = true; decide⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch13.sem) : GSem nD τ sig))).mpr ⟨rfl, by show (SemLoc.dma cc0_scratch13.sem : SemLoc sig).isScoped .scVector = true; decide⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch14.sem) : GSem nD τ sig))).mpr ⟨rfl, by show (SemLoc.dma cc0_scratch14.sem : SemLoc sig).isScoped .scVector = true; decide⟩⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch15.sem) : GSem nD τ sig))).mpr ⟨rfl, by show (SemLoc.dma cc0_scratch15.sem : SemLoc sig).isScoped .scVector = true; decide⟩⟩⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), .dma cc0_scratch16.sem) : GSem nD τ sig))).mpr ⟨rfl, by show (SemLoc.dma cc0_scratch16.sem : SemLoc sig).isScoped .scVector = true; decide⟩⟩⟩⟩⟩⟩⟩⟩⟩⟩⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Cert.Proof.BitsK

end
-- ==== Proof.BitsChunks.lean ====
/-
  A worker's band of rows, chunk by chunk. Worker `w = 2 s + c` (subcore `s` of SparseCore `c`) owns rows
  `2048 w … 2048 w + 2047` of the 65536-row result and moves them in sixty-four chunks of 32 rows: chunk `k` is the
  unit-stride box at row `4096 s + 2048 c + 32 k = 2048 w + 32 k`, all 512 lanes. Here: the chunk as a rectangle and as a
  slice of the result and of `mem`; the band held at some contents is its sixty-four chunks held one by one (the chunks are
  pairwise disjoint and cover the band); where entry `(r, l)` of a chunk sits in the array; and the six rectangles by which
  the kernel names the outgoing chunk (one per ring slot, their offsets computed on 32-bit words) are this one.
-/
import proofs.«213455_g39170101740086_cont_8to1_b_302_25_alg».proof.Proof.BitsOwn
import proofs.«213455_g39170101740086_cont_8to1_b_302_25_alg».proof.Proof.Gen.Kernel

noncomputable section

namespace Cert.Proof.BitsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The chunks -/

/-- The vector subcore at grid coordinates `L`, as a thread of device `d`. -/
abbrev thr (d : Dev nD) (L : grid0.Coords) : Thread nD τ := V d (cV L) (jV L)

/-- Where chunk `c` of the worker at `L` begins: row `4096 s + 2048 c₀ + 32 c`, lane 0. -/
abbrev chOff (L : grid0.Coords) (c : ℕ) : Fin 2 → ℕ := ![4096 * (L 1).val + 2048 * (L 0).val + 32 * c, 0]

theorem L0_lt (L : grid0.Coords) : (L 0).val < 2 := (L 0).isLt
theorem L1_lt (L : grid0.Coords) : (L 1).val < 16 := (L 1).isLt

/-- The sixty-four chunks lie inside the array. -/
theorem chOff_inb (L : grid0.Coords) (c : Fin 64) : ∀ a, chOff L c.val a + S32x512.size a ≤ S65536x512.size a := by
  have h0 := L0_lt L; have h1 := L1_lt L; have hc := c.isLt
  exact Rect.inb₂ (by show 4096 * (L 1).val + 2048 * (L 0).val + 32 * c.val + 32 ≤ 65536; omega)
    (by show 0 + 512 ≤ 512; omega)

/-- Chunk `c` as a rectangle of the array, -/
abbrev chRect (L : grid0.Coords) (c : Fin 64) : Rect S65536x512 :=
  Rect.unit (s := S65536x512) (chOff L c.val) S32x512.size (chOff_inb L c)
/-- as a slice of the result, -/
abbrev oChunk (L : grid0.Coords) (c : Fin 64) : Memref sig .scVector .hbm S32x512 .f32 := oW.slice (chRect L c) (fun _ => rfl)
/-- and as a slice of `mem`. -/
abbrev mChunk (L : grid0.Coords) (c : Fin 64) : Memref sig .scVector .hbm S32x512 .f32 := mW.slice (chRect L c) (fun _ => rfl)

/-- The worker's number at `L`, as a natural number. -/
theorem wL_val (L : grid0.Coords) : (wL L).val = 2 * (L 1).val + (L 0).val := rfl

/-! ## The band is its chunks -/

/-- The elements under chunk `c` of the result are the chunk's rectangle. -/
theorem oChunk_set (L : grid0.Coords) (c : Fin 64) : (oChunk L c).view.set = (chRect L c).set := by
  show ((View.whole (main_v0_scv : Ref sig .scVector)).slice (chRect L c)).set = _
  rw [View.set_slice]; exact Finset.map_refl

/-- An element lies in a band when its row does. -/
theorem mem_bandSet (w : Fin 32) (i : S65536x512.Idx) : i ∈ bandSet w ↔ 2048 * w.val ≤ (i 0).val ∧ (i 0).val < 2048 * w.val + 2048 := by
  have e : bandSet w = (band w).set := by
    show ((View.whole (main_v0_scv : Ref sig .scVector)).slice (band w)).set = _
    rw [View.set_slice]; exact Finset.map_refl
  rw [e, Rect.mem_set_unit, Fin.forall_fin_two]
  have hi1 : (i 1).val < 512 := (i 1).isLt
  simp only [Shape.partIx, Shape.partSize]
  show (w.val * (65536 / 32) ≤ (i 0).val ∧ (i 0).val < w.val * (65536 / 32) + 65536 / 32) ∧ (0 * 512 ≤ (i 1).val ∧ (i 1).val < 0 * 512 + 512) ↔ _
  omega

/-- An element lies in chunk `c` when its row is one of the chunk's thirty-two. -/
theorem mem_chRect (L : grid0.Coords) (c : Fin 64) (i : S65536x512.Idx) :
    i ∈ (chRect L c).set ↔ 4096 * (L 1).val + 2048 * (L 0).val + 32 * c.val ≤ (i 0).val ∧ (i 0).val < 4096 * (L 1).val + 2048 * (L 0).val + 32 * c.val + 32 := by
  rw [Rect.mem_set_unit, Fin.forall_fin_two]
  have hi1 : (i 1).val < 512 := (i 1).isLt
  show (4096 * (L 1).val + 2048 * (L 0).val + 32 * c.val ≤ (i 0).val ∧ (i 0).val < 4096 * (L 1).val + 2048 * (L 0).val + 32 * c.val + 32) ∧ (0 ≤ (i 1).val ∧ (i 1).val < 0 + 512) ↔ _
  omega

/-- The chunks of one worker are pairwise disjoint -/
theorem chunks_disjoint (L : grid0.Coords) : ∀ i ∈ (Finset.univ : Finset (Fin 64)), ∀ j ∈ (Finset.univ : Finset (Fin 64)), i ≠ j →
    Disjoint (oChunk L i).view.set (oChunk L j).view.set := by
  intro i _ j _ hij
  rw [oChunk_set, oChunk_set, Finset.disjoint_left]
  intro x hx hy
  rw [mem_chRect] at hx hy
  exact hij (Fin.ext (by omega))

/-- and cover its band. -/
theorem chunks_cover (L : grid0.Coords) : (Finset.univ : Finset (Fin 64)).biUnion (fun c => (oChunk L c).view.set) = bandSet (wL L) := by
  ext x
  rw [Finset.mem_biUnion, mem_bandSet, wL_val]
  constructor
  · rintro ⟨c, _, hx⟩
    rw [oChunk_set, mem_chRect] at hx
    have := c.isLt
    omega
  · intro hx
    refine ⟨⟨((x 0).val - (4096 * (L 1).val + 2048 * (L 0).val)) / 32, by omega⟩, Finset.mem_univ _, ?_⟩
    rw [oChunk_set, mem_chRect]
    show 4096 * (L 1).val + 2048 * (L 0).val + 32 * (((x 0).val - (4096 * (L 1).val + 2048 * (L 0).val)) / 32) ≤ (x 0).val ∧ (x 0).val < 4096 * (L 1).val + 2048 * (L 0).val + 32 * (((x 0).val - (4096 * (L 1).val + 2048 * (L 0).val)) / 32) + 32
    omega

/-- The band held at `f` is its sixty-four chunks held one by one at `f`, each by its own slice's elements. -/
theorem band_chunks (d : Dev nD) (L : grid0.Coords) (f : Buf (Elt F) (oLoc d)) :
    (oLoc d ↦[bandSet (wL L)]{fullShare} f : sProp 𝕄)
      = bigSep Finset.univ fun c : Fin 64 => ((oChunk L c).view.loc (thr d L) ↦[(oChunk L c).view.set]{fullShare} f) := by
  show _ = bigSep Finset.univ fun c : Fin 64 => (oLoc d ↦[(oChunk L c).view.set]{fullShare} f)
  rw [← pointsTo_biUnion Finset.univ (ℓ := oLoc d) (fun c : Fin 64 => (oChunk L c).view.set) (chunks_disjoint L), chunks_cover]

/-! ## Where a chunk's entries sit -/

/-- Entry `(r, l)` of chunk `c` of the result sits at row `4096 s + 2048 c₀ + 32 c + r`, lane `l`. -/
theorem oChunk_emb (L : grid0.Coords) (c : Fin 64) (y : S32x512.Idx) :
    ((oChunk L c).view.emb y : S65536x512.Idx)
      = ValueIdx.ix2 (⟨4096 * (L 1).val + 2048 * (L 0).val + 32 * c.val + (y 0).val, by
            have h0 := L0_lt L; have h1 := L1_lt L; have hc := c.isLt; have hy : (y 0).val < 32 := (y 0).isLt; omega⟩ : Fin 65536)
          (⟨(y 1).val, (y 1).isLt⟩ : Fin 512) := by
  funext a
  match a with
  | ⟨0, _⟩ => exact Fin.ext (by show 4096 * (L 1).val + 2048 * (L 0).val + 32 * c.val + 1 * (y 0).val = 4096 * (L 1).val + 2048 * (L 0).val + 32 * c.val + (y 0).val; omega)
  | ⟨1, _⟩ => exact Fin.ext (by show 0 + 1 * (y 1).val = (y 1).val; omega)

/-- The same of chunk `c` of `mem`. -/
theorem mChunk_emb (L : grid0.Coords) (c : Fin 64) (y : S32x512.Idx) :
    ((mChunk L c).view.emb y : S65536x512.Idx)
      = ValueIdx.ix2 (⟨4096 * (L 1).val + 2048 * (L 0).val + 32 * c.val + (y 0).val, by
            have h0 := L0_lt L; have h1 := L1_lt L; have hc := c.isLt; have hy : (y 0).val < 32 := (y 0).isLt; omega⟩ : Fin 65536)
          (⟨(y 1).val, (y 1).isLt⟩ : Fin 512) := by
  funext a
  match a with
  | ⟨0, _⟩ => exact Fin.ext (by show 4096 * (L 1).val + 2048 * (L 0).val + 32 * c.val + 1 * (y 0).val = 4096 * (L 1).val + 2048 * (L 0).val + 32 * c.val + (y 0).val; omega)
  | ⟨1, _⟩ => exact Fin.ext (by show 0 + 1 * (y 1).val = (y 1).val; omega)

/-! ## The kernel's six spellings of the outgoing chunk -/

/-- The loop's trip number as a chunk number. -/
abbrev kCh (k : Fin k0_t1_loop.trips) : Fin 64 := ⟨k.val, Nat.lt_of_lt_of_le k.isLt k0_t1_abs.2.1⟩

/-- Two unit-stride slices of one memref at equal offsets and the same sizes are one memref. -/
theorem slice_unit_congr {κ : Kind} {sp : Space} {s : Shape} {e : EltTy} (mr : Memref sig κ sp s e) {off off' size : Fin s.rank → ℕ}
    (h : off = off') (inb : ∀ a, off a + size a ≤ s.size a) (inb' : ∀ a, off' a + size a ≤ s.size a) :
    (mr.slice (Rect.unit (s := s) off size inb) (fun _ => rfl) : Memref sig κ sp ⟨s.rank, size⟩ e)
      = mr.slice (Rect.unit (s := s) off' size inb') (fun _ => rfl) := by
  subst h; rfl

/-- … and lie over the same elements of the buffer. -/
theorem slice_unit_set_congr {κ : Kind} {sp : Space} {s : Shape} {e : EltTy} (mr : Memref sig κ sp s e) {off off' size : Fin s.rank → ℕ}
    (h : off = off') (inb : ∀ a, off a + size a ≤ s.size a) (inb' : ∀ a, off' a + size a ≤ s.size a) :
    (mr.slice (Rect.unit (s := s) off size inb) (fun _ => rfl)).view.set
      = (mr.slice (Rect.unit (s := s) off' size inb') (fun _ => rfl)).view.set := by
  subst h; rfl

/-- The outgoing chunk as ring slot 0's branch names it. -/
theorem oSlice330 (L : grid0.Coords) (k : Fin k0_t1_loop.trips) (inb : ∀ a, k0_off330 L k a + S32x512.size a ≤ S65536x512.size a) :
    (oW.slice (Rect.unit (s := S65536x512) (k0_off330 L k) S32x512.size inb) (fun _ => rfl) : Memref sig .scVector .hbm S32x512 .f32)
      = oChunk L (kCh k) :=
  slice_unit_congr oW (k0_off330_eq L k) inb (chOff_inb L (kCh k))
theorem oSlice330_set (L : grid0.Coords) (k : Fin k0_t1_loop.trips) (inb : ∀ a, k0_off330 L k a + S32x512.size a ≤ S65536x512.size a) :
    (oW.slice (Rect.unit (s := S65536x512) (k0_off330 L k) S32x512.size inb) (fun _ => rfl)).view.set = (oChunk L (kCh k)).view.set :=
  slice_unit_set_congr oW (k0_off330_eq L k) inb (chOff_inb L (kCh k))
/-- The outgoing chunk as ring slot 1's branch names it. -/
theorem oSlice331 (L : grid0.Coords) (k : Fin k0_t1_loop.trips) (inb : ∀ a, k0_off331 L k a + S32x512.size a ≤ S65536x512.size a) :
    (oW.slice (Rect.unit (s := S65536x512) (k0_off331 L k) S32x512.size inb) (fun _ => rfl) : Memref sig .scVector .hbm S32x512 .f32)
      = oChunk L (kCh k) :=
  slice_unit_congr oW (k0_off331_eq L k) inb (chOff_inb L (kCh k))
theorem oSlice331_set (L : grid0.Coords) (k : Fin k0_t1_loop.trips) (inb : ∀ a, k0_off331 L k a + S32x512.size a ≤ S65536x512.size a) :
    (oW.slice (Rect.unit (s := S65536x512) (k0_off331 L k) S32x512.size inb) (fun _ => rfl)).view.set = (oChunk L (kCh k)).view.set :=
  slice_unit_set_congr oW (k0_off331_eq L k) inb (chOff_inb L (kCh k))
/-- The outgoing chunk as ring slot 2's branch names it. -/
theorem oSlice332 (L : grid0.Coords) (k : Fin k0_t1_loop.trips) (inb : ∀ a, k0_off332 L k a + S32x512.size a ≤ S65536x512.size a) :
    (oW.slice (Rect.unit (s := S65536x512) (k0_off332 L k) S32x512.size inb) (fun _ => rfl) : Memref sig .scVector .hbm S32x512 .f32)
      = oChunk L (kCh k) :=
  slice_unit_congr oW (k0_off332_eq L k) inb (chOff_inb L (kCh k))
theorem oSlice332_set (L : grid0.Coords) (k : Fin k0_t1_loop.trips) (inb : ∀ a, k0_off332 L k a + S32x512.size a ≤ S65536x512.size a) :
    (oW.slice (Rect.unit (s := S65536x512) (k0_off332 L k) S32x512.size inb) (fun _ => rfl)).view.set = (oChunk L (kCh k)).view.set :=
  slice_unit_set_congr oW (k0_off332_eq L k) inb (chOff_inb L (kCh k))
/-- The outgoing chunk as ring slot 3's branch names it. -/
theorem oSlice333 (L : grid0.Coords) (k : Fin k0_t1_loop.trips) (inb : ∀ a, k0_off333 L k a + S32x512.size a ≤ S65536x512.size a) :
    (oW.slice (Rect.unit (s := S65536x512) (k0_off333 L k) S32x512.size inb) (fun _ => rfl) : Memref sig .scVector .hbm S32x512 .f32)
      = oChunk L (kCh k) :=
  slice_unit_congr oW (k0_off333_eq L k) inb (chOff_inb L (kCh k))
theorem oSlice333_set (L : grid0.Coords) (k : Fin k0_t1_loop.trips) (inb : ∀ a, k0_off333 L k a + S32x512.size a ≤ S65536x512.size a) :
    (oW.slice (Rect.unit (s := S65536x512) (k0_off333 L k) S32x512.size inb) (fun _ => rfl)).view.set = (oChunk L (kCh k)).view.set :=
  slice_unit_set_congr oW (k0_off333_eq L k) inb (chOff_inb L (kCh k))
/-- The outgoing chunk as ring slot 4's branch names it. -/
theorem oSlice334 (L : grid0.Coords) (k : Fin k0_t1_loop.trips) (inb : ∀ a, k0_off334 L k a + S32x512.size a ≤ S65536x512.size a) :
    (oW.slice (Rect.unit (s := S65536x512) (k0_off334 L k) S32x512.size inb) (fun _ => rfl) : Memref sig .scVector .hbm S32x512 .f32)
      = oChunk L (kCh k) :=
  slice_unit_congr oW (k0_off334_eq L k) inb (chOff_inb L (kCh k))
theorem oSlice334_set (L : grid0.Coords) (k : Fin k0_t1_loop.trips) (inb : ∀ a, k0_off334 L k a + S32x512.size a ≤ S65536x512.size a) :
    (oW.slice (Rect.unit (s := S65536x512) (k0_off334 L k) S32x512.size inb) (fun _ => rfl)).view.set = (oChunk L (kCh k)).view.set :=
  slice_unit_set_congr oW (k0_off334_eq L k) inb (chOff_inb L (kCh k))
/-- The outgoing chunk as ring slot 5's branch names it. -/
theorem oSlice335 (L : grid0.Coords) (k : Fin k0_t1_loop.trips) (inb : ∀ a, k0_off335 L k a + S32x512.size a ≤ S65536x512.size a) :
    (oW.slice (Rect.unit (s := S65536x512) (k0_off335 L k) S32x512.size inb) (fun _ => rfl) : Memref sig .scVector .hbm S32x512 .f32)
      = oChunk L (kCh k) :=
  slice_unit_congr oW (k0_off335_eq L k) inb (chOff_inb L (kCh k))
theorem oSlice335_set (L : grid0.Coords) (k : Fin k0_t1_loop.trips) (inb : ∀ a, k0_off335 L k a + S32x512.size a ≤ S65536x512.size a) :
    (oW.slice (Rect.unit (s := S65536x512) (k0_off335 L k) S32x512.size inb) (fun _ => rfl)).view.set = (oChunk L (kCh k)).view.set :=
  slice_unit_set_congr oW (k0_off335_eq L k) inb (chOff_inb L (kCh k))

/-! ## The kernel's spellings of the incoming chunks -/

/-- Before the loop the first four chunks of `mem` are fetched, their offsets computed from the word `32 r`. -/
theorem mSlicePro (L : grid0.Coords) (r : Fin 4) (inb : ∀ a, k0_off2 L (BitVec.ofNat 32 (32 * r.val)) a + S32x512.size a ≤ S65536x512.size a) :
    (mW.slice (Rect.unit (s := S65536x512) (k0_off2 L (BitVec.ofNat 32 (32 * r.val))) S32x512.size inb) (fun _ => rfl) : Memref sig .scVector .hbm S32x512 .f32)
      = mChunk L ⟨r.val, Nat.lt_trans r.isLt (by decide)⟩ :=
  slice_unit_congr mW (k0_off2_eq L r) inb (chOff_inb L ⟨r.val, Nat.lt_trans r.isLt (by decide)⟩)
/-- The same with the word spelt `0#32`, as the kernel passes it: chunk 0. -/
theorem mSlicePro0 (L : grid0.Coords) (inb : ∀ a, k0_off2 L 0#32 a + S32x512.size a ≤ S65536x512.size a) :
    (mW.slice (Rect.unit (s := S65536x512) (k0_off2 L 0#32) S32x512.size inb) (fun _ => rfl) : Memref sig .scVector .hbm S32x512 .f32)
      = mChunk L 0 :=
  mSlicePro L 0 inb
/-- The same with the word spelt `32#32`, as the kernel passes it: chunk 1. -/
theorem mSlicePro1 (L : grid0.Coords) (inb : ∀ a, k0_off2 L 32#32 a + S32x512.size a ≤ S65536x512.size a) :
    (mW.slice (Rect.unit (s := S65536x512) (k0_off2 L 32#32) S32x512.size inb) (fun _ => rfl) : Memref sig .scVector .hbm S32x512 .f32)
      = mChunk L 1 :=
  mSlicePro L 1 inb
/-- The same with the word spelt `64#32`, as the kernel passes it: chunk 2. -/
theorem mSlicePro2 (L : grid0.Coords) (inb : ∀ a, k0_off2 L 64#32 a + S32x512.size a ≤ S65536x512.size a) :
    (mW.slice (Rect.unit (s := S65536x512) (k0_off2 L 64#32) S32x512.size inb) (fun _ => rfl) : Memref sig .scVector .hbm S32x512 .f32)
      = mChunk L 2 :=
  mSlicePro L 2 inb
/-- The same with the word spelt `96#32`, as the kernel passes it: chunk 3. -/
theorem mSlicePro3 (L : grid0.Coords) (inb : ∀ a, k0_off2 L 96#32 a + S32x512.size a ≤ S65536x512.size a) :
    (mW.slice (Rect.unit (s := S65536x512) (k0_off2 L 96#32) S32x512.size inb) (fun _ => rfl) : Memref sig .scVector .hbm S32x512 .f32)
      = mChunk L 3 :=
  mSlicePro L 3 inb

/-- Chunk `k + 4` begins 128 rows after chunk `k`. -/
theorem chOff_add4 (L : grid0.Coords) (k : ℕ) :
    (![4096 * (L 1).val + 2048 * (L 0).val + 32 * k + 128, 0] : Fin 2 → ℕ) = chOff L (k + 4) :=
  congrArg (fun x : ℕ => (![x, 0] : Fin 2 → ℕ)) (by omega)

/-- In trip `k` of the loop chunk `k + 4` of `mem` is fetched; ring slot 0's branch names it so. -/
theorem mSlice3 (L : grid0.Coords) (k : Fin k0_t1_loop.trips) (h4 : k.val + 4 < 64) (inb : ∀ a, k0_off3 L k a + S32x512.size a ≤ S65536x512.size a) :
    (mW.slice (Rect.unit (s := S65536x512) (k0_off3 L k) S32x512.size inb) (fun _ => rfl) : Memref sig .scVector .hbm S32x512 .f32)
      = mChunk L ⟨k.val + 4, h4⟩ :=
  slice_unit_congr mW ((k0_off3_eq L k).trans (chOff_add4 L k.val)) inb (chOff_inb L ⟨k.val + 4, h4⟩)
/-- In trip `k` of the loop chunk `k + 4` of `mem` is fetched; ring slot 1's branch names it so. -/
theorem mSlice4 (L : grid0.Coords) (k : Fin k0_t1_loop.trips) (h4 : k.val + 4 < 64) (inb : ∀ a, k0_off4 L k a + S32x512.size a ≤ S65536x512.size a) :
    (mW.slice (Rect.unit (s := S65536x512) (k0_off4 L k) S32x512.size inb) (fun _ => rfl) : Memref sig .scVector .hbm S32x512 .f32)
      = mChunk L ⟨k.val + 4, h4⟩ :=
  slice_unit_congr mW ((k0_off4_eq L k).trans (chOff_add4 L k.val)) inb (chOff_inb L ⟨k.val + 4, h4⟩)
/-- In trip `k` of the loop chunk `k + 4` of `mem` is fetched; ring slot 2's branch names it so. -/
theorem mSlice5 (L : grid0.Coords) (k : Fin k0_t1_loop.trips) (h4 : k.val + 4 < 64) (inb : ∀ a, k0_off5 L k a + S32x512.size a ≤ S65536x512.size a) :
    (mW.slice (Rect.unit (s := S65536x512) (k0_off5 L k) S32x512.size inb) (fun _ => rfl) : Memref sig .scVector .hbm S32x512 .f32)
      = mChunk L ⟨k.val + 4, h4⟩ :=
  slice_unit_congr mW ((k0_off5_eq L k).trans (chOff_add4 L k.val)) inb (chOff_inb L ⟨k.val + 4, h4⟩)
/-- In trip `k` of the loop chunk `k + 4` of `mem` is fetched; ring slot 3's branch names it so. -/
theorem mSlice6 (L : grid0.Coords) (k : Fin k0_t1_loop.trips) (h4 : k.val + 4 < 64) (inb : ∀ a, k0_off6 L k a + S32x512.size a ≤ S65536x512.size a) :
    (mW.slice (Rect.unit (s := S65536x512) (k0_off6 L k) S32x512.size inb) (fun _ => rfl) : Memref sig .scVector .hbm S32x512 .f32)
      = mChunk L ⟨k.val + 4, h4⟩ :=
  slice_unit_congr mW ((k0_off6_eq L k).trans (chOff_add4 L k.val)) inb (chOff_inb L ⟨k.val + 4, h4⟩)
/-- In trip `k` of the loop chunk `k + 4` of `mem` is fetched; ring slot 4's branch names it so. -/
theorem mSlice7 (L : grid0.Coords) (k : Fin k0_t1_loop.trips) (h4 : k.val + 4 < 64) (inb : ∀ a, k0_off7 L k a + S32x512.size a ≤ S65536x512.size a) :
    (mW.slice (Rect.unit (s := S65536x512) (k0_off7 L k) S32x512.size inb) (fun _ => rfl) : Memref sig .scVector .hbm S32x512 .f32)
      = mChunk L ⟨k.val + 4, h4⟩ :=
  slice_unit_congr mW ((k0_off7_eq L k).trans (chOff_add4 L k.val)) inb (chOff_inb L ⟨k.val + 4, h4⟩)
/-- In trip `k` of the loop chunk `k + 4` of `mem` is fetched; ring slot 5's branch names it so. -/
theorem mSlice8 (L : grid0.Coords) (k : Fin k0_t1_loop.trips) (h4 : k.val + 4 < 64) (inb : ∀ a, k0_off8 L k a + S32x512.size a ≤ S65536x512.size a) :
    (mW.slice (Rect.unit (s := S65536x512) (k0_off8 L k) S32x512.size inb) (fun _ => rfl) : Memref sig .scVector .hbm S32x512 .f32)
      = mChunk L ⟨k.val + 4, h4⟩ :=
  slice_unit_congr mW ((k0_off8_eq L k).trans (chOff_add4 L k.val)) inb (chOff_inb L ⟨k.val + 4, h4⟩)

/-! ## The boundary rows -/

/-- The eight rows of `mem` fetched for the band's last row: they begin at row `min (2048 (w + 1)) 65528`. -/
abbrev bRows (L : grid0.Coords) (inb : ∀ a, k0_off1 L a + S8x512.size a ≤ S65536x512.size a) : Memref sig .scVector .hbm S8x512 .f32 :=
  mW.slice (Rect.unit (s := S65536x512) (k0_off1 L) S8x512.size inb) (fun _ => rfl)

/-- Where entry `y` of a unit-stride slice of `mem` at offsets `off` sits: coordinate by coordinate, the offset plus `y`'s. -/
theorem mSliceUnit_emb_val (off size : Fin 2 → ℕ) (inb : ∀ a, off a + size a ≤ S65536x512.size a) (y : (⟨2, size⟩ : Shape).Idx) (a : Fin 2) :
    (((mW.slice (Rect.unit (s := S65536x512) off size inb) (fun _ => rfl)).view.emb y : S65536x512.Idx) a).val = off a + (y a).val := by
  show off a + 1 * (y a).val = _
  omega

/-- For every worker but the last the eight rows begin at the next worker's band: entry `(r, l)` sits at row
    `2048 (w + 1) + r`, lane `l`; row 0 is the first row of the next band. -/
theorem bRows_emb (L : grid0.Coords) (inb : ∀ a, k0_off1 L a + S8x512.size a ≤ S65536x512.size a) (hw : (wL L).val < 31) (y : S8x512.Idx) :
    ((bRows L inb).view.emb y : S65536x512.Idx)
      = ValueIdx.ix2 (⟨2048 * ((wL L).val + 1) + (y 0).val, by have hy : (y 0).val < 8 := (y 0).isLt; omega⟩ : Fin 65536)
          (⟨(y 1).val, (y 1).isLt⟩ : Fin 512) := by
  have e0 : k0_off1 L 0 = min (4096 * (L 1).val + 2048 * (L 0).val + 2048) 65528 := congrFun (k0_off1_eq L) 0
  have e1 : k0_off1 L 1 = 0 := congrFun (k0_off1_eq L) 1
  have hwv := wL_val L
  funext a
  match a with
  | ⟨0, _⟩ =>
    refine Fin.ext ((mSliceUnit_emb_val (k0_off1 L) S8x512.size inb y 0).trans ?_)
    rw [e0]
    show min (4096 * (L 1).val + 2048 * (L 0).val + 2048) 65528 + (y 0).val = 2048 * ((wL L).val + 1) + (y 0).val
    omega
  | ⟨1, _⟩ =>
    refine Fin.ext ((mSliceUnit_emb_val (k0_off1 L) S8x512.size inb y 1).trans ?_)
    rw [e1]
    show 0 + (y 1).val = (y 1).val
    omega

end Cert.Proof.BitsK

end
-- ==== Proof.BitsSlots.lean ====
/-
  The scratch ring of six 32-row blocks, slot by slot: the 6 x 32 x 512 scratch buffer held whole is the same as its six
  slots held one by one, each slot being the unit-stride box of one index along the first axis (rows and lanes whole),
  squeezed to 32 x 512. The slots are spelt as the kernel slices them.
-/
import proofs.«213455_g39170101740086_cont_8to1_b_302_25_alg».proof.Proof.BitsOwn

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev slotM0 : Memref sig .scVector .vmem S32x512 .f32 :=
  (bufW.slice (Rect.unit (s := S6x32x512) ![0, 0, 0] S1x32x512.size inb_S6x32x512_S1x32x512_0_0_0) (fun _ => rfl)).squeeze S32x512 squeezes_S1x32x512_S32x512
abbrev slotM1 : Memref sig .scVector .vmem S32x512 .f32 :=
  (bufW.slice (Rect.unit (s := S6x32x512) ![1, 0, 0] S1x32x512.size inb_S6x32x512_S1x32x512_1_0_0) (fun _ => rfl)).squeeze S32x512 squeezes_S1x32x512_S32x512
abbrev slotM2 : Memref sig .scVector .vmem S32x512 .f32 :=
  (bufW.slice (Rect.unit (s := S6x32x512) ![2, 0, 0] S1x32x512.size inb_S6x32x512_S1x32x512_2_0_0) (fun _ => rfl)).squeeze S32x512 squeezes_S1x32x512_S32x512
abbrev slotM3 : Memref sig .scVector .vmem S32x512 .f32 :=
  (bufW.slice (Rect.unit (s := S6x32x512) ![3, 0, 0] S1x32x512.size inb_S6x32x512_S1x32x512_3_0_0) (fun _ => rfl)).squeeze S32x512 squeezes_S1x32x512_S32x512
abbrev slotM4 : Memref sig .scVector .vmem S32x512 .f32 :=
  (bufW.slice (Rect.unit (s := S6x32x512) ![4, 0, 0] S1x32x512.size inb_S6x32x512_S1x32x512_4_0_0) (fun _ => rfl)).squeeze S32x512 squeezes_S1x32x512_S32x512
abbrev slotM5 : Memref sig .scVector .vmem S32x512 .f32 :=
  (bufW.slice (Rect.unit (s := S6x32x512) ![5, 0, 0] S1x32x512.size inb_S6x32x512_S1x32x512_5_0_0) (fun _ => rfl)).squeeze S32x512 squeezes_S1x32x512_S32x512

/-! ## The six slots are the six parts of the first axis -/

theorem hdiv6 : 6 ∣ S6x32x512.size 0 := ⟨1, rfl⟩
/-- Part `i` of the scratch ring along its first axis: index `i`, all rows, all lanes. -/
abbrev slotPart (i : Fin 6) : Rect S6x32x512 := Rect.part (s := S6x32x512) (a₀ := 0) hdiv6 i

/-- A part's offsets are `(i, 0, 0)` and its sizes `(1, 32, 512)`. -/
theorem part_off : ∀ (i : Fin 6) (a : Fin 3), S6x32x512.partIx 0 i.val a * S6x32x512.partSize 0 6 a = (![i.val, 0, 0] : Fin 3 → Nat) a := by decide
theorem part_size : ∀ a : Fin 3, S6x32x512.partSize 0 6 a = S1x32x512.size a := by decide

/-- Unit-stride boxes with equal offsets and equal sizes are equal. -/
theorem unit_congr {s : Shape} {off off' size size' : Fin s.rank → Nat} (ho : off = off') (hs : size = size')
    (inb : ∀ a, off a + size a ≤ s.size a) (inb' : ∀ a, off' a + size' a ≤ s.size a) : Rect.unit off size inb = Rect.unit off' size' inb' := by
  subst ho; subst hs; rfl

theorem slotRect_eq (i : Fin 6) (inb : ∀ a, (![i.val, 0, 0] : Fin 3 → Nat) a + S1x32x512.size a ≤ S6x32x512.size a) :
    Rect.unit (s := S6x32x512) ![i.val, 0, 0] S1x32x512.size inb = slotPart i := by
  have ho : (![i.val, 0, 0] : Fin 3 → Nat) = fun a => S6x32x512.partIx 0 i.val a * S6x32x512.partSize 0 6 a := funext fun a => (part_off i a).symm
  have hs : S1x32x512.size = S6x32x512.partSize 0 6 := funext fun a => (part_size a).symm
  show Rect.unit (s := S6x32x512) ![i.val, 0, 0] S1x32x512.size inb
    = Rect.unit (s := S6x32x512) (fun a => S6x32x512.partIx 0 i.val a * S6x32x512.partSize 0 6 a) (S6x32x512.partSize 0 6) _
  exact unit_congr (s := S6x32x512) ho hs inb _

/-- The elements a slot's memref names are those of its part. -/
theorem slot_set (i : Fin 6) (inb : ∀ a, (![i.val, 0, 0] : Fin 3 → Nat) a + S1x32x512.size a ≤ S6x32x512.size a) :
    ((bufW.slice (Rect.unit (s := S6x32x512) ![i.val, 0, 0] S1x32x512.size inb) (fun _ => rfl)).squeeze S32x512 squeezes_S1x32x512_S32x512).view.set
      = (slotPart i).set := by
  have h1 : ((bufW.slice (Rect.unit (s := S6x32x512) ![i.val, 0, 0] S1x32x512.size inb) (fun _ => rfl)).squeeze S32x512 squeezes_S1x32x512_S32x512).view.set
      = ((View.whole (cc0_scratch0 : Ref sig .scVector)).slice (Rect.unit (s := S6x32x512) ![i.val, 0, 0] S1x32x512.size inb)).set :=
    View.set_reshape _ _
  rw [h1, View.set_slice_whole]
  exact congrArg (fun r : Rect S6x32x512 => r.set) (slotRect_eq i inb)

variable (d : Dev nD) (L : grid0.Coords)

/-- The whole scratch ring at contents `f` is its six parts, each at `f`. -/
theorem buf_parts (f : Buf (Elt F) ((V d (cV L) (jV L)).loc cc0_scratch0)) :
    ((V d (cV L) (jV L)).loc cc0_scratch0 ↦{fullShare} f : sProp 𝕄)
      = bigSep Finset.univ fun i : Fin 6 => (V d (cV L) (jV L)).loc cc0_scratch0 ↦[(slotPart i).set]{fullShare} f := by
  rw [← pointsTo_biUnion Finset.univ (ℓ := (V d (cV L) (jV L)).loc cc0_scratch0) (fun i : Fin 6 => (slotPart i).set)
    (fun i _ j _ h => Rect.part_disjoint hdiv6 h), Rect.biUnion_part hdiv6]

/-- The whole scratch ring at contents `f` is its six slots, each at `f`. -/
theorem buf_slots (f : Buf (Elt F) ((V d (cV L) (jV L)).loc cc0_scratch0)) :
    ((V d (cV L) (jV L)).loc cc0_scratch0 ↦{fullShare} f : sProp 𝕄)
      = iprop((slotM0.view.loc (V d (cV L) (jV L)) ↦[slotM0.view.set]{fullShare} f)
          ∗ (slotM1.view.loc (V d (cV L) (jV L)) ↦[slotM1.view.set]{fullShare} f)
          ∗ (slotM2.view.loc (V d (cV L) (jV L)) ↦[slotM2.view.set]{fullShare} f)
          ∗ (slotM3.view.loc (V d (cV L) (jV L)) ↦[slotM3.view.set]{fullShare} f)
          ∗ (slotM4.view.loc (V d (cV L) (jV L)) ↦[slotM4.view.set]{fullShare} f)
          ∗ (slotM5.view.loc (V d (cV L) (jV L)) ↦[slotM5.view.set]{fullShare} f)) := by
  have e0 : slotM0.view.set = (slotPart 0).set := slot_set 0 inb_S6x32x512_S1x32x512_0_0_0
  have e1 : slotM1.view.set = (slotPart 1).set := slot_set 1 inb_S6x32x512_S1x32x512_1_0_0
  have e2 : slotM2.view.set = (slotPart 2).set := slot_set 2 inb_S6x32x512_S1x32x512_2_0_0
  have e3 : slotM3.view.set = (slotPart 3).set := slot_set 3 inb_S6x32x512_S1x32x512_3_0_0
  have e4 : slotM4.view.set = (slotPart 4).set := slot_set 4 inb_S6x32x512_S1x32x512_4_0_0
  have e5 : slotM5.view.set = (slotPart 5).set := slot_set 5 inb_S6x32x512_S1x32x512_5_0_0
  rw [e0, e1, e2, e3, e4, e5, buf_parts d L f, show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]

/-! ## A sixteen-lane box outside a slot -/

/-- A one-row, sixteen-lane box of the scratch ring whose first coordinate is not `i` shares no element with slot `i`:
    the box sits at its own first coordinate, the slot at `i`. -/
theorem box_disj_slot (i : Fin 6) (inbi : ∀ a, (![i.val, 0, 0] : Fin 3 → Nat) a + S1x32x512.size a ≤ S6x32x512.size a)
    (off : Fin 3 → ℕ) (inb : ∀ a, off a + S1x1x16.size a ≤ S6x32x512.size a) (h : off 0 ≠ i.val) :
    Disjoint (bufW.view.setOn (Rect.unit (s := S6x32x512) off S1x1x16.size inb).set)
      ((bufW.slice (Rect.unit (s := S6x32x512) ![i.val, 0, 0] S1x32x512.size inbi) (fun _ => rfl)).squeeze S32x512 squeezes_S1x32x512_S32x512).view.set := by
  have e : bufW.view.setOn (Rect.unit (s := S6x32x512) off S1x1x16.size inb).set = (Rect.unit (s := S6x32x512) off S1x1x16.size inb).set :=
    Finset.map_refl
  rw [e, slot_set i inbi, ← slotRect_eq i inbi]
  refine Rect.unit_disjoint (0 : Fin 3) ?_
  show off 0 + 1 ≤ i.val ∨ i.val + 1 ≤ off 0
  omega

theorem box_disj_slot0 (off : Fin 3 → ℕ) (inb : ∀ a, off a + S1x1x16.size a ≤ S6x32x512.size a) (h : off 0 ≠ 0) :
    Disjoint (bufW.view.setOn (Rect.unit (s := S6x32x512) off S1x1x16.size inb).set) slotM0.view.set :=
  box_disj_slot 0 inb_S6x32x512_S1x32x512_0_0_0 off inb h
theorem box_disj_slot1 (off : Fin 3 → ℕ) (inb : ∀ a, off a + S1x1x16.size a ≤ S6x32x512.size a) (h : off 0 ≠ 1) :
    Disjoint (bufW.view.setOn (Rect.unit (s := S6x32x512) off S1x1x16.size inb).set) slotM1.view.set :=
  box_disj_slot 1 inb_S6x32x512_S1x32x512_1_0_0 off inb h
theorem box_disj_slot2 (off : Fin 3 → ℕ) (inb : ∀ a, off a + S1x1x16.size a ≤ S6x32x512.size a) (h : off 0 ≠ 2) :
    Disjoint (bufW.view.setOn (Rect.unit (s := S6x32x512) off S1x1x16.size inb).set) slotM2.view.set :=
  box_disj_slot 2 inb_S6x32x512_S1x32x512_2_0_0 off inb h
theorem box_disj_slot3 (off : Fin 3 → ℕ) (inb : ∀ a, off a + S1x1x16.size a ≤ S6x32x512.size a) (h : off 0 ≠ 3) :
    Disjoint (bufW.view.setOn (Rect.unit (s := S6x32x512) off S1x1x16.size inb).set) slotM3.view.set :=
  box_disj_slot 3 inb_S6x32x512_S1x32x512_3_0_0 off inb h
theorem box_disj_slot4 (off : Fin 3 → ℕ) (inb : ∀ a, off a + S1x1x16.size a ≤ S6x32x512.size a) (h : off 0 ≠ 4) :
    Disjoint (bufW.view.setOn (Rect.unit (s := S6x32x512) off S1x1x16.size inb).set) slotM4.view.set :=
  box_disj_slot 4 inb_S6x32x512_S1x32x512_4_0_0 off inb h
theorem box_disj_slot5 (off : Fin 3 → ℕ) (inb : ∀ a, off a + S1x1x16.size a ≤ S6x32x512.size a) (h : off 0 ≠ 5) :
    Disjoint (bufW.view.setOn (Rect.unit (s := S6x32x512) off S1x1x16.size inb).set) slotM5.view.set :=
  box_disj_slot 5 inb_S6x32x512_S1x32x512_5_0_0 off inb h

/-- A first coordinate read off a closed form of the offsets. -/
theorem off0_of_closed {off form : Fin 3 → ℕ} (h : off = form) (i : ℕ) (hne : form 0 ≠ i) : off 0 ≠ i := h ▸ hne

end Cert.Proof.BitsK

end
-- ==== Proof.BitsVals.lean ====
/-
  The values the kernel moves, as pure facts about indices. A fetch of chunk `c` delivers the chunk of `mem` read through
  its slice; a ring slot that such a fetch has landed in holds chunk `c` of `mem`, entry by entry. The result `Gout` (row `r`
  is row `r + 1` of `mem`, the last row is `new`), read inside chunk `c` of a worker's band: row `r < 31` of the chunk is
  row `r + 1` of chunk `c` of `mem`; row 31 is row 0 of chunk `c + 1` of `mem` when the band has one, and at the band's last
  chunk it is row 0 of the next worker's band (the first of the eight boundary rows) or, for the last worker, the vector
  `new`. And an outgoing chunk whose contents agree with `Gout` on the chunk is the chunk held at `Gout`.
-/
import proofs.«213455_g39170101740086_cont_8to1_b_302_25_alg».proof.Proof.BitsChunks
import proofs.«213455_g39170101740086_cont_8to1_b_302_25_alg».proof.Proof.BitsSlots

noncomputable section

namespace Cert.Proof.BitsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (d : Dev nD) (L : grid0.Coords)

/-! ## What a fetch delivers, and what a landed slot holds -/

/-- What a fetch of chunk `c` delivers: the chunk of `mem` read through its slice. -/
def gpay (c : Fin 64) : S32x512.Idx → Elt F .f32 :=
  ReadAs.same.apply ((mChunk L c).view.read (Elt F) (m (mLoc d)))

/-- Entry `y` of it is `mem` where the chunk's entry `y` sits. -/
theorem gpay_apply (c : Fin 64) (y : S32x512.Idx) : gpay m d L c y = m (mLoc d) ((mChunk L c).view.emb y) := rfl

/-- A 32-row buffer (a slot of the scratch ring) holds chunk `c` of `mem`. -/
def Holds (sM : Memref sig .scVector .vmem S32x512 .f32) (c : Fin 64) (f : sM.view.ty.Contents (Elt F)) : Prop :=
  ∀ y : S32x512.Idx, sM.view.read (Elt F) f y = m (mLoc d) ((mChunk L c).view.emb y)

/-- After a fetch of chunk `c` has landed whole in it, it does, whatever it held before. -/
theorem holds_landed (sM : Memref sig .scVector .vmem S32x512 .f32) (c : Fin 64) (f₀ : sM.view.ty.Contents (Elt F)) :
    Holds m d L sM c (sM.view.writes (Elt F) f₀ [⟨Rect.whole S32x512, gpay m d L c⟩]) := by
  intro y
  have h := View.read_writes_cons_emb (Val := Elt F) sM.view f₀ (Rect.whole S32x512) (gpay m d L c) [] y
  have e : (Rect.whole S32x512).emb y = y := Rect.emb_whole_apply S32x512 y
  rw [e] at h
  exact h.trans (gpay_apply m d L c y)

/-! ## The result inside a chunk -/

/-- The result at row `r`, lane `l`, when row `r + 1` exists: `mem` at row `r + 1`, lane `l`. -/
theorem Gout_at_lt (r : ℕ) (hr : r + 1 < 65536) (l : Fin 512) :
    Gout m d (ValueIdx.ix2 (⟨r, Nat.lt_of_succ_lt hr⟩ : Fin 65536) l) = m (mLoc d) (ValueIdx.ix2 (⟨r + 1, hr⟩ : Fin 65536) l) := by
  unfold Gout
  exact Cert.Spec.shiftRows_of_lt _ _ _ hr

/-- The result at the last row, lane `l`: `new` at lane `l`. -/
theorem Gout_at_last (l : Fin 512) :
    Gout m d (ValueIdx.ix2 (⟨65535, by decide⟩ : Fin 65536) l) = m (nLoc d) (ValueIdx.ix1 l) := by
  unfold Gout
  exact Cert.Spec.shiftRows_last _ _ _ (by show ¬ (65535 + 1 < 65536); omega)

/-- Row `r < 31` of chunk `c` of the result is row `r + 1` of chunk `c` of `mem`. -/
theorem Gout_chunk_lt (c : Fin 64) (y : S32x512.Idx) (h : (y 0).val < 31) :
    Gout m d ((oChunk L c).view.emb y)
      = m (mLoc d) ((mChunk L c).view.emb (ValueIdx.ix2 (⟨(y 0).val + 1, by omega⟩ : Fin 32) (y 1))) := by
  have h0 := L0_lt L; have h1 := L1_lt L; have hc := c.isLt
  rw [oChunk_emb, mChunk_emb]
  refine (Gout_at_lt m d _ (by omega) _).trans (congrArg (m (mLoc d)) (funext fun a => ?_))
  match a with
  | ⟨0, _⟩ => exact Fin.ext (by show 4096 * (L 1).val + 2048 * (L 0).val + 32 * c.val + (y 0).val + 1 = 4096 * (L 1).val + 2048 * (L 0).val + 32 * c.val + ((y 0).val + 1); omega)
  | ⟨1, _⟩ => rfl

/-- Row 31 of chunk `c` of the result is row 0 of chunk `c + 1` of `mem`, when the band has a chunk `c + 1`. -/
theorem Gout_chunk_next (c : Fin 64) (hc : c.val + 1 < 64) (y : S32x512.Idx) (h : (y 0).val = 31) :
    Gout m d ((oChunk L c).view.emb y)
      = m (mLoc d) ((mChunk L ⟨c.val + 1, hc⟩).view.emb (ValueIdx.ix2 (⟨0, by decide⟩ : Fin 32) (y 1))) := by
  have h0 := L0_lt L; have h1 := L1_lt L
  rw [oChunk_emb, mChunk_emb]
  refine (Gout_at_lt m d _ (by omega) _).trans (congrArg (m (mLoc d)) (funext fun a => ?_))
  match a with
  | ⟨0, _⟩ => exact Fin.ext (by show 4096 * (L 1).val + 2048 * (L 0).val + 32 * c.val + (y 0).val + 1 = 4096 * (L 1).val + 2048 * (L 0).val + 32 * (c.val + 1) + 0; omega)
  | ⟨1, _⟩ => rfl

/-- Row 31 of the band's last chunk, for a worker that is not the last: row 0 of the next worker's band, the first of the
    eight boundary rows. -/
theorem Gout_chunk_last_band (c : Fin 64) (hc : c.val = 63) (hw : (wL L).val < 31)
    (inb : ∀ a, k0_off1 L a + S8x512.size a ≤ S65536x512.size a) (y : S32x512.Idx) (h : (y 0).val = 31) :
    Gout m d ((oChunk L c).view.emb y)
      = m (mLoc d) ((bRows L inb).view.emb (ValueIdx.ix2 (⟨0, by decide⟩ : Fin 8) (y 1))) := by
  have h0 := L0_lt L; have h1 := L1_lt L; have hwv := wL_val L
  rw [oChunk_emb, bRows_emb L inb hw]
  refine (Gout_at_lt m d _ (by omega) _).trans (congrArg (m (mLoc d)) (funext fun a => ?_))
  match a with
  | ⟨0, _⟩ => exact Fin.ext (by show 4096 * (L 1).val + 2048 * (L 0).val + 32 * c.val + (y 0).val + 1 = 2048 * ((wL L).val + 1) + 0; omega)
  | ⟨1, _⟩ => rfl

/-- Row 31 of the last worker's last chunk is the last row of the result: the vector `new`. -/
theorem Gout_chunk_last_new (c : Fin 64) (hc : c.val = 63) (hw : (wL L).val = 31) (y : S32x512.Idx) (h : (y 0).val = 31) :
    Gout m d ((oChunk L c).view.emb y) = m (nLoc d) (ValueIdx.ix1 (y 1)) := by
  have h0 := L0_lt L; have h1 := L1_lt L; have hwv := wL_val L
  rw [oChunk_emb]
  refine Eq.trans (congrArg (Gout m d) (funext fun a => ?_)) (Gout_at_last m d (⟨(y 1).val, (y 1).isLt⟩ : Fin 512))
  match a with
  | ⟨0, _⟩ => exact Fin.ext (by show 4096 * (L 1).val + 2048 * (L 0).val + 32 * c.val + (y 0).val = 65535; omega)
  | ⟨1, _⟩ => rfl

/-! ## An outgoing chunk at the result -/

/-- An outgoing chunk whose contents agree with `Gout` on the chunk is the chunk held at `Gout`. -/
theorem out_chunk_congr (c : Fin 64) (g : Buf (Elt F) (oLoc d))
    (h : ∀ y : S32x512.Idx, g ((oChunk L c).view.emb y) = Gout m d ((oChunk L c).view.emb y)) :
    ((oChunk L c).view.loc (thr d L) ↦[(oChunk L c).view.set]{fullShare} g : sProp 𝕄)
      = ((oChunk L c).view.loc (thr d L) ↦[(oChunk L c).view.set]{fullShare} Gout m d) := by
  refine pointsTo_congr fun i hi => ?_
  obtain ⟨y, -, rfl⟩ := Finset.mem_map.1 (show i ∈ Finset.univ.map (oChunk L c).view.emb from hi)
  exact h y

end Cert.Proof.BitsK

end
-- ==== Proof.BitsInv.lean ====
/-
  The main loop's invariant. Chunk c of a worker's 64 chunks lives in slot c mod 6 of the scratch ring. At the start of
  trip k: chunk k has landed in its slot (the slot holds chunk k of mem); the gathers of chunks k+1, k+2, k+3 are in
  flight (each delivering its slot filled with that chunk, and the lent part of its read token of mem); the stores of the
  two chunks before k (and, once the look-ahead has stopped, of every chunk from 58 on) are in flight, each delivering its
  chunk of the result at the result's value and its slot back; the remaining slots are free. The result's chunks: those
  whose store has been waited for are at the result's value, those in flight are away, the rest are untouched.
  Stated once over the six slots in ROTATED order (position i is the slot of chunk k + i), then by the residue of k.
-/
import proofs.«213455_g39170101740086_cont_8to1_b_302_25_alg».proof.Proof.BitsVals

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-- The worker's read token of mem for the transfers completing on DMA semaphore number t. -/
abbrev tokM (t : ℕ) : PosShare TreeShare := Transfers.shareTokN (qW (wL L)) t
/-- That token, whole. -/
def tokWhole (t : ℕ) : sProp 𝕄 := mW.view.loc (thr d L) ↦{tokM L t} m (mLoc d)

section Slot
variable (sM : Memref sig .scVector .vmem S32x512 .f32) (is os : DmaSems sig S_) (t : ℕ)

/-- The slot holds chunk c of mem; both its semaphores at zero, its token whole. -/
def held (c : Fin 64) : sProp 𝕄 :=
  iprop(semVal (thr d L, SemLoc.dma is.sem) 0 ∗ semVal (thr d L, SemLoc.dma os.sem) 0 ∗ tokWhole m d L t
    ∗ ∃ f, ⌜Holds m d L sM c f⌝ ∗ sM.view.loc (thr d L) ↦[sM.view.set]{fullShare} f)
/-- The slot is free. -/
def free : sProp 𝕄 :=
  iprop(semVal (thr d L, SemLoc.dma is.sem) 0 ∗ semVal (thr d L, SemLoc.dma os.sem) 0 ∗ tokWhole m d L t
    ∗ ∃ f, sM.view.loc (thr d L) ↦[sM.view.set]{fullShare} f)
/-- The gather of chunk c into the slot is in flight. -/
def gfl (c : Fin 64) : sProp 𝕄 :=
  iprop(semVal (thr d L, SemLoc.dma os.sem) 0
    ∗ (∃ f₀, Transfers.Flight countersEmb (thr d L) (SemLoc.dma is.sem) (default : HIx 1) 524288
        iprop((sM.view.loc (thr d L) ↦[sM.view.set]{fullShare} sM.view.writes (Elt F) f₀ [⟨Rect.whole S32x512, gpay m d L c⟩])
          ∗ mW.view.loc (thr d L) ↦[(mChunk L c).view.set]{tokM L t} m (mLoc d)))
    ∗ mW.view.loc (thr d L) ↦[Finset.univ \ (mChunk L c).view.set]{tokM L t} m (mLoc d))
/-- The store of chunk c out of the slot is in flight: it delivers the chunk of the result at the result's value and the slot. -/
def sfl (c : Fin 64) : sProp 𝕄 :=
  iprop(semVal (thr d L, SemLoc.dma is.sem) 0 ∗ tokWhole m d L t
    ∗ ∃ f, Transfers.Flight countersEmb (thr d L) (SemLoc.dma os.sem) (default : HIx 1) 524288
        iprop(((oChunk L c).view.loc (thr d L) ↦[(oChunk L c).view.set]{fullShare} Gout m d)
          ∗ sM.view.loc (thr d L) ↦[sM.view.set]{fullShare} f))

/-- Position 0 at trip k: chunk k landed, or (after the loop) the store of chunk k - 6 in flight. -/
def pos0 (k : ℕ) : sProp 𝕄 :=
  if h : k < 64 then held m d L sM is os t ⟨k, h⟩ else if h' : k - 6 < 64 then sfl m d L sM is os t ⟨k - 6, h'⟩ else iprop(False)
/-- Positions 1, 2, 3 at trip k: the gather of chunk k + i in flight, or, past the last chunk, the store of chunk k + i - 6. -/
def posG (k i : ℕ) : sProp 𝕄 :=
  if h : k + i < 64 then gfl m d L sM is os t ⟨k + i, h⟩ else if h' : k + i - 6 < 64 then sfl m d L sM is os t ⟨k + i - 6, h'⟩ else iprop(False)
/-- Positions 4, 5 at trip k (b = 2, 1): the store of chunk k - b in flight, or free before there is one. -/
def posS (k b : ℕ) : sProp 𝕄 :=
  if b ≤ k then (if h : k - b < 64 then sfl m d L sM is os t ⟨k - b, h⟩ else iprop(False)) else free m d L sM is os t
end Slot

/-- The chunks of the result at trip k. -/
def outs (k : ℕ) : sProp 𝕄 :=
  bigSep Finset.univ fun c : Fin 64 =>
    if c.val + 2 < k ∧ c.val < 58 then ((oChunk L c).view.loc (thr d L) ↦[(oChunk L c).view.set]{fullShare} Gout m d)
    else if c.val < k then iprop(emp)
    else ((oChunk L c).view.loc (thr d L) ↦[(oChunk L c).view.set]{fullShare} m (oLoc d))

/-- The invariant over the slots in rotated order. -/
def InvGen (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) : sProp 𝕄 :=
  iprop((∃ W', ⌜∀ p ∈ W', p ∈ W ∨ p.2 = none⌝ ∗ owes (thr d L) O W')
    ∗ pos0 m d L a0 i0 o0 t0 k ∗ posG m d L a1 i1 o1 t1 k 1 ∗ posG m d L a2 i2 o2 t2 k 2 ∗ posG m d L a3 i3 o3 t3 k 3
    ∗ posS m d L a4 i4 o4 t4 k 2 ∗ posS m d L a5 i5 o5 t5 k 1 ∗ outs m d L k)

/-- The invariant at trip k: the rotation is k mod 6. -/
def Inv (O : CellTallies nD τ sig (HIx 1)) (W : Waits sig (HIx 1)) (k : ℕ) : sProp 𝕄 :=
  match k % 6 with
  | 0 => InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k
  | 1 => InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k
  | 2 => InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k
  | 3 => InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k
  | 4 => InvGen m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W k
  | _ => InvGen m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W k

theorem Inv_mod0 (O : CellTallies nD τ sig (HIx 1)) (W : Waits sig (HIx 1)) (k : ℕ) (hk : k % 6 = 0) :
    Inv m d L O W k = InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k := by
  unfold Inv; rw [hk] <;> rfl
theorem Inv_mod1 (O : CellTallies nD τ sig (HIx 1)) (W : Waits sig (HIx 1)) (k : ℕ) (hk : k % 6 = 1) :
    Inv m d L O W k = InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k := by
  unfold Inv; rw [hk] <;> rfl
theorem Inv_mod2 (O : CellTallies nD τ sig (HIx 1)) (W : Waits sig (HIx 1)) (k : ℕ) (hk : k % 6 = 2) :
    Inv m d L O W k = InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k := by
  unfold Inv; rw [hk] <;> rfl
theorem Inv_mod3 (O : CellTallies nD τ sig (HIx 1)) (W : Waits sig (HIx 1)) (k : ℕ) (hk : k % 6 = 3) :
    Inv m d L O W k = InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k := by
  unfold Inv; rw [hk] <;> rfl
theorem Inv_mod4 (O : CellTallies nD τ sig (HIx 1)) (W : Waits sig (HIx 1)) (k : ℕ) (hk : k % 6 = 4) :
    Inv m d L O W k = InvGen m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W k := by
  unfold Inv; rw [hk] <;> rfl
theorem Inv_mod5 (O : CellTallies nD τ sig (HIx 1)) (W : Waits sig (HIx 1)) (k : ℕ) (hk : k % 6 = 5) :
    Inv m d L O W k = InvGen m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W k := by
  unfold Inv; rw [hk] <;> rfl

end Cert.Proof.BitsK

end
-- ==== Proof.BitsOuts.lean ====
/-
  The bookkeeping of the result's sixty-four chunks across the main loop. At the start of trip `k` chunk `c` of the
  worker's band is in one of three states: its store has been waited for and it is held at the result's value (`c + 2 < k`
  and `c < 58`: the look-ahead of trip `k' = c + 2` waited for it, and the look-ahead stops at trip 60); its store is in
  flight and it is away (the other `c < k`); or it is untouched, held at its launch contents (`k ≤ c`). Trip `k` takes chunk
  `k` out of the family to send it, and, for `2 ≤ k < 60`, gets chunk `k - 2` back at the result's value; so the family at
  trip `k` less chunk `k`, with chunk `k - 2` put back where a chunk returns, is the family at trip `k + 1`. After the loop
  the six chunks still away (58 … 63) come back, and the sixty-four chunks at the result's value are the band.
-/
import proofs.«213455_g39170101740086_cont_8to1_b_302_25_alg».proof.Proof.BitsInv

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
variable (m : (ℓ : Loc nD τ sig) → Buf (Elt F) ℓ) (d : Dev nD) (L : grid0.Coords)

/-! ## One chunk's state at trip `k` -/

/-- Chunk `c` of the result at the start of trip `k`: at the result's value, away, or untouched. -/
def outAt (k : ℕ) (c : Fin 64) : sProp 𝕄 :=
  if c.val + 2 < k ∧ c.val < 58 then ((oChunk L c).view.loc (thr d L) ↦[(oChunk L c).view.set]{fullShare} Gout m d)
  else if c.val < k then iprop(emp)
  else ((oChunk L c).view.loc (thr d L) ↦[(oChunk L c).view.set]{fullShare} m (oLoc d))

/-- The family at trip `k` is the sixty-four states. -/
theorem outs_eq (k : ℕ) : outs m d L k = bigSep Finset.univ (outAt m d L k) := rfl

theorem outAt_done (k : ℕ) (c : Fin 64) (h : c.val + 2 < k) (h58 : c.val < 58) :
    outAt m d L k c = ((oChunk L c).view.loc (thr d L) ↦[(oChunk L c).view.set]{fullShare} Gout m d) := by
  unfold outAt; rw [if_pos ⟨h, h58⟩]
theorem outAt_away (k : ℕ) (c : Fin 64) (h : ¬ (c.val + 2 < k ∧ c.val < 58)) (hk : c.val < k) :
    outAt m d L k c = (iprop(emp) : sProp 𝕄) := by
  unfold outAt; rw [if_neg h, if_pos hk]
theorem outAt_todo (k : ℕ) (c : Fin 64) (hk : k ≤ c.val) :
    outAt m d L k c = ((oChunk L c).view.loc (thr d L) ↦[(oChunk L c).view.set]{fullShare} m (oLoc d)) := by
  unfold outAt; rw [if_neg (by omega), if_neg (by omega)]

/-- A state other than chunk `k`'s and chunk `k - 2`'s does not change from trip `k` to trip `k + 1`. -/
theorem outAt_succ (k : ℕ) (c : Fin 64) (hk : c.val ≠ k) (h2 : c.val + 2 ≠ k ∨ 58 ≤ c.val) :
    outAt m d L (k + 1) c = outAt m d L k c := by
  unfold outAt
  by_cases h1 : c.val + 2 < k ∧ c.val < 58
  · rw [if_pos h1, if_pos ⟨by omega, h1.2⟩]
  · rw [if_neg h1, if_neg (by omega)]
    by_cases h3 : c.val < k
    · rw [if_pos h3, if_pos (by omega)]
    · rw [if_neg h3, if_neg (by omega)]

/-! ## Taking chunk `k` out -/

/-- The family at trip `k` less chunk `k`. -/
def outsRest (k : ℕ) : sProp 𝕄 := bigSep (Finset.univ.filter fun c : Fin 64 => c.val ≠ k) (outAt m d L k)

theorem erase_eq_filter (k : ℕ) (hk : k < 64) :
    (Finset.univ : Finset (Fin 64)).erase ⟨k, hk⟩ = Finset.univ.filter fun c : Fin 64 => c.val ≠ k := by
  ext c
  simp only [Finset.mem_erase, Finset.mem_univ, and_true, Finset.mem_filter, true_and, ne_eq, Fin.ext_iff]

/-- An `emp` member of a family may be dropped. -/
theorem bigSep_erase_emp {I : Type} [DecidableEq I] {s : Finset I} {i : I} (hi : i ∈ s) {Φ : I → sProp 𝕄} (h : Φ i = (iprop(emp) : sProp 𝕄)) :
    bigSep s Φ = bigSep (s.erase i) Φ := by
  rw [SparseCore.bigSep_erase' hi, h]
  exact equiv_iff.mp emp_sep

/-- At trip `k < 64` the family is chunk `k`, untouched, and the rest. -/
theorem outs_take (k : ℕ) (hk : k < 64) :
    outs m d L k = iprop(((oChunk L ⟨k, hk⟩).view.loc (thr d L) ↦[(oChunk L ⟨k, hk⟩).view.set]{fullShare} m (oLoc d)) ∗ outsRest m d L k) := by
  rw [outs_eq, SparseCore.bigSep_erase' (Finset.mem_univ (⟨k, hk⟩ : Fin 64)), outAt_todo m d L k ⟨k, hk⟩ (le_refl k), erase_eq_filter k hk]
  rfl

/-! ## One trip on -/

/-- Where no chunk returns (before trip 2, and from trip 60 on) the family at trip `k + 1` is the family at trip `k` less
    chunk `k`. -/
theorem outs_step_none (k : ℕ) (hk : k < 64) (h : k < 2 ∨ 60 ≤ k) : outsRest m d L k = outs m d L (k + 1) := by
  rw [outs_eq, bigSep_erase_emp (Finset.mem_univ (⟨k, hk⟩ : Fin 64))
    (outAt_away m d L (k + 1) ⟨k, hk⟩ (by show ¬ (k + 2 < k + 1 ∧ k < 58); omega) (by show k < k + 1; omega)),
    erase_eq_filter k hk]
  unfold outsRest
  refine (bigSep_congr fun c hc => ?_).symm
  have hck : c.val ≠ k := (Finset.mem_filter.1 hc).2
  exact outAt_succ m d L k c hck (by omega)

/-- In a trip `2 ≤ k < 60` chunk `k - 2` returns at the result's value: with it, the family at trip `k` less chunk `k` is the
    family at trip `k + 1`. -/
theorem outs_step_steady (k : ℕ) (hk : k < 64) (h2 : 2 ≤ k) (h60 : k < 60) (c2 : Fin 64) (hc2 : c2.val = k - 2) :
    iprop(((oChunk L c2).view.loc (thr d L) ↦[(oChunk L c2).view.set]{fullShare} Gout m d) ∗ outsRest m d L k)
      = outs m d L (k + 1) := by
  have hmem : c2 ∈ (Finset.univ.filter fun c : Fin 64 => c.val ≠ k) := Finset.mem_filter.2 ⟨Finset.mem_univ _, by omega⟩
  rw [outs_eq, bigSep_erase_emp (Finset.mem_univ (⟨k, hk⟩ : Fin 64))
    (outAt_away m d L (k + 1) ⟨k, hk⟩ (by show ¬ (k + 2 < k + 1 ∧ k < 58); omega) (by show k < k + 1; omega)),
    erase_eq_filter k hk, SparseCore.bigSep_erase' hmem, outAt_done m d L (k + 1) c2 (by omega) (by omega)]
  unfold outsRest
  rw [bigSep_erase_emp hmem (outAt_away m d L k c2 (by omega) (by omega))]
  congr 1
  refine (bigSep_congr fun c hc => ?_).symm
  have hc' := Finset.mem_erase.1 hc
  have hck : c.val ≠ k := (Finset.mem_filter.1 hc'.2).2
  have hc2' : c.val ≠ c2.val := fun e => hc'.1 (Fin.ext e)
  exact outAt_succ m d L k c hck (by omega)

/-! ## After the loop -/

/-- After the loop the chunks below 58 are at the result's value and the last six are away. -/
theorem outAt_final (c : Fin 64) :
    outAt m d L 64 c = if c.val < 58 then ((oChunk L c).view.loc (thr d L) ↦[(oChunk L c).view.set]{fullShare} Gout m d) else (iprop(emp) : sProp 𝕄) := by
  by_cases h : c.val < 58
  · rw [if_pos h]; exact outAt_done m d L 64 c (by omega) h
  · rw [if_neg h]; exact outAt_away m d L 64 c (by omega) c.isLt

/-- The six chunks that come back after the loop, with the family after the loop, are all sixty-four chunks at the
    result's value. -/
theorem outs_final (c0 c1 c2 c3 c4 c5 : Fin 64) (h0 : c0.val = 58) (h1 : c1.val = 59) (h2 : c2.val = 60) (h3 : c3.val = 61)
    (h4 : c4.val = 62) (h5 : c5.val = 63) :
    iprop(((oChunk L c0).view.loc (thr d L) ↦[(oChunk L c0).view.set]{fullShare} Gout m d)
        ∗ ((oChunk L c1).view.loc (thr d L) ↦[(oChunk L c1).view.set]{fullShare} Gout m d)
        ∗ ((oChunk L c2).view.loc (thr d L) ↦[(oChunk L c2).view.set]{fullShare} Gout m d)
        ∗ ((oChunk L c3).view.loc (thr d L) ↦[(oChunk L c3).view.set]{fullShare} Gout m d)
        ∗ ((oChunk L c4).view.loc (thr d L) ↦[(oChunk L c4).view.set]{fullShare} Gout m d)
        ∗ ((oChunk L c5).view.loc (thr d L) ↦[(oChunk L c5).view.set]{fullShare} Gout m d)
        ∗ outs m d L 64)
      = bigSep Finset.univ fun c : Fin 64 => ((oChunk L c).view.loc (thr d L) ↦[(oChunk L c).view.set]{fullShare} Gout m d) := by
  have ne (a b : Fin 64) (h : a.val ≠ b.val) : a ≠ b := fun e => h (congrArg Fin.val e)
  have m0 : c0 ∈ (Finset.univ : Finset (Fin 64)) := Finset.mem_univ _
  have m1 : c1 ∈ (Finset.univ : Finset (Fin 64)).erase c0 := Finset.mem_erase.2 ⟨ne _ _ (by omega), Finset.mem_univ _⟩
  have m2 : c2 ∈ ((Finset.univ : Finset (Fin 64)).erase c0).erase c1 :=
    Finset.mem_erase.2 ⟨ne _ _ (by omega), Finset.mem_erase.2 ⟨ne _ _ (by omega), Finset.mem_univ _⟩⟩
  have m3 : c3 ∈ (((Finset.univ : Finset (Fin 64)).erase c0).erase c1).erase c2 :=
    Finset.mem_erase.2 ⟨ne _ _ (by omega), Finset.mem_erase.2 ⟨ne _ _ (by omega), Finset.mem_erase.2 ⟨ne _ _ (by omega), Finset.mem_univ _⟩⟩⟩
  have m4 : c4 ∈ ((((Finset.univ : Finset (Fin 64)).erase c0).erase c1).erase c2).erase c3 :=
    Finset.mem_erase.2 ⟨ne _ _ (by omega), Finset.mem_erase.2 ⟨ne _ _ (by omega), Finset.mem_erase.2 ⟨ne _ _ (by omega),
      Finset.mem_erase.2 ⟨ne _ _ (by omega), Finset.mem_univ _⟩⟩⟩⟩
  have m5 : c5 ∈ (((((Finset.univ : Finset (Fin 64)).erase c0).erase c1).erase c2).erase c3).erase c4 :=
    Finset.mem_erase.2 ⟨ne _ _ (by omega), Finset.mem_erase.2 ⟨ne _ _ (by omega), Finset.mem_erase.2 ⟨ne _ _ (by omega),
      Finset.mem_erase.2 ⟨ne _ _ (by omega), Finset.mem_erase.2 ⟨ne _ _ (by omega), Finset.mem_univ _⟩⟩⟩⟩⟩
  have away (c : Fin 64) (h : 58 ≤ c.val) : outAt m d L 64 c = (iprop(emp) : sProp 𝕄) := outAt_away m d L 64 c (by omega) c.isLt
  rw [SparseCore.bigSep_erase' m0, SparseCore.bigSep_erase' m1, SparseCore.bigSep_erase' m2, SparseCore.bigSep_erase' m3,
    SparseCore.bigSep_erase' m4, SparseCore.bigSep_erase' m5,
    outs_eq, bigSep_erase_emp m0 (away c0 (by omega)), bigSep_erase_emp m1 (away c1 (by omega)), bigSep_erase_emp m2 (away c2 (by omega)),
    bigSep_erase_emp m3 (away c3 (by omega)), bigSep_erase_emp m4 (away c4 (by omega)), bigSep_erase_emp m5 (away c5 (by omega))]
  congr 6
  refine bigSep_congr fun c hc => ?_
  have e5 := Finset.mem_erase.1 hc
  have e4 := Finset.mem_erase.1 e5.2
  have e3 := Finset.mem_erase.1 e4.2
  have e2 := Finset.mem_erase.1 e3.2
  have e1 := Finset.mem_erase.1 e2.2
  have e0 := Finset.mem_erase.1 e1.2
  have v (a : Fin 64) (h : c ≠ a) : c.val ≠ a.val := fun e => h (Fin.ext e)
  have := v _ e5.1; have := v _ e4.1; have := v _ e3.1; have := v _ e2.1; have := v _ e1.1; have := v _ e0.1
  have hc := c.isLt
  exact outAt_done m d L 64 c (by omega) (by omega)

/-- … and those are the worker's band at the result's value. -/
theorem outs_final_band (c0 c1 c2 c3 c4 c5 : Fin 64) (h0 : c0.val = 58) (h1 : c1.val = 59) (h2 : c2.val = 60) (h3 : c3.val = 61)
    (h4 : c4.val = 62) (h5 : c5.val = 63) :
    iprop(((oChunk L c0).view.loc (thr d L) ↦[(oChunk L c0).view.set]{fullShare} Gout m d)
        ∗ ((oChunk L c1).view.loc (thr d L) ↦[(oChunk L c1).view.set]{fullShare} Gout m d)
        ∗ ((oChunk L c2).view.loc (thr d L) ↦[(oChunk L c2).view.set]{fullShare} Gout m d)
        ∗ ((oChunk L c3).view.loc (thr d L) ↦[(oChunk L c3).view.set]{fullShare} Gout m d)
        ∗ ((oChunk L c4).view.loc (thr d L) ↦[(oChunk L c4).view.set]{fullShare} Gout m d)
        ∗ ((oChunk L c5).view.loc (thr d L) ↦[(oChunk L c5).view.set]{fullShare} Gout m d)
        ∗ outs m d L 64)
      = (oLoc d ↦[bandSet (wL L)]{fullShare} Gout m d : sProp 𝕄) := by
  rw [outs_final m d L c0 c1 c2 c3 c4 c5 h0 h1 h2 h3 h4 h5, band_chunks d L (Gout m d)]

end Cert.Proof.BitsK

end
-- ==== Proof.BitsBody.lean ====
/-
  One worker's whole task, assembled. Before the loop the worker issues, under a condition on its number, the fetch of the
  eight boundary rows (every worker but the last) or of the vector `new` (the last worker), then the fetches of its first
  four chunks, and waits for the first. The sixty-four trips of the loop are taken one by one from the loop's invariant;
  what the guarded fetch left behind (the tail: the fetch in flight and the part of the read share it borrowed) rides along
  untouched until the last trip waits for it and copies its first row into the last row of the last chunk. After the loop
  the stores of the last six chunks are waited for, and what the worker was handed is given back: its band of the result at
  the result's value, the read shares whole again, the scratch at some contents and the semaphores at zero.
  The trips themselves enter as hypotheses, stated over the invariant; a second theorem derives those from one statement
  per rotation of the ring.
-/
import proofs.«213455_g39170101740086_cont_8to1_b_302_25_alg».proof.Proof.BitsInv
import proofs.«213455_g39170101740086_cont_8to1_b_302_25_alg».proof.Proof.BitsOuts
import proofs.«213455_g39170101740086_cont_8to1_b_302_25_alg».proof.Proof.Gen.Kernel
import proofs.«213455_g39170101740086_cont_8to1_b_302_25_alg».proof.Proof.Gen.Kernel.Skeleton

set_option maxHeartbeats 4000000
set_option maxRecDepth 65536

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-! ## Small facts -/

/-- A family over the first fourteen numbers, written out. -/
theorem range14 (Φ : ℕ → sProp 𝕄) :
    bigSep (Finset.range 14) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show Finset.range 14 = {0, 1, 2, 3, 4, 5, 6, 7, 8, 9, 10, 11, 12, 13} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The two inputs, named as the launch names them and as the kernel's memrefs name them: one location each. -/
theorem respell_m (q : PosShare TreeShare) (f : Buf (Elt F) (mLoc d)) :
    (mLoc d ↦{q} f : sProp 𝕄) = (mW.view.loc (thr d L) ↦{q} f) := rfl
theorem respell_n (q : PosShare TreeShare) (f : Buf (Elt F) (nLoc d)) :
    (nLoc d ↦{q} f : sProp 𝕄) = (nW.view.loc (thr d L) ↦{q} f) := rfl

/-- The loop has sixty-four trips. -/
theorem trips_eq : k0_t1_loop.trips = 64 := by decide +kernel

/-- The worker's number, and the first row of its band, as the 32-bit words the kernel computes before the loop. -/
abbrev wWord (L : grid0.Coords) : BitVec 32 := Scalar.addi (Scalar.muli (BitVec.ofNat 32 (L 1).val) 2#32) (BitVec.ofNat 32 (L 0).val)
abbrev bWord (L : grid0.Coords) : BitVec 32 := Scalar.muli (wWord L) 2048#32

/-! ## The positions of the invariant, at the trips where each reads one way -/

section Slot
variable (sM : Memref sig .scVector .vmem S32x512 .f32) (is os : DmaSems sig S_) (t : ℕ)

theorem pos0_lt (k : ℕ) (h : k < 64) : pos0 m d L sM is os t k = held m d L sM is os t ⟨k, h⟩ := by
  unfold pos0; rw [dif_pos h]
theorem pos0_ge (k : ℕ) (h : ¬ k < 64) (h' : k - 6 < 64) : pos0 m d L sM is os t k = sfl m d L sM is os t ⟨k - 6, h'⟩ := by
  unfold pos0; rw [dif_neg h, dif_pos h']
theorem posG_lt (k i : ℕ) (h : k + i < 64) : posG m d L sM is os t k i = gfl m d L sM is os t ⟨k + i, h⟩ := by
  unfold posG; rw [dif_pos h]
theorem posG_ge (k i : ℕ) (h : ¬ k + i < 64) (h' : k + i - 6 < 64) : posG m d L sM is os t k i = sfl m d L sM is os t ⟨k + i - 6, h'⟩ := by
  unfold posG; rw [dif_neg h, dif_pos h']
theorem posS_free (k b : ℕ) (h : ¬ b ≤ k) : posS m d L sM is os t k b = free m d L sM is os t := by
  unfold posS; rw [if_neg h]
theorem posS_sfl (k b : ℕ) (hb : b ≤ k) (h : k - b < 64) : posS m d L sM is os t k b = sfl m d L sM is os t ⟨k - b, h⟩ := by
  unfold posS; rw [if_pos hb, dif_pos h]

/-- A slot that a fetch of chunk `c` has landed in, with its semaphores at zero and its token whole, is `held`. -/
theorem held_of (c : Fin 64) (f : sM.view.ty.Contents (Elt F)) (hf : Holds m d L sM c f) :
    iprop(semVal (thr d L, SemLoc.dma is.sem) 0 ∗ semVal (thr d L, SemLoc.dma os.sem) 0 ∗ (mW.view.loc (thr d L) ↦{tokM L t} m (mLoc d))
      ∗ sM.view.loc (thr d L) ↦[sM.view.set]{fullShare} f) ⊢ held m d L sM is os t c := by
  unfold held tokWhole
  iintro ⟨H1, H2, H3, H4⟩
  isplitl [H1]
  · iexact H1
  isplitl [H2]
  · iexact H2
  isplitl [H3]
  · iexact H3
  iexists f
  isplitr
  · ipureintro; exact hf
  · iexact H4

/-- A fetch in flight whose window of `mem` and whose payload are chunk `c`'s, however they are spelt, is `gfl`. -/
theorem gfl_of (c : Fin 64) (f₀ : sM.view.ty.Contents (Elt F)) (Sx : Finset S65536x512.Idx) (g : S32x512.Idx → Elt F .f32)
    (hS : Sx = (mChunk L c).view.set) (hg : g = gpay m d L c) :
    iprop(semVal (thr d L, SemLoc.dma os.sem) 0
      ∗ Transfers.Flight countersEmb (thr d L) (SemLoc.dma is.sem) (default : HIx 1) 524288
          iprop((sM.view.loc (thr d L) ↦[sM.view.set]{fullShare} sM.view.writes (Elt F) f₀ [⟨Rect.whole S32x512, g⟩])
            ∗ mW.view.loc (thr d L) ↦[Sx]{tokM L t} m (mLoc d))
      ∗ mW.view.loc (thr d L) ↦[Finset.univ \ Sx]{tokM L t} m (mLoc d)) ⊢ gfl m d L sM is os t c := by
  subst hS; subst hg
  unfold gfl
  iintro ⟨H1, H2, H3⟩
  isplitl [H1]
  · iexact H1
  isplitl [H2]
  · iexists f₀; iexact H2
  · iexact H3

/-- A free slot. -/
theorem free_of (f : sM.view.ty.Contents (Elt F)) :
    iprop(semVal (thr d L, SemLoc.dma is.sem) 0 ∗ semVal (thr d L, SemLoc.dma os.sem) 0 ∗ (mW.view.loc (thr d L) ↦{tokM L t} m (mLoc d))
      ∗ sM.view.loc (thr d L) ↦[sM.view.set]{fullShare} f) ⊢ free m d L sM is os t := by
  unfold free tokWhole
  iintro ⟨H1, H2, H3, H4⟩
  isplitl [H1]
  · iexact H1
  isplitl [H2]
  · iexact H2
  isplitl [H3]
  · iexact H3
  iexists f
  iexact H4
end Slot

/-- What a fetch of a 32-row window of `mem` delivers depends only on where the window begins. -/
theorem pay_congr {off off' : Fin 2 → ℕ} (h : off = off') (inb : ∀ a, off a + S32x512.size a ≤ S65536x512.size a)
    (inb' : ∀ a, off' a + S32x512.size a ≤ S65536x512.size a) :
    (ReadAs.same.apply (View.read (Elt F) (mW.slice (Rect.unit (s := S65536x512) off S32x512.size inb) (fun _ => rfl)).view (m (mLoc d))) : S32x512.Idx → Elt F .f32)
      = ReadAs.same.apply (View.read (Elt F) (mW.slice (Rect.unit (s := S65536x512) off' S32x512.size inb') (fun _ => rfl)).view (m (mLoc d))) := by
  subst h; rfl

/-- Before the first trip nothing of the band has been written. -/
theorem outs_zero : outs m d L 0 = (oLoc d ↦[bandSet (wL L)]{fullShare} m (oLoc d)) := by
  rw [band_chunks, outs_eq]
  exact bigSep_congr fun c _ => outAt_todo m d L 0 c (Nat.zero_le _)

/-- The invariant before the first trip: chunk 0 landed in slot 0, chunks 1, 2, 3 on their way into slots 1, 2, 3, slots
    4 and 5 free, nothing written. -/
theorem Inv_zero (O : CellTallies nD τ sig (HIx 1)) (W : Waits sig (HIx 1)) :
    Inv m d L O W 0 = iprop((∃ W', ⌜∀ p ∈ W', p ∈ W ∨ p.2 = none⌝ ∗ owes (thr d L) O W')
      ∗ held m d L slotM0 cc0_scratch3 cc0_scratch9 0 ⟨0, by decide⟩
      ∗ gfl m d L slotM1 cc0_scratch4 cc0_scratch10 1 ⟨1, by decide⟩
      ∗ gfl m d L slotM2 cc0_scratch5 cc0_scratch11 2 ⟨2, by decide⟩
      ∗ gfl m d L slotM3 cc0_scratch6 cc0_scratch12 3 ⟨3, by decide⟩
      ∗ free m d L slotM4 cc0_scratch7 cc0_scratch13 4
      ∗ free m d L slotM5 cc0_scratch8 cc0_scratch14 5
      ∗ outs m d L 0) := by
  rw [Inv_mod0 m d L O W 0 rfl]
  unfold InvGen
  rw [pos0_lt m d L slotM0 cc0_scratch3 cc0_scratch9 0 0 (by decide), posG_lt m d L slotM1 cc0_scratch4 cc0_scratch10 1 0 1 (by decide),
    posG_lt m d L slotM2 cc0_scratch5 cc0_scratch11 2 0 2 (by decide), posG_lt m d L slotM3 cc0_scratch6 cc0_scratch12 3 0 3 (by decide),
    posS_free m d L slotM4 cc0_scratch7 cc0_scratch13 4 0 2 (by decide), posS_free m d L slotM5 cc0_scratch8 cc0_scratch14 5 0 1 (by decide)]

/-- The invariant after the last trip: the stores of chunks 58 … 63 in flight out of slots 4, 5, 0, 1, 2, 3. -/
theorem Inv_end (O : CellTallies nD τ sig (HIx 1)) (W : Waits sig (HIx 1)) :
    Inv m d L O W 64 = iprop((∃ W', ⌜∀ p ∈ W', p ∈ W ∨ p.2 = none⌝ ∗ owes (thr d L) O W')
      ∗ sfl m d L slotM4 cc0_scratch7 cc0_scratch13 4 ⟨58, by decide⟩
      ∗ sfl m d L slotM5 cc0_scratch8 cc0_scratch14 5 ⟨59, by decide⟩
      ∗ sfl m d L slotM0 cc0_scratch3 cc0_scratch9 0 ⟨60, by decide⟩
      ∗ sfl m d L slotM1 cc0_scratch4 cc0_scratch10 1 ⟨61, by decide⟩
      ∗ sfl m d L slotM2 cc0_scratch5 cc0_scratch11 2 ⟨62, by decide⟩
      ∗ sfl m d L slotM3 cc0_scratch6 cc0_scratch12 3 ⟨63, by decide⟩
      ∗ outs m d L 64) := by
  rw [Inv_mod4 m d L O W 64 rfl]
  unfold InvGen
  rw [pos0_ge m d L slotM4 cc0_scratch7 cc0_scratch13 4 64 (by decide) (by decide), posG_ge m d L slotM5 cc0_scratch8 cc0_scratch14 5 64 1 (by decide) (by decide),
    posG_ge m d L slotM0 cc0_scratch3 cc0_scratch9 0 64 2 (by decide) (by decide), posG_ge m d L slotM1 cc0_scratch4 cc0_scratch10 1 64 3 (by decide) (by decide),
    posS_sfl m d L slotM2 cc0_scratch5 cc0_scratch11 2 64 2 (by decide) (by decide), posS_sfl m d L slotM3 cc0_scratch6 cc0_scratch12 3 64 1 (by decide) (by decide)]

/-! ## A hole under a decided condition -/

/-- A buffer held at everything but a hole under a condition that fails is held there whole; -/
theorem pointsTo_gset_neg {ℓ : Loc nD τ sig} {X : Finset (Idx ℓ)} {C : Prop} [Decidable C] {R : C → Finset (Idx ℓ)}
    {q : PosShare TreeShare} {f : Buf (Elt F) ℓ} (h : ¬ C) : (ℓ ↦[X \ gset C R]{q} f : sProp 𝕄) ⊢ ℓ ↦[X]{q} f := by
  rw [gset.neg h, Finset.sdiff_empty]
/-- under a condition that holds, at everything but the hole. -/
theorem pointsTo_gset_pos {ℓ : Loc nD τ sig} {X : Finset (Idx ℓ)} {C : Prop} [Decidable C] {R : C → Finset (Idx ℓ)}
    {q : PosShare TreeShare} {f : Buf (Elt F) ℓ} (h : C) : (ℓ ↦[X \ gset C R]{q} f : sProp 𝕄) ⊢ ℓ ↦[X \ R h]{q} f := by
  rw [gset.pos h]

section Slot2
variable (sM : Memref sig .scVector .vmem S32x512 .f32) (is os : DmaSems sig S_) (t : ℕ)
/-- A store in flight, opened. -/
theorem sfl_open (c : Fin 64) : sfl m d L sM is os t c ⊢ iprop(semVal (thr d L, SemLoc.dma is.sem) 0 ∗ (mLoc d ↦{Transfers.shareTokN (qW (wL L)) t} m (mLoc d))
    ∗ ∃ f, Transfers.Flight countersEmb (thr d L) (SemLoc.dma os.sem) (default : HIx 1) 524288
        iprop(((oChunk L c).view.loc (thr d L) ↦[(oChunk L c).view.set]{fullShare} Gout m d)
          ∗ sM.view.loc (thr d L) ↦[sM.view.set]{fullShare} f)) := by
  unfold sfl tokWhole; exact Entails.of_eq rfl
end Slot2

/-! ## The scratch ring back in one piece -/

/-- The six slots, each at contents of its own, are the whole scratch ring at some contents: the contents that agree with
    each slot's on that slot (the slots are pairwise disjoint and cover the ring). -/
theorem slots_join (f0 f1 f2 f3 f4 f5 : Buf (Elt F) ((thr d L).loc cc0_scratch0)) :
    iprop((slotM0.view.loc (thr d L) ↦[slotM0.view.set]{fullShare} f0)
        ∗ (slotM1.view.loc (thr d L) ↦[slotM1.view.set]{fullShare} f1)
        ∗ (slotM2.view.loc (thr d L) ↦[slotM2.view.set]{fullShare} f2)
        ∗ (slotM3.view.loc (thr d L) ↦[slotM3.view.set]{fullShare} f3)
        ∗ (slotM4.view.loc (thr d L) ↦[slotM4.view.set]{fullShare} f4)
        ∗ (slotM5.view.loc (thr d L) ↦[slotM5.view.set]{fullShare} f5))
      ⊢ (iprop(∃ f, (thr d L).loc cc0_scratch0 ↦{fullShare} f) : sProp 𝕄) := by
  classical
  have e0 : slotM0.view.set = (slotPart 0).set := slot_set 0 inb_S6x32x512_S1x32x512_0_0_0
  have e1 : slotM1.view.set = (slotPart 1).set := slot_set 1 inb_S6x32x512_S1x32x512_1_0_0
  have e2 : slotM2.view.set = (slotPart 2).set := slot_set 2 inb_S6x32x512_S1x32x512_2_0_0
  have e3 : slotM3.view.set = (slotPart 3).set := slot_set 3 inb_S6x32x512_S1x32x512_3_0_0
  have e4 : slotM4.view.set = (slotPart 4).set := slot_set 4 inb_S6x32x512_S1x32x512_4_0_0
  have e5 : slotM5.view.set = (slotPart 5).set := slot_set 5 inb_S6x32x512_S1x32x512_5_0_0
  have key : ∀ (i : Fin 6) (x : S6x32x512.Idx), x ∈ (slotPart i).set → ∀ j : Fin 6, j ≠ i → x ∉ (slotPart j).set :=
    fun i x hx j hji hxj => Finset.disjoint_left.1 (Rect.part_disjoint hdiv6 hji) hxj hx
  let g : Buf (Elt F) ((thr d L).loc cc0_scratch0) := fun x =>
    if x ∈ (slotPart 0).set then f0 x else if x ∈ (slotPart 1).set then f1 x else if x ∈ (slotPart 2).set then f2 x
    else if x ∈ (slotPart 3).set then f3 x else if x ∈ (slotPart 4).set then f4 x else f5 x
  have c0 : (slotM0.view.loc (thr d L) ↦[slotM0.view.set]{fullShare} f0 : sProp 𝕄) = (slotM0.view.loc (thr d L) ↦[slotM0.view.set]{fullShare} g) := by
    refine pointsTo_congr fun x hx => ?_
    rw [e0] at hx
    show f0 x = g x
    simp only [g]; rw [if_pos hx]
  have c1 : (slotM1.view.loc (thr d L) ↦[slotM1.view.set]{fullShare} f1 : sProp 𝕄) = (slotM1.view.loc (thr d L) ↦[slotM1.view.set]{fullShare} g) := by
    refine pointsTo_congr fun x hx => ?_
    rw [e1] at hx
    show f1 x = g x
    simp only [g]; rw [if_neg (key 1 x hx 0 (by decide)), if_pos hx]
  have c2 : (slotM2.view.loc (thr d L) ↦[slotM2.view.set]{fullShare} f2 : sProp 𝕄) = (slotM2.view.loc (thr d L) ↦[slotM2.view.set]{fullShare} g) := by
    refine pointsTo_congr fun x hx => ?_
    rw [e2] at hx
    show f2 x = g x
    simp only [g]; rw [if_neg (key 2 x hx 0 (by decide)), if_neg (key 2 x hx 1 (by decide)), if_pos hx]
  have c3 : (slotM3.view.loc (thr d L) ↦[slotM3.view.set]{fullShare} f3 : sProp 𝕄) = (slotM3.view.loc (thr d L) ↦[slotM3.view.set]{fullShare} g) := by
    refine pointsTo_congr fun x hx => ?_
    rw [e3] at hx
    show f3 x = g x
    simp only [g]; rw [if_neg (key 3 x hx 0 (by decide)), if_neg (key 3 x hx 1 (by decide)), if_neg (key 3 x hx 2 (by decide)), if_pos hx]
  have c4 : (slotM4.view.loc (thr d L) ↦[slotM4.view.set]{fullShare} f4 : sProp 𝕄) = (slotM4.view.loc (thr d L) ↦[slotM4.view.set]{fullShare} g) := by
    refine pointsTo_congr fun x hx => ?_
    rw [e4] at hx
    show f4 x = g x
    simp only [g]; rw [if_neg (key 4 x hx 0 (by decide)), if_neg (key 4 x hx 1 (by decide)), if_neg (key 4 x hx 2 (by decide)), if_neg (key 4 x hx 3 (by decide)), if_pos hx]
  have c5 : (slotM5.view.loc (thr d L) ↦[slotM5.view.set]{fullShare} f5 : sProp 𝕄) = (slotM5.view.loc (thr d L) ↦[slotM5.view.set]{fullShare} g) := by
    refine pointsTo_congr fun x hx => ?_
    rw [e5] at hx
    show f5 x = g x
    simp only [g]; rw [if_neg (key 5 x hx 0 (by decide)), if_neg (key 5 x hx 1 (by decide)), if_neg (key 5 x hx 2 (by decide)), if_neg (key 5 x hx 3 (by decide)), if_neg (key 5 x hx 4 (by decide))]
  rw [c0, c1, c2, c3, c4, c5, ← buf_slots d L g]
  iintro H
  iexists g
  iexact H

/-! ## The tail: what the guarded fetch before the loop leaves for the last trip -/

/-- What the fetch of the eight boundary rows delivers: those rows of `mem`, read through their slice. -/
def bpay (inb : ∀ a, k0_off1 L a + S8x512.size a ≤ S65536x512.size a) : S8x512.Idx → Elt F .f32 :=
  ReadAs.same.apply ((bRows L inb).view.read (Elt F) (m (mLoc d)))
/-- What the fetch of `new` delivers: the vector, read whole. -/
def npay : S512.Idx → Elt F .f32 := ReadAs.same.apply (nW.view.read (Elt F) (m (nLoc d)))

/-- A worker that is not the last, before its last trip: the fetch of the boundary rows is in flight, delivering the
    boundary scratch filled with them and the window of the read token it borrowed; the rest of that token is held. -/
def tailA0 (inb : ∀ a, k0_off1 L a + S8x512.size a ≤ S65536x512.size a) (fbb : Buf (Elt F) ((thr d L).loc cc0_scratch1)) : sProp 𝕄 :=
  iprop((mW.view.loc (thr d L) ↦[Finset.univ \ (bRows L inb).view.set]{tokM L 12} m (mLoc d))
    ∗ Transfers.Flight countersEmb (thr d L) (SemLoc.dma cc0_scratch15.sem) (default : HIx 1) 131072
        iprop((bbW.view.loc (thr d L) ↦{fullShare} View.write (Elt F) bbW.view fbb (bpay m d L inb) Finset.univ)
          ∗ mW.view.loc (thr d L) ↦[(bRows L inb).view.set]{tokM L 12} m (mLoc d)))
/-- After its last trip: the semaphore at zero, the token whole, the boundary scratch at some contents. -/
def tailA1 : sProp 𝕄 :=
  iprop(semVal (thr d L, SemLoc.dma cc0_scratch15.sem) 0 ∗ tokWhole m d L 12 ∗ ∃ f, bbW.view.loc (thr d L) ↦{fullShare} f)
def tailA (inb : ∀ a, k0_off1 L a + S8x512.size a ≤ S65536x512.size a) (fbb : Buf (Elt F) ((thr d L).loc cc0_scratch1)) (k : ℕ) : sProp 𝕄 :=
  if k < 64 then tailA0 m d L inb fbb else tailA1 m d L
theorem tailA_lt (inb : ∀ a, k0_off1 L a + S8x512.size a ≤ S65536x512.size a) (fbb : Buf (Elt F) ((thr d L).loc cc0_scratch1)) (k : ℕ) (h : k < 64) :
    tailA m d L inb fbb k = tailA0 m d L inb fbb := by unfold tailA; rw [if_pos h]
theorem tailA_ge (inb : ∀ a, k0_off1 L a + S8x512.size a ≤ S65536x512.size a) (fbb : Buf (Elt F) ((thr d L).loc cc0_scratch1)) (k : ℕ) (h : ¬ k < 64) :
    tailA m d L inb fbb k = tailA1 m d L := by unfold tailA; rw [if_neg h]

/-- The last worker, before its last trip: the fetch of `new` is in flight, delivering the scratch vector filled with it and
    the read share of `new` it borrowed. -/
def tailB0 (fnb : Buf (Elt F) ((thr d L).loc cc0_scratch2)) : sProp 𝕄 :=
  iprop((nW.view.loc (thr d L) ↦[Finset.univ \ nW.view.set]{qW (wL L)} m (nLoc d))
    ∗ Transfers.Flight countersEmb (thr d L) (SemLoc.dma cc0_scratch16.sem) (default : HIx 1) 16384
        iprop((nbW.view.loc (thr d L) ↦{fullShare} View.write (Elt F) nbW.view fnb (npay m d) Finset.univ)
          ∗ nW.view.loc (thr d L) ↦[nW.view.set]{qW (wL L)} m (nLoc d)))
/-- After its last trip: the semaphore at zero, the read share whole, the scratch vector at some contents. -/
def tailB1 : sProp 𝕄 :=
  iprop(semVal (thr d L, SemLoc.dma cc0_scratch16.sem) 0 ∗ (nW.view.loc (thr d L) ↦{qW (wL L)} m (nLoc d)) ∗ ∃ f, nbW.view.loc (thr d L) ↦{fullShare} f)
def tailB (fnb : Buf (Elt F) ((thr d L).loc cc0_scratch2)) (k : ℕ) : sProp 𝕄 :=
  if k < 64 then tailB0 m d L fnb else tailB1 m d L
theorem tailB_lt (fnb : Buf (Elt F) ((thr d L).loc cc0_scratch2)) (k : ℕ) (h : k < 64) : tailB m d L fnb k = tailB0 m d L fnb := by
  unfold tailB; rw [if_pos h]
theorem tailB_ge (fnb : Buf (Elt F) ((thr d L).loc cc0_scratch2)) (k : ℕ) (h : ¬ k < 64) : tailB m d L fnb k = tailB1 m d L := by
  unfold tailB; rw [if_neg h]

/-! ## The trips, as hypotheses -/

variable [FloatOps F]

/-- Trip `k` of the loop takes `pre` to `post`. The region is the loop's, on the arrays and scratch the body table passes
    and the two words computed before the loop. -/
def TripStmt (k : Fin k0_t1_loop.trips) (pre post : sProp 𝕄) : Prop :=
  pre ⊢ wp frame (wpE (defs₀ (F := F)) 𝒱₀ (thr d L) none) Set.univ
      (k0_t1_body (F := F) L nW (Memref.isWhole_whole _) mW (Memref.isWhole_whole _) oW (Memref.isWhole_whole _) bufW (Memref.isWhole_whole _) bbW (Memref.isWhole_whole _) nbW (Memref.isWhole_whole _)
        cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        (wWord L) (bWord L) k ()) fun _ => post

/-- The trips of the loop, over the invariant: every trip but the last carries any frame; the last consumes the tail. -/
structure Trips : Prop where
  step : ∀ (d : Dev nD) (L : grid0.Coords) (k : Fin k0_t1_loop.trips), k.val < 63 →
    ∀ (O : CellTallies nD τ sig (HIx 1)) (W : Waits sig (HIx 1)) (R : sProp 𝕄),
      TripStmt (F := F) d L k iprop(Transfers.MayWaits (thr d L) (none : HIx 1) O ∗ R ∗ Inv m d L O W k.val)
        iprop(Transfers.MayWaits (thr d L) (none : HIx 1) O ∗ R ∗ Inv m d L O W (k.val + 1))
  lastA : ∀ (d : Dev nD) (L : grid0.Coords) (k : Fin k0_t1_loop.trips), k.val = 63 → (wL L).val < 31 →
    ∀ (inb : ∀ a, k0_off1 L a + S8x512.size a ≤ S65536x512.size a) (fbb : Buf (Elt F) ((thr d L).loc cc0_scratch1))
      (O : CellTallies nD τ sig (HIx 1)) (W : Waits sig (HIx 1)),
      TripStmt (F := F) d L k iprop(Transfers.MayWaits (thr d L) (none : HIx 1) O ∗ tailA0 m d L inb fbb ∗ Inv m d L O W k.val)
        iprop(Transfers.MayWaits (thr d L) (none : HIx 1) O ∗ tailA1 m d L ∗ Inv m d L O W (k.val + 1))
  lastB : ∀ (d : Dev nD) (L : grid0.Coords) (k : Fin k0_t1_loop.trips), k.val = 63 → (wL L).val = 31 →
    ∀ (fnb : Buf (Elt F) ((thr d L).loc cc0_scratch2)) (O : CellTallies nD τ sig (HIx 1)) (W : Waits sig (HIx 1)),
      TripStmt (F := F) d L k iprop(Transfers.MayWaits (thr d L) (none : HIx 1) O ∗ tailB0 m d L fnb ∗ Inv m d L O W k.val)
        iprop(Transfers.MayWaits (thr d L) (none : HIx 1) O ∗ tailB1 m d L ∗ Inv m d L O W (k.val + 1))

omit [FloatOps F] in
theorem tailA1_open : tailA1 m d L ⊢ iprop(semVal (thr d L, SemLoc.dma cc0_scratch15.sem) 0 ∗ (mLoc d ↦{Transfers.shareTokN (qW (wL L)) 12} m (mLoc d)) ∗ ∃ f, (thr d L).loc cc0_scratch1 ↦{fullShare} f) := by
  unfold tailA1 tokWhole; exact Entails.of_eq rfl
omit [FloatOps F] in
theorem tailB1_open : tailB1 m d L ⊢ iprop(semVal (thr d L, SemLoc.dma cc0_scratch16.sem) 0 ∗ (nLoc d ↦{qW (wL L)} m (nLoc d)) ∗ ∃ f, (thr d L).loc cc0_scratch2 ↦{fullShare} f) := by
  unfold tailB1; exact Entails.of_eq rfl

/-! ## The invariant carried to the end of the loop -/

omit [FloatOps F] in
/-- After the sixty-fourth trip, a worker that is not the last holds its tail consumed and the invariant at 64. -/
theorem endA (inb : ∀ a, k0_off1 L a + S8x512.size a ≤ S65536x512.size a) (fbb : Buf (Elt F) ((thr d L).loc cc0_scratch1))
    (O : CellTallies nD τ sig (HIx 1)) (W : Waits sig (HIx 1)) (n : ℕ) (hn : n = 64) :
    iprop(Transfers.MayWaits (thr d L) (none : HIx 1) O ∗ tailA m d L inb fbb n ∗ Inv m d L O W n)
      ⊢ iprop(tailA1 m d L ∗ Inv m d L O W 64) := by
  subst hn
  rw [tailA_ge m d L inb fbb 64 (by decide)]
  iintro ⟨-, H⟩
  iexact H

omit [FloatOps F] in
/-- The same for the last worker. -/
theorem endB (fnb : Buf (Elt F) ((thr d L).loc cc0_scratch2))
    (O : CellTallies nD τ sig (HIx 1)) (W : Waits sig (HIx 1)) (n : ℕ) (hn : n = 64) :
    iprop(Transfers.MayWaits (thr d L) (none : HIx 1) O ∗ tailB m d L fnb n ∗ Inv m d L O W n)
      ⊢ iprop(tailB1 m d L ∗ Inv m d L O W 64) := by
  subst hn
  rw [tailB_ge m d L fnb 64 (by decide)]
  iintro ⟨-, H⟩
  iexact H

/-! ## The task -/

/-- One worker's task, from the trips of its loop. -/
theorem tile_body (T : Trips (F := F) m) : TileBody (F := F) m := by
  intro d L hF O W hO
  unfold bodyAt
  simp only [cc0__shift_body_eq_skeleton]; unfold cc0__shift_body_skel
  rw [(K (F := F)).scopedBufs_V hF d (cV L) (jV L), SparseCore.Cfg.scopedSems0_V (Val := Elt F) d (cV L) (jV L), ownSems0_V, ownBufs_V]
  unfold tilePay
  iintro ⟨#Hlv, -, ⟨Hn, Hm, Ho⟩, ⟨⟨%fb, Hbuf⟩, ⟨%fbb, Hbb⟩, ⟨%fnb, Hnb⟩, Hbufs⟩, ⟨Hi0, Hi1, Hi2, Hi3, Hi4, Hi5, Ho0, Ho1, Ho2, Ho3, Ho4, Ho5, Hbs, Hns, Hsems⟩, HO⟩
  ihave Hmw := ((K (F := F)).mayWaits_none (thr := V d (cV L) (jV L)) hO) $$ Hlv
  ihave Hm' := ((Transfers.pointsTo_toks_range (qW (wL L)) 14).1) $$ Hm
  rw [range14]
  icases Hm' with ⟨Hmd, Hm0, Hm1, Hm2, Hm3, Hm4, Hm5, Hm6, Hm7, Hm8, Hm9, Hm10, Hm11, Hm12, Hm13⟩
  ihave Hm0 := (Entails.of_eq (respell_m (F := F) d L _ _)) $$ Hm0
  ihave Hm1 := (Entails.of_eq (respell_m (F := F) d L _ _)) $$ Hm1
  ihave Hm2 := (Entails.of_eq (respell_m (F := F) d L _ _)) $$ Hm2
  ihave Hm3 := (Entails.of_eq (respell_m (F := F) d L _ _)) $$ Hm3
  ihave Hm4 := (Entails.of_eq (respell_m (F := F) d L _ _)) $$ Hm4
  ihave Hm5 := (Entails.of_eq (respell_m (F := F) d L _ _)) $$ Hm5
  ihave Hm12 := (Entails.of_eq (respell_m (F := F) d L _ _)) $$ Hm12
  ihave Hn := (Entails.of_eq (respell_n (F := F) d L _ _)) $$ Hn
  ihave Hbb := (Entails.of_eq (show ((V d (cV L) (jV L)).loc cc0_scratch1 ↦{fullShare} fbb : sProp 𝕄) = (bbW.view.loc (V d (cV L) (jV L)) ↦{fullShare} fbb) from rfl)) $$ Hbb
  ihave Hnb := (Entails.of_eq (show ((V d (cV L) (jV L)).loc cc0_scratch2 ↦{fullShare} fnb : sProp 𝕄) = (nbW.view.loc (V d (cV L) (jV L)) ↦{fullShare} fnb) from rfl)) $$ Hnb
  ihave Hbuf' := (Entails.of_eq (buf_slots (F := F) d L fb)) $$ Hbuf
  icases Hbuf' with ⟨Hs0, Hs1, Hs2, Hs3, Hs4, Hs5⟩
  sl_exec_parts
  have hex : ∀ L : grid0.Coords, (tile_body.sl.v7 L = 1#1 ∧ ¬ k0_cond2 L = 1#1) ∨ (¬ tile_body.sl.v7 L = 1#1 ∧ k0_cond2 L = 1#1) := by decide +kernel
  have hwA : ∀ L : grid0.Coords, k0_cond2 L = 1#1 → (wL L).val < 31 := by decide +kernel
  have hwB : ∀ L : grid0.Coords, ¬ k0_cond2 L = 1#1 → (wL L).val = 31 := by decide +kernel
  have h0 : (0 : ℕ) < 64 := by decide
  have h1 : (1 : ℕ) < 64 := by decide
  have h2 : (2 : ℕ) < 64 := by decide
  have h3 : (3 : ℕ) < 64 := by decide
  have h58 : (58 : ℕ) < 64 := by decide
  have h59 : (59 : ℕ) < 64 := by decide
  have h60 : (60 : ℕ) < 64 := by decide
  have h61 : (61 : ℕ) < 64 := by decide
  have h62 : (62 : ℕ) < 64 := by decide
  have h63 : (63 : ℕ) < 64 := by decide
  have e2 : tile_body.sl.dma0_2 m d L = gpay m d L ⟨0, h0⟩ := by
    unfold tile_body.sl.dma0_2 gpay
    exact pay_congr m d (k0_off2_eq L 0) _ _
  have e3 : tile_body.sl.dma0_3 m d L = gpay m d L ⟨1, h1⟩ := by
    unfold tile_body.sl.dma0_3 gpay
    exact pay_congr m d (k0_off2_eq L 1) _ _
  have e4 : tile_body.sl.dma0_4 m d L = gpay m d L ⟨2, h2⟩ := by
    unfold tile_body.sl.dma0_4 gpay
    exact pay_congr m d (k0_off2_eq L 2) _ _
  have e5 : tile_body.sl.dma0_5 m d L = gpay m d L ⟨3, h3⟩ := by
    unfold tile_body.sl.dma0_5 gpay
    exact pay_congr m d (k0_off2_eq L 3) _ _
  have s1 : ((mW.slice (Rect.unit (s := S65536x512) (k0_off2 L 32#32) S32x512.size (k0_off2_inb L 1)) (fun _ => rfl)).view.set : Finset S65536x512.Idx) = (mChunk L ⟨1, h1⟩).view.set :=
    slice_unit_set_congr mW (k0_off2_eq L 1) _ _
  have s2 : ((mW.slice (Rect.unit (s := S65536x512) (k0_off2 L 64#32) S32x512.size (k0_off2_inb L 2)) (fun _ => rfl)).view.set : Finset S65536x512.Idx) = (mChunk L ⟨2, h2⟩).view.set :=
    slice_unit_set_congr mW (k0_off2_eq L 2) _ _
  have s3 : ((mW.slice (Rect.unit (s := S65536x512) (k0_off2 L 96#32) S32x512.size (k0_off2_inb L 3)) (fun _ => rfl)).view.set : Finset S65536x512.Idx) = (mChunk L ⟨3, h3⟩).view.set :=
    slice_unit_set_congr mW (k0_off2_eq L 3) _ _
  have hh0 : Holds m d L slotM0 ⟨0, h0⟩ (slotM0.view.writes (Elt F) slotM0.view.junk [⟨Rect.whole S32x512, tile_body.sl.dma0_2 m d L⟩]) := by
    rw [e2]; exact holds_landed m d L slotM0 ⟨0, h0⟩ _
  rcases hex L with ⟨hc0, hc1⟩ | ⟨hc0, hc1⟩
  · -- the last worker: `new` is on its way, no boundary rows are fetched
    ihave if1 := (Guarded.elim_pos hc0) $$ if1
    ihave if2 := (Guarded.elim_neg hc1) $$ if2
    icases if2 with ⟨Hbs, Hbb⟩
    ihave Hn := (pointsTo_gset_pos hc0) $$ Hn
    ihave Hm12 := (pointsTo_gset_neg hc1) $$ Hm12
    sl_for (fun (k : Nat) (_ : PUnit) => iprop(Transfers.MayWaits (thr d L) (none : HIx 1) O ∗ tailB m d L fnb k ∗ Inv m d L O W k))
      $$ [Hn if1 HO Hi0 Ho0 Hm0 Hs0 Ho1 Hi1 Hm1 Ho2 Hi2 Hm2 Ho3 Hi3 Hm3 Hi4 Ho4 Hm4 Hs4 Hi5 Ho5 Hm5 Hs5 Ho]
    case region =>
      intro k acc
      by_cases hk : k.val < 63
      · have h := T.step d L k hk O W (tailB0 m d L fnb)
        rw [tailB_lt m d L fnb k.val (by omega), tailB_lt m d L fnb (k.val + 1) (by omega)]
        exact h
      · have hk63 : k.val = 63 := by have := Nat.lt_of_lt_of_le k.isLt k0_t1_abs.2.1; omega
        have h := T.lastB d L k hk63 (hwB L hc1) fnb O W
        rw [tailB_lt m d L fnb k.val (by omega), tailB_ge m d L fnb (k.val + 1) (by omega)]
        exact h
    · -- the invariant before the first trip
      irw [tailB_lt m d L fnb 0 (by decide), Inv_zero m d L O W, outs_zero m d L, tailB0]
      isplitr
      · iexact Hmw
      isplitl [Hn if1]
      · isplitl [Hn]
        · iexact Hn
        · iexact if1
      isplitl [HO]
      · iexists _
        isplitr
        pick_goal 2
        · iexact HO
        · ipureintro
          intro p hp
          rcases Finset.mem_insert.1 hp with hp | hp
          · exact Or.inr (by subst hp; rfl)
          · exact Or.inl hp
      isplitl [Hi0 Ho0 Hm0 Hs0]
      · iapply (held_of m d L slotM0 cc0_scratch3 cc0_scratch9 0 ⟨0, h0⟩ _ hh0)
        isplitl [Hi0]
        · iexact Hi0
        isplitl [Ho0]
        · iexact Ho0
        isplitl [Hm0]
        · iexact Hm0
        · iexact Hs0
      isplitl [Ho1 Hi1 Hm1]
      · iapply (gfl_of m d L slotM1 cc0_scratch4 cc0_scratch10 1 ⟨1, h1⟩ fb _ _ s1 e3)
        isplitl [Ho1]
        · iexact Ho1
        isplitl [Hi1]
        · iexact Hi1
        · iexact Hm1
      isplitl [Ho2 Hi2 Hm2]
      · iapply (gfl_of m d L slotM2 cc0_scratch5 cc0_scratch11 2 ⟨2, h2⟩ fb _ _ s2 e4)
        isplitl [Ho2]
        · iexact Ho2
        isplitl [Hi2]
        · iexact Hi2
        · iexact Hm2
      isplitl [Ho3 Hi3 Hm3]
      · iapply (gfl_of m d L slotM3 cc0_scratch6 cc0_scratch12 3 ⟨3, h3⟩ fb _ _ s3 e5)
        isplitl [Ho3]
        · iexact Ho3
        isplitl [Hi3]
        · iexact Hi3
        · iexact Hm3
      isplitl [Hi4 Ho4 Hm4 Hs4]
      · iapply (free_of m d L slotM4 cc0_scratch7 cc0_scratch13 4 fb)
        isplitl [Hi4]
        · iexact Hi4
        isplitl [Ho4]
        · iexact Ho4
        isplitl [Hm4]
        · iexact Hm4
        · iexact Hs4
      isplitl [Hi5 Ho5 Hm5 Hs5]
      · iapply (free_of m d L slotM5 cc0_scratch8 cc0_scratch14 5 fb)
        isplitl [Hi5]
        · iexact Hi5
        isplitl [Ho5]
        · iexact Ho5
        isplitl [Hm5]
        · iexact Hm5
        · iexact Hs5
      · iexact Ho
    · -- after the loop: the stores of the last six chunks are waited for
      iintro %acc HI
      ihave HI := (endB m d L fnb O W _ trips_eq) $$ HI
      icases HI with ⟨HT, HInv⟩
      ihave HT := (tailB1_open m d L) $$ HT
      icases HT with ⟨Hns, Hn, ⟨%fnb', Hnb⟩⟩
      ihave HInv := (Entails.of_eq (Inv_end m d L O W)) $$ HInv
      icases HInv with ⟨⟨%W', %hW', HO⟩, P4, P5, P0, P1, P2, P3, Houts⟩
      ihave P4 := (sfl_open m d L slotM4 cc0_scratch7 cc0_scratch13 4 ⟨58, h58⟩) $$ P4
      icases P4 with ⟨Hi4, Hm4, ⟨%g4, Fl4⟩⟩
      ihave P5 := (sfl_open m d L slotM5 cc0_scratch8 cc0_scratch14 5 ⟨59, h59⟩) $$ P5
      icases P5 with ⟨Hi5, Hm5, ⟨%g5, Fl5⟩⟩
      ihave P0 := (sfl_open m d L slotM0 cc0_scratch3 cc0_scratch9 0 ⟨60, h60⟩) $$ P0
      icases P0 with ⟨Hi0, Hm0, ⟨%g0, Fl0⟩⟩
      ihave P1 := (sfl_open m d L slotM1 cc0_scratch4 cc0_scratch10 1 ⟨61, h61⟩) $$ P1
      icases P1 with ⟨Hi1, Hm1, ⟨%g1, Fl1⟩⟩
      ihave P2 := (sfl_open m d L slotM2 cc0_scratch5 cc0_scratch11 2 ⟨62, h62⟩) $$ P2
      icases P2 with ⟨Hi2, Hm2, ⟨%g2, Fl2⟩⟩
      ihave P3 := (sfl_open m d L slotM3 cc0_scratch6 cc0_scratch12 3 ⟨63, h63⟩) $$ P3
      icases P3 with ⟨Hi3, Hm3, ⟨%g3, Fl3⟩⟩
      sl_exec_parts
      sl_step
      ihave Hm12 := (Entails.of_eq (respell_m (F := F) d L _ _).symm) $$ Hm12
      ihave Hbb := (Entails.of_eq (show (bbW.view.loc (V d (cV L) (jV L)) ↦{fullShare} fbb : sProp 𝕄) = ((V d (cV L) (jV L)).loc cc0_scratch1 ↦{fullShare} fbb) from rfl)) $$ Hbb
      isplitl [Hn Hmd Hm0 Hm1 Hm2 Hm3 Hm4 Hm5 Hm6 Hm7 Hm8 Hm9 Hm10 Hm11 Hm12 Hm13 Houts Fl4_dst Fl5_dst Fl0_dst Fl1_dst Fl2_dst Fl3_dst]
      · -- the read shares whole again, the band at the result's value
        isplitl [Hn]
        · iexact Hn
        isplitl [Hmd Hm0 Hm1 Hm2 Hm3 Hm4 Hm5 Hm6 Hm7 Hm8 Hm9 Hm10 Hm11 Hm12 Hm13]
        · iapply (Transfers.pointsTo_toks_range (qW (wL L)) 14).2
          irw [range14]
          isplitl [Hmd]
          · iexact Hmd
          isplitl [Hm0]
          · iexact Hm0
          isplitl [Hm1]
          · iexact Hm1
          isplitl [Hm2]
          · iexact Hm2
          isplitl [Hm3]
          · iexact Hm3
          isplitl [Hm4]
          · iexact Hm4
          isplitl [Hm5]
          · iexact Hm5
          isplitl [Hm6]
          · iexact Hm6
          isplitl [Hm7]
          · iexact Hm7
          isplitl [Hm8]
          · iexact Hm8
          isplitl [Hm9]
          · iexact Hm9
          isplitl [Hm10]
          · iexact Hm10
          isplitl [Hm11]
          · iexact Hm11
          isplitl [Hm12]
          · iexact Hm12
          · iexact Hm13
        · iapply (Entails.of_eq (outs_final_band m d L ⟨58, h58⟩ ⟨59, h59⟩ ⟨60, h60⟩ ⟨61, h61⟩ ⟨62, h62⟩ ⟨63, h63⟩ rfl rfl rfl rfl rfl rfl))
          isplitl [Fl4_dst]
          · iexact Fl4_dst
          isplitl [Fl5_dst]
          · iexact Fl5_dst
          isplitl [Fl0_dst]
          · iexact Fl0_dst
          isplitl [Fl1_dst]
          · iexact Fl1_dst
          isplitl [Fl2_dst]
          · iexact Fl2_dst
          isplitl [Fl3_dst]
          · iexact Fl3_dst
          · iexact Houts
      isplitl [Fl0_src Fl1_src Fl2_src Fl3_src Fl4_src Fl5_src Hbb Hnb Hbufs]
      · -- the scratch back, at some contents
        isplitl [Fl0_src Fl1_src Fl2_src Fl3_src Fl4_src Fl5_src]
        · iapply (slots_join d L g0 g1 g2 g3 g4 g5)
          isplitl [Fl0_src]
          · iexact Fl0_src
          isplitl [Fl1_src]
          · iexact Fl1_src
          isplitl [Fl2_src]
          · iexact Fl2_src
          isplitl [Fl3_src]
          · iexact Fl3_src
          isplitl [Fl4_src]
          · iexact Fl4_src
          · iexact Fl5_src
        isplitl [Hbb]
        · iexists _
          iexact Hbb
        isplitl [Hnb]
        · iexists _
          iexact Hnb
        · iexact Hbufs
      isplitl [Hi0 Hi1 Hi2 Hi3 Hi4 Hi5 Fl0 Fl1 Fl2 Fl3 Fl4 Fl5 Hbs Hns Hsems]
      · -- the semaphores at zero
        isplitl [Hi0]
        · iexact Hi0
        isplitl [Hi1]
        · iexact Hi1
        isplitl [Hi2]
        · iexact Hi2
        isplitl [Hi3]
        · iexact Hi3
        isplitl [Hi4]
        · iexact Hi4
        isplitl [Hi5]
        · iexact Hi5
        isplitl [Fl0]
        · iexact Fl0
        isplitl [Fl1]
        · iexact Fl1
        isplitl [Fl2]
        · iexact Fl2
        isplitl [Fl3]
        · iexact Fl3
        isplitl [Fl4]
        · iexact Fl4
        isplitl [Fl5]
        · iexact Fl5
        isplitl [Hbs]
        · iexact Hbs
        isplitl [Hns]
        · iexact Hns
        · iexact Hsems
      iexists _
      isplitr
      pick_goal 2
      · iexact HO
      · ipureintro
        intro p hp
        simp only [Finset.mem_insert] at hp
        rcases hp with hp | hp | hp | hp | hp | hp | hp
        · exact Or.inr (by subst hp; rfl)
        · exact Or.inr (by subst hp; rfl)
        · exact Or.inr (by subst hp; rfl)
        · exact Or.inr (by subst hp; rfl)
        · exact Or.inr (by subst hp; rfl)
        · exact Or.inr (by subst hp; rfl)
        · exact hW' p hp
  · -- every worker but the last: the boundary rows are on their way, `new` is not fetched
    ihave if1 := (Guarded.elim_neg hc0) $$ if1
    icases if1 with ⟨Hns, Hnb⟩
    ihave if2 := (Guarded.elim_pos hc1) $$ if2
    ihave Hn := (pointsTo_gset_neg hc0) $$ Hn
    ihave Hm12 := (pointsTo_gset_pos hc1) $$ Hm12
    sl_for (fun (k : Nat) (_ : PUnit) => iprop(Transfers.MayWaits (thr d L) (none : HIx 1) O ∗ tailA m d L (k0_off1_inb L hc1) fbb k ∗ Inv m d L O W k))
      $$ [Hm12 if2 HO Hi0 Ho0 Hm0 Hs0 Ho1 Hi1 Hm1 Ho2 Hi2 Hm2 Ho3 Hi3 Hm3 Hi4 Ho4 Hm4 Hs4 Hi5 Ho5 Hm5 Hs5 Ho]
    case region =>
      intro k acc
      by_cases hk : k.val < 63
      · have h := T.step d L k hk O W (tailA0 m d L (k0_off1_inb L hc1) fbb)
        rw [tailA_lt m d L (k0_off1_inb L hc1) fbb k.val (by omega), tailA_lt m d L (k0_off1_inb L hc1) fbb (k.val + 1) (by omega)]
        exact h
      · have hk63 : k.val = 63 := by have := Nat.lt_of_lt_of_le k.isLt k0_t1_abs.2.1; omega
        have h := T.lastA d L k hk63 (hwA L hc1) (k0_off1_inb L hc1) fbb O W
        rw [tailA_lt m d L (k0_off1_inb L hc1) fbb k.val (by omega), tailA_ge m d L (k0_off1_inb L hc1) fbb (k.val + 1) (by omega)]
        exact h
    · -- the invariant before the first trip
      irw [tailA_lt m d L (k0_off1_inb L hc1) fbb 0 (by decide), Inv_zero m d L O W, outs_zero m d L, tailA0]
      isplitr
      · iexact Hmw
      isplitl [Hm12 if2]
      · isplitl [Hm12]
        · iexact Hm12
        · iexact if2
      isplitl [HO]
      · iexists _
        isplitr
        pick_goal 2
        · iexact HO
        · ipureintro
          intro p hp
          rcases Finset.mem_insert.1 hp with hp | hp
          · exact Or.inr (by subst hp; rfl)
          · exact Or.inl hp
      isplitl [Hi0 Ho0 Hm0 Hs0]
      · iapply (held_of m d L slotM0 cc0_scratch3 cc0_scratch9 0 ⟨0, h0⟩ _ hh0)
        isplitl [Hi0]
        · iexact Hi0
        isplitl [Ho0]
        · iexact Ho0
        isplitl [Hm0]
        · iexact Hm0
        · iexact Hs0
      isplitl [Ho1 Hi1 Hm1]
      · iapply (gfl_of m d L slotM1 cc0_scratch4 cc0_scratch10 1 ⟨1, h1⟩ fb _ _ s1 e3)
        isplitl [Ho1]
        · iexact Ho1
        isplitl [Hi1]
        · iexact Hi1
        · iexact Hm1
      isplitl [Ho2 Hi2 Hm2]
      · iapply (gfl_of m d L slotM2 cc0_scratch5 cc0_scratch11 2 ⟨2, h2⟩ fb _ _ s2 e4)
        isplitl [Ho2]
        · iexact Ho2
        isplitl [Hi2]
        · iexact Hi2
        · iexact Hm2
      isplitl [Ho3 Hi3 Hm3]
      · iapply (gfl_of m d L slotM3 cc0_scratch6 cc0_scratch12 3 ⟨3, h3⟩ fb _ _ s3 e5)
        isplitl [Ho3]
        · iexact Ho3
        isplitl [Hi3]
        · iexact Hi3
        · iexact Hm3
      isplitl [Hi4 Ho4 Hm4 Hs4]
      · iapply (free_of m d L slotM4 cc0_scratch7 cc0_scratch13 4 fb)
        isplitl [Hi4]
        · iexact Hi4
        isplitl [Ho4]
        · iexact Ho4
        isplitl [Hm4]
        · iexact Hm4
        · iexact Hs4
      isplitl [Hi5 Ho5 Hm5 Hs5]
      · iapply (free_of m d L slotM5 cc0_scratch8 cc0_scratch14 5 fb)
        isplitl [Hi5]
        · iexact Hi5
        isplitl [Ho5]
        · iexact Ho5
        isplitl [Hm5]
        · iexact Hm5
        · iexact Hs5
      · iexact Ho
    · -- after the loop: the stores of the last six chunks are waited for
      iintro %acc HI
      ihave HI := (endA m d L (k0_off1_inb L hc1) fbb O W _ trips_eq) $$ HI
      icases HI with ⟨HT, HInv⟩
      ihave HT := (tailA1_open m d L) $$ HT
      icases HT with ⟨Hbs, Hm12, ⟨%fbb', Hbb⟩⟩
      ihave HInv := (Entails.of_eq (Inv_end m d L O W)) $$ HInv
      icases HInv with ⟨⟨%W', %hW', HO⟩, P4, P5, P0, P1, P2, P3, Houts⟩
      ihave P4 := (sfl_open m d L slotM4 cc0_scratch7 cc0_scratch13 4 ⟨58, h58⟩) $$ P4
      icases P4 with ⟨Hi4, Hm4, ⟨%g4, Fl4⟩⟩
      ihave P5 := (sfl_open m d L slotM5 cc0_scratch8 cc0_scratch14 5 ⟨59, h59⟩) $$ P5
      icases P5 with ⟨Hi5, Hm5, ⟨%g5, Fl5⟩⟩
      ihave P0 := (sfl_open m d L slotM0 cc0_scratch3 cc0_scratch9 0 ⟨60, h60⟩) $$ P0
      icases P0 with ⟨Hi0, Hm0, ⟨%g0, Fl0⟩⟩
      ihave P1 := (sfl_open m d L slotM1 cc0_scratch4 cc0_scratch10 1 ⟨61, h61⟩) $$ P1
      icases P1 with ⟨Hi1, Hm1, ⟨%g1, Fl1⟩⟩
      ihave P2 := (sfl_open m d L slotM2 cc0_scratch5 cc0_scratch11 2 ⟨62, h62⟩) $$ P2
      icases P2 with ⟨Hi2, Hm2, ⟨%g2, Fl2⟩⟩
      ihave P3 := (sfl_open m d L slotM3 cc0_scratch6 cc0_scratch12 3 ⟨63, h63⟩) $$ P3
      icases P3 with ⟨Hi3, Hm3, ⟨%g3, Fl3⟩⟩
      sl_exec_parts
      sl_step
      ihave Hn := (Entails.of_eq (respell_n (F := F) d L _ _).symm) $$ Hn
      ihave Hnb := (Entails.of_eq (show (nbW.view.loc (V d (cV L) (jV L)) ↦{fullShare} fnb : sProp 𝕄) = ((V d (cV L) (jV L)).loc cc0_scratch2 ↦{fullShare} fnb) from rfl)) $$ Hnb
      isplitl [Hn Hmd Hm0 Hm1 Hm2 Hm3 Hm4 Hm5 Hm6 Hm7 Hm8 Hm9 Hm10 Hm11 Hm12 Hm13 Houts Fl4_dst Fl5_dst Fl0_dst Fl1_dst Fl2_dst Fl3_dst]
      · -- the read shares whole again, the band at the result's value
        isplitl [Hn]
        · iexact Hn
        isplitl [Hmd Hm0 Hm1 Hm2 Hm3 Hm4 Hm5 Hm6 Hm7 Hm8 Hm9 Hm10 Hm11 Hm12 Hm13]
        · iapply (Transfers.pointsTo_toks_range (qW (wL L)) 14).2
          irw [range14]
          isplitl [Hmd]
          · iexact Hmd
          isplitl [Hm0]
          · iexact Hm0
          isplitl [Hm1]
          · iexact Hm1
          isplitl [Hm2]
          · iexact Hm2
          isplitl [Hm3]
          · iexact Hm3
          isplitl [Hm4]
          · iexact Hm4
          isplitl [Hm5]
          · iexact Hm5
          isplitl [Hm6]
          · iexact Hm6
          isplitl [Hm7]
          · iexact Hm7
          isplitl [Hm8]
          · iexact Hm8
          isplitl [Hm9]
          · iexact Hm9
          isplitl [Hm10]
          · iexact Hm10
          isplitl [Hm11]
          · iexact Hm11
          isplitl [Hm12]
          · iexact Hm12
          · iexact Hm13
        · iapply (Entails.of_eq (outs_final_band m d L ⟨58, h58⟩ ⟨59, h59⟩ ⟨60, h60⟩ ⟨61, h61⟩ ⟨62, h62⟩ ⟨63, h63⟩ rfl rfl rfl rfl rfl rfl))
          isplitl [Fl4_dst]
          · iexact Fl4_dst
          isplitl [Fl5_dst]
          · iexact Fl5_dst
          isplitl [Fl0_dst]
          · iexact Fl0_dst
          isplitl [Fl1_dst]
          · iexact Fl1_dst
          isplitl [Fl2_dst]
          · iexact Fl2_dst
          isplitl [Fl3_dst]
          · iexact Fl3_dst
          · iexact Houts
      isplitl [Fl0_src Fl1_src Fl2_src Fl3_src Fl4_src Fl5_src Hbb Hnb Hbufs]
      · -- the scratch back, at some contents
        isplitl [Fl0_src Fl1_src Fl2_src Fl3_src Fl4_src Fl5_src]
        · iapply (slots_join d L g0 g1 g2 g3 g4 g5)
          isplitl [Fl0_src]
          · iexact Fl0_src
          isplitl [Fl1_src]
          · iexact Fl1_src
          isplitl [Fl2_src]
          · iexact Fl2_src
          isplitl [Fl3_src]
          · iexact Fl3_src
          isplitl [Fl4_src]
          · iexact Fl4_src
          · iexact Fl5_src
        isplitl [Hbb]
        · iexists _
          iexact Hbb
        isplitl [Hnb]
        · iexists _
          iexact Hnb
        · iexact Hbufs
      isplitl [Hi0 Hi1 Hi2 Hi3 Hi4 Hi5 Fl0 Fl1 Fl2 Fl3 Fl4 Fl5 Hbs Hns Hsems]
      · -- the semaphores at zero
        isplitl [Hi0]
        · iexact Hi0
        isplitl [Hi1]
        · iexact Hi1
        isplitl [Hi2]
        · iexact Hi2
        isplitl [Hi3]
        · iexact Hi3
        isplitl [Hi4]
        · iexact Hi4
        isplitl [Hi5]
        · iexact Hi5
        isplitl [Fl0]
        · iexact Fl0
        isplitl [Fl1]
        · iexact Fl1
        isplitl [Fl2]
        · iexact Fl2
        isplitl [Fl3]
        · iexact Fl3
        isplitl [Fl4]
        · iexact Fl4
        isplitl [Fl5]
        · iexact Fl5
        isplitl [Hbs]
        · iexact Hbs
        isplitl [Hns]
        · iexact Hns
        · iexact Hsems
      iexists _
      isplitr
      pick_goal 2
      · iexact HO
      · ipureintro
        intro p hp
        simp only [Finset.mem_insert] at hp
        rcases hp with hp | hp | hp | hp | hp | hp | hp
        · exact Or.inr (by subst hp; rfl)
        · exact Or.inr (by subst hp; rfl)
        · exact Or.inr (by subst hp; rfl)
        · exact Or.inr (by subst hp; rfl)
        · exact Or.inr (by subst hp; rfl)
        · exact Or.inr (by subst hp; rfl)
        · exact hW' p hp

/-! ## The trips, rotation by rotation -/

/-- The invariant with the ring read from slot 0 on: the form it takes at the trips congruent to 0 modulo 6. -/
abbrev InvR0 (O : CellTallies nD τ sig (HIx 1)) (W : Waits sig (HIx 1)) (k : ℕ) : sProp 𝕄 :=
  InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k
/-- The invariant with the ring read from slot 1 on: the form it takes at the trips congruent to 1 modulo 6. -/
abbrev InvR1 (O : CellTallies nD τ sig (HIx 1)) (W : Waits sig (HIx 1)) (k : ℕ) : sProp 𝕄 :=
  InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k
/-- The invariant with the ring read from slot 2 on: the form it takes at the trips congruent to 2 modulo 6. -/
abbrev InvR2 (O : CellTallies nD τ sig (HIx 1)) (W : Waits sig (HIx 1)) (k : ℕ) : sProp 𝕄 :=
  InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k
/-- The invariant with the ring read from slot 3 on: the form it takes at the trips congruent to 3 modulo 6. -/
abbrev InvR3 (O : CellTallies nD τ sig (HIx 1)) (W : Waits sig (HIx 1)) (k : ℕ) : sProp 𝕄 :=
  InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k
/-- The invariant with the ring read from slot 4 on: the form it takes at the trips congruent to 4 modulo 6. -/
abbrev InvR4 (O : CellTallies nD τ sig (HIx 1)) (W : Waits sig (HIx 1)) (k : ℕ) : sProp 𝕄 :=
  InvGen m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W k
/-- The invariant with the ring read from slot 5 on: the form it takes at the trips congruent to 5 modulo 6. -/
abbrev InvR5 (O : CellTallies nD τ sig (HIx 1)) (W : Waits sig (HIx 1)) (k : ℕ) : sProp 𝕄 :=
  InvGen m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W k

/-- The trips stated per rotation of the ring and per range of the trip number (before the first store is waited for; the
    steady range; after the look-ahead has stopped; the last trip, for the two kinds of worker). -/
structure RotTrips : Prop where
  early0 : ∀ (d : Dev nD) (L : grid0.Coords) (k : Fin k0_t1_loop.trips), k.val % 6 = 0 → k.val < 2 → ∀ (O : CellTallies nD τ sig (HIx 1)) (W : Waits sig (HIx 1)) (R : sProp 𝕄),
    TripStmt (F := F) d L k iprop(Transfers.MayWaits (thr d L) (none : HIx 1) O ∗ R ∗ InvR0 m d L O W k.val) iprop(Transfers.MayWaits (thr d L) (none : HIx 1) O ∗ R ∗ InvR1 m d L O W (k.val + 1))
  early1 : ∀ (d : Dev nD) (L : grid0.Coords) (k : Fin k0_t1_loop.trips), k.val % 6 = 1 → k.val < 2 → ∀ (O : CellTallies nD τ sig (HIx 1)) (W : Waits sig (HIx 1)) (R : sProp 𝕄),
    TripStmt (F := F) d L k iprop(Transfers.MayWaits (thr d L) (none : HIx 1) O ∗ R ∗ InvR1 m d L O W k.val) iprop(Transfers.MayWaits (thr d L) (none : HIx 1) O ∗ R ∗ InvR2 m d L O W (k.val + 1))
  steady0 : ∀ (d : Dev nD) (L : grid0.Coords) (k : Fin k0_t1_loop.trips), k.val % 6 = 0 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR0 m d L O W k.val) iprop(Transfers.MayWaits (thr d L) (none : HIx 1) O ∗ R ∗ InvR1 m d L O W (k.val + 1))
  steady1 : ∀ (d : Dev nD) (L : grid0.Coords) (k : Fin k0_t1_loop.trips), k.val % 6 = 1 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR1 m d L O W k.val) iprop(Transfers.MayWaits (thr d L) (none : HIx 1) O ∗ R ∗ InvR2 m d L O W (k.val + 1))
  steady2 : ∀ (d : Dev nD) (L : grid0.Coords) (k : Fin k0_t1_loop.trips), k.val % 6 = 2 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR2 m d L O W k.val) iprop(Transfers.MayWaits (thr d L) (none : HIx 1) O ∗ R ∗ InvR3 m d L O W (k.val + 1))
  steady3 : ∀ (d : Dev nD) (L : grid0.Coords) (k : Fin k0_t1_loop.trips), k.val % 6 = 3 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR3 m d L O W k.val) iprop(Transfers.MayWaits (thr d L) (none : HIx 1) O ∗ R ∗ InvR4 m d L O W (k.val + 1))
  steady4 : ∀ (d : Dev nD) (L : grid0.Coords) (k : Fin k0_t1_loop.trips), k.val % 6 = 4 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR4 m d L O W k.val) iprop(Transfers.MayWaits (thr d L) (none : HIx 1) O ∗ R ∗ InvR5 m d L O W (k.val + 1))
  steady5 : ∀ (d : Dev nD) (L : grid0.Coords) (k : Fin k0_t1_loop.trips), k.val % 6 = 5 → 2 ≤ k.val → k.val < 60 → ∀ (O : CellTallies nD τ sig (HIx 1)) (W : Waits sig (HIx 1)) (R : sProp 𝕄),
    TripStmt (F := F) d L k iprop(Transfers.MayWaits (thr d L) (none : HIx 1) O ∗ R ∗ InvR5 m d L O W k.val) iprop(Transfers.MayWaits (thr d L) (none : HIx 1) O ∗ R ∗ InvR0 m d L O W (k.val + 1))
  late0 : ∀ (d : Dev nD) (L : grid0.Coords) (k : Fin k0_t1_loop.trips), k.val % 6 = 0 → 60 ≤ k.val → k.val < 63 → ∀ (O : CellTallies nD τ sig (HIx 1)) (W : Waits sig (HIx 1)) (R : sProp 𝕄),
    TripStmt (F := F) d L k iprop(Transfers.MayWaits (thr d L) (none : HIx 1) O ∗ R ∗ InvR0 m d L O W k.val) iprop(Transfers.MayWaits (thr d L) (none : HIx 1) O ∗ R ∗ InvR1 m d L O W (k.val + 1))
  late1 : ∀ (d : Dev nD) (L : grid0.Coords) (k : Fin k0_t1_loop.trips), k.val % 6 = 1 → 60 ≤ k.val → k.val < 63 → ∀ (O : CellTallies nD τ sig (HIx 1)) (W : Waits sig (HIx 1)) (R : sProp 𝕄),
    TripStmt (F := F) d L k iprop(Transfers.MayWaits (thr d L) (none : HIx 1) O ∗ R ∗ InvR1 m d L O W k.val) iprop(Transfers.MayWaits (thr d L) (none : HIx 1) O ∗ R ∗ InvR2 m d L O W (k.val + 1))
  late2 : ∀ (d : Dev nD) (L : grid0.Coords) (k : Fin k0_t1_loop.trips), k.val % 6 = 2 → 60 ≤ k.val → k.val < 63 → ∀ (O : CellTallies nD τ sig (HIx 1)) (W : Waits sig (HIx 1)) (R : sProp 𝕄),
    TripStmt (F := F) d L k iprop(Transfers.MayWaits (thr d L) (none : HIx 1) O ∗ R ∗ InvR2 m d L O W k.val) iprop(Transfers.MayWaits (thr d L) (none : HIx 1) O ∗ R ∗ InvR3 m d L O W (k.val + 1))
  lastA : ∀ (d : Dev nD) (L : grid0.Coords) (k : Fin k0_t1_loop.trips), k.val = 63 → (wL L).val < 31 →
    ∀ (inb : ∀ a, k0_off1 L a + S8x512.size a ≤ S65536x512.size a) (fbb : Buf (Elt F) ((thr d L).loc cc0_scratch1))
      (O : CellTallies nD τ sig (HIx 1)) (W : Waits sig (HIx 1)),
      TripStmt (F := F) d L k iprop(Transfers.MayWaits (thr d L) (none : HIx 1) O ∗ tailA0 m d L inb fbb ∗ InvR3 m d L O W k.val) iprop(Transfers.MayWaits (thr d L) (none : HIx 1) O ∗ tailA1 m d L ∗ InvR4 m d L O W (k.val + 1))
  lastB : ∀ (d : Dev nD) (L : grid0.Coords) (k : Fin k0_t1_loop.trips), k.val = 63 → (wL L).val = 31 →
    ∀ (fnb : Buf (Elt F) ((thr d L).loc cc0_scratch2)) (O : CellTallies nD τ sig (HIx 1)) (W : Waits sig (HIx 1)),
      TripStmt (F := F) d L k iprop(Transfers.MayWaits (thr d L) (none : HIx 1) O ∗ tailB0 m d L fnb ∗ InvR3 m d L O W k.val) iprop(Transfers.MayWaits (thr d L) (none : HIx 1) O ∗ tailB1 m d L ∗ InvR4 m d L O W (k.val + 1))

/-- The trips over the invariant, from the trips per rotation: the invariant at trip `k` is the rotation `k mod 6`. -/
theorem trips_of_rot (h : RotTrips (F := F) m) : Trips (F := F) m where
  step := by
    intro d L k hk O W R
    rcases (by omega : k.val % 6 = 0 ∨ k.val % 6 = 1 ∨ k.val % 6 = 2 ∨ k.val % 6 = 3 ∨ k.val % 6 = 4 ∨ k.val % 6 = 5) with h6 | h6 | h6 | h6 | h6 | h6
    · rw [Inv_mod0 m d L O W k.val h6, Inv_mod1 m d L O W (k.val + 1) (by omega)]
      rcases (by omega : k.val < 2 ∨ (2 ≤ k.val ∧ k.val < 60) ∨ 60 ≤ k.val) with a | ⟨a, b⟩ | a
      · exact h.early0 d L k h6 a O W R
      · exact h.steady0 d L k h6 a b O W R
      · exact h.late0 d L k h6 a hk O W R
    · rw [Inv_mod1 m d L O W k.val h6, Inv_mod2 m d L O W (k.val + 1) (by omega)]
      rcases (by omega : k.val < 2 ∨ (2 ≤ k.val ∧ k.val < 60) ∨ 60 ≤ k.val) with a | ⟨a, b⟩ | a
      · exact h.early1 d L k h6 a O W R
      · exact h.steady1 d L k h6 a b O W R
      · exact h.late1 d L k h6 a hk O W R
    · rw [Inv_mod2 m d L O W k.val h6, Inv_mod3 m d L O W (k.val + 1) (by omega)]
      rcases (by omega : k.val < 2 ∨ (2 ≤ k.val ∧ k.val < 60) ∨ 60 ≤ k.val) with a | ⟨a, b⟩ | a
      · omega
      · exact h.steady2 d L k h6 a b O W R
      · exact h.late2 d L k h6 a hk O W R
    · rw [Inv_mod3 m d L O W k.val h6, Inv_mod4 m d L O W (k.val + 1) (by omega)]
      rcases (by omega : k.val < 2 ∨ (2 ≤ k.val ∧ k.val < 60) ∨ 60 ≤ k.val) with a | ⟨a, b⟩ | a
      · omega
      · exact h.steady3 d L k h6 a b O W R
      · omega
    · rw [Inv_mod4 m d L O W k.val h6, Inv_mod5 m d L O W (k.val + 1) (by omega)]
      rcases (by omega : k.val < 2 ∨ (2 ≤ k.val ∧ k.val < 60) ∨ 60 ≤ k.val) with a | ⟨a, b⟩ | a
      · omega
      · exact h.steady4 d L k h6 a b O W R
      · omega
    · rw [Inv_mod5 m d L O W k.val h6, Inv_mod0 m d L O W (k.val + 1) (by omega)]
      rcases (by omega : k.val < 2 ∨ (2 ≤ k.val ∧ k.val < 60) ∨ 60 ≤ k.val) with a | ⟨a, b⟩ | a
      · omega
      · exact h.steady5 d L k h6 a b O W R
      · omega
  lastA := by
    intro d L k hk hw inb fbb O W
    rw [Inv_mod3 m d L O W k.val (by omega), Inv_mod4 m d L O W (k.val + 1) (by omega)]
    exact h.lastA d L k hk hw inb fbb O W
  lastB := by
    intro d L k hk hw fnb O W
    rw [Inv_mod3 m d L O W k.val (by omega), Inv_mod4 m d L O W (k.val + 1) (by omega)]
    exact h.lastB d L k hk hw fnb O W

end Cert.Proof.BitsK

end
-- ==== Proof.BitsRot.lean ====
/-
  The row rotation of one slot of the scratch ring, as pure mathematics. The ring is a 6 x 32 x 512 array. One step copies
  sixteen lanes of one row onto the same lanes of another row: the box of one row and sixteen lanes at `src` is read and
  written through the box at `dst`. Rotating slot `b` up by one row is 992 such steps, pair number `n = 32 r + c` moving lanes
  `16 c … 16 c + 15` of row `r + 1` to row `r`, in increasing order of `n`: after `n` steps exactly the pairs below `n` hold
  the row above them. Then row 31 of the slot is filled, sixteen lanes at a time, from row 0 of another slot. Read through
  the slot's own 32 x 512 view, the result is: row `r` is the old row `r + 1` for `r < 31`, and row 31 is row 0 of the other slot.
-/
import proofs.«213455_g39170101740086_cont_8to1_b_302_25_alg».proof.Proof.BitsSlots
import Idealize.ShloMosaic.Lib.Pipeline.Value
import Idealize.ShloMosaic.Lib.ValueIdx

noncomputable section

namespace Cert.Proof.BitsK
open Cert.Kernel Cert.Kernel.Gen

open Idealize.ShloMosaic

variable {F : FTy → Type}

/-! ## Contents and indices of the ring -/

/-- The contents of the scratch ring: a value at every index of the 6 x 32 x 512 array. -/
abbrev Ring (F : FTy → Type) : Type := (bufW : Memref sig .scVector .vmem S6x32x512 .f32).view.ty.Contents (Elt F)

/-- The index `(a, b, c)` of the ring, each coordinate clamped into its range. -/
def ixC (a b c : ℕ) : S6x32x512.Idx :=
  ValueIdx.ix3 (⟨min a 5, by omega⟩ : Fin 6) (⟨min b 31, by omega⟩ : Fin 32) (⟨min c 511, by omega⟩ : Fin 512)

theorem ixC_0 (a b c : ℕ) : (ixC a b c 0).val = min a 5 := rfl
theorem ixC_1 (a b c : ℕ) : (ixC a b c 1).val = min b 31 := rfl
theorem ixC_2 (a b c : ℕ) : (ixC a b c 2).val = min c 511 := rfl

/-- Two indices of the ring with equal coordinates are equal. -/
theorem ext3 {x y : S6x32x512.Idx} (h0 : (x 0).val = (y 0).val) (h1 : (x 1).val = (y 1).val) (h2 : (x 2).val = (y 2).val) : x = y :=
  funext fun a => Fin.ext (match a with | ⟨0, _⟩ => h0 | ⟨1, _⟩ => h1 | ⟨2, _⟩ => h2)

theorem idx0_lt (x : S6x32x512.Idx) : (x 0).val < 6 := (x 0).isLt
theorem idx1_lt (x : S6x32x512.Idx) : (x 1).val < 32 := (x 1).isLt
theorem idx2_lt (x : S6x32x512.Idx) : (x 2).val < 512 := (x 2).isLt

/-! ## One step: sixteen lanes of one row onto another -/

/-- The ring after the sixteen lanes at `src` are read and stored through the sixteen lanes at `dst`. -/
def cp16 (f : Ring F) (dst src : Fin 3 → ℕ) (hd : ∀ a, dst a + S1x1x16.size a ≤ S6x32x512.size a)
    (hs : ∀ a, src a + S1x1x16.size a ≤ S6x32x512.size a) : Ring F :=
  View.write (Elt F) (bufW.access (Rect.unit (s := S6x32x512) dst S1x1x16.size hd)) f
    (shapeCast S1x1x16 (shapeCast S16 (bufW.view.readAt (Elt F) (Rect.unit (s := S6x32x512) src S1x1x16.size hs).toLoadRect f) shapeCasts_S1x1x16_S16)
      shapeCasts_S16_S1x1x16) Finset.univ

/-- The sixteen-lane box at `off`: row `(off 0, off 1)`, lanes `off 2 … off 2 + 15`. -/
def inBox (off : Fin 3 → ℕ) (idx : S6x32x512.Idx) : Prop :=
  (idx 0).val = off 0 ∧ (idx 1).val = off 1 ∧ off 2 ≤ (idx 2).val ∧ (idx 2).val < off 2 + 16

instance (off : Fin 3 → ℕ) (idx : S6x32x512.Idx) : Decidable (inBox off idx) := by unfold inBox; infer_instance

theorem mem_box (off : Fin 3 → ℕ) (inb : ∀ a, off a + S1x1x16.size a ≤ S6x32x512.size a) (idx : S6x32x512.Idx) :
    idx ∈ (Rect.unit (s := S6x32x512) off S1x1x16.size inb).set ↔ inBox off idx := by
  rw [Rect.mem_set_unit]
  constructor
  · intro h
    have h0 : off 0 ≤ (idx 0).val ∧ (idx 0).val < off 0 + 1 := h 0
    have h1 : off 1 ≤ (idx 1).val ∧ (idx 1).val < off 1 + 1 := h 1
    have h2 : off 2 ≤ (idx 2).val ∧ (idx 2).val < off 2 + 16 := h 2
    exact ⟨by omega, by omega, h2.1, h2.2⟩
  · rintro ⟨e0, e1, l2, u2⟩ a
    match a with
    | ⟨0, _⟩ => exact (show off 0 ≤ (idx 0).val ∧ (idx 0).val < off 0 + 1 from by omega)
    | ⟨1, _⟩ => exact (show off 1 ≤ (idx 1).val ∧ (idx 1).val < off 1 + 1 from by omega)
    | ⟨2, _⟩ => exact (show off 2 ≤ (idx 2).val ∧ (idx 2).val < off 2 + 16 from ⟨l2, u2⟩)

/-- Casting sixteen lanes to a vector and back changes nothing. -/
theorem cast16 {α : Type} (v : S1x1x16.Idx → α) (x : S1x1x16.Idx) :
    shapeCast S1x1x16 (shapeCast S16 v shapeCasts_S1x1x16_S16) shapeCasts_S16_S1x1x16 x = v x :=
  congrFun (shapeCast_shapeCast v _ _) x

/-- One step, index by index: inside the destination box the ring takes the source box's value at the same lane offset;
    elsewhere it is unchanged. -/
theorem cp16_apply (f : Ring F) (dst src : Fin 3 → ℕ) (hd : ∀ a, dst a + S1x1x16.size a ≤ S6x32x512.size a)
    (hs : ∀ a, src a + S1x1x16.size a ≤ S6x32x512.size a) (idx : S6x32x512.Idx) :
    cp16 f dst src hd hs idx = if inBox dst idx then f (ixC (src 0) (src 1) (src 2 + ((idx 2).val - dst 2))) else f idx := by
  unfold cp16
  by_cases hin : inBox dst idx
  · rw [if_pos hin]
    obtain ⟨e0, e1, l2, u2⟩ := hin
    have hs0 : src 0 + 1 ≤ 6 := hs 0
    have hs1 : src 1 + 1 ≤ 32 := hs 1
    have hs2 : src 2 + 16 ≤ 512 := hs 2
    let x : S1x1x16.Idx := ValueIdx.ix3 (⟨0, by decide⟩ : Fin 1) (⟨0, by decide⟩ : Fin 1) (⟨(idx 2).val - dst 2, by omega⟩ : Fin 16)
    have hx : idx = (bufW.access (Rect.unit (s := S6x32x512) dst S1x1x16.size hd)).emb x :=
      ext3 (by show (idx 0).val = dst 0 + 1 * 0; omega) (by show (idx 1).val = dst 1 + 1 * 0; omega)
        (by show (idx 2).val = dst 2 + 1 * ((idx 2).val - dst 2); omega)
    refine (congrArg (View.write (Elt F) (bufW.access (Rect.unit (s := S6x32x512) dst S1x1x16.size hd)) f _ Finset.univ) hx).trans ?_
    rw [View.write_emb_of_mem _ _ (Finset.mem_univ x), cast_eq]
    refine (cast16 _ x).trans ?_
    rw [View.readAt_apply, View.read_apply, cast_eq]
    refine congrArg f (ext3 ?_ ?_ ?_)
    · show src 0 + 1 * 0 = min (src 0) 5; omega
    · show src 1 + 1 * 0 = min (src 1) 31; omega
    · show src 2 + 1 * ((idx 2).val - dst 2) = min (src 2 + ((idx 2).val - dst 2)) 511; omega
  · rw [if_neg hin]
    refine View.write_of_not_mem _ _ _ fun hmem => hin ((mem_box dst hd idx).mp ?_)
    have e : (bufW.access (Rect.unit (s := S6x32x512) dst S1x1x16.size hd)).setOn Finset.univ = (Rect.unit (s := S6x32x512) dst S1x1x16.size hd).set :=
      View.set_slice_whole _ _
    exact e ▸ hmem

/-! ## The rotation, step by step -/

/-- After `n` steps of rotating slot `b`: the pairs (row, lane block) numbered below `n` hold the row above; all else is as before. -/
def Rot (b n : ℕ) (f g : Ring F) : Prop :=
  ∀ idx : S6x32x512.Idx, g idx = if (idx 0).val = b ∧ 32 * (idx 1).val + (idx 2).val / 16 < n then f (ixC (idx 0).val ((idx 1).val + 1) (idx 2).val) else f idx

theorem rot_zero (b : ℕ) (f : Ring F) : Rot b 0 f f := fun idx => by
  rw [if_neg (fun h => Nat.not_lt_zero _ h.2)]

/-- Step `n`: lanes `16 (n mod 32) …` of row `n div 32 + 1` onto row `n div 32`. -/
theorem rot_step {b n : ℕ} {f g : Ring F} (h : Rot b n f g) (hn : n < 992) {dst src : Fin 3 → ℕ}
    (hd : ∀ a, dst a + S1x1x16.size a ≤ S6x32x512.size a) (hs : ∀ a, src a + S1x1x16.size a ≤ S6x32x512.size a)
    (hdst : dst = ![b, n / 32, 16 * (n % 32)]) (hsrc : src = ![b, n / 32 + 1, 16 * (n % 32)]) (hb : b < 6) :
    Rot b (n + 1) f (cp16 g dst src hd hs) := by
  intro idx
  have i0 := idx0_lt idx; have i1 := idx1_lt idx; have i2 := idx2_lt idx
  have d0 : dst 0 = b := by rw [hdst]; rfl
  have d1 : dst 1 = n / 32 := by rw [hdst]; rfl
  have d2 : dst 2 = 16 * (n % 32) := by rw [hdst]; rfl
  have s0 : src 0 = b := by rw [hsrc]; rfl
  have s1 : src 1 = n / 32 + 1 := by rw [hsrc]; rfl
  have s2 : src 2 = 16 * (n % 32) := by rw [hsrc]; rfl
  rw [cp16_apply]
  by_cases hin : inBox dst idx
  · rw [if_pos hin]
    obtain ⟨e0, e1, l2, u2⟩ := hin
    rw [d0] at e0; rw [d1] at e1; rw [d2] at l2 u2
    rw [if_pos ⟨e0, by omega⟩, h, s0, s1, s2, d2]
    rw [if_neg (by rw [ixC_0, ixC_1, ixC_2]; omega)]
    refine congrArg f (ext3 ?_ ?_ ?_)
    · rw [ixC_0, ixC_0]; omega
    · rw [ixC_1, ixC_1]; omega
    · rw [ixC_2, ixC_2]; omega
  · rw [if_neg hin, h]
    have hiff : ((idx 0).val = b ∧ 32 * (idx 1).val + (idx 2).val / 16 < n) ↔ ((idx 0).val = b ∧ 32 * (idx 1).val + (idx 2).val / 16 < n + 1) := by
      unfold inBox at hin
      rw [d0, d1, d2] at hin
      constructor
      · rintro ⟨a, c⟩; exact ⟨a, by omega⟩
      · rintro ⟨a, c⟩
        refine ⟨a, ?_⟩
        by_contra hc
        exact hin ⟨a, by omega, by omega, by omega⟩
    by_cases hc : (idx 0).val = b ∧ 32 * (idx 1).val + (idx 2).val / 16 < n
    · rw [if_pos hc, if_pos (hiff.mp hc)]
    · rw [if_neg hc, if_neg (fun h' => hc (hiff.mpr h'))]

/-! ## Filling the last row from the next slot -/

/-- Slot `b` fully rotated, and the first `16 m` lanes of its row 31 holding row 0 of slot `b'`. -/
def Fill (b b' m : ℕ) (f g : Ring F) : Prop :=
  ∀ idx : S6x32x512.Idx, g idx =
    if (idx 0).val = b then
      if (idx 1).val < 31 then f (ixC (idx 0).val ((idx 1).val + 1) (idx 2).val)
      else if (idx 2).val < 16 * m then f (ixC b' 0 (idx 2).val) else f idx
    else f idx

theorem fill_zero {b : ℕ} (b' : ℕ) {f g : Ring F} (h : Rot b 992 f g) : Fill b b' 0 f g := by
  intro idx
  have i1 := idx1_lt idx; have i2 := idx2_lt idx
  rw [h]
  by_cases h0 : (idx 0).val = b
  · rw [if_pos h0]
    by_cases h1 : (idx 1).val < 31
    · rw [if_pos h1, if_pos ⟨h0, by omega⟩]
    · rw [if_neg h1, if_neg (by omega), if_neg (fun hc => h1 (by omega))]
  · rw [if_neg h0, if_neg (fun hc => h0 hc.1)]

/-- Step `m` of the fill: lanes `16 m …` of row 0 of slot `b'` onto row 31 of slot `b`. -/
theorem fill_step {b b' m : ℕ} {f g : Ring F} (h : Fill b b' m f g) (hm : m < 32) (hbb : b ≠ b') (hb' : b' < 6) {dst src : Fin 3 → ℕ}
    (hd : ∀ a, dst a + S1x1x16.size a ≤ S6x32x512.size a) (hs : ∀ a, src a + S1x1x16.size a ≤ S6x32x512.size a)
    (hdst : dst = ![b, 31, 16 * m]) (hsrc : src = ![b', 0, 16 * m]) :
    Fill b b' (m + 1) f (cp16 g dst src hd hs) := by
  intro idx
  have i0 := idx0_lt idx; have i1 := idx1_lt idx; have i2 := idx2_lt idx
  have d0 : dst 0 = b := by rw [hdst]; rfl
  have d1 : dst 1 = 31 := by rw [hdst]; rfl
  have d2 : dst 2 = 16 * m := by rw [hdst]; rfl
  have s0 : src 0 = b' := by rw [hsrc]; rfl
  have s1 : src 1 = 0 := by rw [hsrc]; rfl
  have s2 : src 2 = 16 * m := by rw [hsrc]; rfl
  rw [cp16_apply]
  by_cases hin : inBox dst idx
  · rw [if_pos hin]
    obtain ⟨e0, e1, l2, u2⟩ := hin
    rw [d0] at e0; rw [d1] at e1; rw [d2] at l2 u2
    rw [if_pos e0, if_neg (by omega), if_pos (by omega), h, s0, s1, s2, d2]
    rw [if_neg (by rw [ixC_0]; omega)]
    refine congrArg f (ext3 ?_ ?_ ?_)
    · rw [ixC_0, ixC_0]
    · rw [ixC_1, ixC_1]
    · rw [ixC_2, ixC_2]; omega
  · rw [if_neg hin, h]
    unfold inBox at hin
    rw [d0, d1, d2] at hin
    by_cases h0 : (idx 0).val = b
    · rw [if_pos h0, if_pos h0]
      by_cases h1 : (idx 1).val < 31
      · rw [if_pos h1, if_pos h1]
      · rw [if_neg h1, if_neg h1]
        by_cases h2 : (idx 2).val < 16 * m
        · rw [if_pos h2, if_pos (by omega)]
        · rw [if_neg h2, if_neg (fun hc => hin ⟨h0, by omega, by omega, by omega⟩)]
    · rw [if_neg h0, if_neg h0]

/-! ## The same across two contents: the last row comes from another slot's own contents -/

/-- One step across two contents: the sixteen lanes at `src` of `f1` stored through the sixteen lanes at `dst` of `g`. -/
def cp16x (g f1 : Ring F) (dst src : Fin 3 → ℕ) (hd : ∀ a, dst a + S1x1x16.size a ≤ S6x32x512.size a)
    (hs : ∀ a, src a + S1x1x16.size a ≤ S6x32x512.size a) : Ring F :=
  View.write (Elt F) (bufW.access (Rect.unit (s := S6x32x512) dst S1x1x16.size hd)) g
    (shapeCast S1x1x16 (shapeCast S16 (bufW.view.readAt (Elt F) (Rect.unit (s := S6x32x512) src S1x1x16.size hs).toLoadRect f1) shapeCasts_S1x1x16_S16)
      shapeCasts_S16_S1x1x16) Finset.univ

theorem cp16_eq_cp16x (f : Ring F) (dst src : Fin 3 → ℕ) (hd : ∀ a, dst a + S1x1x16.size a ≤ S6x32x512.size a)
    (hs : ∀ a, src a + S1x1x16.size a ≤ S6x32x512.size a) : cp16 f dst src hd hs = cp16x f f dst src hd hs := rfl

theorem cp16x_apply (g f1 : Ring F) (dst src : Fin 3 → ℕ) (hd : ∀ a, dst a + S1x1x16.size a ≤ S6x32x512.size a)
    (hs : ∀ a, src a + S1x1x16.size a ≤ S6x32x512.size a) (idx : S6x32x512.Idx) :
    cp16x g f1 dst src hd hs idx = if inBox dst idx then f1 (ixC (src 0) (src 1) (src 2 + ((idx 2).val - dst 2))) else g idx := by
  unfold cp16x
  by_cases hin : inBox dst idx
  · rw [if_pos hin]
    obtain ⟨e0, e1, l2, u2⟩ := hin
    have hs0 : src 0 + 1 ≤ 6 := hs 0
    have hs1 : src 1 + 1 ≤ 32 := hs 1
    have hs2 : src 2 + 16 ≤ 512 := hs 2
    let x : S1x1x16.Idx := ValueIdx.ix3 (⟨0, by decide⟩ : Fin 1) (⟨0, by decide⟩ : Fin 1) (⟨(idx 2).val - dst 2, by omega⟩ : Fin 16)
    have hx : idx = (bufW.access (Rect.unit (s := S6x32x512) dst S1x1x16.size hd)).emb x :=
      ext3 (by show (idx 0).val = dst 0 + 1 * 0; omega) (by show (idx 1).val = dst 1 + 1 * 0; omega)
        (by show (idx 2).val = dst 2 + 1 * ((idx 2).val - dst 2); omega)
    refine (congrArg (View.write (Elt F) (bufW.access (Rect.unit (s := S6x32x512) dst S1x1x16.size hd)) g _ Finset.univ) hx).trans ?_
    rw [View.write_emb_of_mem _ _ (Finset.mem_univ x), cast_eq]
    refine (cast16 _ x).trans ?_
    rw [View.readAt_apply, View.read_apply, cast_eq]
    refine congrArg f1 (ext3 ?_ ?_ ?_)
    · show src 0 + 1 * 0 = min (src 0) 5; omega
    · show src 1 + 1 * 0 = min (src 1) 31; omega
    · show src 2 + 1 * ((idx 2).val - dst 2) = min (src 2 + ((idx 2).val - dst 2)) 511; omega
  · rw [if_neg hin]
    refine View.write_of_not_mem _ _ _ fun hmem => hin ((mem_box dst hd idx).mp ?_)
    have e : (bufW.access (Rect.unit (s := S6x32x512) dst S1x1x16.size hd)).setOn Finset.univ = (Rect.unit (s := S6x32x512) dst S1x1x16.size hd).set :=
      View.set_slice_whole _ _
    exact e ▸ hmem

/-- Slot `b` of `f` fully rotated, and the first `16 m` lanes of its row 31 holding row 0 of slot `b'` of `f1`. -/
def Fill2 (b b' m : ℕ) (f f1 g : Ring F) : Prop :=
  ∀ idx : S6x32x512.Idx, g idx =
    if (idx 0).val = b then
      if (idx 1).val < 31 then f (ixC (idx 0).val ((idx 1).val + 1) (idx 2).val)
      else if (idx 2).val < 16 * m then f1 (ixC b' 0 (idx 2).val) else f idx
    else f idx

theorem fill2_zero {b : ℕ} (b' : ℕ) {f g : Ring F} (f1 : Ring F) (h : Rot b 992 f g) : Fill2 b b' 0 f f1 g := by
  intro idx
  have i1 := idx1_lt idx; have i2 := idx2_lt idx
  rw [h]
  by_cases h0 : (idx 0).val = b
  · rw [if_pos h0]
    by_cases h1 : (idx 1).val < 31
    · rw [if_pos h1, if_pos ⟨h0, by omega⟩]
    · rw [if_neg h1, if_neg (by omega), if_neg (fun hc => h1 (by omega))]
  · rw [if_neg h0, if_neg (fun hc => h0 hc.1)]

theorem fill2_step {b b' m : ℕ} {f f1 g : Ring F} (h : Fill2 b b' m f f1 g) (hm : m < 32) (hb' : b' < 6) {dst src : Fin 3 → ℕ}
    (hd : ∀ a, dst a + S1x1x16.size a ≤ S6x32x512.size a) (hs : ∀ a, src a + S1x1x16.size a ≤ S6x32x512.size a)
    (hdst : dst = ![b, 31, 16 * m]) (hsrc : src = ![b', 0, 16 * m]) :
    Fill2 b b' (m + 1) f f1 (cp16x g f1 dst src hd hs) := by
  intro idx
  have i0 := idx0_lt idx; have i1 := idx1_lt idx; have i2 := idx2_lt idx
  have d0 : dst 0 = b := by rw [hdst]; rfl
  have d1 : dst 1 = 31 := by rw [hdst]; rfl
  have d2 : dst 2 = 16 * m := by rw [hdst]; rfl
  have s0 : src 0 = b' := by rw [hsrc]; rfl
  have s1 : src 1 = 0 := by rw [hsrc]; rfl
  have s2 : src 2 = 16 * m := by rw [hsrc]; rfl
  rw [cp16x_apply]
  by_cases hin : inBox dst idx
  · rw [if_pos hin]
    obtain ⟨e0, e1, l2, u2⟩ := hin
    rw [d0] at e0; rw [d1] at e1; rw [d2] at l2 u2
    rw [if_pos e0, if_neg (by omega), if_pos (by omega), s0, s1, s2, d2]
    refine congrArg f1 (ext3 ?_ ?_ ?_)
    · rw [ixC_0, ixC_0]
    · rw [ixC_1, ixC_1]
    · rw [ixC_2, ixC_2] <;> omega
  · rw [if_neg hin, h]
    unfold inBox at hin
    rw [d0, d1, d2] at hin
    by_cases h0 : (idx 0).val = b
    · rw [if_pos h0, if_pos h0]
      by_cases h1 : (idx 1).val < 31
      · rw [if_pos h1, if_pos h1]
      · rw [if_neg h1, if_neg h1]
        by_cases h2 : (idx 2).val < 16 * m
        · rw [if_pos h2, if_pos (by omega)]
        · rw [if_neg h2, if_neg (fun hc => hin ⟨h0, by omega, by omega, by omega⟩)]
    · rw [if_neg h0, if_neg h0]

/-! ## Read through a slot's own 32 x 512 view -/

theorem inb_slot (i : Fin 6) : ∀ a, (![i.val, 0, 0] : Fin 3 → ℕ) a + S1x32x512.size a ≤ S6x32x512.size a := by
  have := i.isLt
  intro a
  match a with
  | ⟨0, _⟩ => show i.val + 1 ≤ 6; omega
  | ⟨1, _⟩ => show 0 + 32 ≤ 32; omega
  | ⟨2, _⟩ => show 0 + 512 ≤ 512; omega

/-- Slot `i` of the ring as a 32 x 512 memref: index `i` of the first axis, squeezed. -/
abbrev slotMi (i : Fin 6) : Memref sig .scVector .vmem S32x512 .f32 :=
  (bufW.slice (Rect.unit (s := S6x32x512) ![i.val, 0, 0] S1x32x512.size (inb_slot i)) (fun _ => rfl)).squeeze S32x512 squeezes_S1x32x512_S32x512

theorem slotM0_eq : slotM0 = slotMi 0 := rfl
theorem slotM1_eq : slotM1 = slotMi 1 := rfl
theorem slotM2_eq : slotM2 = slotMi 2 := rfl
theorem slotM3_eq : slotM3 = slotMi 3 := rfl
theorem slotM4_eq : slotM4 = slotMi 4 := rfl
theorem slotM5_eq : slotM5 = slotMi 5 := rfl

/-- The index `(r, l)` of a slot, each coordinate clamped into its range. -/
def rcC (r l : ℕ) : S32x512.Idx := ValueIdx.ix2 (⟨min r 31, by omega⟩ : Fin 32) (⟨min l 511, by omega⟩ : Fin 512)
theorem rcC_0 (r l : ℕ) : (rcC r l 0).val = min r 31 := rfl
theorem rcC_1 (r l : ℕ) : (rcC r l 1).val = min l 511 := rfl

/-- Entry `(r, l)` of slot `i` sits at `(i, r, l)` in the ring. -/
theorem slot_emb (i : Fin 6) (y : S32x512.Idx) : (slotMi i).view.emb y = ixC i.val (y 0).val (y 1).val := by
  have hy0 : (y 0).val < 32 := (y 0).isLt
  have hy1 : (y 1).val < 512 := (y 1).isLt
  have hi := i.isLt
  have e : (slotMi i).view.emb y = (Rect.unit (s := S6x32x512) ![i.val, 0, 0] S1x32x512.size (inb_slot i)).emb (Fin.cons ⟨0, Nat.one_pos⟩ y) := by
    show (Rect.unit (s := S6x32x512) ![i.val, 0, 0] S1x32x512.size (inb_slot i)).emb (Shape.reshapeEquiv _ y) = _
    rw [Shape.reshapeEquiv_cons_one]
  rw [e]
  refine ext3 ?_ ?_ ?_
  · show i.val + 1 * 0 = min i.val 5; omega
  · show 0 + 1 * (y 0).val = min (y 0).val 31; omega
  · show 0 + 1 * (y 1).val = min (y 1).val 511; omega

theorem slot_read (i : Fin 6) (f : Ring F) (y : S32x512.Idx) : (slotMi i).view.read (Elt F) f y = f (ixC i.val (y 0).val (y 1).val) := by
  rw [View.read_apply, cast_eq, slot_emb]

/-- Slot `b` after the rotation and the fill, read through its own view: row `r < 31` is the old row `r + 1`, row 31 is
    the old row 0 of slot `b'`. -/
theorem rot_fill_read {b b' : Fin 6} {f g : Ring F} (h : Fill b.val b'.val 32 f g) (y : S32x512.Idx) :
    (slotMi b).view.read (Elt F) g y
      = if (y 0).val < 31 then (slotMi b).view.read (Elt F) f (rcC ((y 0).val + 1) (y 1).val) else (slotMi b').view.read (Elt F) f (rcC 0 (y 1).val) := by
  have hy0 : (y 0).val < 32 := (y 0).isLt
  have hy1 : (y 1).val < 512 := (y 1).isLt
  have hb := b.isLt
  have hb' := b'.isLt
  rw [slot_read, slot_read, slot_read, h, if_pos (by rw [ixC_0]; omega)]
  by_cases h1 : (y 0).val < 31
  · rw [if_pos h1, if_pos (by rw [ixC_1]; omega)]
    refine congrArg f (ext3 ?_ ?_ ?_)
    · rw [ixC_0, ixC_0, ixC_0] <;> omega
    · rw [ixC_1, ixC_1, ixC_1, rcC_0] <;> omega
    · rw [ixC_2, ixC_2, ixC_2, rcC_1] <;> omega
  · rw [if_neg h1, if_neg (by rw [ixC_1]; omega), if_pos (by rw [ixC_2]; omega)]
    refine congrArg f (ext3 ?_ ?_ ?_)
    · rw [ixC_0, ixC_0] <;> omega
    · rw [ixC_1, ixC_1, rcC_0] <;> omega
    · rw [ixC_2, ixC_2, ixC_2, rcC_1] <;> omega

/-- The same when row 31 was filled from slot `b'` of other contents `f1`. -/
theorem rot_fill_read2 {b b' : Fin 6} {f f1 g : Ring F} (h : Fill2 b.val b'.val 32 f f1 g) (y : S32x512.Idx) :
    (slotMi b).view.read (Elt F) g y
      = if (y 0).val < 31 then (slotMi b).view.read (Elt F) f (rcC ((y 0).val + 1) (y 1).val) else (slotMi b').view.read (Elt F) f1 (rcC 0 (y 1).val) := by
  have hy0 : (y 0).val < 32 := (y 0).isLt
  have hy1 : (y 1).val < 512 := (y 1).isLt
  have hb := b.isLt
  have hb' := b'.isLt
  rw [slot_read, slot_read, slot_read, h, if_pos (by rw [ixC_0]; omega)]
  by_cases h1 : (y 0).val < 31
  · rw [if_pos h1, if_pos (by rw [ixC_1]; omega)]
    refine congrArg f (ext3 ?_ ?_ ?_)
    · rw [ixC_0, ixC_0, ixC_0] <;> omega
    · rw [ixC_1, ixC_1, ixC_1, rcC_0] <;> omega
    · rw [ixC_2, ixC_2, ixC_2, rcC_1] <;> omega
  · rw [if_neg h1, if_neg (by rw [ixC_1]; omega), if_pos (by rw [ixC_2]; omega)]
    refine congrArg f1 (ext3 ?_ ?_ ?_)
    · rw [ixC_0, ixC_0] <;> omega
    · rw [ixC_1, ixC_1, rcC_0] <;> omega
    · rw [ixC_2, ixC_2, ixC_2, rcC_1] <;> omega

end Cert.Proof.BitsK

end
-- ==== Proof.BitsTripDefs.lean ====
/-
  What the proofs of the main loop's trips share. The worker's number and its band's first row as the 32-bit words the
  kernel computes them; the loop invariant of a steady trip written out (chunk k landed, the fetches of chunks k+1, k+2,
  k+3 and the stores of chunks k-2, k-1 in flight); the step lemmas of the row rotation restated so that the pair's number
  is read off the goal; and how a pair's offsets, given in closed form, are the rotation's (three coordinates compared).
-/
import proofs.«213455_g39170101740086_cont_8to1_b_302_25_alg».proof.Proof.BitsInv
import proofs.«213455_g39170101740086_cont_8to1_b_302_25_alg».proof.Proof.BitsOuts
import proofs.«213455_g39170101740086_cont_8to1_b_302_25_alg».proof.Proof.BitsRot
import Idealize.ShloMosaic.Lib.Tactic

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-- The worker's number `2 s + c` and its band's first row `2048 (2 s + c)`, as 32-bit words. -/
def widW (L : grid0.Coords) : BitVec 32 := Scalar.addi (Scalar.muli (BitVec.ofNat 32 (L 1).val) 2#32) (BitVec.ofNat 32 (L 0).val)
def baseW (L : grid0.Coords) : BitVec 32 := Scalar.muli (widW L) 2048#32

/-- A condition on one-bit words is decided over all trips; anything else is linear arithmetic. -/
macro "cond_disch" : tactic => `(tactic| first
  | (guard_target = (_ : BitVec 1) = _; decide +kernel +revert)
  | (guard_target = ¬ ((_ : BitVec 1) = _); decide +kernel +revert)
  | omega)

/-! ## The invariant of a steady trip, written out -/

/-- At a trip `k` with `2 ≤ k` and `k + 3 < 64`: chunk `k` has landed, chunks `k + 1, k + 2, k + 3` are being fetched, chunks
    `k - 2, k - 1` are being stored. The six chunk numbers are arguments, so that one trip's numbers are the next trip's. -/
theorem InvGen_steady (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ)
    (c0 c1 c2 c3 cm2 cm1 : Fin 64) (e0 : c0.val = k) (e1 : c1.val = k + 1) (e2 : c2.val = k + 2) (e3 : c3.val = k + 3)
    (em2 : cm2.val + 2 = k) (em1 : cm1.val + 1 = k) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ gfl m d L a1 i1 o1 t1 c1 ∗ gfl m d L a2 i2 o2 t2 c2 ∗ gfl m d L a3 i3 o3 t3 c3
          ∗ sfl m d L a4 i4 o4 t4 cm2 ∗ sfl m d L a5 i5 o5 t5 cm1 ∗ outs m d L k) := by
  have hk3 : k + 3 < 64 := by have := c3.isLt; omega
  have hk2 : 2 ≤ k := by omega
  have q0 : k < 64 := by omega
  have q1 : k + 1 < 64 := by omega
  have q2 : k + 2 < 64 := by omega
  have qm2 : k - 2 < 64 := by omega
  have qm1 : k - 1 < 64 := by omega
  have em2' : cm2.val = k - 2 := by omega
  have em1' : cm1.val = k - 1 := by omega
  obtain rfl : c0 = ⟨k, q0⟩ := Fin.ext e0
  obtain rfl : c1 = ⟨k + 1, q1⟩ := Fin.ext e1
  obtain rfl : c2 = ⟨k + 2, q2⟩ := Fin.ext e2
  obtain rfl : c3 = ⟨k + 3, hk3⟩ := Fin.ext e3
  obtain rfl : cm2 = ⟨k - 2, qm2⟩ := Fin.ext em2'
  obtain rfl : cm1 = ⟨k - 1, qm1⟩ := Fin.ext em1'
  unfold InvGen pos0 posG posS
  rw [dif_pos (by omega : k < 64), dif_pos (by omega : k + 1 < 64), dif_pos (by omega : k + 2 < 64), dif_pos (by omega : k + 3 < 64),
    if_pos (by omega : 2 ≤ k), dif_pos (by omega : k - 2 < 64), if_pos (by omega : 1 ≤ k), dif_pos (by omega : k - 1 < 64)]

/-! ## The rotation's steps, the pair's number read off the goal -/

theorem rot_step' {b n n' : ℕ} {f g : Ring F} (h : Rot b n f g) (hn' : n' = n + 1) (hn : n < 992) {dst src : Fin 3 → ℕ}
    (hd : ∀ a, dst a + S1x1x16.size a ≤ S6x32x512.size a) (hs : ∀ a, src a + S1x1x16.size a ≤ S6x32x512.size a)
    (hdst : dst = ![b, n / 32, 16 * (n % 32)]) (hsrc : src = ![b, n / 32 + 1, 16 * (n % 32)]) (hb : b < 6) :
    Rot b n' f (cp16 g dst src hd hs) := hn' ▸ rot_step h hn hd hs hdst hsrc hb

theorem fill2_step' {b b' m' mm : ℕ} {f f1 g : Ring F} (h : Fill2 b b' mm f f1 g) (hm' : m' = mm + 1) (hm : mm < 32) (hb' : b' < 6)
    {dst src : Fin 3 → ℕ} (hd : ∀ a, dst a + S1x1x16.size a ≤ S6x32x512.size a) (hs : ∀ a, src a + S1x1x16.size a ≤ S6x32x512.size a)
    (hdst : dst = ![b, 31, 16 * mm]) (hsrc : src = ![b', 0, 16 * mm]) :
    Fill2 b b' m' f f1 (cp16x g f1 dst src hd hs) := hm' ▸ fill2_step h hm hb' hd hs hdst hsrc

theorem rot_cast {b n n' : ℕ} {f g : Ring F} (h : Rot b n f g) (hn : n' = n) : Rot b n' f g := hn ▸ h

/-- Offsets given in closed form are a vector once the closed form is. -/
theorem off_closed {off : Fin 3 → ℕ} [c : ClosedOff off] {v : Fin 3 → ℕ} (h : c.form = v) : off = v := c.eq.trans h
theorem vec3_eq {a b c a' b' c' : ℕ} (h0 : a = a') (h1 : b = b') (h2 : c = c') : (![a, b, c] : Fin 3 → ℕ) = ![a', b', c'] := by
  subst h0; subst h1; subst h2; rfl

/-- Offsets are a given vector: through their closed form, or as the vector they are written as. -/
macro "off_vec" : tactic => `(tactic| first
  | exact off_closed (vec3_eq (by omega) (by omega) (by omega))
  | exact vec3_eq (by omega) (by omega) (by omega))

open Lean Elab Tactic in
/-- `rot_chain b base from hi to lo`: the rotation's steps for the pairs `base + hi - 1` down to `base + lo`, last first. -/
elab "rot_chain " b:term:max base:term:max " from " hi:num " to " lo:num : tactic => do
  let hi := hi.getNat
  let lo := lo.getNat
  for i in [0:hi - lo] do
    let j := hi - 1 - i
    let jt := Syntax.mkNumLit (toString j)
    evalTactic (← `(tactic| refine rot_step' (b := $b) (n := $base + $jt) ?_ (by omega) (by omega) _ _ (by off_vec) (by off_vec) (by omega)))

open Lean Elab Tactic in
/-- `fill_chain b b' from hi to lo`: the fill's steps for the lane blocks `hi - 1` down to `lo`, last first. -/
elab "fill_chain " b:term:max b':term:max " from " hi:num " to " lo:num : tactic => do
  let hi := hi.getNat
  let lo := lo.getNat
  for i in [0:hi - lo] do
    let j := hi - 1 - i
    let jt := Syntax.mkNumLit (toString j)
    evalTactic (← `(tactic| refine fill2_step' (b := $b) (b' := $b') (mm := $jt) ?_ (by omega) (by omega) (by omega) _ _ (by off_vec) (by off_vec)))

/-! ## The kernel's spellings of a chunk, and what a slot sends -/

/-- A chunk of the result held at `f`, spelt as a slice of the result at offsets equal to the chunk's. -/
theorem chunk_respell (c : Fin 64) {off : Fin 2 → ℕ} (h : off = chOff L c.val) (inb : ∀ a, off a + S32x512.size a ≤ S65536x512.size a)
    (f : Buf (Elt F) (oLoc d)) :
    ((oChunk L c).view.loc (thr d L) ↦[(oChunk L c).view.set]{fullShare} f : sProp 𝕄)
      = ((oW.slice (Rect.unit (s := S65536x512) off S32x512.size inb) (fun _ => rfl)).view.loc (thr d L)
          ↦[(oW.slice (Rect.unit (s := S65536x512) off S32x512.size inb) (fun _ => rfl)).view.set]{fullShare} f) := by
  subst h; rfl

/-- The elements of mem under a slice at offsets equal to a chunk's are the chunk's. -/
theorem mset_respell (c : Fin 64) {off : Fin 2 → ℕ} (h : off = chOff L c.val) (inb : ∀ a, off a + S32x512.size a ≤ S65536x512.size a) :
    (mW.slice (Rect.unit (s := S65536x512) off S32x512.size inb) (fun _ => rfl)).view.set = (mChunk L c).view.set := by
  subst h; rfl

/-- What a fetch through such a slice delivers is what the fetch of the chunk delivers. -/
theorem gpay_respell (c : Fin 64) {off : Fin 2 → ℕ} (h : off = chOff L c.val) (inb : ∀ a, off a + S32x512.size a ≤ S65536x512.size a) :
    ReadAs.same.apply ((mW.slice (Rect.unit (s := S65536x512) off S32x512.size inb) (fun _ => rfl)).view.read (Elt F) (m (mLoc d)))
      = gpay m d L c := by
  subst h; rfl

/-- What slot `b` sends after the rotation and the fill is chunk `c` of the result: rows `1 … 31` of chunk `c` of mem and
    row 0 of chunk `c + 1`. -/
theorem sent_is_Gout {b b' : Fin 6} (c : Fin 64) (hc : c.val + 1 < 64) {f0 f1 g : Ring F}
    (h0 : Holds m d L (slotMi b) c f0) (h1 : Holds m d L (slotMi b') ⟨c.val + 1, hc⟩ f1) (hfill : Fill2 b.val b'.val 32 f0 f1 g)
    (fo : Buf (Elt F) (oLoc d)) :
    ((oChunk L c).view.loc (thr d L) ↦[(oChunk L c).view.set]{fullShare}
        (oChunk L c).view.writes (Elt F) fo [⟨Rect.whole S32x512, ReadAs.same.apply ((slotMi b).view.read (Elt F) g)⟩] : sProp 𝕄)
      = ((oChunk L c).view.loc (thr d L) ↦[(oChunk L c).view.set]{fullShare} Gout m d) := by
  refine out_chunk_congr m d L c _ fun y => ?_
  have hy0 : (y 0).val < 32 := (y 0).isLt
  have hy1 : (y 1).val < 512 := (y 1).isLt
  have hw := View.read_writes_cons_emb (Val := Elt F) (oChunk L c).view fo (Rect.whole S32x512)
    (ReadAs.same.apply ((slotMi b).view.read (Elt F) g)) [] y
  rw [Rect.emb_whole_apply S32x512 y, View.read_apply, cast_eq] at hw
  refine hw.trans ?_
  show (slotMi b).view.read (Elt F) g y = _
  rw [rot_fill_read2 hfill y]
  by_cases hr : (y 0).val < 31
  · rw [if_pos hr, h0, Gout_chunk_lt m d L c y hr]
    refine congrArg (m (mLoc d)) (congrArg _ (funext fun a => ?_))
    match a with
    | ⟨0, _⟩ => exact Fin.ext (by show min ((y 0).val + 1) 31 = (y 0).val + 1; omega)
    | ⟨1, _⟩ => exact Fin.ext (by show min (y 1).val 511 = (y 1).val; omega)
  · rw [if_neg hr, h1, Gout_chunk_next m d L c hc y (by omega)]
    refine congrArg (m (mLoc d)) (congrArg _ (funext fun a => ?_))
    match a with
    | ⟨0, _⟩ => exact Fin.ext (by show min 0 31 = 0; omega)
    | ⟨1, _⟩ => exact Fin.ext (by show min (y 1).val 511 = (y 1).val; omega)

end Cert.Proof.BitsK

end
-- ==== Proof.BitsTripClose.lean ====
/-
  From what a trip's run leaves to the invariant's words. A slot in which the fetch of chunk `c` has landed holds chunk `c`; a
  fetch issued through a slice of `mem` at offsets equal to chunk `c`'s is the fetch of chunk `c` in flight; a slot that held
  chunk `c`, rotated and filled from the slot holding chunk `c + 1`, and sent through a slice of the result at offsets equal
  to chunk `c`'s, is the store of chunk `c` in flight, delivering that chunk of the result at the result's value.
-/
import proofs.«213455_g39170101740086_cont_8to1_b_302_25_alg».proof.Proof.BitsTripDefs

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-- Offsets equal to a chunk's lie inside the array. -/
theorem inb_of_eq {off : Fin 2 → ℕ} (c : Fin 64) (h : off = chOff L c.val) : ∀ a, off a + S32x512.size a ≤ S65536x512.size a :=
  h ▸ chOff_inb L c

/-- The invariant's words for one slot, written out. -/
theorem held_eq (sM : Memref sig .scVector .vmem S32x512 .f32) (is os : DmaSems sig S_) (t : ℕ) (c : Fin 64) :
    held m d L sM is os t c
      = iprop(semVal (thr d L, SemLoc.dma is.sem) 0 ∗ semVal (thr d L, SemLoc.dma os.sem) 0 ∗ (mW.view.loc (thr d L) ↦{tokM L t} m (mLoc d))
          ∗ ∃ f, ⌜Holds m d L sM c f⌝ ∗ sM.view.loc (thr d L) ↦[sM.view.set]{fullShare} f) := rfl
theorem free_eq (sM : Memref sig .scVector .vmem S32x512 .f32) (is os : DmaSems sig S_) (t : ℕ) :
    free m d L sM is os t
      = iprop(semVal (thr d L, SemLoc.dma is.sem) 0 ∗ semVal (thr d L, SemLoc.dma os.sem) 0 ∗ (mW.view.loc (thr d L) ↦{tokM L t} m (mLoc d))
          ∗ ∃ f, sM.view.loc (thr d L) ↦[sM.view.set]{fullShare} f) := rfl
theorem gfl_eq (sM : Memref sig .scVector .vmem S32x512 .f32) (is os : DmaSems sig S_) (t : ℕ) (c : Fin 64) :
    gfl m d L sM is os t c
      = iprop(semVal (thr d L, SemLoc.dma os.sem) 0
          ∗ (∃ f₀, Transfers.Flight countersEmb (thr d L) (SemLoc.dma is.sem) (default : HIx 1) 524288
              iprop((sM.view.loc (thr d L) ↦[sM.view.set]{fullShare} sM.view.writes (Elt F) f₀ [⟨Rect.whole S32x512, gpay m d L c⟩])
                ∗ mW.view.loc (thr d L) ↦[(mChunk L c).view.set]{tokM L t} m (mLoc d)))
          ∗ mW.view.loc (thr d L) ↦[Finset.univ \ (mChunk L c).view.set]{tokM L t} m (mLoc d)) := rfl

/-- A slot in which the fetch of chunk `c` has landed, its semaphores at zero and its token whole, holds chunk `c`. -/
theorem held_of_landed (sM : Memref sig .scVector .vmem S32x512 .f32) (is os : DmaSems sig S_) (t : ℕ) (c : Fin 64)
    (f₀ : sM.view.ty.Contents (Elt F)) :
    (iprop(semVal (thr d L, SemLoc.dma is.sem) 0 ∗ semVal (thr d L, SemLoc.dma os.sem) 0 ∗ (mW.view.loc (thr d L) ↦{tokM L t} m (mLoc d))
        ∗ sM.view.loc (thr d L) ↦[sM.view.set]{fullShare} sM.view.writes (Elt F) f₀ [⟨Rect.whole S32x512, gpay m d L c⟩]) : sProp 𝕄)
      ⊢ held m d L sM is os t c := by
  unfold held tokWhole
  iintro ⟨H1, H2, H3, H4⟩
  isplitl [H1]; · iexact H1
  isplitl [H2]; · iexact H2
  isplitl [H3]; · iexact H3
  iexists _
  isplitr
  · ipureintro; exact holds_landed m d L sM c f₀
  · iexact H4

/-- A fetch issued through a slice of `mem` at offsets equal to chunk `c`'s, with the rest of its token, is the fetch of chunk
    `c` in flight. -/
theorem gfl_of_run (sM : Memref sig .scVector .vmem S32x512 .f32) (is os : DmaSems sig S_) (t : ℕ) (c : Fin 64)
    {off : Fin 2 → ℕ} (h : off = chOff L c.val) (inb : ∀ a, off a + S32x512.size a ≤ S65536x512.size a)
    (f₀ : sM.view.ty.Contents (Elt F)) (pay : S32x512.Idx → Elt F .f32)
    (hp : pay = ReadAs.same.apply ((mW.slice (Rect.unit (s := S65536x512) off S32x512.size inb) (fun _ => rfl)).view.read (Elt F) (m (mLoc d)))) :
    (iprop(semVal (thr d L, SemLoc.dma os.sem) 0
        ∗ Transfers.Flight countersEmb (thr d L) (SemLoc.dma is.sem) (default : HIx 1) 524288
            iprop((sM.view.loc (thr d L) ↦[sM.view.set]{fullShare} sM.view.writes (Elt F) f₀ [⟨Rect.whole S32x512, pay⟩])
              ∗ mW.view.loc (thr d L) ↦[(mW.slice (Rect.unit (s := S65536x512) off S32x512.size inb) (fun _ => rfl)).view.set]{tokM L t} m (mLoc d))
        ∗ mW.view.loc (thr d L) ↦[Finset.univ \ (mW.slice (Rect.unit (s := S65536x512) off S32x512.size inb) (fun _ => rfl)).view.set]{tokM L t} m (mLoc d)) : sProp 𝕄)
      ⊢ gfl m d L sM is os t c := by
  subst h; subst hp
  unfold gfl
  iintro ⟨H1, H2, H3⟩
  isplitl [H1]; · iexact H1
  isplitl [H2]
  · iexists f₀; iexact H2
  · iexact H3

/-- A slot that held chunk `c`, rotated and filled from the slot holding chunk `c + 1`, sent through a slice of the result at
    offsets equal to chunk `c`'s: the store of chunk `c` in flight. -/
theorem sfl_of_sent (b b' : Fin 6) (is os : DmaSems sig S_) (t : ℕ) (c : Fin 64) (hc : c.val + 1 < 64) {f0 f1 g : Ring F}
    (h0 : Holds m d L (slotMi b) c f0) (h1 : Holds m d L (slotMi b') ⟨c.val + 1, hc⟩ f1) (hfill : Fill2 b.val b'.val 32 f0 f1 g)
    {off : Fin 2 → ℕ} (h : off = chOff L c.val) (inb : ∀ a, off a + S32x512.size a ≤ S65536x512.size a)
    (fo : Buf (Elt F) (oLoc d)) (pay : S32x512.Idx → Elt F .f32) (hp : pay = ReadAs.same.apply ((slotMi b).view.read (Elt F) g)) :
    (iprop(semVal (thr d L, SemLoc.dma is.sem) 0 ∗ (mW.view.loc (thr d L) ↦{tokM L t} m (mLoc d))
        ∗ Transfers.Flight countersEmb (thr d L) (SemLoc.dma os.sem) (default : HIx 1) 524288
            iprop(((oW.slice (Rect.unit (s := S65536x512) off S32x512.size inb) (fun _ => rfl)).view.loc (thr d L)
                  ↦[(oW.slice (Rect.unit (s := S65536x512) off S32x512.size inb) (fun _ => rfl)).view.set]{fullShare}
                    (oW.slice (Rect.unit (s := S65536x512) off S32x512.size inb) (fun _ => rfl)).view.writes (Elt F) fo [⟨Rect.whole S32x512, pay⟩])
              ∗ (slotMi b).view.loc (thr d L) ↦[(slotMi b).view.set]{fullShare} g)) : sProp 𝕄)
      ⊢ sfl m d L (slotMi b) is os t c := by
  subst h; subst hp
  unfold sfl tokWhole
  iintro ⟨H1, H2, H3⟩
  isplitl [H1]; · iexact H1
  isplitl [H2]; · iexact H2
  iexists g
  iapply (Transfers.Flight_mono countersEmb (thr d L) (Entails.of_eq (congrArg (fun X : sProp 𝕄 => iprop(X ∗ (slotMi b).view.loc (thr d L) ↦[(slotMi b).view.set]{fullShare} g))
    (sent_is_Gout m d L c hc h0 h1 hfill fo)))) $$ H3

end Cert.Proof.BitsK

end
-- ==== Proof.BitsTripE0.lean ====
/-
  The first trip of the main loop (trip 0, chunk 0 in slot 0 of the scratch ring). Nothing has been sent yet, so no store is
  waited for: the trip fetches chunk 4 into the free slot 4, waits for the fetch of chunk 1 into slot 1, rotates slot 0 up by
  one row, fills its last row from the first row of slot 1, and sends slot 0 out as chunk 0 of the result. What it sends is the
  result's chunk 0: rows 1 … 31 of chunk 0 of `mem` and row 0 of chunk 1. The invariant at trip 0 gives the invariant at trip 1
  with the slots' roles moved on by one. The trip number is kept as a variable with the facts that pin it (a multiple of six
  below 2), so that the statement and its text are those of every trip.
-/
import proofs.«213455_g39170101740086_cont_8to1_b_302_25_alg».proof.Proof.BitsTripClose
import proofs.«213455_g39170101740086_cont_8to1_b_302_25_alg».proof.Proof.Gen.Kernel
import proofs.«213455_g39170101740086_cont_8to1_b_302_25_alg».proof.Proof.Gen.Kernel.Skeleton

set_option maxHeartbeats 4000000
-- a condition decided under the trip's facts takes a `Decidable` instance one implication deeper per fact
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-! ## The invariant of the two first trips, written out -/

/-- At trip 0: chunk 0 has landed, chunks 1, 2, 3 are being fetched, the last two slots are free. -/
theorem InvGen_early0 (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k < 1)
    (c0 c1 c2 c3 : Fin 64) (e0 : c0.val = k) (e1 : c1.val = k + 1) (e2 : c2.val = k + 2) (e3 : c3.val = k + 3) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ gfl m d L a1 i1 o1 t1 c1 ∗ gfl m d L a2 i2 o2 t2 c2 ∗ gfl m d L a3 i3 o3 t3 c3
          ∗ free m d L a4 i4 o4 t4 ∗ free m d L a5 i5 o5 t5 ∗ outs m d L k) := by
  have q0 : k < 64 := by omega
  have q1 : k + 1 < 64 := by omega
  have q2 : k + 2 < 64 := by omega
  have q3 : k + 3 < 64 := by omega
  obtain rfl : c0 = ⟨k, q0⟩ := Fin.ext e0
  obtain rfl : c1 = ⟨k + 1, q1⟩ := Fin.ext e1
  obtain rfl : c2 = ⟨k + 2, q2⟩ := Fin.ext e2
  obtain rfl : c3 = ⟨k + 3, q3⟩ := Fin.ext e3
  unfold InvGen pos0 posG posS
  rw [dif_pos q0, dif_pos q1, dif_pos q2, dif_pos q3, if_neg (by omega : ¬ 2 ≤ k), if_neg (by omega : ¬ 1 ≤ k)]

/-- At trip 1: chunk 1 has landed, chunks 2, 3, 4 are being fetched, one slot is free, chunk 0 is being stored. -/
theorem InvGen_early1 (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k = 1)
    (c0 c1 c2 c3 cm1 : Fin 64) (e0 : c0.val = k) (e1 : c1.val = k + 1) (e2 : c2.val = k + 2) (e3 : c3.val = k + 3) (em1 : cm1.val + 1 = k) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ gfl m d L a1 i1 o1 t1 c1 ∗ gfl m d L a2 i2 o2 t2 c2 ∗ gfl m d L a3 i3 o3 t3 c3
          ∗ free m d L a4 i4 o4 t4 ∗ sfl m d L a5 i5 o5 t5 cm1 ∗ outs m d L k) := by
  have q0 : k < 64 := by omega
  have q1 : k + 1 < 64 := by omega
  have q2 : k + 2 < 64 := by omega
  have q3 : k + 3 < 64 := by omega
  have qm1 : k - 1 < 64 := by omega
  have em1' : cm1.val = k - 1 := by omega
  obtain rfl : c0 = ⟨k, q0⟩ := Fin.ext e0
  obtain rfl : c1 = ⟨k + 1, q1⟩ := Fin.ext e1
  obtain rfl : c2 = ⟨k + 2, q2⟩ := Fin.ext e2
  obtain rfl : c3 = ⟨k + 3, q3⟩ := Fin.ext e3
  obtain rfl : cm1 = ⟨k - 1, qm1⟩ := Fin.ext em1'
  unfold InvGen pos0 posG posS
  rw [dif_pos q0, dif_pos q1, dif_pos q2, dif_pos q3, if_neg (by omega : ¬ 2 ≤ k), if_pos (by omega : 1 ≤ k), dif_pos qm1]

/-- The outgoing chunk's slice, as ring slot 0's branch names it, lies inside the result. -/
theorem inbO330 (k : Fin k0_t1_loop.trips) : ∀ a, k0_off330 L k a + S32x512.size a ≤ S65536x512.size a := by
  intro a; rw [k0_off330_eq L k]; exact chOff_inb L (kCh k) a

variable [FloatOps F]

theorem tripE0 (k : Fin k0_t1_loop.trips) (hk : k.val % 6 = 0) (hhi : k.val < 2)
    (O : CellTallies nD τ sig (HIx 1)) (W : Waits sig (HIx 1)) (R : sProp 𝕄) :
    iprop(Transfers.MayWaits (thr d L) (none : HIx 1) O ∗ R
        ∗ InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _) bbW (Memref.isWhole_whole _) nbW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W (k.val + 1)) := by
  have q0 : k.val < 64 := by omega
  have q1 : k.val + 1 < 64 := by omega
  have q2 : k.val + 2 < 64 := by omega
  have q3 : k.val + 3 < 64 := by omega
  have q4 : k.val + 4 < 64 := by omega
  rw [InvGen_early0 m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val (by omega)
      ⟨k.val, q0⟩ ⟨k.val + 1, q1⟩ ⟨k.val + 2, q2⟩ ⟨k.val + 3, q3⟩ rfl rfl rfl rfl,
    InvGen_early1 m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W (k.val + 1) (by omega)
      ⟨k.val + 1, q1⟩ ⟨k.val + 2, q2⟩ ⟨k.val + 3, q3⟩ ⟨k.val + 4, q4⟩ ⟨k.val, q0⟩ rfl rfl rfl rfl rfl,
    outs_take m d L k.val q0,
    held_eq m d L slotM0 cc0_scratch3 cc0_scratch9 0 ⟨k.val, q0⟩, gfl_eq m d L slotM1 cc0_scratch4 cc0_scratch10 1 ⟨k.val + 1, q1⟩,
    free_eq m d L slotM4 cc0_scratch7 cc0_scratch13 4,
    chunk_respell d L ⟨k.val, q0⟩ (k0_off330_eq L k) (inbO330 L k) (m (oLoc d)),
    ← outs_step_none m d L k.val q0 (Or.inl hhi)]
  -- the read tokens spelt out: an issue takes the token its semaphore's number names
  unfold tokM
  iintro ⟨#Hmw, HR, ⟨%W0, HW0, HO⟩, ⟨Hi0, Ho0, Hm0, %f0, Hhf0, Hs0⟩, ⟨Ho1, ⟨%g1, Hf1⟩, Hm1⟩, Hg2, Hg3,
    ⟨Hi4, Ho4, Hm4, %f4, Hs4⟩, H5, Hoc, Hrest⟩
  unfold k0_t1_body
  sl_exec_parts (disch := cond_disch)
  sl_for (fun (j : Nat) (_ : PUnit) => (iprop(∃ g : Ring F, ⌜Rot 0 (256 * j) f0 g⌝ ∗ slotM0.view.loc (thr d L) ↦[slotM0.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 0 (256 * g.val) from 256 to 0
      exact rot_cast hf (by omega)
  · iexists f0
    isplitr
    · ipureintro; exact rot_zero 0 f0
    · iexact Hs0
  iintro %_ HI
  icases HI with ⟨%f2, Hhf2, Hs0⟩
  sl_exec_parts (disch := cond_disch)
  sl_step
  icases HW0 with %hW0
  icases Hhf0 with %hf0
  icases Hhf2 with %hf2
  have hf2' : Rot 0 768 f0 f2 := rot_cast hf2 (by decide +kernel)
  have hfill : Fill2 0 1 32 f0
      (slotM1.view.writes (Elt F) (slotM1.view.junk (Val := Elt F)) [⟨Rect.whole S32x512, gpay m d L ⟨k.val + 1, q1⟩⟩] : Ring F)
      (tripE0.sl.Hs0_w256 m d L k q1 f2) := by
    fill_chain 0 1 from 32 to 0
    refine fill2_zero 1 _ ?_
    rot_chain 0 768 from 224 to 0
    exact rot_cast hf2' (by omega)
  isplitl []; · iexact Hmw
  isplitl [HR]; · iexact HR
  isplitl [HO]
  · iexists _
    isplitr
    rotate_left
    · iexact HO
    · ipureintro
      intro p hp
      rcases Finset.mem_insert.1 hp with rfl | hp
      · exact Or.inr rfl
      · exact hW0 p hp
  isplitl [Hf1 Ho1 Hm1 Hf1_dst]
  · iapply (held_of_landed m d L slotM1 cc0_scratch4 cc0_scratch10 1 ⟨k.val + 1, q1⟩ (slotM1.view.junk (Val := Elt F)))
    isplitl [Hf1]; · iexact Hf1
    isplitl [Ho1]; · iexact Ho1
    isplitl [Hm1]; · iexact Hm1
    iexact Hf1_dst
  isplitl [Hg2]; · iexact Hg2
  isplitl [Hg3]; · iexact Hg3
  isplitl [Ho4 Hi4 Hm4]
  · iapply (gfl_of_run m d L slotM4 cc0_scratch7 cc0_scratch13 4 ⟨k.val + 4, q4⟩ ((k0_off7_eq L k).trans (chOff_add4 L k.val))
      (inb_of_eq L ⟨k.val + 4, q4⟩ ((k0_off7_eq L k).trans (chOff_add4 L k.val))) f4 _ rfl)
    isplitl [Ho4]; · iexact Ho4
    isplitl [Hi4]; · iexact Hi4
    iexact Hm4
  isplitl [H5]; · iexact H5
  isplitl [Hi0 Hm0 Ho0]
  · iapply (sfl_of_sent m d L 0 1 cc0_scratch3 cc0_scratch9 0 ⟨k.val, q0⟩ q1 hf0 (holds_landed m d L slotM1 ⟨k.val + 1, q1⟩ (slotM1.view.junk (Val := Elt F))) hfill
      (k0_off330_eq L k) (inbO330 L k) (m (oLoc d)) _ rfl)
    isplitl [Hi0]; · iexact Hi0
    isplitl [Hm0]; · iexact Hm0
    iexact Ho0
  iexact Hrest

end Cert.Proof.BitsK

end
-- ==== Proof.BitsTripE1.lean ====
/-
  The second trip of the main loop (trip 1, chunk 1 in slot 1 of the scratch ring). Chunk 0 is on its way out of slot 0 and is
  not waited for yet: the trip fetches chunk 5 into the free slot 5, waits for the fetch of chunk 2 into slot 2, rotates slot 1 up
  by one row, fills its last row from the first row of slot 2, and sends slot 1 out as chunk 1 of the result: rows 1 … 31 of chunk
  1 of `mem` and row 0 of chunk 2. The invariant at trip 1 gives the invariant at trip 2, the first steady one, with the slots'
  roles moved on by one. The trip number is kept as a variable with the facts that pin it (one more than a multiple of six, below 2).
-/
import proofs.«213455_g39170101740086_cont_8to1_b_302_25_alg».proof.Proof.BitsTripE0

set_option maxHeartbeats 4000000
-- a condition decided under the trip's facts takes a `Decidable` instance one implication deeper per fact
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-- The outgoing chunk's slice, as ring slot 1's branch names it, lies inside the result. -/
theorem inbO331 (k : Fin k0_t1_loop.trips) : ∀ a, k0_off331 L k a + S32x512.size a ≤ S65536x512.size a := by
  intro a; rw [k0_off331_eq L k]; exact chOff_inb L (kCh k) a

variable [FloatOps F]

theorem tripE1 (k : Fin k0_t1_loop.trips) (hk : k.val % 6 = 1) (hhi : k.val < 2)
    (O : CellTallies nD τ sig (HIx 1)) (W : Waits sig (HIx 1)) (R : sProp 𝕄) :
    iprop(Transfers.MayWaits (thr d L) (none : HIx 1) O ∗ R
        ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _) bbW (Memref.isWhole_whole _) nbW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm1 : k.val - 1 < 64 := by omega
  rw [InvGen_early1 m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val (by omega)
      ⟨k.val, q0⟩ ⟨k.val + 1, q1⟩ ⟨k.val + 2, q2⟩ ⟨k.val + 3, q3⟩ ⟨k.val - 1, qm1⟩ rfl rfl rfl rfl (by show k.val - 1 + 1 = k.val; omega),
    InvGen_steady m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0,
    held_eq m d L slotM1 cc0_scratch4 cc0_scratch10 1 ⟨k.val, q0⟩, gfl_eq m d L slotM2 cc0_scratch5 cc0_scratch11 2 ⟨k.val + 1, q1⟩,
    free_eq m d L slotM5 cc0_scratch8 cc0_scratch14 5,
    chunk_respell d L ⟨k.val, q0⟩ (k0_off331_eq L k) (inbO331 L k) (m (oLoc d)),
    ← outs_step_none m d L k.val q0 (Or.inl hhi)]
  -- the read tokens spelt out: an issue takes the token its semaphore's number names
  unfold tokM
  iintro ⟨#Hmw, HR, ⟨%W0, HW0, HO⟩, ⟨Hi1, Ho1, Hm1, %f0, Hhf0, Hs1⟩, ⟨Ho2, ⟨%g2, Hf2⟩, Hm2⟩, Hg3, Hg4,
    ⟨Hi5, Ho5, Hm5, %f5, Hs5⟩, Hst0, Hoc, Hrest⟩
  unfold k0_t1_body
  sl_exec_parts (disch := cond_disch)
  sl_for (fun (j : Nat) (_ : PUnit) => (iprop(∃ g : Ring F, ⌜Rot 1 (256 * j) f0 g⌝ ∗ slotM1.view.loc (thr d L) ↦[slotM1.view.set]{fullShare} g) : sProp 𝕄)) $$ [Hs1]
  case region =>
    intro g _
    have hg : g.val < 3 := g.isLt
    iintro ⟨%f, %hf, Hs⟩
    sl_exec_parts (disch := omega)
    sl_step
    iexists _
    isplitr
    rotate_left
    · iexact Hs
    · ipureintro
      rot_chain 1 (256 * g.val) from 256 to 0
      exact rot_cast hf (by omega)
  · iexists f0
    isplitr
    · ipureintro; exact rot_zero 1 f0
    · iexact Hs1
  iintro %_ HI
  icases HI with ⟨%f2, Hhf2, Hs1⟩
  sl_exec_parts (disch := cond_disch)
  sl_step
  icases HW0 with %hW0
  icases Hhf0 with %hf0
  icases Hhf2 with %hf2
  have hf2' : Rot 1 768 f0 f2 := rot_cast hf2 (by decide +kernel)
  have hfill : Fill2 1 2 32 f0
      (slotM2.view.writes (Elt F) (slotM2.view.junk (Val := Elt F)) [⟨Rect.whole S32x512, gpay m d L ⟨k.val + 1, q1⟩⟩] : Ring F)
      (tripE1.sl.Hs1_w256 m d L k q1 f2) := by
    fill_chain 1 2 from 32 to 0
    refine fill2_zero 2 _ ?_
    rot_chain 1 768 from 224 to 0
    exact rot_cast hf2' (by omega)
  isplitl []; · iexact Hmw
  isplitl [HR]; · iexact HR
  isplitl [HO]
  · iexists _
    isplitr
    rotate_left
    · iexact HO
    · ipureintro
      intro p hp
      rcases Finset.mem_insert.1 hp with rfl | hp
      · exact Or.inr rfl
      · exact hW0 p hp
  isplitl [Hf2 Ho2 Hm2 Hf2_dst]
  · iapply (held_of_landed m d L slotM2 cc0_scratch5 cc0_scratch11 2 ⟨k.val + 1, q1⟩ (slotM2.view.junk (Val := Elt F)))
    isplitl [Hf2]; · iexact Hf2
    isplitl [Ho2]; · iexact Ho2
    isplitl [Hm2]; · iexact Hm2
    iexact Hf2_dst
  isplitl [Hg3]; · iexact Hg3
  isplitl [Hg4]; · iexact Hg4
  isplitl [Ho5 Hi5 Hm5]
  · iapply (gfl_of_run m d L slotM5 cc0_scratch8 cc0_scratch14 5 ⟨k.val + 4, q4⟩ ((k0_off8_eq L k).trans (chOff_add4 L k.val))
      (inb_of_eq L ⟨k.val + 4, q4⟩ ((k0_off8_eq L k).trans (chOff_add4 L k.val))) f5 _ rfl)
    isplitl [Ho5]; · iexact Ho5
    isplitl [Hi5]; · iexact Hi5
    iexact Hm5
  isplitl [Hst0]; · iexact Hst0
  isplitl [Hi1 Hm1 Ho1]
  · iapply (sfl_of_sent m d L 1 2 cc0_scratch4 cc0_scratch10 1 ⟨k.val, q0⟩ q1 hf0 (holds_landed m d L slotM2 ⟨k.val + 1, q1⟩ (slotM2.view.junk (Val := Elt F))) hfill
      (k0_off331_eq L k) (inbO331 L k) (m (oLoc d)) _ rfl)
    isplitl [Hi1]; · iexact Hi1
    isplitl [Hm1]; · iexact Hm1
    iexact Ho1
  iexact Hrest

end Cert.Proof.BitsK

end
-- ==== Proof.BitsTripS0.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 0: positions 0, 1, 2, 3, 4, 5 of the invariant are slots 0, 1, 2, 3, 4, 5.
-/
import proofs.«213455_g39170101740086_cont_8to1_b_302_25_alg».proof.Proof.BitsTripDefs
import proofs.«213455_g39170101740086_cont_8to1_b_302_25_alg».proof.Proof.BitsTripClose
import proofs.«213455_g39170101740086_cont_8to1_b_302_25_alg».proof.Proof.Gen.Kernel
import proofs.«213455_g39170101740086_cont_8to1_b_302_25_alg».proof.Proof.Gen.Kernel.Skeleton

set_option maxHeartbeats 4000000
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO330 (L : grid0.Coords) (k : Fin k0_t1_loop.trips) : ∀ a, k0_off330 L k a + S32x512.size a ≤ S65536x512.size a := by
  intro a; rw [k0_off330_eq L k]; exact chOff_inb L (kCh k) a
omit [FloatOps F] in
theorem inbM7 (L : grid0.Coords) (k : Fin k0_t1_loop.trips) (h4 : k.val + 4 < 64) : ∀ a, k0_off7 L k a + S32x512.size a ≤ S65536x512.size a := by
  intro a; rw [(k0_off7_eq L k).trans (chOff_add4 L k.val)]; exact chOff_inb L ⟨k.val + 4, h4⟩ a

theorem tripS0 (k : Fin k0_t1_loop.trips) (hk : k.val % 6 = 0) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off330_eq L k) (inbO330 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 0 (256 * j) f0 g⌝ ∗ slotM0.view.loc (thr d L) ↦[slotM0.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 0 (256 * g.val) from 256 to 0
      exact rot_cast hf (by omega)
  · iexists f0
    isplitr
    · ipureintro; exact rot_zero 0 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM1 ⟨k.val + 1, q1⟩
      (slotM1.view.writes (Elt F) slotM1.view.junk [⟨Rect.whole S32x512, gpay m d L ⟨k.val + 1, q1⟩⟩]) :=
    holds_landed m d L slotM1 ⟨k.val + 1, q1⟩ _
  have hfill : Fill2 0 1 32 f0 (slotM1.view.writes (Elt F) slotM1.view.junk [⟨Rect.whole S32x512, gpay m d L ⟨k.val + 1, q1⟩⟩])
      (tripS0.sl.Hs0_w256 m d L k q1 f2) := by
    fill_chain 0 1 from 32 to 0
    refine fill2_zero 1 _ ?_
    rot_chain 0 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM1 cc0_scratch4 cc0_scratch10 1 ⟨k.val + 1, q1⟩ slotM1.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM4 cc0_scratch7 cc0_scratch13 4 ⟨k.val + 4, q4⟩ ((k0_off7_eq L k).trans (chOff_add4 L k.val)) (inbM7 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM0 cc0_scratch3 cc0_scratch9 0 ⟨k.val, q0⟩ : sProp 𝕄) from
        sfl_of_sent m d L 0 1 cc0_scratch3 cc0_scratch9 0 ⟨k.val, q0⟩ q1 hf0 hf1 hfill (k0_off330_eq L k) (inbO330 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.BitsK

end
-- ==== Proof.BitsTripS1.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 1: positions 0, 1, 2, 3, 4, 5 of the invariant are slots 1, 2, 3, 4, 5, 0.
-/
import proofs.«213455_g39170101740086_cont_8to1_b_302_25_alg».proof.Proof.BitsTripDefs
import proofs.«213455_g39170101740086_cont_8to1_b_302_25_alg».proof.Proof.BitsTripClose
import proofs.«213455_g39170101740086_cont_8to1_b_302_25_alg».proof.Proof.Gen.Kernel
import proofs.«213455_g39170101740086_cont_8to1_b_302_25_alg».proof.Proof.Gen.Kernel.Skeleton

set_option maxHeartbeats 4000000
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO331 (L : grid0.Coords) (k : Fin k0_t1_loop.trips) : ∀ a, k0_off331 L k a + S32x512.size a ≤ S65536x512.size a := by
  intro a; rw [k0_off331_eq L k]; exact chOff_inb L (kCh k) a
omit [FloatOps F] in
theorem inbM8 (L : grid0.Coords) (k : Fin k0_t1_loop.trips) (h4 : k.val + 4 < 64) : ∀ a, k0_off8 L k a + S32x512.size a ≤ S65536x512.size a := by
  intro a; rw [(k0_off8_eq L k).trans (chOff_add4 L k.val)]; exact chOff_inb L ⟨k.val + 4, h4⟩ a

theorem tripS1 (k : Fin k0_t1_loop.trips) (hk : k.val % 6 = 1) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off331_eq L k) (inbO331 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 1 (256 * j) f0 g⌝ ∗ slotM1.view.loc (thr d L) ↦[slotM1.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 1 (256 * g.val) from 256 to 0
      exact rot_cast hf (by omega)
  · iexists f0
    isplitr
    · ipureintro; exact rot_zero 1 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM2 ⟨k.val + 1, q1⟩
      (slotM2.view.writes (Elt F) slotM2.view.junk [⟨Rect.whole S32x512, gpay m d L ⟨k.val + 1, q1⟩⟩]) :=
    holds_landed m d L slotM2 ⟨k.val + 1, q1⟩ _
  have hfill : Fill2 1 2 32 f0 (slotM2.view.writes (Elt F) slotM2.view.junk [⟨Rect.whole S32x512, gpay m d L ⟨k.val + 1, q1⟩⟩])
      (tripS1.sl.Hs0_w256 m d L k q1 f2) := by
    fill_chain 1 2 from 32 to 0
    refine fill2_zero 2 _ ?_
    rot_chain 1 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM2 cc0_scratch5 cc0_scratch11 2 ⟨k.val + 1, q1⟩ slotM2.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM5 cc0_scratch8 cc0_scratch14 5 ⟨k.val + 4, q4⟩ ((k0_off8_eq L k).trans (chOff_add4 L k.val)) (inbM8 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM1 cc0_scratch4 cc0_scratch10 1 ⟨k.val, q0⟩ : sProp 𝕄) from
        sfl_of_sent m d L 1 2 cc0_scratch4 cc0_scratch10 1 ⟨k.val, q0⟩ q1 hf0 hf1 hfill (k0_off331_eq L k) (inbO331 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.BitsK

end
-- ==== Proof.BitsTripS2.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 2: positions 0, 1, 2, 3, 4, 5 of the invariant are slots 2, 3, 4, 5, 0, 1.
-/
import proofs.«213455_g39170101740086_cont_8to1_b_302_25_alg».proof.Proof.BitsTripDefs
import proofs.«213455_g39170101740086_cont_8to1_b_302_25_alg».proof.Proof.BitsTripClose
import proofs.«213455_g39170101740086_cont_8to1_b_302_25_alg».proof.Proof.Gen.Kernel
import proofs.«213455_g39170101740086_cont_8to1_b_302_25_alg».proof.Proof.Gen.Kernel.Skeleton

set_option maxHeartbeats 4000000
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO332 (L : grid0.Coords) (k : Fin k0_t1_loop.trips) : ∀ a, k0_off332 L k a + S32x512.size a ≤ S65536x512.size a := by
  intro a; rw [k0_off332_eq L k]; exact chOff_inb L (kCh k) a
omit [FloatOps F] in
theorem inbM3 (L : grid0.Coords) (k : Fin k0_t1_loop.trips) (h4 : k.val + 4 < 64) : ∀ a, k0_off3 L k a + S32x512.size a ≤ S65536x512.size a := by
  intro a; rw [(k0_off3_eq L k).trans (chOff_add4 L k.val)]; exact chOff_inb L ⟨k.val + 4, h4⟩ a

theorem tripS2 (k : Fin k0_t1_loop.trips) (hk : k.val % 6 = 2) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off332_eq L k) (inbO332 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 2 (256 * j) f0 g⌝ ∗ slotM2.view.loc (thr d L) ↦[slotM2.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 2 (256 * g.val) from 256 to 0
      exact rot_cast hf (by omega)
  · iexists f0
    isplitr
    · ipureintro; exact rot_zero 2 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM3 ⟨k.val + 1, q1⟩
      (slotM3.view.writes (Elt F) slotM3.view.junk [⟨Rect.whole S32x512, gpay m d L ⟨k.val + 1, q1⟩⟩]) :=
    holds_landed m d L slotM3 ⟨k.val + 1, q1⟩ _
  have hfill : Fill2 2 3 32 f0 (slotM3.view.writes (Elt F) slotM3.view.junk [⟨Rect.whole S32x512, gpay m d L ⟨k.val + 1, q1⟩⟩])
      (tripS2.sl.Hs0_w256 m d L k q1 f2) := by
    fill_chain 2 3 from 32 to 0
    refine fill2_zero 3 _ ?_
    rot_chain 2 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM3 cc0_scratch6 cc0_scratch12 3 ⟨k.val + 1, q1⟩ slotM3.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM0 cc0_scratch3 cc0_scratch9 0 ⟨k.val + 4, q4⟩ ((k0_off3_eq L k).trans (chOff_add4 L k.val)) (inbM3 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM2 cc0_scratch5 cc0_scratch11 2 ⟨k.val, q0⟩ : sProp 𝕄) from
        sfl_of_sent m d L 2 3 cc0_scratch5 cc0_scratch11 2 ⟨k.val, q0⟩ q1 hf0 hf1 hfill (k0_off332_eq L k) (inbO332 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.BitsK

end
-- ==== Proof.BitsTripS3.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 3: positions 0, 1, 2, 3, 4, 5 of the invariant are slots 3, 4, 5, 0, 1, 2.
-/
import proofs.«213455_g39170101740086_cont_8to1_b_302_25_alg».proof.Proof.BitsTripDefs
import proofs.«213455_g39170101740086_cont_8to1_b_302_25_alg».proof.Proof.BitsTripClose
import proofs.«213455_g39170101740086_cont_8to1_b_302_25_alg».proof.Proof.Gen.Kernel
import proofs.«213455_g39170101740086_cont_8to1_b_302_25_alg».proof.Proof.Gen.Kernel.Skeleton

set_option maxHeartbeats 4000000
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO333 (L : grid0.Coords) (k : Fin k0_t1_loop.trips) : ∀ a, k0_off333 L k a + S32x512.size a ≤ S65536x512.size a := by
  intro a; rw [k0_off333_eq L k]; exact chOff_inb L (kCh k) a
omit [FloatOps F] in
theorem inbM4 (L : grid0.Coords) (k : Fin k0_t1_loop.trips) (h4 : k.val + 4 < 64) : ∀ a, k0_off4 L k a + S32x512.size a ≤ S65536x512.size a := by
  intro a; rw [(k0_off4_eq L k).trans (chOff_add4 L k.val)]; exact chOff_inb L ⟨k.val + 4, h4⟩ a

theorem tripS3 (k : Fin k0_t1_loop.trips) (hk : k.val % 6 = 3) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off333_eq L k) (inbO333 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 3 (256 * j) f0 g⌝ ∗ slotM3.view.loc (thr d L) ↦[slotM3.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 3 (256 * g.val) from 256 to 0
      exact rot_cast hf (by omega)
  · iexists f0
    isplitr
    · ipureintro; exact rot_zero 3 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM4 ⟨k.val + 1, q1⟩
      (slotM4.view.writes (Elt F) slotM4.view.junk [⟨Rect.whole S32x512, gpay m d L ⟨k.val + 1, q1⟩⟩]) :=
    holds_landed m d L slotM4 ⟨k.val + 1, q1⟩ _
  have hfill : Fill2 3 4 32 f0 (slotM4.view.writes (Elt F) slotM4.view.junk [⟨Rect.whole S32x512, gpay m d L ⟨k.val + 1, q1⟩⟩])
      (tripS3.sl.Hs0_w256 m d L k q1 f2) := by
    fill_chain 3 4 from 32 to 0
    refine fill2_zero 4 _ ?_
    rot_chain 3 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM4 cc0_scratch7 cc0_scratch13 4 ⟨k.val + 1, q1⟩ slotM4.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM1 cc0_scratch4 cc0_scratch10 1 ⟨k.val + 4, q4⟩ ((k0_off4_eq L k).trans (chOff_add4 L k.val)) (inbM4 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM3 cc0_scratch6 cc0_scratch12 3 ⟨k.val, q0⟩ : sProp 𝕄) from
        sfl_of_sent m d L 3 4 cc0_scratch6 cc0_scratch12 3 ⟨k.val, q0⟩ q1 hf0 hf1 hfill (k0_off333_eq L k) (inbO333 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.BitsK

end
-- ==== Proof.BitsTripS4.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 4: positions 0, 1, 2, 3, 4, 5 of the invariant are slots 4, 5, 0, 1, 2, 3.
-/
import proofs.«213455_g39170101740086_cont_8to1_b_302_25_alg».proof.Proof.BitsTripDefs
import proofs.«213455_g39170101740086_cont_8to1_b_302_25_alg».proof.Proof.BitsTripClose
import proofs.«213455_g39170101740086_cont_8to1_b_302_25_alg».proof.Proof.Gen.Kernel
import proofs.«213455_g39170101740086_cont_8to1_b_302_25_alg».proof.Proof.Gen.Kernel.Skeleton

set_option maxHeartbeats 4000000
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO334 (L : grid0.Coords) (k : Fin k0_t1_loop.trips) : ∀ a, k0_off334 L k a + S32x512.size a ≤ S65536x512.size a := by
  intro a; rw [k0_off334_eq L k]; exact chOff_inb L (kCh k) a
omit [FloatOps F] in
theorem inbM5 (L : grid0.Coords) (k : Fin k0_t1_loop.trips) (h4 : k.val + 4 < 64) : ∀ a, k0_off5 L k a + S32x512.size a ≤ S65536x512.size a := by
  intro a; rw [(k0_off5_eq L k).trans (chOff_add4 L k.val)]; exact chOff_inb L ⟨k.val + 4, h4⟩ a

theorem tripS4 (k : Fin k0_t1_loop.trips) (hk : k.val % 6 = 4) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM4 slotM5 slotM0 slotM1 slotM2 slotM3 cc0_scratch7 cc0_scratch8 cc0_scratch3 cc0_scratch4 cc0_scratch5 cc0_scratch6 cc0_scratch13 cc0_scratch14 cc0_scratch9 cc0_scratch10 cc0_scratch11 cc0_scratch12 4 5 0 1 2 3 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off334_eq L k) (inbO334 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 4 (256 * j) f0 g⌝ ∗ slotM4.view.loc (thr d L) ↦[slotM4.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 4 (256 * g.val) from 256 to 0
      exact rot_cast hf (by omega)
  · iexists f0
    isplitr
    · ipureintro; exact rot_zero 4 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM5 ⟨k.val + 1, q1⟩
      (slotM5.view.writes (Elt F) slotM5.view.junk [⟨Rect.whole S32x512, gpay m d L ⟨k.val + 1, q1⟩⟩]) :=
    holds_landed m d L slotM5 ⟨k.val + 1, q1⟩ _
  have hfill : Fill2 4 5 32 f0 (slotM5.view.writes (Elt F) slotM5.view.junk [⟨Rect.whole S32x512, gpay m d L ⟨k.val + 1, q1⟩⟩])
      (tripS4.sl.Hs0_w256 m d L k q1 f2) := by
    fill_chain 4 5 from 32 to 0
    refine fill2_zero 5 _ ?_
    rot_chain 4 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM5 cc0_scratch8 cc0_scratch14 5 ⟨k.val + 1, q1⟩ slotM5.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM2 cc0_scratch5 cc0_scratch11 2 ⟨k.val + 4, q4⟩ ((k0_off5_eq L k).trans (chOff_add4 L k.val)) (inbM5 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM4 cc0_scratch7 cc0_scratch13 4 ⟨k.val, q0⟩ : sProp 𝕄) from
        sfl_of_sent m d L 4 5 cc0_scratch7 cc0_scratch13 4 ⟨k.val, q0⟩ q1 hf0 hf1 hfill (k0_off334_eq L k) (inbO334 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.BitsK

end
-- ==== Proof.BitsTripS5.lean ====
/-
  One trip of the main loop in its steady state (2 ≤ k < 60), for the trips k of one residue mod 6. Position p of the
  invariant is the ring slot of chunk k + p: chunk k sits in the slot at position 0. The trip waits for the store of chunk
  k-2 out of the slot at position 4 and fetches chunk k+4 into it, waits for the fetch of chunk k+1 into the slot at
  position 1, rotates the slot at position 0 up by one row (992 moves of sixteen lanes), fills its last row from the first
  row of the slot at position 1 (32 moves), and sends it out as chunk k of the result. The invariant at trip k gives the
  invariant at trip k+1 with the positions moved on by one: what is sent is the result's chunk k, because its rows are rows
  1 … 31 of chunk k of mem and row 0 of chunk k+1.
  Here the residue is 5: positions 0, 1, 2, 3, 4, 5 of the invariant are slots 5, 0, 1, 2, 3, 4.
-/
import proofs.«213455_g39170101740086_cont_8to1_b_302_25_alg».proof.Proof.BitsTripDefs
import proofs.«213455_g39170101740086_cont_8to1_b_302_25_alg».proof.Proof.BitsTripClose
import proofs.«213455_g39170101740086_cont_8to1_b_302_25_alg».proof.Proof.Gen.Kernel
import proofs.«213455_g39170101740086_cont_8to1_b_302_25_alg».proof.Proof.Gen.Kernel.Skeleton

set_option maxHeartbeats 4000000
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

omit [FloatOps F] in
/-- Chunk `k` of the result and chunk `k + 4` of mem, at the offsets this residue's branches of the kernel compute for them,
    lie inside the arrays. -/
theorem inbO335 (L : grid0.Coords) (k : Fin k0_t1_loop.trips) : ∀ a, k0_off335 L k a + S32x512.size a ≤ S65536x512.size a := by
  intro a; rw [k0_off335_eq L k]; exact chOff_inb L (kCh k) a
omit [FloatOps F] in
theorem inbM6 (L : grid0.Coords) (k : Fin k0_t1_loop.trips) (h4 : k.val + 4 < 64) : ∀ a, k0_off6 L k a + S32x512.size a ≤ S65536x512.size a := by
  intro a; rw [(k0_off6_eq L k).trans (chOff_add4 L k.val)]; exact chOff_inb L ⟨k.val + 4, h4⟩ a

theorem tripS5 (k : Fin k0_t1_loop.trips) (hk : k.val % 6 = 5) (hlo : 2 ≤ k.val) (hhi : k.val < 60)
    (O : CellTallies nD τ sig (HIx 1)) (W : Waits sig (HIx 1)) (R : sProp 𝕄) :
    iprop(Transfers.MayWaits (thr d L) (none : HIx 1) O ∗ R
        ∗ InvGen m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W (k.val + 1)) := by
  have q0 : k.val < 64 := by omega
  have q1 : k.val + 1 < 64 := by omega
  have q2 : k.val + 2 < 64 := by omega
  have q3 : k.val + 3 < 64 := by omega
  have q4 : k.val + 4 < 64 := by omega
  have qm2 : k.val - 2 < 64 := by omega
  have qm1 : k.val - 1 < 64 := by omega
  rw [InvGen_steady m d L slotM5 slotM0 slotM1 slotM2 slotM3 slotM4 cc0_scratch8 cc0_scratch3 cc0_scratch4 cc0_scratch5 cc0_scratch6 cc0_scratch7 cc0_scratch14 cc0_scratch9 cc0_scratch10 cc0_scratch11 cc0_scratch12 cc0_scratch13 5 0 1 2 3 4 O W k.val
      ⟨k.val, q0⟩ ⟨k.val + 1, q1⟩ ⟨k.val + 2, q2⟩ ⟨k.val + 3, q3⟩ ⟨k.val - 2, qm2⟩ ⟨k.val - 1, qm1⟩ rfl rfl rfl rfl (by show k.val - 2 + 2 = k.val; omega) (by show k.val - 1 + 1 = k.val; omega),
    InvGen_steady m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W (k.val + 1)
      ⟨k.val + 1, q1⟩ ⟨k.val + 2, q2⟩ ⟨k.val + 3, q3⟩ ⟨k.val + 4, q4⟩ ⟨k.val - 1, qm1⟩ ⟨k.val, q0⟩ rfl rfl rfl rfl (by show k.val - 1 + 2 = k.val + 1; omega) rfl,
    outs_take m d L k.val q0]
  unfold held gfl sfl tokWhole tokM
  rw [chunk_respell d L ⟨k.val, q0⟩ (k0_off335_eq L k) (inbO335 L k) (m (oLoc d))]
  iintro ⟨#Hmw, HR, ⟨%W0, HW0, HO⟩, ⟨Hi0, Ho0, Hm0, %f0, Hhf0, Hs0⟩, ⟨Ho1, ⟨%g1, Hf1⟩, Hm1⟩, ⟨Ho2, ⟨%g2, Hf2⟩, Hm2⟩, ⟨Ho3, ⟨%g3, Hf3⟩, Hm3⟩,
    ⟨Hi4, Hm4, %f4, Hf4⟩, ⟨Hi5, Hm5, %f5, Hf5⟩, Hoc, Hrest⟩
  unfold k0_t1_body
  sl_exec_parts (disch := cond_disch)
  sl_for (fun (j : Nat) (_ : PUnit) => (iprop(∃ g : Ring F, ⌜Rot 5 (256 * j) f0 g⌝ ∗ slotM5.view.loc (thr d L) ↦[slotM5.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 5 (256 * g.val) from 256 to 0
      exact rot_cast hf (by omega)
  · iexists f0
    isplitr
    · ipureintro; exact rot_zero 5 f0
    · iexact Hs0
  iintro %_ HI
  icases HI with ⟨%f2, Hhf2, Hs0⟩
  sl_exec_parts (disch := cond_disch)
  sl_step
  icases Hhf0 with %hf0
  icases Hhf2 with %hf2
  icases HW0 with %hW0
  rw [← outs_step_steady m d L k.val q0 hlo hhi ⟨k.val - 2, qm2⟩ rfl]
  have hf1 : Holds m d L slotM0 ⟨k.val + 1, q1⟩
      (slotM0.view.writes (Elt F) slotM0.view.junk [⟨Rect.whole S32x512, gpay m d L ⟨k.val + 1, q1⟩⟩]) :=
    holds_landed m d L slotM0 ⟨k.val + 1, q1⟩ _
  have hfill : Fill2 5 0 32 f0 (slotM0.view.writes (Elt F) slotM0.view.junk [⟨Rect.whole S32x512, gpay m d L ⟨k.val + 1, q1⟩⟩])
      (tripS5.sl.Hs0_w256 m d L k q1 f2) := by
    fill_chain 5 0 from 32 to 0
    refine fill2_zero 0 _ ?_
    rot_chain 5 0 from 992 to 768
    exact rot_cast hf2 (by decide)
  isplitr
  · iexact Hmw
  isplitl [HR]
  · iexact HR
  isplitl [HO]
  · iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      exact hW0 p hp
  isplitl [Hf1 Ho1 Hm1 Hf1_dst]
  · ihave H := (held_of_landed m d L slotM0 cc0_scratch3 cc0_scratch9 0 ⟨k.val + 1, q1⟩ slotM0.view.junk) $$ [Hf1 Ho1 Hm1 Hf1_dst]
    · isplitl [Hf1]
      · iexact Hf1
      isplitl [Ho1]
      · iexact Ho1
      isplitl [Hm1]
      · iexact Hm1
      iexact Hf1_dst
    unfold held tokWhole tokM
    iexact H
  isplitl [Ho2 Hf2 Hm2]
  · isplitl [Ho2]
    · iexact Ho2
    isplitl [Hf2]
    · iexists g2; iexact Hf2
    iexact Hm2
  isplitl [Ho3 Hf3 Hm3]
  · isplitl [Ho3]
    · iexact Ho3
    isplitl [Hf3]
    · iexists g3; iexact Hf3
    iexact Hm3
  isplitl [Hf4 Hi4 Hm4]
  · ihave H := (gfl_of_run m d L slotM3 cc0_scratch6 cc0_scratch12 3 ⟨k.val + 4, q4⟩ ((k0_off6_eq L k).trans (chOff_add4 L k.val)) (inbM6 L k q4) f4 _ rfl) $$ [Hf4 Hi4 Hm4]
    · isplitl [Hf4]
      · iexact Hf4
      isplitl [Hi4]
      · iexact Hi4
      iexact Hm4
    unfold gfl tokM
    iexact H
  isplitl [Hi5 Hm5 Hf5]
  · isplitl [Hi5]
    · iexact Hi5
    isplitl [Hm5]
    · iexact Hm5
    iexists f5; iexact Hf5
  isplitl [Hi0 Hm0 Ho0]
  · ihave H := (show _ ⊢ (sfl m d L slotM5 cc0_scratch8 cc0_scratch14 5 ⟨k.val, q0⟩ : sProp 𝕄) from
        sfl_of_sent m d L 5 0 cc0_scratch8 cc0_scratch14 5 ⟨k.val, q0⟩ q1 hf0 hf1 hfill (k0_off335_eq L k) (inbO335 L k) (m (oLoc d)) _ rfl) $$ [Hi0 Hm0 Ho0]
    · isplitl [Hi0]
      · iexact Hi0
      isplitl [Hm0]
      · iexact Hm0
      iexact Ho0
    unfold sfl tokWhole tokM
    iexact H
  isplitl [Hf4_dst]
  · iexact Hf4_dst
  iexact Hrest

end Cert.Proof.BitsK

end
-- ==== Proof.BitsTripL0.lean ====
/-
  The last trips of the main loop, for a trip number that is a multiple of six (trip 60): chunk k sits in slot 0 of the
  scratch ring. From trip 60 on nothing is fetched any more and no store is waited for: the trip waits for the fetch of chunk
  k+1 into slot 1, rotates slot 0 up by one row, fills its last row from the first row of slot 1, and sends slot 0 out as chunk k
  of the result. The invariant at trip k gives the invariant at trip k+1 with the slots' roles moved on by one: the slot of chunk
  k+1 now holds it, the new store is in flight, and every other slot is in the state it was in, its chunk number respelt (past
  chunk 63 a position that would be a fetch is the store of the chunk six before).
-/
import proofs.«213455_g39170101740086_cont_8to1_b_302_25_alg».proof.Proof.BitsTripClose
import proofs.«213455_g39170101740086_cont_8to1_b_302_25_alg».proof.Proof.Gen.Kernel
import proofs.«213455_g39170101740086_cont_8to1_b_302_25_alg».proof.Proof.Gen.Kernel.Skeleton

set_option maxHeartbeats 4000000
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

/-! ## The invariant of a late trip, position by position -/

section Pos
variable (sM : Memref sig .scVector .vmem S32x512 .f32) (is os : DmaSems sig S_) (t : ℕ)

/-- Position 0 at a trip below 64 is the landed chunk. -/
theorem pos0_held (k : ℕ) (c : Fin 64) (e : c.val = k) : pos0 m d L sM is os t k = held m d L sM is os t c := by
  have q : k < 64 := by have := c.isLt; omega
  obtain rfl : c = ⟨k, q⟩ := Fin.ext e
  unfold pos0; rw [dif_pos q]
/-- A fetching position whose chunk exists is that chunk's fetch in flight. -/
theorem posG_gfl (k i : ℕ) (c : Fin 64) (e : c.val = k + i) : posG m d L sM is os t k i = gfl m d L sM is os t c := by
  have q : k + i < 64 := by have := c.isLt; omega
  obtain rfl : c = ⟨k + i, q⟩ := Fin.ext e
  unfold posG; rw [dif_pos q]
/-- A fetching position one trip on is the next fetching position now. -/
theorem posG_succ (k i j : ℕ) (hj : j = i + 1) : posG m d L sM is os t (k + 1) i = posG m d L sM is os t k j := by
  subst hj
  unfold posG
  rw [show k + 1 + i = k + (i + 1) from by omega]
/-- From trip 60 on the third fetching position one trip on is the store two before now. -/
theorem posG_of_posS (k : ℕ) (hlo : 60 ≤ k) : posG m d L sM is os t (k + 1) 3 = posS m d L sM is os t k 2 := by
  unfold posG posS
  rw [dif_neg (by omega : ¬ k + 1 + 3 < 64), if_pos (by omega : 2 ≤ k), show k + 1 + 3 - 6 = k - 2 from by omega]
/-- The store two before, one trip on, is the store one before now. -/
theorem posS_succ (k : ℕ) (h1 : 1 ≤ k) : posS m d L sM is os t (k + 1) 2 = posS m d L sM is os t k 1 := by
  unfold posS
  rw [if_pos (by omega : 2 ≤ k + 1), if_pos h1, show k + 1 - 2 = k - 1 from by omega]
/-- The store one before, one trip on, is the store of this trip's chunk. -/
theorem posS_new (k : ℕ) (c : Fin 64) (e : c.val = k) : posS m d L sM is os t (k + 1) 1 = sfl m d L sM is os t c := by
  have q : k < 64 := by have := c.isLt; omega
  obtain rfl : c = ⟨k, q⟩ := Fin.ext e
  unfold posS
  rw [if_pos (by omega : 1 ≤ k + 1), show k + 1 - 1 = k from by omega, dif_pos q]
end Pos

/-- At a trip k with 60 ≤ k < 63: chunk k has landed, chunk k + 1 is being fetched; the other four positions as they stand. -/
theorem InvGen_late (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ)
    (c0 c1 : Fin 64) (e0 : c0.val = k) (e1 : c1.val = k + 1) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ gfl m d L a1 i1 o1 t1 c1 ∗ posG m d L a2 i2 o2 t2 k 2 ∗ posG m d L a3 i3 o3 t3 k 3
          ∗ posS m d L a4 i4 o4 t4 k 2 ∗ posS m d L a5 i5 o5 t5 k 1 ∗ outs m d L k) := by
  unfold InvGen
  rw [pos0_held m d L a0 i0 o0 t0 k c0 e0, posG_gfl m d L a1 i1 o1 t1 k 1 c1 e1]

/-- One trip on, with the slots' roles moved on by one (60 ≤ k < 63): chunk k + 1 has landed, the four positions that were not
    touched are what they were, and chunk k is being stored. -/
theorem InvGen_late_next (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hlo : 60 ≤ k)
    (c0 c1 : Fin 64) (e0 : c0.val = k) (e1 : c1.val = k + 1) :
    InvGen m d L a1 a2 a3 a4 a5 a0 i1 i2 i3 i4 i5 i0 o1 o2 o3 o4 o5 o0 t1 t2 t3 t4 t5 t0 O W (k + 1)
      = iprop((∃ W', ⌜∀ p ∈ W', p ∈ W ∨ p.2 = none⌝ ∗ owes (thr d L) O W')
          ∗ held m d L a1 i1 o1 t1 c1 ∗ posG m d L a2 i2 o2 t2 k 2 ∗ posG m d L a3 i3 o3 t3 k 3
          ∗ posS m d L a4 i4 o4 t4 k 2 ∗ posS m d L a5 i5 o5 t5 k 1 ∗ sfl m d L a0 i0 o0 t0 c0 ∗ outs m d L (k + 1)) := by
  unfold InvGen
  rw [pos0_held m d L a1 i1 o1 t1 (k + 1) c1 e1, posG_succ m d L a2 i2 o2 t2 k 1 2 rfl, posG_succ m d L a3 i3 o3 t3 k 2 3 rfl,
    posG_of_posS m d L a4 i4 o4 t4 k hlo, posS_succ m d L a5 i5 o5 t5 k (by omega), posS_new m d L a0 i0 o0 t0 k c0 e0]

variable [FloatOps F]

theorem tripL0 (k : Fin k0_t1_loop.trips) (hk : k.val % 6 = 0) (hlo : 60 ≤ k.val) (hhi : k.val < 63)
    (O : CellTallies nD τ sig (HIx 1)) (W : Waits sig (HIx 1)) (R : sProp 𝕄) :
    iprop(Transfers.MayWaits (thr d L) (none : HIx 1) O ∗ R
        ∗ InvGen m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W (k.val + 1)) := by
  have q0 : k.val < 64 := by omega
  have q1 : k.val + 1 < 64 := by omega
  rw [InvGen_late m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val ⟨k.val, q0⟩ ⟨k.val + 1, q1⟩ rfl rfl,
    InvGen_late_next m d L slotM0 slotM1 slotM2 slotM3 slotM4 slotM5 cc0_scratch3 cc0_scratch4 cc0_scratch5 cc0_scratch6 cc0_scratch7 cc0_scratch8 cc0_scratch9 cc0_scratch10 cc0_scratch11 cc0_scratch12 cc0_scratch13 cc0_scratch14 0 1 2 3 4 5 O W k.val hlo ⟨k.val, q0⟩ ⟨k.val + 1, q1⟩ rfl rfl,
    ← outs_step_none m d L k.val q0 (Or.inr hlo), outs_take m d L k.val q0,
    held_eq m d L slotM0 cc0_scratch3 cc0_scratch9 0 ⟨k.val, q0⟩, gfl_eq m d L slotM1 cc0_scratch4 cc0_scratch10 1 ⟨k.val + 1, q1⟩,
    chunk_respell d L ⟨k.val, q0⟩ (k0_off330_eq L k) (inb_of_eq L ⟨k.val, q0⟩ (k0_off330_eq L k)) (m (oLoc d))]
  iintro ⟨#Hmw, HR, ⟨%W0, HW0, HO⟩, ⟨Hi0, Ho0, Hm0, %f0, Hhf0, Hs0⟩, ⟨Ho1, ⟨%g1, Hf1⟩, Hm1⟩, Hg2, Hg3, H4, H5, Hoc, Hrest⟩
  unfold k0_t1_body
  sl_exec_parts (disch := cond_disch)
  sl_for (fun (j : Nat) (_ : PUnit) => (iprop(∃ g : Ring F, ⌜Rot 0 (256 * j) f0 g⌝ ∗ slotM0.view.loc (thr d L) ↦[slotM0.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 0 (256 * g.val) from 256 to 0
      exact rot_cast hf (by omega)
  · iexists f0
    isplitr
    · ipureintro; exact rot_zero 0 f0
    · iexact Hs0
  iintro %_ HI
  icases HI with ⟨%f2, Hhf2, Hs0⟩
  sl_exec_parts (disch := cond_disch)
  rw [wp_ret]; imodintro
  icases HW0 with %hW0
  icases Hhf0 with %hf0
  icases Hhf2 with %hf2
  have ht : Scf.trips k0_t2_loop.lb k0_t2_loop.ub k0_t2_loop.st = 3 := rfl
  rw [ht] at hf2
  have hf1 : Holds m d L slotM1 ⟨k.val + 1, q1⟩ (slotM1.view.writes (Elt F) slotM1.view.junk [⟨Rect.whole S32x512, gpay m d L ⟨k.val + 1, q1⟩⟩]) :=
    holds_landed m d L slotM1 ⟨k.val + 1, q1⟩ _
  have hrot : Rot 0 992 f0 (tripL0.sl.Hs0_w224 k f2) := by
    rot_chain 0 768 from 224 to 0
    exact rot_cast hf2 (by omega)
  have hfill : Fill2 0 1 32 f0 (slotM1.view.writes (Elt F) slotM1.view.junk [⟨Rect.whole S32x512, gpay m d L ⟨k.val + 1, q1⟩⟩]) (tripL0.sl.Hs0_w256 m d L k q1 f2) := by
    fill_chain 0 1 from 32 to 0
    exact fill2_zero 1 _ hrot
  isplitr
  · iexact Hmw
  isplitl [HR]
  · iexact HR
  isplitl [HO]
  · iexists _
    isplitr
    rotate_left
    · iexact HO
    · ipureintro
      intro p hp
      rcases Finset.mem_insert.1 hp with rfl | h
      · exact Or.inr rfl
      · exact hW0 p h
  isplitl [Hf1 Ho1 Hm1 Hf1_dst]
  · iapply (held_of_landed m d L slotM1 cc0_scratch4 cc0_scratch10 1 ⟨k.val + 1, q1⟩ slotM1.view.junk)
    isplitl [Hf1]
    · iexact Hf1
    isplitl [Ho1]
    · iexact Ho1
    isplitl [Hm1]
    · iexact Hm1
    · iexact Hf1_dst
  isplitl [Hg2]
  · iexact Hg2
  isplitl [Hg3]
  · iexact Hg3
  isplitl [H4]
  · iexact H4
  isplitl [H5]
  · iexact H5
  isplitl [Hi0 Hm0 Ho0]
  · iapply (sfl_of_sent m d L 0 1 cc0_scratch3 cc0_scratch9 0 ⟨k.val, q0⟩ q1 hf0 hf1 hfill (k0_off330_eq L k)
      (inb_of_eq L ⟨k.val, q0⟩ (k0_off330_eq L k)) (m (oLoc d)) _ rfl)
    isplitl [Hi0]
    · iexact Hi0
    isplitl [Hm0]
    · iexact Hm0
    · iexact Ho0
  · iexact Hrest

end Cert.Proof.BitsK

end
-- ==== Proof.BitsTripL1.lean ====
/-
  The last trips of the main loop, for a trip number that leaves 1 on division by six (trip 61): chunk k sits in slot 1 of the
  scratch ring. Nothing is fetched any more and no store is waited for: the trip waits for the fetch of chunk k+1 into slot 2,
  rotates slot 1 up by one row, fills its last row from the first row of slot 2, and sends slot 1 out as chunk k of the
  result. The invariant at trip k gives the invariant at trip k+1 with the slots' roles moved on by one, exactly as for a
  multiple of six: only the slots, their semaphores and their read tokens are the next ones round the ring.
-/
import proofs.«213455_g39170101740086_cont_8to1_b_302_25_alg».proof.Proof.BitsTripClose
import proofs.«213455_g39170101740086_cont_8to1_b_302_25_alg».proof.Proof.BitsTripL0
import proofs.«213455_g39170101740086_cont_8to1_b_302_25_alg».proof.Proof.Gen.Kernel
import proofs.«213455_g39170101740086_cont_8to1_b_302_25_alg».proof.Proof.Gen.Kernel.Skeleton

set_option maxHeartbeats 4000000
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

variable [FloatOps F]

theorem tripL1 (k : Fin k0_t1_loop.trips) (hk : k.val % 6 = 1) (hlo : 60 ≤ k.val) (hhi : k.val < 63)
    (O : CellTallies nD τ sig (HIx 1)) (W : Waits sig (HIx 1)) (R : sProp 𝕄) :
    iprop(Transfers.MayWaits (thr d L) (none : HIx 1) O ∗ R
        ∗ InvGen m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W (k.val + 1)) := by
  have q0 : k.val < 64 := by omega
  have q1 : k.val + 1 < 64 := by omega
  rw [InvGen_late m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val ⟨k.val, q0⟩ ⟨k.val + 1, q1⟩ rfl rfl,
    InvGen_late_next m d L slotM1 slotM2 slotM3 slotM4 slotM5 slotM0 cc0_scratch4 cc0_scratch5 cc0_scratch6 cc0_scratch7 cc0_scratch8 cc0_scratch3 cc0_scratch10 cc0_scratch11 cc0_scratch12 cc0_scratch13 cc0_scratch14 cc0_scratch9 1 2 3 4 5 0 O W k.val hlo ⟨k.val, q0⟩ ⟨k.val + 1, q1⟩ rfl rfl,
    ← outs_step_none m d L k.val q0 (Or.inr hlo), outs_take m d L k.val q0,
    held_eq m d L slotM1 cc0_scratch4 cc0_scratch10 1 ⟨k.val, q0⟩, gfl_eq m d L slotM2 cc0_scratch5 cc0_scratch11 2 ⟨k.val + 1, q1⟩,
    chunk_respell d L ⟨k.val, q0⟩ (k0_off331_eq L k) (inb_of_eq L ⟨k.val, q0⟩ (k0_off331_eq L k)) (m (oLoc d))]
  iintro ⟨#Hmw, HR, ⟨%W0, HW0, HO⟩, ⟨Hi0, Ho0, Hm0, %f0, Hhf0, Hs0⟩, ⟨Ho1, ⟨%g1, Hf1⟩, Hm1⟩, Hg2, Hg3, H4, H5, Hoc, Hrest⟩
  unfold k0_t1_body
  sl_exec_parts (disch := cond_disch)
  sl_for (fun (j : Nat) (_ : PUnit) => (iprop(∃ g : Ring F, ⌜Rot 1 (256 * j) f0 g⌝ ∗ slotM1.view.loc (thr d L) ↦[slotM1.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 1 (256 * g.val) from 256 to 0
      exact rot_cast hf (by omega)
  · iexists f0
    isplitr
    · ipureintro; exact rot_zero 1 f0
    · iexact Hs0
  iintro %_ HI
  icases HI with ⟨%f2, Hhf2, Hs0⟩
  sl_exec_parts (disch := cond_disch)
  rw [wp_ret]; imodintro
  icases HW0 with %hW0
  icases Hhf0 with %hf0
  icases Hhf2 with %hf2
  have ht : Scf.trips k0_t2_loop.lb k0_t2_loop.ub k0_t2_loop.st = 3 := rfl
  rw [ht] at hf2
  have hf1 : Holds m d L slotM2 ⟨k.val + 1, q1⟩ (slotM2.view.writes (Elt F) slotM2.view.junk [⟨Rect.whole S32x512, gpay m d L ⟨k.val + 1, q1⟩⟩]) :=
    holds_landed m d L slotM2 ⟨k.val + 1, q1⟩ _
  have hrot : Rot 1 992 f0 (tripL1.sl.Hs0_w224 k f2) := by
    rot_chain 1 768 from 224 to 0
    exact rot_cast hf2 (by omega)
  have hfill : Fill2 1 2 32 f0 (slotM2.view.writes (Elt F) slotM2.view.junk [⟨Rect.whole S32x512, gpay m d L ⟨k.val + 1, q1⟩⟩]) (tripL1.sl.Hs0_w256 m d L k q1 f2) := by
    fill_chain 1 2 from 32 to 0
    exact fill2_zero 2 _ hrot
  isplitr
  · iexact Hmw
  isplitl [HR]
  · iexact HR
  isplitl [HO]
  · iexists _
    isplitr
    rotate_left
    · iexact HO
    · ipureintro
      intro p hp
      rcases Finset.mem_insert.1 hp with rfl | h
      · exact Or.inr rfl
      · exact hW0 p h
  isplitl [Hf1 Ho1 Hm1 Hf1_dst]
  · iapply (held_of_landed m d L slotM2 cc0_scratch5 cc0_scratch11 2 ⟨k.val + 1, q1⟩ slotM2.view.junk)
    isplitl [Hf1]
    · iexact Hf1
    isplitl [Ho1]
    · iexact Ho1
    isplitl [Hm1]
    · iexact Hm1
    · iexact Hf1_dst
  isplitl [Hg2]
  · iexact Hg2
  isplitl [Hg3]
  · iexact Hg3
  isplitl [H4]
  · iexact H4
  isplitl [H5]
  · iexact H5
  isplitl [Hi0 Hm0 Ho0]
  · iapply (sfl_of_sent m d L 1 2 cc0_scratch4 cc0_scratch10 1 ⟨k.val, q0⟩ q1 hf0 hf1 hfill (k0_off331_eq L k)
      (inb_of_eq L ⟨k.val, q0⟩ (k0_off331_eq L k)) (m (oLoc d)) _ rfl)
    isplitl [Hi0]
    · iexact Hi0
    isplitl [Hm0]
    · iexact Hm0
    · iexact Ho0
  · iexact Hrest

end Cert.Proof.BitsK

end
-- ==== Proof.BitsTripL2.lean ====
/-
  The last trips of the main loop, for a trip number that leaves 2 on division by six (trip 62): chunk k sits in slot 2 of the
  scratch ring. Nothing is fetched any more and no store is waited for: the trip waits for the fetch of chunk k+1 into slot 3,
  rotates slot 2 up by one row, fills its last row from the first row of slot 3, and sends slot 2 out as chunk k of the
  result. The invariant at trip k gives the invariant at trip k+1 with the slots' roles moved on by one, exactly as for a
  multiple of six: only the slots, their semaphores and their read tokens are the next ones round the ring.
-/
import proofs.«213455_g39170101740086_cont_8to1_b_302_25_alg».proof.Proof.BitsTripClose
import proofs.«213455_g39170101740086_cont_8to1_b_302_25_alg».proof.Proof.BitsTripL0
import proofs.«213455_g39170101740086_cont_8to1_b_302_25_alg».proof.Proof.Gen.Kernel
import proofs.«213455_g39170101740086_cont_8to1_b_302_25_alg».proof.Proof.Gen.Kernel.Skeleton

set_option maxHeartbeats 4000000
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)

variable [FloatOps F]

theorem tripL2 (k : Fin k0_t1_loop.trips) (hk : k.val % 6 = 2) (hlo : 60 ≤ k.val) (hhi : k.val < 63)
    (O : CellTallies nD τ sig (HIx 1)) (W : Waits sig (HIx 1)) (R : sProp 𝕄) :
    iprop(Transfers.MayWaits (thr d L) (none : HIx 1) O ∗ R
        ∗ InvGen m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k.val)
      ⊢ wp frame (wpE (defs₀ (F := F)) 𝒱₀ (thr d L) none) Set.univ
          (k0_t1_body (F := F) L nW (Memref.isWhole_whole _) mW (Memref.isWhole_whole _) oW (Memref.isWhole_whole _) bufW (Memref.isWhole_whole _)
            bbW (Memref.isWhole_whole _) nbW (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 (widW L) (baseW L) k ())
          fun _ => iprop(Transfers.MayWaits (thr d L) (none : HIx 1) O ∗ R
            ∗ InvGen m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W (k.val + 1)) := by
  have q0 : k.val < 64 := by omega
  have q1 : k.val + 1 < 64 := by omega
  rw [InvGen_late m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k.val ⟨k.val, q0⟩ ⟨k.val + 1, q1⟩ rfl rfl,
    InvGen_late_next m d L slotM2 slotM3 slotM4 slotM5 slotM0 slotM1 cc0_scratch5 cc0_scratch6 cc0_scratch7 cc0_scratch8 cc0_scratch3 cc0_scratch4 cc0_scratch11 cc0_scratch12 cc0_scratch13 cc0_scratch14 cc0_scratch9 cc0_scratch10 2 3 4 5 0 1 O W k.val hlo ⟨k.val, q0⟩ ⟨k.val + 1, q1⟩ rfl rfl,
    ← outs_step_none m d L k.val q0 (Or.inr hlo), outs_take m d L k.val q0,
    held_eq m d L slotM2 cc0_scratch5 cc0_scratch11 2 ⟨k.val, q0⟩, gfl_eq m d L slotM3 cc0_scratch6 cc0_scratch12 3 ⟨k.val + 1, q1⟩,
    chunk_respell d L ⟨k.val, q0⟩ (k0_off332_eq L k) (inb_of_eq L ⟨k.val, q0⟩ (k0_off332_eq L k)) (m (oLoc d))]
  iintro ⟨#Hmw, HR, ⟨%W0, HW0, HO⟩, ⟨Hi0, Ho0, Hm0, %f0, Hhf0, Hs0⟩, ⟨Ho1, ⟨%g1, Hf1⟩, Hm1⟩, Hg2, Hg3, H4, H5, Hoc, Hrest⟩
  unfold k0_t1_body
  sl_exec_parts (disch := cond_disch)
  sl_for (fun (j : Nat) (_ : PUnit) => (iprop(∃ g : Ring F, ⌜Rot 2 (256 * j) f0 g⌝ ∗ slotM2.view.loc (thr d L) ↦[slotM2.view.set]{fullShare} g) : sProp 𝕄)) $$ [Hs0]
  case region =>
    intro g _
    have hg : g.val < 3 := g.isLt
    iintro ⟨%f, %hf, Hs⟩
    sl_exec_parts (disch := omega)
    sl_step
    iexists _
    isplitr
    rotate_left
    · iexact Hs
    · ipureintro
      rot_chain 2 (256 * g.val) from 256 to 0
      exact rot_cast hf (by omega)
  · iexists f0
    isplitr
    · ipureintro; exact rot_zero 2 f0
    · iexact Hs0
  iintro %_ HI
  icases HI with ⟨%f2, Hhf2, Hs0⟩
  sl_exec_parts (disch := cond_disch)
  rw [wp_ret]; imodintro
  icases HW0 with %hW0
  icases Hhf0 with %hf0
  icases Hhf2 with %hf2
  have ht : Scf.trips k0_t2_loop.lb k0_t2_loop.ub k0_t2_loop.st = 3 := rfl
  rw [ht] at hf2
  have hf1 : Holds m d L slotM3 ⟨k.val + 1, q1⟩ (slotM3.view.writes (Elt F) slotM3.view.junk [⟨Rect.whole S32x512, gpay m d L ⟨k.val + 1, q1⟩⟩]) :=
    holds_landed m d L slotM3 ⟨k.val + 1, q1⟩ _
  have hrot : Rot 2 992 f0 (tripL2.sl.Hs0_w224 k f2) := by
    rot_chain 2 768 from 224 to 0
    exact rot_cast hf2 (by omega)
  have hfill : Fill2 2 3 32 f0 (slotM3.view.writes (Elt F) slotM3.view.junk [⟨Rect.whole S32x512, gpay m d L ⟨k.val + 1, q1⟩⟩]) (tripL2.sl.Hs0_w256 m d L k q1 f2) := by
    fill_chain 2 3 from 32 to 0
    exact fill2_zero 3 _ hrot
  isplitr
  · iexact Hmw
  isplitl [HR]
  · iexact HR
  isplitl [HO]
  · iexists _
    isplitr
    rotate_left
    · iexact HO
    · ipureintro
      intro p hp
      rcases Finset.mem_insert.1 hp with rfl | h
      · exact Or.inr rfl
      · exact hW0 p h
  isplitl [Hf1 Ho1 Hm1 Hf1_dst]
  · iapply (held_of_landed m d L slotM3 cc0_scratch6 cc0_scratch12 3 ⟨k.val + 1, q1⟩ slotM3.view.junk)
    isplitl [Hf1]
    · iexact Hf1
    isplitl [Ho1]
    · iexact Ho1
    isplitl [Hm1]
    · iexact Hm1
    · iexact Hf1_dst
  isplitl [Hg2]
  · iexact Hg2
  isplitl [Hg3]
  · iexact Hg3
  isplitl [H4]
  · iexact H4
  isplitl [H5]
  · iexact H5
  isplitl [Hi0 Hm0 Ho0]
  · iapply (sfl_of_sent m d L 2 3 cc0_scratch5 cc0_scratch11 2 ⟨k.val, q0⟩ q1 hf0 hf1 hfill (k0_off332_eq L k)
      (inb_of_eq L ⟨k.val, q0⟩ (k0_off332_eq L k)) (m (oLoc d)) _ rfl)
    isplitl [Hi0]
    · iexact Hi0
    isplitl [Hm0]
    · iexact Hm0
    · iexact Ho0
  · iexact Hrest

end Cert.Proof.BitsK

end
-- ==== Proof.BitsRotTail.lean ====
/-
  The last row of a worker's last chunk. In the band's last trip row 31 of the slot is not filled from the next slot of
  the ring but from a scratch outside it: for every worker but the last, from row 0 of the eight boundary rows (the first row
  of the next worker's band); for the last worker, from the new row. One step reads sixteen lanes of that scratch and stores
  them through sixteen lanes of row 31 of the slot. After the slot's rotation and the thirty-two steps, read through the slot's
  own 32 x 512 view: row `r < 31` is the old row `r + 1`, and row 31 is row 0 of the boundary rows, or the new row.
-/
import proofs.«213455_g39170101740086_cont_8to1_b_302_25_alg».proof.Proof.BitsRot

noncomputable section

namespace Cert.Proof.BitsK
open Cert.Kernel Cert.Kernel.Gen

open Idealize.ShloMosaic

variable {F : FTy → Type}

/-! ## The two scratches outside the ring -/

/-- The contents of the eight boundary rows, an 8 x 512 array, -/
abbrev BRows (F : FTy → Type) : Type := (bbW : Memref sig .scVector .vmem S8x512 .f32).view.ty.Contents (Elt F)
/-- and of the new row, 512 lanes. -/
abbrev NRow (F : FTy → Type) : Type := (nbW : Memref sig .scVector .vmem S512 .f32).view.ty.Contents (Elt F)

/-- The index `(r, l)` of the boundary rows, each coordinate clamped into its range. -/
def bbC (r l : ℕ) : S8x512.Idx := ValueIdx.ix2 (⟨min r 7, by omega⟩ : Fin 8) (⟨min l 511, by omega⟩ : Fin 512)
theorem bbC_0 (r l : ℕ) : (bbC r l 0).val = min r 7 := rfl
theorem bbC_1 (r l : ℕ) : (bbC r l 1).val = min l 511 := rfl
/-- The index `l` of the new row, clamped into its range. -/
def nbC (l : ℕ) : S512.Idx := ValueIdx.ix1 (⟨min l 511, by omega⟩ : Fin 512)
theorem nbC_0 (l : ℕ) : (nbC l 0).val = min l 511 := rfl

theorem ext2b {x y : S8x512.Idx} (h0 : (x 0).val = (y 0).val) (h1 : (x 1).val = (y 1).val) : x = y :=
  funext fun a => Fin.ext (match a with | ⟨0, _⟩ => h0 | ⟨1, _⟩ => h1)
theorem ext1n {x y : S512.Idx} (h0 : (x 0).val = (y 0).val) : x = y :=
  funext fun a => Fin.ext (match a with | ⟨0, _⟩ => h0)

/-! ## Sixteen lanes through the casts -/

theorem x0_zero (x : S1x1x16.Idx) : (x 0).val = 0 := by have h : (x 0).val < 1 := (x 0).isLt; omega
theorem x1_zero (x : S1x1x16.Idx) : (x 1).val = 0 := by have h : (x 1).val < 1 := (x 1).isLt; omega

/-- One row of sixteen lanes cast to a vector and on to a 1 x 1 x 16 block: lane `l` of the block is lane `l` of the row. -/
theorem castB16 {α : Type} (v : S1x16.Idx → α) (x : S1x1x16.Idx) :
    shapeCast S1x1x16 (shapeCast S16 v shapeCasts_S1x16_S16) shapeCasts_S16_S1x1x16 x
      = v (ValueIdx.ix2 (⟨0, by decide⟩ : Fin 1) (⟨(x 2).val, (x 2).isLt⟩ : Fin 16)) := by
  have h0 := x0_zero x; have h1 := x1_zero x
  refine (shapeCast_apply _ shapeCasts_S16_S1x1x16 x (ValueIdx.ix1 (⟨(x 2).val, (x 2).isLt⟩ : Fin 16)) ?_).trans
    (shapeCast_apply _ shapeCasts_S1x16_S16 _ (ValueIdx.ix2 (⟨0, by decide⟩ : Fin 1) (⟨(x 2).val, (x 2).isLt⟩ : Fin 16)) ?_)
  · rw [Shape.rowMajor_val_one, Shape.rowMajor_val_three]
    show (x 2).val = ((x 0).val * 1 + (x 1).val) * 16 + (x 2).val
    rw [h0, h1]; omega
  · rw [Shape.rowMajor_val_two, Shape.rowMajor_val_one]
    show 0 * 16 + (x 2).val = (x 2).val
    omega

/-- A vector of sixteen lanes cast to itself and on to a 1 x 1 x 16 block: lane `l` of the block is lane `l` of the vector. -/
theorem castN16 {α : Type} (v : S16.Idx → α) (x : S1x1x16.Idx) :
    shapeCast S1x1x16 (shapeCast S16 v shapeCasts_S16_S16) shapeCasts_S16_S1x1x16 x
      = v (ValueIdx.ix1 (⟨(x 2).val, (x 2).isLt⟩ : Fin 16)) := by
  have h0 := x0_zero x; have h1 := x1_zero x
  rw [shapeCast_self v shapeCasts_S16_S16]
  refine shapeCast_apply _ shapeCasts_S16_S1x1x16 x (ValueIdx.ix1 (⟨(x 2).val, (x 2).isLt⟩ : Fin 16)) ?_
  rw [Shape.rowMajor_val_one, Shape.rowMajor_val_three]
  show (x 2).val = ((x 0).val * 1 + (x 1).val) * 16 + (x 2).val
  rw [h0, h1]; omega

/-! ## One step from the boundary rows -/

/-- The ring after the sixteen lanes at `srcB` of the boundary rows are read and stored through the sixteen lanes at `dst`. -/
def cpB16 (g : Ring F) (fb : BRows F) (dst : Fin 3 → ℕ) (srcB : Fin 2 → ℕ) (hd : ∀ a, dst a + S1x1x16.size a ≤ S6x32x512.size a)
    (hs : ∀ a, srcB a + S1x16.size a ≤ S8x512.size a) : Ring F :=
  View.write (Elt F) (bufW.access (Rect.unit (s := S6x32x512) dst S1x1x16.size hd)) g
    (shapeCast S1x1x16 (shapeCast S16 (bbW.view.readAt (Elt F) (Rect.unit (s := S8x512) srcB S1x16.size hs).toLoadRect fb) shapeCasts_S1x16_S16)
      shapeCasts_S16_S1x1x16) Finset.univ

/-- Index by index: inside the destination box the ring takes the boundary rows' value at the same lane offset; elsewhere
    it is unchanged. -/
theorem cpB16_apply (g : Ring F) (fb : BRows F) (dst : Fin 3 → ℕ) (srcB : Fin 2 → ℕ) (hd : ∀ a, dst a + S1x1x16.size a ≤ S6x32x512.size a)
    (hs : ∀ a, srcB a + S1x16.size a ≤ S8x512.size a) (idx : S6x32x512.Idx) :
    cpB16 g fb dst srcB hd hs idx = if inBox dst idx then fb (bbC (srcB 0) (srcB 1 + ((idx 2).val - dst 2))) else g idx := by
  unfold cpB16
  by_cases hin : inBox dst idx
  · rw [if_pos hin]
    obtain ⟨e0, e1, l2, u2⟩ := hin
    have hs0 : srcB 0 + 1 ≤ 8 := hs 0
    have hs1 : srcB 1 + 16 ≤ 512 := hs 1
    let x : S1x1x16.Idx := ValueIdx.ix3 (⟨0, by decide⟩ : Fin 1) (⟨0, by decide⟩ : Fin 1) (⟨(idx 2).val - dst 2, by omega⟩ : Fin 16)
    have hx : idx = (bufW.access (Rect.unit (s := S6x32x512) dst S1x1x16.size hd)).emb x :=
      ext3 (by show (idx 0).val = dst 0 + 1 * 0; omega) (by show (idx 1).val = dst 1 + 1 * 0; omega)
        (by show (idx 2).val = dst 2 + 1 * ((idx 2).val - dst 2); omega)
    refine (congrArg (View.write (Elt F) (bufW.access (Rect.unit (s := S6x32x512) dst S1x1x16.size hd)) g _ Finset.univ) hx).trans ?_
    rw [View.write_emb_of_mem _ _ (Finset.mem_univ x), cast_eq]
    refine (castB16 _ x).trans ?_
    rw [View.readAt_apply, View.read_apply, cast_eq]
    refine congrArg fb (ext2b ?_ ?_)
    · show srcB 0 + 1 * 0 = min (srcB 0) 7; omega
    · show srcB 1 + 1 * ((idx 2).val - dst 2) = min (srcB 1 + ((idx 2).val - dst 2)) 511; omega
  · rw [if_neg hin]
    refine View.write_of_not_mem _ _ _ fun hmem => hin ((mem_box dst hd idx).mp ?_)
    have e : (bufW.access (Rect.unit (s := S6x32x512) dst S1x1x16.size hd)).setOn Finset.univ = (Rect.unit (s := S6x32x512) dst S1x1x16.size hd).set :=
      View.set_slice_whole _ _
    exact e ▸ hmem

/-- Slot `b` fully rotated, and the first `16 m` lanes of its row 31 holding row 0 of the boundary rows. -/
def FillB (b m : ℕ) (f : Ring F) (fb : BRows F) (g : Ring F) : Prop :=
  ∀ idx : S6x32x512.Idx, g idx =
    if (idx 0).val = b then
      if (idx 1).val < 31 then f (ixC (idx 0).val ((idx 1).val + 1) (idx 2).val)
      else if (idx 2).val < 16 * m then fb (bbC 0 (idx 2).val) else f idx
    else f idx

theorem fillB_zero {b : ℕ} {f g : Ring F} (fb : BRows F) (h : Rot b 992 f g) : FillB b 0 f fb g := by
  intro idx
  have i1 := idx1_lt idx; have i2 := idx2_lt idx
  rw [h]
  by_cases h0 : (idx 0).val = b
  · rw [if_pos h0]
    by_cases h1 : (idx 1).val < 31
    · rw [if_pos h1, if_pos ⟨h0, by omega⟩]
    · rw [if_neg h1, if_neg (by omega), if_neg (fun hc => h1 (by omega))]
  · rw [if_neg h0, if_neg (fun hc => h0 hc.1)]

/-- Step `m` of the fill: lanes `16 m …` of row 0 of the boundary rows onto row 31 of slot `b`. -/
theorem fillB_step {b m : ℕ} {f g : Ring F} {fb : BRows F} (h : FillB b m f fb g) (hm : m < 32) {dst : Fin 3 → ℕ} {srcB : Fin 2 → ℕ}
    (hd : ∀ a, dst a + S1x1x16.size a ≤ S6x32x512.size a) (hs : ∀ a, srcB a + S1x16.size a ≤ S8x512.size a)
    (hdst : dst = ![b, 31, 16 * m]) (hsrc : srcB = ![0, 16 * m]) :
    FillB b (m + 1) f fb (cpB16 g fb dst srcB hd hs) := by
  intro idx
  have i0 := idx0_lt idx; have i1 := idx1_lt idx; have i2 := idx2_lt idx
  have d0 : dst 0 = b := by rw [hdst]; rfl
  have d1 : dst 1 = 31 := by rw [hdst]; rfl
  have d2 : dst 2 = 16 * m := by rw [hdst]; rfl
  have s0 : srcB 0 = 0 := by rw [hsrc]; rfl
  have s1 : srcB 1 = 16 * m := by rw [hsrc]; rfl
  rw [cpB16_apply]
  by_cases hin : inBox dst idx
  · rw [if_pos hin]
    obtain ⟨e0, e1, l2, u2⟩ := hin
    rw [d0] at e0; rw [d1] at e1; rw [d2] at l2 u2
    rw [if_pos e0, if_neg (by omega), if_pos (by omega), s0, s1, d2]
    refine congrArg fb (ext2b ?_ ?_)
    · rw [bbC_0, bbC_0]
    · rw [bbC_1, bbC_1]; omega
  · rw [if_neg hin, h]
    unfold inBox at hin
    rw [d0, d1, d2] at hin
    by_cases h0 : (idx 0).val = b
    · rw [if_pos h0, if_pos h0]
      by_cases h1 : (idx 1).val < 31
      · rw [if_pos h1, if_pos h1]
      · rw [if_neg h1, if_neg h1]
        by_cases h2 : (idx 2).val < 16 * m
        · rw [if_pos h2, if_pos (by omega)]
        · rw [if_neg h2, if_neg (fun hc => hin ⟨h0, by omega, by omega, by omega⟩)]
    · rw [if_neg h0, if_neg h0]

/-- Slot `b` after the rotation and the fill from the boundary rows, read through its own view: row `r < 31` is the old
    row `r + 1`, row 31 is row 0 of the boundary rows. -/
theorem rot_fillB_read {b : Fin 6} {f g : Ring F} {fb : BRows F} (h : FillB b.val 32 f fb g) (y : S32x512.Idx) :
    (slotMi b).view.read (Elt F) g y
      = if (y 0).val < 31 then (slotMi b).view.read (Elt F) f (rcC ((y 0).val + 1) (y 1).val)
        else fb (ValueIdx.ix2 (⟨0, by decide⟩ : Fin 8) (⟨(y 1).val, (y 1).isLt⟩ : Fin 512)) := by
  have hy0 : (y 0).val < 32 := (y 0).isLt
  have hy1 : (y 1).val < 512 := (y 1).isLt
  have hb := b.isLt
  rw [slot_read, slot_read, h, if_pos (by rw [ixC_0]; omega)]
  by_cases h1 : (y 0).val < 31
  · rw [if_pos h1, if_pos (by rw [ixC_1]; omega)]
    refine congrArg f (ext3 ?_ ?_ ?_)
    · rw [ixC_0, ixC_0, ixC_0] <;> omega
    · rw [ixC_1, ixC_1, ixC_1, rcC_0] <;> omega
    · rw [ixC_2, ixC_2, ixC_2, rcC_1] <;> omega
  · rw [if_neg h1, if_neg (by rw [ixC_1]; omega), if_pos (by rw [ixC_2]; omega)]
    refine congrArg fb (ext2b ?_ ?_)
    · rw [bbC_0]; rfl
    · rw [bbC_1, ixC_2]; show min (min (y 1).val 511) 511 = (y 1).val; omega

/-! ## One step from the new row -/

/-- The ring after the sixteen lanes at `srcN` of the new row are read and stored through the sixteen lanes at `dst`. -/
def cpN16 (g : Ring F) (fn : NRow F) (dst : Fin 3 → ℕ) (srcN : Fin 1 → ℕ) (hd : ∀ a, dst a + S1x1x16.size a ≤ S6x32x512.size a)
    (hs : ∀ a, srcN a + S16.size a ≤ S512.size a) : Ring F :=
  View.write (Elt F) (bufW.access (Rect.unit (s := S6x32x512) dst S1x1x16.size hd)) g
    (shapeCast S1x1x16 (shapeCast S16 (nbW.view.readAt (Elt F) (Rect.unit (s := S512) srcN S16.size hs).toLoadRect fn) shapeCasts_S16_S16)
      shapeCasts_S16_S1x1x16) Finset.univ

/-- Index by index: inside the destination box the ring takes the new row's value at the same lane offset; elsewhere it is
    unchanged. -/
theorem cpN16_apply (g : Ring F) (fn : NRow F) (dst : Fin 3 → ℕ) (srcN : Fin 1 → ℕ) (hd : ∀ a, dst a + S1x1x16.size a ≤ S6x32x512.size a)
    (hs : ∀ a, srcN a + S16.size a ≤ S512.size a) (idx : S6x32x512.Idx) :
    cpN16 g fn dst srcN hd hs idx = if inBox dst idx then fn (nbC (srcN 0 + ((idx 2).val - dst 2))) else g idx := by
  unfold cpN16
  by_cases hin : inBox dst idx
  · rw [if_pos hin]
    obtain ⟨e0, e1, l2, u2⟩ := hin
    have hs0 : srcN 0 + 16 ≤ 512 := hs 0
    let x : S1x1x16.Idx := ValueIdx.ix3 (⟨0, by decide⟩ : Fin 1) (⟨0, by decide⟩ : Fin 1) (⟨(idx 2).val - dst 2, by omega⟩ : Fin 16)
    have hx : idx = (bufW.access (Rect.unit (s := S6x32x512) dst S1x1x16.size hd)).emb x :=
      ext3 (by show (idx 0).val = dst 0 + 1 * 0; omega) (by show (idx 1).val = dst 1 + 1 * 0; omega)
        (by show (idx 2).val = dst 2 + 1 * ((idx 2).val - dst 2); omega)
    refine (congrArg (View.write (Elt F) (bufW.access (Rect.unit (s := S6x32x512) dst S1x1x16.size hd)) g _ Finset.univ) hx).trans ?_
    rw [View.write_emb_of_mem _ _ (Finset.mem_univ x), cast_eq]
    refine (castN16 _ x).trans ?_
    rw [View.readAt_apply, View.read_apply, cast_eq]
    refine congrArg fn (ext1n ?_)
    show srcN 0 + 1 * ((idx 2).val - dst 2) = min (srcN 0 + ((idx 2).val - dst 2)) 511; omega
  · rw [if_neg hin]
    refine View.write_of_not_mem _ _ _ fun hmem => hin ((mem_box dst hd idx).mp ?_)
    have e : (bufW.access (Rect.unit (s := S6x32x512) dst S1x1x16.size hd)).setOn Finset.univ = (Rect.unit (s := S6x32x512) dst S1x1x16.size hd).set :=
      View.set_slice_whole _ _
    exact e ▸ hmem

/-- Slot `b` fully rotated, and the first `16 m` lanes of its row 31 holding the new row. -/
def FillN (b m : ℕ) (f : Ring F) (fn : NRow F) (g : Ring F) : Prop :=
  ∀ idx : S6x32x512.Idx, g idx =
    if (idx 0).val = b then
      if (idx 1).val < 31 then f (ixC (idx 0).val ((idx 1).val + 1) (idx 2).val)
      else if (idx 2).val < 16 * m then fn (nbC (idx 2).val) else f idx
    else f idx

theorem fillN_zero {b : ℕ} {f g : Ring F} (fn : NRow F) (h : Rot b 992 f g) : FillN b 0 f fn g := by
  intro idx
  have i1 := idx1_lt idx; have i2 := idx2_lt idx
  rw [h]
  by_cases h0 : (idx 0).val = b
  · rw [if_pos h0]
    by_cases h1 : (idx 1).val < 31
    · rw [if_pos h1, if_pos ⟨h0, by omega⟩]
    · rw [if_neg h1, if_neg (by omega), if_neg (fun hc => h1 (by omega))]
  · rw [if_neg h0, if_neg (fun hc => h0 hc.1)]

/-- Step `m` of the fill: lanes `16 m …` of the new row onto row 31 of slot `b`. -/
theorem fillN_step {b m : ℕ} {f g : Ring F} {fn : NRow F} (h : FillN b m f fn g) (hm : m < 32) {dst : Fin 3 → ℕ} {srcN : Fin 1 → ℕ}
    (hd : ∀ a, dst a + S1x1x16.size a ≤ S6x32x512.size a) (hs : ∀ a, srcN a + S16.size a ≤ S512.size a)
    (hdst : dst = ![b, 31, 16 * m]) (hsrc : srcN = ![16 * m]) :
    FillN b (m + 1) f fn (cpN16 g fn dst srcN hd hs) := by
  intro idx
  have i0 := idx0_lt idx; have i1 := idx1_lt idx; have i2 := idx2_lt idx
  have d0 : dst 0 = b := by rw [hdst]; rfl
  have d1 : dst 1 = 31 := by rw [hdst]; rfl
  have d2 : dst 2 = 16 * m := by rw [hdst]; rfl
  have s0 : srcN 0 = 16 * m := by rw [hsrc]; rfl
  rw [cpN16_apply]
  by_cases hin : inBox dst idx
  · rw [if_pos hin]
    obtain ⟨e0, e1, l2, u2⟩ := hin
    rw [d0] at e0; rw [d1] at e1; rw [d2] at l2 u2
    rw [if_pos e0, if_neg (by omega), if_pos (by omega), s0, d2]
    refine congrArg fn (ext1n ?_)
    rw [nbC_0, nbC_0]; omega
  · rw [if_neg hin, h]
    unfold inBox at hin
    rw [d0, d1, d2] at hin
    by_cases h0 : (idx 0).val = b
    · rw [if_pos h0, if_pos h0]
      by_cases h1 : (idx 1).val < 31
      · rw [if_pos h1, if_pos h1]
      · rw [if_neg h1, if_neg h1]
        by_cases h2 : (idx 2).val < 16 * m
        · rw [if_pos h2, if_pos (by omega)]
        · rw [if_neg h2, if_neg (fun hc => hin ⟨h0, by omega, by omega, by omega⟩)]
    · rw [if_neg h0, if_neg h0]

/-- Slot `b` after the rotation and the fill from the new row, read through its own view: row `r < 31` is the old row
    `r + 1`, row 31 is the new row. -/
theorem rot_fillN_read {b : Fin 6} {f g : Ring F} {fn : NRow F} (h : FillN b.val 32 f fn g) (y : S32x512.Idx) :
    (slotMi b).view.read (Elt F) g y
      = if (y 0).val < 31 then (slotMi b).view.read (Elt F) f (rcC ((y 0).val + 1) (y 1).val)
        else fn (ValueIdx.ix1 (⟨(y 1).val, (y 1).isLt⟩ : Fin 512)) := by
  have hy0 : (y 0).val < 32 := (y 0).isLt
  have hy1 : (y 1).val < 512 := (y 1).isLt
  have hb := b.isLt
  rw [slot_read, slot_read, h, if_pos (by rw [ixC_0]; omega)]
  by_cases h1 : (y 0).val < 31
  · rw [if_pos h1, if_pos (by rw [ixC_1]; omega)]
    refine congrArg f (ext3 ?_ ?_ ?_)
    · rw [ixC_0, ixC_0, ixC_0] <;> omega
    · rw [ixC_1, ixC_1, ixC_1, rcC_0] <;> omega
    · rw [ixC_2, ixC_2, ixC_2, rcC_1] <;> omega
  · rw [if_neg h1, if_neg (by rw [ixC_1]; omega), if_pos (by rw [ixC_2]; omega)]
    refine congrArg fn (ext1n ?_)
    rw [nbC_0, ixC_2]; show min (min (y 1).val 511) 511 = (y 1).val; omega

end Cert.Proof.BitsK

end
-- ==== Proof.BitsTripLastA.lean ====
/-
  The last trip of the main loop (trip 63) for a worker that is not the last. Chunk 63 sits in slot 3 of the scratch ring;
  the other five slots hold the stores of chunks 58 … 62 in flight and are not touched. Nothing is fetched and no fetch is
  waited for: the trip rotates slot 3 up by one row, waits for the fetch of the eight boundary rows issued before the loop,
  fills row 31 of the slot from row 0 of those rows (the first row of the next worker's band), and sends the slot out as chunk
  63 of the result. The invariant at trip 63 with the tail in flight gives the invariant at 64 with the tail consumed: the
  semaphore at zero, the read token whole again, the boundary scratch at what landed.
-/
import proofs.«213455_g39170101740086_cont_8to1_b_302_25_alg».proof.Proof.BitsBody
import proofs.«213455_g39170101740086_cont_8to1_b_302_25_alg».proof.Proof.BitsTripClose
import proofs.«213455_g39170101740086_cont_8to1_b_302_25_alg».proof.Proof.BitsRotTail

set_option maxHeartbeats 4000000
set_option maxRecDepth 65536
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

/-! ## The invariant at the last trip, position by position -/

omit [FloatOps F] in
/-- At trip 63: chunk 63 has landed; the other five positions are the stores of chunks 58 … 62 in flight. -/
theorem InvGen_last (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k = 63) (c0 : Fin 64) (e0 : c0.val = k) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ sfl m d L a1 i1 o1 t1 ⟨58, by decide⟩ ∗ sfl m d L a2 i2 o2 t2 ⟨59, by decide⟩ ∗ sfl m d L a3 i3 o3 t3 ⟨60, by decide⟩
          ∗ sfl m d L a4 i4 o4 t4 ⟨61, by decide⟩ ∗ sfl m d L a5 i5 o5 t5 ⟨62, by decide⟩ ∗ outs m d L k) := by
  subst hk
  obtain rfl : c0 = ⟨63, by decide⟩ := Fin.ext e0
  unfold InvGen
  rw [pos0_lt m d L a0 i0 o0 t0 63 (by decide), posG_ge m d L a1 i1 o1 t1 63 1 (by decide) (by decide), posG_ge m d L a2 i2 o2 t2 63 2 (by decide) (by decide),
    posG_ge m d L a3 i3 o3 t3 63 3 (by decide) (by decide), posS_sfl m d L a4 i4 o4 t4 63 2 (by decide) (by decide), posS_sfl m d L a5 i5 o5 t5 63 1 (by decide) (by decide)]

omit [FloatOps F] in
/-- After trip 63, with the slots' roles moved on by one: the same five stores, and the store of chunk 63. -/
theorem InvGen_last_next (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k = 63) (c0 : Fin 64) (e0 : c0.val = k) :
    InvGen m d L a1 a2 a3 a4 a5 a0 i1 i2 i3 i4 i5 i0 o1 o2 o3 o4 o5 o0 t1 t2 t3 t4 t5 t0 O W (k + 1)
      = iprop((∃ W', ⌜∀ p ∈ W', p ∈ W ∨ p.2 = none⌝ ∗ owes (thr d L) O W')
          ∗ sfl m d L a1 i1 o1 t1 ⟨58, by decide⟩ ∗ sfl m d L a2 i2 o2 t2 ⟨59, by decide⟩ ∗ sfl m d L a3 i3 o3 t3 ⟨60, by decide⟩
          ∗ sfl m d L a4 i4 o4 t4 ⟨61, by decide⟩ ∗ sfl m d L a5 i5 o5 t5 ⟨62, by decide⟩ ∗ sfl m d L a0 i0 o0 t0 c0 ∗ outs m d L (k + 1)) := by
  subst hk
  obtain rfl : c0 = ⟨63, by decide⟩ := Fin.ext e0
  unfold InvGen
  rw [pos0_ge m d L a1 i1 o1 t1 (63 + 1) (by decide) (by decide), posG_ge m d L a2 i2 o2 t2 (63 + 1) 1 (by decide) (by decide),
    posG_ge m d L a3 i3 o3 t3 (63 + 1) 2 (by decide) (by decide), posG_ge m d L a4 i4 o4 t4 (63 + 1) 3 (by decide) (by decide),
    posS_sfl m d L a5 i5 o5 t5 (63 + 1) 2 (by decide) (by decide), posS_sfl m d L a0 i0 o0 t0 (63 + 1) 1 (by decide) (by decide)]

/-- For a worker that is not the last the loop's test of it holds. -/
theorem cond32_of_lt (L : grid0.Coords) (hw : (wL L).val < 31) : k0_cond32 L = 1#1 := by
  revert L; decide +kernel

/-- The loop's test "the worker is the last", on the word the kernel computes, fails for every other worker. -/
theorem condEq_of_lt (L : grid0.Coords) (hw : (wL L).val < 31) :
    ¬ (Scalar.cmpi .ne (Scalar.extui (Scalar.cmpi .eq (wWord L) 31#32) : BitVec 32) 0#32 = 1#1) := by
  revert L; decide +kernel

/-! ## What the landed scratch holds, and what the slot sends in the last trip -/

omit [FloatOps F] in
/-- The boundary scratch after the fetch of the eight boundary rows has landed whole holds those rows of `mem`. -/
theorem bb_landed (inb : ∀ a, k0_off1 L a + S8x512.size a ≤ S65536x512.size a) (fbb : BRows F) (y : S8x512.Idx) :
    View.write (Elt F) bbW.view fbb (bpay m d L inb) Finset.univ y = m (mLoc d) ((bRows L inb).view.emb y) := by
  have h := View.write_emb_of_mem (Val := Elt F) (v := bbW.view) fbb (bpay m d L inb) (Finset.mem_univ y)
  rw [cast_eq] at h
  exact h

omit [FloatOps F] in
/-- What slot `b` sends after the rotation and the fill from the landed boundary rows is the band's last chunk of the result,
    for a worker that is not the last: rows 1 … 31 of chunk 63 of `mem` and the first row of the next band. -/
theorem sent_is_GoutB {b : Fin 6} (c : Fin 64) (hc : c.val = 63) (hw : (wL L).val < 31)
    (inb : ∀ a, k0_off1 L a + S8x512.size a ≤ S65536x512.size a) {f0 g : Ring F} (fbb : BRows F)
    (h0 : Holds m d L (slotMi b) c f0)
    (hfill : FillB b.val 32 f0 (View.write (Elt F) bbW.view fbb (bpay m d L inb) Finset.univ) g) (fo : Buf (Elt F) (oLoc d)) :
    ((oChunk L c).view.loc (thr d L) ↦[(oChunk L c).view.set]{fullShare}
        (oChunk L c).view.writes (Elt F) fo [⟨Rect.whole S32x512, ReadAs.same.apply ((slotMi b).view.read (Elt F) g)⟩] : sProp 𝕄)
      = ((oChunk L c).view.loc (thr d L) ↦[(oChunk L c).view.set]{fullShare} Gout m d) := by
  refine out_chunk_congr m d L c _ fun y => ?_
  have hy0 : (y 0).val < 32 := (y 0).isLt
  have hy1 : (y 1).val < 512 := (y 1).isLt
  have hwr := View.read_writes_cons_emb (Val := Elt F) (oChunk L c).view fo (Rect.whole S32x512)
    (ReadAs.same.apply ((slotMi b).view.read (Elt F) g)) [] y
  rw [Rect.emb_whole_apply S32x512 y, View.read_apply, cast_eq] at hwr
  refine hwr.trans ?_
  show (slotMi b).view.read (Elt F) g y = _
  rw [rot_fillB_read hfill y]
  by_cases hr : (y 0).val < 31
  · rw [if_pos hr, h0, Gout_chunk_lt m d L c y hr]
    refine congrArg (m (mLoc d)) (congrArg _ (funext fun a => ?_))
    match a with
    | ⟨0, _⟩ => exact Fin.ext (by show min ((y 0).val + 1) 31 = (y 0).val + 1; omega)
    | ⟨1, _⟩ => exact Fin.ext (by show min (y 1).val 511 = (y 1).val; omega)
  · rw [if_neg hr, bb_landed m d L inb fbb, Gout_chunk_last_band m d L c hc hw inb y (by omega)]
    rfl

omit [FloatOps F] in
/-- The slot that held chunk 63, rotated and filled from the landed boundary rows, sent through a slice of the result at
    offsets equal to the chunk's: the store of chunk 63 in flight. -/
theorem sfl_of_sentB (b : Fin 6) (is os : DmaSems sig S_) (t : ℕ) (c : Fin 64) (hc : c.val = 63) (hw : (wL L).val < 31)
    (inbB : ∀ a, k0_off1 L a + S8x512.size a ≤ S65536x512.size a) {f0 g : Ring F} (fbb : BRows F)
    (h0 : Holds m d L (slotMi b) c f0)
    (hfill : FillB b.val 32 f0 (View.write (Elt F) bbW.view fbb (bpay m d L inbB) Finset.univ) g)
    {off : Fin 2 → ℕ} (h : off = chOff L c.val) (inb : ∀ a, off a + S32x512.size a ≤ S65536x512.size a)
    (fo : Buf (Elt F) (oLoc d)) (pay : S32x512.Idx → Elt F .f32) (hp : pay = ReadAs.same.apply ((slotMi b).view.read (Elt F) g)) :
    (iprop(semVal (thr d L, SemLoc.dma is.sem) 0 ∗ (mW.view.loc (thr d L) ↦{tokM L t} m (mLoc d))
        ∗ Transfers.Flight countersEmb (thr d L) (SemLoc.dma os.sem) (default : HIx 1) 524288
            iprop(((oW.slice (Rect.unit (s := S65536x512) off S32x512.size inb) (fun _ => rfl)).view.loc (thr d L)
                  ↦[(oW.slice (Rect.unit (s := S65536x512) off S32x512.size inb) (fun _ => rfl)).view.set]{fullShare}
                    (oW.slice (Rect.unit (s := S65536x512) off S32x512.size inb) (fun _ => rfl)).view.writes (Elt F) fo [⟨Rect.whole S32x512, pay⟩])
              ∗ (slotMi b).view.loc (thr d L) ↦[(slotMi b).view.set]{fullShare} g)) : sProp 𝕄)
      ⊢ sfl m d L (slotMi b) is os t c := by
  subst h; subst hp
  unfold sfl tokWhole
  iintro ⟨H1, H2, H3⟩
  isplitl [H1]
  · iexact H1
  isplitl [H2]
  · iexact H2
  iexists g
  iapply (Transfers.Flight_mono countersEmb (thr d L) (Entails.of_eq (congrArg (fun X : sProp 𝕄 => iprop(X ∗ (slotMi b).view.loc (thr d L) ↦[(slotMi b).view.set]{fullShare} g))
    (sent_is_GoutB m d L c hc hw inbB fbb h0 hfill fo)))) $$ H3

/-! ## The fill's steps, the lane block's number read off the goal -/

omit [FloatOps F] in
theorem fillB_step' {b m' mm : ℕ} {f g : Ring F} {fb : BRows F} (h : FillB b mm f fb g) (hm' : m' = mm + 1) (hm : mm < 32)
    {dst : Fin 3 → ℕ} {srcB : Fin 2 → ℕ} (hd : ∀ a, dst a + S1x1x16.size a ≤ S6x32x512.size a) (hs : ∀ a, srcB a + S1x16.size a ≤ S8x512.size a)
    (hdst : dst = ![b, 31, 16 * mm]) (hsrc : srcB = ![0, 16 * mm]) :
    FillB b m' f fb (cpB16 g fb dst srcB hd hs) := hm' ▸ fillB_step h hm hd hs hdst hsrc

open Lean Elab Tactic in
/-- `fillB_chain b from hi to lo`: the fill's steps from the boundary rows for the lane blocks `hi - 1` down to `lo`, last first. -/
elab "fillB_chain " b:term:max " from " hi:num " to " lo:num : tactic => do
  let hi := hi.getNat
  let lo := lo.getNat
  for i in [0:hi - lo] do
    let j := hi - 1 - i
    let jt := Syntax.mkNumLit (toString j)
    evalTactic (← `(tactic| refine fillB_step' (b := $b) (mm := $jt) ?_ (by omega) (by omega) _ _ (by off_vec) rfl))

/-! ## The trip -/

theorem tripLastA (k : Fin k0_t1_loop.trips) (hk : k.val = 63) (hw : (wL L).val < 31)
    (inb : ∀ a, k0_off1 L a + S8x512.size a ≤ S65536x512.size a) (fbb : Buf (Elt F) ((thr d L).loc cc0_scratch1))
    (O : CellTallies nD τ sig (HIx 1)) (W : Waits sig (HIx 1)) :
    TripStmt (F := F) d L k iprop(Transfers.MayWaits (thr d L) (none : HIx 1) O ∗ tailA0 m d L inb fbb ∗ InvR3 m d L O W k.val)
      iprop(Transfers.MayWaits (thr d L) (none : HIx 1) O ∗ tailA1 m d L ∗ InvR4 m d L O W (k.val + 1)) := by
  have q0 : k.val < 64 := by omega
  have hc32 : k0_cond32 L = 1#1 := cond32_of_lt L hw
  have hcEq := condEq_of_lt L hw
  unfold TripStmt InvR3 InvR4
  rw [InvGen_last m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val hk ⟨k.val, q0⟩ rfl,
    InvGen_last_next m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val hk ⟨k.val, q0⟩ rfl,
    ← outs_step_none m d L k.val q0 (Or.inr (by omega)), outs_take m d L k.val q0,
    held_eq m d L slotM3 cc0_scratch6 cc0_scratch12 3 ⟨k.val, q0⟩,
    chunk_respell d L ⟨k.val, q0⟩ (k0_off333_eq L k) (inb_of_eq L ⟨k.val, q0⟩ (k0_off333_eq L k)) (m (oLoc d))]
  unfold tailA0 tailA1 tokWhole tokM
  iintro ⟨#Hmw, ⟨Hm12r, Fl12⟩, ⟨%W0, HW0, HO⟩, ⟨Hi3, Ho3, Hm3, %f0, Hhf0, Hs3⟩, X1, X2, X3, X4, X5, Hoc, Hrest⟩
  unfold k0_t1_body
  sl_exec_parts (disch := first | sl_exact hc32 | sl_exact hcEq | cond_disch)
  sl_for (fun (j : Nat) (_ : PUnit) => (iprop(∃ g : Ring F, ⌜Rot 3 (256 * j) f0 g⌝ ∗ slotM3.view.loc (thr d L) ↦[slotM3.view.set]{fullShare} g) : sProp 𝕄)) $$ [Hs3]
  case region =>
    intro g _
    have hg : g.val < 3 := g.isLt
    iintro ⟨%f, %hf, Hs⟩
    sl_exec_parts (disch := omega)
    sl_step
    iexists _
    isplitr
    rotate_left
    · iexact Hs
    · ipureintro
      rot_chain 3 (256 * g.val) from 256 to 0
      exact rot_cast hf (by omega)
  · iexists f0
    isplitr
    · ipureintro; exact rot_zero 3 f0
    · iexact Hs3
  iintro %_ HI
  icases HI with ⟨%f2, Hhf2, Hs3⟩
  sl_exec_parts (disch := first | sl_exact hc32 | sl_exact hcEq | cond_disch)
  rw [wp_ret]; imodintro
  icases HW0 with %hW0
  icases Hhf0 with %hf0
  icases Hhf2 with %hf2
  have ht : Scf.trips k0_t2_loop.lb k0_t2_loop.ub k0_t2_loop.st = 3 := rfl
  rw [ht] at hf2
  have hrot : Rot 3 992 f0 (tripLastA.sl.Hs3_w224 k f2) := by
    rot_chain 3 768 from 224 to 0
    exact rot_cast hf2 (by omega)
  have hfill : FillB 3 32 f0 (View.write (Elt F) bbW.view fbb (bpay m d L inb) Finset.univ) (tripLastA.sl.Hs3_w256 m d L k inb fbb f2) := by
    fillB_chain 3 from 32 to 0
    exact fillB_zero _ hrot
  isplitr
  · iexact Hmw
  isplitl [Fl12 Hm12r Fl12_dst]
  · isplitl [Fl12]
    · iexact Fl12
    isplitl [Hm12r]
    · iexact Hm12r
    · iexists _
      iexact Fl12_dst
  isplitl [HO]
  · iexists _
    isplitr
    pick_goal 2
    · iexact HO
    · ipureintro
      intro p hp
      rcases Finset.mem_insert.1 hp with hp | hp
      · exact Or.inr (by subst hp; rfl)
      · exact hW0 p hp
  isplitl [X1]
  · iexact X1
  isplitl [X2]
  · iexact X2
  isplitl [X3]
  · iexact X3
  isplitl [X4]
  · iexact X4
  isplitl [X5]
  · iexact X5
  isplitl [Hi3 Hm3 Ho3]
  · iapply (sfl_of_sentB m d L 3 cc0_scratch6 cc0_scratch12 3 ⟨k.val, q0⟩ hk hw inb fbb hf0 hfill (k0_off333_eq L k)
      (inb_of_eq L ⟨k.val, q0⟩ (k0_off333_eq L k)) (m (oLoc d)) _ rfl)
    isplitl [Hi3]
    · iexact Hi3
    isplitl [Hm3]
    · iexact Hm3
    · iexact Ho3
  · iexact Hrest

end Cert.Proof.BitsK

end
-- ==== Proof.BitsTripLastB.lean ====
/-
  The last trip of the main loop (trip 63) for the last worker. Chunk 63 sits in slot 3 of the scratch ring; the other five
  slots hold the stores of chunks 58 … 62 in flight and are not touched. Nothing is fetched and no fetch is waited for: the
  trip rotates slot 3 up by one row, waits for the fetch of the vector `new` issued before the loop, fills row 31 of the slot
  from it (the last row of the result), and sends the slot out as chunk 63 of the result. The invariant at trip 63 with the
  tail in flight gives the invariant at 64 with the tail consumed: the semaphore at zero, the read share of `new` whole again,
  the scratch vector at what landed.
-/
import proofs.«213455_g39170101740086_cont_8to1_b_302_25_alg».proof.Proof.BitsBody
import proofs.«213455_g39170101740086_cont_8to1_b_302_25_alg».proof.Proof.BitsTripClose
import proofs.«213455_g39170101740086_cont_8to1_b_302_25_alg».proof.Proof.BitsRotTail

set_option maxHeartbeats 4000000
set_option maxRecDepth 65536
set_option synthInstance.maxSize 4096

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (d : Dev nD) (L : grid0.Coords)
variable [FloatOps F]

/-! ## The invariant at the last trip, position by position -/

omit [FloatOps F] in
/-- At trip 63: chunk 63 has landed; the other five positions are the stores of chunks 58 … 62 in flight. -/
theorem InvGen_lastN (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k = 63) (c0 : Fin 64) (e0 : c0.val = k) :
    InvGen m d L a0 a1 a2 a3 a4 a5 i0 i1 i2 i3 i4 i5 o0 o1 o2 o3 o4 o5 t0 t1 t2 t3 t4 t5 O W k
      = iprop((∃ W', ⌜∀ p ∈ W', p ∈ W ∨ p.2 = none⌝ ∗ owes (thr d L) O W')
          ∗ held m d L a0 i0 o0 t0 c0 ∗ sfl m d L a1 i1 o1 t1 ⟨58, by decide⟩ ∗ sfl m d L a2 i2 o2 t2 ⟨59, by decide⟩ ∗ sfl m d L a3 i3 o3 t3 ⟨60, by decide⟩
          ∗ sfl m d L a4 i4 o4 t4 ⟨61, by decide⟩ ∗ sfl m d L a5 i5 o5 t5 ⟨62, by decide⟩ ∗ outs m d L k) := by
  subst hk
  obtain rfl : c0 = ⟨63, by decide⟩ := Fin.ext e0
  unfold InvGen
  rw [pos0_lt m d L a0 i0 o0 t0 63 (by decide), posG_ge m d L a1 i1 o1 t1 63 1 (by decide) (by decide), posG_ge m d L a2 i2 o2 t2 63 2 (by decide) (by decide),
    posG_ge m d L a3 i3 o3 t3 63 3 (by decide) (by decide), posS_sfl m d L a4 i4 o4 t4 63 2 (by decide) (by decide), posS_sfl m d L a5 i5 o5 t5 63 1 (by decide) (by decide)]

omit [FloatOps F] in
/-- After trip 63, with the slots' roles moved on by one: the same five stores, and the store of chunk 63. -/
theorem InvGen_lastN_next (a0 a1 a2 a3 a4 a5 : Memref sig .scVector .vmem S32x512 .f32) (i0 i1 i2 i3 i4 i5 o0 o1 o2 o3 o4 o5 : DmaSems sig S_)
    (t0 t1 t2 t3 t4 t5 : ℕ) (O : CellTallies nD τ sig (HIx 1)) (W : Waits sig (HIx 1)) (k : ℕ) (hk : k = 63) (c0 : Fin 64) (e0 : c0.val = k) :
    InvGen m d L a1 a2 a3 a4 a5 a0 i1 i2 i3 i4 i5 i0 o1 o2 o3 o4 o5 o0 t1 t2 t3 t4 t5 t0 O W (k + 1)
      = iprop((∃ W', ⌜∀ p ∈ W', p ∈ W ∨ p.2 = none⌝ ∗ owes (thr d L) O W')
          ∗ sfl m d L a1 i1 o1 t1 ⟨58, by decide⟩ ∗ sfl m d L a2 i2 o2 t2 ⟨59, by decide⟩ ∗ sfl m d L a3 i3 o3 t3 ⟨60, by decide⟩
          ∗ sfl m d L a4 i4 o4 t4 ⟨61, by decide⟩ ∗ sfl m d L a5 i5 o5 t5 ⟨62, by decide⟩ ∗ sfl m d L a0 i0 o0 t0 c0 ∗ outs m d L (k + 1)) := by
  subst hk
  obtain rfl : c0 = ⟨63, by decide⟩ := Fin.ext e0
  unfold InvGen
  rw [pos0_ge m d L a1 i1 o1 t1 (63 + 1) (by decide) (by decide), posG_ge m d L a2 i2 o2 t2 (63 + 1) 1 (by decide) (by decide),
    posG_ge m d L a3 i3 o3 t3 (63 + 1) 2 (by decide) (by decide), posG_ge m d L a4 i4 o4 t4 (63 + 1) 3 (by decide) (by decide),
    posS_sfl m d L a5 i5 o5 t5 (63 + 1) 2 (by decide) (by decide), posS_sfl m d L a0 i0 o0 t0 (63 + 1) 1 (by decide) (by decide)]

/-- For the last worker the loop's test "not the last" fails. -/
theorem cond32_of_eq (L : grid0.Coords) (hw : (wL L).val = 31) : ¬ k0_cond32 L = 1#1 := by
  revert L; decide +kernel

/-- The loop's test "the worker is the last", on the word the kernel computes, holds for the last worker. -/
theorem condEq_of_eq (L : grid0.Coords) (hw : (wL L).val = 31) :
    Scalar.cmpi .ne (Scalar.extui (Scalar.cmpi .eq (wWord L) 31#32) : BitVec 32) 0#32 = 1#1 := by
  revert L; decide +kernel

/-! ## What the landed scratch holds, and what the slot sends in the last trip -/

omit [FloatOps F] in
/-- The scratch vector after the fetch of `new` has landed whole holds `new`. -/
theorem nb_landed (fnb : NRow F) (y : S512.Idx) :
    View.write (Elt F) nbW.view fnb (npay m d) Finset.univ y = m (nLoc d) y := by
  have h := View.write_emb_of_mem (Val := Elt F) (v := nbW.view) fnb (npay m d) (Finset.mem_univ y)
  rw [cast_eq] at h
  exact h

omit [FloatOps F] in
/-- What slot `b` sends after the rotation and the fill from the landed `new` is the band's last chunk of the result, for the
    last worker: rows 1 … 31 of chunk 63 of `mem` and the vector `new`. -/
theorem sent_is_GoutN {b : Fin 6} (c : Fin 64) (hc : c.val = 63) (hw : (wL L).val = 31) {f0 g : Ring F} (fnb : NRow F)
    (h0 : Holds m d L (slotMi b) c f0)
    (hfill : FillN b.val 32 f0 (View.write (Elt F) nbW.view fnb (npay m d) Finset.univ) g) (fo : Buf (Elt F) (oLoc d)) :
    ((oChunk L c).view.loc (thr d L) ↦[(oChunk L c).view.set]{fullShare}
        (oChunk L c).view.writes (Elt F) fo [⟨Rect.whole S32x512, ReadAs.same.apply ((slotMi b).view.read (Elt F) g)⟩] : sProp 𝕄)
      = ((oChunk L c).view.loc (thr d L) ↦[(oChunk L c).view.set]{fullShare} Gout m d) := by
  refine out_chunk_congr m d L c _ fun y => ?_
  have hy0 : (y 0).val < 32 := (y 0).isLt
  have hy1 : (y 1).val < 512 := (y 1).isLt
  have hwr := View.read_writes_cons_emb (Val := Elt F) (oChunk L c).view fo (Rect.whole S32x512)
    (ReadAs.same.apply ((slotMi b).view.read (Elt F) g)) [] y
  rw [Rect.emb_whole_apply S32x512 y, View.read_apply, cast_eq] at hwr
  refine hwr.trans ?_
  show (slotMi b).view.read (Elt F) g y = _
  rw [rot_fillN_read hfill y]
  by_cases hr : (y 0).val < 31
  · rw [if_pos hr, h0, Gout_chunk_lt m d L c y hr]
    refine congrArg (m (mLoc d)) (congrArg _ (funext fun a => ?_))
    match a with
    | ⟨0, _⟩ => exact Fin.ext (by show min ((y 0).val + 1) 31 = (y 0).val + 1; omega)
    | ⟨1, _⟩ => exact Fin.ext (by show min (y 1).val 511 = (y 1).val; omega)
  · rw [if_neg hr, nb_landed m d fnb, Gout_chunk_last_new m d L c hc hw y (by omega)]
    rfl

omit [FloatOps F] in
/-- The slot that held chunk 63, rotated and filled from the landed `new`, sent through a slice of the result at offsets equal
    to the chunk's: the store of chunk 63 in flight. -/
theorem sfl_of_sentN (b : Fin 6) (is os : DmaSems sig S_) (t : ℕ) (c : Fin 64) (hc : c.val = 63) (hw : (wL L).val = 31)
    {f0 g : Ring F} (fnb : NRow F) (h0 : Holds m d L (slotMi b) c f0)
    (hfill : FillN b.val 32 f0 (View.write (Elt F) nbW.view fnb (npay m d) Finset.univ) g)
    {off : Fin 2 → ℕ} (h : off = chOff L c.val) (inb : ∀ a, off a + S32x512.size a ≤ S65536x512.size a)
    (fo : Buf (Elt F) (oLoc d)) (pay : S32x512.Idx → Elt F .f32) (hp : pay = ReadAs.same.apply ((slotMi b).view.read (Elt F) g)) :
    (iprop(semVal (thr d L, SemLoc.dma is.sem) 0 ∗ (mW.view.loc (thr d L) ↦{tokM L t} m (mLoc d))
        ∗ Transfers.Flight countersEmb (thr d L) (SemLoc.dma os.sem) (default : HIx 1) 524288
            iprop(((oW.slice (Rect.unit (s := S65536x512) off S32x512.size inb) (fun _ => rfl)).view.loc (thr d L)
                  ↦[(oW.slice (Rect.unit (s := S65536x512) off S32x512.size inb) (fun _ => rfl)).view.set]{fullShare}
                    (oW.slice (Rect.unit (s := S65536x512) off S32x512.size inb) (fun _ => rfl)).view.writes (Elt F) fo [⟨Rect.whole S32x512, pay⟩])
              ∗ (slotMi b).view.loc (thr d L) ↦[(slotMi b).view.set]{fullShare} g)) : sProp 𝕄)
      ⊢ sfl m d L (slotMi b) is os t c := by
  subst h; subst hp
  unfold sfl tokWhole
  iintro ⟨H1, H2, H3⟩
  isplitl [H1]
  · iexact H1
  isplitl [H2]
  · iexact H2
  iexists g
  iapply (Transfers.Flight_mono countersEmb (thr d L) (Entails.of_eq (congrArg (fun X : sProp 𝕄 => iprop(X ∗ (slotMi b).view.loc (thr d L) ↦[(slotMi b).view.set]{fullShare} g))
    (sent_is_GoutN m d L c hc hw fnb h0 hfill fo)))) $$ H3

/-! ## The fill's steps, the lane block's number read off the goal -/

omit [FloatOps F] in
theorem fillN_step' {b m' mm : ℕ} {f g : Ring F} {fn : NRow F} (h : FillN b mm f fn g) (hm' : m' = mm + 1) (hm : mm < 32)
    {dst : Fin 3 → ℕ} {srcN : Fin 1 → ℕ} (hd : ∀ a, dst a + S1x1x16.size a ≤ S6x32x512.size a) (hs : ∀ a, srcN a + S16.size a ≤ S512.size a)
    (hdst : dst = ![b, 31, 16 * mm]) (hsrc : srcN = ![16 * mm]) :
    FillN b m' f fn (cpN16 g fn dst srcN hd hs) := hm' ▸ fillN_step h hm hd hs hdst hsrc

open Lean Elab Tactic in
/-- `fillN_chain b from hi to lo`: the fill's steps from the new row for the lane blocks `hi - 1` down to `lo`, last first. -/
elab "fillN_chain " b:term:max " from " hi:num " to " lo:num : tactic => do
  let hi := hi.getNat
  let lo := lo.getNat
  for i in [0:hi - lo] do
    let j := hi - 1 - i
    let jt := Syntax.mkNumLit (toString j)
    evalTactic (← `(tactic| refine fillN_step' (b := $b) (mm := $jt) ?_ (by omega) (by omega) _ _ (by off_vec) rfl))

/-! ## The trip -/

theorem tripLastB (k : Fin k0_t1_loop.trips) (hk : k.val = 63) (hw : (wL L).val = 31)
    (fnb : Buf (Elt F) ((thr d L).loc cc0_scratch2)) (O : CellTallies nD τ sig (HIx 1)) (W : Waits sig (HIx 1)) :
    TripStmt (F := F) d L k iprop(Transfers.MayWaits (thr d L) (none : HIx 1) O ∗ tailB0 m d L fnb ∗ InvR3 m d L O W k.val)
      iprop(Transfers.MayWaits (thr d L) (none : HIx 1) O ∗ tailB1 m d L ∗ InvR4 m d L O W (k.val + 1)) := by
  have q0 : k.val < 64 := by omega
  have hc32 : ¬ k0_cond32 L = 1#1 := cond32_of_eq L hw
  have hcEq := condEq_of_eq L hw
  unfold TripStmt InvR3 InvR4
  rw [InvGen_lastN m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val hk ⟨k.val, q0⟩ rfl,
    InvGen_lastN_next m d L slotM3 slotM4 slotM5 slotM0 slotM1 slotM2 cc0_scratch6 cc0_scratch7 cc0_scratch8 cc0_scratch3 cc0_scratch4 cc0_scratch5 cc0_scratch12 cc0_scratch13 cc0_scratch14 cc0_scratch9 cc0_scratch10 cc0_scratch11 3 4 5 0 1 2 O W k.val hk ⟨k.val, q0⟩ rfl,
    ← outs_step_none m d L k.val q0 (Or.inr (by omega)), outs_take m d L k.val q0,
    held_eq m d L slotM3 cc0_scratch6 cc0_scratch12 3 ⟨k.val, q0⟩,
    chunk_respell d L ⟨k.val, q0⟩ (k0_off333_eq L k) (inb_of_eq L ⟨k.val, q0⟩ (k0_off333_eq L k)) (m (oLoc d))]
  unfold tailB0 tailB1 tokM
  iintro ⟨#Hmw, ⟨Hnr, Fl13⟩, ⟨%W0, HW0, HO⟩, ⟨Hi3, Ho3, Hm3, %f0, Hhf0, Hs3⟩, X1, X2, X3, X4, X5, Hoc, Hrest⟩
  unfold k0_t1_body
  sl_exec_parts (disch := first | sl_exact hc32 | sl_exact hcEq | cond_disch)
  sl_for (fun (j : Nat) (_ : PUnit) => (iprop(∃ g : Ring F, ⌜Rot 3 (256 * j) f0 g⌝ ∗ slotM3.view.loc (thr d L) ↦[slotM3.view.set]{fullShare} g) : sProp 𝕄)) $$ [Hs3]
  case region =>
    intro g _
    have hg : g.val < 3 := g.isLt
    iintro ⟨%f, %hf, Hs⟩
    sl_exec_parts (disch := omega)
    sl_step
    iexists _
    isplitr
    rotate_left
    · iexact Hs
    · ipureintro
      rot_chain 3 (256 * g.val) from 256 to 0
      exact rot_cast hf (by omega)
  · iexists f0
    isplitr
    · ipureintro; exact rot_zero 3 f0
    · iexact Hs3
  iintro %_ HI
  icases HI with ⟨%f2, Hhf2, Hs3⟩
  sl_exec_parts (disch := first | sl_exact hc32 | sl_exact hcEq | cond_disch)
  rw [wp_ret]; imodintro
  icases HW0 with %hW0
  icases Hhf0 with %hf0
  icases Hhf2 with %hf2
  have ht : Scf.trips k0_t2_loop.lb k0_t2_loop.ub k0_t2_loop.st = 3 := rfl
  rw [ht] at hf2
  have hrot : Rot 3 992 f0 (tripLastB.sl.Hs3_w224 k f2) := by
    rot_chain 3 768 from 224 to 0
    exact rot_cast hf2 (by omega)
  have hfill : FillN 3 32 f0 (View.write (Elt F) nbW.view fnb (npay m d) Finset.univ) (tripLastB.sl.Hs3_w256 m d L k fnb f2) := by
    fillN_chain 3 from 32 to 0
    exact fillN_zero _ hrot
  isplitr
  · iexact Hmw
  isplitl [Fl13 Hnr Fl13_dst]
  · isplitl [Fl13]
    · iexact Fl13
    isplitl [Hnr]
    · iexact Hnr
    · iexists _
      iexact Fl13_dst
  isplitl [HO]
  · iexists _
    isplitr
    pick_goal 2
    · iexact HO
    · ipureintro
      intro p hp
      rcases Finset.mem_insert.1 hp with hp | hp
      · exact Or.inr (by subst hp; rfl)
      · exact hW0 p hp
  isplitl [X1]
  · iexact X1
  isplitl [X2]
  · iexact X2
  isplitl [X3]
  · iexact X3
  isplitl [X4]
  · iexact X4
  isplitl [X5]
  · iexact X5
  isplitl [Hi3 Hm3 Ho3]
  · iapply (sfl_of_sentN m d L 3 cc0_scratch6 cc0_scratch12 3 ⟨k.val, q0⟩ hk hw fnb hf0 hfill (k0_off333_eq L k)
      (inb_of_eq L ⟨k.val, q0⟩ (k0_off333_eq L k)) (m (oLoc d)) _ rfl)
    isplitl [Hi3]
    · iexact Hi3
    isplitl [Hm3]
    · iexact Hm3
    · iexact Ho3
  · iexact Hrest

end Cert.Proof.BitsK

end
-- ==== Proof.BitsAll.lean ====
/-
  One worker's whole task, with every trip of its main loop supplied. The loop's sixty-four trips fall into ranges by what
  the look-ahead does (before any store is waited for: trips 0 and 1; the steady range 2 … 59; after the look-ahead has
  stopped: trips 60 … 62; the last trip, which takes its last row from outside the ring, for the two kinds of worker) and,
  within a range, by the rotation of the six-slot ring (the trip number modulo 6). Each is proved in its own module over the
  invariant written for its rotation; here they are gathered into the one statement the worker's task takes.
-/
import proofs.«213455_g39170101740086_cont_8to1_b_302_25_alg».proof.Proof.BitsBody
import proofs.«213455_g39170101740086_cont_8to1_b_302_25_alg».proof.Proof.BitsTripE0
import proofs.«213455_g39170101740086_cont_8to1_b_302_25_alg».proof.Proof.BitsTripE1
import proofs.«213455_g39170101740086_cont_8to1_b_302_25_alg».proof.Proof.BitsTripS0
import proofs.«213455_g39170101740086_cont_8to1_b_302_25_alg».proof.Proof.BitsTripS1
import proofs.«213455_g39170101740086_cont_8to1_b_302_25_alg».proof.Proof.BitsTripS2
import proofs.«213455_g39170101740086_cont_8to1_b_302_25_alg».proof.Proof.BitsTripS3
import proofs.«213455_g39170101740086_cont_8to1_b_302_25_alg».proof.Proof.BitsTripS4
import proofs.«213455_g39170101740086_cont_8to1_b_302_25_alg».proof.Proof.BitsTripS5
import proofs.«213455_g39170101740086_cont_8to1_b_302_25_alg».proof.Proof.BitsTripL0
import proofs.«213455_g39170101740086_cont_8to1_b_302_25_alg».proof.Proof.BitsTripL1
import proofs.«213455_g39170101740086_cont_8to1_b_302_25_alg».proof.Proof.BitsTripL2
import proofs.«213455_g39170101740086_cont_8to1_b_302_25_alg».proof.Proof.BitsTripLastA
import proofs.«213455_g39170101740086_cont_8to1_b_302_25_alg».proof.Proof.BitsTripLastB

-- each trip's statement is matched against the task's statement of it by unfolding both
set_option maxHeartbeats 4000000
set_option maxRecDepth 65536

noncomputable section

namespace Cert.Proof.BitsK
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
variable (m : (ℓ : Loc nD τ sig) → Buf (Elt F) ℓ)
variable [FloatOps F]

/-- Every trip of the loop, by range and rotation. -/
theorem rot_trips : RotTrips (F := F) m where
  early0 := fun d L k hk hhi O W R => tripE0 m d L k hk hhi O W R
  early1 := fun d L k hk hhi O W R => tripE1 m d L k hk hhi O W R
  steady0 := fun d L k hk hlo hhi O W R => tripS0 m d L k hk hlo hhi O W R
  steady1 := fun d L k hk hlo hhi O W R => tripS1 m d L k hk hlo hhi O W R
  steady2 := fun d L k hk hlo hhi O W R => tripS2 m d L k hk hlo hhi O W R
  steady3 := fun d L k hk hlo hhi O W R => tripS3 m d L k hk hlo hhi O W R
  steady4 := fun d L k hk hlo hhi O W R => tripS4 m d L k hk hlo hhi O W R
  steady5 := fun d L k hk hlo hhi O W R => tripS5 m d L k hk hlo hhi O W R
  late0 := fun d L k hk hlo hhi O W R => tripL0 m d L k hk hlo hhi O W R
  late1 := fun d L k hk hlo hhi O W R => tripL1 m d L k hk hlo hhi O W R
  late2 := fun d L k hk hlo hhi O W R => tripL2 m d L k hk hlo hhi O W R
  lastA := fun d L k hk hw inb fbb O W => tripLastA m d L k hk hw inb fbb O W
  lastB := fun d L k hk hw fnb O W => tripLastB m d L k hk hw fnb O W

/-- One worker's task: from its holdings the kernel function runs to its end and leaves the worker's band of the result at
    the result's value. -/
theorem tile_all : TileBody (F := F) m := tile_body m (trips_of_rot m (rot_trips m))

end Cert.Proof.BitsK

end
-- ==== Proof.lean ====
/-
  The proof of `Cert.Claim` — frame_Kernel ∧ frame_KernelIdeal ∧ frame_ReferenceIdeal ∧ preserves_Kernel_KernelIdeal ∧
  algebraic_KernelIdeal_ReferenceIdeal — for the kernel that shifts a 65536-row history by one row.

  THE FUNCTION. From a vector `new` of 512 lanes and an array `mem` of 65536 rows of 512 lanes, the result has row `r`
  equal to row `r + 1` of `mem` for every `r < 65535`, and its last row equal to `new` (`Cert.Spec.shiftRows`,
  Proof/Spec.lean). No element is computed: every element of the result is an element of an argument, moved.

  THE KERNEL. Thirty-two vector subcores (two SparseCores of sixteen) work side by side; subcore `s` of SparseCore `c` is
  worker `w = 2 s + c` and owns the band of rows `2048 w … 2048 w + 2047` of the result. A worker passes its band of `mem`
  through a ring of six 32-row staging buffers, sixty-four chunks of 32 rows, fetching four chunks ahead. In a staged chunk it
  moves rows 1 … 31 up by one row, sixteen lanes at a time, and fills row 31 with the row that follows the chunk in
  `mem`: row 0 of the next chunk (already staged in the next ring slot) inside the band; at the band's last chunk, the first
  row of the next worker's band (fetched apart, as row 0 of an eight-row block starting at row `min (2048 (w + 1)) 65528`,
  which for `w < 31` is row `2048 (w + 1)`), or, for worker 31, the vector `new`. Then it writes the chunk to the same
  rows of the result. So row `r` of the result is row `r + 1` of `mem`, and row 65535 is `new`: the workers' bands are
  disjoint and cover the result, each input is only read (every worker holds a read share of it), and the arguments end as
  they began. Proof/Ideal*.lean prove this once for the program printed as `Cert.KernelIdeal`, for every float instance
  (one worker's task, `tile_all`; the launch that deals the bands and the read shares to the workers and collects them,
  `run_main`); Proof/Bits*.lean are the same text over the program printed as `Cert.Kernel`.

  THE REFERENCE. Two overwriting scatters: the 65535-row slice `mem[1:]` written over rows 0 … 65534 of `mem`, then `new`
  written over row 65535. Read at one index each scatter is decided by the one update index that lands there
  (Proof/RefValue.lean): the result is `shiftRows new mem` again.

  WHY THEY AGREE. Both programs end with their result at `shiftRows` of their own arguments; from memories that agree on the
  arguments these are one array. The two frames of the kernel and the frame of the reference are the same runs with the
  value forgotten. Nothing is added, multiplied or compared, so the precondition (finite inputs) is not used, and the
  idealization rewrote no operation (`preserves` is `True`).
-/
import proofs.«213455_g39170101740086_cont_8to1_b_302_25_alg».proof.Defs
import proofs.«213455_g39170101740086_cont_8to1_b_302_25_alg».proof.Proof.Gen.Kernel
import proofs.«213455_g39170101740086_cont_8to1_b_302_25_alg».proof.Proof.Gen.Kernel.Skeleton
import proofs.«213455_g39170101740086_cont_8to1_b_302_25_alg».proof.Proof.Gen.KernelIdeal
import proofs.«213455_g39170101740086_cont_8to1_b_302_25_alg».proof.Proof.Gen.KernelIdeal.Skeleton
import proofs.«213455_g39170101740086_cont_8to1_b_302_25_alg».proof.Proof.Gen.ReferenceIdeal
import proofs.«213455_g39170101740086_cont_8to1_b_302_25_alg».proof.Proof.Gen.Pre_finite_inputs
import proofs.«213455_g39170101740086_cont_8to1_b_302_25_alg».proof.Proof.Spec
import proofs.«213455_g39170101740086_cont_8to1_b_302_25_alg».proof.Proof.RefValue
import proofs.«213455_g39170101740086_cont_8to1_b_302_25_alg».proof.Proof.IdealLaunch
import proofs.«213455_g39170101740086_cont_8to1_b_302_25_alg».proof.Proof.IdealAll
import proofs.«213455_g39170101740086_cont_8to1_b_302_25_alg».proof.Proof.BitsLaunch
import proofs.«213455_g39170101740086_cont_8to1_b_302_25_alg».proof.Proof.BitsAll
import Idealize.ShloMosaic.Adequacy
import Idealize.ShloMosaic.Init

noncomputable section

namespace Cert.Proof

open Idealize.ShloMosaic Idealize.ShloMosaic.TcCoe Idealize.SL.Sem

/-- The kernel as printed, at the word-level instance: it runs to the end and its arguments end unchanged (its run with the
    result's value forgotten). -/
theorem frame_p : Cert.frame_Kernel := fun m ρ _ =>
  (θ_run Cert.Kernel.defs _ _).mono (fun _ h c => (h c).2)
    (Cert.Proof.BitsK.run_main (F := Bits) m ρ (Cert.Proof.BitsK.tile_all m))

/-- The same of the idealized kernel, at the ideal instance. -/
theorem frame_pi : Cert.frame_KernelIdeal := fun m ρ _ =>
  (θ_run Cert.KernelIdeal.defs _ _).mono (fun _ h c => (h c).2)
    (Cert.Proof.IdealK.run_main (F := Ideal) m ρ (Cert.Proof.IdealK.tile_all m))

/-- The reference runs to the end and its arguments end unchanged (its run with the result's value forgotten). -/
theorem frame_ri : Cert.frame_ReferenceIdeal := fun m ρ _ =>
  (θ_run Cert.ReferenceIdeal.defs _ _).mono (fun _ h c => (h c).2) (Cert.RefValue.ref_run m ρ)

/-- The idealization rewrote no operation. -/
theorem preserves : Cert.preserves_Kernel_KernelIdeal := trivial

/-- At the ideal instance the kernel's result ends at `shiftRows` of its arguments (each worker's band, dealt and collected
    by the launch) and the reference's at `shiftRows` of its own (the two scatters read index by index); the arguments agree,
    so the results are one array. -/
theorem algebraic : Cert.algebraic_KernelIdeal_ReferenceIdeal := by
  intro m ρ m' ρ' _ hagree
  refine ⟨fun c => Cert.Proof.IdealK.Gout m c,
    Cert.Proof.IdealK.run_main (F := Ideal) m ρ (Cert.Proof.IdealK.tile_all m), ?_⟩
  refine (θ_run Cert.ReferenceIdeal.defs _ _).mono (fun _ h c => ⟨(h c).1.trans ?_, (h c).2⟩)
    (Cert.RefValue.ref_run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
